-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v127)) (v1 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_v134) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4x1024 : Shape := ⟨3, ![128, 4, 1024]⟩
abbrev S128x4 : Shape := ⟨2, ![128, 4]⟩
abbrev S3x1024 : Shape := ⟨2, ![3, 1024]⟩
abbrev S3 : Shape := ⟨1, ![3]⟩
abbrev S1024x1024 : Shape := ⟨2, ![1024, 1024]⟩
abbrev S256x1024 : Shape := ⟨2, ![256, 1024]⟩
abbrev S64x1024 : Shape := ⟨2, ![64, 1024]⟩
abbrev S16x1024 : Shape := ⟨2, ![16, 1024]⟩
abbrev S20000x1024 : Shape := ⟨2, ![20000, 1024]⟩
abbrev S20000x256 : Shape := ⟨2, ![20000, 256]⟩
abbrev S160000x64 : Shape := ⟨2, ![160000, 64]⟩
abbrev S67735x16 : Shape := ⟨2, ![67735, 16]⟩
abbrev S20000 : Shape := ⟨1, ![20000]⟩
abbrev S160000 : Shape := ⟨1, ![160000]⟩
abbrev S67735 : Shape := ⟨1, ![67735]⟩
abbrev S_ : Shape := ⟨0, ![]⟩

class Facts : Prop where
  bcast_S_S128x4x1024 : S_.BroadcastsInDim S128x4x1024 (![] : Fin 0 → Fin S128x4x1024.rank)
  reducesTo_S128x4x1024_S_d0_1_2 : S128x4x1024.ReducesTo [0, 1, 2] S_
  h_S_ : 0 < S_.numel
  bcast_S_S3x1024 : S_.BroadcastsInDim S3x1024 (![] : Fin 0 → Fin S3x1024.rank)
  reducesTo_S3x1024_S_d0_1 : S3x1024.ReducesTo [0, 1] S_
  bcast_S_S3 : S_.BroadcastsInDim S3 (![] : Fin 0 → Fin S3.rank)
  reducesTo_S3_S_d0 : S3.ReducesTo [0] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S64x1024 : S_.BroadcastsInDim S64x1024 (![] : Fin 0 → Fin S64x1024.rank)
  reducesTo_S64x1024_S_d0_1 : S64x1024.ReducesTo [0, 1] S_
  bcast_S_S16x1024 : S_.BroadcastsInDim S16x1024 (![] : Fin 0 → Fin S16x1024.rank)
  reducesTo_S16x1024_S_d0_1 : S16x1024.ReducesTo [0, 1] S_
  bcast_S_S20000x1024 : S_.BroadcastsInDim S20000x1024 (![] : Fin 0 → Fin S20000x1024.rank)
  reducesTo_S20000x1024_S_d0_1 : S20000x1024.ReducesTo [0, 1] S_
  bcast_S_S20000x256 : S_.BroadcastsInDim S20000x256 (![] : Fin 0 → Fin S20000x256.rank)
  reducesTo_S20000x256_S_d0_1 : S20000x256.ReducesTo [0, 1] S_
  bcast_S_S160000x64 : S_.BroadcastsInDim S160000x64 (![] : Fin 0 → Fin S160000x64.rank)
  reducesTo_S160000x64_S_d0_1 : S160000x64.ReducesTo [0, 1] S_
  bcast_S_S67735x16 : S_.BroadcastsInDim S67735x16 (![] : Fin 0 → Fin S67735x16.rank)
  reducesTo_S67735x16_S_d0_1 : S67735x16.ReducesTo [0, 1] S_
  bcast_S_S20000 : S_.BroadcastsInDim S20000 (![] : Fin 0 → Fin S20000.rank)
  reducesTo_S20000_S_d0 : S20000.ReducesTo [0] S_
  bcast_S_S160000 : S_.BroadcastsInDim S160000 (![] : Fin 0 → Fin S160000.rank)
  reducesTo_S160000_S_d0 : S160000.ReducesTo [0] S_
  bcast_S_S67735 : S_.BroadcastsInDim S67735 (![] : Fin 0 → Fin S67735.rank)
  reducesTo_S67735_S_d0 : S67735.ReducesTo [0] S_

variable [Facts]

def fn_part4 {F : FTy → Type} [FloatOps F] (main_arg15 : FVec F S67735 .f32) (main_v63 : IVec S_ 1) (main_v67 : IVec S_ 1) : IVec S_ 1 :=
  let main_v68 : IVec S_ 1 := andi main_v63 main_v67
  let main_v69 : FVec F S67735 .f32 := Host.absf main_arg15
  let main_cst_26 : FVec F S_ .f32 := constant S_ .f32 0x7F800000#32
  let main_v70 : FVec F S67735 .f32 := broadcastInDim S67735 ![] bcast_S_S67735 main_cst_26
  let main_v71 : IVec S67735 1 := cmpf .olt main_v69 main_v70
  let main_c_27 : IVec S_ 1 := constantI S_ 1 1#1
  let main_v72 : IVec S_ 1 := (fun x v => Host.reduce IntOp.andi x v reducesTo_S67735_S_d0 h_S_) main_v71 main_c_27
  let main_v73 : IVec S_ 1 := andi main_v68 main_v72
  main_v73

def fn_part3 {F : FTy → Type} [FloatOps F] (main_arg12 : FVec F S20000 .f32) (main_arg13 : FVec F S20000 .f32) (main_arg14 : FVec F S160000 .f32) (main_arg15 : FVec F S67735 .f32) (main_v48 : IVec S_ 1) (main_v49 : FVec F S67735x16 .f32) (main_v50 : FVec F S67735x16 .f32) : IVec S_ 1 :=
  let main_v51 : IVec S67735x16 1 := cmpf .olt main_v49 main_v50
  let main_c_19 : IVec S_ 1 := constantI S_ 1 1#1
  let main_v52 : IVec S_ 1 := (fun x v => Host.reduce IntOp.andi x v reducesTo_S67735x16_S_d0_1 h_S_) main_v51 main_c_19
  let main_v53 : IVec S_ 1 := andi main_v48 main_v52
  let main_v54 : FVec F S20000 .f32 := Host.absf main_arg12
  let main_cst_20 : FVec F S_ .f32 := constant S_ .f32 0x7F800000#32
  let main_v55 : FVec F S20000 .f32 := broadcastInDim S20000 ![] bcast_S_S20000 main_cst_20
  let main_v56 : IVec S20000 1 := cmpf .olt main_v54 main_v55
  let main_c_21 : IVec S_ 1 := constantI S_ 1 1#1
  let main_v57 : IVec S_ 1 := (fun x v => Host.reduce IntOp.andi x v reducesTo_S20000_S_d0 h_S_) main_v56 main_c_21
  let main_v58 : IVec S_ 1 := andi main_v53 main_v57
  let main_v59 : FVec F S20000 .f32 := Host.absf main_arg13
  let main_cst_22 : FVec F S_ .f32 := constant S_ .f32 0x7F800000#32
  let main_v60 : FVec F S20000 .f32 := broadcastInDim S20000 ![] bcast_S_S20000 main_cst_22
  let main_v61 : IVec S20000 1 := cmpf .olt main_v59 main_v60
  let main_c_23 : IVec S_ 1 := constantI S_ 1 1#1
  let main_v62 : IVec S_ 1 := (fun x v => Host.reduce IntOp.andi x v reducesTo_S20000_S_d0 h_S_) main_v61 main_c_23
  let main_v63 : IVec S_ 1 := andi main_v58 main_v62
  let main_v64 : FVec F S160000 .f32 := Host.absf main_arg14
  let main_cst_24 : FVec F S_ .f32 := constant S_ .f32 0x7F800000#32
  let main_v65 : FVec F S160000 .f32 := broadcastInDim S160000 ![] bcast_S_S160000 main_cst_24
  let main_v66 : IVec S160000 1 := cmpf .olt main_v64 main_v65
  let main_c_25 : IVec S_ 1 := constantI S_ 1 1#1
  let main_v67 : IVec S_ 1 := (fun x v => Host.reduce IntOp.andi x v reducesTo_S160000_S_d0 h_S_) main_v66 main_c_25
  fn_part4 (F := F) main_arg15 main_v63 main_v67

def fn_part2 {F : FTy → Type} [FloatOps F] (main_arg8 : FVec F S20000x1024 .f32) (main_arg9 : FVec F S20000x256 .f32) (main_arg10 : FVec F S160000x64 .f32) (main_arg11 : FVec F S67735x16 .f32) (main_arg12 : FVec F S20000 .f32) (main_arg13 : FVec F S20000 .f32) (main_arg14 : FVec F S160000 .f32) (main_arg15 : FVec F S67735 .f32) (main_v33 : IVec S_ 1) : IVec S_ 1 :=
  let main_v34 : FVec F S20000x1024 .f32 := Host.absf main_arg8
  let main_cst_12 : FVec F S_ .f32 := constant S_ .f32 0x7F800000#32
  let main_v35 : FVec F S20000x1024 .f32 := broadcastInDim S20000x1024 ![] bcast_S_S20000x1024 main_cst_12
  let main_v36 : IVec S20000x1024 1 := cmpf .olt main_v34 main_v35
  let main_c_13 : IVec S_ 1 := constantI S_ 1 1#1
  let main_v37 : IVec S_ 1 := (fun x v => Host.reduce IntOp.andi x v reducesTo_S20000x1024_S_d0_1 h_S_) main_v36 main_c_13
  let main_v38 : IVec S_ 1 := andi main_v33 main_v37
  let main_v39 : FVec F S20000x256 .f32 := Host.absf main_arg9
  let main_cst_14 : FVec F S_ .f32 := constant S_ .f32 0x7F800000#32
  let main_v40 : FVec F S20000x256 .f32 := broadcastInDim S20000x256 ![] bcast_S_S20000x256 main_cst_14
  let main_v41 : IVec S20000x256 1 := cmpf .olt main_v39 main_v40
  let main_c_15 : IVec S_ 1 := constantI S_ 1 1#1
  let main_v42 : IVec S_ 1 := (fun x v => Host.reduce IntOp.andi x v reducesTo_S20000x256_S_d0_1 h_S_) main_v41 main_c_15
  let main_v43 : IVec S_ 1 := andi main_v38 main_v42
  let main_v44 : FVec F S160000x64 .f32 := Host.absf main_arg10
  let main_cst_16 : FVec F S_ .f32 := constant S_ .f32 0x7F800000#32
  let main_v45 : FVec F S160000x64 .f32 := broadcastInDim S160000x64 ![] bcast_S_S160000x64 main_cst_16
  let main_v46 : IVec S160000x64 1 := cmpf .olt main_v44 main_v45
  let main_c_17 : IVec S_ 1 := constantI S_ 1 1#1
  let main_v47 : IVec S_ 1 := (fun x v => Host.reduce IntOp.andi x v reducesTo_S160000x64_S_d0_1 h_S_) main_v46 main_c_17
  let main_v48 : IVec S_ 1 := andi main_v43 main_v47
  let main_v49 : FVec F S67735x16 .f32 := Host.absf main_arg11
  let main_cst_18 : FVec F S_ .f32 := constant S_ .f32 0x7F800000#32
  let main_v50 : FVec F S67735x16 .f32 := broadcastInDim S67735x16 ![] bcast_S_S67735x16 main_cst_18
  fn_part3 (F := F) main_arg12 main_arg13 main_arg14 main_arg15 main_v48 main_v49 main_v50

def fn_part1 {F : FTy → Type} [FloatOps F] (main_arg5 : FVec F S256x1024 .f32) (main_arg6 : FVec F S64x1024 .f32) (main_arg7 : FVec F S16x1024 .f32) (main_arg8 : FVec F S20000x1024 .f32) (main_arg9 : FVec F S20000x256 .f32) (main_arg10 : FVec F S160000x64 .f32) (main_arg11 : FVec F S67735x16 .f32) (main_arg12 : FVec F S20000 .f32) (main_arg13 : FVec F S20000 .f32) (main_arg14 : FVec F S160000 .f32) (main_arg15 : FVec F S67735 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S256x1024 .f32 := Host.absf main_arg5
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S64x1024 .f32 := Host.absf main_arg6
  let main_cst_8 : FVec F S_ .f32 := constant S_ .f32 0x7F800000#32
  let main_v25 : FVec F S64x1024 .f32 := broadcastInDim S64x1024 ![] bcast_S_S64x1024 main_cst_8
  let main_v26 : IVec S64x1024 1 := cmpf .olt main_v24 main_v25
  let main_c_9 : IVec S_ 1 := constantI S_ 1 1#1
  let main_v27 : IVec S_ 1 := (fun x v => Host.reduce IntOp.andi x v reducesTo_S64x1024_S_d0_1 h_S_) main_v26 main_c_9
  let main_v28 : IVec S_ 1 := andi main_v23 main_v27
  let main_v29 : FVec F S16x1024 .f32 := Host.absf main_arg7
  let main_cst_10 : FVec F S_ .f32 := constant S_ .f32 0x7F800000#32
  let main_v30 : FVec F S16x1024 .f32 := broadcastInDim S16x1024 ![] bcast_S_S16x1024 main_cst_10
  let main_v31 : IVec S16x1024 1 := cmpf .olt main_v29 main_v30
  let main_c_11 : IVec S_ 1 := constantI S_ 1 1#1
  let main_v32 : IVec S_ 1 := (fun x v => Host.reduce IntOp.andi x v reducesTo_S16x1024_S_d0_1 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S128x4x1024 .f32) (main_arg1 : IVec S128x4 32) (main_arg2 : FVec F S3x1024 .f32) (main_arg3 : FVec F S3 .f32) (main_arg4 : FVec F S1024x1024 .f32) (main_arg5 : FVec F S256x1024 .f32) (main_arg6 : FVec F S64x1024 .f32) (main_arg7 : FVec F S16x1024 .f32) (main_arg8 : FVec F S20000x1024 .f32) (main_arg9 : FVec F S20000x256 .f32) (main_arg10 : FVec F S160000x64 .f32) (main_arg11 : FVec F S67735x16 .f32) (main_arg12 : FVec F S20000 .f32) (main_arg13 : FVec F S20000 .f32) (main_arg14 : FVec F S160000 .f32) (main_arg15 : FVec F S67735 .f32) : IVec S_ 1 :=
  let main_v0 : FVec F S128x4x1024 .f32 := Host.absf main_arg0
  let main_cst : FVec F S_ .f32 := constant S_ .f32 0x7F800000#32
  let main_v1 : FVec F S128x4x1024 .f32 := broadcastInDim S128x4x1024 ![] bcast_S_S128x4x1024 main_cst
  let main_v2 : IVec S128x4x1024 1 := cmpf .olt main_v0 main_v1
  let main_c : IVec S_ 1 := constantI S_ 1 1#1
  let main_v3 : IVec S_ 1 := (fun x v => Host.reduce IntOp.andi x v reducesTo_S128x4x1024_S_d0_1_2 h_S_) main_v2 main_c
  let main_v4 : FVec F S3x1024 .f32 := Host.absf main_arg2
  let main_cst_0 : FVec F S_ .f32 := constant S_ .f32 0x7F800000#32
  let main_v5 : FVec F S3x1024 .f32 := broadcastInDim S3x1024 ![] bcast_S_S3x1024 main_cst_0
  let main_v6 : IVec S3x1024 1 := cmpf .olt main_v4 main_v5
  let main_c_1 : IVec S_ 1 := constantI S_ 1 1#1
  let main_v7 : IVec S_ 1 := (fun x v => Host.reduce IntOp.andi x v reducesTo_S3x1024_S_d0_1 h_S_) main_v6 main_c_1
  let main_v8 : IVec S_ 1 := andi main_v3 main_v7
  let main_v9 : FVec F S3 .f32 := Host.absf main_arg3
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S128x4x1024 : Shape := ⟨3, ![128, 4, 1024]⟩
abbrev S128x4 : Shape := ⟨2, ![128, 4]⟩
abbrev S3x1024 : Shape := ⟨2, ![3, 1024]⟩
abbrev S3 : Shape := ⟨1, ![3]⟩
abbrev S1024x1024 : Shape := ⟨2, ![1024, 1024]⟩
abbrev S256x1024 : Shape := ⟨2, ![256, 1024]⟩
abbrev S64x1024 : Shape := ⟨2, ![64, 1024]⟩
abbrev S16x1024 : Shape := ⟨2, ![16, 1024]⟩
abbrev S20000x1024 : Shape := ⟨2, ![20000, 1024]⟩
abbrev S20000x256 : Shape := ⟨2, ![20000, 256]⟩
abbrev S160000x64 : Shape := ⟨2, ![160000, 64]⟩
abbrev S67735x16 : Shape := ⟨2, ![67735, 16]⟩
abbrev S20000 : Shape := ⟨1, ![20000]⟩
abbrev S160000 : Shape := ⟨1, ![160000]⟩
abbrev S67735 : Shape := ⟨1, ![67735]⟩
abbrev S512x1024 : Shape := ⟨2, ![512, 1024]⟩
abbrev S_ : Shape := ⟨0, ![]⟩
abbrev S20480x1024 : Shape := ⟨2, ![20480, 1024]⟩
abbrev S20480 : Shape := ⟨1, ![20480]⟩
abbrev S1x20480 : Shape := ⟨2, ![1, 20480]⟩
abbrev S2x512x1 : Shape := ⟨3, ![2, 512, 1]⟩
abbrev S2048x1024 : Shape := ⟨2, ![2048, 1024]⟩
abbrev S1x2048 : Shape := ⟨2, ![1, 2048]⟩
abbrev S1x512x1 : Shape := ⟨3, ![1, 512, 1]⟩
abbrev S512x1 : Shape := ⟨2, ![512, 1]⟩
abbrev S512x2048 : Shape := ⟨2, ![512, 2048]⟩
abbrev S512 : Shape := ⟨1, ![512]⟩
abbrev S512x3 : Shape := ⟨2, ![512, 3]⟩
abbrev S1x3 : Shape := ⟨2, ![1, 3]⟩
abbrev S512x20480 : Shape := ⟨2, ![512, 20480]⟩
abbrev S512x20000 : Shape := ⟨2, ![512, 20000]⟩
abbrev S20480x256 : Shape := ⟨2, ![20480, 256]⟩
abbrev S2048x256 : Shape := ⟨2, ![2048, 256]⟩
abbrev S512x256 : Shape := ⟨2, ![512, 256]⟩
abbrev S163840x64 : Shape := ⟨2, ![163840, 64]⟩
abbrev S163840 : Shape := ⟨1, ![163840]⟩
abbrev S1x163840 : Shape := ⟨2, ![1, 163840]⟩
abbrev S4096x64 : Shape := ⟨2, ![4096, 64]⟩
abbrev S1x4096 : Shape := ⟨2, ![1, 4096]⟩
abbrev S512x64 : Shape := ⟨2, ![512, 64]⟩
abbrev S512x4096 : Shape := ⟨2, ![512, 4096]⟩
abbrev S512x163840 : Shape := ⟨2, ![512, 163840]⟩
abbrev S512x160000 : Shape := ⟨2, ![512, 160000]⟩
abbrev S73728x16 : Shape := ⟨2, ![73728, 16]⟩
abbrev S73728 : Shape := ⟨1, ![73728]⟩
abbrev S1x73728 : Shape := ⟨2, ![1, 73728]⟩
abbrev S4096x16 : Shape := ⟨2, ![4096, 16]⟩
abbrev S512x16 : Shape := ⟨2, ![512, 16]⟩
abbrev S512x73728 : Shape := ⟨2, ![512, 73728]⟩
abbrev S512x67735 : Shape := ⟨2, ![512, 67735]⟩
abbrev S512x267735 : Shape := ⟨2, ![512, 267735]⟩
abbrev S128x4x267735 : Shape := ⟨3, ![128, 4, 267735]⟩
abbrev S512x1x1 : Shape := ⟨3, ![512, 1, 1]⟩
abbrev S1 : Shape := ⟨1, ![1]⟩
abbrev S1x1x1 : Shape := ⟨3, ![1, 1, 1]⟩

abbrev nBuf : Space → Nat
  | .hbm => 197
  | .vmem => 92
  | .smem => 0
  | _ => 0

abbrev hbmTy0_0 (i : Nat) : BufTy := match i % 128 with
  | 0 => ⟨S128x4x1024, .f32⟩
  | 1 => ⟨S128x4, .i32⟩
  | 2 => ⟨S3x1024, .f32⟩
  | 3 => ⟨S3, .f32⟩
  | 4 => ⟨S1024x1024, .f32⟩
  | 5 => ⟨S256x1024, .f32⟩
  | 6 => ⟨S64x1024, .f32⟩
  | 7 => ⟨S16x1024, .f32⟩
  | 8 => ⟨S20000x1024, .f32⟩
  | 9 => ⟨S20000x256, .f32⟩
  | 10 => ⟨S160000x64, .f32⟩
  | 11 => ⟨S67735x16, .f32⟩
  | 12 => ⟨S20000, .f32⟩
  | 13 => ⟨S20000, .f32⟩
  | 14 => ⟨S160000, .f32⟩
  | 15 => ⟨S67735, .f32⟩
  | 16 => ⟨S512x1024, .f32⟩
  | 17 => ⟨S512x1024, .bf16⟩
  | 18 => ⟨S1024x1024, .bf16⟩
  | 19 => ⟨S_, .i32⟩
  | 20 => ⟨S_, .f32⟩
  | 21 => ⟨S20480x1024, .f32⟩
  | 22 => ⟨S20480x1024, .bf16⟩
  | 23 => ⟨S_, .i32⟩
  | 24 => ⟨S_, .f32⟩
  | 25 => ⟨S20480, .f32⟩
  | 26 => ⟨S1x20480, .f32⟩
  | 27 => ⟨S2x512x1, .f32⟩
  | 28 => ⟨S2x512x1, .f32⟩
  | 29 => ⟨S1x512x1, .f32⟩
  | 30 => ⟨S512x1, .f32⟩
  | 31 => ⟨S1x512x1, .f32⟩
  | 32 => ⟨S512x1, .f32⟩
  | 33 => ⟨S1x512x1, .f32⟩
  | 34 => ⟨S512x1, .f32⟩
  | 35 => ⟨S1x512x1, .f32⟩
  | 36 => ⟨S512x1, .f32⟩
  | 37 => ⟨S512x1, .f32⟩
  | 38 => ⟨S512x1, .f32⟩
  | 39 => ⟨S512x1, .f32⟩
  | 40 => ⟨S512x1, .f32⟩
  | 41 => ⟨S512x1, .f32⟩
  | 42 => ⟨S512x1, .f32⟩
  | 43 => ⟨S512x1, .f32⟩
  | 44 => ⟨S512x1, .f32⟩
  | 45 => ⟨S512x1024, .f32⟩
  | 46 => ⟨S512x1024, .bf16⟩
  | 47 => ⟨S3x1024, .bf16⟩
  | 48 => ⟨S512x3, .f32⟩
  | 49 => ⟨S1x3, .f32⟩
  | 50 => ⟨S512x3, .f32⟩
  | 51 => ⟨S512x3, .f32⟩
  | 52 => ⟨S_, .f32⟩
  | 53 => ⟨S512, .f32⟩
  | 54 => ⟨S512x1, .f32⟩
  | 55 => ⟨S512x1, .f32⟩
  | 56 => ⟨S512x1, .f32⟩
  | 57 => ⟨S512x1, .f32⟩
  | 58 => ⟨S512x1, .f32⟩
  | 59 => ⟨S512x3, .f32⟩
  | 60 => ⟨S512x3, .f32⟩
  | 61 => ⟨S512x3, .f32⟩
  | 62 => ⟨S_, .f32⟩
  | 63 => ⟨S512, .f32⟩
  | 64 => ⟨S512x1, .f32⟩
  | 65 => ⟨S512x1, .f32⟩
  | 66 => ⟨S512x3, .f32⟩
  | 67 => ⟨S512x3, .f32⟩
  | 68 => ⟨S512x1, .f32⟩
  | 69 => ⟨S512x3, .f32⟩
  | 70 => ⟨S512x3, .f32⟩
  | 71 => ⟨S_, .f32⟩
  | 72 => ⟨S512x1, .f32⟩
  | 73 => ⟨S512x20480, .f32⟩
  | 74 => ⟨S512x20000, .f32⟩
  | 75 => ⟨S256x1024, .bf16⟩
  | 76 => ⟨S_, .i32⟩
  | 77 => ⟨S_, .f32⟩
  | 78 => ⟨S20480x256, .f32⟩
  | 79 => ⟨S20480x256, .bf16⟩
  | 80 => ⟨S_, .i32⟩
  | 81 => ⟨S_, .f32⟩
  | 82 => ⟨S20480, .f32⟩
  | 83 => ⟨S1x20480, .f32⟩
  | 84 => ⟨S2x512x1, .f32⟩
  | 85 => ⟨S2x512x1, .f32⟩
  | 86 => ⟨S1x512x1, .f32⟩
  | 87 => ⟨S512x1, .f32⟩
  | 88 => ⟨S1x512x1, .f32⟩
  | 89 => ⟨S512x1, .f32⟩
  | 90 => ⟨S1x512x1, .f32⟩
  | 91 => ⟨S512x1, .f32⟩
  | 92 => ⟨S1x512x1, .f32⟩
  | 93 => ⟨S512x1, .f32⟩
  | 94 => ⟨S512x1, .f32⟩
  | 95 => ⟨S512x1, .f32⟩
  | 96 => ⟨S512x1, .f32⟩
  | 97 => ⟨S512x1, .f32⟩
  | 98 => ⟨S512x1, .f32⟩
  | 99 => ⟨S512x1, .f32⟩
  | 100 => ⟨S512x1, .f32⟩
  | 101 => ⟨S512x1, .f32⟩
  | 102 => ⟨S512x1, .f32⟩
  | 103 => ⟨S512x20480, .f32⟩
  | 104 => ⟨S512x20000, .f32⟩
  | 105 => ⟨S64x1024, .bf16⟩
  | 106 => ⟨S_, .i32⟩
  | 107 => ⟨S_, .f32⟩
  | 108 => ⟨S163840x64, .f32⟩
  | 109 => ⟨S163840x64, .bf16⟩
  | 110 => ⟨S_, .i32⟩
  | 111 => ⟨S_, .f32⟩
  | 112 => ⟨S163840, .f32⟩
  | 113 => ⟨S1x163840, .f32⟩
  | 114 => ⟨S2x512x1, .f32⟩
  | 115 => ⟨S2x512x1, .f32⟩
  | 116 => ⟨S1x512x1, .f32⟩
  | 117 => ⟨S512x1, .f32⟩
  | 118 => ⟨S1x512x1, .f32⟩
  | 119 => ⟨S512x1, .f32⟩
  | 120 => ⟨S1x512x1, .f32⟩
  | 121 => ⟨S512x1, .f32⟩
  | 122 => ⟨S1x512x1, .f32⟩
  | 123 => ⟨S512x1, .f32⟩
  | 124 => ⟨S512x1, .f32⟩
  | 125 => ⟨S512x1, .f32⟩
  | 126 => ⟨S512x1, .f32⟩
  | 127 => ⟨S512x1, .f32⟩
  | _ => ⟨S128x4x1024, .f32⟩

abbrev hbmTy0_1 (i : Nat) : BufTy := match i % 128 with
  | 0 => ⟨S512x1, .f32⟩
  | 1 => ⟨S512x1, .f32⟩
  | 2 => ⟨S512x1, .f32⟩
  | 3 => ⟨S512x1, .f32⟩
  | 4 => ⟨S512x1, .f32⟩
  | 5 => ⟨S512x163840, .f32⟩
  | 6 => ⟨S512x160000, .f32⟩
  | 7 => ⟨S16x1024, .bf16⟩
  | 8 => ⟨S_, .i32⟩
  | 9 => ⟨S_, .f32⟩
  | 10 => ⟨S73728x16, .f32⟩
  | 11 => ⟨S73728x16, .bf16⟩
  | 12 => ⟨S_, .i32⟩
  | 13 => ⟨S_, .f32⟩
  | 14 => ⟨S73728, .f32⟩
  | 15 => ⟨S1x73728, .f32⟩
  | 16 => ⟨S2x512x1, .f32⟩
  | 17 => ⟨S2x512x1, .f32⟩
  | 18 => ⟨S1x512x1, .f32⟩
  | 19 => ⟨S512x1, .f32⟩
  | 20 => ⟨S1x512x1, .f32⟩
  | 21 => ⟨S512x1, .f32⟩
  | 22 => ⟨S1x512x1, .f32⟩
  | 23 => ⟨S512x1, .f32⟩
  | 24 => ⟨S1x512x1, .f32⟩
  | 25 => ⟨S512x1, .f32⟩
  | 26 => ⟨S512x1, .f32⟩
  | 27 => ⟨S512x1, .f32⟩
  | 28 => ⟨S512x1, .f32⟩
  | 29 => ⟨S512x1, .f32⟩
  | 30 => ⟨S512x1, .f32⟩
  | 31 => ⟨S512x1, .f32⟩
  | 32 => ⟨S512x1, .f32⟩
  | 33 => ⟨S512x1, .f32⟩
  | 34 => ⟨S512x1, .f32⟩
  | 35 => ⟨S512x73728, .f32⟩
  | 36 => ⟨S512x67735, .f32⟩
  | 37 => ⟨S512x267735, .f32⟩
  | 38 => ⟨S128x4x267735, .f32⟩
  | 39 => ⟨S512, .i32⟩
  | 40 => ⟨S512x1, .i32⟩
  | 41 => ⟨S_, .i32⟩
  | 42 => ⟨S512x1, .i32⟩
  | 43 => ⟨S512x1, .i1⟩
  | 44 => ⟨S_, .i32⟩
  | 45 => ⟨S512x1, .i32⟩
  | 46 => ⟨S512x1, .i32⟩
  | 47 => ⟨S512x1, .i32⟩
  | 48 => ⟨S512x1x1, .i32⟩
  | 49 => ⟨S1, .i32⟩
  | 50 => ⟨S_, .i32⟩
  | 51 => ⟨S512x1x1, .i32⟩
  | 52 => ⟨S512x1x1, .i1⟩
  | 53 => ⟨S1x1x1, .i32⟩
  | 54 => ⟨S512x1x1, .i32⟩
  | 55 => ⟨S512x1x1, .i1⟩
  | 56 => ⟨S512x1x1, .i1⟩
  | 57 => ⟨S_, .i1⟩
  | 58 => ⟨S512x1, .i1⟩
  | 59 => ⟨S512x1, .f32⟩
  | 60 => ⟨S_, .f32⟩
  | 61 => ⟨S512x1, .f32⟩
  | 62 => ⟨S512x1, .f32⟩
  | 63 => ⟨S512, .f32⟩
  | 64 => ⟨S512, .f32⟩
  | 65 => ⟨S_, .f32⟩
  | 66 => ⟨S_, .f32⟩
  | 67 => ⟨S_, .f32⟩
  | 68 => ⟨S_, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048, .f32⟩
  | .local _ .vmem, ⟨5, _⟩ => ⟨S1x2048, .f32⟩
  | .local _ .vmem, ⟨6, _⟩ => ⟨S1x512x1, .f32⟩
  | .local _ .vmem, ⟨7, _⟩ => ⟨S1x512x1, .f32⟩
  | .local _ .vmem, ⟨8, _⟩ => ⟨S1x512x1, .f32⟩
  | .local _ .vmem, ⟨9, _⟩ => ⟨S1x512x1, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S2048x1024, .bf16⟩
  | .local _ .vmem, ⟨14, _⟩ => ⟨S2048x1024, .bf16⟩
  | .local _ .vmem, ⟨15, _⟩ => ⟨S1x2048, .f32⟩
  | .local _ .vmem, ⟨16, _⟩ => ⟨S1x2048, .f32⟩
  | .local _ .vmem, ⟨17, _⟩ => ⟨S512x1, .f32⟩
  | .local _ .vmem, ⟨18, _⟩ => ⟨S512x1, .f32⟩
  | .local _ .vmem, ⟨19, _⟩ => ⟨S512x1, .f32⟩
  | .local _ .vmem, ⟨20, _⟩ => ⟨S512x2048, .f32⟩
  | .local _ .vmem, ⟨21, _⟩ => ⟨S512x2048, .f32⟩
  | .local _ .vmem, ⟨22, _⟩ => ⟨S512x1024, .bf16⟩
  | .local _ .vmem, ⟨23, _⟩ => ⟨S512x1024, .bf16⟩
  | .local _ .vmem, ⟨24, _⟩ => ⟨S256x1024, .bf16⟩
  | .local _ .vmem, ⟨25, _⟩ => ⟨S2048x256, .bf16⟩
  | .local _ .vmem, ⟨26, _⟩ => ⟨S2048x256, .bf16⟩
  | .local _ .vmem, ⟨27, _⟩ => ⟨S1x2048, .f32⟩
  | .local _ .vmem, ⟨28, _⟩ => ⟨S1x2048, .f32⟩
  | .local _ .vmem, ⟨29, _⟩ => ⟨S1x512x1, .f32⟩
  | .local _ .vmem, ⟨30, _⟩ => ⟨S1x512x1, .f32⟩
  | .local _ .vmem, ⟨31, _⟩ => ⟨S1x512x1, .f32⟩
  | .local _ .vmem, ⟨32, _⟩ => ⟨S1x512x1, .f32⟩
  | .local _ .vmem, ⟨33, _⟩ => ⟨S512x256, .bf16⟩
  | .local _ .vmem, ⟨34, _⟩ => ⟨S512x1024, .bf16⟩
  | .local _ .vmem, ⟨35, _⟩ => ⟨S256x1024, .bf16⟩
  | .local _ .vmem, ⟨36, _⟩ => ⟨S2048x256, .bf16⟩
  | .local _ .vmem, ⟨37, _⟩ => ⟨S2048x256, .bf16⟩
  | .local _ .vmem, ⟨38, _⟩ => ⟨S1x2048, .f32⟩
  | .local _ .vmem, ⟨39, _⟩ => ⟨S1x2048, .f32⟩
  | .local _ .vmem, ⟨40, _⟩ => ⟨S512x1, .f32⟩
  | .local _ .vmem, ⟨41, _⟩ => ⟨S512x1, .f32⟩
  | .local _ .vmem, ⟨42, _⟩ => ⟨S512x1, .f32⟩
  | .local _ .vmem, ⟨43, _⟩ => ⟨S512x2048, .f32⟩
  | .local _ .vmem, ⟨44, _⟩ => ⟨S512x2048, .f32⟩
  | .local _ .vmem, ⟨45, _⟩ => ⟨S512x256, .bf16⟩
  | .local _ .vmem, ⟨46, _⟩ => ⟨S512x1024, .bf16⟩
  | .local _ .vmem, ⟨47, _⟩ => ⟨S64x1024, .bf16⟩
  | .local _ .vmem, ⟨48, _⟩ => ⟨S4096x64, .bf16⟩
  | .local _ .vmem, ⟨49, _⟩ => ⟨S4096x64, .bf16⟩
  | .local _ .vmem, ⟨50, _⟩ => ⟨S1x4096, .f32⟩
  | .local _ .vmem, ⟨51, _⟩ => ⟨S1x4096, .f32⟩
  | .local _ .vmem, ⟨52, _⟩ => ⟨S1x512x1, .f32⟩
  | .local _ .vmem, ⟨53, _⟩ => ⟨S1x512x1, .f32⟩
  | .local _ .vmem, ⟨54, _⟩ => ⟨S1x512x1, .f32⟩
  | .local _ .vmem, ⟨55, _⟩ => ⟨S1x512x1, .f32⟩
  | .local _ .vmem, ⟨56, _⟩ => ⟨S512x64, .bf16⟩
  | .local _ .vmem, ⟨57, _⟩ => ⟨S512x1024, .bf16⟩
  | .local _ .vmem, ⟨58, _⟩ => ⟨S64x1024, .bf16⟩
  | .local _ .vmem, ⟨59, _⟩ => ⟨S4096x64, .bf16⟩
  | .local _ .vmem, ⟨60, _⟩ => ⟨S4096x64, .bf16⟩
  | .local _ .vmem, ⟨61, _⟩ => ⟨S1x4096, .f32⟩
  | .local _ .vmem, ⟨62, _⟩ => ⟨S1x4096, .f32⟩
  | .local _ .vmem, ⟨63, _⟩ => ⟨S512x1, .f32⟩
  | .local _ .vmem, ⟨64, _⟩ => ⟨S512x1, .f32⟩
  | .local _ .vmem, ⟨65, _⟩ => ⟨S512x1, .f32⟩
  | .local _ .vmem, ⟨66, _⟩ => ⟨S512x4096, .f32⟩
  | .local _ .vmem, ⟨67, _⟩ => ⟨S512x4096, .f32⟩
  | .local _ .vmem, ⟨68, _⟩ => ⟨S512x64, .bf16⟩
  | .local _ .vmem, ⟨69, _⟩ => ⟨S512x1024, .bf16⟩
  | .local _ .vmem, ⟨70, _⟩ => ⟨S16x1024, .bf16⟩
  | .local _ .vmem, ⟨71, _⟩ => ⟨S4096x16, .bf16⟩
  | .local _ .vmem, ⟨72, _⟩ => ⟨S4096x16, .bf16⟩
  | .local _ .vmem, ⟨73, _⟩ => ⟨S1x4096, .f32⟩
  | .local _ .vmem, ⟨74, _⟩ => ⟨S1x4096, .f32⟩
  | .local _ .vmem, ⟨75, _⟩ => ⟨S1x512x1, .f32⟩
  | .local _ .vmem, ⟨76, _⟩ => ⟨S1x512x1, .f32⟩
  | .local _ .vmem, ⟨77, _⟩ => ⟨S1x512x1, .f32⟩
  | .local _ .vmem, ⟨78, _⟩ => ⟨S1x512x1, .f32⟩
  | .local _ .vmem, ⟨79, _⟩ => ⟨S512x16, .bf16⟩
  | .local _ .vmem, ⟨80, _⟩ => ⟨S512x1024, .bf16⟩
  | .local _ .vmem, ⟨81, _⟩ => ⟨S16x1024, .bf16⟩
  | .local _ .vmem, ⟨82, _⟩ => ⟨S4096x16, .bf16⟩
  | .local _ .vmem, ⟨83, _⟩ => ⟨S4096x16, .bf16⟩
  | .local _ .vmem, ⟨84, _⟩ => ⟨S1x4096, .f32⟩
  | .local _ .vmem, ⟨85, _⟩ => ⟨S1x4096, .f32⟩
  | .local _ .vmem, ⟨86, _⟩ => ⟨S512x1, .f32⟩
  | .local _ .vmem, ⟨87, _⟩ => ⟨S512x1, .f32⟩
  | .local _ .vmem, ⟨88, _⟩ => ⟨S512x1, .f32⟩
  | .local _ .vmem, ⟨89, _⟩ => ⟨S512x4096, .f32⟩
  | .local _ .vmem, ⟨90, _⟩ => ⟨S512x4096, .f32⟩
  | .local _ .vmem, ⟨91, _⟩ => ⟨S512x16, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_call0_v0 : Ref sig .tc := ⟨.hbm, 20, rfl⟩
abbrev main_v3 : Ref sig .tc := ⟨.hbm, 21, rfl⟩
abbrev main_v4 : Ref sig .tc := ⟨.hbm, 22, rfl⟩
abbrev main_c_0 : Ref sig .tc := ⟨.hbm, 23, rfl⟩
abbrev main_call1_v0 : Ref sig .tc := ⟨.hbm, 24, rfl⟩
abbrev main_v5 : Ref sig .tc := ⟨.hbm, 25, rfl⟩
abbrev main_v6 : Ref sig .tc := ⟨.hbm, 26, rfl⟩
abbrev main_v7_0 : Ref sig .tc := ⟨.hbm, 27, rfl⟩
abbrev main_v7_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_1 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_2 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_3 : Ref sig .tc := ⟨.hbm, 76, rfl⟩
abbrev main_call2_v0 : Ref sig .tc := ⟨.hbm, 77, rfl⟩
abbrev main_v52 : Ref sig .tc := ⟨.hbm, 78, rfl⟩
abbrev main_v53 : Ref sig .tc := ⟨.hbm, 79, rfl⟩
abbrev main_c_4 : Ref sig .tc := ⟨.hbm, 80, rfl⟩
abbrev main_call3_v0 : Ref sig .tc := ⟨.hbm, 81, rfl⟩
abbrev main_v54 : Ref sig .tc := ⟨.hbm, 82, rfl⟩
abbrev main_v55 : Ref sig .tc := ⟨.hbm, 83, rfl⟩
abbrev main_v56_0 : Ref sig .tc := ⟨.hbm, 84, rfl⟩
abbrev main_v56_1 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_5 : Ref sig .tc := ⟨.hbm, 106, rfl⟩
abbrev main_call4_v0 : Ref sig .tc := ⟨.hbm, 107, rfl⟩
abbrev main_v77 : Ref sig .tc := ⟨.hbm, 108, rfl⟩
abbrev main_v78 : Ref sig .tc := ⟨.hbm, 109, rfl⟩
abbrev main_c_6 : Ref sig .tc := ⟨.hbm, 110, rfl⟩
abbrev main_call5_v0 : Ref sig .tc := ⟨.hbm, 111, rfl⟩
abbrev main_v79 : Ref sig .tc := ⟨.hbm, 112, rfl⟩
abbrev main_v80 : Ref sig .tc := ⟨.hbm, 113, rfl⟩
abbrev main_v81_0 : Ref sig .tc := ⟨.hbm, 114, rfl⟩
abbrev main_v81_1 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_c_7 : Ref sig .tc := ⟨.hbm, 136, rfl⟩
abbrev main_call6_v0 : Ref sig .tc := ⟨.hbm, 137, rfl⟩
abbrev main_v102 : Ref sig .tc := ⟨.hbm, 138, rfl⟩
abbrev main_v103 : Ref sig .tc := ⟨.hbm, 139, rfl⟩
abbrev main_c_8 : Ref sig .tc := ⟨.hbm, 140, rfl⟩
abbrev main_call7_v0 : Ref sig .tc := ⟨.hbm, 141, rfl⟩
abbrev main_v104 : Ref sig .tc := ⟨.hbm, 142, rfl⟩
abbrev main_v105 : Ref sig .tc := ⟨.hbm, 143, rfl⟩
abbrev main_v106_0 : Ref sig .tc := ⟨.hbm, 144, rfl⟩
abbrev main_v106_1 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_call8_c : Ref sig .tc := ⟨.hbm, 169, rfl⟩
abbrev main_call8_v0 : Ref sig .tc := ⟨.hbm, 170, rfl⟩
abbrev main_call8_v1 : Ref sig .tc := ⟨.hbm, 171, rfl⟩
abbrev main_call8_c_0 : Ref sig .tc := ⟨.hbm, 172, rfl⟩
abbrev main_call8_v2 : Ref sig .tc := ⟨.hbm, 173, rfl⟩
abbrev main_call8_v3 : Ref sig .tc := ⟨.hbm, 174, rfl⟩
abbrev main_call8_v4 : Ref sig .tc := ⟨.hbm, 175, rfl⟩
abbrev main_call8_v5 : Ref sig .tc := ⟨.hbm, 176, rfl⟩
abbrev main_call8_c_1 : Ref sig .tc := ⟨.hbm, 177, rfl⟩
abbrev main_call8_c_2 : Ref sig .tc := ⟨.hbm, 178, rfl⟩
abbrev main_call8_v6 : Ref sig .tc := ⟨.hbm, 179, rfl⟩
abbrev main_call8_v7 : Ref sig .tc := ⟨.hbm, 180, rfl⟩
abbrev main_call8_v8 : Ref sig .tc := ⟨.hbm, 181, rfl⟩
abbrev main_call8_v9 : Ref sig .tc := ⟨.hbm, 182, rfl⟩
abbrev main_call8_v10 : Ref sig .tc := ⟨.hbm, 183, rfl⟩
abbrev main_call8_v11 : Ref sig .tc := ⟨.hbm, 184, rfl⟩
abbrev main_call8_c_3 : Ref sig .tc := ⟨.hbm, 185, rfl⟩
abbrev main_call8_v12 : Ref sig .tc := ⟨.hbm, 186, rfl⟩
abbrev main_call8_v13 : Ref sig .tc := ⟨.hbm, 187, rfl⟩
abbrev main_call8_cst : Ref sig .tc := ⟨.hbm, 188, rfl⟩
abbrev main_call8_v14 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_cst_9 : Ref sig .tc := ⟨.hbm, 193, rfl⟩
abbrev main_v133 : Ref sig .tc := ⟨.hbm, 194, rfl⟩
abbrev main_cst_10 : Ref sig .tc := ⟨.hbm, 195, rfl⟩
abbrev main_v134 : Ref sig .tc := ⟨.hbm, 196, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc1_scratch0 : Ref sig .tc := ⟨.vmem, 22, rfl⟩
abbrev cc2_stg0_0 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc2_scratch0 : Ref sig .tc := ⟨.vmem, 33, rfl⟩
abbrev cc3_stg0_0 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg3_1 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg7_0 : Ref sig .tc := ⟨.vmem, 43, rfl⟩
abbrev cc3_stg7_1 : Ref sig .tc := ⟨.vmem, 44, rfl⟩
abbrev cc3_scratch0 : Ref sig .tc := ⟨.vmem, 45, rfl⟩
abbrev cc4_stg0_0 : Ref sig .tc := ⟨.vmem, 46, rfl⟩
abbrev cc4_stg1_0 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg3_1 : Ref sig .tc := ⟨.vmem, 51, rfl⟩
abbrev cc4_stg4_0 : Ref sig .tc := ⟨.vmem, 52, rfl⟩
abbrev cc4_stg4_1 : Ref sig .tc := ⟨.vmem, 53, rfl⟩
abbrev cc4_stg5_0 : Ref sig .tc := ⟨.vmem, 54, rfl⟩
abbrev cc4_stg5_1 : Ref sig .tc := ⟨.vmem, 55, rfl⟩
abbrev cc4_scratch0 : Ref sig .tc := ⟨.vmem, 56, rfl⟩
abbrev cc5_stg0_0 : Ref sig .tc := ⟨.vmem, 57, rfl⟩
abbrev cc5_stg1_0 : Ref sig .tc := ⟨.vmem, 58, rfl⟩
abbrev cc5_stg2_0 : Ref sig .tc := ⟨.vmem, 59, rfl⟩
abbrev cc5_stg2_1 : Ref sig .tc := ⟨.vmem, 60, rfl⟩
abbrev cc5_stg3_0 : Ref sig .tc := ⟨.vmem, 61, rfl⟩
abbrev cc5_stg3_1 : Ref sig .tc := ⟨.vmem, 62, rfl⟩
abbrev cc5_stg4_0 : Ref sig .tc := ⟨.vmem, 63, rfl⟩
abbrev cc5_stg5_0 : Ref sig .tc := ⟨.vmem, 64, rfl⟩
abbrev cc5_stg6_0 : Ref sig .tc := ⟨.vmem, 65, rfl⟩
abbrev cc5_stg7_0 : Ref sig .tc := ⟨.vmem, 66, rfl⟩
abbrev cc5_stg7_1 : Ref sig .tc := ⟨.vmem, 67, rfl⟩
abbrev cc5_scratch0 : Ref sig .tc := ⟨.vmem, 68, rfl⟩
abbrev cc6_stg0_0 : Ref sig .tc := ⟨.vmem, 69, rfl⟩
abbrev cc6_stg1_0 : Ref sig .tc := ⟨.vmem, 70, rfl⟩
abbrev cc6_stg2_0 : Ref sig .tc := ⟨.vmem, 71, rfl⟩
abbrev cc6_stg2_1 : Ref sig .tc := ⟨.vmem, 72, rfl⟩
abbrev cc6_stg3_0 : Ref sig .tc := ⟨.vmem, 73, rfl⟩
abbrev cc6_stg3_1 : Ref sig .tc := ⟨.vmem, 74, rfl⟩
abbrev cc6_stg4_0 : Ref sig .tc := ⟨.vmem, 75, rfl⟩
abbrev cc6_stg4_1 : Ref sig .tc := ⟨.vmem, 76, rfl⟩
abbrev cc6_stg5_0 : Ref sig .tc := ⟨.vmem, 77, rfl⟩
abbrev cc6_stg5_1 : Ref sig .tc := ⟨.vmem, 78, rfl⟩
abbrev cc6_scratch0 : Ref sig .tc := ⟨.vmem, 79, rfl⟩
abbrev cc7_stg0_0 : Ref sig .tc := ⟨.vmem, 80, rfl⟩
abbrev cc7_stg1_0 : Ref sig .tc := ⟨.vmem, 81, rfl⟩
abbrev cc7_stg2_0 : Ref sig .tc := ⟨.vmem, 82, rfl⟩
abbrev cc7_stg2_1 : Ref sig .tc := ⟨.vmem, 83, rfl⟩
abbrev cc7_stg3_0 : Ref sig .tc := ⟨.vmem, 84, rfl⟩
abbrev cc7_stg3_1 : Ref sig .tc := ⟨.vmem, 85, rfl⟩
abbrev cc7_stg4_0 : Ref sig .tc := ⟨.vmem, 86, rfl⟩
abbrev cc7_stg5_0 : Ref sig .tc := ⟨.vmem, 87, rfl⟩
abbrev cc7_stg6_0 : Ref sig .tc := ⟨.vmem, 88, rfl⟩
abbrev cc7_stg7_0 : Ref sig .tc := ⟨.vmem, 89, rfl⟩
abbrev cc7_stg7_1 : Ref sig .tc := ⟨.vmem, 90, rfl⟩
abbrev cc7_scratch0 : Ref sig .tc := ⟨.vmem, 91, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20
abbrev cc2_sem0_0 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28
abbrev cc2_sem5_0 : DmaSem sig := 29
abbrev cc2_sem5_1 : DmaSem sig := 30
abbrev cc3_sem0_0 : DmaSem sig := 31
abbrev cc3_sem1_0 : DmaSem sig := 32
abbrev cc3_sem2_0 : DmaSem sig := 33
abbrev cc3_sem2_1 : DmaSem sig := 34
abbrev cc3_sem3_0 : DmaSem sig := 35
abbrev cc3_sem3_1 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem7_1 : DmaSem sig := 41
abbrev cc4_sem0_0 : DmaSem sig := 42
abbrev cc4_sem1_0 : DmaSem sig := 43
abbrev cc4_sem2_0 : DmaSem sig := 44
abbrev cc4_sem2_1 : DmaSem sig := 45
abbrev cc4_sem3_0 : DmaSem sig := 46
abbrev cc4_sem3_1 : DmaSem sig := 47
abbrev cc4_sem4_0 : DmaSem sig := 48
abbrev cc4_sem4_1 : DmaSem sig := 49
abbrev cc4_sem5_0 : DmaSem sig := 50
abbrev cc4_sem5_1 : DmaSem sig := 51
abbrev cc5_sem0_0 : DmaSem sig := 52
abbrev cc5_sem1_0 : DmaSem sig := 53
abbrev cc5_sem2_0 : DmaSem sig := 54
abbrev cc5_sem2_1 : DmaSem sig := 55
abbrev cc5_sem3_0 : DmaSem sig := 56
abbrev cc5_sem3_1 : DmaSem sig := 57
abbrev cc5_sem4_0 : DmaSem sig := 58
abbrev cc5_sem5_0 : DmaSem sig := 59
abbrev cc5_sem6_0 : DmaSem sig := 60
abbrev cc5_sem7_0 : DmaSem sig := 61
abbrev cc5_sem7_1 : DmaSem sig := 62
abbrev cc6_sem0_0 : DmaSem sig := 63
abbrev cc6_sem1_0 : DmaSem sig := 64
abbrev cc6_sem2_0 : DmaSem sig := 65
abbrev cc6_sem2_1 : DmaSem sig := 66
abbrev cc6_sem3_0 : DmaSem sig := 67
abbrev cc6_sem3_1 : DmaSem sig := 68
abbrev cc6_sem4_0 : DmaSem sig := 69
abbrev cc6_sem4_1 : DmaSem sig := 70
abbrev cc6_sem5_0 : DmaSem sig := 71
abbrev cc6_sem5_1 : DmaSem sig := 72
abbrev cc7_sem0_0 : DmaSem sig := 73
abbrev cc7_sem1_0 : DmaSem sig := 74
abbrev cc7_sem2_0 : DmaSem sig := 75
abbrev cc7_sem2_1 : DmaSem sig := 76
abbrev cc7_sem3_0 : DmaSem sig := 77
abbrev cc7_sem3_1 : DmaSem sig := 78
abbrev cc7_sem4_0 : DmaSem sig := 79
abbrev cc7_sem5_0 : DmaSem sig := 80
abbrev cc7_sem6_0 : DmaSem sig := 81
abbrev cc7_sem7_0 : DmaSem sig := 82
abbrev cc7_sem7_1 : DmaSem sig := 83

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 5], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![c0_i32.toNat, v1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![c0_i32.toNat, v1.toNat]

abbrev stage1_0 : Fin 1 → Memref sig .tc .vmem S512x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S512x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S512x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S512x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S512x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![2, 5], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![c0_i32.toNat, v1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S512x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .vmem S256x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S2048x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x512x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x512x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨2, ![2, 5], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc3_transform_3 (i : grid3.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![c0_i32.toNat, v1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![c0_i32.toNat, v1.toNat]

abbrev stage3_0 : Fin 1 → Memref sig .tc .vmem S512x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 1 → Memref sig .tc .vmem S256x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S2048x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 1 → Memref sig .tc .vmem S512x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S512x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S512x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 2 → Memref sig .tc .vmem S512x2048 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev grid4 : Pipeline.Grid := ⟨2, ![2, 20], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![v1.toNat, c0_i32.toNat]

def cc4_transform_3 (i : grid4.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![c0_i32.toNat, v1.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_5 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 1 → Memref sig .tc .vmem S512x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, false]

abbrev stage4_1 : Fin 1 → Memref sig .tc .vmem S64x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 2 → Memref sig .tc .vmem S4096x64 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1x4096 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S1x512x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev stage4_5 : Fin 2 → Memref sig .tc .vmem S1x512x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, false]

abbrev grid5 : Pipeline.Grid := ⟨2, ![2, 20], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![v1.toNat, c0_i32.toNat]

def cc5_transform_3 (i : grid5.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![c0_i32.toNat, v1.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![c0_i32.toNat, v1.toNat]

abbrev stage5_0 : Fin 1 → Memref sig .tc .vmem S512x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, false]

abbrev stage5_1 : Fin 1 → Memref sig .tc .vmem S64x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 2 → Memref sig .tc .vmem S4096x64 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S1x4096 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 1 → Memref sig .tc .vmem S512x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 1 → Memref sig .tc .vmem S512x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false, false]

abbrev stage5_6 : Fin 1 → Memref sig .tc .vmem S512x1 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false, false]

abbrev stage5_7 : Fin 2 → Memref sig .tc .vmem S512x4096 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, true]

abbrev grid6 : Pipeline.Grid := ⟨2, ![2, 9], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let c0_i32_0 : BitVec 32 := 0#32
  ![v1.toNat, c0_i32.toNat]

def cc6_transform_3 (i : grid6.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let c0_i32_0 : BitVec 32 := 0#32
  ![c0_i32.toNat, v1.toNat]

def cc6_transform_4 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_5 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage6_0 : Fin 1 → Memref sig .tc .vmem S512x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false, false]

abbrev stage6_1 : Fin 1 → Memref sig .tc .vmem S16x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, false]

abbrev stage6_2 : Fin 2 → Memref sig .tc .vmem S4096x16 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S1x4096 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev stage6_4 : Fin 2 → Memref sig .tc .vmem S1x512x1 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, false]

abbrev stage6_5 : Fin 2 → Memref sig .tc .vmem S1x512x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, false]

abbrev grid7 : Pipeline.Grid := ⟨2, ![2, 9], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let c0_i32_0 : BitVec 32 := 0#32
  ![v1.toNat, c0_i32.toNat]

def cc7_transform_3 (i : grid7.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let c0_i32_0 : BitVec 32 := 0#32
  ![c0_i32.toNat, v1.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let c0_i32_0 : BitVec 32 := 0#32
  ![c0_i32.toNat, v1.toNat]

abbrev stage7_0 : Fin 1 → Memref sig .tc .vmem S512x1024 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false, false]

abbrev stage7_1 : Fin 1 → Memref sig .tc .vmem S16x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, false]

abbrev stage7_2 : Fin 2 → Memref sig .tc .vmem S4096x16 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev stage7_3 : Fin 2 → Memref sig .tc .vmem S1x4096 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev stage7_4 : Fin 1 → Memref sig .tc .vmem S512x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false, false]

abbrev stage7_5 : Fin 1 → Memref sig .tc .vmem S512x1 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false, false]

abbrev stage7_6 : Fin 1 → Memref sig .tc .vmem S512x1 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false, false]

abbrev stage7_7 : Fin 2 → Memref sig .tc .vmem S512x4096 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true, true]

class Facts₀ : Prop where
  shapeCasts_S128x4x1024_S512x1024 : S128x4x1024.ShapeCasts S512x1024
  bitsLt_bf16_f32 : FTy.bits .bf16 < FTy.bits .f32
  pads_S20000x1024_S20480x1024_04800_000 : S20000x1024.Pads (![0, 0] : Fin 2 → Nat) ![480, 0] ![0, 0] S20480x1024
  h_S_ : 0 < S_.numel
  pads_S20000_S20480_04800 : S20000.Pads (![0] : Fin 1 → Nat) ![480] ![0] S20480
  shapeCasts_S20480_S1x20480 : S20480.ShapeCasts S1x20480
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  iota_S512x2048_d1_w32 : S512x2048.Iotas .tc 32 [1]
  reduces_S512x2048_S512 : S512x2048.Reduces [1] S512
  shapeCasts_S512_S512x1 : S512.ShapeCasts S512x1
  broadcasts_S512x1_S512x2048 : S512x1.Broadcasts S512x2048
  slices_S2x512x1_S1x512x1_0_0_0 : S2x512x1.Slices ![0, 0, 0] S1x512x1
  slices_S2x512x1_S1x512x1_1_0_0 : S2x512x1.Slices ![1, 0, 0] S1x512x1
  bcast_S3_S1x3_1 : S3.BroadcastsInDim S1x3 (![1] : Fin 1 → Fin S1x3.rank)
  bcast_S1x3_S512x3_0_1 : S1x3.BroadcastsInDim S512x3 (![0, 1] : Fin 2 → Fin S512x3.rank)
  reducesTo_S512x3_S512_d1 : S512x3.ReducesTo [1] S512
  bcast_S512_S512x1_0 : S512.BroadcastsInDim S512x1 (![0] : Fin 1 → Fin S512x1.rank)
  bcast_S512x1_S512x3_0_1 : S512x1.BroadcastsInDim S512x3 (![0, 1] : Fin 2 → Fin S512x3.rank)
  bcast_S_S512x1 : S_.BroadcastsInDim S512x1 (![] : Fin 0 → Fin S512x1.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2048_S512x2048_0_0 : ∀ a, (![0, 0] : Fin 2 → Nat) a + S512x2048.size a ≤ S512x2048.size a
  h_S512x2048 : 0 < S512x2048.numel
  slices_S512x20480_S512x20000_0_0 : S512x20480.Slices ![0, 0] S512x20000
  pads_S20000x256_S20480x256_04800_000 : S20000x256.Pads (![0, 0] : Fin 2 → Nat) ![480, 0] ![0, 0] S20480x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S512x256_S512x256_0_0 : ∀ a, (![0, 0] : Fin 2 → Nat) a + S512x256.size a ≤ S512x256.size a
  h_S512x256 : 0 < S512x256.numel
  shapeCasts_S512x256_S512x256 : S512x256.ShapeCasts S512x256
  packedbf16_S512x256_S512x256_0_0 : (Rect.unit (s := S512x256) ![0, 0] S512x256.size inb_S512x256_S512x256_0_0).PackedRows (EltTy.packing .bf16)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  slices_S512x3_S512x1_0_0 : S512x3.Slices ![0, 0] S512x1
  pads_S160000x64_S163840x64_038400_000 : S160000x64.Pads (![0, 0] : Fin 2 → Nat) ![3840, 0] ![0, 0] S163840x64
  pads_S160000_S163840_038400 : S160000.Pads (![0] : Fin 1 → Nat) ![3840] ![0] S163840
  shapeCasts_S163840_S1x163840 : S163840.ShapeCasts S1x163840
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S512x64_S512x64_0_0 : ∀ a, (![0, 0] : Fin 2 → Nat) a + S512x64.size a ≤ S512x64.size a
  h_S512x64 : 0 < S512x64.numel
  shapeCasts_S512x64_S512x64 : S512x64.ShapeCasts S512x64
  packedbf16_S512x64_S512x64_0_0 : (Rect.unit (s := S512x64) ![0, 0] S512x64.size inb_S512x64_S512x64_0_0).PackedRows (EltTy.packing .bf16)
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  iota_S512x4096_d1_w32 : S512x4096.Iotas .tc 32 [1]
  reduces_S512x4096_S512 : S512x4096.Reduces [1] S512
  broadcasts_S512x1_S512x4096 : S512x1.Broadcasts S512x4096
  slices_S512x3_S512x1_0_1 : S512x3.Slices ![0, 1] S512x1
  inb_S512x4096_S512x4096_0_0 : ∀ a, (![0, 0] : Fin 2 → Nat) a + S512x4096.size a ≤ S512x4096.size a
  h_S512x4096 : 0 < S512x4096.numel
  slices_S512x163840_S512x160000_0_0 : S512x163840.Slices ![0, 0] S512x160000
  pads_S67735x16_S73728x16_059930_000 : S67735x16.Pads (![0, 0] : Fin 2 → Nat) ![5993, 0] ![0, 0] S73728x16
  pads_S67735_S73728_059930 : S67735.Pads (![0] : Fin 1 → Nat) ![5993] ![0] S73728
  shapeCasts_S73728_S1x73728 : S73728.ShapeCasts S1x73728
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S512x16_S512x16_0_0 : ∀ a, (![0, 0] : Fin 2 → Nat) a + S512x16.size a ≤ S512x16.size a
  h_S512x16 : 0 < S512x16.numel
  shapeCasts_S512x16_S512x16 : S512x16.ShapeCasts S512x16
  packedbf16_S512x16_S512x16_0_0 : (Rect.unit (s := S512x16) ![0, 0] S512x16.size inb_S512x16_S512x16_0_0).PackedRows (EltTy.packing .bf16)
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  slices_S512x3_S512x1_0_2 : S512x3.Slices ![0, 2] S512x1
  slices_S512x73728_S512x67735_0_0 : S512x73728.Slices ![0, 0] S512x67735
  concatenates_S512x20000_S512x20000_S512x160000_S512x67735_S512x267735_d1 : Shape.Concatenates [S512x20000, S512x20000, S512x160000, S512x67735] S512x267735 1
  shapeCasts_S512x267735_S128x4x267735 : S512x267735.ShapeCasts S128x4x267735
  shapeCasts_S128x4_S512 : S128x4.ShapeCasts S512
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  shapeCasts_S512x1_S512 : S512x1.ShapeCasts S512
  reducesTo_S512_S_d0 : S512.ReducesTo [0] S_
  dot_S512x1024_S1024x1024_S512x1024_1_1_0_0_n_n_wf : DotDims.WF S512x1024 S1024x1024 S512x1024 [1] [1] [0] [0] [] []
  dot_S512x1024_S2048x1024_S512x2048_1_1_0_0_n_n_wf : DotDims.WF S512x1024 S2048x1024 S512x2048 [1] [1] [0] [0] [] []
  dot_S512x1024_S3x1024_S512x3_1_1_0_0_n_n_wf : DotDims.WF S512x1024 S3x1024 S512x3 [1] [1] [0] [0] [] []
  dot_S512x1024_S256x1024_S512x256_1_1_0_0_n_n_wf : DotDims.WF S512x1024 S256x1024 S512x256 [1] [1] [0] [0] [] []
  dot_S512x256_S2048x256_S512x2048_1_1_0_0_n_n_wf : DotDims.WF S512x256 S2048x256 S512x2048 [1] [1] [0] [0] [] []
  dot_S512x1024_S64x1024_S512x64_1_1_0_0_n_n_wf : DotDims.WF S512x1024 S64x1024 S512x64 [1] [1] [0] [0] [] []
  dot_S512x64_S4096x64_S512x4096_1_1_0_0_n_n_wf : DotDims.WF S512x64 S4096x64 S512x4096 [1] [1] [0] [0] [] []
  dot_S512x1024_S16x1024_S512x16_1_1_0_0_n_n_wf : DotDims.WF S512x1024 S16x1024 S512x16 [1] [1] [0] [0] [] []
  dot_S512x16_S4096x16_S512x4096_1_1_0_0_n_n_wf : DotDims.WF S512x16 S4096x16 S512x4096 [1] [1] [0] [0] [] []
  gather_S512x267735_S512x1x1_S512x1_n_1_0_0_1_2_11_wf : GatherDims.WF S512x267735 S512x1x1 S512x1 [] [1] [0] [1] [0] 2 ![1, 1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x1024.size a
  hwx0_0 : ∀ i : grid0.Coords, EltTy.bits .bf16 = 32 ∨ (Rect.block (s := S512x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S20480x1024.size a
  hwx0_2 : ∀ i : grid0.Coords, EltTy.bits .bf16 = 32 ∨ (Rect.block (s := S20480x1024) S2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x20480.size a
  hwx0_3 : ∀ i : grid0.Coords, EltTy.bits .f32 = 32 ∨ (Rect.block (s := S1x20480) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S2x512x1.size a
  hwx0_4 : ∀ i : grid0.Coords, EltTy.bits .f32 = 32 ∨ (Rect.block (s := S2x512x1) S1x512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1.size a ≤ S2x512x1.size a
  hwx0_5 : ∀ i : grid0.Coords, EltTy.bits .f32 = 32 ∨ (Rect.block (s := S2x512x1) S1x512x1.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S512x1024.size a
  hwx1_0 : ∀ i : grid1.Coords, EltTy.bits .bf16 = 32 ∨ (Rect.block (s := S512x1024) S512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S20480x1024.size a
  hwx1_2 : ∀ i : grid1.Coords, EltTy.bits .bf16 = 32 ∨ (Rect.block (s := S20480x1024) S2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x20480.size a
  hwx1_3 : ∀ i : grid1.Coords, EltTy.bits .f32 = 32 ∨ (Rect.block (s := S1x20480) S1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S512x1.size a
  hwx1_4 : ∀ i : grid1.Coords, EltTy.bits .f32 = 32 ∨ (Rect.block (s := S512x1) S512x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S512x1.size a
  hwx1_5 : ∀ i : grid1.Coords, EltTy.bits .f32 = 32 ∨ (Rect.block (s := S512x1) S512x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x1.size a ≤ S512x1.size a
  hwx1_6 : ∀ i : grid1.Coords, EltTy.bits .f32 = 32 ∨ (Rect.block (s := S512x1) S512x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x2048.size a ≤ S512x20480.size a
  hwx1_7 : ∀ i : grid1.Coords, EltTy.bits .f32 = 32 ∨ (Rect.block (s := S512x20480) S512x2048.size (cc1_transform_7 i) (hinb1_7 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S512x1024.size a
  hwx2_0 : ∀ i : grid2.Coords, EltTy.bits .bf16 = 32 ∨ (Rect.block (s := S512x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x1024.size a ≤ S256x1024.size a
  hwx2_1 : ∀ i : grid2.Coords, EltTy.bits .bf16 = 32 ∨ (Rect.block (s := S256x1024) S256x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x256.size a ≤ S20480x256.size a
  hwx2_2 : ∀ i : grid2.Coords, EltTy.bits .bf16 = 32 ∨ (Rect.block (s := S20480x256) S2048x256.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2048.size a ≤ S1x20480.size a
  hwx2_3 : ∀ i : grid2.Coords, EltTy.bits .f32 = 32 ∨ (Rect.block (s := S1x20480) S1x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512x1.size a ≤ S2x512x1.size a
  hwx2_4 : ∀ i : grid2.Coords, EltTy.bits .f32 = 32 ∨ (Rect.block (s := S2x512x1) S1x512x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x512x1.size a ≤ S2x512x1.size a
  hwx2_5 : ∀ i : grid2.Coords, EltTy.bits .f32 = 32 ∨ (Rect.block (s := S2x512x1) S1x512x1.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S512x1024.size a
  hwx3_0 : ∀ i : grid3.Coords, EltTy.bits .bf16 = 32 ∨ (Rect.block (s := S512x1024) S512x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x1024.size a ≤ S256x1024.size a
  hwx3_1 : ∀ i : grid3.Coords, EltTy.bits .bf16 = 32 ∨ (Rect.block (s := S256x1024) S256x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x256.size a ≤ S20480x256.size a
  hwx3_2 : ∀ i : grid3.Coords, EltTy.bits .bf16 = 32 ∨ (Rect.block (s := S20480x256) S2048x256.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x2048.size a ≤ S1x20480.size a
  hwx3_3 : ∀ i : grid3.Coords, EltTy.bits .f32 = 32 ∨ (Rect.block (s := S1x20480) S1x2048.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x1.size a ≤ S512x1.size a
  hwx3_4 : ∀ i : grid3.Coords, EltTy.bits .f32 = 32 ∨ (Rect.block (s := S512x1) S512x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x1.size a ≤ S512x1.size a
  hwx3_5 : ∀ i : grid3.Coords, EltTy.bits .f32 = 32 ∨ (Rect.block (s := S512x1) S512x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S512x1.size a ≤ S512x1.size a
  hwx3_6 : ∀ i : grid3.Coords, EltTy.bits .f32 = 32 ∨ (Rect.block (s := S512x1) S512x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S512x2048.size a ≤ S512x20480.size a
  hwx3_7 : ∀ i : grid3.Coords, EltTy.bits .f32 = 32 ∨ (Rect.block (s := S512x20480) S512x2048.size (cc3_transform_7 i) (hinb3_7 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S512x1024.size a
  hwx4_0 : ∀ i : grid4.Coords, EltTy.bits .bf16 = 32 ∨ (Rect.block (s := S512x1024) S512x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1024.size a ≤ S64x1024.size a
  hwx4_1 : ∀ i : grid4.Coords, EltTy.bits .bf16 = 32 ∨ (Rect.block (s := S64x1024) S64x1024.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096x64.size a ≤ S163840x64.size a
  hwx4_2 : ∀ i : grid4.Coords, EltTy.bits .bf16 = 32 ∨ (Rect.block (s := S163840x64) S4096x64.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x4096.size a ≤ S1x163840.size a
  hwx4_3 : ∀ i : grid4.Coords, EltTy.bits .f32 = 32 ∨ (Rect.block (s := S1x163840) S1x4096.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x512x1.size a ≤ S2x512x1.size a
  hwx4_4 : ∀ i : grid4.Coords, EltTy.bits .f32 = 32 ∨ (Rect.block (s := S2x512x1) S1x512x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1x512x1.size a ≤ S2x512x1.size a
  hwx4_5 : ∀ i : grid4.Coords, EltTy.bits .f32 = 32 ∨ (Rect.block (s := S2x512x1) S1x512x1.size (cc4_transform_5 i) (hinb4_5 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S512x1024.size a ≤ S512x1024.size a
  hwx5_0 : ∀ i : grid5.Coords, EltTy.bits .bf16 = 32 ∨ (Rect.block (s := S512x1024) S512x1024.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x1024.size a ≤ S64x1024.size a
  hwx5_1 : ∀ i : grid5.Coords, EltTy.bits .bf16 = 32 ∨ (Rect.block (s := S64x1024) S64x1024.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4096x64.size a ≤ S163840x64.size a
  hwx5_2 : ∀ i : grid5.Coords, EltTy.bits .bf16 = 32 ∨ (Rect.block (s := S163840x64) S4096x64.size (cc5_transform_2 i) (hinb5_2 i)).WholeWords (EltTy.packing .bf16)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1x4096.size a ≤ S1x163840.size a
  hwx5_3 : ∀ i : grid5.Coords, EltTy.bits .f32 = 32 ∨ (Rect.block (s := S1x163840) S1x4096.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S512x1.size a ≤ S512x1.size a
  hwx5_4 : ∀ i : grid5.Coords, EltTy.bits .f32 = 32 ∨ (Rect.block (s := S512x1) S512x1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S512x1.size a ≤ S512x1.size a
  hwx5_5 : ∀ i : grid5.Coords, EltTy.bits .f32 = 32 ∨ (Rect.block (s := S512x1) S512x1.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S512x1.size a ≤ S512x1.size a
  hwx5_6 : ∀ i : grid5.Coords, EltTy.bits .f32 = 32 ∨ (Rect.block (s := S512x1) S512x1.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S512x4096.size a ≤ S512x163840.size a
  hwx5_7 : ∀ i : grid5.Coords, EltTy.bits .f32 = 32 ∨ (Rect.block (s := S512x163840) S512x4096.size (cc5_transform_7 i) (hinb5_7 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x1024.size a ≤ S512x1024.size a
  hwx6_0 : ∀ i : grid6.Coords, EltTy.bits .bf16 = 32 ∨ (Rect.block (s := S512x1024) S512x1024.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S16x1024.size a ≤ S16x1024.size a
  hwx6_1 : ∀ i : grid6.Coords, EltTy.bits .bf16 = 32 ∨ (Rect.block (s := S16x1024) S16x1024.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4096x16.size a ≤ S73728x16.size a
  hwx6_2 : ∀ i : grid6.Coords, EltTy.bits .bf16 = 32 ∨ (Rect.block (s := S73728x16) S4096x16.size (cc6_transform_2 i) (hinb6_2 i)).WholeWords (EltTy.packing .bf16)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1x4096.size a ≤ S1x73728.size a
  hwx6_3 : ∀ i : grid6.Coords, EltTy.bits .f32 = 32 ∨ (Rect.block (s := S1x73728) S1x4096.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S1x512x1.size a ≤ S2x512x1.size a
  hwx6_4 : ∀ i : grid6.Coords, EltTy.bits .f32 = 32 ∨ (Rect.block (s := S2x512x1) S1x512x1.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1x512x1.size a ≤ S2x512x1.size a
  hwx6_5 : ∀ i : grid6.Coords, EltTy.bits .f32 = 32 ∨ (Rect.block (s := S2x512x1) S1x512x1.size (cc6_transform_5 i) (hinb6_5 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S512x1024.size a ≤ S512x1024.size a
  hwx7_0 : ∀ i : grid7.Coords, EltTy.bits .bf16 = 32 ∨ (Rect.block (s := S512x1024) S512x1024.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S16x1024.size a ≤ S16x1024.size a
  hwx7_1 : ∀ i : grid7.Coords, EltTy.bits .bf16 = 32 ∨ (Rect.block (s := S16x1024) S16x1024.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S4096x16.size a ≤ S73728x16.size a
  hwx7_2 : ∀ i : grid7.Coords, EltTy.bits .bf16 = 32 ∨ (Rect.block (s := S73728x16) S4096x16.size (cc7_transform_2 i) (hinb7_2 i)).WholeWords (EltTy.packing .bf16)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1x4096.size a ≤ S1x73728.size a
  hwx7_3 : ∀ i : grid7.Coords, EltTy.bits .f32 = 32 ∨ (Rect.block (s := S1x73728) S1x4096.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S512x1.size a ≤ S512x1.size a
  hwx7_4 : ∀ i : grid7.Coords, EltTy.bits .f32 = 32 ∨ (Rect.block (s := S512x1) S512x1.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S512x1.size a ≤ S512x1.size a
  hwx7_5 : ∀ i : grid7.Coords, EltTy.bits .f32 = 32 ∨ (Rect.block (s := S512x1) S512x1.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S512x1.size a ≤ S512x1.size a
  hwx7_6 : ∀ i : grid7.Coords, EltTy.bits .f32 = 32 ∨ (Rect.block (s := S512x1) S512x1.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S512x4096.size a ≤ S512x73728.size a
  hwx7_7 : ∀ i : grid7.Coords, EltTy.bits .f32 = 32 ∨ (Rect.block (s := S512x73728) S512x4096.size (cc7_transform_7 i) (hinb7_7 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x1024_S3x1024_S512x3_1_1_0_0_n_n : DotDims S512x1024 S3x1024 S512x3 where
  lhsContracting := [1]
  rhsContracting := [1]
  lhsNonContracting := [0]
  rhsNonContracting := [0]
  lhsBatch := []
  rhsBatch := []
  wf := dot_S512x1024_S3x1024_S512x3_1_1_0_0_n_n_wf
def dot_S512x1024_S256x1024_S512x256_1_1_0_0_n_n : DotDims S512x1024 S256x1024 S512x256 where
  lhsContracting := [1]
  rhsContracting := [1]
  lhsNonContracting := [0]
  rhsNonContracting := [0]
  lhsBatch := []
  rhsBatch := []
  wf := dot_S512x1024_S256x1024_S512x256_1_1_0_0_n_n_wf
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf
def dot_S512x1024_S64x1024_S512x64_1_1_0_0_n_n : DotDims S512x1024 S64x1024 S512x64 where
  lhsContracting := [1]
  rhsContracting := [1]
  lhsNonContracting := [0]
  rhsNonContracting := [0]
  lhsBatch := []
  rhsBatch := []
  wf := dot_S512x1024_S64x1024_S512x64_1_1_0_0_n_n_wf
def dot_S512x64_S4096x64_S512x4096_1_1_0_0_n_n : DotDims S512x64 S4096x64 S512x4096 where
  lhsContracting := [1]
  rhsContracting := [1]
  lhsNonContracting := [0]
  rhsNonContracting := [0]
  lhsBatch := []
  rhsBatch := []
  wf := dot_S512x64_S4096x64_S512x4096_1_1_0_0_n_n_wf
def dot_S512x1024_S16x1024_S512x16_1_1_0_0_n_n : DotDims S512x1024 S16x1024 S512x16 where
  lhsContracting := [1]
  rhsContracting := [1]
  lhsNonContracting := [0]
  rhsNonContracting := [0]
  lhsBatch := []
  rhsBatch := []
  wf := dot_S512x1024_S16x1024_S512x16_1_1_0_0_n_n_wf
def dot_S512x16_S4096x16_S512x4096_1_1_0_0_n_n : DotDims S512x16 S4096x16 S512x4096 where
  lhsContracting := [1]
  rhsContracting := [1]
  lhsNonContracting := [0]
  rhsNonContracting := [0]
  lhsBatch := []
  rhsBatch := []
  wf := dot_S512x16_S4096x16_S512x4096_1_1_0_0_n_n_wf
def gather_S512x267735_S512x1x1_S512x1_n_1_0_0_1_2_11 : GatherDims S512x267735 S512x1x1 S512x1 where
  offsetDims := []
  collapsedSliceDims := [1]
  operandBatchingDims := [0]
  startIndicesBatchingDims := [0]
  startIndexMap := [1]
  indexVectorDim := 2
  sliceSizes := ![1, 1]
  wf := gather_S512x267735_S512x1x1_S512x1_n_1_0_0_1_2_11_wf

abbrev win0_0 : Pipeline.Window sig grid0 :=
  Pipeline.Window.ofSpec (Memref.whole main_v1) S512x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S1x512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S1x512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1) S512x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v33) S512x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S512x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48) S512x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v49) S512x2048.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v1) S512x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v51) S256x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S2048x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v56_0) S1x512x1.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v56_1) S1x512x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v1) S512x1024.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v51) S256x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S2048x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v55) S1x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v65) S512x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S512x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v73) S512x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v74) S512x2048.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v1) S512x1024.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v76) S64x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78) S4096x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v80) S1x4096.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v81_0) S1x512x1.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v81_1) S1x512x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v1) S512x1024.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v76) S64x1024.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S4096x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v80) S1x4096.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v90) S512x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v97) S512x1.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v98) S512x1.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v99) S512x4096.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v1) S512x1024.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v101) S16x1024.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v103) S4096x16.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v105) S1x4096.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v106_0) S1x512x1.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v106_1) S1x512x1.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v1) S512x1024.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_v101) S16x1024.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v103) S4096x16.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v105) S1x4096.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v115) S512x1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v122) S512x1.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v123) S512x1.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v124) S512x4096.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where

variable [Facts]
-- ==== ReferenceIdeal.lean ====
abbrev S128x4x1024 : Shape := ⟨3, ![128, 4, 1024]⟩
abbrev S128x4 : Shape := ⟨2, ![128, 4]⟩
abbrev S3x1024 : Shape := ⟨2, ![3, 1024]⟩
abbrev S3 : Shape := ⟨1, ![3]⟩
abbrev S1024x1024 : Shape := ⟨2, ![1024, 1024]⟩
abbrev S256x1024 : Shape := ⟨2, ![256, 1024]⟩
abbrev S64x1024 : Shape := ⟨2, ![64, 1024]⟩
abbrev S16x1024 : Shape := ⟨2, ![16, 1024]⟩
abbrev S20000x1024 : Shape := ⟨2, ![20000, 1024]⟩
abbrev S20000x256 : Shape := ⟨2, ![20000, 256]⟩
abbrev S160000x64 : Shape := ⟨2, ![160000, 64]⟩
abbrev S67735x16 : Shape := ⟨2, ![67735, 16]⟩
abbrev S20000 : Shape := ⟨1, ![20000]⟩
abbrev S160000 : Shape := ⟨1, ![160000]⟩
abbrev S67735 : Shape := ⟨1, ![67735]⟩
abbrev S20003x1024 : Shape := ⟨2, ![20003, 1024]⟩
abbrev S20003 : Shape := ⟨1, ![20003]⟩
abbrev S128x4x20003 : Shape := ⟨3, ![128, 4, 20003]⟩
abbrev S1x1x20003 : Shape := ⟨3, ![1, 1, 20003]⟩
abbrev S_ : Shape := ⟨0, ![]⟩
abbrev S128x4x1 : Shape := ⟨3, ![128, 4, 1]⟩
abbrev S128x4x20000 : Shape := ⟨3, ![128, 4, 20000]⟩
abbrev S128x4x256 : Shape := ⟨3, ![128, 4, 256]⟩
abbrev S1x1x20000 : Shape := ⟨3, ![1, 1, 20000]⟩
abbrev S128x4x64 : Shape := ⟨3, ![128, 4, 64]⟩
abbrev S128x4x160000 : Shape := ⟨3, ![128, 4, 160000]⟩
abbrev S1x1x160000 : Shape := ⟨3, ![1, 1, 160000]⟩
abbrev S128x4x16 : Shape := ⟨3, ![128, 4, 16]⟩
abbrev S128x4x67735 : Shape := ⟨3, ![128, 4, 67735]⟩
abbrev S1x1x67735 : Shape := ⟨3, ![1, 1, 67735]⟩
abbrev S128x4x267735 : Shape := ⟨3, ![128, 4, 267735]⟩
abbrev S128x4x1x1 : Shape := ⟨4, ![128, 4, 1, 1]⟩
abbrev S1 : Shape := ⟨1, ![1]⟩
abbrev S1x1x1x1 : Shape := ⟨4, ![1, 1, 1, 1]⟩

abbrev nBuf : Space → Nat
  | .hbm => 144
  | .vmem => 0
  | .smem => 0
  | _ => 0

abbrev hbmTy0_0 (i : Nat) : BufTy := match i % 128 with
  | 0 => ⟨S128x4x1024, .f32⟩
  | 1 => ⟨S128x4, .i32⟩
  | 2 => ⟨S3x1024, .f32⟩
  | 3 => ⟨S3, .f32⟩
  | 4 => ⟨S1024x1024, .f32⟩
  | 5 => ⟨S256x1024, .f32⟩
  | 6 => ⟨S64x1024, .f32⟩
  | 7 => ⟨S16x1024, .f32⟩
  | 8 => ⟨S20000x1024, .f32⟩
  | 9 => ⟨S20000x256, .f32⟩
  | 10 => ⟨S160000x64, .f32⟩
  | 11 => ⟨S67735x16, .f32⟩
  | 12 => ⟨S20000, .f32⟩
  | 13 => ⟨S20000, .f32⟩
  | 14 => ⟨S160000, .f32⟩
  | 15 => ⟨S67735, .f32⟩
  | 16 => ⟨S20003x1024, .f32⟩
  | 17 => ⟨S20003, .f32⟩
  | 18 => ⟨S128x4x1024, .f32⟩
  | 19 => ⟨S128x4x20003, .f32⟩
  | 20 => ⟨S1x1x20003, .f32⟩
  | 21 => ⟨S128x4x20003, .f32⟩
  | 22 => ⟨S128x4x20003, .f32⟩
  | 23 => ⟨S_, .f32⟩
  | 24 => ⟨S128x4, .f32⟩
  | 25 => ⟨S_, .f32⟩
  | 26 => ⟨S128x4, .f32⟩
  | 27 => ⟨S128x4, .f32⟩
  | 28 => ⟨S128x4x1, .f32⟩
  | 29 => ⟨S128x4x20003, .f32⟩
  | 30 => ⟨S128x4x20003, .f32⟩
  | 31 => ⟨S128x4x20003, .f32⟩
  | 32 => ⟨S_, .f32⟩
  | 33 => ⟨S128x4, .f32⟩
  | 34 => ⟨S128x4x1, .f32⟩
  | 35 => ⟨S128x4x1, .f32⟩
  | 36 => ⟨S128x4x20003, .f32⟩
  | 37 => ⟨S128x4x20003, .f32⟩
  | 38 => ⟨S128x4x20000, .f32⟩
  | 39 => ⟨S128x4x256, .f32⟩
  | 40 => ⟨S128x4x20000, .f32⟩
  | 41 => ⟨S1x1x20000, .f32⟩
  | 42 => ⟨S128x4x20000, .f32⟩
  | 43 => ⟨S128x4x20000, .f32⟩
  | 44 => ⟨S_, .f32⟩
  | 45 => ⟨S128x4, .f32⟩
  | 46 => ⟨S_, .f32⟩
  | 47 => ⟨S128x4, .f32⟩
  | 48 => ⟨S128x4, .f32⟩
  | 49 => ⟨S128x4x1, .f32⟩
  | 50 => ⟨S128x4x20000, .f32⟩
  | 51 => ⟨S128x4x20000, .f32⟩
  | 52 => ⟨S128x4x20000, .f32⟩
  | 53 => ⟨S_, .f32⟩
  | 54 => ⟨S128x4, .f32⟩
  | 55 => ⟨S128x4x1, .f32⟩
  | 56 => ⟨S128x4x1, .f32⟩
  | 57 => ⟨S128x4x20000, .f32⟩
  | 58 => ⟨S128x4x20000, .f32⟩
  | 59 => ⟨S128x4x1, .f32⟩
  | 60 => ⟨S128x4, .f32⟩
  | 61 => ⟨S128x4x1, .f32⟩
  | 62 => ⟨S128x4x20000, .f32⟩
  | 63 => ⟨S128x4x20000, .f32⟩
  | 64 => ⟨S128x4x64, .f32⟩
  | 65 => ⟨S128x4x160000, .f32⟩
  | 66 => ⟨S1x1x160000, .f32⟩
  | 67 => ⟨S128x4x160000, .f32⟩
  | 68 => ⟨S128x4x160000, .f32⟩
  | 69 => ⟨S_, .f32⟩
  | 70 => ⟨S128x4, .f32⟩
  | 71 => ⟨S_, .f32⟩
  | 72 => ⟨S128x4, .f32⟩
  | 73 => ⟨S128x4, .f32⟩
  | 74 => ⟨S128x4x1, .f32⟩
  | 75 => ⟨S128x4x160000, .f32⟩
  | 76 => ⟨S128x4x160000, .f32⟩
  | 77 => ⟨S128x4x160000, .f32⟩
  | 78 => ⟨S_, .f32⟩
  | 79 => ⟨S128x4, .f32⟩
  | 80 => ⟨S128x4x1, .f32⟩
  | 81 => ⟨S128x4x1, .f32⟩
  | 82 => ⟨S128x4x160000, .f32⟩
  | 83 => ⟨S128x4x160000, .f32⟩
  | 84 => ⟨S128x4x1, .f32⟩
  | 85 => ⟨S128x4, .f32⟩
  | 86 => ⟨S128x4x1, .f32⟩
  | 87 => ⟨S128x4x160000, .f32⟩
  | 88 => ⟨S128x4x160000, .f32⟩
  | 89 => ⟨S128x4x16, .f32⟩
  | 90 => ⟨S128x4x67735, .f32⟩
  | 91 => ⟨S1x1x67735, .f32⟩
  | 92 => ⟨S128x4x67735, .f32⟩
  | 93 => ⟨S128x4x67735, .f32⟩
  | 94 => ⟨S_, .f32⟩
  | 95 => ⟨S128x4, .f32⟩
  | 96 => ⟨S_, .f32⟩
  | 97 => ⟨S128x4, .f32⟩
  | 98 => ⟨S128x4, .f32⟩
  | 99 => ⟨S128x4x1, .f32⟩
  | 100 => ⟨S128x4x67735, .f32⟩
  | 101 => ⟨S128x4x67735, .f32⟩
  | 102 => ⟨S128x4x67735, .f32⟩
  | 103 => ⟨S_, .f32⟩
  | 104 => ⟨S128x4, .f32⟩
  | 105 => ⟨S128x4x1, .f32⟩
  | 106 => ⟨S128x4x1, .f32⟩
  | 107 => ⟨S128x4x67735, .f32⟩
  | 108 => ⟨S128x4x67735, .f32⟩
  | 109 => ⟨S128x4x1, .f32⟩
  | 110 => ⟨S128x4, .f32⟩
  | 111 => ⟨S128x4x1, .f32⟩
  | 112 => ⟨S128x4x67735, .f32⟩
  | 113 => ⟨S128x4x67735, .f32⟩
  | 114 => ⟨S128x4x267735, .f32⟩
  | 115 => ⟨S128x4x1, .i32⟩
  | 116 => ⟨S_, .i32⟩
  | 117 => ⟨S128x4x1, .i32⟩
  | 118 => ⟨S128x4x1, .i1⟩
  | 119 => ⟨S_, .i32⟩
  | 120 => ⟨S128x4x1, .i32⟩
  | 121 => ⟨S128x4x1, .i32⟩
  | 122 => ⟨S128x4x1, .i32⟩
  | 123 => ⟨S128x4x1x1, .i32⟩
  | 124 => ⟨S1, .i32⟩
  | 125 => ⟨S_, .i32⟩
  | 126 => ⟨S128x4x1x1, .i32⟩
  | 127 => ⟨S128x4x1x1, .i1⟩
  | _ => ⟨S128x4x1024, .f32⟩

abbrev hbmTy0_1 (i : Nat) : BufTy := match i % 128 with
  | 0 => ⟨S1x1x1x1, .i32⟩
  | 1 => ⟨S128x4x1x1, .i32⟩
  | 2 => ⟨S128x4x1x1, .i1⟩
  | 3 => ⟨S128x4x1x1, .i1⟩
  | 4 => ⟨S_, .i1⟩
  | 5 => ⟨S128x4x1, .i1⟩
  | 6 => ⟨S128x4x1, .f32⟩
  | 7 => ⟨S_, .f32⟩
  | 8 => ⟨S128x4x1, .f32⟩
  | 9 => ⟨S128x4x1, .f32⟩
  | 10 => ⟨S128x4, .f32⟩
  | 11 => ⟨S128x4, .f32⟩
  | 12 => ⟨S_, .f32⟩
  | 13 => ⟨S_, .f32⟩
  | 14 => ⟨S_, .f32⟩
  | 15 => ⟨S_, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call0_cst : Ref sig .tc := ⟨.hbm, 23, rfl⟩
abbrev main_call0_v0 : Ref sig .tc := ⟨.hbm, 24, rfl⟩
abbrev main_call0_cst_0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_cst_1 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_call1_cst : Ref sig .tc := ⟨.hbm, 44, rfl⟩
abbrev main_call1_v0 : Ref sig .tc := ⟨.hbm, 45, rfl⟩
abbrev main_call1_cst_0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_cst_1 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_call2_cst : Ref sig .tc := ⟨.hbm, 69, rfl⟩
abbrev main_call2_v0 : Ref sig .tc := ⟨.hbm, 70, rfl⟩
abbrev main_call2_cst_0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_v6 : Ref sig .tc := ⟨.hbm, 77, rfl⟩
abbrev main_call2_cst_1 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_call3_cst : Ref sig .tc := ⟨.hbm, 94, rfl⟩
abbrev main_call3_v0 : Ref sig .tc := ⟨.hbm, 95, rfl⟩
abbrev main_call3_cst_0 : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_v6 : Ref sig .tc := ⟨.hbm, 102, rfl⟩
abbrev main_call3_cst_1 : Ref sig .tc := ⟨.hbm, 103, rfl⟩
abbrev main_call3_v7 : Ref sig .tc := ⟨.hbm, 104, rfl⟩
abbrev main_call3_v8 : Ref sig .tc := ⟨.hbm, 105, rfl⟩
abbrev main_call3_v9 : Ref sig .tc := ⟨.hbm, 106, rfl⟩
abbrev main_call3_v10 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_call4_c : Ref sig .tc := ⟨.hbm, 116, rfl⟩
abbrev main_call4_v0 : Ref sig .tc := ⟨.hbm, 117, rfl⟩
abbrev main_call4_v1 : Ref sig .tc := ⟨.hbm, 118, rfl⟩
abbrev main_call4_c_0 : Ref sig .tc := ⟨.hbm, 119, rfl⟩
abbrev main_call4_v2 : Ref sig .tc := ⟨.hbm, 120, rfl⟩
abbrev main_call4_v3 : Ref sig .tc := ⟨.hbm, 121, rfl⟩
abbrev main_call4_v4 : Ref sig .tc := ⟨.hbm, 122, rfl⟩
abbrev main_call4_v5 : Ref sig .tc := ⟨.hbm, 123, rfl⟩
abbrev main_call4_c_1 : Ref sig .tc := ⟨.hbm, 124, rfl⟩
abbrev main_call4_c_2 : Ref sig .tc := ⟨.hbm, 125, rfl⟩
abbrev main_call4_v6 : Ref sig .tc := ⟨.hbm, 126, rfl⟩
abbrev main_call4_v7 : Ref sig .tc := ⟨.hbm, 127, rfl⟩
abbrev main_call4_v8 : Ref sig .tc := ⟨.hbm, 128, rfl⟩
abbrev main_call4_v9 : Ref sig .tc := ⟨.hbm, 129, rfl⟩
abbrev main_call4_v10 : Ref sig .tc := ⟨.hbm, 130, rfl⟩
abbrev main_call4_v11 : Ref sig .tc := ⟨.hbm, 131, rfl⟩
abbrev main_call4_c_3 : Ref sig .tc := ⟨.hbm, 132, rfl⟩
abbrev main_call4_v12 : Ref sig .tc := ⟨.hbm, 133, rfl⟩
abbrev main_call4_v13 : Ref sig .tc := ⟨.hbm, 134, rfl⟩
abbrev main_call4_cst : Ref sig .tc := ⟨.hbm, 135, rfl⟩
abbrev main_call4_v14 : Ref sig .tc := ⟨.hbm, 136, rfl⟩
abbrev main_v44 : Ref sig .tc := ⟨.hbm, 137, rfl⟩
abbrev main_v45 : Ref sig .tc := ⟨.hbm, 138, rfl⟩
abbrev main_v46 : Ref sig .tc := ⟨.hbm, 139, rfl⟩
abbrev main_cst : Ref sig .tc := ⟨.hbm, 140, rfl⟩
abbrev main_v47 : Ref sig .tc := ⟨.hbm, 141, rfl⟩
abbrev main_cst_0 : Ref sig .tc := ⟨.hbm, 142, rfl⟩
abbrev main_v48 : Ref sig .tc := ⟨.hbm, 143, rfl⟩

abbrev nD : Nat := 1
abbrev τ : Topo := Topo.v7x

variable {F : FTy → Type} [FloatOps F]

class Facts₀ : Prop where
  concatenates_S20000x1024_S3x1024_S20003x1024_d0 : Shape.Concatenates [S20000x1024, S3x1024] S20003x1024 0
  concatenates_S20000_S3_S20003_d0 : Shape.Concatenates [S20000, S3] S20003 0
  bcast_S20003_S1x1x20003_2 : S20003.BroadcastsInDim S1x1x20003 (![2] : Fin 1 → Fin S1x1x20003.rank)
  bcast_S1x1x20003_S128x4x20003_0_1_2 : S1x1x20003.BroadcastsInDim S128x4x20003 (![0, 1, 2] : Fin 3 → Fin S128x4x20003.rank)
  reducesTo_S128x4x20003_S128x4_d2 : S128x4x20003.ReducesTo [2] S128x4
  h_S_ : 0 < S_.numel
  bcast_S_S128x4 : S_.BroadcastsInDim S128x4 (![] : Fin 0 → Fin S128x4.rank)
  bcast_S128x4_S128x4x1_0_1 : S128x4.BroadcastsInDim S128x4x1 (![0, 1] : Fin 2 → Fin S128x4x1.rank)
  bcast_S128x4x1_S128x4x20003_0_1_2 : S128x4x1.BroadcastsInDim S128x4x20003 (![0, 1, 2] : Fin 3 → Fin S128x4x20003.rank)
  slices_S128x4x20003_S128x4x20000_0_0_0 : S128x4x20003.Slices ![0, 0, 0] S128x4x20000
  bcast_S20000_S1x1x20000_2 : S20000.BroadcastsInDim S1x1x20000 (![2] : Fin 1 → Fin S1x1x20000.rank)
  bcast_S1x1x20000_S128x4x20000_0_1_2 : S1x1x20000.BroadcastsInDim S128x4x20000 (![0, 1, 2] : Fin 3 → Fin S128x4x20000.rank)
  reducesTo_S128x4x20000_S128x4_d2 : S128x4x20000.ReducesTo [2] S128x4
  bcast_S128x4x1_S128x4x20000_0_1_2 : S128x4x1.BroadcastsInDim S128x4x20000 (![0, 1, 2] : Fin 3 → Fin S128x4x20000.rank)
  slices_S128x4x20003_S128x4x1_0_0_20000 : S128x4x20003.Slices ![0, 0, 20000] S128x4x1
  shapeCasts_S128x4x1_S128x4 : S128x4x1.ShapeCasts S128x4
  bcast_S160000_S1x1x160000_2 : S160000.BroadcastsInDim S1x1x160000 (![2] : Fin 1 → Fin S1x1x160000.rank)
  bcast_S1x1x160000_S128x4x160000_0_1_2 : S1x1x160000.BroadcastsInDim S128x4x160000 (![0, 1, 2] : Fin 3 → Fin S128x4x160000.rank)
  reducesTo_S128x4x160000_S128x4_d2 : S128x4x160000.ReducesTo [2] S128x4
  bcast_S128x4x1_S128x4x160000_0_1_2 : S128x4x1.BroadcastsInDim S128x4x160000 (![0, 1, 2] : Fin 3 → Fin S128x4x160000.rank)
  slices_S128x4x20003_S128x4x1_0_0_20001 : S128x4x20003.Slices ![0, 0, 20001] S128x4x1
  bcast_S67735_S1x1x67735_2 : S67735.BroadcastsInDim S1x1x67735 (![2] : Fin 1 → Fin S1x1x67735.rank)
  bcast_S1x1x67735_S128x4x67735_0_1_2 : S1x1x67735.BroadcastsInDim S128x4x67735 (![0, 1, 2] : Fin 3 → Fin S128x4x67735.rank)
  reducesTo_S128x4x67735_S128x4_d2 : S128x4x67735.ReducesTo [2] S128x4
  bcast_S128x4x1_S128x4x67735_0_1_2 : S128x4x1.BroadcastsInDim S128x4x67735 (![0, 1, 2] : Fin 3 → Fin S128x4x67735.rank)
  slices_S128x4x20003_S128x4x1_0_0_20002 : S128x4x20003.Slices ![0, 0, 20002] S128x4x1
  concatenates_S128x4x20000_S128x4x20000_S128x4x160000_S128x4x67735_S128x4x267735_d2 : Shape.Concatenates [S128x4x20000, S128x4x20000, S128x4x160000, S128x4x67735] S128x4x267735 2
  bcast_S_S128x4x1 : S_.BroadcastsInDim S128x4x1 (![] : Fin 0 → Fin S128x4x1.rank)
  shapeCasts_S128x4x1_S128x4x1x1 : S128x4x1.ShapeCasts S128x4x1x1
  bcast_S_S128x4x1x1 : S_.BroadcastsInDim S128x4x1x1 (![] : Fin 0 → Fin S128x4x1x1.rank)
  bcast_S1_S1x1x1x1_3 : S1.BroadcastsInDim S1x1x1x1 (![3] : Fin 1 → Fin S1x1x1x1.rank)
  bcast_S1x1x1x1_S128x4x1x1_0_1_2_3 : S1x1x1x1.BroadcastsInDim S128x4x1x1 (![0, 1, 2, 3] : Fin 4 → Fin S128x4x1x1.rank)
  reducesTo_S128x4x1x1_S128x4x1_d3 : S128x4x1x1.ReducesTo [3] S128x4x1
  reducesTo_S128x4_S_d0_1 : S128x4.ReducesTo [0, 1] S_
  dot_S128x4x1024_S1024x1024_S128x4x1024_2_1_01_0_n_n_wf : DotDims.WF S128x4x1024 S1024x1024 S128x4x1024 [2] [1] [0, 1] [0] [] []
  dot_S128x4x1024_S20003x1024_S128x4x20003_2_1_01_0_n_n_wf : DotDims.WF S128x4x1024 S20003x1024 S128x4x20003 [2] [1] [0, 1] [0] [] []
  dot_S128x4x1024_S256x1024_S128x4x256_2_1_01_0_n_n_wf : DotDims.WF S128x4x1024 S256x1024 S128x4x256 [2] [1] [0, 1] [0] [] []
  dot_S128x4x256_S20000x256_S128x4x20000_2_1_01_0_n_n_wf : DotDims.WF S128x4x256 S20000x256 S128x4x20000 [2] [1] [0, 1] [0] [] []
  dot_S128x4x1024_S64x1024_S128x4x64_2_1_01_0_n_n_wf : DotDims.WF S128x4x1024 S64x1024 S128x4x64 [2] [1] [0, 1] [0] [] []
  dot_S128x4x64_S160000x64_S128x4x160000_2_1_01_0_n_n_wf : DotDims.WF S128x4x64 S160000x64 S128x4x160000 [2] [1] [0, 1] [0] [] []
  dot_S128x4x1024_S16x1024_S128x4x16_2_1_01_0_n_n_wf : DotDims.WF S128x4x1024 S16x1024 S128x4x16 [2] [1] [0, 1] [0] [] []
  dot_S128x4x16_S67735x16_S128x4x67735_2_1_01_0_n_n_wf : DotDims.WF S128x4x16 S67735x16 S128x4x67735 [2] [1] [0, 1] [0] [] []
  gather_S128x4x267735_S128x4x1x1_S128x4x1_n_2_01_01_2_3_111_wf : GatherDims.WF S128x4x267735 S128x4x1x1 S128x4x1 [] [2] [0, 1] [2] [0, 1] 3 ![1, 1, 1]

variable [Facts₀]

def dot_S128x4x1024_S1024x1024_S128x4x1024_2_1_01_0_n_n : DotDims S128x4x1024 S1024x1024 S128x4x1024 where
  lhsContracting := [2]
  rhsContracting := [1]
  lhsNonContracting := [0, 1]
  rhsNonContracting := [0]
  lhsBatch := []
  rhsBatch := []
  wf := dot_S128x4x1024_S1024x1024_S128x4x1024_2_1_01_0_n_n_wf
def dot_S128x4x1024_S20003x1024_S128x4x20003_2_1_01_0_n_n : DotDims S128x4x1024 S20003x1024 S128x4x20003 where
  lhsContracting := [2]
  rhsContracting := [1]
  lhsNonContracting := [0, 1]
  rhsNonContracting := [0]
  lhsBatch := []
  rhsBatch := []
  wf := dot_S128x4x1024_S20003x1024_S128x4x20003_2_1_01_0_n_n_wf
def dot_S128x4x1024_S256x1024_S128x4x256_2_1_01_0_n_n : DotDims S128x4x1024 S256x1024 S128x4x256 where
  lhsContracting := [2]
  rhsContracting := [1]
  lhsNonContracting := [0, 1]
  rhsNonContracting := [0]
  lhsBatch := []
  rhsBatch := []
  wf := dot_S128x4x1024_S256x1024_S128x4x256_2_1_01_0_n_n_wf
def dot_S128x4x256_S20000x256_S128x4x20000_2_1_01_0_n_n : DotDims S128x4x256 S20000x256 S128x4x20000 where
  lhsContracting := [2]
  rhsContracting := [1]
  lhsNonContracting := [0, 1]
  rhsNonContracting := [0]
  lhsBatch := []
  rhsBatch := []
  wf := dot_S128x4x256_S20000x256_S128x4x20000_2_1_01_0_n_n_wf
def dot_S128x4x1024_S64x1024_S128x4x64_2_1_01_0_n_n : DotDims S128x4x1024 S64x1024 S128x4x64 where
  lhsContracting := [2]
  rhsContracting := [1]
  lhsNonContracting := [0, 1]
  rhsNonContracting := [0]
  lhsBatch := []
  rhsBatch := []
  wf := dot_S128x4x1024_S64x1024_S128x4x64_2_1_01_0_n_n_wf
def dot_S128x4x64_S160000x64_S128x4x160000_2_1_01_0_n_n : DotDims S128x4x64 S160000x64 S128x4x160000 where
  lhsContracting := [2]
  rhsContracting := [1]
  lhsNonContracting := [0, 1]
  rhsNonContracting := [0]
  lhsBatch := []
  rhsBatch := []
  wf := dot_S128x4x64_S160000x64_S128x4x160000_2_1_01_0_n_n_wf
def dot_S128x4x1024_S16x1024_S128x4x16_2_1_01_0_n_n : DotDims S128x4x1024 S16x1024 S128x4x16 where
  lhsContracting := [2]
  rhsContracting := [1]
  lhsNonContracting := [0, 1]
  rhsNonContracting := [0]
  lhsBatch := []
  rhsBatch := []
  wf := dot_S128x4x1024_S16x1024_S128x4x16_2_1_01_0_n_n_wf
def dot_S128x4x16_S67735x16_S128x4x67735_2_1_01_0_n_n : DotDims S128x4x16 S67735x16 S128x4x67735 where
  lhsContracting := [2]
  rhsContracting := [1]
  lhsNonContracting := [0, 1]
  rhsNonContracting := [0]
  lhsBatch := []
  rhsBatch := []
  wf := dot_S128x4x16_S67735x16_S128x4x67735_2_1_01_0_n_n_wf
def gather_S128x4x267735_S128x4x1x1_S128x4x1_n_2_01_01_2_3_111 : GatherDims S128x4x267735 S128x4x1x1 S128x4x1 where
  offsetDims := []
  collapsedSliceDims := [2]
  operandBatchingDims := [0, 1]
  startIndicesBatchingDims := [0, 1]
  startIndexMap := [2]
  indexVectorDim := 3
  sliceSizes := ![1, 1, 1]
  wf := gather_S128x4x267735_S128x4x1x1_S128x4x1_n_2_01_01_2_3_111_wf

class Facts : Prop extends Facts₀ where

variable [Facts]
-- ==== Proof.Preserves.lean ====
/-
  The kernel's idealization names one literal: the finite sentinel that the kernel stores as the running maximum's first
  value and selects into the padded vocabulary columns denotes minus infinity at the ideal instance. It occurs twelve times
  (three per cluster: once as the first running maximum, once as the mask's fill in the statistics pass, once as the fill in
  the write pass), and each occurrence states the same fact about the certificate's table.
-/
import proofs.«124427_j55336358642036_2_alg».proof.Defs

noncomputable section

namespace Cert.Proof

open Idealize.ShloMosaic

/-- The table gives the named sentinel the value minus infinity, and the printed constant is that value at the ideal instance. -/
theorem neg_big_statement : IdealRules.named_const.Statement Cert.KernelIdeal.κ "neg_big" .f32 0xFF333332#32 ⊥ :=
  IdealRules.named_const.statement Cert.KernelIdeal.κ "neg_big" .f32 0xFF333332#32 ⊥ rfl

/-- One conjunct per occurrence of the named sentinel. -/
theorem preserves : Cert.preserves_Kernel_KernelIdeal :=
  ⟨neg_big_statement, neg_big_statement, neg_big_statement, neg_big_statement, neg_big_statement, neg_big_statement,
   neg_big_statement, neg_big_statement, neg_big_statement, neg_big_statement, neg_big_statement, neg_big_statement⟩

end Cert.Proof

end
-- ==== Proof.Sizes.lean ====
/-
  The sizes of the eight launches. Launches 2k and 2k+1 serve vocabulary cluster k: each half of the grid walks
  `tilesPerHalf` tiles of `tileWidth` columns; the cluster has `validCols` real columns (the padded remainder is masked)
  and embeds into `embDim` dimensions.
-/

namespace Cert.Sizes

abbrev tilesPerHalf0 : Nat := 5
abbrev tileWidth0 : Nat := 2048
abbrev validCols0 : Nat := 20000
abbrev embDim0 : Nat := 1024
abbrev tilesPerHalf1 : Nat := 5
abbrev tileWidth1 : Nat := 2048
abbrev validCols1 : Nat := 20000
abbrev embDim1 : Nat := 1024
abbrev tilesPerHalf2 : Nat := 5
abbrev tileWidth2 : Nat := 2048
abbrev validCols2 : Nat := 20000
abbrev embDim2 : Nat := 256
abbrev tilesPerHalf3 : Nat := 5
abbrev tileWidth3 : Nat := 2048
abbrev validCols3 : Nat := 20000
abbrev embDim3 : Nat := 256
abbrev tilesPerHalf4 : Nat := 20
abbrev tileWidth4 : Nat := 4096
abbrev validCols4 : Nat := 160000
abbrev embDim4 : Nat := 64
abbrev tilesPerHalf5 : Nat := 20
abbrev tileWidth5 : Nat := 4096
abbrev validCols5 : Nat := 160000
abbrev embDim5 : Nat := 64
abbrev tilesPerHalf6 : Nat := 9
abbrev tileWidth6 : Nat := 4096
abbrev validCols6 : Nat := 67735
abbrev embDim6 : Nat := 16
abbrev tilesPerHalf7 : Nat := 9
abbrev tileWidth7 : Nat := 4096
abbrev validCols7 : Nat := 67735
abbrev embDim7 : Nat := 16

end Cert.Sizes
-- ==== Proof.BitsStats0Defs.lean ====
/-
  The statistics launch of one vocabulary cluster, as data. Each half of the grid walks `tilesPerHalf0` tiles of the
  cluster's padded weight. At the first tile of a half the hidden rows are projected and rounded into a scratch that
  stays until the half ends, the running maximum starts at the named lower bound and the running sum at zero. Every
  tile then forms its logits from the scratch, the tile's weight rows and its bias columns, masks the columns past the
  cluster's real width to the lower bound, raises the maximum to the tile's row maxima, rescales the sum to the new
  maximum and adds the tile's exponentials. The two statistics' blocks are written back when the half ends.

  This module names that computation: the state a tile leaves (`Stat0`), the start of a half (`start0`), one tile's
  update (`step0`), their fold over the points of the grid (`stats0`), and the proof data of the pipeline whose
  staging contents and scratch invariant are read off the fold (`dat0`, `Φ0`). Nothing is run here.
-/
import proofs.«124427_j55336358642036_2_alg».proof.Proof.Gen.Kernel.Launch
import proofs.«124427_j55336358642036_2_alg».proof.Proof.Gen.Kernel.Skeleton
import proofs.«124427_j55336358642036_2_alg».proof.Proof.Gen.Kernel.Points
import proofs.«124427_j55336358642036_2_alg».proof.Proof.Sizes

set_option maxRecDepth 16384

noncomputable section

namespace Cert.Kernel.Hand

open Cert.Kernel.Gen Cert.Sizes
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The projected rows, the running maximum and the running sum of exponentials. -/
structure Stat0 (F : FTy → Type) where
  y : Vec F S512x1024 .bf16
  m : Vec F S1x512x1 .f32
  l : Vec F S1x512x1 .f32

/-- What the first tile of a half starts from: the hidden rows projected and rounded, the maximum at the named
    lower bound, the sum at zero. -/
def start0 (hid : Vec F S512x1024 .bf16) (prj : Vec F S1024x1024 .bf16) : Stat0 F :=
  ⟨k0_pay3 hid prj, k0_pay4, k0_pay5⟩

/-- One tile's update: the new maximum over the old one and the tile's masked logits; the sum rescaled to it and
    increased by the tile's exponentials. The projected rows stay. -/
def step0 (i : grid0.Coords) (wb : Vec F S2048x1024 .bf16) (bb : Vec F S1x2048 .f32) (s : Stat0 F) : Stat0 F :=
  ⟨s.y, k0_pay2 (k0_pay7 i s.y wb bb s.m),
    k0_pay1 (k0_pay6 i s.y wb bb) (k0_pay8 i s.y wb bb s.m s.m s.l) (k0_pay9 i s.y wb bb s.m)⟩

section Region

variable (V : (c : Dev nD) → (b : Ref sig .tc) → Buf (Elt F) ((c : Thread nD τ).loc b))

/-! ## The windows' blocks, read off the arrays as the region finds them -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The hidden rows (whole), the projection (whole), the tile's rows of the padded weight and its bias columns. -/
abbrev hidBlk0 (c : Dev nD) (t : Fin cfg0.N) : Vec F S512x1024 .bf16 := iblk0 V c 0 t
abbrev prjBlk0 (c : Dev nD) (t : Fin cfg0.N) : Vec F S1024x1024 .bf16 := iblk0 V c 1 t
abbrev wBlk0 (c : Dev nD) (t : Fin cfg0.N) : Vec F S2048x1024 .bf16 := iblk0 V c 2 t
abbrev bBlk0 (c : Dev nD) (t : Fin cfg0.N) : Vec F S1x2048 .f32 := iblk0 V c 3 t

/-- The start of a half and one tile's update, at a point of the grid. -/
def startAt0 (c : Dev nD) (t : Fin cfg0.N) : Stat0 F := start0 (hidBlk0 V c t) (prjBlk0 V c t)
def stepAt0 (c : Dev nD) (t : Fin cfg0.N) (s : Stat0 F) : Stat0 F := step0 (grid0.coords t) (wBlk0 V c t) (bBlk0 V c t) s

/-- The n-th point of the grid (n below the number of points). -/
def pt0 (n : ℕ) : Fin cfg0.N := ⟨n % cfg0.N, Nat.mod_lt _ (by decide : 0 < grid0.N)⟩

theorem pt0_val (t : Fin cfg0.N) : pt0 t.val = t := Fin.ext (Nat.mod_eq_of_lt t.isLt)

/-- THE ONLINE FOLD. The statistics after the body at point n: the first tile of a half starts afresh, every
    other tile updates what the tile before it left. -/
def stats0 (c : Dev nD) : ℕ → Stat0 F
  | 0 => stepAt0 V c (pt0 0) (startAt0 V c (pt0 0))
  | n + 1 => stepAt0 V c (pt0 (n + 1)) (if (n + 1) % tilesPerHalf0 = 0 then startAt0 V c (pt0 (n + 1)) else stats0 c n)

theorem stats0_first (c : Dev nD) (n : ℕ) (h : n % tilesPerHalf0 = 0) :
    stats0 V c n = stepAt0 V c (pt0 n) (startAt0 V c (pt0 n)) := by
  cases n with
  | zero => rfl
  | succ n => show stepAt0 V c _ (if _ then _ else _) = _; rw [if_pos h]

theorem stats0_next (c : Dev nD) (n : ℕ) (h : ¬(n + 1) % tilesPerHalf0 = 0) :
    stats0 V c (n + 1) = stepAt0 V c (pt0 (n + 1)) (stats0 V c n) := by
  show stepAt0 V c _ (if _ then _ else _) = _; rw [if_neg h]

theorem stats0_A (c : Dev nD) (t : Fin cfg0.N) (h : t.val % tilesPerHalf0 = 0) :
    stats0 V c t.val = stepAt0 V c t (startAt0 V c t) := by
  rw [stats0_first V c t.val h, pt0_val]

theorem stats0_B (c : Dev nD) (t : Fin cfg0.N) (h : ¬t.val % tilesPerHalf0 = 0) :
    stats0 V c t.val = stepAt0 V c t (stats0 V c (t.val - 1)) := by
  have h0 : t.val ≠ 0 := fun e => h (by rw [e]; exact Nat.zero_mod _)
  have e := stats0_next V c (t.val - 1) (by rw [Nat.sub_one_add_one h0]; exact h)
  rw [Nat.sub_one_add_one h0, pt0_val] at e
  exact e

/-! ## The body's invariant between points: the scratch -/

abbrev scM0 : Memref sig .tc .vmem S512x1024 .bf16 := Memref.whole cc0_scratch0

/-- Before the first point the scratch is among the scoped buffers at some contents; after point n it holds the
    projected rows the fold carries. -/
def Φ0 (c : Dev nD) : ℕ → sProp 𝕄
  | 0 => Pipeline.scopedRest (Ix := Unit) (Name := ℕ) (U := UR sig nD τ) (Lvl := ℕ) (Val := Elt F) spec0 c
  | n + 1 => iprop(owns (c : Thread nD τ) scM0 fullShare (stats0 V c n).y
      ∗ Pipeline.scopedRestBut (Ix := Unit) (Name := ℕ) (U := UR sig nD τ) (Lvl := ℕ) (Val := Elt F) spec0 c [cc0_scratch0])

theorem Φ0_succ (c : Dev nD) (n : ℕ) : Φ0 V c (n + 1) = iprop(owns (c : Thread nD τ) scM0 fullShare (stats0 V c n).y
      ∗ Pipeline.scopedRestBut (Ix := Unit) (Name := ℕ) (U := UR sig nD τ) (Lvl := ℕ) (Val := Elt F) spec0 c [cc0_scratch0]) := rfl
/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (stats0 V c t.val).m
    | ⟨5, _⟩ => (stats0 V c t.val).l
  Φ t := Φ0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (stats0 V c t.val).m := by dsimp only [dat0]
theorem after0_5 (c : Dev nD) (t : Fin cfg0.N) : (dat0 V c).after 5 t = (stats0 V c t.val).l := by dsimp only [dat0]

/-- Inside a half (not at its first tile) the point is not the first and the statistics' buffers were not written
    back at the point before: decided over the grid. -/
theorem sched0_4 : ∀ t : Fin cfg0.N, ¬t.val % tilesPerHalf0 = 0 →
    t.val ≠ 0 ∧ (cfg0.win 4).flush ⟨t.val - 1, Nat.lt_of_le_of_lt (Nat.sub_le _ _) t.isLt⟩ = false :=
  (by decide +kernel : ∀ t : Fin grid0.N, ¬t.val % tilesPerHalf0 = 0 →
    t.val ≠ 0 ∧ win0_4.flush ⟨t.val - 1, Nat.lt_of_le_of_lt (Nat.sub_le _ _) t.isLt⟩ = false)
theorem sched0_5 : ∀ t : Fin cfg0.N, ¬t.val % tilesPerHalf0 = 0 →
    t.val ≠ 0 ∧ (cfg0.win 5).flush ⟨t.val - 1, Nat.lt_of_le_of_lt (Nat.sub_le _ _) t.isLt⟩ = false :=
  (by decide +kernel : ∀ t : Fin grid0.N, ¬t.val % tilesPerHalf0 = 0 →
    t.val ≠ 0 ∧ win0_5.flush ⟨t.val - 1, Nat.lt_of_le_of_lt (Nat.sub_le _ _) t.isLt⟩ = false)

end Region

end Cert.Kernel.Hand

end
-- ==== Proof.BitsStats2Defs.lean ====
/-
  The statistics launch of one vocabulary cluster, as data. Each half of the grid walks `tilesPerHalf2` tiles of the
  cluster's padded weight. At the first tile of a half the hidden rows are projected and rounded into a scratch that
  stays until the half ends, the running maximum starts at the named lower bound and the running sum at zero. Every
  tile then forms its logits from the scratch, the tile's weight rows and its bias columns, masks the columns past the
  cluster's real width to the lower bound, raises the maximum to the tile's row maxima, rescales the sum to the new
  maximum and adds the tile's exponentials. The two statistics' blocks are written back when the half ends.

  This module names that computation: the state a tile leaves (`Stat2`), the start of a half (`start2`), one tile's
  update (`step2`), their fold over the points of the grid (`stats2`), and the proof data of the pipeline whose
  staging contents and scratch invariant are read off the fold (`dat2`, `Φ2`). Nothing is run here.
-/
import proofs.«124427_j55336358642036_2_alg».proof.Proof.Gen.Kernel.Launch
import proofs.«124427_j55336358642036_2_alg».proof.Proof.Gen.Kernel.Skeleton
import proofs.«124427_j55336358642036_2_alg».proof.Proof.Gen.Kernel.Points
import proofs.«124427_j55336358642036_2_alg».proof.Proof.Sizes

set_option maxRecDepth 16384

noncomputable section

namespace Cert.Kernel.Hand

open Cert.Kernel.Gen Cert.Sizes
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The projected rows, the running maximum and the running sum of exponentials. -/
structure Stat2 (F : FTy → Type) where
  y : Vec F S512x256 .bf16
  m : Vec F S1x512x1 .f32
  l : Vec F S1x512x1 .f32

/-- What the first tile of a half starts from: the hidden rows projected and rounded, the maximum at the named
    lower bound, the sum at zero. -/
def start2 (hid : Vec F S512x1024 .bf16) (prj : Vec F S256x1024 .bf16) : Stat2 F :=
  ⟨k2_pay3 hid prj, k2_pay4, k2_pay5⟩

/-- One tile's update: the new maximum over the old one and the tile's masked logits; the sum rescaled to it and
    increased by the tile's exponentials. The projected rows stay. -/
def step2 (i : grid2.Coords) (wb : Vec F S2048x256 .bf16) (bb : Vec F S1x2048 .f32) (s : Stat2 F) : Stat2 F :=
  ⟨s.y, k2_pay2 (k2_pay7 i s.y wb bb s.m),
    k2_pay1 (k2_pay6 i s.y wb bb) (k2_pay8 i s.y wb bb s.m s.m s.l) (k2_pay9 i s.y wb bb s.m)⟩

section Region

variable (V : (c : Dev nD) → (b : Ref sig .tc) → Buf (Elt F) ((c : Thread nD τ).loc b))

/-! ## The windows' blocks, read off the arrays as the region finds them -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The hidden rows (whole), the projection (whole), the tile's rows of the padded weight and its bias columns. -/
abbrev hidBlk2 (c : Dev nD) (t : Fin cfg2.N) : Vec F S512x1024 .bf16 := iblk2 V c 0 t
abbrev prjBlk2 (c : Dev nD) (t : Fin cfg2.N) : Vec F S256x1024 .bf16 := iblk2 V c 1 t
abbrev wBlk2 (c : Dev nD) (t : Fin cfg2.N) : Vec F S2048x256 .bf16 := iblk2 V c 2 t
abbrev bBlk2 (c : Dev nD) (t : Fin cfg2.N) : Vec F S1x2048 .f32 := iblk2 V c 3 t

/-- The start of a half and one tile's update, at a point of the grid. -/
def startAt2 (c : Dev nD) (t : Fin cfg2.N) : Stat2 F := start2 (hidBlk2 V c t) (prjBlk2 V c t)
def stepAt2 (c : Dev nD) (t : Fin cfg2.N) (s : Stat2 F) : Stat2 F := step2 (grid2.coords t) (wBlk2 V c t) (bBlk2 V c t) s

/-- The n-th point of the grid (n below the number of points). -/
def pt2 (n : ℕ) : Fin cfg2.N := ⟨n % cfg2.N, Nat.mod_lt _ (by decide : 0 < grid2.N)⟩

theorem pt2_val (t : Fin cfg2.N) : pt2 t.val = t := Fin.ext (Nat.mod_eq_of_lt t.isLt)

/-- THE ONLINE FOLD. The statistics after the body at point n: the first tile of a half starts afresh, every
    other tile updates what the tile before it left. -/
def stats2 (c : Dev nD) : ℕ → Stat2 F
  | 0 => stepAt2 V c (pt2 0) (startAt2 V c (pt2 0))
  | n + 1 => stepAt2 V c (pt2 (n + 1)) (if (n + 1) % tilesPerHalf2 = 0 then startAt2 V c (pt2 (n + 1)) else stats2 c n)

theorem stats2_first (c : Dev nD) (n : ℕ) (h : n % tilesPerHalf2 = 0) :
    stats2 V c n = stepAt2 V c (pt2 n) (startAt2 V c (pt2 n)) := by
  cases n with
  | zero => rfl
  | succ n => show stepAt2 V c _ (if _ then _ else _) = _; rw [if_pos h]

theorem stats2_next (c : Dev nD) (n : ℕ) (h : ¬(n + 1) % tilesPerHalf2 = 0) :
    stats2 V c (n + 1) = stepAt2 V c (pt2 (n + 1)) (stats2 V c n) := by
  show stepAt2 V c _ (if _ then _ else _) = _; rw [if_neg h]

theorem stats2_A (c : Dev nD) (t : Fin cfg2.N) (h : t.val % tilesPerHalf2 = 0) :
    stats2 V c t.val = stepAt2 V c t (startAt2 V c t) := by
  rw [stats2_first V c t.val h, pt2_val]

theorem stats2_B (c : Dev nD) (t : Fin cfg2.N) (h : ¬t.val % tilesPerHalf2 = 0) :
    stats2 V c t.val = stepAt2 V c t (stats2 V c (t.val - 1)) := by
  have h0 : t.val ≠ 0 := fun e => h (by rw [e]; exact Nat.zero_mod _)
  have e := stats2_next V c (t.val - 1) (by rw [Nat.sub_one_add_one h0]; exact h)
  rw [Nat.sub_one_add_one h0, pt2_val] at e
  exact e

/-! ## The body's invariant between points: the scratch -/

abbrev scM2 : Memref sig .tc .vmem S512x256 .bf16 := Memref.whole cc2_scratch0

/-- Before the first point the scratch is among the scoped buffers at some contents; after point n it holds the
    projected rows the fold carries. -/
def Φ2 (c : Dev nD) : ℕ → sProp 𝕄
  | 0 => Pipeline.scopedRest (Ix := Unit) (Name := ℕ) (U := UR sig nD τ) (Lvl := ℕ) (Val := Elt F) spec2 c
  | n + 1 => iprop(owns (c : Thread nD τ) scM2 fullShare (stats2 V c n).y
      ∗ Pipeline.scopedRestBut (Ix := Unit) (Name := ℕ) (U := UR sig nD τ) (Lvl := ℕ) (Val := Elt F) spec2 c [cc2_scratch0])

theorem Φ2_succ (c : Dev nD) (n : ℕ) : Φ2 V c (n + 1) = iprop(owns (c : Thread nD τ) scM2 fullShare (stats2 V c n).y
      ∗ Pipeline.scopedRestBut (Ix := Unit) (Name := ℕ) (U := UR sig nD τ) (Lvl := ℕ) (Val := Elt F) spec2 c [cc2_scratch0]) := rfl
/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (stats2 V c t.val).m
    | ⟨5, _⟩ => (stats2 V c t.val).l
  Φ t := Φ2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (stats2 V c t.val).m := by dsimp only [dat2]
theorem after2_5 (c : Dev nD) (t : Fin cfg2.N) : (dat2 V c).after 5 t = (stats2 V c t.val).l := by dsimp only [dat2]

/-- Inside a half (not at its first tile) the point is not the first and the statistics' buffers were not written
    back at the point before: decided over the grid. -/
theorem sched2_4 : ∀ t : Fin cfg2.N, ¬t.val % tilesPerHalf2 = 0 →
    t.val ≠ 0 ∧ (cfg2.win 4).flush ⟨t.val - 1, Nat.lt_of_le_of_lt (Nat.sub_le _ _) t.isLt⟩ = false :=
  (by decide +kernel : ∀ t : Fin grid2.N, ¬t.val % tilesPerHalf2 = 0 →
    t.val ≠ 0 ∧ win2_4.flush ⟨t.val - 1, Nat.lt_of_le_of_lt (Nat.sub_le _ _) t.isLt⟩ = false)
theorem sched2_5 : ∀ t : Fin cfg2.N, ¬t.val % tilesPerHalf2 = 0 →
    t.val ≠ 0 ∧ (cfg2.win 5).flush ⟨t.val - 1, Nat.lt_of_le_of_lt (Nat.sub_le _ _) t.isLt⟩ = false :=
  (by decide +kernel : ∀ t : Fin grid2.N, ¬t.val % tilesPerHalf2 = 0 →
    t.val ≠ 0 ∧ win2_5.flush ⟨t.val - 1, Nat.lt_of_le_of_lt (Nat.sub_le _ _) t.isLt⟩ = false)

end Region

end Cert.Kernel.Hand

end
-- ==== Proof.BitsStats4Defs.lean ====
/-
  The statistics launch of one vocabulary cluster, as data. Each half of the grid walks `tilesPerHalf4` tiles of the
  cluster's padded weight. At the first tile of a half the hidden rows are projected and rounded into a scratch that
  stays until the half ends, the running maximum starts at the named lower bound and the running sum at zero. Every
  tile then forms its logits from the scratch, the tile's weight rows and its bias columns, masks the columns past the
  cluster's real width to the lower bound, raises the maximum to the tile's row maxima, rescales the sum to the new
  maximum and adds the tile's exponentials. The two statistics' blocks are written back when the half ends.

  This module names that computation: the state a tile leaves (`Stat4`), the start of a half (`start4`), one tile's
  update (`step4`), their fold over the points of the grid (`stats4`), and the proof data of the pipeline whose
  staging contents and scratch invariant are read off the fold (`dat4`, `Φ4`). Nothing is run here.
-/
import proofs.«124427_j55336358642036_2_alg».proof.Proof.Gen.Kernel.Launch
import proofs.«124427_j55336358642036_2_alg».proof.Proof.Gen.Kernel.Skeleton
import proofs.«124427_j55336358642036_2_alg».proof.Proof.Gen.Kernel.Points
import proofs.«124427_j55336358642036_2_alg».proof.Proof.Sizes

set_option maxRecDepth 16384

noncomputable section

namespace Cert.Kernel.Hand

open Cert.Kernel.Gen Cert.Sizes
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The projected rows, the running maximum and the running sum of exponentials. -/
structure Stat4 (F : FTy → Type) where
  y : Vec F S512x64 .bf16
  m : Vec F S1x512x1 .f32
  l : Vec F S1x512x1 .f32

/-- What the first tile of a half starts from: the hidden rows projected and rounded, the maximum at the named
    lower bound, the sum at zero. -/
def start4 (hid : Vec F S512x1024 .bf16) (prj : Vec F S64x1024 .bf16) : Stat4 F :=
  ⟨k4_pay3 hid prj, k4_pay4, k4_pay5⟩

/-- One tile's update: the new maximum over the old one and the tile's masked logits; the sum rescaled to it and
    increased by the tile's exponentials. The projected rows stay. -/
def step4 (i : grid4.Coords) (wb : Vec F S4096x64 .bf16) (bb : Vec F S1x4096 .f32) (s : Stat4 F) : Stat4 F :=
  ⟨s.y, k4_pay2 (k4_pay7 i s.y wb bb s.m),
    k4_pay1 (k4_pay6 i s.y wb bb) (k4_pay8 i s.y wb bb s.m s.m s.l) (k4_pay9 i s.y wb bb s.m)⟩

section Region

variable (V : (c : Dev nD) → (b : Ref sig .tc) → Buf (Elt F) ((c : Thread nD τ).loc b))

/-! ## The windows' blocks, read off the arrays as the region finds them -/

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The hidden rows (whole), the projection (whole), the tile's rows of the padded weight and its bias columns. -/
abbrev hidBlk4 (c : Dev nD) (t : Fin cfg4.N) : Vec F S512x1024 .bf16 := iblk4 V c 0 t
abbrev prjBlk4 (c : Dev nD) (t : Fin cfg4.N) : Vec F S64x1024 .bf16 := iblk4 V c 1 t
abbrev wBlk4 (c : Dev nD) (t : Fin cfg4.N) : Vec F S4096x64 .bf16 := iblk4 V c 2 t
abbrev bBlk4 (c : Dev nD) (t : Fin cfg4.N) : Vec F S1x4096 .f32 := iblk4 V c 3 t

/-- The start of a half and one tile's update, at a point of the grid. -/
def startAt4 (c : Dev nD) (t : Fin cfg4.N) : Stat4 F := start4 (hidBlk4 V c t) (prjBlk4 V c t)
def stepAt4 (c : Dev nD) (t : Fin cfg4.N) (s : Stat4 F) : Stat4 F := step4 (grid4.coords t) (wBlk4 V c t) (bBlk4 V c t) s

/-- The n-th point of the grid (n below the number of points). -/
def pt4 (n : ℕ) : Fin cfg4.N := ⟨n % cfg4.N, Nat.mod_lt _ (by decide : 0 < grid4.N)⟩

theorem pt4_val (t : Fin cfg4.N) : pt4 t.val = t := Fin.ext (Nat.mod_eq_of_lt t.isLt)

/-- THE ONLINE FOLD. The statistics after the body at point n: the first tile of a half starts afresh, every
    other tile updates what the tile before it left. -/
def stats4 (c : Dev nD) : ℕ → Stat4 F
  | 0 => stepAt4 V c (pt4 0) (startAt4 V c (pt4 0))
  | n + 1 => stepAt4 V c (pt4 (n + 1)) (if (n + 1) % tilesPerHalf4 = 0 then startAt4 V c (pt4 (n + 1)) else stats4 c n)

theorem stats4_first (c : Dev nD) (n : ℕ) (h : n % tilesPerHalf4 = 0) :
    stats4 V c n = stepAt4 V c (pt4 n) (startAt4 V c (pt4 n)) := by
  cases n with
  | zero => rfl
  | succ n => show stepAt4 V c _ (if _ then _ else _) = _; rw [if_pos h]

theorem stats4_next (c : Dev nD) (n : ℕ) (h : ¬(n + 1) % tilesPerHalf4 = 0) :
    stats4 V c (n + 1) = stepAt4 V c (pt4 (n + 1)) (stats4 V c n) := by
  show stepAt4 V c _ (if _ then _ else _) = _; rw [if_neg h]

theorem stats4_A (c : Dev nD) (t : Fin cfg4.N) (h : t.val % tilesPerHalf4 = 0) :
    stats4 V c t.val = stepAt4 V c t (startAt4 V c t) := by
  rw [stats4_first V c t.val h, pt4_val]

theorem stats4_B (c : Dev nD) (t : Fin cfg4.N) (h : ¬t.val % tilesPerHalf4 = 0) :
    stats4 V c t.val = stepAt4 V c t (stats4 V c (t.val - 1)) := by
  have h0 : t.val ≠ 0 := fun e => h (by rw [e]; exact Nat.zero_mod _)
  have e := stats4_next V c (t.val - 1) (by rw [Nat.sub_one_add_one h0]; exact h)
  rw [Nat.sub_one_add_one h0, pt4_val] at e
  exact e

/-! ## The body's invariant between points: the scratch -/

abbrev scM4 : Memref sig .tc .vmem S512x64 .bf16 := Memref.whole cc4_scratch0

/-- Before the first point the scratch is among the scoped buffers at some contents; after point n it holds the
    projected rows the fold carries. -/
def Φ4 (c : Dev nD) : ℕ → sProp 𝕄
  | 0 => Pipeline.scopedRest (Ix := Unit) (Name := ℕ) (U := UR sig nD τ) (Lvl := ℕ) (Val := Elt F) spec4 c
  | n + 1 => iprop(owns (c : Thread nD τ) scM4 fullShare (stats4 V c n).y
      ∗ Pipeline.scopedRestBut (Ix := Unit) (Name := ℕ) (U := UR sig nD τ) (Lvl := ℕ) (Val := Elt F) spec4 c [cc4_scratch0])

theorem Φ4_succ (c : Dev nD) (n : ℕ) : Φ4 V c (n + 1) = iprop(owns (c : Thread nD τ) scM4 fullShare (stats4 V c n).y
      ∗ Pipeline.scopedRestBut (Ix := Unit) (Name := ℕ) (U := UR sig nD τ) (Lvl := ℕ) (Val := Elt F) spec4 c [cc4_scratch0]) := rfl
/-! ## The pipeline's proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (stats4 V c t.val).m
    | ⟨5, _⟩ => (stats4 V c t.val).l
  Φ t := Φ4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (stats4 V c t.val).m := by dsimp only [dat4]
theorem after4_5 (c : Dev nD) (t : Fin cfg4.N) : (dat4 V c).after 5 t = (stats4 V c t.val).l := by dsimp only [dat4]

/-- Inside a half (not at its first tile) the point is not the first and the statistics' buffers were not written
    back at the point before: decided over the grid. -/
theorem sched4_4 : ∀ t : Fin cfg4.N, ¬t.val % tilesPerHalf4 = 0 →
    t.val ≠ 0 ∧ (cfg4.win 4).flush ⟨t.val - 1, Nat.lt_of_le_of_lt (Nat.sub_le _ _) t.isLt⟩ = false :=
  (by decide +kernel : ∀ t : Fin grid4.N, ¬t.val % tilesPerHalf4 = 0 →
    t.val ≠ 0 ∧ win4_4.flush ⟨t.val - 1, Nat.lt_of_le_of_lt (Nat.sub_le _ _) t.isLt⟩ = false)
theorem sched4_5 : ∀ t : Fin cfg4.N, ¬t.val % tilesPerHalf4 = 0 →
    t.val ≠ 0 ∧ (cfg4.win 5).flush ⟨t.val - 1, Nat.lt_of_le_of_lt (Nat.sub_le _ _) t.isLt⟩ = false :=
  (by decide +kernel : ∀ t : Fin grid4.N, ¬t.val % tilesPerHalf4 = 0 →
    t.val ≠ 0 ∧ win4_5.flush ⟨t.val - 1, Nat.lt_of_le_of_lt (Nat.sub_le _ _) t.isLt⟩ = false)

end Region

end Cert.Kernel.Hand

end
-- ==== Proof.BitsStats6Defs.lean ====
/-
  The statistics launch of one vocabulary cluster, as data. Each half of the grid walks `tilesPerHalf6` tiles of the
  cluster's padded weight. At the first tile of a half the hidden rows are projected and rounded into a scratch that
  stays until the half ends, the running maximum starts at the named lower bound and the running sum at zero. Every
  tile then forms its logits from the scratch, the tile's weight rows and its bias columns, masks the columns past the
  cluster's real width to the lower bound, raises the maximum to the tile's row maxima, rescales the sum to the new
  maximum and adds the tile's exponentials. The two statistics' blocks are written back when the half ends.

  This module names that computation: the state a tile leaves (`Stat6`), the start of a half (`start6`), one tile's
  update (`step6`), their fold over the points of the grid (`stats6`), and the proof data of the pipeline whose
  staging contents and scratch invariant are read off the fold (`dat6`, `Φ6`). Nothing is run here.
-/
import proofs.«124427_j55336358642036_2_alg».proof.Proof.Gen.Kernel.Launch
import proofs.«124427_j55336358642036_2_alg».proof.Proof.Gen.Kernel.Skeleton
import proofs.«124427_j55336358642036_2_alg».proof.Proof.Gen.Kernel.Points
import proofs.«124427_j55336358642036_2_alg».proof.Proof.Sizes

set_option maxRecDepth 16384

noncomputable section

namespace Cert.Kernel.Hand

open Cert.Kernel.Gen Cert.Sizes
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The projected rows, the running maximum and the running sum of exponentials. -/
structure Stat6 (F : FTy → Type) where
  y : Vec F S512x16 .bf16
  m : Vec F S1x512x1 .f32
  l : Vec F S1x512x1 .f32

/-- What the first tile of a half starts from: the hidden rows projected and rounded, the maximum at the named
    lower bound, the sum at zero. -/
def start6 (hid : Vec F S512x1024 .bf16) (prj : Vec F S16x1024 .bf16) : Stat6 F :=
  ⟨k6_pay3 hid prj, k6_pay4, k6_pay5⟩

/-- One tile's update: the new maximum over the old one and the tile's masked logits; the sum rescaled to it and
    increased by the tile's exponentials. The projected rows stay. -/
def step6 (i : grid6.Coords) (wb : Vec F S4096x16 .bf16) (bb : Vec F S1x4096 .f32) (s : Stat6 F) : Stat6 F :=
  ⟨s.y, k6_pay2 (k6_pay7 i s.y wb bb s.m),
    k6_pay1 (k6_pay6 i s.y wb bb) (k6_pay8 i s.y wb bb s.m s.m s.l) (k6_pay9 i s.y wb bb s.m)⟩

section Region

variable (V : (c : Dev nD) → (b : Ref sig .tc) → Buf (Elt F) ((c : Thread nD τ).loc b))

/-! ## The windows' blocks, read off the arrays as the region finds them -/

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The hidden rows (whole), the projection (whole), the tile's rows of the padded weight and its bias columns. -/
abbrev hidBlk6 (c : Dev nD) (t : Fin cfg6.N) : Vec F S512x1024 .bf16 := iblk6 V c 0 t
abbrev prjBlk6 (c : Dev nD) (t : Fin cfg6.N) : Vec F S16x1024 .bf16 := iblk6 V c 1 t
abbrev wBlk6 (c : Dev nD) (t : Fin cfg6.N) : Vec F S4096x16 .bf16 := iblk6 V c 2 t
abbrev bBlk6 (c : Dev nD) (t : Fin cfg6.N) : Vec F S1x4096 .f32 := iblk6 V c 3 t

/-- The start of a half and one tile's update, at a point of the grid. -/
def startAt6 (c : Dev nD) (t : Fin cfg6.N) : Stat6 F := start6 (hidBlk6 V c t) (prjBlk6 V c t)
def stepAt6 (c : Dev nD) (t : Fin cfg6.N) (s : Stat6 F) : Stat6 F := step6 (grid6.coords t) (wBlk6 V c t) (bBlk6 V c t) s

/-- The n-th point of the grid (n below the number of points). -/
def pt6 (n : ℕ) : Fin cfg6.N := ⟨n % cfg6.N, Nat.mod_lt _ (by decide : 0 < grid6.N)⟩

theorem pt6_val (t : Fin cfg6.N) : pt6 t.val = t := Fin.ext (Nat.mod_eq_of_lt t.isLt)

/-- THE ONLINE FOLD. The statistics after the body at point n: the first tile of a half starts afresh, every
    other tile updates what the tile before it left. -/
def stats6 (c : Dev nD) : ℕ → Stat6 F
  | 0 => stepAt6 V c (pt6 0) (startAt6 V c (pt6 0))
  | n + 1 => stepAt6 V c (pt6 (n + 1)) (if (n + 1) % tilesPerHalf6 = 0 then startAt6 V c (pt6 (n + 1)) else stats6 c n)

theorem stats6_first (c : Dev nD) (n : ℕ) (h : n % tilesPerHalf6 = 0) :
    stats6 V c n = stepAt6 V c (pt6 n) (startAt6 V c (pt6 n)) := by
  cases n with
  | zero => rfl
  | succ n => show stepAt6 V c _ (if _ then _ else _) = _; rw [if_pos h]

theorem stats6_next (c : Dev nD) (n : ℕ) (h : ¬(n + 1) % tilesPerHalf6 = 0) :
    stats6 V c (n + 1) = stepAt6 V c (pt6 (n + 1)) (stats6 V c n) := by
  show stepAt6 V c _ (if _ then _ else _) = _; rw [if_neg h]

theorem stats6_A (c : Dev nD) (t : Fin cfg6.N) (h : t.val % tilesPerHalf6 = 0) :
    stats6 V c t.val = stepAt6 V c t (startAt6 V c t) := by
  rw [stats6_first V c t.val h, pt6_val]

theorem stats6_B (c : Dev nD) (t : Fin cfg6.N) (h : ¬t.val % tilesPerHalf6 = 0) :
    stats6 V c t.val = stepAt6 V c t (stats6 V c (t.val - 1)) := by
  have h0 : t.val ≠ 0 := fun e => h (by rw [e]; exact Nat.zero_mod _)
  have e := stats6_next V c (t.val - 1) (by rw [Nat.sub_one_add_one h0]; exact h)
  rw [Nat.sub_one_add_one h0, pt6_val] at e
  exact e

/-! ## The body's invariant between points: the scratch -/

abbrev scM6 : Memref sig .tc .vmem S512x16 .bf16 := Memref.whole cc6_scratch0

/-- Before the first point the scratch is among the scoped buffers at some contents; after point n it holds the
    projected rows the fold carries. -/
def Φ6 (c : Dev nD) : ℕ → sProp 𝕄
  | 0 => Pipeline.scopedRest (Ix := Unit) (Name := ℕ) (U := UR sig nD τ) (Lvl := ℕ) (Val := Elt F) spec6 c
  | n + 1 => iprop(owns (c : Thread nD τ) scM6 fullShare (stats6 V c n).y
      ∗ Pipeline.scopedRestBut (Ix := Unit) (Name := ℕ) (U := UR sig nD τ) (Lvl := ℕ) (Val := Elt F) spec6 c [cc6_scratch0])

theorem Φ6_succ (c : Dev nD) (n : ℕ) : Φ6 V c (n + 1) = iprop(owns (c : Thread nD τ) scM6 fullShare (stats6 V c n).y
      ∗ Pipeline.scopedRestBut (Ix := Unit) (Name := ℕ) (U := UR sig nD τ) (Lvl := ℕ) (Val := Elt F) spec6 c [cc6_scratch0]) := rfl
/-! ## The pipeline's proof data -/

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => (stats6 V c t.val).m
    | ⟨5, _⟩ => (stats6 V c t.val).l
  Φ t := Φ6 V c t.val
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = (stats6 V c t.val).m := by dsimp only [dat6]
theorem after6_5 (c : Dev nD) (t : Fin cfg6.N) : (dat6 V c).after 5 t = (stats6 V c t.val).l := by dsimp only [dat6]

/-- Inside a half (not at its first tile) the point is not the first and the statistics' buffers were not written
    back at the point before: decided over the grid. -/
theorem sched6_4 : ∀ t : Fin cfg6.N, ¬t.val % tilesPerHalf6 = 0 →
    t.val ≠ 0 ∧ (cfg6.win 4).flush ⟨t.val - 1, Nat.lt_of_le_of_lt (Nat.sub_le _ _) t.isLt⟩ = false :=
  (by decide +kernel : ∀ t : Fin grid6.N, ¬t.val % tilesPerHalf6 = 0 →
    t.val ≠ 0 ∧ win6_4.flush ⟨t.val - 1, Nat.lt_of_le_of_lt (Nat.sub_le _ _) t.isLt⟩ = false)
theorem sched6_5 : ∀ t : Fin cfg6.N, ¬t.val % tilesPerHalf6 = 0 →
    t.val ≠ 0 ∧ (cfg6.win 5).flush ⟨t.val - 1, Nat.lt_of_le_of_lt (Nat.sub_le _ _) t.isLt⟩ = false :=
  (by decide +kernel : ∀ t : Fin grid6.N, ¬t.val % tilesPerHalf6 = 0 →
    t.val ≠ 0 ∧ win6_5.flush ⟨t.val - 1, Nat.lt_of_le_of_lt (Nat.sub_le _ _) t.isLt⟩ = false)

end Region

end Cert.Kernel.Hand

end
-- ==== Proof.BitsWrite1Defs.lean ====
/-
  The write launch of vocabulary cluster 1 (launch 3), its data: at grid point (h, t) the body, when t is the half's
  first tile, projects the hidden rows (hidden times the projection's transpose, rounded to bf16) into a scratch buffer
  that it keeps for the rest of the half; at every point it forms the tile's logits from the scratch, the tile's weight
  rows and its bias, masks the columns past the cluster's last real column, and writes logit − m − log l + extra to the
  output's block (0, h·T + t). The hidden rows and the projection are one block each, the same at every point, so the
  scratch holds the same projected rows from the first point on.

  Here: each window's block as read off the arrays the launch finds, the scratch's contents, what the body leaves in
  the output window's buffer, the region invariant (the scratch owned at the projected rows after the first point),
  and the pipeline's proof data with its projections.
-/
import proofs.«124427_j55336358642036_2_alg».proof.Proof.Gen.Kernel.Launch
import proofs.«124427_j55336358642036_2_alg».proof.Proof.Gen.Kernel.Skeleton
import Idealize.ShloMosaic.Lib.Pipeline.FrameBody

set_option maxRecDepth 16384

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks, the scratch, and what the body leaves -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch operand: a whole scoped buffer of the kernel's own. -/
abbrev scM1 : Memref sig .tc .vmem S512x1024 .bf16 := Memref.whole cc1_scratch0

/-- The grid's first point. -/
abbrev pt1_0 : Fin cfg1.N := ⟨0, by rw [show cfg1.N = grid1.N from rfl, N_1]; decide⟩

/-- The projected hidden rows (hidden times the projection's transpose, rounded to bf16): what the scratch holds
    from the first point on. -/
def y1 (c : Dev nD) : Vec F S512x1024 .bf16 := k1_pay1 (iblk1 V c 0 pt1_0) (iblk1 V c 1 pt1_0)

/-- What the body leaves in the output window's buffer at point t: the masked logits of the tile, less the row
    maximum and the logarithm of the row sum, plus the row's extra term. -/
def out1_7 (c : Dev nD) (t : Fin cfg1.N) : Vec F S512x2048 .f32 :=
  k1_pay2 (grid1.coords t) (y1 V c) (iblk1 V c 2 t) (iblk1 V c 3 t) (iblk1 V c 4 t) (iblk1 V c 5 t) (iblk1 V c 6 t)

/-! ## The region invariant -/

/-- The region invariant before position n: at the first point the scoped rest as the region finds it; afterwards
    the scratch at the projected hidden rows beside the scoped rest without it. -/
def Phi1 (c : Dev nD) : ℕ → sProp 𝕄
  | 0 => Pipeline.scopedRest (Ix := Unit) (Name := ℕ) (U := UR sig nD τ) (Lvl := ℕ) (Val := Elt F) spec1 c
  | _ + 1 => iprop(owns (c : Thread nD τ) scM1 fullShare (y1 V c) ∗ Pipeline.scopedRestBut (Ix := Unit) (Name := ℕ) (U := UR sig nD τ) (Lvl := ℕ) (Val := Elt F) spec1 c [cc1_scratch0])

theorem Phi1_zero (c : Dev nD) (n : ℕ) (hn : n = 0) : Phi1 V c n = Pipeline.scopedRest (Ix := Unit) (Name := ℕ) (U := UR sig nD τ) (Lvl := ℕ) (Val := Elt F) spec1 c := by
  subst hn; rfl

theorem Phi1_pos (c : Dev nD) (n : ℕ) (hn : n ≠ 0) :
    Phi1 V c n = iprop(owns (c : Thread nD τ) scM1 fullShare (y1 V c) ∗ Pipeline.scopedRestBut (Ix := Unit) (Name := ℕ) (U := UR sig nD τ) (Lvl := ℕ) (Val := Elt F) spec1 c [cc1_scratch0]) := by
  cases n with
  | zero => exact absurd rfl hn
  | succ n => rfl

/-! ## The pipeline's proof data -/

/-- The proof data of the pipeline on core c: the arrays as the region finds them; after the body at point t each
    input's buffer at its block and the output's at out1_7; the invariant Phi1; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 V c t
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 V c t := by dsimp only [dat1]

end Cert.Kernel.Hand

end
-- ==== Proof.BitsWrite3Defs.lean ====
/-
  The write launch of vocabulary cluster 1 (launch 3), its data: at grid point (h, t) the body, when t is the half's
  first tile, projects the hidden rows (hidden times the projection's transpose, rounded to bf16) into a scratch buffer
  that it keeps for the rest of the half; at every point it forms the tile's logits from the scratch, the tile's weight
  rows and its bias, masks the columns past the cluster's last real column, and writes logit − m − log l + extra to the
  output's block (0, h·T + t). The hidden rows and the projection are one block each, the same at every point, so the
  scratch holds the same projected rows from the first point on.

  Here: each window's block as read off the arrays the launch finds, the scratch's contents, what the body leaves in
  the output window's buffer, the region invariant (the scratch owned at the projected rows after the first point),
  and the pipeline's proof data with its projections.
-/
import proofs.«124427_j55336358642036_2_alg».proof.Proof.Gen.Kernel.Launch
import proofs.«124427_j55336358642036_2_alg».proof.Proof.Gen.Kernel.Skeleton
import Idealize.ShloMosaic.Lib.Pipeline.FrameBody

set_option maxRecDepth 16384

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks, the scratch, and what the body leaves -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The scratch operand: a whole scoped buffer of the kernel's own. -/
abbrev scM3 : Memref sig .tc .vmem S512x256 .bf16 := Memref.whole cc3_scratch0

/-- The grid's first point. -/
abbrev pt3_0 : Fin cfg3.N := ⟨0, by rw [show cfg3.N = grid3.N from rfl, N_3]; decide⟩

/-- The projected hidden rows (hidden times the projection's transpose, rounded to bf16): what the scratch holds
    from the first point on. -/
def y3 (c : Dev nD) : Vec F S512x256 .bf16 := k3_pay1 (iblk3 V c 0 pt3_0) (iblk3 V c 1 pt3_0)

/-- What the body leaves in the output window's buffer at point t: the masked logits of the tile, less the row
    maximum and the logarithm of the row sum, plus the row's extra term. -/
def out3_7 (c : Dev nD) (t : Fin cfg3.N) : Vec F S512x2048 .f32 :=
  k3_pay2 (grid3.coords t) (y3 V c) (iblk3 V c 2 t) (iblk3 V c 3 t) (iblk3 V c 4 t) (iblk3 V c 5 t) (iblk3 V c 6 t)

/-! ## The region invariant -/

/-- The region invariant before position n: at the first point the scoped rest as the region finds it; afterwards
    the scratch at the projected hidden rows beside the scoped rest without it. -/
def Phi3 (c : Dev nD) : ℕ → sProp 𝕄
  | 0 => Pipeline.scopedRest (Ix := Unit) (Name := ℕ) (U := UR sig nD τ) (Lvl := ℕ) (Val := Elt F) spec3 c
  | _ + 1 => iprop(owns (c : Thread nD τ) scM3 fullShare (y3 V c) ∗ Pipeline.scopedRestBut (Ix := Unit) (Name := ℕ) (U := UR sig nD τ) (Lvl := ℕ) (Val := Elt F) spec3 c [cc3_scratch0])

theorem Phi3_zero (c : Dev nD) (n : ℕ) (hn : n = 0) : Phi3 V c n = Pipeline.scopedRest (Ix := Unit) (Name := ℕ) (U := UR sig nD τ) (Lvl := ℕ) (Val := Elt F) spec3 c := by
  subst hn; rfl

theorem Phi3_pos (c : Dev nD) (n : ℕ) (hn : n ≠ 0) :
    Phi3 V c n = iprop(owns (c : Thread nD τ) scM3 fullShare (y3 V c) ∗ Pipeline.scopedRestBut (Ix := Unit) (Name := ℕ) (U := UR sig nD τ) (Lvl := ℕ) (Val := Elt F) spec3 c [cc3_scratch0]) := by
  cases n with
  | zero => exact absurd rfl hn
  | succ n => rfl

/-! ## The pipeline's proof data -/

/-- The proof data of the pipeline on core c: the arrays as the region finds them; after the body at point t each
    input's buffer at its block and the output's at out3_7; the invariant Phi3; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 V c t
  Φ t := Phi3 V c t.val
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 V c t := by dsimp only [dat3]

end Cert.Kernel.Hand

end
-- ==== Proof.BitsWrite5Defs.lean ====
/-
  The write launch of vocabulary cluster 1 (launch 3), its data: at grid point (h, t) the body, when t is the half's
  first tile, projects the hidden rows (hidden times the projection's transpose, rounded to bf16) into a scratch buffer
  that it keeps for the rest of the half; at every point it forms the tile's logits from the scratch, the tile's weight
  rows and its bias, masks the columns past the cluster's last real column, and writes logit − m − log l + extra to the
  output's block (0, h·T + t). The hidden rows and the projection are one block each, the same at every point, so the
  scratch holds the same projected rows from the first point on.

  Here: each window's block as read off the arrays the launch finds, the scratch's contents, what the body leaves in
  the output window's buffer, the region invariant (the scratch owned at the projected rows after the first point),
  and the pipeline's proof data with its projections.
-/
import proofs.«124427_j55336358642036_2_alg».proof.Proof.Gen.Kernel.Launch
import proofs.«124427_j55336358642036_2_alg».proof.Proof.Gen.Kernel.Skeleton
import Idealize.ShloMosaic.Lib.Pipeline.FrameBody

set_option maxRecDepth 16384

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks, the scratch, and what the body leaves -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The scratch operand: a whole scoped buffer of the kernel's own. -/
abbrev scM5 : Memref sig .tc .vmem S512x64 .bf16 := Memref.whole cc5_scratch0

/-- The grid's first point. -/
abbrev pt5_0 : Fin cfg5.N := ⟨0, by rw [show cfg5.N = grid5.N from rfl, N_5]; decide⟩

/-- The projected hidden rows (hidden times the projection's transpose, rounded to bf16): what the scratch holds
    from the first point on. -/
def y5 (c : Dev nD) : Vec F S512x64 .bf16 := k5_pay1 (iblk5 V c 0 pt5_0) (iblk5 V c 1 pt5_0)

/-- What the body leaves in the output window's buffer at point t: the masked logits of the tile, less the row
    maximum and the logarithm of the row sum, plus the row's extra term. -/
def out5_7 (c : Dev nD) (t : Fin cfg5.N) : Vec F S512x4096 .f32 :=
  k5_pay2 (grid5.coords t) (y5 V c) (iblk5 V c 2 t) (iblk5 V c 3 t) (iblk5 V c 4 t) (iblk5 V c 5 t) (iblk5 V c 6 t)

/-! ## The region invariant -/

/-- The region invariant before position n: at the first point the scoped rest as the region finds it; afterwards
    the scratch at the projected hidden rows beside the scoped rest without it. -/
def Phi5 (c : Dev nD) : ℕ → sProp 𝕄
  | 0 => Pipeline.scopedRest (Ix := Unit) (Name := ℕ) (U := UR sig nD τ) (Lvl := ℕ) (Val := Elt F) spec5 c
  | _ + 1 => iprop(owns (c : Thread nD τ) scM5 fullShare (y5 V c) ∗ Pipeline.scopedRestBut (Ix := Unit) (Name := ℕ) (U := UR sig nD τ) (Lvl := ℕ) (Val := Elt F) spec5 c [cc5_scratch0])

theorem Phi5_zero (c : Dev nD) (n : ℕ) (hn : n = 0) : Phi5 V c n = Pipeline.scopedRest (Ix := Unit) (Name := ℕ) (U := UR sig nD τ) (Lvl := ℕ) (Val := Elt F) spec5 c := by
  subst hn; rfl

theorem Phi5_pos (c : Dev nD) (n : ℕ) (hn : n ≠ 0) :
    Phi5 V c n = iprop(owns (c : Thread nD τ) scM5 fullShare (y5 V c) ∗ Pipeline.scopedRestBut (Ix := Unit) (Name := ℕ) (U := UR sig nD τ) (Lvl := ℕ) (Val := Elt F) spec5 c [cc5_scratch0]) := by
  cases n with
  | zero => exact absurd rfl hn
  | succ n => rfl

/-! ## The pipeline's proof data -/

/-- The proof data of the pipeline on core c: the arrays as the region finds them; after the body at point t each
    input's buffer at its block and the output's at out5_7; the invariant Phi5; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 V c t
  Φ t := Phi5 V c t.val
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 V c t := by dsimp only [dat5]

end Cert.Kernel.Hand

end
-- ==== Proof.BitsWrite7Defs.lean ====
/-
  The write launch of vocabulary cluster 1 (launch 3), its data: at grid point (h, t) the body, when t is the half's
  first tile, projects the hidden rows (hidden times the projection's transpose, rounded to bf16) into a scratch buffer
  that it keeps for the rest of the half; at every point it forms the tile's logits from the scratch, the tile's weight
  rows and its bias, masks the columns past the cluster's last real column, and writes logit − m − log l + extra to the
  output's block (0, h·T + t). The hidden rows and the projection are one block each, the same at every point, so the
  scratch holds the same projected rows from the first point on.

  Here: each window's block as read off the arrays the launch finds, the scratch's contents, what the body leaves in
  the output window's buffer, the region invariant (the scratch owned at the projected rows after the first point),
  and the pipeline's proof data with its projections.
-/
import proofs.«124427_j55336358642036_2_alg».proof.Proof.Gen.Kernel.Launch
import proofs.«124427_j55336358642036_2_alg».proof.Proof.Gen.Kernel.Skeleton
import Idealize.ShloMosaic.Lib.Pipeline.FrameBody

set_option maxRecDepth 16384

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks, the scratch, and what the body leaves -/

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The scratch operand: a whole scoped buffer of the kernel's own. -/
abbrev scM7 : Memref sig .tc .vmem S512x16 .bf16 := Memref.whole cc7_scratch0

/-- The grid's first point. -/
abbrev pt7_0 : Fin cfg7.N := ⟨0, by rw [show cfg7.N = grid7.N from rfl, N_7]; decide⟩

/-- The projected hidden rows (hidden times the projection's transpose, rounded to bf16): what the scratch holds
    from the first point on. -/
def y7 (c : Dev nD) : Vec F S512x16 .bf16 := k7_pay1 (iblk7 V c 0 pt7_0) (iblk7 V c 1 pt7_0)

/-- What the body leaves in the output window's buffer at point t: the masked logits of the tile, less the row
    maximum and the logarithm of the row sum, plus the row's extra term. -/
def out7_7 (c : Dev nD) (t : Fin cfg7.N) : Vec F S512x4096 .f32 :=
  k7_pay2 (grid7.coords t) (y7 V c) (iblk7 V c 2 t) (iblk7 V c 3 t) (iblk7 V c 4 t) (iblk7 V c 5 t) (iblk7 V c 6 t)

/-! ## The region invariant -/

/-- The region invariant before position n: at the first point the scoped rest as the region finds it; afterwards
    the scratch at the projected hidden rows beside the scoped rest without it. -/
def Phi7 (c : Dev nD) : ℕ → sProp 𝕄
  | 0 => Pipeline.scopedRest (Ix := Unit) (Name := ℕ) (U := UR sig nD τ) (Lvl := ℕ) (Val := Elt F) spec7 c
  | _ + 1 => iprop(owns (c : Thread nD τ) scM7 fullShare (y7 V c) ∗ Pipeline.scopedRestBut (Ix := Unit) (Name := ℕ) (U := UR sig nD τ) (Lvl := ℕ) (Val := Elt F) spec7 c [cc7_scratch0])

theorem Phi7_zero (c : Dev nD) (n : ℕ) (hn : n = 0) : Phi7 V c n = Pipeline.scopedRest (Ix := Unit) (Name := ℕ) (U := UR sig nD τ) (Lvl := ℕ) (Val := Elt F) spec7 c := by
  subst hn; rfl

theorem Phi7_pos (c : Dev nD) (n : ℕ) (hn : n ≠ 0) :
    Phi7 V c n = iprop(owns (c : Thread nD τ) scM7 fullShare (y7 V c) ∗ Pipeline.scopedRestBut (Ix := Unit) (Name := ℕ) (U := UR sig nD τ) (Lvl := ℕ) (Val := Elt F) spec7 c [cc7_scratch0]) := by
  cases n with
  | zero => exact absurd rfl hn
  | succ n => rfl

/-! ## The pipeline's proof data -/

/-- The proof data of the pipeline on core c: the arrays as the region finds them; after the body at point t each
    input's buffer at its block and the output's at out7_7; the invariant Phi7; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 V c t
  Φ t := Phi7 V c t.val
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = out7_7 V c t := by dsimp only [dat7]

end Cert.Kernel.Hand

end
-- ==== Proof.BitsAssemble.lean ====
/- The spine of the kernel program's run, first half: what each of the eight regions leaves in the unscoped buffers, stage by
   stage, as concrete contents for the valuation chain; the proof data family; the thread state between items; and one
   construction of a region's record over that thread state, which serves every region. -/
import proofs.«124427_j55336358642036_2_alg».proof.Proof.RegionsBitsP
import proofs.«124427_j55336358642036_2_alg».proof.Proof.BitsStats0Defs
import proofs.«124427_j55336358642036_2_alg».proof.Proof.BitsStats2Defs
import proofs.«124427_j55336358642036_2_alg».proof.Proof.BitsStats4Defs
import proofs.«124427_j55336358642036_2_alg».proof.Proof.BitsStats6Defs
import proofs.«124427_j55336358642036_2_alg».proof.Proof.BitsWrite1Defs
import proofs.«124427_j55336358642036_2_alg».proof.Proof.BitsWrite3Defs
import proofs.«124427_j55336358642036_2_alg».proof.Proof.BitsWrite5Defs
import proofs.«124427_j55336358642036_2_alg».proof.Proof.BitsWrite7Defs
import Idealize.ShloMosaic.Lib.Pipeline.FrameSuffix
import Idealize.ShloMosaic.Lib.Pipeline.RegionsLoop
import Idealize.ShloMosaic.Lib.Tactic

set_option maxRecDepth 16384

noncomputable section

namespace Cert.Kernel.Hand

open Cert.Kernel.Gen Cert.Kernel.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! ## The fixed parameters -/

abbrev 𝒱₀ : Variants := Variants.none
/-- No core owes another anything: no level is assigned. -/
abbrev L : GSem nD τ sig → Finset Unit := fun _ => ∅
abbrev lv : GSem nD τ sig → Unit → ℕ := fun _ _ => 0

/-- A boundary's contents read at the TensorCore's references: the form a region's proof data take them in. -/
abbrev rd (W : Dev nD → Valuation τ sig (Elt F)) : (c : Dev nD) → (b : Ref sig .tc) → Buf (Elt F) ((c : Thread nD τ).loc b) :=
  fun c b => W c b

/-! ## What a region leaves in the unscoped buffers

A region entered at contents `Vin` leaves each of its windows' arrays at the fold of its write-backs (`Dat.arrAt … N`) and
every other buffer untouched. An input window is never written back, so its array too is left as found: the contents left
differ from `Vin` only at the output windows' arrays. -/

section Left

variable {cfg : Cfg sig Λ₀} {c : Dev nD} (dat : Dat τ (Elt F) Unit ℕ (UR sig nD τ) ℕ cfg c) (Vin : Valuation τ sig (Elt F))

/-- The contents the region leaves. -/
def left : Valuation τ sig (Elt F) := Pipeline.withArrays cfg.spec c Vin fun w => dat.arrAt w cfg.N

theorem left_arr (hinj : Function.Injective (Pipeline.arrRef cfg.spec)) (w : Fin cfg.W) :
    left dat Vin (Proc.devRef .tc (Pipeline.arrRef cfg.spec w)) = dat.arrAt w cfg.N :=
  Pipeline.withArrays_arr cfg.spec hinj c Vin _ w

/-- Away from the output windows' arrays the region leaves what it found. -/
theorem left_of_not_out (hinj : Function.Injective (Pipeline.arrRef cfg.spec))
    (hA : ∀ w, dat.A w = Vin (Proc.devRef .tc (Pipeline.arrRef cfg.spec w)))
    (b : Ref sig .tc) (hb : ∀ w, (cfg.win w).isOut = true → Pipeline.arrRef cfg.spec w ≠ b) :
    left dat Vin (Proc.devRef .tc b) = Vin (Proc.devRef .tc b) := by
  by_cases h : ∃ w, Pipeline.arrRef cfg.spec w = b
  · obtain ⟨w, rfl⟩ := h
    have hin : (cfg.win w).isOut = false := by
      cases e : (cfg.win w).isOut with
      | false => rfl
      | true => exact absurd rfl (hb w e)
    rw [left_arr dat Vin hinj w, dat.arrAt_in w hin, hA w]
  · exact Pipeline.withArrays_of_ne cfg.spec c Vin _ b fun w e => h ⟨w, e⟩

end Left

/-- A valuation overwritten at two references with `L`'s values there is `L` wherever `L` agrees with it off the two. -/
theorem upd2_eq (Vin Lf : Valuation τ sig (Elt F)) (r0 r1 : Ref sig .tc)
    (h : ∀ b : Ref sig .tc, b ≠ r0 → b ≠ r1 → Lf (Proc.devRef .tc b) = Vin (Proc.devRef .tc b)) (b : Ref sig .tc) :
    Function.update (Function.update Vin (Proc.devRef .tc r0) (Lf (Proc.devRef .tc r0))) (Proc.devRef .tc r1) (Lf (Proc.devRef .tc r1))
      (Proc.devRef .tc b) = Lf (Proc.devRef .tc b) := by
  by_cases h1 : b = r1
  · subst h1; exact Function.update_self _ _ _
  rw [Function.update_of_ne (StableHlo.devRef_ne_of_ne h1)]
  by_cases h0 : b = r0
  · subst h0; exact Function.update_self _ _ _
  rw [Function.update_of_ne (StableHlo.devRef_ne_of_ne h0)]
  exact (h b h0 h1).symm

/-- The same at one reference. -/
theorem upd1_eq (Vin Lf : Valuation τ sig (Elt F)) (r0 : Ref sig .tc)
    (h : ∀ b : Ref sig .tc, b ≠ r0 → Lf (Proc.devRef .tc b) = Vin (Proc.devRef .tc b)) (b : Ref sig .tc) :
    Function.update Vin (Proc.devRef .tc r0) (Lf (Proc.devRef .tc r0)) (Proc.devRef .tc b) = Lf (Proc.devRef .tc b) := by
  by_cases h0 : b = r0
  · subst h0; exact Function.update_self _ _ _
  rw [Function.update_of_ne (StableHlo.devRef_ne_of_ne h0)]
  exact (h b h0).symm

/-! ## The regions' results, stage by stage

Item J's valuation `VJ m outs` reads the unknowns `outs` only at the regions before it, so each region's result is defined
from the valuation before it at the results already defined: no circle. -/

variable (m : (ℓ : Loc nD τ sig) → Buf (Elt F) ℓ)

/-- What region 0 leaves, from the contents before it. -/
def W6 (c : Dev nD) : Valuation τ sig (Elt F) := left (dat0 (rd (V5 m)) c) (V5 m c)
/-- The regions' results up to region 0. -/
def o6 : Outs (F := F) := fun J r c => W6 m c r

/-- What region 1 leaves, from the contents before it. -/
def W8 (c : Dev nD) : Valuation τ sig (Elt F) := left (dat1 (rd (V7 m (o6 m))) c) (V7 m (o6 m) c)
/-- The regions' results up to region 1. -/
def o8 : Outs (F := F) := fun J r c => match J with
    | 6 => W6 m c r
    | _ => W8 m c r

/-- What region 2 leaves, from the contents before it. -/
def W14 (c : Dev nD) : Valuation τ sig (Elt F) := left (dat2 (rd (V13 m (o8 m))) c) (V13 m (o8 m) c)
/-- The regions' results up to region 2. -/
def o14 : Outs (F := F) := fun J r c => match J with
    | 6 => W6 m c r
    | 8 => W8 m c r
    | _ => W14 m c r

/-- What region 3 leaves, from the contents before it. -/
def W16 (c : Dev nD) : Valuation τ sig (Elt F) := left (dat3 (rd (V15 m (o14 m))) c) (V15 m (o14 m) c)
/-- The regions' results up to region 3. -/
def o16 : Outs (F := F) := fun J r c => match J with
    | 6 => W6 m c r
    | 8 => W8 m c r
    | 14 => W14 m c r
    | _ => W16 m c r

/-- What region 4 leaves, from the contents before it. -/
def W22 (c : Dev nD) : Valuation τ sig (Elt F) := left (dat4 (rd (V21 m (o16 m))) c) (V21 m (o16 m) c)
/-- The regions' results up to region 4. -/
def o22 : Outs (F := F) := fun J r c => match J with
    | 6 => W6 m c r
    | 8 => W8 m c r
    | 14 => W14 m c r
    | 16 => W16 m c r
    | _ => W22 m c r

/-- What region 5 leaves, from the contents before it. -/
def W24 (c : Dev nD) : Valuation τ sig (Elt F) := left (dat5 (rd (V23 m (o22 m))) c) (V23 m (o22 m) c)
/-- The regions' results up to region 5. -/
def o24 : Outs (F := F) := fun J r c => match J with
    | 6 => W6 m c r
    | 8 => W8 m c r
    | 14 => W14 m c r
    | 16 => W16 m c r
    | 22 => W22 m c r
    | _ => W24 m c r

/-- What region 6 leaves, from the contents before it. -/
def W30 (c : Dev nD) : Valuation τ sig (Elt F) := left (dat6 (rd (V29 m (o24 m))) c) (V29 m (o24 m) c)
/-- The regions' results up to region 6. -/
def o30 : Outs (F := F) := fun J r c => match J with
    | 6 => W6 m c r
    | 8 => W8 m c r
    | 14 => W14 m c r
    | 16 => W16 m c r
    | 22 => W22 m c r
    | 24 => W24 m c r
    | _ => W30 m c r

/-- What region 7 leaves, from the contents before it. -/
def W32 (c : Dev nD) : Valuation τ sig (Elt F) := left (dat7 (rd (V31 m (o30 m))) c) (V31 m (o30 m) c)
/-- The regions' results up to region 7: the contents the valuations are read at. -/
def outs : Outs (F := F) := fun J r c => match J with
    | 6 => W6 m c r
    | 8 => W8 m c r
    | 14 => W14 m c r
    | 16 => W16 m c r
    | 22 => W22 m c r
    | 24 => W24 m c r
    | 30 => W30 m c r
    | _ => W32 m c r

/-! ## Each region's exit: the valuation after it is what it leaves -/

/-- Region 0's output windows' arrays. -/
theorem outArr0 : ∀ w : Fin cfg0.W, (cfg0.win w).isOut = true → Pipeline.arrRef spec0 w = main_v7_0 ∨ Pipeline.arrRef spec0 w = main_v7_1 := by decide
/-- The unscoped buffers after region 0 hold what it leaves. -/
theorem V6_left (c : Dev nD) (b : Ref sig .tc) : V6 m (outs m) c b = W6 m c b :=
  upd2_eq (V5 m c) (W6 m c) main_v7_0 main_v7_1 (fun b h0 h1 =>
    left_of_not_out (dat0 (rd (V5 m)) c) (V5 m c) launch0.win.arr_inj (fun w => A_eq0 _ c w) b
      fun w hw e => (outArr0 w hw).elim (fun e0 => h0 (e.symm.trans e0)) fun e1 => h1 (e.symm.trans e1)) b

/-- Region 1's output windows' arrays. -/
theorem outArr1 : ∀ w : Fin cfg1.W, (cfg1.win w).isOut = true → Pipeline.arrRef spec1 w = main_v49 := by decide
/-- The unscoped buffers after region 1 hold what it leaves. -/
theorem V8_left (c : Dev nD) (b : Ref sig .tc) : V8 m (outs m) c b = W8 m c b :=
  upd1_eq (V7 m (outs m) c) (W8 m c) main_v49 (fun b h0 =>
    left_of_not_out (dat1 (rd (V7 m (outs m))) c) (V7 m (outs m) c) launch1.win.arr_inj (fun w => A_eq1 _ c w) b
      fun w hw e => h0 (e.symm.trans (outArr1 w hw))) b

/-- Region 2's output windows' arrays. -/
theorem outArr2 : ∀ w : Fin cfg2.W, (cfg2.win w).isOut = true → Pipeline.arrRef spec2 w = main_v56_0 ∨ Pipeline.arrRef spec2 w = main_v56_1 := by decide
/-- The unscoped buffers after region 2 hold what it leaves. -/
theorem V14_left (c : Dev nD) (b : Ref sig .tc) : V14 m (outs m) c b = W14 m c b :=
  upd2_eq (V13 m (outs m) c) (W14 m c) main_v56_0 main_v56_1 (fun b h0 h1 =>
    left_of_not_out (dat2 (rd (V13 m (outs m))) c) (V13 m (outs m) c) launch2.win.arr_inj (fun w => A_eq2 _ c w) b
      fun w hw e => (outArr2 w hw).elim (fun e0 => h0 (e.symm.trans e0)) fun e1 => h1 (e.symm.trans e1)) b

/-- Region 3's output windows' arrays. -/
theorem outArr3 : ∀ w : Fin cfg3.W, (cfg3.win w).isOut = true → Pipeline.arrRef spec3 w = main_v74 := by decide
/-- The unscoped buffers after region 3 hold what it leaves. -/
theorem V16_left (c : Dev nD) (b : Ref sig .tc) : V16 m (outs m) c b = W16 m c b :=
  upd1_eq (V15 m (outs m) c) (W16 m c) main_v74 (fun b h0 =>
    left_of_not_out (dat3 (rd (V15 m (outs m))) c) (V15 m (outs m) c) launch3.win.arr_inj (fun w => A_eq3 _ c w) b
      fun w hw e => h0 (e.symm.trans (outArr3 w hw))) b

/-- Region 4's output windows' arrays. -/
theorem outArr4 : ∀ w : Fin cfg4.W, (cfg4.win w).isOut = true → Pipeline.arrRef spec4 w = main_v81_0 ∨ Pipeline.arrRef spec4 w = main_v81_1 := by decide
/-- The unscoped buffers after region 4 hold what it leaves. -/
theorem V22_left (c : Dev nD) (b : Ref sig .tc) : V22 m (outs m) c b = W22 m c b :=
  upd2_eq (V21 m (outs m) c) (W22 m c) main_v81_0 main_v81_1 (fun b h0 h1 =>
    left_of_not_out (dat4 (rd (V21 m (outs m))) c) (V21 m (outs m) c) launch4.win.arr_inj (fun w => A_eq4 _ c w) b
      fun w hw e => (outArr4 w hw).elim (fun e0 => h0 (e.symm.trans e0)) fun e1 => h1 (e.symm.trans e1)) b

/-- Region 5's output windows' arrays. -/
theorem outArr5 : ∀ w : Fin cfg5.W, (cfg5.win w).isOut = true → Pipeline.arrRef spec5 w = main_v99 := by decide
/-- The unscoped buffers after region 5 hold what it leaves. -/
theorem V24_left (c : Dev nD) (b : Ref sig .tc) : V24 m (outs m) c b = W24 m c b :=
  upd1_eq (V23 m (outs m) c) (W24 m c) main_v99 (fun b h0 =>
    left_of_not_out (dat5 (rd (V23 m (outs m))) c) (V23 m (outs m) c) launch5.win.arr_inj (fun w => A_eq5 _ c w) b
      fun w hw e => h0 (e.symm.trans (outArr5 w hw))) b

/-- Region 6's output windows' arrays. -/
theorem outArr6 : ∀ w : Fin cfg6.W, (cfg6.win w).isOut = true → Pipeline.arrRef spec6 w = main_v106_0 ∨ Pipeline.arrRef spec6 w = main_v106_1 := by decide
/-- The unscoped buffers after region 6 hold what it leaves. -/
theorem V30_left (c : Dev nD) (b : Ref sig .tc) : V30 m (outs m) c b = W30 m c b :=
  upd2_eq (V29 m (outs m) c) (W30 m c) main_v106_0 main_v106_1 (fun b h0 h1 =>
    left_of_not_out (dat6 (rd (V29 m (outs m))) c) (V29 m (outs m) c) launch6.win.arr_inj (fun w => A_eq6 _ c w) b
      fun w hw e => (outArr6 w hw).elim (fun e0 => h0 (e.symm.trans e0)) fun e1 => h1 (e.symm.trans e1)) b

/-- Region 7's output windows' arrays. -/
theorem outArr7 : ∀ w : Fin cfg7.W, (cfg7.win w).isOut = true → Pipeline.arrRef spec7 w = main_v124 := by decide
/-- The unscoped buffers after region 7 hold what it leaves. -/
theorem V32_left (c : Dev nD) (b : Ref sig .tc) : V32 m (outs m) c b = W32 m c b :=
  upd1_eq (V31 m (outs m) c) (W32 m c) main_v124 (fun b h0 =>
    left_of_not_out (dat7 (rd (V31 m (outs m))) c) (V31 m (outs m) c) launch7.win.arr_inj (fun w => A_eq7 _ c w) b
      fun w hw e => h0 (e.symm.trans (outArr7 w hw))) b

/-! ## The proof data family -/

/-- Every pipeline's proof data, each at its region's entry contents: a literal `match`, so that the family at a numeral
    reduces to that region's data. -/
def pdats : (p : Fin 8) → (c : Dev nD) → Dat τ (Elt F) Unit ℕ (UR sig nD τ) ℕ (cfgs p) c
  | ⟨0, _⟩ => fun c => dat0 (rd (V5 m)) c
  | ⟨1, _⟩ => fun c => dat1 (rd (V7 m (outs m))) c
  | ⟨2, _⟩ => fun c => dat2 (rd (V13 m (outs m))) c
  | ⟨3, _⟩ => fun c => dat3 (rd (V15 m (outs m))) c
  | ⟨4, _⟩ => fun c => dat4 (rd (V21 m (outs m))) c
  | ⟨5, _⟩ => fun c => dat5 (rd (V23 m (outs m))) c
  | ⟨6, _⟩ => fun c => dat6 (rd (V29 m (outs m))) c
  | ⟨7, _⟩ => fun c => dat7 (rd (V31 m (outs m))) c

/-! ## The regions' results, window by window -/

/-- What region 0 leaves in `main_v7_0`: its window 4's array after the write-backs. -/
theorem outs_6_0 (c : Dev nD) : outs m 6 main_v7_0 c = (dat0 (rd (V5 m)) c).arrAt 4 cfg0.N :=
  left_arr (dat0 (rd (V5 m)) c) (V5 m c) launch0.win.arr_inj 4

/-- What region 0 leaves in `main_v7_1`: its window 5's array after the write-backs. -/
theorem outs_6_1 (c : Dev nD) : outs m 6 main_v7_1 c = (dat0 (rd (V5 m)) c).arrAt 5 cfg0.N :=
  left_arr (dat0 (rd (V5 m)) c) (V5 m c) launch0.win.arr_inj 5

/-- What region 1 leaves in `main_v49`: its window 7's array after the write-backs. -/
theorem outs_8 (c : Dev nD) : outs m 8 main_v49 c = (dat1 (rd (V7 m (outs m))) c).arrAt 7 cfg1.N :=
  left_arr (dat1 (rd (V7 m (outs m))) c) (V7 m (outs m) c) launch1.win.arr_inj 7

/-- What region 2 leaves in `main_v56_0`: its window 4's array after the write-backs. -/
theorem outs_14_0 (c : Dev nD) : outs m 14 main_v56_0 c = (dat2 (rd (V13 m (outs m))) c).arrAt 4 cfg2.N :=
  left_arr (dat2 (rd (V13 m (outs m))) c) (V13 m (outs m) c) launch2.win.arr_inj 4

/-- What region 2 leaves in `main_v56_1`: its window 5's array after the write-backs. -/
theorem outs_14_1 (c : Dev nD) : outs m 14 main_v56_1 c = (dat2 (rd (V13 m (outs m))) c).arrAt 5 cfg2.N :=
  left_arr (dat2 (rd (V13 m (outs m))) c) (V13 m (outs m) c) launch2.win.arr_inj 5

/-- What region 3 leaves in `main_v74`: its window 7's array after the write-backs. -/
theorem outs_16 (c : Dev nD) : outs m 16 main_v74 c = (dat3 (rd (V15 m (outs m))) c).arrAt 7 cfg3.N :=
  left_arr (dat3 (rd (V15 m (outs m))) c) (V15 m (outs m) c) launch3.win.arr_inj 7

/-- What region 4 leaves in `main_v81_0`: its window 4's array after the write-backs. -/
theorem outs_22_0 (c : Dev nD) : outs m 22 main_v81_0 c = (dat4 (rd (V21 m (outs m))) c).arrAt 4 cfg4.N :=
  left_arr (dat4 (rd (V21 m (outs m))) c) (V21 m (outs m) c) launch4.win.arr_inj 4

/-- What region 4 leaves in `main_v81_1`: its window 5's array after the write-backs. -/
theorem outs_22_1 (c : Dev nD) : outs m 22 main_v81_1 c = (dat4 (rd (V21 m (outs m))) c).arrAt 5 cfg4.N :=
  left_arr (dat4 (rd (V21 m (outs m))) c) (V21 m (outs m) c) launch4.win.arr_inj 5

/-- What region 5 leaves in `main_v99`: its window 7's array after the write-backs. -/
theorem outs_24 (c : Dev nD) : outs m 24 main_v99 c = (dat5 (rd (V23 m (outs m))) c).arrAt 7 cfg5.N :=
  left_arr (dat5 (rd (V23 m (outs m))) c) (V23 m (outs m) c) launch5.win.arr_inj 7

/-- What region 6 leaves in `main_v106_0`: its window 4's array after the write-backs. -/
theorem outs_30_0 (c : Dev nD) : outs m 30 main_v106_0 c = (dat6 (rd (V29 m (outs m))) c).arrAt 4 cfg6.N :=
  left_arr (dat6 (rd (V29 m (outs m))) c) (V29 m (outs m) c) launch6.win.arr_inj 4

/-- What region 6 leaves in `main_v106_1`: its window 5's array after the write-backs. -/
theorem outs_30_1 (c : Dev nD) : outs m 30 main_v106_1 c = (dat6 (rd (V29 m (outs m))) c).arrAt 5 cfg6.N :=
  left_arr (dat6 (rd (V29 m (outs m))) c) (V29 m (outs m) c) launch6.win.arr_inj 5

/-- What region 7 leaves in `main_v124`: its window 7's array after the write-backs. -/
theorem outs_32 (c : Dev nD) : outs m 32 main_v124 c = (dat7 (rd (V31 m (outs m))) c).arrAt 7 cfg7.N :=
  left_arr (dat7 (rd (V31 m (outs m))) c) (V31 m (outs m) c) launch7.win.arr_inj 7

/-! ## The thread state between items -/

/-- What rides beside the unscoped buffers through every item: the core's generator register at some state, and the core
    owing nothing. -/
abbrev Rst (c : Dev nD) : sProp 𝕄 :=
  iprop((∃ r, prngReg c r) ∗ ∃ W, owes (c : Thread nD τ) (0 : CellTallies nD τ sig Unit) W)
/-- The same rest between any two items. -/
abbrev E : Fin 9 → Dev nD → sProp 𝕄 := fun _ c => Rst c

/-- No pipeline here has a prefetched table: the tables' part of a region's entry is empty. -/
theorem prefHeld_none (p : Fin 8) (c : Dev nD) :
    (BI.emp : sProp 𝕄) ⊢ Pipeline.prefHeld (pcfgs (F := F) p).pre c (fun _ => fullShare) (adm (F := F) p).1 := by
  unfold Pipeline.prefHeld
  rw [show (Finset.univ : Finset (Fin (pcfgs (F := F) p).pre.K)) = ∅ from rfl, BI.bigSep_empty]

section Owes

variable {cfg : Cfg sig Λ₀} {c : Dev nD} (dat : Dat τ (Elt F) Unit ℕ (UR sig nD τ) ℕ cfg c)

/-- A core owing nothing owes what a pipeline that owes nothing holds it to, at any point. -/
theorem owesAt_of_zero (t : Fin (cfg.N + 1)) (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [h0, hr]
  iintro ⟨%W, HO⟩
  iexists W
  isplitr
  · ipureintro; exact fun _ _ => Or.inl trivial
  iexact HO

/-- And back. -/
theorem zero_of_owesAt (t : Fin (cfg.N + 1)) (h0 : dat.owed t = 0) :
    (dat.owesAt () t : sProp 𝕄) ⊢ iprop(∃ W, owes (c : Thread nD τ) (0 : CellTallies nD τ sig Unit) W) := by
  unfold Pipeline.Dat.owesAt Pipeline.owesWithin
  rw [h0]
  iintro ⟨%W, -, HO⟩
  iexists W
  iexact HO

end Owes

/-! ## A region's record over the thread state

Entered from every unscoped buffer held at `Vin` beside the rest, left at `Vout` beside the rest. The windows' arrays are
split out of the unscoped buffers at the entry and put back, at what the region leaves, at the exit; the generator register
and the other unscoped buffers pass the region by; nothing enters the invariant but the scoped buffers; nothing is owed;
the kernel has no semaphore of its own. One construction serves every region: only the pipeline index, the two valuations
and the region's own facts vary. -/

section Region

variable (pd : (p : Fin 8) → (c : Dev nD) → Dat τ (Elt F) Unit ℕ (UR sig nD τ) ℕ (cfgs p) c)

set_option backward.isDefEq.respectTransparency.types false in
def mkReg (p : Fin 8) (lf : Pipeline.LaunchFacts (nD := nD) (τ := τ) cfgs p)
    (Vin Vout : Dev nD → Valuation τ sig (Elt F))
    (hbody : ∀ c, BodyObligation (pd p c) (defs₀ (F := F)) Variants.none () Set.univ)
    (howed : ∀ c t, (pd p c).owed t = 0)
    (hrec : ∀ c t, (pd p c).recorded t = Set.univ)
    (hq : ∀ c w, (pd p c).q w = fullShare)
    (hA : ∀ c w, (pd p c).A w = rd Vin c (Pipeline.arrRef (cfgs p).spec w))
    (hleft : ∀ c (b : Ref sig .tc), Vout c b = left (pd p c) (Vin c) b)
    (hΦin : ∀ c (T : sProp 𝕄), iprop(BI.emp ∗ T ∗ Pipeline.scopedRest (Ix := Unit) (Name := ℕ) (U := UR sig nD τ) (Lvl := ℕ) (Val := Elt F) (cfgs p).spec c) ⊢ (pd p c).Φ 0)
    (hΦout : ∀ c, (pd p c).Φ (Fin.last _) ⊢ iprop(BI.emp ∗ Pipeline.ownSems0 (fun k : PEmpty => k.elim) c ∗ Pipeline.scopedRest (Ix := Unit) (Name := ℕ) (U := UR sig nD τ) (Lvl := ℕ) (Val := Elt F) (cfgs p).spec c)) :
    RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vin c) ∗ Rst c)
  post c := iprop(StableHlo.held (c : Thread nD τ) (Pipeline.ucRefs τ sig) (Vout c) ∗ Rst c)
  X _ := BI.emp
  Y _ := BI.emp
  Z c := iprop(Pipeline.unscopedRest (Ix := Unit) (Name := ℕ) (U := UR sig nD τ) (Lvl := ℕ) (cfgs p).spec c (rd Vin c) ∗ ∃ r, prngReg c r)
  hentry c := by
    have hsplit := Pipeline.arrays_of_unscopedBufs (p := p) (pcfgs (F := F)) adm pd lf.win lf.arr_whole c
      ((pd p c).share_full (hq c)) (rd Vin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iapply prefHeld_none p c; iempintro
    isplitl [HO]; · iapply owesAt_of_zero (pd p c) 0 (howed c 0) (hrec c 0); iexact HO
    isplitr; · iempintro
    isplitl [Hrest]; · iexact Hrest
    iexact Hp
  hin c := hΦin c _
  hout c := hΦout c
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c)) (rd Vin c) (rd Vout c) ((pd p c).arrAt · (cfgs p).N)
      (fun w => ((hleft c _).trans (left_arr (pd p c) (Vin c) lf.win.arr_inj w)).symm)
      (fun b hb => (hleft c b).trans (Pipeline.withArrays_of_ne _ c (Vin c) _ b
        fun w e => hb (Finset.mem_image.mpr ⟨w, Finset.mem_univ _, e⟩)))
    rw [Pipeline.unscopedBufs_held] at hjoin
    iintro ⟨Ha, HO, -, Hrest, Hp⟩
    imodintro
    isplitl [Ha Hrest]
    · iapply hjoin; isplitl [Ha] <;> iassumption
    isplitl [Hp]; · iexact Hp
    iapply zero_of_owesAt (pd p c) (Fin.last _) (howed c (Fin.last _)); iexact HO

end Region

/-! ## The run -/

variable (ρ : Dev nD → PrngReg)

/-- The library's launch element yields its own image under the one embedding, and no ghost resource is asked for. -/
theorem launch_elem :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  rw [BI.bigSep_emp_const]
  iintro Hu
  imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iempintro

/-- What the launch deals each core, its buffers apart, makes the rest on every core at once. -/
theorem rest_init :
    iprop((bigSep Finset.univ fun c : Dev nD => iprop(unscopedSems0 c ∗ owes (c : Thread nD τ) (0 : CellTallies nD τ sig Unit) ∅
        ∗ Pipeline.launchCred (fun _ : Dev nD => (0 : CellTallies nD τ sig Unit)) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]
  · iexists _; iexact Hp
  iexists ∅
  iexact HO

/-- The rest ends owing nothing. -/
theorem rest_end (c : Dev nD) :
    E (F := F) 8 c ⊢ (iprop(∃ W, owes (c : Thread nD τ) (0 : CellTallies nD τ sig Unit) W) : sProp 𝕄) := by
  iintro ⟨-, HO⟩
  iexact HO

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.BitsStats0.lean ====
/-
  The statistics launch of one vocabulary cluster: its body, run. The body has two cases, told apart by the tile's
  index inside its half. At the first tile it projects the hidden rows into the scratch and sets the running maximum
  and sum to their start before the tile's update; whatever the scratch and the two statistics' buffers held is
  overwritten, so nothing is asked of them. At every other tile the scratch and the two buffers hold what the tile
  before left (the buffers are not written back inside a half), and the body updates the statistics from them.
  In both cases every buffer is loaded and stored whole, so what a buffer holds afterwards is the payload of the last
  store into it, and what a load after a store reads is that store's payload.

  From the two cases: the body obligation of the pipeline rule at the proof data `dat0`, whose staging contents
  are the fold `stats0`; and the scratch invariant `Φ0` at the two ends of the region, where the scratch returns to
  the scoped buffers at some contents.
-/
import proofs.«124427_j55336358642036_2_alg».proof.Proof.BitsStats0Defs
import Idealize.ShloMosaic.Lib.Pipeline.FrameBody
import Idealize.ShloMosaic.Lib.Pipeline.Value
import Idealize.ShloMosaic.Lib.Pipeline.Regions
import Idealize.ShloMosaic.Lib.Ring
import Idealize.ShloMosaic.Lib.Tactic

set_option maxRecDepth 16384

noncomputable section

namespace Cert.Kernel.Hand

open Cert.Kernel.Gen Cert.Sizes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, of rank two and three. -/
private theorem offPair : (![0, 0] : Fin 2 → Nat) = fun _ => 0 := funext fun a => by fin_cases a <;> rfl
private theorem offTriple : (![0, 0, 0] : Fin 3 → Nat) = fun _ => 0 := funext fun a => by fin_cases a <;> rfl

/-- The condition of the body's conditional: the tile's index inside its half is zero. -/
abbrev cond0 (i : grid0.Coords) : Prop :=
  (Scalar.cmpi .ne (Scalar.extui (Scalar.cmpi .eq (BitVec.ofNat 32 (i 1).val) 0#32)) 0#32) = 1#1

/-- It holds at the first tile of each half: decided over the grid. -/
theorem hcond0 : ∀ t : Fin cfg0.N, cond0 (grid0.coords t) ↔ t.val % tilesPerHalf0 = 0 :=
  (by decide +kernel : ∀ t : Fin grid0.N, cond0 (grid0.coords t) ↔ t.val % tilesPerHalf0 = 0)

/-! ## The body's two cases -/

set_option maxHeartbeats 2000000 in
/-- The body at the first tile of a half: the hidden rows are projected into the scratch, the statistics are set to
    their start and updated by the tile; whatever the scratch and the statistics' buffers held is overwritten. -/
theorem run0_A (c : Dev nD) (E : Set ℕ) (i : grid0.Coords)
    (arg2 : Memref sig .tc .vmem S512x1024 .bf16) (harg2 : arg2.IsWhole) (arg3 : Memref sig .tc .vmem S1024x1024 .bf16) (harg3 : arg3.IsWhole)
    (arg4 : Memref sig .tc .vmem S2048x1024 .bf16) (harg4 : arg4.IsWhole) (arg5 : Memref sig .tc .vmem S1x2048 .f32) (harg5 : arg5.IsWhole)
    (arg6 : Memref sig .tc .vmem S1x512x1 .f32) (harg6 : arg6.IsWhole) (arg7 : Memref sig .tc .vmem S1x512x1 .f32) (harg7 : arg7.IsWhole)
    (arg8 : Memref sig .tc .vmem S512x1024 .bf16) (harg8 : arg8.IsWhole) (hc : cond0 i)
    (hid : Vec F S512x1024 .bf16) (prj : Vec F S1024x1024 .bf16) (wb : Vec F S2048x1024 .bf16) (bb : Vec F S1x2048 .f32)
    (K : PUnit → sProp 𝕄) :
    iprop(owns (c : Thread nD τ) arg2 fullShare hid ∗ owns (c : Thread nD τ) arg3 fullShare prj
        ∗ owns (c : Thread nD τ) arg4 fullShare wb ∗ owns (c : Thread nD τ) arg5 fullShare bb
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare hid ∗ owns (c : Thread nD τ) arg3 fullShare prj
            ∗ owns (c : Thread nD τ) arg4 fullShare wb ∗ owns (c : Thread nD τ) arg5 fullShare bb
            ∗ owns (c : Thread nD τ) arg6 fullShare (step0 i wb bb (start0 hid prj)).m
            ∗ owns (c : Thread nD τ) arg7 fullShare (step0 i wb bb (start0 hid prj)).l
            ∗ owns (c : Thread nD τ) arg8 fullShare (step0 i wb bb (start0 hid prj)).y) -∗ K ⟨⟩))
      ⊢ wp frame (wpE (defs₀ (F := F)) Variants.none c none) E (cc0_kernel i arg2 harg2 arg3 harg3 arg4 harg4 arg5 harg5 arg6 harg6 arg7 harg7 arg8 harg8) K := by
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf2 hf3 hf4 hf5
  sl_exec (disch := first | exact hc)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    dsimp only [step0, start0]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x1024) _ offPair, View.readCov_unit_zero (S := S1x512x1) _ offTriple,
      View.readAt_eq_ld, View.ld_unit_zero (S := S512x1024) offPair, View.ld_unit_zero (S := S1024x1024) offPair,
      View.ld_unit_zero (S := S2048x1024) offPair, View.ld_unit_zero (S := S1x2048) offPair, View.ld_unit_zero (S := S1x512x1) offTriple,
      View.ld_unit_zero (S := S512x1024) offPair]
  isplitl [H7]
  · iexists _; isplitr
    swap; · iexact H7
    ipureintro
    dsimp only [step0, start0]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x1024) _ offPair, View.readCov_unit_zero (S := S1x512x1) _ offTriple,
      View.readAt_eq_ld, View.ld_unit_zero (S := S512x1024) offPair, View.ld_unit_zero (S := S1024x1024) offPair,
      View.ld_unit_zero (S := S2048x1024) offPair, View.ld_unit_zero (S := S1x2048) offPair, View.ld_unit_zero (S := S1x512x1) offTriple,
      View.ld_unit_zero (S := S512x1024) offPair]
  iexists _; isplitr
  swap; · iexact H8
  ipureintro
  dsimp only [step0, start0]
  sl_unfold_words
  rw [View.read_writes_eq_canon _ _ _ (fun y => ⟨_, List.Mem.head _, View.mem_set_unit_zero offPair inb_S512x1024_S512x1024_0_0 y⟩),
    View.canon_cons_unit_zero (S := S512x1024) offPair]
  simp only [View.readCov_unit_zero (S := S512x1024) _ offPair, View.readCov_unit_zero (S := S1x512x1) _ offTriple,
    View.readAt_eq_ld, View.ld_unit_zero (S := S512x1024) offPair, View.ld_unit_zero (S := S1024x1024) offPair,
    View.ld_unit_zero (S := S2048x1024) offPair, View.ld_unit_zero (S := S1x2048) offPair, View.ld_unit_zero (S := S1x512x1) offTriple,
    View.ld_unit_zero (S := S512x1024) offPair]

set_option maxHeartbeats 2000000 in
/-- The body at a later tile of a half: the scratch and the running statistics are read as the tile before left
    them; the statistics are updated, the scratch and the inputs stay. -/
theorem run0_B (c : Dev nD) (E : Set ℕ) (i : grid0.Coords)
    (arg2 : Memref sig .tc .vmem S512x1024 .bf16) (harg2 : arg2.IsWhole) (arg3 : Memref sig .tc .vmem S1024x1024 .bf16) (harg3 : arg3.IsWhole)
    (arg4 : Memref sig .tc .vmem S2048x1024 .bf16) (harg4 : arg4.IsWhole) (arg5 : Memref sig .tc .vmem S1x2048 .f32) (harg5 : arg5.IsWhole)
    (arg6 : Memref sig .tc .vmem S1x512x1 .f32) (harg6 : arg6.IsWhole) (arg7 : Memref sig .tc .vmem S1x512x1 .f32) (harg7 : arg7.IsWhole)
    (arg8 : Memref sig .tc .vmem S512x1024 .bf16) (harg8 : arg8.IsWhole) (hc : ¬cond0 i)
    (hid : Vec F S512x1024 .bf16) (prj : Vec F S1024x1024 .bf16) (wb : Vec F S2048x1024 .bf16) (bb : Vec F S1x2048 .f32)
    (y : Vec F S512x1024 .bf16) (m l : Vec F S1x512x1 .f32)
    (K : PUnit → sProp 𝕄) :
    iprop(owns (c : Thread nD τ) arg2 fullShare hid ∗ owns (c : Thread nD τ) arg3 fullShare prj
        ∗ owns (c : Thread nD τ) arg4 fullShare wb ∗ owns (c : Thread nD τ) arg5 fullShare bb
        ∗ owns (c : Thread nD τ) arg6 fullShare m ∗ owns (c : Thread nD τ) arg7 fullShare l
        ∗ owns (c : Thread nD τ) arg8 fullShare y
        ∗ (iprop(owns (c : Thread nD τ) arg2 fullShare hid ∗ owns (c : Thread nD τ) arg3 fullShare prj
            ∗ owns (c : Thread nD τ) arg4 fullShare wb ∗ owns (c : Thread nD τ) arg5 fullShare bb
            ∗ owns (c : Thread nD τ) arg6 fullShare (step0 i wb bb ⟨y, m, l⟩).m
            ∗ owns (c : Thread nD τ) arg7 fullShare (step0 i wb bb ⟨y, m, l⟩).l
            ∗ owns (c : Thread nD τ) arg8 fullShare (step0 i wb bb ⟨y, m, l⟩).y) -∗ K ⟨⟩))
      ⊢ wp frame (wpE (defs₀ (F := F)) Variants.none c none) E (cc0_kernel i arg2 harg2 arg3 harg3 arg4 harg4 arg5 harg5 arg6 harg6 arg7 harg7 arg8 harg8) K := by
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2 hf3 hf4 hf5 hf6 hf7 hf8
  sl_exec (disch := first | exact hc)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    dsimp only [step0, start0]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x1024) _ offPair, View.readCov_unit_zero (S := S1x512x1) _ offTriple,
      View.readAt_eq_ld, View.ld_unit_zero (S := S512x1024) offPair, View.ld_unit_zero (S := S1024x1024) offPair,
      View.ld_unit_zero (S := S2048x1024) offPair, View.ld_unit_zero (S := S1x2048) offPair, View.ld_unit_zero (S := S1x512x1) offTriple,
      View.ld_unit_zero (S := S512x1024) offPair]
  isplitl [H7]
  · iexists _; isplitr
    swap; · iexact H7
    ipureintro
    dsimp only [step0, start0]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x1024) _ offPair, View.readCov_unit_zero (S := S1x512x1) _ offTriple,
      View.readAt_eq_ld, View.ld_unit_zero (S := S512x1024) offPair, View.ld_unit_zero (S := S1024x1024) offPair,
      View.ld_unit_zero (S := S2048x1024) offPair, View.ld_unit_zero (S := S1x2048) offPair, View.ld_unit_zero (S := S1x512x1) offTriple,
      View.ld_unit_zero (S := S512x1024) offPair]
  iexists f8; isplitr; · ipureintro; rfl
  iexact H8

section Region

variable (V : (c : Dev nD) → (b : Ref sig .tc) → Buf (Elt F) ((c : Thread nD τ).loc b))

/-! ## The scratch invariant, opened and closed -/

/-- At any point the scratch is held at some contents beside the other scoped buffers. -/
theorem Φ0_open (c : Dev nD) (n : ℕ) : Φ0 V c n ⊢ iprop((∃ y, owns (c : Thread nD τ) scM0 fullShare y)
      ∗ Pipeline.scopedRestBut (Ix := Unit) (Name := ℕ) (U := UR sig nD τ) (Lvl := ℕ) (Val := Elt F) spec0 c [cc0_scratch0]) := by
  cases n with
  | zero =>
    show Pipeline.scopedRest (Ix := Unit) (Name := ℕ) (U := UR sig nD τ) (Lvl := ℕ) (Val := Elt F) spec0 c ⊢ _
    rw [scopedRest0_split]
    iintro ⟨⟨%f, Hs⟩, Hr⟩
    isplitl [Hs]
    · iexists f; rw [owns_whole]; iexact Hs
    iexact Hr
  | succ n =>
    rw [Φ0_succ]
    iintro ⟨Hs, Hr⟩
    isplitl [Hs]
    · iexists _; iexact Hs
    iexact Hr

/-- So the scoped buffers are whole again, the scratch among them. -/
theorem Φ0_close (c : Dev nD) (n : ℕ) : Φ0 V c n ⊢
    Pipeline.scopedRest (Ix := Unit) (Name := ℕ) (U := UR sig nD τ) (Lvl := ℕ) (Val := Elt F) spec0 c := by
  have hs : ∀ y, (owns (c : Thread nD τ) scM0 fullShare y : sProp 𝕄)
      ⊢ iprop(∃ f : Buf (Elt F) ((c : Thread nD τ).loc cc0_scratch0), ((c : Thread nD τ).loc cc0_scratch0) ↦{fullShare} f) := by
    intro y
    rw [owns_whole_eq]
    iintro ⟨%f, -, Hs⟩
    iexists f; iexact Hs
  refine (Φ0_open V c n).trans ?_
  rw [scopedRest0_split]
  iintro ⟨⟨%y, Hs⟩, Hr⟩
  isplitl [Hs]
  · iapply (hs y); iexact Hs
  iexact Hr

/-! ## What the body finds in each window's buffer -/
/-- Each input's current staging buffer holds its block at every point, fetched there or not: where it is not
    fetched its block index has not moved and the body left the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- There the statistics' buffers hold what the tile before left. -/
theorem before0_4_B (c : Dev nD) (t : Fin cfg0.N) (h0 : ¬t.val % tilesPerHalf0 = 0) (d) :
    (dat0 V c).before 4 t d = (stats0 V c (t.val - 1)).m := by
  rw [Dat.before_out_kept _ 4 rfl t (sched0_4 t h0).1 (sched0_4 t h0).2 (fun _ => rfl) (fun _ _ => rfl)]
  dsimp only [dat0]
theorem before0_5_B (c : Dev nD) (t : Fin cfg0.N) (h0 : ¬t.val % tilesPerHalf0 = 0) (d) :
    (dat0 V c).before 5 t d = (stats0 V c (t.val - 1)).l := by
  rw [Dat.before_out_kept _ 5 rfl t (sched0_5 t h0).1 (sched0_5 t h0).2 (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1600000 in
/-- The body at any point: the inputs' buffers hold their blocks; at the first tile of a half the scratch and the
    statistics are whatever they are and are set afresh; at a later tile they hold what the tile before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = Φ0 V c (t.val + 1) from rfl,
    show (dat0 V c).Φ t.castSucc = Φ0 V c t.val from rfl,
    show (dat0 V c).owesAt () t.succ = (dat0 V c).owesAt () t.castSucc from rfl,
    after0_0, after0_1, after0_2, after0_3, after0_4, after0_5, Φ0_succ]
  by_cases h0 : t.val % tilesPerHalf0 = 0
  · rw [stats0_A V c t h0]
    unfold stepAt0 startAt0
    refine (sep_mono (Φ0_open V c t.val) .rfl).trans ?_
    iintro ⟨⟨⟨%y, Hs⟩, Hrest⟩, Ho, ⟨%d0, H0⟩, ⟨%d1, H1⟩, ⟨%d2, H2⟩, ⟨%d3, H3⟩, ⟨%d4, H4⟩, ⟨%d5, H5⟩⟩
    iapply (run0_A c Set.univ (grid0.coords t) _ _ _ _ _ _ _ _ _ _ _ _ _ _ ((hcond0 t).mpr h0)
      (hidBlk0 V c t) (prjBlk0 V c t) (wBlk0 V c t) (bBlk0 V c t) _)
    isplitl [H0]; · iexact H0
    isplitl [H1]; · iexact H1
    isplitl [H2]; · iexact H2
    isplitl [H3]; · iexact H3
    isplitl [H4]; · iexists _; iexact H4
    isplitl [H5]; · iexists _; iexact H5
    isplitl [Hs]; · iexists _; iexact Hs
    iintro ⟨H0, H1, H2, H3, H4, H5, Hs⟩
    isplitl [Hs Hrest]
    · isplitl [Hs]; · iexact Hs
      iexact Hrest
    isplitl [Ho]; · iexact Ho
    isplitl [H0]; · iexact H0
    isplitl [H1]; · iexact H1
    isplitl [H2]; · iexact H2
    isplitl [H3]; · iexact H3
    isplitl [H4]; · iexact H4
    iexact H5
  · have ht : t.val ≠ 0 := fun e => h0 (by rw [e]; exact Nat.zero_mod _)
    rw [stats0_B V c t h0]
    simp only [before0_4_B V c t h0, before0_5_B V c t h0]
    rw [show Φ0 V c t.val = Φ0 V c (t.val - 1 + 1) from by rw [Nat.sub_one_add_one ht], Φ0_succ]
    unfold stepAt0
    iintro ⟨⟨Hs, Hrest⟩, Ho, ⟨%d0, H0⟩, ⟨%d1, H1⟩, ⟨%d2, H2⟩, ⟨%d3, H3⟩, ⟨%d4, H4⟩, ⟨%d5, H5⟩⟩
    iapply (run0_B c Set.univ (grid0.coords t) _ _ _ _ _ _ _ _ _ _ _ _ _ _ (fun h => h0 ((hcond0 t).mp h))
      (hidBlk0 V c t) (prjBlk0 V c t) (wBlk0 V c t) (bBlk0 V c t)
      (stats0 V c (t.val - 1)).y (stats0 V c (t.val - 1)).m (stats0 V c (t.val - 1)).l _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]; · iexact Hs
      iexact Hrest
    isplitl [Ho]; · iexact Ho
    isplitl [H0]; · iexact H0
    isplitl [H1]; · iexact H1
    isplitl [H2]; · iexact H2
    isplitl [H3]; · iexact H3
    isplitl [H4]; · iexact H4
    iexact H5

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the two ends of the region -/

theorem Φ0_in (c : Dev nD) (T : sProp 𝕄) :
    iprop(BI.emp ∗ T ∗ Pipeline.scopedRest (Ix := Unit) (Name := ℕ) (U := UR sig nD τ) (Lvl := ℕ) (Val := Elt F) spec0 c)
      ⊢ (dat0 V c).Φ 0 := by
  show _ ⊢ Pipeline.scopedRest (Ix := Unit) (Name := ℕ) (U := UR sig nD τ) (Lvl := ℕ) (Val := Elt F) spec0 c
  iintro ⟨-, -, Hr⟩
  iexact Hr

theorem Φ0_out (c : Dev nD) :
    (dat0 V c).Φ (Fin.last _) ⊢ iprop(BI.emp ∗ Pipeline.ownSems0 (fun k : PEmpty => k.elim) c
      ∗ Pipeline.scopedRest (Ix := Unit) (Name := ℕ) (U := UR sig nD τ) (Lvl := ℕ) (Val := Elt F) spec0 c) := by
  rw [Pipeline.ownSems0_none, show (dat0 V c).Φ (Fin.last cfg0.N) = Φ0 V c cfg0.N from rfl]
  refine (Φ0_close V c _).trans ?_
  iintro Hr
  isplitr; · iempintro
  isplitr; · iempintro
  iexact Hr

end Region

end Cert.Kernel.Hand

end
-- ==== Proof.BitsWrite1.lean ====
/-
  The write launch of vocabulary cluster 1 (launch 3), its body obligation.

  The body has one conditional: at a half's first tile it projects the hidden rows into the scratch. So a point is in
  one of two cases, decided by the tile coordinate (the point's position modulo the tiles per half): in the first the
  scratch comes in at anything and leaves at the projected rows; in the second it comes in at them and is left alone.
  In both the output window's buffer is stored whole, once, with the tile's payload over the projected rows: the masked
  logits less the row maximum and the logarithm of the row sum, plus the row's extra term.

  The hidden rows and the projection are one block each, the same at every point, so the projected rows are one value,
  and the invariant between points is the scratch owned at it (before the first point: at anything, inside the scoped
  rest). The invariant takes the scoped rest in before the first point and gives it back after the last.
-/
import proofs.«124427_j55336358642036_2_alg».proof.Proof.BitsWrite1Defs
import proofs.«124427_j55336358642036_2_alg».proof.Proof.Gen.Kernel.Points
import proofs.«124427_j55336358642036_2_alg».proof.Proof.Sizes
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand

open Cert.Kernel.Gen
open Cert.Sizes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's branch condition -/

/-- The condition of the body's one conditional: the tile coordinate is the half's first. -/
abbrev cond1_0 (i : grid1.Coords) : Prop :=
  (Scalar.cmpi .ne (Scalar.extui (Scalar.cmpi .eq (BitVec.ofNat 32 (i 1).val) 0#32)) 0#32) = 1#1

/-- It holds at each half's first point only, decided over the grid. -/
theorem hcond1_0 : ∀ t : Fin cfg1.N, cond1_0 (grid1.coords t) ↔ t.val % tilesPerHalf1 = 0 :=
  (by decide +kernel : ∀ t : Fin grid1.N, cond1_0 (grid1.coords t) ↔ t.val % tilesPerHalf1 = 0)

/-! ## What the body finds in the inputs' buffers -/

/-- Input window 0's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1's current staging buffer holds its block at every point, fetched there or not. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2's current staging buffer holds its block at every point, fetched there or not. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Input window 3's current staging buffer holds its block at every point, fetched there or not. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- Input window 4's current staging buffer holds its block at every point, fetched there or not. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- Input window 5's current staging buffer holds its block at every point, fetched there or not. -/
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-- Input window 6's current staging buffer holds its block at every point, fetched there or not. -/
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-- The hidden rows' window and the projection's have one block: the same at every point. -/
theorem iblk1_0_const (c : Dev nD) (t : Fin cfg1.N) : iblk1 V c 0 t = iblk1 V c 0 pt1_0 := rfl
theorem iblk1_1_const (c : Dev nD) (t : Fin cfg1.N) : iblk1 V c 1 t = iblk1 V c 1 pt1_0 := rfl

/-! ## The body's two runs -/

/-- The offsets of every access of the body: the buffers' origins. -/
theorem zero3 : (![0, 0] : Fin 2 → Nat) = fun _ => 0 := funext fun a => by fin_cases a <;> rfl

set_option maxHeartbeats 1000000 in
/-- The body where the tile is NOT the half's first, on whole memrefs: the inputs' at their contents, the output's at
    anything, the scratch at contents ys. It runs to the continuation holding the inputs and the scratch as they were
    and the output's buffer at the tile's payload over ys. -/
theorem sound_kernel1_B (c : Dev nD) (E : Set ℕ) (i : grid1.Coords) (arg2 : Memref sig .tc .vmem S512x1024 .bf16) (harg2 : arg2.IsWhole) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x2048 .f32) (harg9 : arg9.IsWhole) (arg10 : Memref sig .tc .vmem S512x1024 .bf16) (harg10 : arg10.IsWhole) (hc : ¬cond1_0 i)
    (x0 : Vec F S512x1024 .bf16) (x1 : Vec F S1024x1024 .bf16) (x2 : Vec F S2048x1024 .bf16) (x3 : Vec F S1x2048 .f32) (x4 : Vec F S512x1 .f32) (x5 : Vec F S512x1 .f32) (x6 : Vec F S512x1 .f32) (ys : Vec F S512x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare ys
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k1_pay2 i ys x2 x3 x4 x5 x6) ∗ owns (c : Thread nD τ) arg10 fullShare ys) -∗ K ⟨⟩))
      ⊢ wp frame (wpE (defs₀ (F := F)) Variants.none c none) E (cc1_kernel i arg2 harg2 arg3 harg3 arg4 harg4 arg5 harg5 arg6 harg6 arg7 harg7 arg8 harg8 arg9 harg9 arg10 harg10) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg10.eq_unread hfs
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H9]
  · iexists _; isplitr
    swap; · iexact H9
    ipureintro
    rw [View.read_writes_eq_canon _ _ _ (fun y => ⟨_, List.mem_singleton_self _, View.mem_set_unit_zero zero3 inb_S512x2048_S512x2048_0_0 y⟩), View.canon_unit_zero zero3]
    simp only [View.readAt_eq_ld, harg2.read_unread, harg3.read_unread, harg4.read_unread, harg5.read_unread, harg6.read_unread, harg7.read_unread, harg8.read_unread, harg10.read_unread,
      View.ld_unit_zero (S := S512x1024) zero3, View.ld_unit_zero (S := S1024x1024) zero3, View.ld_unit_zero (S := S2048x1024) zero3, View.ld_unit_zero (S := S1x2048) zero3,
      View.ld_unit_zero (S := S512x1) zero3, View.ld_unit_zero (S := S512x1024) zero3]
  iexists _; isplitr; · ipureintro; exact harg10.read_unread _
  iexact HS

set_option maxHeartbeats 1000000 in
/-- The body where the tile IS the half's first, on whole memrefs: the inputs' at their contents, the output's and the
    scratch at anything. It runs to the continuation holding the inputs as they were, the scratch at the projected
    hidden rows and the output's buffer at the tile's payload over them. -/
theorem sound_kernel1_A (c : Dev nD) (E : Set ℕ) (i : grid1.Coords) (arg2 : Memref sig .tc .vmem S512x1024 .bf16) (harg2 : arg2.IsWhole) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x2048 .f32) (harg9 : arg9.IsWhole) (arg10 : Memref sig .tc .vmem S512x1024 .bf16) (harg10 : arg10.IsWhole) (hc : cond1_0 i)
    (x0 : Vec F S512x1024 .bf16) (x1 : Vec F S1024x1024 .bf16) (x2 : Vec F S2048x1024 .bf16) (x3 : Vec F S1x2048 .f32) (x4 : Vec F S512x1 .f32) (x5 : Vec F S512x1 .f32) (x6 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k1_pay2 i (k1_pay1 x0 x1) x2 x3 x4 x5 x6) ∗ owns (c : Thread nD τ) arg10 fullShare (k1_pay1 x0 x1)) -∗ K ⟨⟩))
      ⊢ wp frame (wpE (defs₀ (F := F)) Variants.none c none) E (cc1_kernel i arg2 harg2 arg3 harg3 arg4 harg4 arg5 harg5 arg6 harg6 arg7 harg7 arg8 harg8 arg9 harg9 arg10 harg10) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc)

  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H9]
  · iexists _; isplitr
    swap; · iexact H9
    ipureintro
    rw [View.read_writes_eq_canon _ _ _ (fun y => ⟨_, List.mem_singleton_self _, View.mem_set_unit_zero zero3 inb_S512x2048_S512x2048_0_0 y⟩), View.canon_unit_zero zero3]
    sl_unfold_words
    simp only [View.readAt_eq_ld, harg2.read_unread, harg3.read_unread, harg4.read_unread, harg5.read_unread, harg6.read_unread, harg7.read_unread, harg8.read_unread,
      View.ld_unit_zero (S := S512x1024) zero3, View.ld_unit_zero (S := S1024x1024) zero3, View.ld_unit_zero (S := S2048x1024) zero3, View.ld_unit_zero (S := S1x2048) zero3,
      View.ld_unit_zero (S := S512x1) zero3, View.ld_unit_zero (S := S512x1024) zero3, View.readCov_unit_zero (S := S512x1024) _ zero3]
  iexists _; isplitr
  swap; · iexact HS
  ipureintro
  sl_unfold_words
  rw [View.read_writes_eq_canon _ _ _ (fun y => ⟨_, List.mem_singleton_self _, View.mem_set_unit_zero zero3 inb_S512x1024_S512x1024_0_0 y⟩), View.canon_unit_zero zero3]
  simp only [View.readAt_eq_ld, harg2.read_unread, harg3.read_unread, harg4.read_unread, harg5.read_unread, harg6.read_unread, harg7.read_unread, harg8.read_unread,
      View.ld_unit_zero (S := S512x1024) zero3, View.ld_unit_zero (S := S1024x1024) zero3, View.ld_unit_zero (S := S2048x1024) zero3, View.ld_unit_zero (S := S1x2048) zero3,
      View.ld_unit_zero (S := S512x1) zero3, View.ld_unit_zero (S := S512x1024) zero3]

/-! ## The body obligation, at a generic point -/

/-- The scratch's contents in terms of the blocks at any point: the hidden rows' block and the projection's are the
    same at every point. -/
theorem y1_eq (c : Dev nD) (t : Fin cfg1.N) : y1 V c = k1_pay1 (iblk1 V c 0 t) (iblk1 V c 1 t) := rfl

/-- Before any point the invariant holds the scratch at some contents beside the scoped rest without it. -/
theorem Phi1_any (c : Dev nD) (n : ℕ) :
    Phi1 V c n ⊢ iprop((∃ d, owns (c : Thread nD τ) scM1 fullShare d) ∗ Pipeline.scopedRestBut (Ix := Unit) (Name := ℕ) (U := UR sig nD τ) (Lvl := ℕ) (Val := Elt F) spec1 c [cc1_scratch0]) := by
  cases n with
  | zero =>
    rw [Phi1_zero V c 0 rfl, scopedRest1_split]; simp only [owns_whole]; exact .rfl
  | succ n =>
    rw [Phi1_pos V c _ (Nat.succ_ne_zero n)]
    iintro ⟨Hs, Hr⟩
    isplitl [Hs]; · iexists _; iexact Hs
    iexact Hr

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the inputs' memrefs hold their blocks; at a half's first tile the scratch comes in at
    anything and leaves at the projected hidden rows, elsewhere it comes in and leaves at them; the output's buffer is
    left at the tile's payload over them; the rest of the invariant and the core's tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl,
    show (dat1 V c).Φ t.succ = Phi1 V c (t.val + 1) from rfl, Phi1_pos V c _ (Nat.succ_ne_zero _),
    show (dat1 V c).Φ t.castSucc = Phi1 V c t.val from rfl,
    after1_0, after1_1, after1_2, after1_3, after1_4, after1_5, after1_6, after1_7]
  unfold out1_7
  by_cases h0 : t.val % tilesPerHalf1 = 0
  · rw [y1_eq V c t]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (Phi1_any V c t.val) $$ HΦ
    icases HΦ' with ⟨HS, Hr⟩
    iapply (sound_kernel1_A c Set.univ (grid1.coords t) _ _ _ _ _ _ _ _ _ _ _ _ _ _ _ _ _ _ ((hcond1_0 t).mpr h0)
      (iblk1 V c 0 t) (iblk1 V c 1 t) (iblk1 V c 2 t) (iblk1 V c 3 t) (iblk1 V c 4 t) (iblk1 V c 5 t) (iblk1 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := fun h => h0 (by rw [h]; exact Nat.zero_mod _)
    rw [Phi1_pos V c _ hz]
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_B c Set.univ (grid1.coords t) _ _ _ _ _ _ _ _ _ _ _ _ _ _ _ _ _ _ (fun h => h0 ((hcond1_0 t).mp h))
      (iblk1 V c 0 t) (iblk1 V c 1 t) (iblk1 V c 2 t) (iblk1 V c 3 t) (iblk1 V c 4 t) (iblk1 V c 5 t) (iblk1 V c 6 t) (y1 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- What the region is handed (nothing of its own, the tables' part T, the scoped rest) is the invariant before the
    first point. -/
theorem Φ1_in (c : Dev nD) (T : sProp 𝕄) :
    iprop(BI.emp ∗ T ∗ Pipeline.scopedRest (Ix := Unit) (Name := ℕ) (U := UR sig nD τ) (Lvl := ℕ) (Val := Elt F) spec1 c) ⊢ (dat1 V c).Φ 0 := by
  rw [show (dat1 V c).Φ 0 = Pipeline.scopedRest (Ix := Unit) (Name := ℕ) (U := UR sig nD τ) (Lvl := ℕ) (Val := Elt F) spec1 c from rfl]
  iintro ⟨-, -, Hr⟩
  iexact Hr

/-- After the last point the invariant gives the scoped rest back: the scratch's named contents are forgotten. -/
theorem Φ1_out (c : Dev nD) :
    (dat1 V c).Φ (Fin.last _) ⊢ iprop(BI.emp ∗ Pipeline.ownSems0 (fun k : PEmpty => k.elim) c ∗ Pipeline.scopedRest (Ix := Unit) (Name := ℕ) (U := UR sig nD τ) (Lvl := ℕ) (Val := Elt F) spec1 c) := by
  rw [Pipeline.ownSems0_none, show (dat1 V c).Φ (Fin.last _) = Phi1 V c cfg1.N from rfl,
    Phi1_pos V c _ (by rw [show cfg1.N = grid1.N from rfl, N_1]; decide), scopedRest1_split, owns_whole]
  iintro ⟨Hs, Hr⟩
  isplitr; · iempintro
  isplitr; · iempintro
  isplitl [Hs]
  · iexists _; iexact Hs
  iexact Hr

end Cert.Kernel.Hand

end
-- ==== Proof.BitsStats2.lean ====
/-
  The statistics launch of one vocabulary cluster: its body, run. The body has two cases, told apart by the tile's
  index inside its half. At the first tile it projects the hidden rows into the scratch and sets the running maximum
  and sum to their start before the tile's update; whatever the scratch and the two statistics' buffers held is
  overwritten, so nothing is asked of them. At every other tile the scratch and the two buffers hold what the tile
  before left (the buffers are not written back inside a half), and the body updates the statistics from them.
  In both cases every buffer is loaded and stored whole, so what a buffer holds afterwards is the payload of the last
  store into it, and what a load after a store reads is that store's payload.

  From the two cases: the body obligation of the pipeline rule at the proof data `dat2`, whose staging contents
  are the fold `stats2`; and the scratch invariant `Φ2` at the two ends of the region, where the scratch returns to
  the scoped buffers at some contents.
-/
import proofs.«124427_j55336358642036_2_alg».proof.Proof.BitsStats2Defs
import Idealize.ShloMosaic.Lib.Pipeline.FrameBody
import Idealize.ShloMosaic.Lib.Pipeline.Value
import Idealize.ShloMosaic.Lib.Pipeline.Regions
import Idealize.ShloMosaic.Lib.Ring
import Idealize.ShloMosaic.Lib.Tactic

set_option maxRecDepth 16384

noncomputable section

namespace Cert.Kernel.Hand

open Cert.Kernel.Gen Cert.Sizes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, of rank two and three. -/
private theorem offPair : (![0, 0] : Fin 2 → Nat) = fun _ => 0 := funext fun a => by fin_cases a <;> rfl
private theorem offTriple : (![0, 0, 0] : Fin 3 → Nat) = fun _ => 0 := funext fun a => by fin_cases a <;> rfl

/-- The condition of the body's conditional: the tile's index inside its half is zero. -/
abbrev cond2 (i : grid2.Coords) : Prop :=
  (Scalar.cmpi .ne (Scalar.extui (Scalar.cmpi .eq (BitVec.ofNat 32 (i 1).val) 0#32)) 0#32) = 1#1

/-- It holds at the first tile of each half: decided over the grid. -/
theorem hcond2 : ∀ t : Fin cfg2.N, cond2 (grid2.coords t) ↔ t.val % tilesPerHalf2 = 0 :=
  (by decide +kernel : ∀ t : Fin grid2.N, cond2 (grid2.coords t) ↔ t.val % tilesPerHalf2 = 0)

/-! ## The body's two cases -/

set_option maxHeartbeats 2000000 in
/-- The body at the first tile of a half: the hidden rows are projected into the scratch, the statistics are set to
    their start and updated by the tile; whatever the scratch and the statistics' buffers held is overwritten. -/
theorem run2_A (c : Dev nD) (E : Set ℕ) (i : grid2.Coords)
    (arg2 : Memref sig .tc .vmem S512x1024 .bf16) (harg2 : arg2.IsWhole) (arg3 : Memref sig .tc .vmem S256x1024 .bf16) (harg3 : arg3.IsWhole)
    (arg4 : Memref sig .tc .vmem S2048x256 .bf16) (harg4 : arg4.IsWhole) (arg5 : Memref sig .tc .vmem S1x2048 .f32) (harg5 : arg5.IsWhole)
    (arg6 : Memref sig .tc .vmem S1x512x1 .f32) (harg6 : arg6.IsWhole) (arg7 : Memref sig .tc .vmem S1x512x1 .f32) (harg7 : arg7.IsWhole)
    (arg8 : Memref sig .tc .vmem S512x256 .bf16) (harg8 : arg8.IsWhole) (hc : cond2 i)
    (hid : Vec F S512x1024 .bf16) (prj : Vec F S256x1024 .bf16) (wb : Vec F S2048x256 .bf16) (bb : Vec F S1x2048 .f32)
    (K : PUnit → sProp 𝕄) :
    iprop(owns (c : Thread nD τ) arg2 fullShare hid ∗ owns (c : Thread nD τ) arg3 fullShare prj
        ∗ owns (c : Thread nD τ) arg4 fullShare wb ∗ owns (c : Thread nD τ) arg5 fullShare bb
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare hid ∗ owns (c : Thread nD τ) arg3 fullShare prj
            ∗ owns (c : Thread nD τ) arg4 fullShare wb ∗ owns (c : Thread nD τ) arg5 fullShare bb
            ∗ owns (c : Thread nD τ) arg6 fullShare (step2 i wb bb (start2 hid prj)).m
            ∗ owns (c : Thread nD τ) arg7 fullShare (step2 i wb bb (start2 hid prj)).l
            ∗ owns (c : Thread nD τ) arg8 fullShare (step2 i wb bb (start2 hid prj)).y) -∗ K ⟨⟩))
      ⊢ wp frame (wpE (defs₀ (F := F)) Variants.none c none) E (cc2_kernel i arg2 harg2 arg3 harg3 arg4 harg4 arg5 harg5 arg6 harg6 arg7 harg7 arg8 harg8) K := by
  simp only [cc2_kernel_eq_skeleton]; unfold cc2_kernel_skel
  simp only [k2_part1_eq_skeleton]; unfold k2_part1_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf2 hf3 hf4 hf5
  sl_exec (disch := first | exact hc)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    dsimp only [step2, start2]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x256) _ offPair, View.readCov_unit_zero (S := S1x512x1) _ offTriple,
      View.readAt_eq_ld, View.ld_unit_zero (S := S512x1024) offPair, View.ld_unit_zero (S := S256x1024) offPair,
      View.ld_unit_zero (S := S2048x256) offPair, View.ld_unit_zero (S := S1x2048) offPair, View.ld_unit_zero (S := S1x512x1) offTriple,
      View.ld_unit_zero (S := S512x256) offPair]
  isplitl [H7]
  · iexists _; isplitr
    swap; · iexact H7
    ipureintro
    dsimp only [step2, start2]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x256) _ offPair, View.readCov_unit_zero (S := S1x512x1) _ offTriple,
      View.readAt_eq_ld, View.ld_unit_zero (S := S512x1024) offPair, View.ld_unit_zero (S := S256x1024) offPair,
      View.ld_unit_zero (S := S2048x256) offPair, View.ld_unit_zero (S := S1x2048) offPair, View.ld_unit_zero (S := S1x512x1) offTriple,
      View.ld_unit_zero (S := S512x256) offPair]
  iexists _; isplitr
  swap; · iexact H8
  ipureintro
  dsimp only [step2, start2]
  sl_unfold_words
  rw [View.read_writes_eq_canon _ _ _ (fun y => ⟨_, List.Mem.head _, View.mem_set_unit_zero offPair inb_S512x256_S512x256_0_0 y⟩),
    View.canon_cons_unit_zero (S := S512x256) offPair]
  simp only [View.readCov_unit_zero (S := S512x256) _ offPair, View.readCov_unit_zero (S := S1x512x1) _ offTriple,
    View.readAt_eq_ld, View.ld_unit_zero (S := S512x1024) offPair, View.ld_unit_zero (S := S256x1024) offPair,
    View.ld_unit_zero (S := S2048x256) offPair, View.ld_unit_zero (S := S1x2048) offPair, View.ld_unit_zero (S := S1x512x1) offTriple,
    View.ld_unit_zero (S := S512x256) offPair]

set_option maxHeartbeats 2000000 in
/-- The body at a later tile of a half: the scratch and the running statistics are read as the tile before left
    them; the statistics are updated, the scratch and the inputs stay. -/
theorem run2_B (c : Dev nD) (E : Set ℕ) (i : grid2.Coords)
    (arg2 : Memref sig .tc .vmem S512x1024 .bf16) (harg2 : arg2.IsWhole) (arg3 : Memref sig .tc .vmem S256x1024 .bf16) (harg3 : arg3.IsWhole)
    (arg4 : Memref sig .tc .vmem S2048x256 .bf16) (harg4 : arg4.IsWhole) (arg5 : Memref sig .tc .vmem S1x2048 .f32) (harg5 : arg5.IsWhole)
    (arg6 : Memref sig .tc .vmem S1x512x1 .f32) (harg6 : arg6.IsWhole) (arg7 : Memref sig .tc .vmem S1x512x1 .f32) (harg7 : arg7.IsWhole)
    (arg8 : Memref sig .tc .vmem S512x256 .bf16) (harg8 : arg8.IsWhole) (hc : ¬cond2 i)
    (hid : Vec F S512x1024 .bf16) (prj : Vec F S256x1024 .bf16) (wb : Vec F S2048x256 .bf16) (bb : Vec F S1x2048 .f32)
    (y : Vec F S512x256 .bf16) (m l : Vec F S1x512x1 .f32)
    (K : PUnit → sProp 𝕄) :
    iprop(owns (c : Thread nD τ) arg2 fullShare hid ∗ owns (c : Thread nD τ) arg3 fullShare prj
        ∗ owns (c : Thread nD τ) arg4 fullShare wb ∗ owns (c : Thread nD τ) arg5 fullShare bb
        ∗ owns (c : Thread nD τ) arg6 fullShare m ∗ owns (c : Thread nD τ) arg7 fullShare l
        ∗ owns (c : Thread nD τ) arg8 fullShare y
        ∗ (iprop(owns (c : Thread nD τ) arg2 fullShare hid ∗ owns (c : Thread nD τ) arg3 fullShare prj
            ∗ owns (c : Thread nD τ) arg4 fullShare wb ∗ owns (c : Thread nD τ) arg5 fullShare bb
            ∗ owns (c : Thread nD τ) arg6 fullShare (step2 i wb bb ⟨y, m, l⟩).m
            ∗ owns (c : Thread nD τ) arg7 fullShare (step2 i wb bb ⟨y, m, l⟩).l
            ∗ owns (c : Thread nD τ) arg8 fullShare (step2 i wb bb ⟨y, m, l⟩).y) -∗ K ⟨⟩))
      ⊢ wp frame (wpE (defs₀ (F := F)) Variants.none c none) E (cc2_kernel i arg2 harg2 arg3 harg3 arg4 harg4 arg5 harg5 arg6 harg6 arg7 harg7 arg8 harg8) K := by
  simp only [cc2_kernel_eq_skeleton]; unfold cc2_kernel_skel
  simp only [k2_part1_eq_skeleton]; unfold k2_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2 hf3 hf4 hf5 hf6 hf7 hf8
  sl_exec (disch := first | exact hc)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    dsimp only [step2, start2]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x256) _ offPair, View.readCov_unit_zero (S := S1x512x1) _ offTriple,
      View.readAt_eq_ld, View.ld_unit_zero (S := S512x1024) offPair, View.ld_unit_zero (S := S256x1024) offPair,
      View.ld_unit_zero (S := S2048x256) offPair, View.ld_unit_zero (S := S1x2048) offPair, View.ld_unit_zero (S := S1x512x1) offTriple,
      View.ld_unit_zero (S := S512x256) offPair]
  isplitl [H7]
  · iexists _; isplitr
    swap; · iexact H7
    ipureintro
    dsimp only [step2, start2]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x256) _ offPair, View.readCov_unit_zero (S := S1x512x1) _ offTriple,
      View.readAt_eq_ld, View.ld_unit_zero (S := S512x1024) offPair, View.ld_unit_zero (S := S256x1024) offPair,
      View.ld_unit_zero (S := S2048x256) offPair, View.ld_unit_zero (S := S1x2048) offPair, View.ld_unit_zero (S := S1x512x1) offTriple,
      View.ld_unit_zero (S := S512x256) offPair]
  iexists f8; isplitr; · ipureintro; rfl
  iexact H8

section Region

variable (V : (c : Dev nD) → (b : Ref sig .tc) → Buf (Elt F) ((c : Thread nD τ).loc b))

/-! ## The scratch invariant, opened and closed -/

/-- At any point the scratch is held at some contents beside the other scoped buffers. -/
theorem Φ2_open (c : Dev nD) (n : ℕ) : Φ2 V c n ⊢ iprop((∃ y, owns (c : Thread nD τ) scM2 fullShare y)
      ∗ Pipeline.scopedRestBut (Ix := Unit) (Name := ℕ) (U := UR sig nD τ) (Lvl := ℕ) (Val := Elt F) spec2 c [cc2_scratch0]) := by
  cases n with
  | zero =>
    show Pipeline.scopedRest (Ix := Unit) (Name := ℕ) (U := UR sig nD τ) (Lvl := ℕ) (Val := Elt F) spec2 c ⊢ _
    rw [scopedRest2_split]
    iintro ⟨⟨%f, Hs⟩, Hr⟩
    isplitl [Hs]
    · iexists f; rw [owns_whole]; iexact Hs
    iexact Hr
  | succ n =>
    rw [Φ2_succ]
    iintro ⟨Hs, Hr⟩
    isplitl [Hs]
    · iexists _; iexact Hs
    iexact Hr

/-- So the scoped buffers are whole again, the scratch among them. -/
theorem Φ2_close (c : Dev nD) (n : ℕ) : Φ2 V c n ⊢
    Pipeline.scopedRest (Ix := Unit) (Name := ℕ) (U := UR sig nD τ) (Lvl := ℕ) (Val := Elt F) spec2 c := by
  have hs : ∀ y, (owns (c : Thread nD τ) scM2 fullShare y : sProp 𝕄)
      ⊢ iprop(∃ f : Buf (Elt F) ((c : Thread nD τ).loc cc2_scratch0), ((c : Thread nD τ).loc cc2_scratch0) ↦{fullShare} f) := by
    intro y
    rw [owns_whole_eq]
    iintro ⟨%f, -, Hs⟩
    iexists f; iexact Hs
  refine (Φ2_open V c n).trans ?_
  rw [scopedRest2_split]
  iintro ⟨⟨%y, Hs⟩, Hr⟩
  isplitl [Hs]
  · iapply (hs y); iexact Hs
  iexact Hr

/-! ## What the body finds in each window's buffer -/
/-- Each input's current staging buffer holds its block at every point, fetched there or not: where it is not
    fetched its block index has not moved and the body left the block in place. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-- There the statistics' buffers hold what the tile before left. -/
theorem before2_4_B (c : Dev nD) (t : Fin cfg2.N) (h0 : ¬t.val % tilesPerHalf2 = 0) (d) :
    (dat2 V c).before 4 t d = (stats2 V c (t.val - 1)).m := by
  rw [Dat.before_out_kept _ 4 rfl t (sched2_4 t h0).1 (sched2_4 t h0).2 (fun _ => rfl) (fun _ _ => rfl)]
  dsimp only [dat2]
theorem before2_5_B (c : Dev nD) (t : Fin cfg2.N) (h0 : ¬t.val % tilesPerHalf2 = 0) (d) :
    (dat2 V c).before 5 t d = (stats2 V c (t.val - 1)).l := by
  rw [Dat.before_out_kept _ 5 rfl t (sched2_5 t h0).1 (sched2_5 t h0).2 (fun _ => rfl) (fun _ _ => rfl)]
  dsimp only [dat2]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 1600000 in
/-- The body at any point: the inputs' buffers hold their blocks; at the first tile of a half the scratch and the
    statistics are whatever they are and are set afresh; at a later tile they hold what the tile before left. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = Φ2 V c (t.val + 1) from rfl,
    show (dat2 V c).Φ t.castSucc = Φ2 V c t.val from rfl,
    show (dat2 V c).owesAt () t.succ = (dat2 V c).owesAt () t.castSucc from rfl,
    after2_0, after2_1, after2_2, after2_3, after2_4, after2_5, Φ2_succ]
  by_cases h0 : t.val % tilesPerHalf2 = 0
  · rw [stats2_A V c t h0]
    unfold stepAt2 startAt2
    refine (sep_mono (Φ2_open V c t.val) .rfl).trans ?_
    iintro ⟨⟨⟨%y, Hs⟩, Hrest⟩, Ho, ⟨%d0, H0⟩, ⟨%d1, H1⟩, ⟨%d2, H2⟩, ⟨%d3, H3⟩, ⟨%d4, H4⟩, ⟨%d5, H5⟩⟩
    iapply (run2_A c Set.univ (grid2.coords t) _ _ _ _ _ _ _ _ _ _ _ _ _ _ ((hcond2 t).mpr h0)
      (hidBlk2 V c t) (prjBlk2 V c t) (wBlk2 V c t) (bBlk2 V c t) _)
    isplitl [H0]; · iexact H0
    isplitl [H1]; · iexact H1
    isplitl [H2]; · iexact H2
    isplitl [H3]; · iexact H3
    isplitl [H4]; · iexists _; iexact H4
    isplitl [H5]; · iexists _; iexact H5
    isplitl [Hs]; · iexists _; iexact Hs
    iintro ⟨H0, H1, H2, H3, H4, H5, Hs⟩
    isplitl [Hs Hrest]
    · isplitl [Hs]; · iexact Hs
      iexact Hrest
    isplitl [Ho]; · iexact Ho
    isplitl [H0]; · iexact H0
    isplitl [H1]; · iexact H1
    isplitl [H2]; · iexact H2
    isplitl [H3]; · iexact H3
    isplitl [H4]; · iexact H4
    iexact H5
  · have ht : t.val ≠ 0 := fun e => h0 (by rw [e]; exact Nat.zero_mod _)
    rw [stats2_B V c t h0]
    simp only [before2_4_B V c t h0, before2_5_B V c t h0]
    rw [show Φ2 V c t.val = Φ2 V c (t.val - 1 + 1) from by rw [Nat.sub_one_add_one ht], Φ2_succ]
    unfold stepAt2
    iintro ⟨⟨Hs, Hrest⟩, Ho, ⟨%d0, H0⟩, ⟨%d1, H1⟩, ⟨%d2, H2⟩, ⟨%d3, H3⟩, ⟨%d4, H4⟩, ⟨%d5, H5⟩⟩
    iapply (run2_B c Set.univ (grid2.coords t) _ _ _ _ _ _ _ _ _ _ _ _ _ _ (fun h => h0 ((hcond2 t).mp h))
      (hidBlk2 V c t) (prjBlk2 V c t) (wBlk2 V c t) (bBlk2 V c t)
      (stats2 V c (t.val - 1)).y (stats2 V c (t.val - 1)).m (stats2 V c (t.val - 1)).l _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]; · iexact Hs
      iexact Hrest
    isplitl [Ho]; · iexact Ho
    isplitl [H0]; · iexact H0
    isplitl [H1]; · iexact H1
    isplitl [H2]; · iexact H2
    isplitl [H3]; · iexact H3
    isplitl [H4]; · iexact H4
    iexact H5

/-- The pipeline rule's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the two ends of the region -/

theorem Φ2_in (c : Dev nD) (T : sProp 𝕄) :
    iprop(BI.emp ∗ T ∗ Pipeline.scopedRest (Ix := Unit) (Name := ℕ) (U := UR sig nD τ) (Lvl := ℕ) (Val := Elt F) spec2 c)
      ⊢ (dat2 V c).Φ 0 := by
  show _ ⊢ Pipeline.scopedRest (Ix := Unit) (Name := ℕ) (U := UR sig nD τ) (Lvl := ℕ) (Val := Elt F) spec2 c
  iintro ⟨-, -, Hr⟩
  iexact Hr

theorem Φ2_out (c : Dev nD) :
    (dat2 V c).Φ (Fin.last _) ⊢ iprop(BI.emp ∗ Pipeline.ownSems0 (fun k : PEmpty => k.elim) c
      ∗ Pipeline.scopedRest (Ix := Unit) (Name := ℕ) (U := UR sig nD τ) (Lvl := ℕ) (Val := Elt F) spec2 c) := by
  rw [Pipeline.ownSems0_none, show (dat2 V c).Φ (Fin.last cfg2.N) = Φ2 V c cfg2.N from rfl]
  refine (Φ2_close V c _).trans ?_
  iintro Hr
  isplitr; · iempintro
  isplitr; · iempintro
  iexact Hr

end Region

end Cert.Kernel.Hand

end
-- ==== Proof.BitsWrite3.lean ====
/-
  The write launch of vocabulary cluster 1 (launch 3), its body obligation.

  The body has one conditional: at a half's first tile it projects the hidden rows into the scratch. So a point is in
  one of two cases, decided by the tile coordinate (the point's position modulo the tiles per half): in the first the
  scratch comes in at anything and leaves at the projected rows; in the second it comes in at them and is left alone.
  In both the output window's buffer is stored whole, once, with the tile's payload over the projected rows: the masked
  logits less the row maximum and the logarithm of the row sum, plus the row's extra term.

  The hidden rows and the projection are one block each, the same at every point, so the projected rows are one value,
  and the invariant between points is the scratch owned at it (before the first point: at anything, inside the scoped
  rest). The invariant takes the scoped rest in before the first point and gives it back after the last.
-/
import proofs.«124427_j55336358642036_2_alg».proof.Proof.BitsWrite3Defs
import proofs.«124427_j55336358642036_2_alg».proof.Proof.Gen.Kernel.Points
import proofs.«124427_j55336358642036_2_alg».proof.Proof.Sizes
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand

open Cert.Kernel.Gen
open Cert.Sizes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's branch condition -/

/-- The condition of the body's one conditional: the tile coordinate is the half's first. -/
abbrev cond3_0 (i : grid3.Coords) : Prop :=
  (Scalar.cmpi .ne (Scalar.extui (Scalar.cmpi .eq (BitVec.ofNat 32 (i 1).val) 0#32)) 0#32) = 1#1

/-- It holds at each half's first point only, decided over the grid. -/
theorem hcond3_0 : ∀ t : Fin cfg3.N, cond3_0 (grid3.coords t) ↔ t.val % tilesPerHalf3 = 0 :=
  (by decide +kernel : ∀ t : Fin grid3.N, cond3_0 (grid3.coords t) ↔ t.val % tilesPerHalf3 = 0)

/-! ## What the body finds in the inputs' buffers -/

/-- Input window 0's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)

/-- Input window 1's current staging buffer holds its block at every point, fetched there or not. -/
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)

/-- Input window 2's current staging buffer holds its block at every point, fetched there or not. -/
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

/-- Input window 3's current staging buffer holds its block at every point, fetched there or not. -/
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

/-- Input window 4's current staging buffer holds its block at every point, fetched there or not. -/
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)

/-- Input window 5's current staging buffer holds its block at every point, fetched there or not. -/
theorem before3_5 (c : Dev nD) (t : Fin cfg3.N) (d) : (dat3 V c).before 5 t d = iblk3 V c 5 t :=
  ((dat3 V c).before_in_eq_fetched 5 rfl (fun _ => rfl) (fun _ _ _ => rfl)
    (fun t => by rw [after3_5]; unfold Dat.blockOf iblk3; rw [A_eq3]; try rfl) t d).trans
    (by unfold Dat.fetched Dat.blockOf iblk3; rw [A_eq3]; try rfl)

/-- Input window 6's current staging buffer holds its block at every point, fetched there or not. -/
theorem before3_6 (c : Dev nD) (t : Fin cfg3.N) (d) : (dat3 V c).before 6 t d = iblk3 V c 6 t :=
  ((dat3 V c).before_in_eq_fetched 6 rfl (fun _ => rfl) (fun _ _ _ => rfl)
    (fun t => by rw [after3_6]; unfold Dat.blockOf iblk3; rw [A_eq3]; try rfl) t d).trans
    (by unfold Dat.fetched Dat.blockOf iblk3; rw [A_eq3]; try rfl)

/-- The hidden rows' window and the projection's have one block: the same at every point. -/
theorem iblk3_0_const (c : Dev nD) (t : Fin cfg3.N) : iblk3 V c 0 t = iblk3 V c 0 pt3_0 := rfl
theorem iblk3_1_const (c : Dev nD) (t : Fin cfg3.N) : iblk3 V c 1 t = iblk3 V c 1 pt3_0 := rfl

/-! ## The body's two runs -/

/-- The offsets of every access of the body: the buffers' origins. -/
theorem zero3 : (![0, 0] : Fin 2 → Nat) = fun _ => 0 := funext fun a => by fin_cases a <;> rfl

set_option maxHeartbeats 1000000 in
/-- The body where the tile is NOT the half's first, on whole memrefs: the inputs' at their contents, the output's at
    anything, the scratch at contents ys. It runs to the continuation holding the inputs and the scratch as they were
    and the output's buffer at the tile's payload over ys. -/
theorem sound_kernel3_B (c : Dev nD) (E : Set ℕ) (i : grid3.Coords) (arg2 : Memref sig .tc .vmem S512x1024 .bf16) (harg2 : arg2.IsWhole) (arg3 : Memref sig .tc .vmem S256x1024 .bf16) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x2048 .f32) (harg9 : arg9.IsWhole) (arg10 : Memref sig .tc .vmem S512x256 .bf16) (harg10 : arg10.IsWhole) (hc : ¬cond3_0 i)
    (x0 : Vec F S512x1024 .bf16) (x1 : Vec F S256x1024 .bf16) (x2 : Vec F S2048x256 .bf16) (x3 : Vec F S1x2048 .f32) (x4 : Vec F S512x1 .f32) (x5 : Vec F S512x1 .f32) (x6 : Vec F S512x1 .f32) (ys : Vec F S512x256 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare ys
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k3_pay2 i ys x2 x3 x4 x5 x6) ∗ owns (c : Thread nD τ) arg10 fullShare ys) -∗ K ⟨⟩))
      ⊢ wp frame (wpE (defs₀ (F := F)) Variants.none c none) E (cc3_kernel i arg2 harg2 arg3 harg3 arg4 harg4 arg5 harg5 arg6 harg6 arg7 harg7 arg8 harg8 arg9 harg9 arg10 harg10) K := by
  simp only [cc3_kernel_eq_skeleton]; unfold cc3_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg10.eq_unread hfs
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H9]
  · iexists _; isplitr
    swap; · iexact H9
    ipureintro
    rw [View.read_writes_eq_canon _ _ _ (fun y => ⟨_, List.mem_singleton_self _, View.mem_set_unit_zero zero3 inb_S512x2048_S512x2048_0_0 y⟩), View.canon_unit_zero zero3]
    simp only [View.readAt_eq_ld, harg2.read_unread, harg3.read_unread, harg4.read_unread, harg5.read_unread, harg6.read_unread, harg7.read_unread, harg8.read_unread, harg10.read_unread,
      View.ld_unit_zero (S := S512x1024) zero3, View.ld_unit_zero (S := S256x1024) zero3, View.ld_unit_zero (S := S2048x256) zero3, View.ld_unit_zero (S := S1x2048) zero3,
      View.ld_unit_zero (S := S512x1) zero3, View.ld_unit_zero (S := S512x256) zero3]
  iexists _; isplitr; · ipureintro; exact harg10.read_unread _
  iexact HS

set_option maxHeartbeats 1000000 in
/-- The body where the tile IS the half's first, on whole memrefs: the inputs' at their contents, the output's and the
    scratch at anything. It runs to the continuation holding the inputs as they were, the scratch at the projected
    hidden rows and the output's buffer at the tile's payload over them. -/
theorem sound_kernel3_A (c : Dev nD) (E : Set ℕ) (i : grid3.Coords) (arg2 : Memref sig .tc .vmem S512x1024 .bf16) (harg2 : arg2.IsWhole) (arg3 : Memref sig .tc .vmem S256x1024 .bf16) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x2048 .f32) (harg9 : arg9.IsWhole) (arg10 : Memref sig .tc .vmem S512x256 .bf16) (harg10 : arg10.IsWhole) (hc : cond3_0 i)
    (x0 : Vec F S512x1024 .bf16) (x1 : Vec F S256x1024 .bf16) (x2 : Vec F S2048x256 .bf16) (x3 : Vec F S1x2048 .f32) (x4 : Vec F S512x1 .f32) (x5 : Vec F S512x1 .f32) (x6 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k3_pay2 i (k3_pay1 x0 x1) x2 x3 x4 x5 x6) ∗ owns (c : Thread nD τ) arg10 fullShare (k3_pay1 x0 x1)) -∗ K ⟨⟩))
      ⊢ wp frame (wpE (defs₀ (F := F)) Variants.none c none) E (cc3_kernel i arg2 harg2 arg3 harg3 arg4 harg4 arg5 harg5 arg6 harg6 arg7 harg7 arg8 harg8 arg9 harg9 arg10 harg10) K := by
  simp only [cc3_kernel_eq_skeleton]; unfold cc3_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc)

  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H9]
  · iexists _; isplitr
    swap; · iexact H9
    ipureintro
    rw [View.read_writes_eq_canon _ _ _ (fun y => ⟨_, List.mem_singleton_self _, View.mem_set_unit_zero zero3 inb_S512x2048_S512x2048_0_0 y⟩), View.canon_unit_zero zero3]
    sl_unfold_words
    simp only [View.readAt_eq_ld, harg2.read_unread, harg3.read_unread, harg4.read_unread, harg5.read_unread, harg6.read_unread, harg7.read_unread, harg8.read_unread,
      View.ld_unit_zero (S := S512x1024) zero3, View.ld_unit_zero (S := S256x1024) zero3, View.ld_unit_zero (S := S2048x256) zero3, View.ld_unit_zero (S := S1x2048) zero3,
      View.ld_unit_zero (S := S512x1) zero3, View.ld_unit_zero (S := S512x256) zero3, View.readCov_unit_zero (S := S512x256) _ zero3]
  iexists _; isplitr
  swap; · iexact HS
  ipureintro
  sl_unfold_words
  rw [View.read_writes_eq_canon _ _ _ (fun y => ⟨_, List.mem_singleton_self _, View.mem_set_unit_zero zero3 inb_S512x256_S512x256_0_0 y⟩), View.canon_unit_zero zero3]
  simp only [View.readAt_eq_ld, harg2.read_unread, harg3.read_unread, harg4.read_unread, harg5.read_unread, harg6.read_unread, harg7.read_unread, harg8.read_unread,
      View.ld_unit_zero (S := S512x1024) zero3, View.ld_unit_zero (S := S256x1024) zero3, View.ld_unit_zero (S := S2048x256) zero3, View.ld_unit_zero (S := S1x2048) zero3,
      View.ld_unit_zero (S := S512x1) zero3, View.ld_unit_zero (S := S512x256) zero3]

/-! ## The body obligation, at a generic point -/

/-- The scratch's contents in terms of the blocks at any point: the hidden rows' block and the projection's are the
    same at every point. -/
theorem y3_eq (c : Dev nD) (t : Fin cfg3.N) : y3 V c = k3_pay1 (iblk3 V c 0 t) (iblk3 V c 1 t) := rfl

/-- Before any point the invariant holds the scratch at some contents beside the scoped rest without it. -/
theorem Phi3_any (c : Dev nD) (n : ℕ) :
    Phi3 V c n ⊢ iprop((∃ d, owns (c : Thread nD τ) scM3 fullShare d) ∗ Pipeline.scopedRestBut (Ix := Unit) (Name := ℕ) (U := UR sig nD τ) (Lvl := ℕ) (Val := Elt F) spec3 c [cc3_scratch0]) := by
  cases n with
  | zero =>
    rw [Phi3_zero V c 0 rfl, scopedRest3_split]; simp only [owns_whole]; exact .rfl
  | succ n =>
    rw [Phi3_pos V c _ (Nat.succ_ne_zero n)]
    iintro ⟨Hs, Hr⟩
    isplitl [Hs]; · iexists _; iexact Hs
    iexact Hr

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 1000000 in
/-- The body at any point: the inputs' memrefs hold their blocks; at a half's first tile the scratch comes in at
    anything and leaves at the projected hidden rows, elsewhere it comes in and leaves at them; the output's buffer is
    left at the tile's payload over them; the rest of the invariant and the core's tallies pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl,
    show (dat3 V c).Φ t.succ = Phi3 V c (t.val + 1) from rfl, Phi3_pos V c _ (Nat.succ_ne_zero _),
    show (dat3 V c).Φ t.castSucc = Phi3 V c t.val from rfl,
    after3_0, after3_1, after3_2, after3_3, after3_4, after3_5, after3_6, after3_7]
  unfold out3_7
  by_cases h0 : t.val % tilesPerHalf3 = 0
  · rw [y3_eq V c t]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (Phi3_any V c t.val) $$ HΦ
    icases HΦ' with ⟨HS, Hr⟩
    iapply (sound_kernel3_A c Set.univ (grid3.coords t) _ _ _ _ _ _ _ _ _ _ _ _ _ _ _ _ _ _ ((hcond3_0 t).mpr h0)
      (iblk3 V c 0 t) (iblk3 V c 1 t) (iblk3 V c 2 t) (iblk3 V c 3 t) (iblk3 V c 4 t) (iblk3 V c 5 t) (iblk3 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := fun h => h0 (by rw [h]; exact Nat.zero_mod _)
    rw [Phi3_pos V c _ hz]
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel3_B c Set.univ (grid3.coords t) _ _ _ _ _ _ _ _ _ _ _ _ _ _ _ _ _ _ (fun h => h0 ((hcond3_0 t).mp h))
      (iblk3 V c 0 t) (iblk3 V c 1 t) (iblk3 V c 2 t) (iblk3 V c 3 t) (iblk3 V c 4 t) (iblk3 V c 5 t) (iblk3 V c 6 t) (y3 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's two ends -/

/-- What the region is handed (nothing of its own, the tables' part T, the scoped rest) is the invariant before the
    first point. -/
theorem Φ3_in (c : Dev nD) (T : sProp 𝕄) :
    iprop(BI.emp ∗ T ∗ Pipeline.scopedRest (Ix := Unit) (Name := ℕ) (U := UR sig nD τ) (Lvl := ℕ) (Val := Elt F) spec3 c) ⊢ (dat3 V c).Φ 0 := by
  rw [show (dat3 V c).Φ 0 = Pipeline.scopedRest (Ix := Unit) (Name := ℕ) (U := UR sig nD τ) (Lvl := ℕ) (Val := Elt F) spec3 c from rfl]
  iintro ⟨-, -, Hr⟩
  iexact Hr

/-- After the last point the invariant gives the scoped rest back: the scratch's named contents are forgotten. -/
theorem Φ3_out (c : Dev nD) :
    (dat3 V c).Φ (Fin.last _) ⊢ iprop(BI.emp ∗ Pipeline.ownSems0 (fun k : PEmpty => k.elim) c ∗ Pipeline.scopedRest (Ix := Unit) (Name := ℕ) (U := UR sig nD τ) (Lvl := ℕ) (Val := Elt F) spec3 c) := by
  rw [Pipeline.ownSems0_none, show (dat3 V c).Φ (Fin.last _) = Phi3 V c cfg3.N from rfl,
    Phi3_pos V c _ (by rw [show cfg3.N = grid3.N from rfl, N_3]; decide), scopedRest3_split, owns_whole]
  iintro ⟨Hs, Hr⟩
  isplitr; · iempintro
  isplitr; · iempintro
  isplitl [Hs]
  · iexists _; iexact Hs
  iexact Hr

end Cert.Kernel.Hand

end
-- ==== Proof.BitsStats4.lean ====
/-
  The statistics launch of one vocabulary cluster: its body, run. The body has two cases, told apart by the tile's
  index inside its half. At the first tile it projects the hidden rows into the scratch and sets the running maximum
  and sum to their start before the tile's update; whatever the scratch and the two statistics' buffers held is
  overwritten, so nothing is asked of them. At every other tile the scratch and the two buffers hold what the tile
  before left (the buffers are not written back inside a half), and the body updates the statistics from them.
  In both cases every buffer is loaded and stored whole, so what a buffer holds afterwards is the payload of the last
  store into it, and what a load after a store reads is that store's payload.

  From the two cases: the body obligation of the pipeline rule at the proof data `dat4`, whose staging contents
  are the fold `stats4`; and the scratch invariant `Φ4` at the two ends of the region, where the scratch returns to
  the scoped buffers at some contents.
-/
import proofs.«124427_j55336358642036_2_alg».proof.Proof.BitsStats4Defs
import Idealize.ShloMosaic.Lib.Pipeline.FrameBody
import Idealize.ShloMosaic.Lib.Pipeline.Value
import Idealize.ShloMosaic.Lib.Pipeline.Regions
import Idealize.ShloMosaic.Lib.Ring
import Idealize.ShloMosaic.Lib.Tactic

set_option maxRecDepth 16384

noncomputable section

namespace Cert.Kernel.Hand

open Cert.Kernel.Gen Cert.Sizes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, of rank two and three. -/
private theorem offPair : (![0, 0] : Fin 2 → Nat) = fun _ => 0 := funext fun a => by fin_cases a <;> rfl
private theorem offTriple : (![0, 0, 0] : Fin 3 → Nat) = fun _ => 0 := funext fun a => by fin_cases a <;> rfl

/-- The condition of the body's conditional: the tile's index inside its half is zero. -/
abbrev cond4 (i : grid4.Coords) : Prop :=
  (Scalar.cmpi .ne (Scalar.extui (Scalar.cmpi .eq (BitVec.ofNat 32 (i 1).val) 0#32)) 0#32) = 1#1

/-- It holds at the first tile of each half: decided over the grid. -/
theorem hcond4 : ∀ t : Fin cfg4.N, cond4 (grid4.coords t) ↔ t.val % tilesPerHalf4 = 0 :=
  (by decide +kernel : ∀ t : Fin grid4.N, cond4 (grid4.coords t) ↔ t.val % tilesPerHalf4 = 0)

/-! ## The body's two cases -/

set_option maxHeartbeats 2000000 in
/-- The body at the first tile of a half: the hidden rows are projected into the scratch, the statistics are set to
    their start and updated by the tile; whatever the scratch and the statistics' buffers held is overwritten. -/
theorem run4_A (c : Dev nD) (E : Set ℕ) (i : grid4.Coords)
    (arg2 : Memref sig .tc .vmem S512x1024 .bf16) (harg2 : arg2.IsWhole) (arg3 : Memref sig .tc .vmem S64x1024 .bf16) (harg3 : arg3.IsWhole)
    (arg4 : Memref sig .tc .vmem S4096x64 .bf16) (harg4 : arg4.IsWhole) (arg5 : Memref sig .tc .vmem S1x4096 .f32) (harg5 : arg5.IsWhole)
    (arg6 : Memref sig .tc .vmem S1x512x1 .f32) (harg6 : arg6.IsWhole) (arg7 : Memref sig .tc .vmem S1x512x1 .f32) (harg7 : arg7.IsWhole)
    (arg8 : Memref sig .tc .vmem S512x64 .bf16) (harg8 : arg8.IsWhole) (hc : cond4 i)
    (hid : Vec F S512x1024 .bf16) (prj : Vec F S64x1024 .bf16) (wb : Vec F S4096x64 .bf16) (bb : Vec F S1x4096 .f32)
    (K : PUnit → sProp 𝕄) :
    iprop(owns (c : Thread nD τ) arg2 fullShare hid ∗ owns (c : Thread nD τ) arg3 fullShare prj
        ∗ owns (c : Thread nD τ) arg4 fullShare wb ∗ owns (c : Thread nD τ) arg5 fullShare bb
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare hid ∗ owns (c : Thread nD τ) arg3 fullShare prj
            ∗ owns (c : Thread nD τ) arg4 fullShare wb ∗ owns (c : Thread nD τ) arg5 fullShare bb
            ∗ owns (c : Thread nD τ) arg6 fullShare (step4 i wb bb (start4 hid prj)).m
            ∗ owns (c : Thread nD τ) arg7 fullShare (step4 i wb bb (start4 hid prj)).l
            ∗ owns (c : Thread nD τ) arg8 fullShare (step4 i wb bb (start4 hid prj)).y) -∗ K ⟨⟩))
      ⊢ wp frame (wpE (defs₀ (F := F)) Variants.none c none) E (cc4_kernel i arg2 harg2 arg3 harg3 arg4 harg4 arg5 harg5 arg6 harg6 arg7 harg7 arg8 harg8) K := by
  simp only [cc4_kernel_eq_skeleton]; unfold cc4_kernel_skel
  simp only [k4_part1_eq_skeleton]; unfold k4_part1_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf2 hf3 hf4 hf5
  sl_exec (disch := first | exact hc)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    dsimp only [step4, start4]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x64) _ offPair, View.readCov_unit_zero (S := S1x512x1) _ offTriple,
      View.readAt_eq_ld, View.ld_unit_zero (S := S512x1024) offPair, View.ld_unit_zero (S := S64x1024) offPair,
      View.ld_unit_zero (S := S4096x64) offPair, View.ld_unit_zero (S := S1x4096) offPair, View.ld_unit_zero (S := S1x512x1) offTriple,
      View.ld_unit_zero (S := S512x64) offPair]
  isplitl [H7]
  · iexists _; isplitr
    swap; · iexact H7
    ipureintro
    dsimp only [step4, start4]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x64) _ offPair, View.readCov_unit_zero (S := S1x512x1) _ offTriple,
      View.readAt_eq_ld, View.ld_unit_zero (S := S512x1024) offPair, View.ld_unit_zero (S := S64x1024) offPair,
      View.ld_unit_zero (S := S4096x64) offPair, View.ld_unit_zero (S := S1x4096) offPair, View.ld_unit_zero (S := S1x512x1) offTriple,
      View.ld_unit_zero (S := S512x64) offPair]
  iexists _; isplitr
  swap; · iexact H8
  ipureintro
  dsimp only [step4, start4]
  sl_unfold_words
  rw [View.read_writes_eq_canon _ _ _ (fun y => ⟨_, List.Mem.head _, View.mem_set_unit_zero offPair inb_S512x64_S512x64_0_0 y⟩),
    View.canon_cons_unit_zero (S := S512x64) offPair]
  simp only [View.readCov_unit_zero (S := S512x64) _ offPair, View.readCov_unit_zero (S := S1x512x1) _ offTriple,
    View.readAt_eq_ld, View.ld_unit_zero (S := S512x1024) offPair, View.ld_unit_zero (S := S64x1024) offPair,
    View.ld_unit_zero (S := S4096x64) offPair, View.ld_unit_zero (S := S1x4096) offPair, View.ld_unit_zero (S := S1x512x1) offTriple,
    View.ld_unit_zero (S := S512x64) offPair]

set_option maxHeartbeats 2000000 in
/-- The body at a later tile of a half: the scratch and the running statistics are read as the tile before left
    them; the statistics are updated, the scratch and the inputs stay. -/
theorem run4_B (c : Dev nD) (E : Set ℕ) (i : grid4.Coords)
    (arg2 : Memref sig .tc .vmem S512x1024 .bf16) (harg2 : arg2.IsWhole) (arg3 : Memref sig .tc .vmem S64x1024 .bf16) (harg3 : arg3.IsWhole)
    (arg4 : Memref sig .tc .vmem S4096x64 .bf16) (harg4 : arg4.IsWhole) (arg5 : Memref sig .tc .vmem S1x4096 .f32) (harg5 : arg5.IsWhole)
    (arg6 : Memref sig .tc .vmem S1x512x1 .f32) (harg6 : arg6.IsWhole) (arg7 : Memref sig .tc .vmem S1x512x1 .f32) (harg7 : arg7.IsWhole)
    (arg8 : Memref sig .tc .vmem S512x64 .bf16) (harg8 : arg8.IsWhole) (hc : ¬cond4 i)
    (hid : Vec F S512x1024 .bf16) (prj : Vec F S64x1024 .bf16) (wb : Vec F S4096x64 .bf16) (bb : Vec F S1x4096 .f32)
    (y : Vec F S512x64 .bf16) (m l : Vec F S1x512x1 .f32)
    (K : PUnit → sProp 𝕄) :
    iprop(owns (c : Thread nD τ) arg2 fullShare hid ∗ owns (c : Thread nD τ) arg3 fullShare prj
        ∗ owns (c : Thread nD τ) arg4 fullShare wb ∗ owns (c : Thread nD τ) arg5 fullShare bb
        ∗ owns (c : Thread nD τ) arg6 fullShare m ∗ owns (c : Thread nD τ) arg7 fullShare l
        ∗ owns (c : Thread nD τ) arg8 fullShare y
        ∗ (iprop(owns (c : Thread nD τ) arg2 fullShare hid ∗ owns (c : Thread nD τ) arg3 fullShare prj
            ∗ owns (c : Thread nD τ) arg4 fullShare wb ∗ owns (c : Thread nD τ) arg5 fullShare bb
            ∗ owns (c : Thread nD τ) arg6 fullShare (step4 i wb bb ⟨y, m, l⟩).m
            ∗ owns (c : Thread nD τ) arg7 fullShare (step4 i wb bb ⟨y, m, l⟩).l
            ∗ owns (c : Thread nD τ) arg8 fullShare (step4 i wb bb ⟨y, m, l⟩).y) -∗ K ⟨⟩))
      ⊢ wp frame (wpE (defs₀ (F := F)) Variants.none c none) E (cc4_kernel i arg2 harg2 arg3 harg3 arg4 harg4 arg5 harg5 arg6 harg6 arg7 harg7 arg8 harg8) K := by
  simp only [cc4_kernel_eq_skeleton]; unfold cc4_kernel_skel
  simp only [k4_part1_eq_skeleton]; unfold k4_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2 hf3 hf4 hf5 hf6 hf7 hf8
  sl_exec (disch := first | exact hc)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    dsimp only [step4, start4]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x64) _ offPair, View.readCov_unit_zero (S := S1x512x1) _ offTriple,
      View.readAt_eq_ld, View.ld_unit_zero (S := S512x1024) offPair, View.ld_unit_zero (S := S64x1024) offPair,
      View.ld_unit_zero (S := S4096x64) offPair, View.ld_unit_zero (S := S1x4096) offPair, View.ld_unit_zero (S := S1x512x1) offTriple,
      View.ld_unit_zero (S := S512x64) offPair]
  isplitl [H7]
  · iexists _; isplitr
    swap; · iexact H7
    ipureintro
    dsimp only [step4, start4]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x64) _ offPair, View.readCov_unit_zero (S := S1x512x1) _ offTriple,
      View.readAt_eq_ld, View.ld_unit_zero (S := S512x1024) offPair, View.ld_unit_zero (S := S64x1024) offPair,
      View.ld_unit_zero (S := S4096x64) offPair, View.ld_unit_zero (S := S1x4096) offPair, View.ld_unit_zero (S := S1x512x1) offTriple,
      View.ld_unit_zero (S := S512x64) offPair]
  iexists f8; isplitr; · ipureintro; rfl
  iexact H8

section Region

variable (V : (c : Dev nD) → (b : Ref sig .tc) → Buf (Elt F) ((c : Thread nD τ).loc b))

/-! ## The scratch invariant, opened and closed -/

/-- At any point the scratch is held at some contents beside the other scoped buffers. -/
theorem Φ4_open (c : Dev nD) (n : ℕ) : Φ4 V c n ⊢ iprop((∃ y, owns (c : Thread nD τ) scM4 fullShare y)
      ∗ Pipeline.scopedRestBut (Ix := Unit) (Name := ℕ) (U := UR sig nD τ) (Lvl := ℕ) (Val := Elt F) spec4 c [cc4_scratch0]) := by
  cases n with
  | zero =>
    show Pipeline.scopedRest (Ix := Unit) (Name := ℕ) (U := UR sig nD τ) (Lvl := ℕ) (Val := Elt F) spec4 c ⊢ _
    rw [scopedRest4_split]
    iintro ⟨⟨%f, Hs⟩, Hr⟩
    isplitl [Hs]
    · iexists f; rw [owns_whole]; iexact Hs
    iexact Hr
  | succ n =>
    rw [Φ4_succ]
    iintro ⟨Hs, Hr⟩
    isplitl [Hs]
    · iexists _; iexact Hs
    iexact Hr

/-- So the scoped buffers are whole again, the scratch among them. -/
theorem Φ4_close (c : Dev nD) (n : ℕ) : Φ4 V c n ⊢
    Pipeline.scopedRest (Ix := Unit) (Name := ℕ) (U := UR sig nD τ) (Lvl := ℕ) (Val := Elt F) spec4 c := by
  have hs : ∀ y, (owns (c : Thread nD τ) scM4 fullShare y : sProp 𝕄)
      ⊢ iprop(∃ f : Buf (Elt F) ((c : Thread nD τ).loc cc4_scratch0), ((c : Thread nD τ).loc cc4_scratch0) ↦{fullShare} f) := by
    intro y
    rw [owns_whole_eq]
    iintro ⟨%f, -, Hs⟩
    iexists f; iexact Hs
  refine (Φ4_open V c n).trans ?_
  rw [scopedRest4_split]
  iintro ⟨⟨%y, Hs⟩, Hr⟩
  isplitl [Hs]
  · iapply (hs y); iexact Hs
  iexact Hr

/-! ## What the body finds in each window's buffer -/
/-- Each input's current staging buffer holds its block at every point, fetched there or not: where it is not
    fetched its block index has not moved and the body left the block in place. -/
theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)

/-- There the statistics' buffers hold what the tile before left. -/
theorem before4_4_B (c : Dev nD) (t : Fin cfg4.N) (h0 : ¬t.val % tilesPerHalf4 = 0) (d) :
    (dat4 V c).before 4 t d = (stats4 V c (t.val - 1)).m := by
  rw [Dat.before_out_kept _ 4 rfl t (sched4_4 t h0).1 (sched4_4 t h0).2 (fun _ => rfl) (fun _ _ => rfl)]
  dsimp only [dat4]
theorem before4_5_B (c : Dev nD) (t : Fin cfg4.N) (h0 : ¬t.val % tilesPerHalf4 = 0) (d) :
    (dat4 V c).before 5 t d = (stats4 V c (t.val - 1)).l := by
  rw [Dat.before_out_kept _ 5 rfl t (sched4_5 t h0).1 (sched4_5 t h0).2 (fun _ => rfl) (fun _ _ => rfl)]
  dsimp only [dat4]

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

set_option maxHeartbeats 1600000 in
/-- The body at any point: the inputs' buffers hold their blocks; at the first tile of a half the scratch and the
    statistics are whatever they are and are set afresh; at a later tile they hold what the tile before left. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = Φ4 V c (t.val + 1) from rfl,
    show (dat4 V c).Φ t.castSucc = Φ4 V c t.val from rfl,
    show (dat4 V c).owesAt () t.succ = (dat4 V c).owesAt () t.castSucc from rfl,
    after4_0, after4_1, after4_2, after4_3, after4_4, after4_5, Φ4_succ]
  by_cases h0 : t.val % tilesPerHalf4 = 0
  · rw [stats4_A V c t h0]
    unfold stepAt4 startAt4
    refine (sep_mono (Φ4_open V c t.val) .rfl).trans ?_
    iintro ⟨⟨⟨%y, Hs⟩, Hrest⟩, Ho, ⟨%d0, H0⟩, ⟨%d1, H1⟩, ⟨%d2, H2⟩, ⟨%d3, H3⟩, ⟨%d4, H4⟩, ⟨%d5, H5⟩⟩
    iapply (run4_A c Set.univ (grid4.coords t) _ _ _ _ _ _ _ _ _ _ _ _ _ _ ((hcond4 t).mpr h0)
      (hidBlk4 V c t) (prjBlk4 V c t) (wBlk4 V c t) (bBlk4 V c t) _)
    isplitl [H0]; · iexact H0
    isplitl [H1]; · iexact H1
    isplitl [H2]; · iexact H2
    isplitl [H3]; · iexact H3
    isplitl [H4]; · iexists _; iexact H4
    isplitl [H5]; · iexists _; iexact H5
    isplitl [Hs]; · iexists _; iexact Hs
    iintro ⟨H0, H1, H2, H3, H4, H5, Hs⟩
    isplitl [Hs Hrest]
    · isplitl [Hs]; · iexact Hs
      iexact Hrest
    isplitl [Ho]; · iexact Ho
    isplitl [H0]; · iexact H0
    isplitl [H1]; · iexact H1
    isplitl [H2]; · iexact H2
    isplitl [H3]; · iexact H3
    isplitl [H4]; · iexact H4
    iexact H5
  · have ht : t.val ≠ 0 := fun e => h0 (by rw [e]; exact Nat.zero_mod _)
    rw [stats4_B V c t h0]
    simp only [before4_4_B V c t h0, before4_5_B V c t h0]
    rw [show Φ4 V c t.val = Φ4 V c (t.val - 1 + 1) from by rw [Nat.sub_one_add_one ht], Φ4_succ]
    unfold stepAt4
    iintro ⟨⟨Hs, Hrest⟩, Ho, ⟨%d0, H0⟩, ⟨%d1, H1⟩, ⟨%d2, H2⟩, ⟨%d3, H3⟩, ⟨%d4, H4⟩, ⟨%d5, H5⟩⟩
    iapply (run4_B c Set.univ (grid4.coords t) _ _ _ _ _ _ _ _ _ _ _ _ _ _ (fun h => h0 ((hcond4 t).mp h))
      (hidBlk4 V c t) (prjBlk4 V c t) (wBlk4 V c t) (bBlk4 V c t)
      (stats4 V c (t.val - 1)).y (stats4 V c (t.val - 1)).m (stats4 V c (t.val - 1)).l _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]; · iexact Hs
      iexact Hrest
    isplitl [Ho]; · iexact Ho
    isplitl [H0]; · iexact H0
    isplitl [H1]; · iexact H1
    isplitl [H2]; · iexact H2
    isplitl [H3]; · iexact H3
    isplitl [H4]; · iexact H4
    iexact H5

/-- The pipeline rule's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the two ends of the region -/

theorem Φ4_in (c : Dev nD) (T : sProp 𝕄) :
    iprop(BI.emp ∗ T ∗ Pipeline.scopedRest (Ix := Unit) (Name := ℕ) (U := UR sig nD τ) (Lvl := ℕ) (Val := Elt F) spec4 c)
      ⊢ (dat4 V c).Φ 0 := by
  show _ ⊢ Pipeline.scopedRest (Ix := Unit) (Name := ℕ) (U := UR sig nD τ) (Lvl := ℕ) (Val := Elt F) spec4 c
  iintro ⟨-, -, Hr⟩
  iexact Hr

theorem Φ4_out (c : Dev nD) :
    (dat4 V c).Φ (Fin.last _) ⊢ iprop(BI.emp ∗ Pipeline.ownSems0 (fun k : PEmpty => k.elim) c
      ∗ Pipeline.scopedRest (Ix := Unit) (Name := ℕ) (U := UR sig nD τ) (Lvl := ℕ) (Val := Elt F) spec4 c) := by
  rw [Pipeline.ownSems0_none, show (dat4 V c).Φ (Fin.last cfg4.N) = Φ4 V c cfg4.N from rfl]
  refine (Φ4_close V c _).trans ?_
  iintro Hr
  isplitr; · iempintro
  isplitr; · iempintro
  iexact Hr

end Region

end Cert.Kernel.Hand

end
-- ==== Proof.BitsWrite5.lean ====
/-
  The write launch of vocabulary cluster 1 (launch 3), its body obligation.

  The body has one conditional: at a half's first tile it projects the hidden rows into the scratch. So a point is in
  one of two cases, decided by the tile coordinate (the point's position modulo the tiles per half): in the first the
  scratch comes in at anything and leaves at the projected rows; in the second it comes in at them and is left alone.
  In both the output window's buffer is stored whole, once, with the tile's payload over the projected rows: the masked
  logits less the row maximum and the logarithm of the row sum, plus the row's extra term.

  The hidden rows and the projection are one block each, the same at every point, so the projected rows are one value,
  and the invariant between points is the scratch owned at it (before the first point: at anything, inside the scoped
  rest). The invariant takes the scoped rest in before the first point and gives it back after the last.
-/
import proofs.«124427_j55336358642036_2_alg».proof.Proof.BitsWrite5Defs
import proofs.«124427_j55336358642036_2_alg».proof.Proof.Gen.Kernel.Points
import proofs.«124427_j55336358642036_2_alg».proof.Proof.Sizes
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand

open Cert.Kernel.Gen
open Cert.Sizes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's branch condition -/

/-- The condition of the body's one conditional: the tile coordinate is the half's first. -/
abbrev cond5_0 (i : grid5.Coords) : Prop :=
  (Scalar.cmpi .ne (Scalar.extui (Scalar.cmpi .eq (BitVec.ofNat 32 (i 1).val) 0#32)) 0#32) = 1#1

/-- It holds at each half's first point only, decided over the grid. -/
theorem hcond5_0 : ∀ t : Fin cfg5.N, cond5_0 (grid5.coords t) ↔ t.val % tilesPerHalf5 = 0 :=
  (by decide +kernel : ∀ t : Fin grid5.N, cond5_0 (grid5.coords t) ↔ t.val % tilesPerHalf5 = 0)

/-! ## What the body finds in the inputs' buffers -/

/-- Input window 0's current staging buffer holds its block at every point, fetched there or not. -/
theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)

/-- Input window 1's current staging buffer holds its block at every point, fetched there or not. -/
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)

/-- Input window 2's current staging buffer holds its block at every point, fetched there or not. -/
theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)

/-- Input window 3's current staging buffer holds its block at every point, fetched there or not. -/
theorem before5_3 (c : Dev nD) (t : Fin cfg5.N) (d) : (dat5 V c).before 3 t d = iblk5 V c 3 t :=
  ((dat5 V c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)

/-- Input window 4's current staging buffer holds its block at every point, fetched there or not. -/
theorem before5_4 (c : Dev nD) (t : Fin cfg5.N) (d) : (dat5 V c).before 4 t d = iblk5 V c 4 t :=
  ((dat5 V c).before_in_eq_fetched 4 rfl (fun _ => rfl) (fun _ _ _ => rfl)
    (fun t => by rw [after5_4]; unfold Dat.blockOf iblk5; rw [A_eq5]; try rfl) t d).trans
    (by unfold Dat.fetched Dat.blockOf iblk5; rw [A_eq5]; try rfl)

/-- Input window 5's current staging buffer holds its block at every point, fetched there or not. -/
theorem before5_5 (c : Dev nD) (t : Fin cfg5.N) (d) : (dat5 V c).before 5 t d = iblk5 V c 5 t :=
  ((dat5 V c).before_in_eq_fetched 5 rfl (fun _ => rfl) (fun _ _ _ => rfl)
    (fun t => by rw [after5_5]; unfold Dat.blockOf iblk5; rw [A_eq5]; try rfl) t d).trans
    (by unfold Dat.fetched Dat.blockOf iblk5; rw [A_eq5]; try rfl)

/-- Input window 6's current staging buffer holds its block at every point, fetched there or not. -/
theorem before5_6 (c : Dev nD) (t : Fin cfg5.N) (d) : (dat5 V c).before 6 t d = iblk5 V c 6 t :=
  ((dat5 V c).before_in_eq_fetched 6 rfl (fun _ => rfl) (fun _ _ _ => rfl)
    (fun t => by rw [after5_6]; unfold Dat.blockOf iblk5; rw [A_eq5]; try rfl) t d).trans
    (by unfold Dat.fetched Dat.blockOf iblk5; rw [A_eq5]; try rfl)

/-- The hidden rows' window and the projection's have one block: the same at every point. -/
theorem iblk5_0_const (c : Dev nD) (t : Fin cfg5.N) : iblk5 V c 0 t = iblk5 V c 0 pt5_0 := rfl
theorem iblk5_1_const (c : Dev nD) (t : Fin cfg5.N) : iblk5 V c 1 t = iblk5 V c 1 pt5_0 := rfl

/-! ## The body's two runs -/

/-- The offsets of every access of the body: the buffers' origins. -/
theorem zero3 : (![0, 0] : Fin 2 → Nat) = fun _ => 0 := funext fun a => by fin_cases a <;> rfl

set_option maxHeartbeats 1000000 in
/-- The body where the tile is NOT the half's first, on whole memrefs: the inputs' at their contents, the output's at
    anything, the scratch at contents ys. It runs to the continuation holding the inputs and the scratch as they were
    and the output's buffer at the tile's payload over ys. -/
theorem sound_kernel5_B (c : Dev nD) (E : Set ℕ) (i : grid5.Coords) (arg2 : Memref sig .tc .vmem S512x1024 .bf16) (harg2 : arg2.IsWhole) (arg3 : Memref sig .tc .vmem S64x1024 .bf16) (harg3 : arg3.IsWhole) (arg4 : Memref sig .tc .vmem S4096x64 .bf16) (harg4 : arg4.IsWhole) (arg5 : Memref sig .tc .vmem S1x4096 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x64 .bf16) (harg10 : arg10.IsWhole) (hc : ¬cond5_0 i)
    (x0 : Vec F S512x1024 .bf16) (x1 : Vec F S64x1024 .bf16) (x2 : Vec F S4096x64 .bf16) (x3 : Vec F S1x4096 .f32) (x4 : Vec F S512x1 .f32) (x5 : Vec F S512x1 .f32) (x6 : Vec F S512x1 .f32) (ys : Vec F S512x64 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare ys
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k5_pay2 i ys x2 x3 x4 x5 x6) ∗ owns (c : Thread nD τ) arg10 fullShare ys) -∗ K ⟨⟩))
      ⊢ wp frame (wpE (defs₀ (F := F)) Variants.none c none) E (cc5_kernel i arg2 harg2 arg3 harg3 arg4 harg4 arg5 harg5 arg6 harg6 arg7 harg7 arg8 harg8 arg9 harg9 arg10 harg10) K := by
  simp only [cc5_kernel_eq_skeleton]; unfold cc5_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg10.eq_unread hfs
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H9]
  · iexists _; isplitr
    swap; · iexact H9
    ipureintro
    rw [View.read_writes_eq_canon _ _ _ (fun y => ⟨_, List.mem_singleton_self _, View.mem_set_unit_zero zero3 inb_S512x4096_S512x4096_0_0 y⟩), View.canon_unit_zero zero3]
    simp only [View.readAt_eq_ld, harg2.read_unread, harg3.read_unread, harg4.read_unread, harg5.read_unread, harg6.read_unread, harg7.read_unread, harg8.read_unread, harg10.read_unread,
      View.ld_unit_zero (S := S512x1024) zero3, View.ld_unit_zero (S := S64x1024) zero3, View.ld_unit_zero (S := S4096x64) zero3, View.ld_unit_zero (S := S1x4096) zero3,
      View.ld_unit_zero (S := S512x1) zero3, View.ld_unit_zero (S := S512x64) zero3]
  iexists _; isplitr; · ipureintro; exact harg10.read_unread _
  iexact HS

set_option maxHeartbeats 1000000 in
/-- The body where the tile IS the half's first, on whole memrefs: the inputs' at their contents, the output's and the
    scratch at anything. It runs to the continuation holding the inputs as they were, the scratch at the projected
    hidden rows and the output's buffer at the tile's payload over them. -/
theorem sound_kernel5_A (c : Dev nD) (E : Set ℕ) (i : grid5.Coords) (arg2 : Memref sig .tc .vmem S512x1024 .bf16) (harg2 : arg2.IsWhole) (arg3 : Memref sig .tc .vmem S64x1024 .bf16) (harg3 : arg3.IsWhole) (arg4 : Memref sig .tc .vmem S4096x64 .bf16) (harg4 : arg4.IsWhole) (arg5 : Memref sig .tc .vmem S1x4096 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x64 .bf16) (harg10 : arg10.IsWhole) (hc : cond5_0 i)
    (x0 : Vec F S512x1024 .bf16) (x1 : Vec F S64x1024 .bf16) (x2 : Vec F S4096x64 .bf16) (x3 : Vec F S1x4096 .f32) (x4 : Vec F S512x1 .f32) (x5 : Vec F S512x1 .f32) (x6 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k5_pay2 i (k5_pay1 x0 x1) x2 x3 x4 x5 x6) ∗ owns (c : Thread nD τ) arg10 fullShare (k5_pay1 x0 x1)) -∗ K ⟨⟩))
      ⊢ wp frame (wpE (defs₀ (F := F)) Variants.none c none) E (cc5_kernel i arg2 harg2 arg3 harg3 arg4 harg4 arg5 harg5 arg6 harg6 arg7 harg7 arg8 harg8 arg9 harg9 arg10 harg10) K := by
  simp only [cc5_kernel_eq_skeleton]; unfold cc5_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc)

  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H9]
  · iexists _; isplitr
    swap; · iexact H9
    ipureintro
    rw [View.read_writes_eq_canon _ _ _ (fun y => ⟨_, List.mem_singleton_self _, View.mem_set_unit_zero zero3 inb_S512x4096_S512x4096_0_0 y⟩), View.canon_unit_zero zero3]
    sl_unfold_words
    simp only [View.readAt_eq_ld, harg2.read_unread, harg3.read_unread, harg4.read_unread, harg5.read_unread, harg6.read_unread, harg7.read_unread, harg8.read_unread,
      View.ld_unit_zero (S := S512x1024) zero3, View.ld_unit_zero (S := S64x1024) zero3, View.ld_unit_zero (S := S4096x64) zero3, View.ld_unit_zero (S := S1x4096) zero3,
      View.ld_unit_zero (S := S512x1) zero3, View.ld_unit_zero (S := S512x64) zero3, View.readCov_unit_zero (S := S512x64) _ zero3]
  iexists _; isplitr
  swap; · iexact HS
  ipureintro
  sl_unfold_words
  rw [View.read_writes_eq_canon _ _ _ (fun y => ⟨_, List.mem_singleton_self _, View.mem_set_unit_zero zero3 inb_S512x64_S512x64_0_0 y⟩), View.canon_unit_zero zero3]
  simp only [View.readAt_eq_ld, harg2.read_unread, harg3.read_unread, harg4.read_unread, harg5.read_unread, harg6.read_unread, harg7.read_unread, harg8.read_unread,
      View.ld_unit_zero (S := S512x1024) zero3, View.ld_unit_zero (S := S64x1024) zero3, View.ld_unit_zero (S := S4096x64) zero3, View.ld_unit_zero (S := S1x4096) zero3,
      View.ld_unit_zero (S := S512x1) zero3, View.ld_unit_zero (S := S512x64) zero3]

/-! ## The body obligation, at a generic point -/

/-- The scratch's contents in terms of the blocks at any point: the hidden rows' block and the projection's are the
    same at every point. -/
theorem y5_eq (c : Dev nD) (t : Fin cfg5.N) : y5 V c = k5_pay1 (iblk5 V c 0 t) (iblk5 V c 1 t) := rfl

/-- Before any point the invariant holds the scratch at some contents beside the scoped rest without it. -/
theorem Phi5_any (c : Dev nD) (n : ℕ) :
    Phi5 V c n ⊢ iprop((∃ d, owns (c : Thread nD τ) scM5 fullShare d) ∗ Pipeline.scopedRestBut (Ix := Unit) (Name := ℕ) (U := UR sig nD τ) (Lvl := ℕ) (Val := Elt F) spec5 c [cc5_scratch0]) := by
  cases n with
  | zero =>
    rw [Phi5_zero V c 0 rfl, scopedRest5_split]; simp only [owns_whole]; exact .rfl
  | succ n =>
    rw [Phi5_pos V c _ (Nat.succ_ne_zero n)]
    iintro ⟨Hs, Hr⟩
    isplitl [Hs]; · iexists _; iexact Hs
    iexact Hr

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

set_option maxHeartbeats 1000000 in
/-- The body at any point: the inputs' memrefs hold their blocks; at a half's first tile the scratch comes in at
    anything and leaves at the projected hidden rows, elsewhere it comes in and leaves at them; the output's buffer is
    left at the tile's payload over them; the rest of the invariant and the core's tallies pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).owesAt () t.succ = (dat5 V c).owesAt () t.castSucc from rfl,
    show (dat5 V c).Φ t.succ = Phi5 V c (t.val + 1) from rfl, Phi5_pos V c _ (Nat.succ_ne_zero _),
    show (dat5 V c).Φ t.castSucc = Phi5 V c t.val from rfl,
    after5_0, after5_1, after5_2, after5_3, after5_4, after5_5, after5_6, after5_7]
  unfold out5_7
  by_cases h0 : t.val % tilesPerHalf5 = 0
  · rw [y5_eq V c t]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (Phi5_any V c t.val) $$ HΦ
    icases HΦ' with ⟨HS, Hr⟩
    iapply (sound_kernel5_A c Set.univ (grid5.coords t) _ _ _ _ _ _ _ _ _ _ _ _ _ _ _ _ _ _ ((hcond5_0 t).mpr h0)
      (iblk5 V c 0 t) (iblk5 V c 1 t) (iblk5 V c 2 t) (iblk5 V c 3 t) (iblk5 V c 4 t) (iblk5 V c 5 t) (iblk5 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := fun h => h0 (by rw [h]; exact Nat.zero_mod _)
    rw [Phi5_pos V c _ hz]
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel5_B c Set.univ (grid5.coords t) _ _ _ _ _ _ _ _ _ _ _ _ _ _ _ _ _ _ (fun h => h0 ((hcond5_0 t).mp h))
      (iblk5 V c 0 t) (iblk5 V c 1 t) (iblk5 V c 2 t) (iblk5 V c 3 t) (iblk5 V c 4 t) (iblk5 V c 5 t) (iblk5 V c 6 t) (y5 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The invariant at the region's two ends -/

/-- What the region is handed (nothing of its own, the tables' part T, the scoped rest) is the invariant before the
    first point. -/
theorem Φ5_in (c : Dev nD) (T : sProp 𝕄) :
    iprop(BI.emp ∗ T ∗ Pipeline.scopedRest (Ix := Unit) (Name := ℕ) (U := UR sig nD τ) (Lvl := ℕ) (Val := Elt F) spec5 c) ⊢ (dat5 V c).Φ 0 := by
  rw [show (dat5 V c).Φ 0 = Pipeline.scopedRest (Ix := Unit) (Name := ℕ) (U := UR sig nD τ) (Lvl := ℕ) (Val := Elt F) spec5 c from rfl]
  iintro ⟨-, -, Hr⟩
  iexact Hr

/-- After the last point the invariant gives the scoped rest back: the scratch's named contents are forgotten. -/
theorem Φ5_out (c : Dev nD) :
    (dat5 V c).Φ (Fin.last _) ⊢ iprop(BI.emp ∗ Pipeline.ownSems0 (fun k : PEmpty => k.elim) c ∗ Pipeline.scopedRest (Ix := Unit) (Name := ℕ) (U := UR sig nD τ) (Lvl := ℕ) (Val := Elt F) spec5 c) := by
  rw [Pipeline.ownSems0_none, show (dat5 V c).Φ (Fin.last _) = Phi5 V c cfg5.N from rfl,
    Phi5_pos V c _ (by rw [show cfg5.N = grid5.N from rfl, N_5]; decide), scopedRest5_split, owns_whole]
  iintro ⟨Hs, Hr⟩
  isplitr; · iempintro
  isplitr; · iempintro
  isplitl [Hs]
  · iexists _; iexact Hs
  iexact Hr

end Cert.Kernel.Hand

end
-- ==== Proof.BitsStats6.lean ====
/-
  The statistics launch of one vocabulary cluster: its body, run. The body has two cases, told apart by the tile's
  index inside its half. At the first tile it projects the hidden rows into the scratch and sets the running maximum
  and sum to their start before the tile's update; whatever the scratch and the two statistics' buffers held is
  overwritten, so nothing is asked of them. At every other tile the scratch and the two buffers hold what the tile
  before left (the buffers are not written back inside a half), and the body updates the statistics from them.
  In both cases every buffer is loaded and stored whole, so what a buffer holds afterwards is the payload of the last
  store into it, and what a load after a store reads is that store's payload.

  From the two cases: the body obligation of the pipeline rule at the proof data `dat6`, whose staging contents
  are the fold `stats6`; and the scratch invariant `Φ6` at the two ends of the region, where the scratch returns to
  the scoped buffers at some contents.
-/
import proofs.«124427_j55336358642036_2_alg».proof.Proof.BitsStats6Defs
import Idealize.ShloMosaic.Lib.Pipeline.FrameBody
import Idealize.ShloMosaic.Lib.Pipeline.Value
import Idealize.ShloMosaic.Lib.Pipeline.Regions
import Idealize.ShloMosaic.Lib.Ring
import Idealize.ShloMosaic.Lib.Tactic

set_option maxRecDepth 16384

noncomputable section

namespace Cert.Kernel.Hand

open Cert.Kernel.Gen Cert.Sizes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, of rank two and three. -/
private theorem offPair : (![0, 0] : Fin 2 → Nat) = fun _ => 0 := funext fun a => by fin_cases a <;> rfl
private theorem offTriple : (![0, 0, 0] : Fin 3 → Nat) = fun _ => 0 := funext fun a => by fin_cases a <;> rfl

/-- The condition of the body's conditional: the tile's index inside its half is zero. -/
abbrev cond6 (i : grid6.Coords) : Prop :=
  (Scalar.cmpi .ne (Scalar.extui (Scalar.cmpi .eq (BitVec.ofNat 32 (i 1).val) 0#32)) 0#32) = 1#1

/-- It holds at the first tile of each half: decided over the grid. -/
theorem hcond6 : ∀ t : Fin cfg6.N, cond6 (grid6.coords t) ↔ t.val % tilesPerHalf6 = 0 :=
  (by decide +kernel : ∀ t : Fin grid6.N, cond6 (grid6.coords t) ↔ t.val % tilesPerHalf6 = 0)

/-! ## The body's two cases -/

set_option maxHeartbeats 2000000 in
/-- The body at the first tile of a half: the hidden rows are projected into the scratch, the statistics are set to
    their start and updated by the tile; whatever the scratch and the statistics' buffers held is overwritten. -/
theorem run6_A (c : Dev nD) (E : Set ℕ) (i : grid6.Coords)
    (arg2 : Memref sig .tc .vmem S512x1024 .bf16) (harg2 : arg2.IsWhole) (arg3 : Memref sig .tc .vmem S16x1024 .bf16) (harg3 : arg3.IsWhole)
    (arg4 : Memref sig .tc .vmem S4096x16 .bf16) (harg4 : arg4.IsWhole) (arg5 : Memref sig .tc .vmem S1x4096 .f32) (harg5 : arg5.IsWhole)
    (arg6 : Memref sig .tc .vmem S1x512x1 .f32) (harg6 : arg6.IsWhole) (arg7 : Memref sig .tc .vmem S1x512x1 .f32) (harg7 : arg7.IsWhole)
    (arg8 : Memref sig .tc .vmem S512x16 .bf16) (harg8 : arg8.IsWhole) (hc : cond6 i)
    (hid : Vec F S512x1024 .bf16) (prj : Vec F S16x1024 .bf16) (wb : Vec F S4096x16 .bf16) (bb : Vec F S1x4096 .f32)
    (K : PUnit → sProp 𝕄) :
    iprop(owns (c : Thread nD τ) arg2 fullShare hid ∗ owns (c : Thread nD τ) arg3 fullShare prj
        ∗ owns (c : Thread nD τ) arg4 fullShare wb ∗ owns (c : Thread nD τ) arg5 fullShare bb
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare hid ∗ owns (c : Thread nD τ) arg3 fullShare prj
            ∗ owns (c : Thread nD τ) arg4 fullShare wb ∗ owns (c : Thread nD τ) arg5 fullShare bb
            ∗ owns (c : Thread nD τ) arg6 fullShare (step6 i wb bb (start6 hid prj)).m
            ∗ owns (c : Thread nD τ) arg7 fullShare (step6 i wb bb (start6 hid prj)).l
            ∗ owns (c : Thread nD τ) arg8 fullShare (step6 i wb bb (start6 hid prj)).y) -∗ K ⟨⟩))
      ⊢ wp frame (wpE (defs₀ (F := F)) Variants.none c none) E (cc6_kernel i arg2 harg2 arg3 harg3 arg4 harg4 arg5 harg5 arg6 harg6 arg7 harg7 arg8 harg8) K := by
  simp only [cc6_kernel_eq_skeleton]; unfold cc6_kernel_skel
  simp only [k6_part1_eq_skeleton]; unfold k6_part1_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf2 hf3 hf4 hf5
  sl_exec (disch := first | exact hc)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    dsimp only [step6, start6]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x16) _ offPair, View.readCov_unit_zero (S := S1x512x1) _ offTriple,
      View.readAt_eq_ld, View.ld_unit_zero (S := S512x1024) offPair, View.ld_unit_zero (S := S16x1024) offPair,
      View.ld_unit_zero (S := S4096x16) offPair, View.ld_unit_zero (S := S1x4096) offPair, View.ld_unit_zero (S := S1x512x1) offTriple,
      View.ld_unit_zero (S := S512x16) offPair]
  isplitl [H7]
  · iexists _; isplitr
    swap; · iexact H7
    ipureintro
    dsimp only [step6, start6]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x16) _ offPair, View.readCov_unit_zero (S := S1x512x1) _ offTriple,
      View.readAt_eq_ld, View.ld_unit_zero (S := S512x1024) offPair, View.ld_unit_zero (S := S16x1024) offPair,
      View.ld_unit_zero (S := S4096x16) offPair, View.ld_unit_zero (S := S1x4096) offPair, View.ld_unit_zero (S := S1x512x1) offTriple,
      View.ld_unit_zero (S := S512x16) offPair]
  iexists _; isplitr
  swap; · iexact H8
  ipureintro
  dsimp only [step6, start6]
  sl_unfold_words
  rw [View.read_writes_eq_canon _ _ _ (fun y => ⟨_, List.Mem.head _, View.mem_set_unit_zero offPair inb_S512x16_S512x16_0_0 y⟩),
    View.canon_cons_unit_zero (S := S512x16) offPair]
  simp only [View.readCov_unit_zero (S := S512x16) _ offPair, View.readCov_unit_zero (S := S1x512x1) _ offTriple,
    View.readAt_eq_ld, View.ld_unit_zero (S := S512x1024) offPair, View.ld_unit_zero (S := S16x1024) offPair,
    View.ld_unit_zero (S := S4096x16) offPair, View.ld_unit_zero (S := S1x4096) offPair, View.ld_unit_zero (S := S1x512x1) offTriple,
    View.ld_unit_zero (S := S512x16) offPair]

set_option maxHeartbeats 2000000 in
/-- The body at a later tile of a half: the scratch and the running statistics are read as the tile before left
    them; the statistics are updated, the scratch and the inputs stay. -/
theorem run6_B (c : Dev nD) (E : Set ℕ) (i : grid6.Coords)
    (arg2 : Memref sig .tc .vmem S512x1024 .bf16) (harg2 : arg2.IsWhole) (arg3 : Memref sig .tc .vmem S16x1024 .bf16) (harg3 : arg3.IsWhole)
    (arg4 : Memref sig .tc .vmem S4096x16 .bf16) (harg4 : arg4.IsWhole) (arg5 : Memref sig .tc .vmem S1x4096 .f32) (harg5 : arg5.IsWhole)
    (arg6 : Memref sig .tc .vmem S1x512x1 .f32) (harg6 : arg6.IsWhole) (arg7 : Memref sig .tc .vmem S1x512x1 .f32) (harg7 : arg7.IsWhole)
    (arg8 : Memref sig .tc .vmem S512x16 .bf16) (harg8 : arg8.IsWhole) (hc : ¬cond6 i)
    (hid : Vec F S512x1024 .bf16) (prj : Vec F S16x1024 .bf16) (wb : Vec F S4096x16 .bf16) (bb : Vec F S1x4096 .f32)
    (y : Vec F S512x16 .bf16) (m l : Vec F S1x512x1 .f32)
    (K : PUnit → sProp 𝕄) :
    iprop(owns (c : Thread nD τ) arg2 fullShare hid ∗ owns (c : Thread nD τ) arg3 fullShare prj
        ∗ owns (c : Thread nD τ) arg4 fullShare wb ∗ owns (c : Thread nD τ) arg5 fullShare bb
        ∗ owns (c : Thread nD τ) arg6 fullShare m ∗ owns (c : Thread nD τ) arg7 fullShare l
        ∗ owns (c : Thread nD τ) arg8 fullShare y
        ∗ (iprop(owns (c : Thread nD τ) arg2 fullShare hid ∗ owns (c : Thread nD τ) arg3 fullShare prj
            ∗ owns (c : Thread nD τ) arg4 fullShare wb ∗ owns (c : Thread nD τ) arg5 fullShare bb
            ∗ owns (c : Thread nD τ) arg6 fullShare (step6 i wb bb ⟨y, m, l⟩).m
            ∗ owns (c : Thread nD τ) arg7 fullShare (step6 i wb bb ⟨y, m, l⟩).l
            ∗ owns (c : Thread nD τ) arg8 fullShare (step6 i wb bb ⟨y, m, l⟩).y) -∗ K ⟨⟩))
      ⊢ wp frame (wpE (defs₀ (F := F)) Variants.none c none) E (cc6_kernel i arg2 harg2 arg3 harg3 arg4 harg4 arg5 harg5 arg6 harg6 arg7 harg7 arg8 harg8) K := by
  simp only [cc6_kernel_eq_skeleton]; unfold cc6_kernel_skel
  simp only [k6_part1_eq_skeleton]; unfold k6_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2 hf3 hf4 hf5 hf6 hf7 hf8
  sl_exec (disch := first | exact hc)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    dsimp only [step6, start6]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x16) _ offPair, View.readCov_unit_zero (S := S1x512x1) _ offTriple,
      View.readAt_eq_ld, View.ld_unit_zero (S := S512x1024) offPair, View.ld_unit_zero (S := S16x1024) offPair,
      View.ld_unit_zero (S := S4096x16) offPair, View.ld_unit_zero (S := S1x4096) offPair, View.ld_unit_zero (S := S1x512x1) offTriple,
      View.ld_unit_zero (S := S512x16) offPair]
  isplitl [H7]
  · iexists _; isplitr
    swap; · iexact H7
    ipureintro
    dsimp only [step6, start6]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x16) _ offPair, View.readCov_unit_zero (S := S1x512x1) _ offTriple,
      View.readAt_eq_ld, View.ld_unit_zero (S := S512x1024) offPair, View.ld_unit_zero (S := S16x1024) offPair,
      View.ld_unit_zero (S := S4096x16) offPair, View.ld_unit_zero (S := S1x4096) offPair, View.ld_unit_zero (S := S1x512x1) offTriple,
      View.ld_unit_zero (S := S512x16) offPair]
  iexists f8; isplitr; · ipureintro; rfl
  iexact H8

section Region

variable (V : (c : Dev nD) → (b : Ref sig .tc) → Buf (Elt F) ((c : Thread nD τ).loc b))

/-! ## The scratch invariant, opened and closed -/

/-- At any point the scratch is held at some contents beside the other scoped buffers. -/
theorem Φ6_open (c : Dev nD) (n : ℕ) : Φ6 V c n ⊢ iprop((∃ y, owns (c : Thread nD τ) scM6 fullShare y)
      ∗ Pipeline.scopedRestBut (Ix := Unit) (Name := ℕ) (U := UR sig nD τ) (Lvl := ℕ) (Val := Elt F) spec6 c [cc6_scratch0]) := by
  cases n with
  | zero =>
    show Pipeline.scopedRest (Ix := Unit) (Name := ℕ) (U := UR sig nD τ) (Lvl := ℕ) (Val := Elt F) spec6 c ⊢ _
    rw [scopedRest6_split]
    iintro ⟨⟨%f, Hs⟩, Hr⟩
    isplitl [Hs]
    · iexists f; rw [owns_whole]; iexact Hs
    iexact Hr
  | succ n =>
    rw [Φ6_succ]
    iintro ⟨Hs, Hr⟩
    isplitl [Hs]
    · iexists _; iexact Hs
    iexact Hr

/-- So the scoped buffers are whole again, the scratch among them. -/
theorem Φ6_close (c : Dev nD) (n : ℕ) : Φ6 V c n ⊢
    Pipeline.scopedRest (Ix := Unit) (Name := ℕ) (U := UR sig nD τ) (Lvl := ℕ) (Val := Elt F) spec6 c := by
  have hs : ∀ y, (owns (c : Thread nD τ) scM6 fullShare y : sProp 𝕄)
      ⊢ iprop(∃ f : Buf (Elt F) ((c : Thread nD τ).loc cc6_scratch0), ((c : Thread nD τ).loc cc6_scratch0) ↦{fullShare} f) := by
    intro y
    rw [owns_whole_eq]
    iintro ⟨%f, -, Hs⟩
    iexists f; iexact Hs
  refine (Φ6_open V c n).trans ?_
  rw [scopedRest6_split]
  iintro ⟨⟨%y, Hs⟩, Hr⟩
  isplitl [Hs]
  · iapply (hs y); iexact Hs
  iexact Hr

/-! ## What the body finds in each window's buffer -/
/-- Each input's current staging buffer holds its block at every point, fetched there or not: where it is not
    fetched its block index has not moved and the body left the block in place. -/
theorem before6_0 (c : Dev nD) (t : Fin cfg6.N) (d) : (dat6 V c).before 0 t d = iblk6 V c 0 t :=
  ((dat6 V c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl)
    (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl)
    (fun t => by rw [after6_3]; unfold Dat.blockOf iblk6; rw [A_eq6]; try rfl) t d).trans
    (by unfold Dat.fetched Dat.blockOf iblk6; rw [A_eq6]; try rfl)

/-- There the statistics' buffers hold what the tile before left. -/
theorem before6_4_B (c : Dev nD) (t : Fin cfg6.N) (h0 : ¬t.val % tilesPerHalf6 = 0) (d) :
    (dat6 V c).before 4 t d = (stats6 V c (t.val - 1)).m := by
  rw [Dat.before_out_kept _ 4 rfl t (sched6_4 t h0).1 (sched6_4 t h0).2 (fun _ => rfl) (fun _ _ => rfl)]
  dsimp only [dat6]
theorem before6_5_B (c : Dev nD) (t : Fin cfg6.N) (h0 : ¬t.val % tilesPerHalf6 = 0) (d) :
    (dat6 V c).before 5 t d = (stats6 V c (t.val - 1)).l := by
  rw [Dat.before_out_kept _ 5 rfl t (sched6_5 t h0).1 (sched6_5 t h0).2 (fun _ => rfl) (fun _ _ => rfl)]
  dsimp only [dat6]

/-! ## The body obligation -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

set_option maxHeartbeats 1600000 in
/-- The body at any point: the inputs' buffers hold their blocks; at the first tile of a half the scratch and the
    statistics are whatever they are and are set afresh; at a later tile they hold what the tile before left. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = Φ6 V c (t.val + 1) from rfl,
    show (dat6 V c).Φ t.castSucc = Φ6 V c t.val from rfl,
    show (dat6 V c).owesAt () t.succ = (dat6 V c).owesAt () t.castSucc from rfl,
    after6_0, after6_1, after6_2, after6_3, after6_4, after6_5, Φ6_succ]
  by_cases h0 : t.val % tilesPerHalf6 = 0
  · rw [stats6_A V c t h0]
    unfold stepAt6 startAt6
    refine (sep_mono (Φ6_open V c t.val) .rfl).trans ?_
    iintro ⟨⟨⟨%y, Hs⟩, Hrest⟩, Ho, ⟨%d0, H0⟩, ⟨%d1, H1⟩, ⟨%d2, H2⟩, ⟨%d3, H3⟩, ⟨%d4, H4⟩, ⟨%d5, H5⟩⟩
    iapply (run6_A c Set.univ (grid6.coords t) _ _ _ _ _ _ _ _ _ _ _ _ _ _ ((hcond6 t).mpr h0)
      (hidBlk6 V c t) (prjBlk6 V c t) (wBlk6 V c t) (bBlk6 V c t) _)
    isplitl [H0]; · iexact H0
    isplitl [H1]; · iexact H1
    isplitl [H2]; · iexact H2
    isplitl [H3]; · iexact H3
    isplitl [H4]; · iexists _; iexact H4
    isplitl [H5]; · iexists _; iexact H5
    isplitl [Hs]; · iexists _; iexact Hs
    iintro ⟨H0, H1, H2, H3, H4, H5, Hs⟩
    isplitl [Hs Hrest]
    · isplitl [Hs]; · iexact Hs
      iexact Hrest
    isplitl [Ho]; · iexact Ho
    isplitl [H0]; · iexact H0
    isplitl [H1]; · iexact H1
    isplitl [H2]; · iexact H2
    isplitl [H3]; · iexact H3
    isplitl [H4]; · iexact H4
    iexact H5
  · have ht : t.val ≠ 0 := fun e => h0 (by rw [e]; exact Nat.zero_mod _)
    rw [stats6_B V c t h0]
    simp only [before6_4_B V c t h0, before6_5_B V c t h0]
    rw [show Φ6 V c t.val = Φ6 V c (t.val - 1 + 1) from by rw [Nat.sub_one_add_one ht], Φ6_succ]
    unfold stepAt6
    iintro ⟨⟨Hs, Hrest⟩, Ho, ⟨%d0, H0⟩, ⟨%d1, H1⟩, ⟨%d2, H2⟩, ⟨%d3, H3⟩, ⟨%d4, H4⟩, ⟨%d5, H5⟩⟩
    iapply (run6_B c Set.univ (grid6.coords t) _ _ _ _ _ _ _ _ _ _ _ _ _ _ (fun h => h0 ((hcond6 t).mp h))
      (hidBlk6 V c t) (prjBlk6 V c t) (wBlk6 V c t) (bBlk6 V c t)
      (stats6 V c (t.val - 1)).y (stats6 V c (t.val - 1)).m (stats6 V c (t.val - 1)).l _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]; · iexact Hs
      iexact Hrest
    isplitl [Ho]; · iexact Ho
    isplitl [H0]; · iexact H0
    isplitl [H1]; · iexact H1
    isplitl [H2]; · iexact H2
    isplitl [H3]; · iexact H3
    isplitl [H4]; · iexact H4
    iexact H5

/-- The pipeline rule's body obligation, at every point. -/
theorem body_obligation6 (c : Dev nD) : BodyObligation (dat6 (F := F) V c) (defs₀ (F := F)) Variants.none () Set.univ := fun t => by
  rw [bigSep_W6, bigSep_W6]
  exact sound_body6 V c t

/-! ## The invariant at the two ends of the region -/

theorem Φ6_in (c : Dev nD) (T : sProp 𝕄) :
    iprop(BI.emp ∗ T ∗ Pipeline.scopedRest (Ix := Unit) (Name := ℕ) (U := UR sig nD τ) (Lvl := ℕ) (Val := Elt F) spec6 c)
      ⊢ (dat6 V c).Φ 0 := by
  show _ ⊢ Pipeline.scopedRest (Ix := Unit) (Name := ℕ) (U := UR sig nD τ) (Lvl := ℕ) (Val := Elt F) spec6 c
  iintro ⟨-, -, Hr⟩
  iexact Hr

theorem Φ6_out (c : Dev nD) :
    (dat6 V c).Φ (Fin.last _) ⊢ iprop(BI.emp ∗ Pipeline.ownSems0 (fun k : PEmpty => k.elim) c
      ∗ Pipeline.scopedRest (Ix := Unit) (Name := ℕ) (U := UR sig nD τ) (Lvl := ℕ) (Val := Elt F) spec6 c) := by
  rw [Pipeline.ownSems0_none, show (dat6 V c).Φ (Fin.last cfg6.N) = Φ6 V c cfg6.N from rfl]
  refine (Φ6_close V c _).trans ?_
  iintro Hr
  isplitr; · iempintro
  isplitr; · iempintro
  iexact Hr

end Region

end Cert.Kernel.Hand

end
-- ==== Proof.BitsWrite7.lean ====
/-
  The write launch of vocabulary cluster 1 (launch 3), its body obligation.

  The body has one conditional: at a half's first tile it projects the hidden rows into the scratch. So a point is in
  one of two cases, decided by the tile coordinate (the point's position modulo the tiles per half): in the first the
  scratch comes in at anything and leaves at the projected rows; in the second it comes in at them and is left alone.
  In both the output window's buffer is stored whole, once, with the tile's payload over the projected rows: the masked
  logits less the row maximum and the logarithm of the row sum, plus the row's extra term.

  The hidden rows and the projection are one block each, the same at every point, so the projected rows are one value,
  and the invariant between points is the scratch owned at it (before the first point: at anything, inside the scoped
  rest). The invariant takes the scoped rest in before the first point and gives it back after the last.
-/
import proofs.«124427_j55336358642036_2_alg».proof.Proof.BitsWrite7Defs
import proofs.«124427_j55336358642036_2_alg».proof.Proof.Gen.Kernel.Points
import proofs.«124427_j55336358642036_2_alg».proof.Proof.Sizes
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand

open Cert.Kernel.Gen
open Cert.Sizes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's branch condition -/

/-- The condition of the body's one conditional: the tile coordinate is the half's first. -/
abbrev cond7_0 (i : grid7.Coords) : Prop :=
  (Scalar.cmpi .ne (Scalar.extui (Scalar.cmpi .eq (BitVec.ofNat 32 (i 1).val) 0#32)) 0#32) = 1#1

/-- It holds at each half's first point only, decided over the grid. -/
theorem hcond7_0 : ∀ t : Fin cfg7.N, cond7_0 (grid7.coords t) ↔ t.val % tilesPerHalf7 = 0 :=
  (by decide +kernel : ∀ t : Fin grid7.N, cond7_0 (grid7.coords t) ↔ t.val % tilesPerHalf7 = 0)

/-! ## What the body finds in the inputs' buffers -/

/-- Input window 0's current staging buffer holds its block at every point, fetched there or not. -/
theorem before7_0 (c : Dev nD) (t : Fin cfg7.N) (d) : (dat7 V c).before 0 t d = iblk7 V c 0 t :=
  ((dat7 V c).before_in_eq_fetched 0 rfl (fun _ => rfl) (fun _ _ _ => rfl)
    (fun t => by rw [after7_0]; unfold Dat.blockOf iblk7; rw [A_eq7]; try rfl) t d).trans
    (by unfold Dat.fetched Dat.blockOf iblk7; rw [A_eq7]; try rfl)

/-- Input window 1's current staging buffer holds its block at every point, fetched there or not. -/
theorem before7_1 (c : Dev nD) (t : Fin cfg7.N) (d) : (dat7 V c).before 1 t d = iblk7 V c 1 t :=
  ((dat7 V c).before_in_eq_fetched 1 rfl (fun _ => rfl) (fun _ _ _ => rfl)
    (fun t => by rw [after7_1]; unfold Dat.blockOf iblk7; rw [A_eq7]; try rfl) t d).trans
    (by unfold Dat.fetched Dat.blockOf iblk7; rw [A_eq7]; try rfl)

/-- Input window 2's current staging buffer holds its block at every point, fetched there or not. -/
theorem before7_2 (c : Dev nD) (t : Fin cfg7.N) (d) : (dat7 V c).before 2 t d = iblk7 V c 2 t :=
  ((dat7 V c).before_in_eq_fetched 2 rfl (fun _ => rfl) (fun _ _ _ => rfl)
    (fun t => by rw [after7_2]; unfold Dat.blockOf iblk7; rw [A_eq7]; try rfl) t d).trans
    (by unfold Dat.fetched Dat.blockOf iblk7; rw [A_eq7]; try rfl)

/-- Input window 3's current staging buffer holds its block at every point, fetched there or not. -/
theorem before7_3 (c : Dev nD) (t : Fin cfg7.N) (d) : (dat7 V c).before 3 t d = iblk7 V c 3 t :=
  ((dat7 V c).before_in_eq_fetched 3 rfl (fun _ => rfl) (fun _ _ _ => rfl)
    (fun t => by rw [after7_3]; unfold Dat.blockOf iblk7; rw [A_eq7]; try rfl) t d).trans
    (by unfold Dat.fetched Dat.blockOf iblk7; rw [A_eq7]; try rfl)

/-- Input window 4's current staging buffer holds its block at every point, fetched there or not. -/
theorem before7_4 (c : Dev nD) (t : Fin cfg7.N) (d) : (dat7 V c).before 4 t d = iblk7 V c 4 t :=
  ((dat7 V c).before_in_eq_fetched 4 rfl (fun _ => rfl) (fun _ _ _ => rfl)
    (fun t => by rw [after7_4]; unfold Dat.blockOf iblk7; rw [A_eq7]; try rfl) t d).trans
    (by unfold Dat.fetched Dat.blockOf iblk7; rw [A_eq7]; try rfl)

/-- Input window 5's current staging buffer holds its block at every point, fetched there or not. -/
theorem before7_5 (c : Dev nD) (t : Fin cfg7.N) (d) : (dat7 V c).before 5 t d = iblk7 V c 5 t :=
  ((dat7 V c).before_in_eq_fetched 5 rfl (fun _ => rfl) (fun _ _ _ => rfl)
    (fun t => by rw [after7_5]; unfold Dat.blockOf iblk7; rw [A_eq7]; try rfl) t d).trans
    (by unfold Dat.fetched Dat.blockOf iblk7; rw [A_eq7]; try rfl)

/-- Input window 6's current staging buffer holds its block at every point, fetched there or not. -/
theorem before7_6 (c : Dev nD) (t : Fin cfg7.N) (d) : (dat7 V c).before 6 t d = iblk7 V c 6 t :=
  ((dat7 V c).before_in_eq_fetched 6 rfl (fun _ => rfl) (fun _ _ _ => rfl)
    (fun t => by rw [after7_6]; unfold Dat.blockOf iblk7; rw [A_eq7]; try rfl) t d).trans
    (by unfold Dat.fetched Dat.blockOf iblk7; rw [A_eq7]; try rfl)

/-- The hidden rows' window and the projection's have one block: the same at every point. -/
theorem iblk7_0_const (c : Dev nD) (t : Fin cfg7.N) : iblk7 V c 0 t = iblk7 V c 0 pt7_0 := rfl
theorem iblk7_1_const (c : Dev nD) (t : Fin cfg7.N) : iblk7 V c 1 t = iblk7 V c 1 pt7_0 := rfl

/-! ## The body's two runs -/

/-- The offsets of every access of the body: the buffers' origins. -/
theorem zero3 : (![0, 0] : Fin 2 → Nat) = fun _ => 0 := funext fun a => by fin_cases a <;> rfl

set_option maxHeartbeats 1000000 in
/-- The body where the tile is NOT the half's first, on whole memrefs: the inputs' at their contents, the output's at
    anything, the scratch at contents ys. It runs to the continuation holding the inputs and the scratch as they were
    and the output's buffer at the tile's payload over ys. -/
theorem sound_kernel7_B (c : Dev nD) (E : Set ℕ) (i : grid7.Coords) (arg2 : Memref sig .tc .vmem S512x1024 .bf16) (harg2 : arg2.IsWhole) (arg3 : Memref sig .tc .vmem S16x1024 .bf16) (harg3 : arg3.IsWhole) (arg4 : Memref sig .tc .vmem S4096x16 .bf16) (harg4 : arg4.IsWhole) (arg5 : Memref sig .tc .vmem S1x4096 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x16 .bf16) (harg10 : arg10.IsWhole) (hc : ¬cond7_0 i)
    (x0 : Vec F S512x1024 .bf16) (x1 : Vec F S16x1024 .bf16) (x2 : Vec F S4096x16 .bf16) (x3 : Vec F S1x4096 .f32) (x4 : Vec F S512x1 .f32) (x5 : Vec F S512x1 .f32) (x6 : Vec F S512x1 .f32) (ys : Vec F S512x16 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare ys
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k7_pay2 i ys x2 x3 x4 x5 x6) ∗ owns (c : Thread nD τ) arg10 fullShare ys) -∗ K ⟨⟩))
      ⊢ wp frame (wpE (defs₀ (F := F)) Variants.none c none) E (cc7_kernel i arg2 harg2 arg3 harg3 arg4 harg4 arg5 harg5 arg6 harg6 arg7 harg7 arg8 harg8 arg9 harg9 arg10 harg10) K := by
  simp only [cc7_kernel_eq_skeleton]; unfold cc7_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg10.eq_unread hfs
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H9]
  · iexists _; isplitr
    swap; · iexact H9
    ipureintro
    rw [View.read_writes_eq_canon _ _ _ (fun y => ⟨_, List.mem_singleton_self _, View.mem_set_unit_zero zero3 inb_S512x4096_S512x4096_0_0 y⟩), View.canon_unit_zero zero3]
    simp only [View.readAt_eq_ld, harg2.read_unread, harg3.read_unread, harg4.read_unread, harg5.read_unread, harg6.read_unread, harg7.read_unread, harg8.read_unread, harg10.read_unread,
      View.ld_unit_zero (S := S512x1024) zero3, View.ld_unit_zero (S := S16x1024) zero3, View.ld_unit_zero (S := S4096x16) zero3, View.ld_unit_zero (S := S1x4096) zero3,
      View.ld_unit_zero (S := S512x1) zero3, View.ld_unit_zero (S := S512x16) zero3]
  iexists _; isplitr; · ipureintro; exact harg10.read_unread _
  iexact HS

set_option maxHeartbeats 1000000 in
/-- The body where the tile IS the half's first, on whole memrefs: the inputs' at their contents, the output's and the
    scratch at anything. It runs to the continuation holding the inputs as they were, the scratch at the projected
    hidden rows and the output's buffer at the tile's payload over them. -/
theorem sound_kernel7_A (c : Dev nD) (E : Set ℕ) (i : grid7.Coords) (arg2 : Memref sig .tc .vmem S512x1024 .bf16) (harg2 : arg2.IsWhole) (arg3 : Memref sig .tc .vmem S16x1024 .bf16) (harg3 : arg3.IsWhole) (arg4 : Memref sig .tc .vmem S4096x16 .bf16) (harg4 : arg4.IsWhole) (arg5 : Memref sig .tc .vmem S1x4096 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x16 .bf16) (harg10 : arg10.IsWhole) (hc : cond7_0 i)
    (x0 : Vec F S512x1024 .bf16) (x1 : Vec F S16x1024 .bf16) (x2 : Vec F S4096x16 .bf16) (x3 : Vec F S1x4096 .f32) (x4 : Vec F S512x1 .f32) (x5 : Vec F S512x1 .f32) (x6 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k7_pay2 i (k7_pay1 x0 x1) x2 x3 x4 x5 x6) ∗ owns (c : Thread nD τ) arg10 fullShare (k7_pay1 x0 x1)) -∗ K ⟨⟩))
      ⊢ wp frame (wpE (defs₀ (F := F)) Variants.none c none) E (cc7_kernel i arg2 harg2 arg3 harg3 arg4 harg4 arg5 harg5 arg6 harg6 arg7 harg7 arg8 harg8 arg9 harg9 arg10 harg10) K := by
  simp only [cc7_kernel_eq_skeleton]; unfold cc7_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc)

  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H9]
  · iexists _; isplitr
    swap; · iexact H9
    ipureintro
    rw [View.read_writes_eq_canon _ _ _ (fun y => ⟨_, List.mem_singleton_self _, View.mem_set_unit_zero zero3 inb_S512x4096_S512x4096_0_0 y⟩), View.canon_unit_zero zero3]
    sl_unfold_words
    simp only [View.readAt_eq_ld, harg2.read_unread, harg3.read_unread, harg4.read_unread, harg5.read_unread, harg6.read_unread, harg7.read_unread, harg8.read_unread,
      View.ld_unit_zero (S := S512x1024) zero3, View.ld_unit_zero (S := S16x1024) zero3, View.ld_unit_zero (S := S4096x16) zero3, View.ld_unit_zero (S := S1x4096) zero3,
      View.ld_unit_zero (S := S512x1) zero3, View.ld_unit_zero (S := S512x16) zero3, View.readCov_unit_zero (S := S512x16) _ zero3]
  iexists _; isplitr
  swap; · iexact HS
  ipureintro
  sl_unfold_words
  rw [View.read_writes_eq_canon _ _ _ (fun y => ⟨_, List.mem_singleton_self _, View.mem_set_unit_zero zero3 inb_S512x16_S512x16_0_0 y⟩), View.canon_unit_zero zero3]
  simp only [View.readAt_eq_ld, harg2.read_unread, harg3.read_unread, harg4.read_unread, harg5.read_unread, harg6.read_unread, harg7.read_unread, harg8.read_unread,
      View.ld_unit_zero (S := S512x1024) zero3, View.ld_unit_zero (S := S16x1024) zero3, View.ld_unit_zero (S := S4096x16) zero3, View.ld_unit_zero (S := S1x4096) zero3,
      View.ld_unit_zero (S := S512x1) zero3, View.ld_unit_zero (S := S512x16) zero3]

/-! ## The body obligation, at a generic point -/

/-- The scratch's contents in terms of the blocks at any point: the hidden rows' block and the projection's are the
    same at every point. -/
theorem y7_eq (c : Dev nD) (t : Fin cfg7.N) : y7 V c = k7_pay1 (iblk7 V c 0 t) (iblk7 V c 1 t) := rfl

/-- Before any point the invariant holds the scratch at some contents beside the scoped rest without it. -/
theorem Phi7_any (c : Dev nD) (n : ℕ) :
    Phi7 V c n ⊢ iprop((∃ d, owns (c : Thread nD τ) scM7 fullShare d) ∗ Pipeline.scopedRestBut (Ix := Unit) (Name := ℕ) (U := UR sig nD τ) (Lvl := ℕ) (Val := Elt F) spec7 c [cc7_scratch0]) := by
  cases n with
  | zero =>
    rw [Phi7_zero V c 0 rfl, scopedRest7_split]; simp only [owns_whole]; exact .rfl
  | succ n =>
    rw [Phi7_pos V c _ (Nat.succ_ne_zero n)]
    iintro ⟨Hs, Hr⟩
    isplitl [Hs]; · iexists _; iexact Hs
    iexact Hr

/-- What the body is called with at point t, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

set_option maxHeartbeats 1000000 in
/-- The body at any point: the inputs' memrefs hold their blocks; at a half's first tile the scratch comes in at
    anything and leaves at the projected hidden rows, elsewhere it comes in and leaves at them; the output's buffer is
    left at the tile's payload over them; the rest of the invariant and the core's tallies pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).owesAt () t.succ = (dat7 V c).owesAt () t.castSucc from rfl,
    show (dat7 V c).Φ t.succ = Phi7 V c (t.val + 1) from rfl, Phi7_pos V c _ (Nat.succ_ne_zero _),
    show (dat7 V c).Φ t.castSucc = Phi7 V c t.val from rfl,
    after7_0, after7_1, after7_2, after7_3, after7_4, after7_5, after7_6, after7_7]
  unfold out7_7
  by_cases h0 : t.val % tilesPerHalf7 = 0
  · rw [y7_eq V c t]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (Phi7_any V c t.val) $$ HΦ
    icases HΦ' with ⟨HS, Hr⟩
    iapply (sound_kernel7_A c Set.univ (grid7.coords t) _ _ _ _ _ _ _ _ _ _ _ _ _ _ _ _ _ _ ((hcond7_0 t).mpr h0)
      (iblk7 V c 0 t) (iblk7 V c 1 t) (iblk7 V c 2 t) (iblk7 V c 3 t) (iblk7 V c 4 t) (iblk7 V c 5 t) (iblk7 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := fun h => h0 (by rw [h]; exact Nat.zero_mod _)
    rw [Phi7_pos V c _ hz]
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel7_B c Set.univ (grid7.coords t) _ _ _ _ _ _ _ _ _ _ _ _ _ _ _ _ _ _ (fun h => h0 ((hcond7_0 t).mp h))
      (iblk7 V c 0 t) (iblk7 V c 1 t) (iblk7 V c 2 t) (iblk7 V c 3 t) (iblk7 V c 4 t) (iblk7 V c 5 t) (iblk7 V c 6 t) (y7 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## The invariant at the region's two ends -/

/-- What the region is handed (nothing of its own, the tables' part T, the scoped rest) is the invariant before the
    first point. -/
theorem Φ7_in (c : Dev nD) (T : sProp 𝕄) :
    iprop(BI.emp ∗ T ∗ Pipeline.scopedRest (Ix := Unit) (Name := ℕ) (U := UR sig nD τ) (Lvl := ℕ) (Val := Elt F) spec7 c) ⊢ (dat7 V c).Φ 0 := by
  rw [show (dat7 V c).Φ 0 = Pipeline.scopedRest (Ix := Unit) (Name := ℕ) (U := UR sig nD τ) (Lvl := ℕ) (Val := Elt F) spec7 c from rfl]
  iintro ⟨-, -, Hr⟩
  iexact Hr

/-- After the last point the invariant gives the scoped rest back: the scratch's named contents are forgotten. -/
theorem Φ7_out (c : Dev nD) :
    (dat7 V c).Φ (Fin.last _) ⊢ iprop(BI.emp ∗ Pipeline.ownSems0 (fun k : PEmpty => k.elim) c ∗ Pipeline.scopedRest (Ix := Unit) (Name := ℕ) (U := UR sig nD τ) (Lvl := ℕ) (Val := Elt F) spec7 c) := by
  rw [Pipeline.ownSems0_none, show (dat7 V c).Φ (Fin.last _) = Phi7 V c cfg7.N from rfl,
    Phi7_pos V c _ (by rw [show cfg7.N = grid7.N from rfl, N_7]; decide), scopedRest7_split, owns_whole]
  iintro ⟨Hs, Hr⟩
  isplitr; · iempintro
  isplitr; · iempintro
  isplitl [Hs]
  · iexists _; iexact Hs
  iexact Hr

end Cert.Kernel.Hand

end
-- ==== Proof.BitsAssembleRun.lean ====
/- The spine of the kernel program's run, second half: the eight regions' records over the thread state, the program's frame,
   and the run read at every unscoped buffer — in particular at @main's two results. -/
import proofs.«124427_j55336358642036_2_alg».proof.Proof.BitsAssemble
import proofs.«124427_j55336358642036_2_alg».proof.Proof.BitsStats0
import proofs.«124427_j55336358642036_2_alg».proof.Proof.BitsWrite1
import proofs.«124427_j55336358642036_2_alg».proof.Proof.BitsStats2
import proofs.«124427_j55336358642036_2_alg».proof.Proof.BitsWrite3
import proofs.«124427_j55336358642036_2_alg».proof.Proof.BitsStats4
import proofs.«124427_j55336358642036_2_alg».proof.Proof.BitsWrite5
import proofs.«124427_j55336358642036_2_alg».proof.Proof.BitsStats6
import proofs.«124427_j55336358642036_2_alg».proof.Proof.BitsWrite7
import Idealize.ShloMosaic.Lib.Pipeline.FrameSuffix
import Idealize.ShloMosaic.Lib.Pipeline.RegionsLoop
import Idealize.ShloMosaic.Lib.Tactic

set_option maxRecDepth 16384

noncomputable section

namespace Cert.Kernel.Hand

open Cert.Kernel.Gen Cert.Kernel.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)
/-! ## The eight regions -/

/-- REGION 0: entered at `V5`, left at `V6`. -/
def reg0 : RegionSeg (pcfgs (F := F)) adm (pdats m) () defs₀ 𝒱₀ L lv 0 :=
  mkReg (pdats m) 0 launch0 (V5 m) (V6 m (outs m))
    (fun c => body_obligation0 _ c) (fun _ _ => rfl) (fun _ _ => rfl) (fun _ _ => rfl) (fun c w => A_eq0 _ c w)
    (fun c b => V6_left m c b) (fun c T => Φ0_in _ c T) (fun c => Φ0_out _ c)

/-- REGION 1: entered at `V7`, left at `V8`. -/
def reg1 : RegionSeg (pcfgs (F := F)) adm (pdats m) () defs₀ 𝒱₀ L lv 1 :=
  mkReg (pdats m) 1 launch1 (V7 m (outs m)) (V8 m (outs m))
    (fun c => body_obligation1 _ c) (fun _ _ => rfl) (fun _ _ => rfl) (fun _ _ => rfl) (fun c w => A_eq1 _ c w)
    (fun c b => V8_left m c b) (fun c T => Φ1_in _ c T) (fun c => Φ1_out _ c)

/-- REGION 2: entered at `V13`, left at `V14`. -/
def reg2 : RegionSeg (pcfgs (F := F)) adm (pdats m) () defs₀ 𝒱₀ L lv 2 :=
  mkReg (pdats m) 2 launch2 (V13 m (outs m)) (V14 m (outs m))
    (fun c => body_obligation2 _ c) (fun _ _ => rfl) (fun _ _ => rfl) (fun _ _ => rfl) (fun c w => A_eq2 _ c w)
    (fun c b => V14_left m c b) (fun c T => Φ2_in _ c T) (fun c => Φ2_out _ c)

/-- REGION 3: entered at `V15`, left at `V16`. -/
def reg3 : RegionSeg (pcfgs (F := F)) adm (pdats m) () defs₀ 𝒱₀ L lv 3 :=
  mkReg (pdats m) 3 launch3 (V15 m (outs m)) (V16 m (outs m))
    (fun c => body_obligation3 _ c) (fun _ _ => rfl) (fun _ _ => rfl) (fun _ _ => rfl) (fun c w => A_eq3 _ c w)
    (fun c b => V16_left m c b) (fun c T => Φ3_in _ c T) (fun c => Φ3_out _ c)

/-- REGION 4: entered at `V21`, left at `V22`. -/
def reg4 : RegionSeg (pcfgs (F := F)) adm (pdats m) () defs₀ 𝒱₀ L lv 4 :=
  mkReg (pdats m) 4 launch4 (V21 m (outs m)) (V22 m (outs m))
    (fun c => body_obligation4 _ c) (fun _ _ => rfl) (fun _ _ => rfl) (fun _ _ => rfl) (fun c w => A_eq4 _ c w)
    (fun c b => V22_left m c b) (fun c T => Φ4_in _ c T) (fun c => Φ4_out _ c)

/-- REGION 5: entered at `V23`, left at `V24`. -/
def reg5 : RegionSeg (pcfgs (F := F)) adm (pdats m) () defs₀ 𝒱₀ L lv 5 :=
  mkReg (pdats m) 5 launch5 (V23 m (outs m)) (V24 m (outs m))
    (fun c => body_obligation5 _ c) (fun _ _ => rfl) (fun _ _ => rfl) (fun _ _ => rfl) (fun c w => A_eq5 _ c w)
    (fun c b => V24_left m c b) (fun c T => Φ5_in _ c T) (fun c => Φ5_out _ c)

/-- REGION 6: entered at `V29`, left at `V30`. -/
def reg6 : RegionSeg (pcfgs (F := F)) adm (pdats m) () defs₀ 𝒱₀ L lv 6 :=
  mkReg (pdats m) 6 launch6 (V29 m (outs m)) (V30 m (outs m))
    (fun c => body_obligation6 _ c) (fun _ _ => rfl) (fun _ _ => rfl) (fun _ _ => rfl) (fun c w => A_eq6 _ c w)
    (fun c b => V30_left m c b) (fun c T => Φ6_in _ c T) (fun c => Φ6_out _ c)

/-- REGION 7: entered at `V31`, left at `V32`. -/
def reg7 : RegionSeg (pcfgs (F := F)) adm (pdats m) () defs₀ 𝒱₀ L lv 7 :=
  mkReg (pdats m) 7 launch7 (V31 m (outs m)) (V32 m (outs m))
    (fun c => body_obligation7 _ c) (fun _ _ => rfl) (fun _ _ => rfl) (fun _ _ => rfl) (fun c w => A_eq7 _ c w)
    (fun c b => V32_left m c b) (fun c T => Φ7_in _ c T) (fun c => Φ7_out _ c)

variable (ρ : Dev nD → PrngReg)
set_option backward.isDefEq.respectTransparency.types false in
/-- THE FRAME: from any memory with zero counters every weakly fair execution of @main terminates, nothing faulting, and
    every final memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  GenP.frame_cond m emb₁ () 𝒱₀ L lv (fun _ _ => rfl) ρ (outs m) (pdats m)
    (fun _ => 0) (fun _ => BI.emp) (initOf (Pipeline.cells cfgs cellOf_inj) (Pipeline.launchToks cfgs cellOf_inj))
    launch_elem E (rest_init ρ) rest_end
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
    (reg7 m) (fun _ => .rfl) (fun _ => .rfl)

/-! ## The run, read at every unscoped buffer -/

/-- @main's items as segments: the host stretches' generated segments and the eight regions' records. -/
abbrev theSegs : Dev nD → List (Seg (pcfgs (F := F)) adm (pdats m) () defs₀ 𝒱₀ L lv) :=
  GenP.segs m (outs m) 𝒱₀ L lv E () (pdats m) (reg0 m) (reg1 m) (reg2 m) (reg3 m) (reg4 m) (reg5 m) (reg6 m) (reg7 m)

set_option backward.isDefEq.respectTransparency.types false in
/-- THE RUN. From any memory with zero counters every weakly fair execution of @main terminates, nothing faulting, and the
    final memory holds, at every unscoped buffer, the last valuation of the chain at the regions' results: so any claim that
    follows from those readings holds of every final memory. -/
theorem run_post (ρ : Dev nD → PrngReg) {Q : PUnit × MemSt nD τ sig (Elt F) → Prop}
    (hQ : ∀ s : MemSt nD τ sig (Elt F),
      (∀ c : Dev nD, ∀ b ∈ Pipeline.ucRefs τ sig, s.mem (((c : Thread nD τ)).1, b) = V35 m (outs m) c b) → Q (⟨⟩, s)) :
    θ_run defs (onTc (τ := τ) (main (F := F))) ⟨m, fun _ => 0, ρ⟩ Q := by
  refine Pipeline.θ_run_regions_kit_dev (pcfgs (F := F)) adm (pdats m) () cellOf_inj emb₁ defs₀ 𝒱₀ L lv m ρ main (theSegs m)
    (fun c Q => by
      rewrite [main_chain c, Seg.run_eq_chain,
        show (theSegs m c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          StableHlo.seq hostOps4_3,
          StableHlo.seq hostOps4_4,
          Prog.lift (.customCall (Pipeline.entry 4) ()),
          StableHlo.seq hostOps5,
          Prog.lift (.customCall (Pipeline.entry 5) ()),
          StableHlo.seq hostOps6,
          StableHlo.seq hostOps6_1,
          StableHlo.seq hostOps6_2,
          StableHlo.seq hostOps6_3,
          StableHlo.seq hostOps6_4,
          Prog.lift (.customCall (Pipeline.entry 6) ()),
          StableHlo.seq hostOps7,
          Prog.lift (.customCall (Pipeline.entry 7) ()),
          StableHlo.seq hostOps8,
          StableHlo.seq hostOps8_1,
          StableHlo.seq hostOps8_2 ] from rfl]
      with_reducible exact .rfl)
    (fun c => by simp only [theSegs, GenP.segs, Seg.pipes_host, Seg.pipes_region, Seg.pipes_nil]; decide)
    (fun _ => 0) (fun _ _ => rfl) (fun _ => BI.emp)
    (initOf (Pipeline.cells cfgs cellOf_inj) (Pipeline.launchToks cfgs cellOf_inj)) launch_elem
    (T₀ := fun c => iprop(StableHlo.held (c : Thread nD τ) (Pipeline.ucRefs τ sig) (V0 m c) ∗ E 0 c))
    (Tₙ := fun c => StableHlo.held (c : Thread nD τ) (Pipeline.ucRefs τ sig) (V35 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (rest_end c)⟩)
    (hinit := ?_)
    (QY := fun c s => ∀ b ∈ Pipeline.ucRefs τ sig, s.mem (((c : Thread nD τ)).1, b) = V35 m (outs m) c b)
    (hfin := fun c s' => ?_) (hQ := hQ)
  · -- the launch: each core's unscoped buffers are held at the launch contents, the rest made beside them
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]
    · iexists _; iexact Hp
    iexists ∅
    iexact HO
  · -- the end: what is held is what the final memory has
    iintro ⟨Hh, HSI⟩
    unfold StableHlo.held
    imodintro
    iapply (pointsTo_read_all (Pipeline.ucRefs τ sig) (fun b => (((c : Thread nD τ)).1, b)) (V35 m (outs m) c) s')
    isplitl [Hh] <;> iassumption

/-- THE RUN WITH ITS RESULTS: @main's two results, the log-probabilities and the loss, end at the last valuation's contents
    there, and every argument array as launched. -/
theorem run_values (ρ : Dev nD → PrngReg) : θ_run defs (onTc (τ := τ) (main (F := F))) ⟨m, fun _ => 0, ρ⟩ (fun r => ∀ c : Dev nD,
      r.2.mem ((c.tc : Thread nD τ).loc main_v127) = V35 m (outs m) c main_v127
      ∧ r.2.mem ((c.tc : Thread nD τ).loc main_v134) = V35 m (outs m) c main_v134
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_post m ρ fun s h c =>
    ⟨(h c (Proc.devRef .tc main_v127) (mem_uc main_v127 (by decide))), (h c (Proc.devRef .tc main_v134) (mem_uc main_v134 (by decide))),
      (h c (Proc.devRef .tc main_arg0) (mem_uc main_arg0 (by decide))).trans (GenP.V35_main_arg0 m (outs m) c),
      (h c (Proc.devRef .tc main_arg1) (mem_uc main_arg1 (by decide))).trans (GenP.V35_main_arg1 m (outs m) c),
      (h c (Proc.devRef .tc main_arg2) (mem_uc main_arg2 (by decide))).trans (GenP.V35_main_arg2 m (outs m) c),
      (h c (Proc.devRef .tc main_arg3) (mem_uc main_arg3 (by decide))).trans (GenP.V35_main_arg3 m (outs m) c),
      (h c (Proc.devRef .tc main_arg4) (mem_uc main_arg4 (by decide))).trans (GenP.V35_main_arg4 m (outs m) c),
      (h c (Proc.devRef .tc main_arg5) (mem_uc main_arg5 (by decide))).trans (GenP.V35_main_arg5 m (outs m) c),
      (h c (Proc.devRef .tc main_arg6) (mem_uc main_arg6 (by decide))).trans (GenP.V35_main_arg6 m (outs m) c),
      (h c (Proc.devRef .tc main_arg7) (mem_uc main_arg7 (by decide))).trans (GenP.V35_main_arg7 m (outs m) c),
      (h c (Proc.devRef .tc main_arg8) (mem_uc main_arg8 (by decide))).trans (GenP.V35_main_arg8 m (outs m) c),
      (h c (Proc.devRef .tc main_arg9) (mem_uc main_arg9 (by decide))).trans (GenP.V35_main_arg9 m (outs m) c),
      (h c (Proc.devRef .tc main_arg10) (mem_uc main_arg10 (by decide))).trans (GenP.V35_main_arg10 m (outs m) c),
      (h c (Proc.devRef .tc main_arg11) (mem_uc main_arg11 (by decide))).trans (GenP.V35_main_arg11 m (outs m) c),
      (h c (Proc.devRef .tc main_arg12) (mem_uc main_arg12 (by decide))).trans (GenP.V35_main_arg12 m (outs m) c),
      (h c (Proc.devRef .tc main_arg13) (mem_uc main_arg13 (by decide))).trans (GenP.V35_main_arg13 m (outs m) c),
      (h c (Proc.devRef .tc main_arg14) (mem_uc main_arg14 (by decide))).trans (GenP.V35_main_arg14 m (outs m) c),
      (h c (Proc.devRef .tc main_arg15) (mem_uc main_arg15 (by decide))).trans (GenP.V35_main_arg15 m (outs m) c)⟩

end Cert.Kernel.Hand

end
-- ==== Proof.Stats0Defs.lean ====
/-
  The statistics launch of one vocabulary cluster, as data. Each half of the grid walks `tilesPerHalf0` tiles of the
  cluster's padded weight. At the first tile of a half the hidden rows are projected and rounded into a scratch that
  stays until the half ends, the running maximum starts at the named lower bound and the running sum at zero. Every
  tile then forms its logits from the scratch, the tile's weight rows and its bias columns, masks the columns past the
  cluster's real width to the lower bound, raises the maximum to the tile's row maxima, rescales the sum to the new
  maximum and adds the tile's exponentials. The two statistics' blocks are written back when the half ends.

  This module names that computation: the state a tile leaves (`Stat0`), the start of a half (`start0`), one tile's
  update (`step0`), their fold over the points of the grid (`stats0`), and the proof data of the pipeline whose
  staging contents and scratch invariant are read off the fold (`dat0`, `Φ0`). Nothing is run here.
-/
import proofs.«124427_j55336358642036_2_alg».proof.Proof.Gen.KernelIdeal.Launch
import proofs.«124427_j55336358642036_2_alg».proof.Proof.Gen.KernelIdeal.Skeleton
import proofs.«124427_j55336358642036_2_alg».proof.Proof.Gen.KernelIdeal.Points
import proofs.«124427_j55336358642036_2_alg».proof.Proof.Sizes

set_option maxRecDepth 16384

noncomputable section

namespace Cert.KernelIdeal.Hand

open Cert.KernelIdeal.Gen Cert.Sizes
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The projected rows, the running maximum and the running sum of exponentials. -/
structure Stat0 (F : FTy → Type) where
  y : Vec F S512x1024 .bf16
  m : Vec F S1x512x1 .f32
  l : Vec F S1x512x1 .f32

/-- What the first tile of a half starts from: the hidden rows projected and rounded, the maximum at the named
    lower bound, the sum at zero. -/
def start0 (hid : Vec F S512x1024 .bf16) (prj : Vec F S1024x1024 .bf16) : Stat0 F :=
  ⟨k0_pay3 hid prj, k0_pay4, k0_pay5⟩

/-- One tile's update: the new maximum over the old one and the tile's masked logits; the sum rescaled to it and
    increased by the tile's exponentials. The projected rows stay. -/
def step0 (i : grid0.Coords) (wb : Vec F S2048x1024 .bf16) (bb : Vec F S1x2048 .f32) (s : Stat0 F) : Stat0 F :=
  ⟨s.y, k0_pay2 (k0_pay7 i s.y wb bb s.m),
    k0_pay1 (k0_pay6 i s.y wb bb) (k0_pay8 i s.y wb bb s.m s.m s.l) (k0_pay9 i s.y wb bb s.m)⟩

section Region

variable (V : (c : Dev nD) → (b : Ref sig .tc) → Buf (Elt F) ((c : Thread nD τ).loc b))

/-! ## The windows' blocks, read off the arrays as the region finds them -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The hidden rows (whole), the projection (whole), the tile's rows of the padded weight and its bias columns. -/
abbrev hidBlk0 (c : Dev nD) (t : Fin cfg0.N) : Vec F S512x1024 .bf16 := iblk0 V c 0 t
abbrev prjBlk0 (c : Dev nD) (t : Fin cfg0.N) : Vec F S1024x1024 .bf16 := iblk0 V c 1 t
abbrev wBlk0 (c : Dev nD) (t : Fin cfg0.N) : Vec F S2048x1024 .bf16 := iblk0 V c 2 t
abbrev bBlk0 (c : Dev nD) (t : Fin cfg0.N) : Vec F S1x2048 .f32 := iblk0 V c 3 t

/-- The start of a half and one tile's update, at a point of the grid. -/
def startAt0 (c : Dev nD) (t : Fin cfg0.N) : Stat0 F := start0 (hidBlk0 V c t) (prjBlk0 V c t)
def stepAt0 (c : Dev nD) (t : Fin cfg0.N) (s : Stat0 F) : Stat0 F := step0 (grid0.coords t) (wBlk0 V c t) (bBlk0 V c t) s

/-- The n-th point of the grid (n below the number of points). -/
def pt0 (n : ℕ) : Fin cfg0.N := ⟨n % cfg0.N, Nat.mod_lt _ (by decide : 0 < grid0.N)⟩

theorem pt0_val (t : Fin cfg0.N) : pt0 t.val = t := Fin.ext (Nat.mod_eq_of_lt t.isLt)

/-- THE ONLINE FOLD. The statistics after the body at point n: the first tile of a half starts afresh, every
    other tile updates what the tile before it left. -/
def stats0 (c : Dev nD) : ℕ → Stat0 F
  | 0 => stepAt0 V c (pt0 0) (startAt0 V c (pt0 0))
  | n + 1 => stepAt0 V c (pt0 (n + 1)) (if (n + 1) % tilesPerHalf0 = 0 then startAt0 V c (pt0 (n + 1)) else stats0 c n)

theorem stats0_first (c : Dev nD) (n : ℕ) (h : n % tilesPerHalf0 = 0) :
    stats0 V c n = stepAt0 V c (pt0 n) (startAt0 V c (pt0 n)) := by
  cases n with
  | zero => rfl
  | succ n => show stepAt0 V c _ (if _ then _ else _) = _; rw [if_pos h]

theorem stats0_next (c : Dev nD) (n : ℕ) (h : ¬(n + 1) % tilesPerHalf0 = 0) :
    stats0 V c (n + 1) = stepAt0 V c (pt0 (n + 1)) (stats0 V c n) := by
  show stepAt0 V c _ (if _ then _ else _) = _; rw [if_neg h]

theorem stats0_A (c : Dev nD) (t : Fin cfg0.N) (h : t.val % tilesPerHalf0 = 0) :
    stats0 V c t.val = stepAt0 V c t (startAt0 V c t) := by
  rw [stats0_first V c t.val h, pt0_val]

theorem stats0_B (c : Dev nD) (t : Fin cfg0.N) (h : ¬t.val % tilesPerHalf0 = 0) :
    stats0 V c t.val = stepAt0 V c t (stats0 V c (t.val - 1)) := by
  have h0 : t.val ≠ 0 := fun e => h (by rw [e]; exact Nat.zero_mod _)
  have e := stats0_next V c (t.val - 1) (by rw [Nat.sub_one_add_one h0]; exact h)
  rw [Nat.sub_one_add_one h0, pt0_val] at e
  exact e

/-! ## The body's invariant between points: the scratch -/

abbrev scM0 : Memref sig .tc .vmem S512x1024 .bf16 := Memref.whole cc0_scratch0

/-- Before the first point the scratch is among the scoped buffers at some contents; after point n it holds the
    projected rows the fold carries. -/
def Φ0 (c : Dev nD) : ℕ → sProp 𝕄
  | 0 => Pipeline.scopedRest (Ix := Unit) (Name := ℕ) (U := UR sig nD τ) (Lvl := ℕ) (Val := Elt F) spec0 c
  | n + 1 => iprop(owns (c : Thread nD τ) scM0 fullShare (stats0 V c n).y
      ∗ Pipeline.scopedRestBut (Ix := Unit) (Name := ℕ) (U := UR sig nD τ) (Lvl := ℕ) (Val := Elt F) spec0 c [cc0_scratch0])

theorem Φ0_succ (c : Dev nD) (n : ℕ) : Φ0 V c (n + 1) = iprop(owns (c : Thread nD τ) scM0 fullShare (stats0 V c n).y
      ∗ Pipeline.scopedRestBut (Ix := Unit) (Name := ℕ) (U := UR sig nD τ) (Lvl := ℕ) (Val := Elt F) spec0 c [cc0_scratch0]) := rfl
/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (stats0 V c t.val).m
    | ⟨5, _⟩ => (stats0 V c t.val).l
  Φ t := Φ0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (stats0 V c t.val).m := by dsimp only [dat0]
theorem after0_5 (c : Dev nD) (t : Fin cfg0.N) : (dat0 V c).after 5 t = (stats0 V c t.val).l := by dsimp only [dat0]

/-- Inside a half (not at its first tile) the point is not the first and the statistics' buffers were not written
    back at the point before: decided over the grid. -/
theorem sched0_4 : ∀ t : Fin cfg0.N, ¬t.val % tilesPerHalf0 = 0 →
    t.val ≠ 0 ∧ (cfg0.win 4).flush ⟨t.val - 1, Nat.lt_of_le_of_lt (Nat.sub_le _ _) t.isLt⟩ = false :=
  (by decide +kernel : ∀ t : Fin grid0.N, ¬t.val % tilesPerHalf0 = 0 →
    t.val ≠ 0 ∧ win0_4.flush ⟨t.val - 1, Nat.lt_of_le_of_lt (Nat.sub_le _ _) t.isLt⟩ = false)
theorem sched0_5 : ∀ t : Fin cfg0.N, ¬t.val % tilesPerHalf0 = 0 →
    t.val ≠ 0 ∧ (cfg0.win 5).flush ⟨t.val - 1, Nat.lt_of_le_of_lt (Nat.sub_le _ _) t.isLt⟩ = false :=
  (by decide +kernel : ∀ t : Fin grid0.N, ¬t.val % tilesPerHalf0 = 0 →
    t.val ≠ 0 ∧ win0_5.flush ⟨t.val - 1, Nat.lt_of_le_of_lt (Nat.sub_le _ _) t.isLt⟩ = false)

end Region

end Cert.KernelIdeal.Hand

end
-- ==== Proof.Stats2Defs.lean ====
/-
  The statistics launch of one vocabulary cluster, as data. Each half of the grid walks `tilesPerHalf2` tiles of the
  cluster's padded weight. At the first tile of a half the hidden rows are projected and rounded into a scratch that
  stays until the half ends, the running maximum starts at the named lower bound and the running sum at zero. Every
  tile then forms its logits from the scratch, the tile's weight rows and its bias columns, masks the columns past the
  cluster's real width to the lower bound, raises the maximum to the tile's row maxima, rescales the sum to the new
  maximum and adds the tile's exponentials. The two statistics' blocks are written back when the half ends.

  This module names that computation: the state a tile leaves (`Stat2`), the start of a half (`start2`), one tile's
  update (`step2`), their fold over the points of the grid (`stats2`), and the proof data of the pipeline whose
  staging contents and scratch invariant are read off the fold (`dat2`, `Φ2`). Nothing is run here.
-/
import proofs.«124427_j55336358642036_2_alg».proof.Proof.Gen.KernelIdeal.Launch
import proofs.«124427_j55336358642036_2_alg».proof.Proof.Gen.KernelIdeal.Skeleton
import proofs.«124427_j55336358642036_2_alg».proof.Proof.Gen.KernelIdeal.Points
import proofs.«124427_j55336358642036_2_alg».proof.Proof.Sizes

set_option maxRecDepth 16384

noncomputable section

namespace Cert.KernelIdeal.Hand

open Cert.KernelIdeal.Gen Cert.Sizes
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The projected rows, the running maximum and the running sum of exponentials. -/
structure Stat2 (F : FTy → Type) where
  y : Vec F S512x256 .bf16
  m : Vec F S1x512x1 .f32
  l : Vec F S1x512x1 .f32

/-- What the first tile of a half starts from: the hidden rows projected and rounded, the maximum at the named
    lower bound, the sum at zero. -/
def start2 (hid : Vec F S512x1024 .bf16) (prj : Vec F S256x1024 .bf16) : Stat2 F :=
  ⟨k2_pay3 hid prj, k2_pay4, k2_pay5⟩

/-- One tile's update: the new maximum over the old one and the tile's masked logits; the sum rescaled to it and
    increased by the tile's exponentials. The projected rows stay. -/
def step2 (i : grid2.Coords) (wb : Vec F S2048x256 .bf16) (bb : Vec F S1x2048 .f32) (s : Stat2 F) : Stat2 F :=
  ⟨s.y, k2_pay2 (k2_pay7 i s.y wb bb s.m),
    k2_pay1 (k2_pay6 i s.y wb bb) (k2_pay8 i s.y wb bb s.m s.m s.l) (k2_pay9 i s.y wb bb s.m)⟩

section Region

variable (V : (c : Dev nD) → (b : Ref sig .tc) → Buf (Elt F) ((c : Thread nD τ).loc b))

/-! ## The windows' blocks, read off the arrays as the region finds them -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The hidden rows (whole), the projection (whole), the tile's rows of the padded weight and its bias columns. -/
abbrev hidBlk2 (c : Dev nD) (t : Fin cfg2.N) : Vec F S512x1024 .bf16 := iblk2 V c 0 t
abbrev prjBlk2 (c : Dev nD) (t : Fin cfg2.N) : Vec F S256x1024 .bf16 := iblk2 V c 1 t
abbrev wBlk2 (c : Dev nD) (t : Fin cfg2.N) : Vec F S2048x256 .bf16 := iblk2 V c 2 t
abbrev bBlk2 (c : Dev nD) (t : Fin cfg2.N) : Vec F S1x2048 .f32 := iblk2 V c 3 t

/-- The start of a half and one tile's update, at a point of the grid. -/
def startAt2 (c : Dev nD) (t : Fin cfg2.N) : Stat2 F := start2 (hidBlk2 V c t) (prjBlk2 V c t)
def stepAt2 (c : Dev nD) (t : Fin cfg2.N) (s : Stat2 F) : Stat2 F := step2 (grid2.coords t) (wBlk2 V c t) (bBlk2 V c t) s

/-- The n-th point of the grid (n below the number of points). -/
def pt2 (n : ℕ) : Fin cfg2.N := ⟨n % cfg2.N, Nat.mod_lt _ (by decide : 0 < grid2.N)⟩

theorem pt2_val (t : Fin cfg2.N) : pt2 t.val = t := Fin.ext (Nat.mod_eq_of_lt t.isLt)

/-- THE ONLINE FOLD. The statistics after the body at point n: the first tile of a half starts afresh, every
    other tile updates what the tile before it left. -/
def stats2 (c : Dev nD) : ℕ → Stat2 F
  | 0 => stepAt2 V c (pt2 0) (startAt2 V c (pt2 0))
  | n + 1 => stepAt2 V c (pt2 (n + 1)) (if (n + 1) % tilesPerHalf2 = 0 then startAt2 V c (pt2 (n + 1)) else stats2 c n)

theorem stats2_first (c : Dev nD) (n : ℕ) (h : n % tilesPerHalf2 = 0) :
    stats2 V c n = stepAt2 V c (pt2 n) (startAt2 V c (pt2 n)) := by
  cases n with
  | zero => rfl
  | succ n => show stepAt2 V c _ (if _ then _ else _) = _; rw [if_pos h]

theorem stats2_next (c : Dev nD) (n : ℕ) (h : ¬(n + 1) % tilesPerHalf2 = 0) :
    stats2 V c (n + 1) = stepAt2 V c (pt2 (n + 1)) (stats2 V c n) := by
  show stepAt2 V c _ (if _ then _ else _) = _; rw [if_neg h]

theorem stats2_A (c : Dev nD) (t : Fin cfg2.N) (h : t.val % tilesPerHalf2 = 0) :
    stats2 V c t.val = stepAt2 V c t (startAt2 V c t) := by
  rw [stats2_first V c t.val h, pt2_val]

theorem stats2_B (c : Dev nD) (t : Fin cfg2.N) (h : ¬t.val % tilesPerHalf2 = 0) :
    stats2 V c t.val = stepAt2 V c t (stats2 V c (t.val - 1)) := by
  have h0 : t.val ≠ 0 := fun e => h (by rw [e]; exact Nat.zero_mod _)
  have e := stats2_next V c (t.val - 1) (by rw [Nat.sub_one_add_one h0]; exact h)
  rw [Nat.sub_one_add_one h0, pt2_val] at e
  exact e

/-! ## The body's invariant between points: the scratch -/

abbrev scM2 : Memref sig .tc .vmem S512x256 .bf16 := Memref.whole cc2_scratch0

/-- Before the first point the scratch is among the scoped buffers at some contents; after point n it holds the
    projected rows the fold carries. -/
def Φ2 (c : Dev nD) : ℕ → sProp 𝕄
  | 0 => Pipeline.scopedRest (Ix := Unit) (Name := ℕ) (U := UR sig nD τ) (Lvl := ℕ) (Val := Elt F) spec2 c
  | n + 1 => iprop(owns (c : Thread nD τ) scM2 fullShare (stats2 V c n).y
      ∗ Pipeline.scopedRestBut (Ix := Unit) (Name := ℕ) (U := UR sig nD τ) (Lvl := ℕ) (Val := Elt F) spec2 c [cc2_scratch0])

theorem Φ2_succ (c : Dev nD) (n : ℕ) : Φ2 V c (n + 1) = iprop(owns (c : Thread nD τ) scM2 fullShare (stats2 V c n).y
      ∗ Pipeline.scopedRestBut (Ix := Unit) (Name := ℕ) (U := UR sig nD τ) (Lvl := ℕ) (Val := Elt F) spec2 c [cc2_scratch0]) := rfl
/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (stats2 V c t.val).m
    | ⟨5, _⟩ => (stats2 V c t.val).l
  Φ t := Φ2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (stats2 V c t.val).m := by dsimp only [dat2]
theorem after2_5 (c : Dev nD) (t : Fin cfg2.N) : (dat2 V c).after 5 t = (stats2 V c t.val).l := by dsimp only [dat2]

/-- Inside a half (not at its first tile) the point is not the first and the statistics' buffers were not written
    back at the point before: decided over the grid. -/
theorem sched2_4 : ∀ t : Fin cfg2.N, ¬t.val % tilesPerHalf2 = 0 →
    t.val ≠ 0 ∧ (cfg2.win 4).flush ⟨t.val - 1, Nat.lt_of_le_of_lt (Nat.sub_le _ _) t.isLt⟩ = false :=
  (by decide +kernel : ∀ t : Fin grid2.N, ¬t.val % tilesPerHalf2 = 0 →
    t.val ≠ 0 ∧ win2_4.flush ⟨t.val - 1, Nat.lt_of_le_of_lt (Nat.sub_le _ _) t.isLt⟩ = false)
theorem sched2_5 : ∀ t : Fin cfg2.N, ¬t.val % tilesPerHalf2 = 0 →
    t.val ≠ 0 ∧ (cfg2.win 5).flush ⟨t.val - 1, Nat.lt_of_le_of_lt (Nat.sub_le _ _) t.isLt⟩ = false :=
  (by decide +kernel : ∀ t : Fin grid2.N, ¬t.val % tilesPerHalf2 = 0 →
    t.val ≠ 0 ∧ win2_5.flush ⟨t.val - 1, Nat.lt_of_le_of_lt (Nat.sub_le _ _) t.isLt⟩ = false)

end Region

end Cert.KernelIdeal.Hand

end
-- ==== Proof.Stats4Defs.lean ====
/-
  The statistics launch of one vocabulary cluster, as data. Each half of the grid walks `tilesPerHalf4` tiles of the
  cluster's padded weight. At the first tile of a half the hidden rows are projected and rounded into a scratch that
  stays until the half ends, the running maximum starts at the named lower bound and the running sum at zero. Every
  tile then forms its logits from the scratch, the tile's weight rows and its bias columns, masks the columns past the
  cluster's real width to the lower bound, raises the maximum to the tile's row maxima, rescales the sum to the new
  maximum and adds the tile's exponentials. The two statistics' blocks are written back when the half ends.

  This module names that computation: the state a tile leaves (`Stat4`), the start of a half (`start4`), one tile's
  update (`step4`), their fold over the points of the grid (`stats4`), and the proof data of the pipeline whose
  staging contents and scratch invariant are read off the fold (`dat4`, `Φ4`). Nothing is run here.
-/
import proofs.«124427_j55336358642036_2_alg».proof.Proof.Gen.KernelIdeal.Launch
import proofs.«124427_j55336358642036_2_alg».proof.Proof.Gen.KernelIdeal.Skeleton
import proofs.«124427_j55336358642036_2_alg».proof.Proof.Gen.KernelIdeal.Points
import proofs.«124427_j55336358642036_2_alg».proof.Proof.Sizes

set_option maxRecDepth 16384

noncomputable section

namespace Cert.KernelIdeal.Hand

open Cert.KernelIdeal.Gen Cert.Sizes
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The projected rows, the running maximum and the running sum of exponentials. -/
structure Stat4 (F : FTy → Type) where
  y : Vec F S512x64 .bf16
  m : Vec F S1x512x1 .f32
  l : Vec F S1x512x1 .f32

/-- What the first tile of a half starts from: the hidden rows projected and rounded, the maximum at the named
    lower bound, the sum at zero. -/
def start4 (hid : Vec F S512x1024 .bf16) (prj : Vec F S64x1024 .bf16) : Stat4 F :=
  ⟨k4_pay3 hid prj, k4_pay4, k4_pay5⟩

/-- One tile's update: the new maximum over the old one and the tile's masked logits; the sum rescaled to it and
    increased by the tile's exponentials. The projected rows stay. -/
def step4 (i : grid4.Coords) (wb : Vec F S4096x64 .bf16) (bb : Vec F S1x4096 .f32) (s : Stat4 F) : Stat4 F :=
  ⟨s.y, k4_pay2 (k4_pay7 i s.y wb bb s.m),
    k4_pay1 (k4_pay6 i s.y wb bb) (k4_pay8 i s.y wb bb s.m s.m s.l) (k4_pay9 i s.y wb bb s.m)⟩

section Region

variable (V : (c : Dev nD) → (b : Ref sig .tc) → Buf (Elt F) ((c : Thread nD τ).loc b))

/-! ## The windows' blocks, read off the arrays as the region finds them -/

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The hidden rows (whole), the projection (whole), the tile's rows of the padded weight and its bias columns. -/
abbrev hidBlk4 (c : Dev nD) (t : Fin cfg4.N) : Vec F S512x1024 .bf16 := iblk4 V c 0 t
abbrev prjBlk4 (c : Dev nD) (t : Fin cfg4.N) : Vec F S64x1024 .bf16 := iblk4 V c 1 t
abbrev wBlk4 (c : Dev nD) (t : Fin cfg4.N) : Vec F S4096x64 .bf16 := iblk4 V c 2 t
abbrev bBlk4 (c : Dev nD) (t : Fin cfg4.N) : Vec F S1x4096 .f32 := iblk4 V c 3 t

/-- The start of a half and one tile's update, at a point of the grid. -/
def startAt4 (c : Dev nD) (t : Fin cfg4.N) : Stat4 F := start4 (hidBlk4 V c t) (prjBlk4 V c t)
def stepAt4 (c : Dev nD) (t : Fin cfg4.N) (s : Stat4 F) : Stat4 F := step4 (grid4.coords t) (wBlk4 V c t) (bBlk4 V c t) s

/-- The n-th point of the grid (n below the number of points). -/
def pt4 (n : ℕ) : Fin cfg4.N := ⟨n % cfg4.N, Nat.mod_lt _ (by decide : 0 < grid4.N)⟩

theorem pt4_val (t : Fin cfg4.N) : pt4 t.val = t := Fin.ext (Nat.mod_eq_of_lt t.isLt)

/-- THE ONLINE FOLD. The statistics after the body at point n: the first tile of a half starts afresh, every
    other tile updates what the tile before it left. -/
def stats4 (c : Dev nD) : ℕ → Stat4 F
  | 0 => stepAt4 V c (pt4 0) (startAt4 V c (pt4 0))
  | n + 1 => stepAt4 V c (pt4 (n + 1)) (if (n + 1) % tilesPerHalf4 = 0 then startAt4 V c (pt4 (n + 1)) else stats4 c n)

theorem stats4_first (c : Dev nD) (n : ℕ) (h : n % tilesPerHalf4 = 0) :
    stats4 V c n = stepAt4 V c (pt4 n) (startAt4 V c (pt4 n)) := by
  cases n with
  | zero => rfl
  | succ n => show stepAt4 V c _ (if _ then _ else _) = _; rw [if_pos h]

theorem stats4_next (c : Dev nD) (n : ℕ) (h : ¬(n + 1) % tilesPerHalf4 = 0) :
    stats4 V c (n + 1) = stepAt4 V c (pt4 (n + 1)) (stats4 V c n) := by
  show stepAt4 V c _ (if _ then _ else _) = _; rw [if_neg h]

theorem stats4_A (c : Dev nD) (t : Fin cfg4.N) (h : t.val % tilesPerHalf4 = 0) :
    stats4 V c t.val = stepAt4 V c t (startAt4 V c t) := by
  rw [stats4_first V c t.val h, pt4_val]

theorem stats4_B (c : Dev nD) (t : Fin cfg4.N) (h : ¬t.val % tilesPerHalf4 = 0) :
    stats4 V c t.val = stepAt4 V c t (stats4 V c (t.val - 1)) := by
  have h0 : t.val ≠ 0 := fun e => h (by rw [e]; exact Nat.zero_mod _)
  have e := stats4_next V c (t.val - 1) (by rw [Nat.sub_one_add_one h0]; exact h)
  rw [Nat.sub_one_add_one h0, pt4_val] at e
  exact e

/-! ## The body's invariant between points: the scratch -/

abbrev scM4 : Memref sig .tc .vmem S512x64 .bf16 := Memref.whole cc4_scratch0

/-- Before the first point the scratch is among the scoped buffers at some contents; after point n it holds the
    projected rows the fold carries. -/
def Φ4 (c : Dev nD) : ℕ → sProp 𝕄
  | 0 => Pipeline.scopedRest (Ix := Unit) (Name := ℕ) (U := UR sig nD τ) (Lvl := ℕ) (Val := Elt F) spec4 c
  | n + 1 => iprop(owns (c : Thread nD τ) scM4 fullShare (stats4 V c n).y
      ∗ Pipeline.scopedRestBut (Ix := Unit) (Name := ℕ) (U := UR sig nD τ) (Lvl := ℕ) (Val := Elt F) spec4 c [cc4_scratch0])

theorem Φ4_succ (c : Dev nD) (n : ℕ) : Φ4 V c (n + 1) = iprop(owns (c : Thread nD τ) scM4 fullShare (stats4 V c n).y
      ∗ Pipeline.scopedRestBut (Ix := Unit) (Name := ℕ) (U := UR sig nD τ) (Lvl := ℕ) (Val := Elt F) spec4 c [cc4_scratch0]) := rfl
/-! ## The pipeline's proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (stats4 V c t.val).m
    | ⟨5, _⟩ => (stats4 V c t.val).l
  Φ t := Φ4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (stats4 V c t.val).m := by dsimp only [dat4]
theorem after4_5 (c : Dev nD) (t : Fin cfg4.N) : (dat4 V c).after 5 t = (stats4 V c t.val).l := by dsimp only [dat4]

/-- Inside a half (not at its first tile) the point is not the first and the statistics' buffers were not written
    back at the point before: decided over the grid. -/
theorem sched4_4 : ∀ t : Fin cfg4.N, ¬t.val % tilesPerHalf4 = 0 →
    t.val ≠ 0 ∧ (cfg4.win 4).flush ⟨t.val - 1, Nat.lt_of_le_of_lt (Nat.sub_le _ _) t.isLt⟩ = false :=
  (by decide +kernel : ∀ t : Fin grid4.N, ¬t.val % tilesPerHalf4 = 0 →
    t.val ≠ 0 ∧ win4_4.flush ⟨t.val - 1, Nat.lt_of_le_of_lt (Nat.sub_le _ _) t.isLt⟩ = false)
theorem sched4_5 : ∀ t : Fin cfg4.N, ¬t.val % tilesPerHalf4 = 0 →
    t.val ≠ 0 ∧ (cfg4.win 5).flush ⟨t.val - 1, Nat.lt_of_le_of_lt (Nat.sub_le _ _) t.isLt⟩ = false :=
  (by decide +kernel : ∀ t : Fin grid4.N, ¬t.val % tilesPerHalf4 = 0 →
    t.val ≠ 0 ∧ win4_5.flush ⟨t.val - 1, Nat.lt_of_le_of_lt (Nat.sub_le _ _) t.isLt⟩ = false)

end Region

end Cert.KernelIdeal.Hand

end
-- ==== Proof.Stats6Defs.lean ====
/-
  The statistics launch of one vocabulary cluster, as data. Each half of the grid walks `tilesPerHalf6` tiles of the
  cluster's padded weight. At the first tile of a half the hidden rows are projected and rounded into a scratch that
  stays until the half ends, the running maximum starts at the named lower bound and the running sum at zero. Every
  tile then forms its logits from the scratch, the tile's weight rows and its bias columns, masks the columns past the
  cluster's real width to the lower bound, raises the maximum to the tile's row maxima, rescales the sum to the new
  maximum and adds the tile's exponentials. The two statistics' blocks are written back when the half ends.

  This module names that computation: the state a tile leaves (`Stat6`), the start of a half (`start6`), one tile's
  update (`step6`), their fold over the points of the grid (`stats6`), and the proof data of the pipeline whose
  staging contents and scratch invariant are read off the fold (`dat6`, `Φ6`). Nothing is run here.
-/
import proofs.«124427_j55336358642036_2_alg».proof.Proof.Gen.KernelIdeal.Launch
import proofs.«124427_j55336358642036_2_alg».proof.Proof.Gen.KernelIdeal.Skeleton
import proofs.«124427_j55336358642036_2_alg».proof.Proof.Gen.KernelIdeal.Points
import proofs.«124427_j55336358642036_2_alg».proof.Proof.Sizes

set_option maxRecDepth 16384

noncomputable section

namespace Cert.KernelIdeal.Hand

open Cert.KernelIdeal.Gen Cert.Sizes
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The projected rows, the running maximum and the running sum of exponentials. -/
structure Stat6 (F : FTy → Type) where
  y : Vec F S512x16 .bf16
  m : Vec F S1x512x1 .f32
  l : Vec F S1x512x1 .f32

/-- What the first tile of a half starts from: the hidden rows projected and rounded, the maximum at the named
    lower bound, the sum at zero. -/
def start6 (hid : Vec F S512x1024 .bf16) (prj : Vec F S16x1024 .bf16) : Stat6 F :=
  ⟨k6_pay3 hid prj, k6_pay4, k6_pay5⟩

/-- One tile's update: the new maximum over the old one and the tile's masked logits; the sum rescaled to it and
    increased by the tile's exponentials. The projected rows stay. -/
def step6 (i : grid6.Coords) (wb : Vec F S4096x16 .bf16) (bb : Vec F S1x4096 .f32) (s : Stat6 F) : Stat6 F :=
  ⟨s.y, k6_pay2 (k6_pay7 i s.y wb bb s.m),
    k6_pay1 (k6_pay6 i s.y wb bb) (k6_pay8 i s.y wb bb s.m s.m s.l) (k6_pay9 i s.y wb bb s.m)⟩

section Region

variable (V : (c : Dev nD) → (b : Ref sig .tc) → Buf (Elt F) ((c : Thread nD τ).loc b))

/-! ## The windows' blocks, read off the arrays as the region finds them -/

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The hidden rows (whole), the projection (whole), the tile's rows of the padded weight and its bias columns. -/
abbrev hidBlk6 (c : Dev nD) (t : Fin cfg6.N) : Vec F S512x1024 .bf16 := iblk6 V c 0 t
abbrev prjBlk6 (c : Dev nD) (t : Fin cfg6.N) : Vec F S16x1024 .bf16 := iblk6 V c 1 t
abbrev wBlk6 (c : Dev nD) (t : Fin cfg6.N) : Vec F S4096x16 .bf16 := iblk6 V c 2 t
abbrev bBlk6 (c : Dev nD) (t : Fin cfg6.N) : Vec F S1x4096 .f32 := iblk6 V c 3 t

/-- The start of a half and one tile's update, at a point of the grid. -/
def startAt6 (c : Dev nD) (t : Fin cfg6.N) : Stat6 F := start6 (hidBlk6 V c t) (prjBlk6 V c t)
def stepAt6 (c : Dev nD) (t : Fin cfg6.N) (s : Stat6 F) : Stat6 F := step6 (grid6.coords t) (wBlk6 V c t) (bBlk6 V c t) s

/-- The n-th point of the grid (n below the number of points). -/
def pt6 (n : ℕ) : Fin cfg6.N := ⟨n % cfg6.N, Nat.mod_lt _ (by decide : 0 < grid6.N)⟩

theorem pt6_val (t : Fin cfg6.N) : pt6 t.val = t := Fin.ext (Nat.mod_eq_of_lt t.isLt)

/-- THE ONLINE FOLD. The statistics after the body at point n: the first tile of a half starts afresh, every
    other tile updates what the tile before it left. -/
def stats6 (c : Dev nD) : ℕ → Stat6 F
  | 0 => stepAt6 V c (pt6 0) (startAt6 V c (pt6 0))
  | n + 1 => stepAt6 V c (pt6 (n + 1)) (if (n + 1) % tilesPerHalf6 = 0 then startAt6 V c (pt6 (n + 1)) else stats6 c n)

theorem stats6_first (c : Dev nD) (n : ℕ) (h : n % tilesPerHalf6 = 0) :
    stats6 V c n = stepAt6 V c (pt6 n) (startAt6 V c (pt6 n)) := by
  cases n with
  | zero => rfl
  | succ n => show stepAt6 V c _ (if _ then _ else _) = _; rw [if_pos h]

theorem stats6_next (c : Dev nD) (n : ℕ) (h : ¬(n + 1) % tilesPerHalf6 = 0) :
    stats6 V c (n + 1) = stepAt6 V c (pt6 (n + 1)) (stats6 V c n) := by
  show stepAt6 V c _ (if _ then _ else _) = _; rw [if_neg h]

theorem stats6_A (c : Dev nD) (t : Fin cfg6.N) (h : t.val % tilesPerHalf6 = 0) :
    stats6 V c t.val = stepAt6 V c t (startAt6 V c t) := by
  rw [stats6_first V c t.val h, pt6_val]

theorem stats6_B (c : Dev nD) (t : Fin cfg6.N) (h : ¬t.val % tilesPerHalf6 = 0) :
    stats6 V c t.val = stepAt6 V c t (stats6 V c (t.val - 1)) := by
  have h0 : t.val ≠ 0 := fun e => h (by rw [e]; exact Nat.zero_mod _)
  have e := stats6_next V c (t.val - 1) (by rw [Nat.sub_one_add_one h0]; exact h)
  rw [Nat.sub_one_add_one h0, pt6_val] at e
  exact e

/-! ## The body's invariant between points: the scratch -/

abbrev scM6 : Memref sig .tc .vmem S512x16 .bf16 := Memref.whole cc6_scratch0

/-- Before the first point the scratch is among the scoped buffers at some contents; after point n it holds the
    projected rows the fold carries. -/
def Φ6 (c : Dev nD) : ℕ → sProp 𝕄
  | 0 => Pipeline.scopedRest (Ix := Unit) (Name := ℕ) (U := UR sig nD τ) (Lvl := ℕ) (Val := Elt F) spec6 c
  | n + 1 => iprop(owns (c : Thread nD τ) scM6 fullShare (stats6 V c n).y
      ∗ Pipeline.scopedRestBut (Ix := Unit) (Name := ℕ) (U := UR sig nD τ) (Lvl := ℕ) (Val := Elt F) spec6 c [cc6_scratch0])

theorem Φ6_succ (c : Dev nD) (n : ℕ) : Φ6 V c (n + 1) = iprop(owns (c : Thread nD τ) scM6 fullShare (stats6 V c n).y
      ∗ Pipeline.scopedRestBut (Ix := Unit) (Name := ℕ) (U := UR sig nD τ) (Lvl := ℕ) (Val := Elt F) spec6 c [cc6_scratch0]) := rfl
/-! ## The pipeline's proof data -/

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => (stats6 V c t.val).m
    | ⟨5, _⟩ => (stats6 V c t.val).l
  Φ t := Φ6 V c t.val
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = (stats6 V c t.val).m := by dsimp only [dat6]
theorem after6_5 (c : Dev nD) (t : Fin cfg6.N) : (dat6 V c).after 5 t = (stats6 V c t.val).l := by dsimp only [dat6]

/-- Inside a half (not at its first tile) the point is not the first and the statistics' buffers were not written
    back at the point before: decided over the grid. -/
theorem sched6_4 : ∀ t : Fin cfg6.N, ¬t.val % tilesPerHalf6 = 0 →
    t.val ≠ 0 ∧ (cfg6.win 4).flush ⟨t.val - 1, Nat.lt_of_le_of_lt (Nat.sub_le _ _) t.isLt⟩ = false :=
  (by decide +kernel : ∀ t : Fin grid6.N, ¬t.val % tilesPerHalf6 = 0 →
    t.val ≠ 0 ∧ win6_4.flush ⟨t.val - 1, Nat.lt_of_le_of_lt (Nat.sub_le _ _) t.isLt⟩ = false)
theorem sched6_5 : ∀ t : Fin cfg6.N, ¬t.val % tilesPerHalf6 = 0 →
    t.val ≠ 0 ∧ (cfg6.win 5).flush ⟨t.val - 1, Nat.lt_of_le_of_lt (Nat.sub_le _ _) t.isLt⟩ = false :=
  (by decide +kernel : ∀ t : Fin grid6.N, ¬t.val % tilesPerHalf6 = 0 →
    t.val ≠ 0 ∧ win6_5.flush ⟨t.val - 1, Nat.lt_of_le_of_lt (Nat.sub_le _ _) t.isLt⟩ = false)

end Region

end Cert.KernelIdeal.Hand

end
-- ==== Proof.Write1Defs.lean ====
/-
  The write launch of vocabulary cluster 1 (launch 3), its data: at grid point (h, t) the body, when t is the half's
  first tile, projects the hidden rows (hidden times the projection's transpose, rounded to bf16) into a scratch buffer
  that it keeps for the rest of the half; at every point it forms the tile's logits from the scratch, the tile's weight
  rows and its bias, masks the columns past the cluster's last real column, and writes logit − m − log l + extra to the
  output's block (0, h·T + t). The hidden rows and the projection are one block each, the same at every point, so the
  scratch holds the same projected rows from the first point on.

  Here: each window's block as read off the arrays the launch finds, the scratch's contents, what the body leaves in
  the output window's buffer, the region invariant (the scratch owned at the projected rows after the first point),
  and the pipeline's proof data with its projections.
-/
import proofs.«124427_j55336358642036_2_alg».proof.Proof.Gen.KernelIdeal.Launch
import proofs.«124427_j55336358642036_2_alg».proof.Proof.Gen.KernelIdeal.Skeleton
import Idealize.ShloMosaic.Lib.Pipeline.FrameBody

set_option maxRecDepth 16384

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks, the scratch, and what the body leaves -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch operand: a whole scoped buffer of the kernel's own. -/
abbrev scM1 : Memref sig .tc .vmem S512x1024 .bf16 := Memref.whole cc1_scratch0

/-- The grid's first point. -/
abbrev pt1_0 : Fin cfg1.N := ⟨0, by rw [show cfg1.N = grid1.N from rfl, N_1]; decide⟩

/-- The projected hidden rows (hidden times the projection's transpose, rounded to bf16): what the scratch holds
    from the first point on. -/
def y1 (c : Dev nD) : Vec F S512x1024 .bf16 := k1_pay1 (iblk1 V c 0 pt1_0) (iblk1 V c 1 pt1_0)

/-- What the body leaves in the output window's buffer at point t: the masked logits of the tile, less the row
    maximum and the logarithm of the row sum, plus the row's extra term. -/
def out1_7 (c : Dev nD) (t : Fin cfg1.N) : Vec F S512x2048 .f32 :=
  k1_pay2 (grid1.coords t) (y1 V c) (iblk1 V c 2 t) (iblk1 V c 3 t) (iblk1 V c 4 t) (iblk1 V c 5 t) (iblk1 V c 6 t)

/-! ## The region invariant -/

/-- The region invariant before position n: at the first point the scoped rest as the region finds it; afterwards
    the scratch at the projected hidden rows beside the scoped rest without it. -/
def Phi1 (c : Dev nD) : ℕ → sProp 𝕄
  | 0 => Pipeline.scopedRest (Ix := Unit) (Name := ℕ) (U := UR sig nD τ) (Lvl := ℕ) (Val := Elt F) spec1 c
  | _ + 1 => iprop(owns (c : Thread nD τ) scM1 fullShare (y1 V c) ∗ Pipeline.scopedRestBut (Ix := Unit) (Name := ℕ) (U := UR sig nD τ) (Lvl := ℕ) (Val := Elt F) spec1 c [cc1_scratch0])

theorem Phi1_zero (c : Dev nD) (n : ℕ) (hn : n = 0) : Phi1 V c n = Pipeline.scopedRest (Ix := Unit) (Name := ℕ) (U := UR sig nD τ) (Lvl := ℕ) (Val := Elt F) spec1 c := by
  subst hn; rfl

theorem Phi1_pos (c : Dev nD) (n : ℕ) (hn : n ≠ 0) :
    Phi1 V c n = iprop(owns (c : Thread nD τ) scM1 fullShare (y1 V c) ∗ Pipeline.scopedRestBut (Ix := Unit) (Name := ℕ) (U := UR sig nD τ) (Lvl := ℕ) (Val := Elt F) spec1 c [cc1_scratch0]) := by
  cases n with
  | zero => exact absurd rfl hn
  | succ n => rfl

/-! ## The pipeline's proof data -/

/-- The proof data of the pipeline on core c: the arrays as the region finds them; after the body at point t each
    input's buffer at its block and the output's at out1_7; the invariant Phi1; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 V c t
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 V c t := by dsimp only [dat1]

end Cert.KernelIdeal.Hand

end
-- ==== Proof.Write3Defs.lean ====
/-
  The write launch of vocabulary cluster 1 (launch 3), its data: at grid point (h, t) the body, when t is the half's
  first tile, projects the hidden rows (hidden times the projection's transpose, rounded to bf16) into a scratch buffer
  that it keeps for the rest of the half; at every point it forms the tile's logits from the scratch, the tile's weight
  rows and its bias, masks the columns past the cluster's last real column, and writes logit − m − log l + extra to the
  output's block (0, h·T + t). The hidden rows and the projection are one block each, the same at every point, so the
  scratch holds the same projected rows from the first point on.

  Here: each window's block as read off the arrays the launch finds, the scratch's contents, what the body leaves in
  the output window's buffer, the region invariant (the scratch owned at the projected rows after the first point),
  and the pipeline's proof data with its projections.
-/
import proofs.«124427_j55336358642036_2_alg».proof.Proof.Gen.KernelIdeal.Launch
import proofs.«124427_j55336358642036_2_alg».proof.Proof.Gen.KernelIdeal.Skeleton
import Idealize.ShloMosaic.Lib.Pipeline.FrameBody

set_option maxRecDepth 16384

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks, the scratch, and what the body leaves -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The scratch operand: a whole scoped buffer of the kernel's own. -/
abbrev scM3 : Memref sig .tc .vmem S512x256 .bf16 := Memref.whole cc3_scratch0

/-- The grid's first point. -/
abbrev pt3_0 : Fin cfg3.N := ⟨0, by rw [show cfg3.N = grid3.N from rfl, N_3]; decide⟩

/-- The projected hidden rows (hidden times the projection's transpose, rounded to bf16): what the scratch holds
    from the first point on. -/
def y3 (c : Dev nD) : Vec F S512x256 .bf16 := k3_pay1 (iblk3 V c 0 pt3_0) (iblk3 V c 1 pt3_0)

/-- What the body leaves in the output window's buffer at point t: the masked logits of the tile, less the row
    maximum and the logarithm of the row sum, plus the row's extra term. -/
def out3_7 (c : Dev nD) (t : Fin cfg3.N) : Vec F S512x2048 .f32 :=
  k3_pay2 (grid3.coords t) (y3 V c) (iblk3 V c 2 t) (iblk3 V c 3 t) (iblk3 V c 4 t) (iblk3 V c 5 t) (iblk3 V c 6 t)

/-! ## The region invariant -/

/-- The region invariant before position n: at the first point the scoped rest as the region finds it; afterwards
    the scratch at the projected hidden rows beside the scoped rest without it. -/
def Phi3 (c : Dev nD) : ℕ → sProp 𝕄
  | 0 => Pipeline.scopedRest (Ix := Unit) (Name := ℕ) (U := UR sig nD τ) (Lvl := ℕ) (Val := Elt F) spec3 c
  | _ + 1 => iprop(owns (c : Thread nD τ) scM3 fullShare (y3 V c) ∗ Pipeline.scopedRestBut (Ix := Unit) (Name := ℕ) (U := UR sig nD τ) (Lvl := ℕ) (Val := Elt F) spec3 c [cc3_scratch0])

theorem Phi3_zero (c : Dev nD) (n : ℕ) (hn : n = 0) : Phi3 V c n = Pipeline.scopedRest (Ix := Unit) (Name := ℕ) (U := UR sig nD τ) (Lvl := ℕ) (Val := Elt F) spec3 c := by
  subst hn; rfl

theorem Phi3_pos (c : Dev nD) (n : ℕ) (hn : n ≠ 0) :
    Phi3 V c n = iprop(owns (c : Thread nD τ) scM3 fullShare (y3 V c) ∗ Pipeline.scopedRestBut (Ix := Unit) (Name := ℕ) (U := UR sig nD τ) (Lvl := ℕ) (Val := Elt F) spec3 c [cc3_scratch0]) := by
  cases n with
  | zero => exact absurd rfl hn
  | succ n => rfl

/-! ## The pipeline's proof data -/

/-- The proof data of the pipeline on core c: the arrays as the region finds them; after the body at point t each
    input's buffer at its block and the output's at out3_7; the invariant Phi3; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 V c t
  Φ t := Phi3 V c t.val
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 V c t := by dsimp only [dat3]

end Cert.KernelIdeal.Hand

end
-- ==== Proof.Write5Defs.lean ====
/-
  The write launch of vocabulary cluster 1 (launch 3), its data: at grid point (h, t) the body, when t is the half's
  first tile, projects the hidden rows (hidden times the projection's transpose, rounded to bf16) into a scratch buffer
  that it keeps for the rest of the half; at every point it forms the tile's logits from the scratch, the tile's weight
  rows and its bias, masks the columns past the cluster's last real column, and writes logit − m − log l + extra to the
  output's block (0, h·T + t). The hidden rows and the projection are one block each, the same at every point, so the
  scratch holds the same projected rows from the first point on.

  Here: each window's block as read off the arrays the launch finds, the scratch's contents, what the body leaves in
  the output window's buffer, the region invariant (the scratch owned at the projected rows after the first point),
  and the pipeline's proof data with its projections.
-/
import proofs.«124427_j55336358642036_2_alg».proof.Proof.Gen.KernelIdeal.Launch
import proofs.«124427_j55336358642036_2_alg».proof.Proof.Gen.KernelIdeal.Skeleton
import Idealize.ShloMosaic.Lib.Pipeline.FrameBody

set_option maxRecDepth 16384

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks, the scratch, and what the body leaves -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The scratch operand: a whole scoped buffer of the kernel's own. -/
abbrev scM5 : Memref sig .tc .vmem S512x64 .bf16 := Memref.whole cc5_scratch0

/-- The grid's first point. -/
abbrev pt5_0 : Fin cfg5.N := ⟨0, by rw [show cfg5.N = grid5.N from rfl, N_5]; decide⟩

/-- The projected hidden rows (hidden times the projection's transpose, rounded to bf16): what the scratch holds
    from the first point on. -/
def y5 (c : Dev nD) : Vec F S512x64 .bf16 := k5_pay1 (iblk5 V c 0 pt5_0) (iblk5 V c 1 pt5_0)

/-- What the body leaves in the output window's buffer at point t: the masked logits of the tile, less the row
    maximum and the logarithm of the row sum, plus the row's extra term. -/
def out5_7 (c : Dev nD) (t : Fin cfg5.N) : Vec F S512x4096 .f32 :=
  k5_pay2 (grid5.coords t) (y5 V c) (iblk5 V c 2 t) (iblk5 V c 3 t) (iblk5 V c 4 t) (iblk5 V c 5 t) (iblk5 V c 6 t)

/-! ## The region invariant -/

/-- The region invariant before position n: at the first point the scoped rest as the region finds it; afterwards
    the scratch at the projected hidden rows beside the scoped rest without it. -/
def Phi5 (c : Dev nD) : ℕ → sProp 𝕄
  | 0 => Pipeline.scopedRest (Ix := Unit) (Name := ℕ) (U := UR sig nD τ) (Lvl := ℕ) (Val := Elt F) spec5 c
  | _ + 1 => iprop(owns (c : Thread nD τ) scM5 fullShare (y5 V c) ∗ Pipeline.scopedRestBut (Ix := Unit) (Name := ℕ) (U := UR sig nD τ) (Lvl := ℕ) (Val := Elt F) spec5 c [cc5_scratch0])

theorem Phi5_zero (c : Dev nD) (n : ℕ) (hn : n = 0) : Phi5 V c n = Pipeline.scopedRest (Ix := Unit) (Name := ℕ) (U := UR sig nD τ) (Lvl := ℕ) (Val := Elt F) spec5 c := by
  subst hn; rfl

theorem Phi5_pos (c : Dev nD) (n : ℕ) (hn : n ≠ 0) :
    Phi5 V c n = iprop(owns (c : Thread nD τ) scM5 fullShare (y5 V c) ∗ Pipeline.scopedRestBut (Ix := Unit) (Name := ℕ) (U := UR sig nD τ) (Lvl := ℕ) (Val := Elt F) spec5 c [cc5_scratch0]) := by
  cases n with
  | zero => exact absurd rfl hn
  | succ n => rfl

/-! ## The pipeline's proof data -/

/-- The proof data of the pipeline on core c: the arrays as the region finds them; after the body at point t each
    input's buffer at its block and the output's at out5_7; the invariant Phi5; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 V c t
  Φ t := Phi5 V c t.val
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 V c t := by dsimp only [dat5]

end Cert.KernelIdeal.Hand

end
-- ==== Proof.Write7Defs.lean ====
/-
  The write launch of vocabulary cluster 1 (launch 3), its data: at grid point (h, t) the body, when t is the half's
  first tile, projects the hidden rows (hidden times the projection's transpose, rounded to bf16) into a scratch buffer
  that it keeps for the rest of the half; at every point it forms the tile's logits from the scratch, the tile's weight
  rows and its bias, masks the columns past the cluster's last real column, and writes logit − m − log l + extra to the
  output's block (0, h·T + t). The hidden rows and the projection are one block each, the same at every point, so the
  scratch holds the same projected rows from the first point on.

  Here: each window's block as read off the arrays the launch finds, the scratch's contents, what the body leaves in
  the output window's buffer, the region invariant (the scratch owned at the projected rows after the first point),
  and the pipeline's proof data with its projections.
-/
import proofs.«124427_j55336358642036_2_alg».proof.Proof.Gen.KernelIdeal.Launch
import proofs.«124427_j55336358642036_2_alg».proof.Proof.Gen.KernelIdeal.Skeleton
import Idealize.ShloMosaic.Lib.Pipeline.FrameBody

set_option maxRecDepth 16384

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks, the scratch, and what the body leaves -/

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The scratch operand: a whole scoped buffer of the kernel's own. -/
abbrev scM7 : Memref sig .tc .vmem S512x16 .bf16 := Memref.whole cc7_scratch0

/-- The grid's first point. -/
abbrev pt7_0 : Fin cfg7.N := ⟨0, by rw [show cfg7.N = grid7.N from rfl, N_7]; decide⟩

/-- The projected hidden rows (hidden times the projection's transpose, rounded to bf16): what the scratch holds
    from the first point on. -/
def y7 (c : Dev nD) : Vec F S512x16 .bf16 := k7_pay1 (iblk7 V c 0 pt7_0) (iblk7 V c 1 pt7_0)

/-- What the body leaves in the output window's buffer at point t: the masked logits of the tile, less the row
    maximum and the logarithm of the row sum, plus the row's extra term. -/
def out7_7 (c : Dev nD) (t : Fin cfg7.N) : Vec F S512x4096 .f32 :=
  k7_pay2 (grid7.coords t) (y7 V c) (iblk7 V c 2 t) (iblk7 V c 3 t) (iblk7 V c 4 t) (iblk7 V c 5 t) (iblk7 V c 6 t)

/-! ## The region invariant -/

/-- The region invariant before position n: at the first point the scoped rest as the region finds it; afterwards
    the scratch at the projected hidden rows beside the scoped rest without it. -/
def Phi7 (c : Dev nD) : ℕ → sProp 𝕄
  | 0 => Pipeline.scopedRest (Ix := Unit) (Name := ℕ) (U := UR sig nD τ) (Lvl := ℕ) (Val := Elt F) spec7 c
  | _ + 1 => iprop(owns (c : Thread nD τ) scM7 fullShare (y7 V c) ∗ Pipeline.scopedRestBut (Ix := Unit) (Name := ℕ) (U := UR sig nD τ) (Lvl := ℕ) (Val := Elt F) spec7 c [cc7_scratch0])

theorem Phi7_zero (c : Dev nD) (n : ℕ) (hn : n = 0) : Phi7 V c n = Pipeline.scopedRest (Ix := Unit) (Name := ℕ) (U := UR sig nD τ) (Lvl := ℕ) (Val := Elt F) spec7 c := by
  subst hn; rfl

theorem Phi7_pos (c : Dev nD) (n : ℕ) (hn : n ≠ 0) :
    Phi7 V c n = iprop(owns (c : Thread nD τ) scM7 fullShare (y7 V c) ∗ Pipeline.scopedRestBut (Ix := Unit) (Name := ℕ) (U := UR sig nD τ) (Lvl := ℕ) (Val := Elt F) spec7 c [cc7_scratch0]) := by
  cases n with
  | zero => exact absurd rfl hn
  | succ n => rfl

/-! ## The pipeline's proof data -/

/-- The proof data of the pipeline on core c: the arrays as the region finds them; after the body at point t each
    input's buffer at its block and the output's at out7_7; the invariant Phi7; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 V c t
  Φ t := Phi7 V c t.val
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = out7_7 V c t := by dsimp only [dat7]

end Cert.KernelIdeal.Hand

end
-- ==== Proof.Assemble.lean ====
/- The spine of the kernel program's run, first half: what each of the eight regions leaves in the unscoped buffers, stage by
   stage, as concrete contents for the valuation chain; the proof data family; the thread state between items; and one
   construction of a region's record over that thread state, which serves every region. -/
import proofs.«124427_j55336358642036_2_alg».proof.Proof.RegionsIdealP
import proofs.«124427_j55336358642036_2_alg».proof.Proof.Stats0Defs
import proofs.«124427_j55336358642036_2_alg».proof.Proof.Stats2Defs
import proofs.«124427_j55336358642036_2_alg».proof.Proof.Stats4Defs
import proofs.«124427_j55336358642036_2_alg».proof.Proof.Stats6Defs
import proofs.«124427_j55336358642036_2_alg».proof.Proof.Write1Defs
import proofs.«124427_j55336358642036_2_alg».proof.Proof.Write3Defs
import proofs.«124427_j55336358642036_2_alg».proof.Proof.Write5Defs
import proofs.«124427_j55336358642036_2_alg».proof.Proof.Write7Defs
import Idealize.ShloMosaic.Lib.Pipeline.FrameSuffix
import Idealize.ShloMosaic.Lib.Pipeline.RegionsLoop
import Idealize.ShloMosaic.Lib.Tactic

set_option maxRecDepth 16384

noncomputable section

namespace Cert.KernelIdeal.Hand

open Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

/-! ## The fixed parameters -/

abbrev 𝒱₀ : Variants := Variants.none
/-- No core owes another anything: no level is assigned. -/
abbrev L : GSem nD τ sig → Finset Unit := fun _ => ∅
abbrev lv : GSem nD τ sig → Unit → ℕ := fun _ _ => 0

/-- A boundary's contents read at the TensorCore's references: the form a region's proof data take them in. -/
abbrev rd (W : Dev nD → Valuation τ sig (Elt F)) : (c : Dev nD) → (b : Ref sig .tc) → Buf (Elt F) ((c : Thread nD τ).loc b) :=
  fun c b => W c b

/-! ## What a region leaves in the unscoped buffers

A region entered at contents `Vin` leaves each of its windows' arrays at the fold of its write-backs (`Dat.arrAt … N`) and
every other buffer untouched. An input window is never written back, so its array too is left as found: the contents left
differ from `Vin` only at the output windows' arrays. -/

section Left

variable {cfg : Cfg sig Λ₀} {c : Dev nD} (dat : Dat τ (Elt F) Unit ℕ (UR sig nD τ) ℕ cfg c) (Vin : Valuation τ sig (Elt F))

/-- The contents the region leaves. -/
def left : Valuation τ sig (Elt F) := Pipeline.withArrays cfg.spec c Vin fun w => dat.arrAt w cfg.N

theorem left_arr (hinj : Function.Injective (Pipeline.arrRef cfg.spec)) (w : Fin cfg.W) :
    left dat Vin (Proc.devRef .tc (Pipeline.arrRef cfg.spec w)) = dat.arrAt w cfg.N :=
  Pipeline.withArrays_arr cfg.spec hinj c Vin _ w

/-- Away from the output windows' arrays the region leaves what it found. -/
theorem left_of_not_out (hinj : Function.Injective (Pipeline.arrRef cfg.spec))
    (hA : ∀ w, dat.A w = Vin (Proc.devRef .tc (Pipeline.arrRef cfg.spec w)))
    (b : Ref sig .tc) (hb : ∀ w, (cfg.win w).isOut = true → Pipeline.arrRef cfg.spec w ≠ b) :
    left dat Vin (Proc.devRef .tc b) = Vin (Proc.devRef .tc b) := by
  by_cases h : ∃ w, Pipeline.arrRef cfg.spec w = b
  · obtain ⟨w, rfl⟩ := h
    have hin : (cfg.win w).isOut = false := by
      cases e : (cfg.win w).isOut with
      | false => rfl
      | true => exact absurd rfl (hb w e)
    rw [left_arr dat Vin hinj w, dat.arrAt_in w hin, hA w]
  · exact Pipeline.withArrays_of_ne cfg.spec c Vin _ b fun w e => h ⟨w, e⟩

end Left

/-- A valuation overwritten at two references with `L`'s values there is `L` wherever `L` agrees with it off the two. -/
theorem upd2_eq (Vin Lf : Valuation τ sig (Elt F)) (r0 r1 : Ref sig .tc)
    (h : ∀ b : Ref sig .tc, b ≠ r0 → b ≠ r1 → Lf (Proc.devRef .tc b) = Vin (Proc.devRef .tc b)) (b : Ref sig .tc) :
    Function.update (Function.update Vin (Proc.devRef .tc r0) (Lf (Proc.devRef .tc r0))) (Proc.devRef .tc r1) (Lf (Proc.devRef .tc r1))
      (Proc.devRef .tc b) = Lf (Proc.devRef .tc b) := by
  by_cases h1 : b = r1
  · subst h1; exact Function.update_self _ _ _
  rw [Function.update_of_ne (StableHlo.devRef_ne_of_ne h1)]
  by_cases h0 : b = r0
  · subst h0; exact Function.update_self _ _ _
  rw [Function.update_of_ne (StableHlo.devRef_ne_of_ne h0)]
  exact (h b h0 h1).symm

/-- The same at one reference. -/
theorem upd1_eq (Vin Lf : Valuation τ sig (Elt F)) (r0 : Ref sig .tc)
    (h : ∀ b : Ref sig .tc, b ≠ r0 → Lf (Proc.devRef .tc b) = Vin (Proc.devRef .tc b)) (b : Ref sig .tc) :
    Function.update Vin (Proc.devRef .tc r0) (Lf (Proc.devRef .tc r0)) (Proc.devRef .tc b) = Lf (Proc.devRef .tc b) := by
  by_cases h0 : b = r0
  · subst h0; exact Function.update_self _ _ _
  rw [Function.update_of_ne (StableHlo.devRef_ne_of_ne h0)]
  exact (h b h0).symm

/-! ## The regions' results, stage by stage

Item J's valuation `VJ m outs` reads the unknowns `outs` only at the regions before it, so each region's result is defined
from the valuation before it at the results already defined: no circle. -/

variable (m : (ℓ : Loc nD τ sig) → Buf (Elt F) ℓ)

/-- What region 0 leaves, from the contents before it. -/
def W6 (c : Dev nD) : Valuation τ sig (Elt F) := left (dat0 (rd (V5 m)) c) (V5 m c)
/-- The regions' results up to region 0. -/
def o6 : Outs (F := F) := fun J r c => W6 m c r

/-- What region 1 leaves, from the contents before it. -/
def W8 (c : Dev nD) : Valuation τ sig (Elt F) := left (dat1 (rd (V7 m (o6 m))) c) (V7 m (o6 m) c)
/-- The regions' results up to region 1. -/
def o8 : Outs (F := F) := fun J r c => match J with
    | 6 => W6 m c r
    | _ => W8 m c r

/-- What region 2 leaves, from the contents before it. -/
def W14 (c : Dev nD) : Valuation τ sig (Elt F) := left (dat2 (rd (V13 m (o8 m))) c) (V13 m (o8 m) c)
/-- The regions' results up to region 2. -/
def o14 : Outs (F := F) := fun J r c => match J with
    | 6 => W6 m c r
    | 8 => W8 m c r
    | _ => W14 m c r

/-- What region 3 leaves, from the contents before it. -/
def W16 (c : Dev nD) : Valuation τ sig (Elt F) := left (dat3 (rd (V15 m (o14 m))) c) (V15 m (o14 m) c)
/-- The regions' results up to region 3. -/
def o16 : Outs (F := F) := fun J r c => match J with
    | 6 => W6 m c r
    | 8 => W8 m c r
    | 14 => W14 m c r
    | _ => W16 m c r

/-- What region 4 leaves, from the contents before it. -/
def W22 (c : Dev nD) : Valuation τ sig (Elt F) := left (dat4 (rd (V21 m (o16 m))) c) (V21 m (o16 m) c)
/-- The regions' results up to region 4. -/
def o22 : Outs (F := F) := fun J r c => match J with
    | 6 => W6 m c r
    | 8 => W8 m c r
    | 14 => W14 m c r
    | 16 => W16 m c r
    | _ => W22 m c r

/-- What region 5 leaves, from the contents before it. -/
def W24 (c : Dev nD) : Valuation τ sig (Elt F) := left (dat5 (rd (V23 m (o22 m))) c) (V23 m (o22 m) c)
/-- The regions' results up to region 5. -/
def o24 : Outs (F := F) := fun J r c => match J with
    | 6 => W6 m c r
    | 8 => W8 m c r
    | 14 => W14 m c r
    | 16 => W16 m c r
    | 22 => W22 m c r
    | _ => W24 m c r

/-- What region 6 leaves, from the contents before it. -/
def W30 (c : Dev nD) : Valuation τ sig (Elt F) := left (dat6 (rd (V29 m (o24 m))) c) (V29 m (o24 m) c)
/-- The regions' results up to region 6. -/
def o30 : Outs (F := F) := fun J r c => match J with
    | 6 => W6 m c r
    | 8 => W8 m c r
    | 14 => W14 m c r
    | 16 => W16 m c r
    | 22 => W22 m c r
    | 24 => W24 m c r
    | _ => W30 m c r

/-- What region 7 leaves, from the contents before it. -/
def W32 (c : Dev nD) : Valuation τ sig (Elt F) := left (dat7 (rd (V31 m (o30 m))) c) (V31 m (o30 m) c)
/-- The regions' results up to region 7: the contents the valuations are read at. -/
def outs : Outs (F := F) := fun J r c => match J with
    | 6 => W6 m c r
    | 8 => W8 m c r
    | 14 => W14 m c r
    | 16 => W16 m c r
    | 22 => W22 m c r
    | 24 => W24 m c r
    | 30 => W30 m c r
    | _ => W32 m c r

/-! ## Each region's exit: the valuation after it is what it leaves -/

/-- Region 0's output windows' arrays. -/
theorem outArr0 : ∀ w : Fin cfg0.W, (cfg0.win w).isOut = true → Pipeline.arrRef spec0 w = main_v7_0 ∨ Pipeline.arrRef spec0 w = main_v7_1 := by decide
/-- The unscoped buffers after region 0 hold what it leaves. -/
theorem V6_left (c : Dev nD) (b : Ref sig .tc) : V6 m (outs m) c b = W6 m c b :=
  upd2_eq (V5 m c) (W6 m c) main_v7_0 main_v7_1 (fun b h0 h1 =>
    left_of_not_out (dat0 (rd (V5 m)) c) (V5 m c) launch0.win.arr_inj (fun w => A_eq0 _ c w) b
      fun w hw e => (outArr0 w hw).elim (fun e0 => h0 (e.symm.trans e0)) fun e1 => h1 (e.symm.trans e1)) b

/-- Region 1's output windows' arrays. -/
theorem outArr1 : ∀ w : Fin cfg1.W, (cfg1.win w).isOut = true → Pipeline.arrRef spec1 w = main_v49 := by decide
/-- The unscoped buffers after region 1 hold what it leaves. -/
theorem V8_left (c : Dev nD) (b : Ref sig .tc) : V8 m (outs m) c b = W8 m c b :=
  upd1_eq (V7 m (outs m) c) (W8 m c) main_v49 (fun b h0 =>
    left_of_not_out (dat1 (rd (V7 m (outs m))) c) (V7 m (outs m) c) launch1.win.arr_inj (fun w => A_eq1 _ c w) b
      fun w hw e => h0 (e.symm.trans (outArr1 w hw))) b

/-- Region 2's output windows' arrays. -/
theorem outArr2 : ∀ w : Fin cfg2.W, (cfg2.win w).isOut = true → Pipeline.arrRef spec2 w = main_v56_0 ∨ Pipeline.arrRef spec2 w = main_v56_1 := by decide
/-- The unscoped buffers after region 2 hold what it leaves. -/
theorem V14_left (c : Dev nD) (b : Ref sig .tc) : V14 m (outs m) c b = W14 m c b :=
  upd2_eq (V13 m (outs m) c) (W14 m c) main_v56_0 main_v56_1 (fun b h0 h1 =>
    left_of_not_out (dat2 (rd (V13 m (outs m))) c) (V13 m (outs m) c) launch2.win.arr_inj (fun w => A_eq2 _ c w) b
      fun w hw e => (outArr2 w hw).elim (fun e0 => h0 (e.symm.trans e0)) fun e1 => h1 (e.symm.trans e1)) b

/-- Region 3's output windows' arrays. -/
theorem outArr3 : ∀ w : Fin cfg3.W, (cfg3.win w).isOut = true → Pipeline.arrRef spec3 w = main_v74 := by decide
/-- The unscoped buffers after region 3 hold what it leaves. -/
theorem V16_left (c : Dev nD) (b : Ref sig .tc) : V16 m (outs m) c b = W16 m c b :=
  upd1_eq (V15 m (outs m) c) (W16 m c) main_v74 (fun b h0 =>
    left_of_not_out (dat3 (rd (V15 m (outs m))) c) (V15 m (outs m) c) launch3.win.arr_inj (fun w => A_eq3 _ c w) b
      fun w hw e => h0 (e.symm.trans (outArr3 w hw))) b

/-- Region 4's output windows' arrays. -/
theorem outArr4 : ∀ w : Fin cfg4.W, (cfg4.win w).isOut = true → Pipeline.arrRef spec4 w = main_v81_0 ∨ Pipeline.arrRef spec4 w = main_v81_1 := by decide
/-- The unscoped buffers after region 4 hold what it leaves. -/
theorem V22_left (c : Dev nD) (b : Ref sig .tc) : V22 m (outs m) c b = W22 m c b :=
  upd2_eq (V21 m (outs m) c) (W22 m c) main_v81_0 main_v81_1 (fun b h0 h1 =>
    left_of_not_out (dat4 (rd (V21 m (outs m))) c) (V21 m (outs m) c) launch4.win.arr_inj (fun w => A_eq4 _ c w) b
      fun w hw e => (outArr4 w hw).elim (fun e0 => h0 (e.symm.trans e0)) fun e1 => h1 (e.symm.trans e1)) b

/-- Region 5's output windows' arrays. -/
theorem outArr5 : ∀ w : Fin cfg5.W, (cfg5.win w).isOut = true → Pipeline.arrRef spec5 w = main_v99 := by decide
/-- The unscoped buffers after region 5 hold what it leaves. -/
theorem V24_left (c : Dev nD) (b : Ref sig .tc) : V24 m (outs m) c b = W24 m c b :=
  upd1_eq (V23 m (outs m) c) (W24 m c) main_v99 (fun b h0 =>
    left_of_not_out (dat5 (rd (V23 m (outs m))) c) (V23 m (outs m) c) launch5.win.arr_inj (fun w => A_eq5 _ c w) b
      fun w hw e => h0 (e.symm.trans (outArr5 w hw))) b

/-- Region 6's output windows' arrays. -/
theorem outArr6 : ∀ w : Fin cfg6.W, (cfg6.win w).isOut = true → Pipeline.arrRef spec6 w = main_v106_0 ∨ Pipeline.arrRef spec6 w = main_v106_1 := by decide
/-- The unscoped buffers after region 6 hold what it leaves. -/
theorem V30_left (c : Dev nD) (b : Ref sig .tc) : V30 m (outs m) c b = W30 m c b :=
  upd2_eq (V29 m (outs m) c) (W30 m c) main_v106_0 main_v106_1 (fun b h0 h1 =>
    left_of_not_out (dat6 (rd (V29 m (outs m))) c) (V29 m (outs m) c) launch6.win.arr_inj (fun w => A_eq6 _ c w) b
      fun w hw e => (outArr6 w hw).elim (fun e0 => h0 (e.symm.trans e0)) fun e1 => h1 (e.symm.trans e1)) b

/-- Region 7's output windows' arrays. -/
theorem outArr7 : ∀ w : Fin cfg7.W, (cfg7.win w).isOut = true → Pipeline.arrRef spec7 w = main_v124 := by decide
/-- The unscoped buffers after region 7 hold what it leaves. -/
theorem V32_left (c : Dev nD) (b : Ref sig .tc) : V32 m (outs m) c b = W32 m c b :=
  upd1_eq (V31 m (outs m) c) (W32 m c) main_v124 (fun b h0 =>
    left_of_not_out (dat7 (rd (V31 m (outs m))) c) (V31 m (outs m) c) launch7.win.arr_inj (fun w => A_eq7 _ c w) b
      fun w hw e => h0 (e.symm.trans (outArr7 w hw))) b

/-! ## The proof data family -/

/-- Every pipeline's proof data, each at its region's entry contents: a literal `match`, so that the family at a numeral
    reduces to that region's data. -/
def pdats : (p : Fin 8) → (c : Dev nD) → Dat τ (Elt F) Unit ℕ (UR sig nD τ) ℕ (cfgs p) c
  | ⟨0, _⟩ => fun c => dat0 (rd (V5 m)) c
  | ⟨1, _⟩ => fun c => dat1 (rd (V7 m (outs m))) c
  | ⟨2, _⟩ => fun c => dat2 (rd (V13 m (outs m))) c
  | ⟨3, _⟩ => fun c => dat3 (rd (V15 m (outs m))) c
  | ⟨4, _⟩ => fun c => dat4 (rd (V21 m (outs m))) c
  | ⟨5, _⟩ => fun c => dat5 (rd (V23 m (outs m))) c
  | ⟨6, _⟩ => fun c => dat6 (rd (V29 m (outs m))) c
  | ⟨7, _⟩ => fun c => dat7 (rd (V31 m (outs m))) c

/-! ## The regions' results, window by window -/

/-- What region 0 leaves in `main_v7_0`: its window 4's array after the write-backs. -/
theorem outs_6_0 (c : Dev nD) : outs m 6 main_v7_0 c = (dat0 (rd (V5 m)) c).arrAt 4 cfg0.N :=
  left_arr (dat0 (rd (V5 m)) c) (V5 m c) launch0.win.arr_inj 4

/-- What region 0 leaves in `main_v7_1`: its window 5's array after the write-backs. -/
theorem outs_6_1 (c : Dev nD) : outs m 6 main_v7_1 c = (dat0 (rd (V5 m)) c).arrAt 5 cfg0.N :=
  left_arr (dat0 (rd (V5 m)) c) (V5 m c) launch0.win.arr_inj 5

/-- What region 1 leaves in `main_v49`: its window 7's array after the write-backs. -/
theorem outs_8 (c : Dev nD) : outs m 8 main_v49 c = (dat1 (rd (V7 m (outs m))) c).arrAt 7 cfg1.N :=
  left_arr (dat1 (rd (V7 m (outs m))) c) (V7 m (outs m) c) launch1.win.arr_inj 7

/-- What region 2 leaves in `main_v56_0`: its window 4's array after the write-backs. -/
theorem outs_14_0 (c : Dev nD) : outs m 14 main_v56_0 c = (dat2 (rd (V13 m (outs m))) c).arrAt 4 cfg2.N :=
  left_arr (dat2 (rd (V13 m (outs m))) c) (V13 m (outs m) c) launch2.win.arr_inj 4

/-- What region 2 leaves in `main_v56_1`: its window 5's array after the write-backs. -/
theorem outs_14_1 (c : Dev nD) : outs m 14 main_v56_1 c = (dat2 (rd (V13 m (outs m))) c).arrAt 5 cfg2.N :=
  left_arr (dat2 (rd (V13 m (outs m))) c) (V13 m (outs m) c) launch2.win.arr_inj 5

/-- What region 3 leaves in `main_v74`: its window 7's array after the write-backs. -/
theorem outs_16 (c : Dev nD) : outs m 16 main_v74 c = (dat3 (rd (V15 m (outs m))) c).arrAt 7 cfg3.N :=
  left_arr (dat3 (rd (V15 m (outs m))) c) (V15 m (outs m) c) launch3.win.arr_inj 7

/-- What region 4 leaves in `main_v81_0`: its window 4's array after the write-backs. -/
theorem outs_22_0 (c : Dev nD) : outs m 22 main_v81_0 c = (dat4 (rd (V21 m (outs m))) c).arrAt 4 cfg4.N :=
  left_arr (dat4 (rd (V21 m (outs m))) c) (V21 m (outs m) c) launch4.win.arr_inj 4

/-- What region 4 leaves in `main_v81_1`: its window 5's array after the write-backs. -/
theorem outs_22_1 (c : Dev nD) : outs m 22 main_v81_1 c = (dat4 (rd (V21 m (outs m))) c).arrAt 5 cfg4.N :=
  left_arr (dat4 (rd (V21 m (outs m))) c) (V21 m (outs m) c) launch4.win.arr_inj 5

/-- What region 5 leaves in `main_v99`: its window 7's array after the write-backs. -/
theorem outs_24 (c : Dev nD) : outs m 24 main_v99 c = (dat5 (rd (V23 m (outs m))) c).arrAt 7 cfg5.N :=
  left_arr (dat5 (rd (V23 m (outs m))) c) (V23 m (outs m) c) launch5.win.arr_inj 7

/-- What region 6 leaves in `main_v106_0`: its window 4's array after the write-backs. -/
theorem outs_30_0 (c : Dev nD) : outs m 30 main_v106_0 c = (dat6 (rd (V29 m (outs m))) c).arrAt 4 cfg6.N :=
  left_arr (dat6 (rd (V29 m (outs m))) c) (V29 m (outs m) c) launch6.win.arr_inj 4

/-- What region 6 leaves in `main_v106_1`: its window 5's array after the write-backs. -/
theorem outs_30_1 (c : Dev nD) : outs m 30 main_v106_1 c = (dat6 (rd (V29 m (outs m))) c).arrAt 5 cfg6.N :=
  left_arr (dat6 (rd (V29 m (outs m))) c) (V29 m (outs m) c) launch6.win.arr_inj 5

/-- What region 7 leaves in `main_v124`: its window 7's array after the write-backs. -/
theorem outs_32 (c : Dev nD) : outs m 32 main_v124 c = (dat7 (rd (V31 m (outs m))) c).arrAt 7 cfg7.N :=
  left_arr (dat7 (rd (V31 m (outs m))) c) (V31 m (outs m) c) launch7.win.arr_inj 7

/-! ## The thread state between items -/

/-- What rides beside the unscoped buffers through every item: the core's generator register at some state, and the core
    owing nothing. -/
abbrev Rst (c : Dev nD) : sProp 𝕄 :=
  iprop((∃ r, prngReg c r) ∗ ∃ W, owes (c : Thread nD τ) (0 : CellTallies nD τ sig Unit) W)
/-- The same rest between any two items. -/
abbrev E : Fin 9 → Dev nD → sProp 𝕄 := fun _ c => Rst c

/-- No pipeline here has a prefetched table: the tables' part of a region's entry is empty. -/
theorem prefHeld_none (p : Fin 8) (c : Dev nD) :
    (BI.emp : sProp 𝕄) ⊢ Pipeline.prefHeld (pcfgs (F := F) p).pre c (fun _ => fullShare) (adm (F := F) p).1 := by
  unfold Pipeline.prefHeld
  rw [show (Finset.univ : Finset (Fin (pcfgs (F := F) p).pre.K)) = ∅ from rfl, BI.bigSep_empty]

section Owes

variable {cfg : Cfg sig Λ₀} {c : Dev nD} (dat : Dat τ (Elt F) Unit ℕ (UR sig nD τ) ℕ cfg c)

/-- A core owing nothing owes what a pipeline that owes nothing holds it to, at any point. -/
theorem owesAt_of_zero (t : Fin (cfg.N + 1)) (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [h0, hr]
  iintro ⟨%W, HO⟩
  iexists W
  isplitr
  · ipureintro; exact fun _ _ => Or.inl trivial
  iexact HO

/-- And back. -/
theorem zero_of_owesAt (t : Fin (cfg.N + 1)) (h0 : dat.owed t = 0) :
    (dat.owesAt () t : sProp 𝕄) ⊢ iprop(∃ W, owes (c : Thread nD τ) (0 : CellTallies nD τ sig Unit) W) := by
  unfold Pipeline.Dat.owesAt Pipeline.owesWithin
  rw [h0]
  iintro ⟨%W, -, HO⟩
  iexists W
  iexact HO

end Owes

/-! ## A region's record over the thread state

Entered from every unscoped buffer held at `Vin` beside the rest, left at `Vout` beside the rest. The windows' arrays are
split out of the unscoped buffers at the entry and put back, at what the region leaves, at the exit; the generator register
and the other unscoped buffers pass the region by; nothing enters the invariant but the scoped buffers; nothing is owed;
the kernel has no semaphore of its own. One construction serves every region: only the pipeline index, the two valuations
and the region's own facts vary. -/

section Region

variable (pd : (p : Fin 8) → (c : Dev nD) → Dat τ (Elt F) Unit ℕ (UR sig nD τ) ℕ (cfgs p) c)

set_option backward.isDefEq.respectTransparency.types false in
def mkReg (p : Fin 8) (lf : Pipeline.LaunchFacts (nD := nD) (τ := τ) cfgs p)
    (Vin Vout : Dev nD → Valuation τ sig (Elt F))
    (hbody : ∀ c, BodyObligation (pd p c) (defs₀ (F := F)) Variants.none () Set.univ)
    (howed : ∀ c t, (pd p c).owed t = 0)
    (hrec : ∀ c t, (pd p c).recorded t = Set.univ)
    (hq : ∀ c w, (pd p c).q w = fullShare)
    (hA : ∀ c w, (pd p c).A w = rd Vin c (Pipeline.arrRef (cfgs p).spec w))
    (hleft : ∀ c (b : Ref sig .tc), Vout c b = left (pd p c) (Vin c) b)
    (hΦin : ∀ c (T : sProp 𝕄), iprop(BI.emp ∗ T ∗ Pipeline.scopedRest (Ix := Unit) (Name := ℕ) (U := UR sig nD τ) (Lvl := ℕ) (Val := Elt F) (cfgs p).spec c) ⊢ (pd p c).Φ 0)
    (hΦout : ∀ c, (pd p c).Φ (Fin.last _) ⊢ iprop(BI.emp ∗ Pipeline.ownSems0 (fun k : PEmpty => k.elim) c ∗ Pipeline.scopedRest (Ix := Unit) (Name := ℕ) (U := UR sig nD τ) (Lvl := ℕ) (Val := Elt F) (cfgs p).spec c)) :
    RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vin c) ∗ Rst c)
  post c := iprop(StableHlo.held (c : Thread nD τ) (Pipeline.ucRefs τ sig) (Vout c) ∗ Rst c)
  X _ := BI.emp
  Y _ := BI.emp
  Z c := iprop(Pipeline.unscopedRest (Ix := Unit) (Name := ℕ) (U := UR sig nD τ) (Lvl := ℕ) (cfgs p).spec c (rd Vin c) ∗ ∃ r, prngReg c r)
  hentry c := by
    have hsplit := Pipeline.arrays_of_unscopedBufs (p := p) (pcfgs (F := F)) adm pd lf.win lf.arr_whole c
      ((pd p c).share_full (hq c)) (rd Vin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iapply prefHeld_none p c; iempintro
    isplitl [HO]; · iapply owesAt_of_zero (pd p c) 0 (howed c 0) (hrec c 0); iexact HO
    isplitr; · iempintro
    isplitl [Hrest]; · iexact Hrest
    iexact Hp
  hin c := hΦin c _
  hout c := hΦout c
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c)) (rd Vin c) (rd Vout c) ((pd p c).arrAt · (cfgs p).N)
      (fun w => ((hleft c _).trans (left_arr (pd p c) (Vin c) lf.win.arr_inj w)).symm)
      (fun b hb => (hleft c b).trans (Pipeline.withArrays_of_ne _ c (Vin c) _ b
        fun w e => hb (Finset.mem_image.mpr ⟨w, Finset.mem_univ _, e⟩)))
    rw [Pipeline.unscopedBufs_held] at hjoin
    iintro ⟨Ha, HO, -, Hrest, Hp⟩
    imodintro
    isplitl [Ha Hrest]
    · iapply hjoin; isplitl [Ha] <;> iassumption
    isplitl [Hp]; · iexact Hp
    iapply zero_of_owesAt (pd p c) (Fin.last _) (howed c (Fin.last _)); iexact HO

end Region

/-! ## The run -/

variable (ρ : Dev nD → PrngReg)

/-- The library's launch element yields its own image under the one embedding, and no ghost resource is asked for. -/
theorem launch_elem :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  rw [BI.bigSep_emp_const]
  iintro Hu
  imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iempintro

/-- What the launch deals each core, its buffers apart, makes the rest on every core at once. -/
theorem rest_init :
    iprop((bigSep Finset.univ fun c : Dev nD => iprop(unscopedSems0 c ∗ owes (c : Thread nD τ) (0 : CellTallies nD τ sig Unit) ∅
        ∗ Pipeline.launchCred (fun _ : Dev nD => (0 : CellTallies nD τ sig Unit)) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]
  · iexists _; iexact Hp
  iexists ∅
  iexact HO

/-- The rest ends owing nothing. -/
theorem rest_end (c : Dev nD) :
    E (F := F) 8 c ⊢ (iprop(∃ W, owes (c : Thread nD τ) (0 : CellTallies nD τ sig Unit) W) : sProp 𝕄) := by
  iintro ⟨-, HO⟩
  iexact HO

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.Stats0.lean ====
/-
  The statistics launch of one vocabulary cluster: its body, run. The body has two cases, told apart by the tile's
  index inside its half. At the first tile it projects the hidden rows into the scratch and sets the running maximum
  and sum to their start before the tile's update; whatever the scratch and the two statistics' buffers held is
  overwritten, so nothing is asked of them. At every other tile the scratch and the two buffers hold what the tile
  before left (the buffers are not written back inside a half), and the body updates the statistics from them.
  In both cases every buffer is loaded and stored whole, so what a buffer holds afterwards is the payload of the last
  store into it, and what a load after a store reads is that store's payload.

  From the two cases: the body obligation of the pipeline rule at the proof data `dat0`, whose staging contents
  are the fold `stats0`; and the scratch invariant `Φ0` at the two ends of the region, where the scratch returns to
  the scoped buffers at some contents.
-/
import proofs.«124427_j55336358642036_2_alg».proof.Proof.Stats0Defs
import Idealize.ShloMosaic.Lib.Pipeline.FrameBody
import Idealize.ShloMosaic.Lib.Pipeline.Value
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal.Gen Cert.Sizes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of a whole-buffer access, of rank two and three. -/
private theorem offPair : (![0, 0] : Fin 2 → Nat) = fun _ => 0 := funext fun a => by fin_cases a <;> rfl
private theorem offTriple : (![0, 0, 0] : Fin 3 → Nat) = fun _ => 0 := funext fun a => by fin_cases a <;> rfl

/-- The condition of the body's conditional: the tile's index inside its half is zero. -/
abbrev cond0 (i : grid0.Coords) : Prop :=
  (Scalar.cmpi .ne (Scalar.extui (Scalar.cmpi .eq (BitVec.ofNat 32 (i 1).val) 0#32)) 0#32) = 1#1

/-- It holds at the first tile of each half: decided over the grid. -/
theorem hcond0 : ∀ t : Fin cfg0.N, cond0 (grid0.coords t) ↔ t.val % tilesPerHalf0 = 0 :=
  (by decide +kernel : ∀ t : Fin grid0.N, cond0 (grid0.coords t) ↔ t.val % tilesPerHalf0 = 0)

/-! ## The body's two cases -/

set_option maxHeartbeats 2000000 in
/-- The body at the first tile of a half: the hidden rows are projected into the scratch, the statistics are set to
    their start and updated by the tile; whatever the scratch and the statistics' buffers held is overwritten. -/
theorem run0_A (c : Dev nD) (E : Set ℕ) (i : grid0.Coords)
    (arg2 : Memref sig .tc .vmem S512x1024 .bf16) (harg2 : arg2.IsWhole) (arg3 : Memref sig .tc .vmem S1024x1024 .bf16) (harg3 : arg3.IsWhole)
    (arg4 : Memref sig .tc .vmem S2048x1024 .bf16) (harg4 : arg4.IsWhole) (arg5 : Memref sig .tc .vmem S1x2048 .f32) (harg5 : arg5.IsWhole)
    (arg6 : Memref sig .tc .vmem S1x512x1 .f32) (harg6 : arg6.IsWhole) (arg7 : Memref sig .tc .vmem S1x512x1 .f32) (harg7 : arg7.IsWhole)
    (arg8 : Memref sig .tc .vmem S512x1024 .bf16) (harg8 : arg8.IsWhole) (hc : cond0 i)
    (hid : Vec F S512x1024 .bf16) (prj : Vec F S1024x1024 .bf16) (wb : Vec F S2048x1024 .bf16) (bb : Vec F S1x2048 .f32)
    (K : PUnit → sProp 𝕄) :
    iprop(owns (c : Thread nD τ) arg2 fullShare hid ∗ owns (c : Thread nD τ) arg3 fullShare prj
        ∗ owns (c : Thread nD τ) arg4 fullShare wb ∗ owns (c : Thread nD τ) arg5 fullShare bb
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare hid ∗ owns (c : Thread nD τ) arg3 fullShare prj
            ∗ owns (c : Thread nD τ) arg4 fullShare wb ∗ owns (c : Thread nD τ) arg5 fullShare bb
            ∗ owns (c : Thread nD τ) arg6 fullShare (step0 i wb bb (start0 hid prj)).m
            ∗ owns (c : Thread nD τ) arg7 fullShare (step0 i wb bb (start0 hid prj)).l
            ∗ owns (c : Thread nD τ) arg8 fullShare (step0 i wb bb (start0 hid prj)).y) -∗ K ⟨⟩))
      ⊢ wp frame (wpE (defs₀ (F := F)) Variants.none c none) E (cc0_kernel i arg2 harg2 arg3 harg3 arg4 harg4 arg5 harg5 arg6 harg6 arg7 harg7 arg8 harg8) K := by
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf2 hf3 hf4 hf5
  sl_exec (disch := first | exact hc)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    dsimp only [step0, start0]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x1024) _ offPair, View.readCov_unit_zero (S := S1x512x1) _ offTriple,
      View.readAt_eq_ld, View.ld_unit_zero (S := S512x1024) offPair, View.ld_unit_zero (S := S1024x1024) offPair,
      View.ld_unit_zero (S := S2048x1024) offPair, View.ld_unit_zero (S := S1x2048) offPair, View.ld_unit_zero (S := S1x512x1) offTriple,
      View.ld_unit_zero (S := S512x1024) offPair]
  isplitl [H7]
  · iexists _; isplitr
    swap; · iexact H7
    ipureintro
    dsimp only [step0, start0]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x1024) _ offPair, View.readCov_unit_zero (S := S1x512x1) _ offTriple,
      View.readAt_eq_ld, View.ld_unit_zero (S := S512x1024) offPair, View.ld_unit_zero (S := S1024x1024) offPair,
      View.ld_unit_zero (S := S2048x1024) offPair, View.ld_unit_zero (S := S1x2048) offPair, View.ld_unit_zero (S := S1x512x1) offTriple,
      View.ld_unit_zero (S := S512x1024) offPair]
  iexists _; isplitr
  swap; · iexact H8
  ipureintro
  dsimp only [step0, start0]
  sl_unfold_words
  rw [View.read_writes_eq_canon _ _ _ (fun y => ⟨_, List.Mem.head _, View.mem_set_unit_zero offPair inb_S512x1024_S512x1024_0_0 y⟩),
    View.canon_cons_unit_zero (S := S512x1024) offPair]
  simp only [View.readCov_unit_zero (S := S512x1024) _ offPair, View.readCov_unit_zero (S := S1x512x1) _ offTriple,
    View.readAt_eq_ld, View.ld_unit_zero (S := S512x1024) offPair, View.ld_unit_zero (S := S1024x1024) offPair,
    View.ld_unit_zero (S := S2048x1024) offPair, View.ld_unit_zero (S := S1x2048) offPair, View.ld_unit_zero (S := S1x512x1) offTriple,
    View.ld_unit_zero (S := S512x1024) offPair]

set_option maxHeartbeats 2000000 in
/-- The body at a later tile of a half: the scratch and the running statistics are read as the tile before left
    them; the statistics are updated, the scratch and the inputs stay. -/
theorem run0_B (c : Dev nD) (E : Set ℕ) (i : grid0.Coords)
    (arg2 : Memref sig .tc .vmem S512x1024 .bf16) (harg2 : arg2.IsWhole) (arg3 : Memref sig .tc .vmem S1024x1024 .bf16) (harg3 : arg3.IsWhole)
    (arg4 : Memref sig .tc .vmem S2048x1024 .bf16) (harg4 : arg4.IsWhole) (arg5 : Memref sig .tc .vmem S1x2048 .f32) (harg5 : arg5.IsWhole)
    (arg6 : Memref sig .tc .vmem S1x512x1 .f32) (harg6 : arg6.IsWhole) (arg7 : Memref sig .tc .vmem S1x512x1 .f32) (harg7 : arg7.IsWhole)
    (arg8 : Memref sig .tc .vmem S512x1024 .bf16) (harg8 : arg8.IsWhole) (hc : ¬cond0 i)
    (hid : Vec F S512x1024 .bf16) (prj : Vec F S1024x1024 .bf16) (wb : Vec F S2048x1024 .bf16) (bb : Vec F S1x2048 .f32)
    (y : Vec F S512x1024 .bf16) (m l : Vec F S1x512x1 .f32)
    (K : PUnit → sProp 𝕄) :
    iprop(owns (c : Thread nD τ) arg2 fullShare hid ∗ owns (c : Thread nD τ) arg3 fullShare prj
        ∗ owns (c : Thread nD τ) arg4 fullShare wb ∗ owns (c : Thread nD τ) arg5 fullShare bb
        ∗ owns (c : Thread nD τ) arg6 fullShare m ∗ owns (c : Thread nD τ) arg7 fullShare l
        ∗ owns (c : Thread nD τ) arg8 fullShare y
        ∗ (iprop(owns (c : Thread nD τ) arg2 fullShare hid ∗ owns (c : Thread nD τ) arg3 fullShare prj
            ∗ owns (c : Thread nD τ) arg4 fullShare wb ∗ owns (c : Thread nD τ) arg5 fullShare bb
            ∗ owns (c : Thread nD τ) arg6 fullShare (step0 i wb bb ⟨y, m, l⟩).m
            ∗ owns (c : Thread nD τ) arg7 fullShare (step0 i wb bb ⟨y, m, l⟩).l
            ∗ owns (c : Thread nD τ) arg8 fullShare (step0 i wb bb ⟨y, m, l⟩).y) -∗ K ⟨⟩))
      ⊢ wp frame (wpE (defs₀ (F := F)) Variants.none c none) E (cc0_kernel i arg2 harg2 arg3 harg3 arg4 harg4 arg5 harg5 arg6 harg6 arg7 harg7 arg8 harg8) K := by
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2 hf3 hf4 hf5 hf6 hf7 hf8
  sl_exec (disch := first | exact hc)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    dsimp only [step0, start0]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x1024) _ offPair, View.readCov_unit_zero (S := S1x512x1) _ offTriple,
      View.readAt_eq_ld, View.ld_unit_zero (S := S512x1024) offPair, View.ld_unit_zero (S := S1024x1024) offPair,
      View.ld_unit_zero (S := S2048x1024) offPair, View.ld_unit_zero (S := S1x2048) offPair, View.ld_unit_zero (S := S1x512x1) offTriple,
      View.ld_unit_zero (S := S512x1024) offPair]
  isplitl [H7]
  · iexists _; isplitr
    swap; · iexact H7
    ipureintro
    dsimp only [step0, start0]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x1024) _ offPair, View.readCov_unit_zero (S := S1x512x1) _ offTriple,
      View.readAt_eq_ld, View.ld_unit_zero (S := S512x1024) offPair, View.ld_unit_zero (S := S1024x1024) offPair,
      View.ld_unit_zero (S := S2048x1024) offPair, View.ld_unit_zero (S := S1x2048) offPair, View.ld_unit_zero (S := S1x512x1) offTriple,
      View.ld_unit_zero (S := S512x1024) offPair]
  iexists f8; isplitr; · ipureintro; rfl
  iexact H8

section Region

variable (V : (c : Dev nD) → (b : Ref sig .tc) → Buf (Elt F) ((c : Thread nD τ).loc b))

/-! ## The scratch invariant, opened and closed -/

/-- At any point the scratch is held at some contents beside the other scoped buffers. -/
theorem Φ0_open (c : Dev nD) (n : ℕ) : Φ0 V c n ⊢ iprop((∃ y, owns (c : Thread nD τ) scM0 fullShare y)
      ∗ Pipeline.scopedRestBut (Ix := Unit) (Name := ℕ) (U := UR sig nD τ) (Lvl := ℕ) (Val := Elt F) spec0 c [cc0_scratch0]) := by
  cases n with
  | zero =>
    show Pipeline.scopedRest (Ix := Unit) (Name := ℕ) (U := UR sig nD τ) (Lvl := ℕ) (Val := Elt F) spec0 c ⊢ _
    rw [scopedRest0_split]
    iintro ⟨⟨%f, Hs⟩, Hr⟩
    isplitl [Hs]
    · iexists f; rw [owns_whole]; iexact Hs
    iexact Hr
  | succ n =>
    rw [Φ0_succ]
    iintro ⟨Hs, Hr⟩
    isplitl [Hs]
    · iexists _; iexact Hs
    iexact Hr

/-- So the scoped buffers are whole again, the scratch among them. -/
theorem Φ0_close (c : Dev nD) (n : ℕ) : Φ0 V c n ⊢
    Pipeline.scopedRest (Ix := Unit) (Name := ℕ) (U := UR sig nD τ) (Lvl := ℕ) (Val := Elt F) spec0 c := by
  have hs : ∀ y, (owns (c : Thread nD τ) scM0 fullShare y : sProp 𝕄)
      ⊢ iprop(∃ f : Buf (Elt F) ((c : Thread nD τ).loc cc0_scratch0), ((c : Thread nD τ).loc cc0_scratch0) ↦{fullShare} f) := by
    intro y
    rw [owns_whole_eq]
    iintro ⟨%f, -, Hs⟩
    iexists f; iexact Hs
  refine (Φ0_open V c n).trans ?_
  rw [scopedRest0_split]
  iintro ⟨⟨%y, Hs⟩, Hr⟩
  isplitl [Hs]
  · iapply (hs y); iexact Hs
  iexact Hr

/-! ## What the body finds in each window's buffer -/
/-- Each input's current staging buffer holds its block at every point, fetched there or not: where it is not
    fetched its block index has not moved and the body left the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- There the statistics' buffers hold what the tile before left. -/
theorem before0_4_B (c : Dev nD) (t : Fin cfg0.N) (h0 : ¬t.val % tilesPerHalf0 = 0) (d) :
    (dat0 V c).before 4 t d = (stats0 V c (t.val - 1)).m := by
  rw [Dat.before_out_kept _ 4 rfl t (sched0_4 t h0).1 (sched0_4 t h0).2 (fun _ => rfl) (fun _ _ => rfl)]
  dsimp only [dat0]
theorem before0_5_B (c : Dev nD) (t : Fin cfg0.N) (h0 : ¬t.val % tilesPerHalf0 = 0) (d) :
    (dat0 V c).before 5 t d = (stats0 V c (t.val - 1)).l := by
  rw [Dat.before_out_kept _ 5 rfl t (sched0_5 t h0).1 (sched0_5 t h0).2 (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1600000 in
/-- The body at any point: the inputs' buffers hold their blocks; at the first tile of a half the scratch and the
    statistics are whatever they are and are set afresh; at a later tile they hold what the tile before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = Φ0 V c (t.val + 1) from rfl,
    show (dat0 V c).Φ t.castSucc = Φ0 V c t.val from rfl,
    show (dat0 V c).owesAt () t.succ = (dat0 V c).owesAt () t.castSucc from rfl,
    after0_0, after0_1, after0_2, after0_3, after0_4, after0_5, Φ0_succ]
  by_cases h0 : t.val % tilesPerHalf0 = 0
  · rw [stats0_A V c t h0]
    unfold stepAt0 startAt0
    refine (sep_mono (Φ0_open V c t.val) .rfl).trans ?_
    iintro ⟨⟨⟨%y, Hs⟩, Hrest⟩, Ho, ⟨%d0, H0⟩, ⟨%d1, H1⟩, ⟨%d2, H2⟩, ⟨%d3, H3⟩, ⟨%d4, H4⟩, ⟨%d5, H5⟩⟩
    iapply (run0_A c Set.univ (grid0.coords t) _ _ _ _ _ _ _ _ _ _ _ _ _ _ ((hcond0 t).mpr h0)
      (hidBlk0 V c t) (prjBlk0 V c t) (wBlk0 V c t) (bBlk0 V c t) _)
    isplitl [H0]; · iexact H0
    isplitl [H1]; · iexact H1
    isplitl [H2]; · iexact H2
    isplitl [H3]; · iexact H3
    isplitl [H4]; · iexists _; iexact H4
    isplitl [H5]; · iexists _; iexact H5
    isplitl [Hs]; · iexists _; iexact Hs
    iintro ⟨H0, H1, H2, H3, H4, H5, Hs⟩
    isplitl [Hs Hrest]
    · isplitl [Hs]; · iexact Hs
      iexact Hrest
    isplitl [Ho]; · iexact Ho
    isplitl [H0]; · iexact H0
    isplitl [H1]; · iexact H1
    isplitl [H2]; · iexact H2
    isplitl [H3]; · iexact H3
    isplitl [H4]; · iexact H4
    iexact H5
  · have ht : t.val ≠ 0 := fun e => h0 (by rw [e]; exact Nat.zero_mod _)
    rw [stats0_B V c t h0]
    simp only [before0_4_B V c t h0, before0_5_B V c t h0]
    rw [show Φ0 V c t.val = Φ0 V c (t.val - 1 + 1) from by rw [Nat.sub_one_add_one ht], Φ0_succ]
    unfold stepAt0
    iintro ⟨⟨Hs, Hrest⟩, Ho, ⟨%d0, H0⟩, ⟨%d1, H1⟩, ⟨%d2, H2⟩, ⟨%d3, H3⟩, ⟨%d4, H4⟩, ⟨%d5, H5⟩⟩
    iapply (run0_B c Set.univ (grid0.coords t) _ _ _ _ _ _ _ _ _ _ _ _ _ _ (fun h => h0 ((hcond0 t).mp h))
      (hidBlk0 V c t) (prjBlk0 V c t) (wBlk0 V c t) (bBlk0 V c t)
      (stats0 V c (t.val - 1)).y (stats0 V c (t.val - 1)).m (stats0 V c (t.val - 1)).l _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]; · iexact Hs
      iexact Hrest
    isplitl [Ho]; · iexact Ho
    isplitl [H0]; · iexact H0
    isplitl [H1]; · iexact H1
    isplitl [H2]; · iexact H2
    isplitl [H3]; · iexact H3
    isplitl [H4]; · iexact H4
    iexact H5

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the two ends of the region -/

theorem Φ0_in (c : Dev nD) (T : sProp 𝕄) :
    iprop(BI.emp ∗ T ∗ Pipeline.scopedRest (Ix := Unit) (Name := ℕ) (U := UR sig nD τ) (Lvl := ℕ) (Val := Elt F) spec0 c)
      ⊢ (dat0 V c).Φ 0 := by
  show _ ⊢ Pipeline.scopedRest (Ix := Unit) (Name := ℕ) (U := UR sig nD τ) (Lvl := ℕ) (Val := Elt F) spec0 c
  iintro ⟨-, -, Hr⟩
  iexact Hr

theorem Φ0_out (c : Dev nD) :
    (dat0 V c).Φ (Fin.last _) ⊢ iprop(BI.emp ∗ Pipeline.ownSems0 (fun k : PEmpty => k.elim) c
      ∗ Pipeline.scopedRest (Ix := Unit) (Name := ℕ) (U := UR sig nD τ) (Lvl := ℕ) (Val := Elt F) spec0 c) := by
  rw [Pipeline.ownSems0_none, show (dat0 V c).Φ (Fin.last cfg0.N) = Φ0 V c cfg0.N from rfl]
  refine (Φ0_close V c _).trans ?_
  iintro Hr
  isplitr; · iempintro
  isplitr; · iempintro
  iexact Hr

end Region

end Cert.KernelIdeal.Hand

end
-- ==== Proof.Write1.lean ====
/-
  The write launch of vocabulary cluster 1 (launch 3), its body obligation.

  The body has one conditional: at a half's first tile it projects the hidden rows into the scratch. So a point is in
  one of two cases, decided by the tile coordinate (the point's position modulo the tiles per half): in the first the
  scratch comes in at anything and leaves at the projected rows; in the second it comes in at them and is left alone.
  In both the output window's buffer is stored whole, once, with the tile's payload over the projected rows: the masked
  logits less the row maximum and the logarithm of the row sum, plus the row's extra term.

  The hidden rows and the projection are one block each, the same at every point, so the projected rows are one value,
  and the invariant between points is the scratch owned at it (before the first point: at anything, inside the scoped
  rest). The invariant takes the scoped rest in before the first point and gives it back after the last.
-/
import proofs.«124427_j55336358642036_2_alg».proof.Proof.Write1Defs
import proofs.«124427_j55336358642036_2_alg».proof.Proof.Gen.KernelIdeal.Points
import proofs.«124427_j55336358642036_2_alg».proof.Proof.Sizes
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand

open Cert.KernelIdeal.Gen
open Cert.Sizes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's branch condition -/

/-- The condition of the body's one conditional: the tile coordinate is the half's first. -/
abbrev cond1_0 (i : grid1.Coords) : Prop :=
  (Scalar.cmpi .ne (Scalar.extui (Scalar.cmpi .eq (BitVec.ofNat 32 (i 1).val) 0#32)) 0#32) = 1#1

/-- It holds at each half's first point only, decided over the grid. -/
theorem hcond1_0 : ∀ t : Fin cfg1.N, cond1_0 (grid1.coords t) ↔ t.val % tilesPerHalf1 = 0 :=
  (by decide +kernel : ∀ t : Fin grid1.N, cond1_0 (grid1.coords t) ↔ t.val % tilesPerHalf1 = 0)

/-! ## What the body finds in the inputs' buffers -/

/-- Input window 0's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1's current staging buffer holds its block at every point, fetched there or not. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2's current staging buffer holds its block at every point, fetched there or not. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Input window 3's current staging buffer holds its block at every point, fetched there or not. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- Input window 4's current staging buffer holds its block at every point, fetched there or not. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- Input window 5's current staging buffer holds its block at every point, fetched there or not. -/
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-- Input window 6's current staging buffer holds its block at every point, fetched there or not. -/
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-- The hidden rows' window and the projection's have one block: the same at every point. -/
theorem iblk1_0_const (c : Dev nD) (t : Fin cfg1.N) : iblk1 V c 0 t = iblk1 V c 0 pt1_0 := rfl
theorem iblk1_1_const (c : Dev nD) (t : Fin cfg1.N) : iblk1 V c 1 t = iblk1 V c 1 pt1_0 := rfl

/-! ## The body's two runs -/

/-- The offsets of every access of the body: the buffers' origins. -/
theorem zero3 : (![0, 0] : Fin 2 → Nat) = fun _ => 0 := funext fun a => by fin_cases a <;> rfl

set_option maxHeartbeats 1000000 in
/-- The body where the tile is NOT the half's first, on whole memrefs: the inputs' at their contents, the output's at
    anything, the scratch at contents ys. It runs to the continuation holding the inputs and the scratch as they were
    and the output's buffer at the tile's payload over ys. -/
theorem sound_kernel1_B (c : Dev nD) (E : Set ℕ) (i : grid1.Coords) (arg2 : Memref sig .tc .vmem S512x1024 .bf16) (harg2 : arg2.IsWhole) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x2048 .f32) (harg9 : arg9.IsWhole) (arg10 : Memref sig .tc .vmem S512x1024 .bf16) (harg10 : arg10.IsWhole) (hc : ¬cond1_0 i)
    (x0 : Vec F S512x1024 .bf16) (x1 : Vec F S1024x1024 .bf16) (x2 : Vec F S2048x1024 .bf16) (x3 : Vec F S1x2048 .f32) (x4 : Vec F S512x1 .f32) (x5 : Vec F S512x1 .f32) (x6 : Vec F S512x1 .f32) (ys : Vec F S512x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare ys
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k1_pay2 i ys x2 x3 x4 x5 x6) ∗ owns (c : Thread nD τ) arg10 fullShare ys) -∗ K ⟨⟩))
      ⊢ wp frame (wpE (defs₀ (F := F)) Variants.none c none) E (cc1_kernel i arg2 harg2 arg3 harg3 arg4 harg4 arg5 harg5 arg6 harg6 arg7 harg7 arg8 harg8 arg9 harg9 arg10 harg10) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg10.eq_unread hfs
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H9]
  · iexists _; isplitr
    swap; · iexact H9
    ipureintro
    rw [View.read_writes_eq_canon _ _ _ (fun y => ⟨_, List.mem_singleton_self _, View.mem_set_unit_zero zero3 inb_S512x2048_S512x2048_0_0 y⟩), View.canon_unit_zero zero3]
    simp only [View.readAt_eq_ld, harg2.read_unread, harg3.read_unread, harg4.read_unread, harg5.read_unread, harg6.read_unread, harg7.read_unread, harg8.read_unread, harg10.read_unread,
      View.ld_unit_zero (S := S512x1024) zero3, View.ld_unit_zero (S := S1024x1024) zero3, View.ld_unit_zero (S := S2048x1024) zero3, View.ld_unit_zero (S := S1x2048) zero3,
      View.ld_unit_zero (S := S512x1) zero3, View.ld_unit_zero (S := S512x1024) zero3]
  iexists _; isplitr; · ipureintro; exact harg10.read_unread _
  iexact HS

set_option maxHeartbeats 1000000 in
/-- The body where the tile IS the half's first, on whole memrefs: the inputs' at their contents, the output's and the
    scratch at anything. It runs to the continuation holding the inputs as they were, the scratch at the projected
    hidden rows and the output's buffer at the tile's payload over them. -/
theorem sound_kernel1_A (c : Dev nD) (E : Set ℕ) (i : grid1.Coords) (arg2 : Memref sig .tc .vmem S512x1024 .bf16) (harg2 : arg2.IsWhole) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x2048 .f32) (harg9 : arg9.IsWhole) (arg10 : Memref sig .tc .vmem S512x1024 .bf16) (harg10 : arg10.IsWhole) (hc : cond1_0 i)
    (x0 : Vec F S512x1024 .bf16) (x1 : Vec F S1024x1024 .bf16) (x2 : Vec F S2048x1024 .bf16) (x3 : Vec F S1x2048 .f32) (x4 : Vec F S512x1 .f32) (x5 : Vec F S512x1 .f32) (x6 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k1_pay2 i (k1_pay1 x0 x1) x2 x3 x4 x5 x6) ∗ owns (c : Thread nD τ) arg10 fullShare (k1_pay1 x0 x1)) -∗ K ⟨⟩))
      ⊢ wp frame (wpE (defs₀ (F := F)) Variants.none c none) E (cc1_kernel i arg2 harg2 arg3 harg3 arg4 harg4 arg5 harg5 arg6 harg6 arg7 harg7 arg8 harg8 arg9 harg9 arg10 harg10) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc)

  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H9]
  · iexists _; isplitr
    swap; · iexact H9
    ipureintro
    rw [View.read_writes_eq_canon _ _ _ (fun y => ⟨_, List.mem_singleton_self _, View.mem_set_unit_zero zero3 inb_S512x2048_S512x2048_0_0 y⟩), View.canon_unit_zero zero3]
    sl_unfold_words
    simp only [View.readAt_eq_ld, harg2.read_unread, harg3.read_unread, harg4.read_unread, harg5.read_unread, harg6.read_unread, harg7.read_unread, harg8.read_unread,
      View.ld_unit_zero (S := S512x1024) zero3, View.ld_unit_zero (S := S1024x1024) zero3, View.ld_unit_zero (S := S2048x1024) zero3, View.ld_unit_zero (S := S1x2048) zero3,
      View.ld_unit_zero (S := S512x1) zero3, View.ld_unit_zero (S := S512x1024) zero3, View.readCov_unit_zero (S := S512x1024) _ zero3]
  iexists _; isplitr
  swap; · iexact HS
  ipureintro
  sl_unfold_words
  rw [View.read_writes_eq_canon _ _ _ (fun y => ⟨_, List.mem_singleton_self _, View.mem_set_unit_zero zero3 inb_S512x1024_S512x1024_0_0 y⟩), View.canon_unit_zero zero3]
  simp only [View.readAt_eq_ld, harg2.read_unread, harg3.read_unread, harg4.read_unread, harg5.read_unread, harg6.read_unread, harg7.read_unread, harg8.read_unread,
      View.ld_unit_zero (S := S512x1024) zero3, View.ld_unit_zero (S := S1024x1024) zero3, View.ld_unit_zero (S := S2048x1024) zero3, View.ld_unit_zero (S := S1x2048) zero3,
      View.ld_unit_zero (S := S512x1) zero3, View.ld_unit_zero (S := S512x1024) zero3]

/-! ## The body obligation, at a generic point -/

/-- The scratch's contents in terms of the blocks at any point: the hidden rows' block and the projection's are the
    same at every point. -/
theorem y1_eq (c : Dev nD) (t : Fin cfg1.N) : y1 V c = k1_pay1 (iblk1 V c 0 t) (iblk1 V c 1 t) := rfl

/-- Before any point the invariant holds the scratch at some contents beside the scoped rest without it. -/
theorem Phi1_any (c : Dev nD) (n : ℕ) :
    Phi1 V c n ⊢ iprop((∃ d, owns (c : Thread nD τ) scM1 fullShare d) ∗ Pipeline.scopedRestBut (Ix := Unit) (Name := ℕ) (U := UR sig nD τ) (Lvl := ℕ) (Val := Elt F) spec1 c [cc1_scratch0]) := by
  cases n with
  | zero =>
    rw [Phi1_zero V c 0 rfl, scopedRest1_split]; simp only [owns_whole]; exact .rfl
  | succ n =>
    rw [Phi1_pos V c _ (Nat.succ_ne_zero n)]
    iintro ⟨Hs, Hr⟩
    isplitl [Hs]; · iexists _; iexact Hs
    iexact Hr

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the inputs' memrefs hold their blocks; at a half's first tile the scratch comes in at
    anything and leaves at the projected hidden rows, elsewhere it comes in and leaves at them; the output's buffer is
    left at the tile's payload over them; the rest of the invariant and the core's tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl,
    show (dat1 V c).Φ t.succ = Phi1 V c (t.val + 1) from rfl, Phi1_pos V c _ (Nat.succ_ne_zero _),
    show (dat1 V c).Φ t.castSucc = Phi1 V c t.val from rfl,
    after1_0, after1_1, after1_2, after1_3, after1_4, after1_5, after1_6, after1_7]
  unfold out1_7
  by_cases h0 : t.val % tilesPerHalf1 = 0
  · rw [y1_eq V c t]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (Phi1_any V c t.val) $$ HΦ
    icases HΦ' with ⟨HS, Hr⟩
    iapply (sound_kernel1_A c Set.univ (grid1.coords t) _ _ _ _ _ _ _ _ _ _ _ _ _ _ _ _ _ _ ((hcond1_0 t).mpr h0)
      (iblk1 V c 0 t) (iblk1 V c 1 t) (iblk1 V c 2 t) (iblk1 V c 3 t) (iblk1 V c 4 t) (iblk1 V c 5 t) (iblk1 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := fun h => h0 (by rw [h]; exact Nat.zero_mod _)
    rw [Phi1_pos V c _ hz]
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_B c Set.univ (grid1.coords t) _ _ _ _ _ _ _ _ _ _ _ _ _ _ _ _ _ _ (fun h => h0 ((hcond1_0 t).mp h))
      (iblk1 V c 0 t) (iblk1 V c 1 t) (iblk1 V c 2 t) (iblk1 V c 3 t) (iblk1 V c 4 t) (iblk1 V c 5 t) (iblk1 V c 6 t) (y1 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- What the region is handed (nothing of its own, the tables' part T, the scoped rest) is the invariant before the
    first point. -/
theorem Φ1_in (c : Dev nD) (T : sProp 𝕄) :
    iprop(BI.emp ∗ T ∗ Pipeline.scopedRest (Ix := Unit) (Name := ℕ) (U := UR sig nD τ) (Lvl := ℕ) (Val := Elt F) spec1 c) ⊢ (dat1 V c).Φ 0 := by
  rw [show (dat1 V c).Φ 0 = Pipeline.scopedRest (Ix := Unit) (Name := ℕ) (U := UR sig nD τ) (Lvl := ℕ) (Val := Elt F) spec1 c from rfl]
  iintro ⟨-, -, Hr⟩
  iexact Hr

/-- After the last point the invariant gives the scoped rest back: the scratch's named contents are forgotten. -/
theorem Φ1_out (c : Dev nD) :
    (dat1 V c).Φ (Fin.last _) ⊢ iprop(BI.emp ∗ Pipeline.ownSems0 (fun k : PEmpty => k.elim) c ∗ Pipeline.scopedRest (Ix := Unit) (Name := ℕ) (U := UR sig nD τ) (Lvl := ℕ) (Val := Elt F) spec1 c) := by
  rw [Pipeline.ownSems0_none, show (dat1 V c).Φ (Fin.last _) = Phi1 V c cfg1.N from rfl,
    Phi1_pos V c _ (by rw [show cfg1.N = grid1.N from rfl, N_1]; decide), scopedRest1_split, owns_whole]
  iintro ⟨Hs, Hr⟩
  isplitr; · iempintro
  isplitr; · iempintro
  isplitl [Hs]
  · iexists _; iexact Hs
  iexact Hr

end Cert.KernelIdeal.Hand

end
-- ==== Proof.Stats2.lean ====
/-
  The statistics launch of one vocabulary cluster: its body, run. The body has two cases, told apart by the tile's
  index inside its half. At the first tile it projects the hidden rows into the scratch and sets the running maximum
  and sum to their start before the tile's update; whatever the scratch and the two statistics' buffers held is
  overwritten, so nothing is asked of them. At every other tile the scratch and the two buffers hold what the tile
  before left (the buffers are not written back inside a half), and the body updates the statistics from them.
  In both cases every buffer is loaded and stored whole, so what a buffer holds afterwards is the payload of the last
  store into it, and what a load after a store reads is that store's payload.

  From the two cases: the body obligation of the pipeline rule at the proof data `dat2`, whose staging contents
  are the fold `stats2`; and the scratch invariant `Φ2` at the two ends of the region, where the scratch returns to
  the scoped buffers at some contents.
-/
import proofs.«124427_j55336358642036_2_alg».proof.Proof.Stats2Defs
import Idealize.ShloMosaic.Lib.Pipeline.FrameBody
import Idealize.ShloMosaic.Lib.Pipeline.Value
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal.Gen Cert.Sizes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of a whole-buffer access, of rank two and three. -/
private theorem offPair : (![0, 0] : Fin 2 → Nat) = fun _ => 0 := funext fun a => by fin_cases a <;> rfl
private theorem offTriple : (![0, 0, 0] : Fin 3 → Nat) = fun _ => 0 := funext fun a => by fin_cases a <;> rfl

/-- The condition of the body's conditional: the tile's index inside its half is zero. -/
abbrev cond2 (i : grid2.Coords) : Prop :=
  (Scalar.cmpi .ne (Scalar.extui (Scalar.cmpi .eq (BitVec.ofNat 32 (i 1).val) 0#32)) 0#32) = 1#1

/-- It holds at the first tile of each half: decided over the grid. -/
theorem hcond2 : ∀ t : Fin cfg2.N, cond2 (grid2.coords t) ↔ t.val % tilesPerHalf2 = 0 :=
  (by decide +kernel : ∀ t : Fin grid2.N, cond2 (grid2.coords t) ↔ t.val % tilesPerHalf2 = 0)

/-! ## The body's two cases -/

set_option maxHeartbeats 2000000 in
/-- The body at the first tile of a half: the hidden rows are projected into the scratch, the statistics are set to
    their start and updated by the tile; whatever the scratch and the statistics' buffers held is overwritten. -/
theorem run2_A (c : Dev nD) (E : Set ℕ) (i : grid2.Coords)
    (arg2 : Memref sig .tc .vmem S512x1024 .bf16) (harg2 : arg2.IsWhole) (arg3 : Memref sig .tc .vmem S256x1024 .bf16) (harg3 : arg3.IsWhole)
    (arg4 : Memref sig .tc .vmem S2048x256 .bf16) (harg4 : arg4.IsWhole) (arg5 : Memref sig .tc .vmem S1x2048 .f32) (harg5 : arg5.IsWhole)
    (arg6 : Memref sig .tc .vmem S1x512x1 .f32) (harg6 : arg6.IsWhole) (arg7 : Memref sig .tc .vmem S1x512x1 .f32) (harg7 : arg7.IsWhole)
    (arg8 : Memref sig .tc .vmem S512x256 .bf16) (harg8 : arg8.IsWhole) (hc : cond2 i)
    (hid : Vec F S512x1024 .bf16) (prj : Vec F S256x1024 .bf16) (wb : Vec F S2048x256 .bf16) (bb : Vec F S1x2048 .f32)
    (K : PUnit → sProp 𝕄) :
    iprop(owns (c : Thread nD τ) arg2 fullShare hid ∗ owns (c : Thread nD τ) arg3 fullShare prj
        ∗ owns (c : Thread nD τ) arg4 fullShare wb ∗ owns (c : Thread nD τ) arg5 fullShare bb
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare hid ∗ owns (c : Thread nD τ) arg3 fullShare prj
            ∗ owns (c : Thread nD τ) arg4 fullShare wb ∗ owns (c : Thread nD τ) arg5 fullShare bb
            ∗ owns (c : Thread nD τ) arg6 fullShare (step2 i wb bb (start2 hid prj)).m
            ∗ owns (c : Thread nD τ) arg7 fullShare (step2 i wb bb (start2 hid prj)).l
            ∗ owns (c : Thread nD τ) arg8 fullShare (step2 i wb bb (start2 hid prj)).y) -∗ K ⟨⟩))
      ⊢ wp frame (wpE (defs₀ (F := F)) Variants.none c none) E (cc2_kernel i arg2 harg2 arg3 harg3 arg4 harg4 arg5 harg5 arg6 harg6 arg7 harg7 arg8 harg8) K := by
  simp only [cc2_kernel_eq_skeleton]; unfold cc2_kernel_skel
  simp only [k2_part1_eq_skeleton]; unfold k2_part1_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf2 hf3 hf4 hf5
  sl_exec (disch := first | exact hc)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    dsimp only [step2, start2]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x256) _ offPair, View.readCov_unit_zero (S := S1x512x1) _ offTriple,
      View.readAt_eq_ld, View.ld_unit_zero (S := S512x1024) offPair, View.ld_unit_zero (S := S256x1024) offPair,
      View.ld_unit_zero (S := S2048x256) offPair, View.ld_unit_zero (S := S1x2048) offPair, View.ld_unit_zero (S := S1x512x1) offTriple,
      View.ld_unit_zero (S := S512x256) offPair]
  isplitl [H7]
  · iexists _; isplitr
    swap; · iexact H7
    ipureintro
    dsimp only [step2, start2]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x256) _ offPair, View.readCov_unit_zero (S := S1x512x1) _ offTriple,
      View.readAt_eq_ld, View.ld_unit_zero (S := S512x1024) offPair, View.ld_unit_zero (S := S256x1024) offPair,
      View.ld_unit_zero (S := S2048x256) offPair, View.ld_unit_zero (S := S1x2048) offPair, View.ld_unit_zero (S := S1x512x1) offTriple,
      View.ld_unit_zero (S := S512x256) offPair]
  iexists _; isplitr
  swap; · iexact H8
  ipureintro
  dsimp only [step2, start2]
  sl_unfold_words
  rw [View.read_writes_eq_canon _ _ _ (fun y => ⟨_, List.Mem.head _, View.mem_set_unit_zero offPair inb_S512x256_S512x256_0_0 y⟩),
    View.canon_cons_unit_zero (S := S512x256) offPair]
  simp only [View.readCov_unit_zero (S := S512x256) _ offPair, View.readCov_unit_zero (S := S1x512x1) _ offTriple,
    View.readAt_eq_ld, View.ld_unit_zero (S := S512x1024) offPair, View.ld_unit_zero (S := S256x1024) offPair,
    View.ld_unit_zero (S := S2048x256) offPair, View.ld_unit_zero (S := S1x2048) offPair, View.ld_unit_zero (S := S1x512x1) offTriple,
    View.ld_unit_zero (S := S512x256) offPair]

set_option maxHeartbeats 2000000 in
/-- The body at a later tile of a half: the scratch and the running statistics are read as the tile before left
    them; the statistics are updated, the scratch and the inputs stay. -/
theorem run2_B (c : Dev nD) (E : Set ℕ) (i : grid2.Coords)
    (arg2 : Memref sig .tc .vmem S512x1024 .bf16) (harg2 : arg2.IsWhole) (arg3 : Memref sig .tc .vmem S256x1024 .bf16) (harg3 : arg3.IsWhole)
    (arg4 : Memref sig .tc .vmem S2048x256 .bf16) (harg4 : arg4.IsWhole) (arg5 : Memref sig .tc .vmem S1x2048 .f32) (harg5 : arg5.IsWhole)
    (arg6 : Memref sig .tc .vmem S1x512x1 .f32) (harg6 : arg6.IsWhole) (arg7 : Memref sig .tc .vmem S1x512x1 .f32) (harg7 : arg7.IsWhole)
    (arg8 : Memref sig .tc .vmem S512x256 .bf16) (harg8 : arg8.IsWhole) (hc : ¬cond2 i)
    (hid : Vec F S512x1024 .bf16) (prj : Vec F S256x1024 .bf16) (wb : Vec F S2048x256 .bf16) (bb : Vec F S1x2048 .f32)
    (y : Vec F S512x256 .bf16) (m l : Vec F S1x512x1 .f32)
    (K : PUnit → sProp 𝕄) :
    iprop(owns (c : Thread nD τ) arg2 fullShare hid ∗ owns (c : Thread nD τ) arg3 fullShare prj
        ∗ owns (c : Thread nD τ) arg4 fullShare wb ∗ owns (c : Thread nD τ) arg5 fullShare bb
        ∗ owns (c : Thread nD τ) arg6 fullShare m ∗ owns (c : Thread nD τ) arg7 fullShare l
        ∗ owns (c : Thread nD τ) arg8 fullShare y
        ∗ (iprop(owns (c : Thread nD τ) arg2 fullShare hid ∗ owns (c : Thread nD τ) arg3 fullShare prj
            ∗ owns (c : Thread nD τ) arg4 fullShare wb ∗ owns (c : Thread nD τ) arg5 fullShare bb
            ∗ owns (c : Thread nD τ) arg6 fullShare (step2 i wb bb ⟨y, m, l⟩).m
            ∗ owns (c : Thread nD τ) arg7 fullShare (step2 i wb bb ⟨y, m, l⟩).l
            ∗ owns (c : Thread nD τ) arg8 fullShare (step2 i wb bb ⟨y, m, l⟩).y) -∗ K ⟨⟩))
      ⊢ wp frame (wpE (defs₀ (F := F)) Variants.none c none) E (cc2_kernel i arg2 harg2 arg3 harg3 arg4 harg4 arg5 harg5 arg6 harg6 arg7 harg7 arg8 harg8) K := by
  simp only [cc2_kernel_eq_skeleton]; unfold cc2_kernel_skel
  simp only [k2_part1_eq_skeleton]; unfold k2_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2 hf3 hf4 hf5 hf6 hf7 hf8
  sl_exec (disch := first | exact hc)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    dsimp only [step2, start2]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x256) _ offPair, View.readCov_unit_zero (S := S1x512x1) _ offTriple,
      View.readAt_eq_ld, View.ld_unit_zero (S := S512x1024) offPair, View.ld_unit_zero (S := S256x1024) offPair,
      View.ld_unit_zero (S := S2048x256) offPair, View.ld_unit_zero (S := S1x2048) offPair, View.ld_unit_zero (S := S1x512x1) offTriple,
      View.ld_unit_zero (S := S512x256) offPair]
  isplitl [H7]
  · iexists _; isplitr
    swap; · iexact H7
    ipureintro
    dsimp only [step2, start2]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x256) _ offPair, View.readCov_unit_zero (S := S1x512x1) _ offTriple,
      View.readAt_eq_ld, View.ld_unit_zero (S := S512x1024) offPair, View.ld_unit_zero (S := S256x1024) offPair,
      View.ld_unit_zero (S := S2048x256) offPair, View.ld_unit_zero (S := S1x2048) offPair, View.ld_unit_zero (S := S1x512x1) offTriple,
      View.ld_unit_zero (S := S512x256) offPair]
  iexists f8; isplitr; · ipureintro; rfl
  iexact H8

section Region

variable (V : (c : Dev nD) → (b : Ref sig .tc) → Buf (Elt F) ((c : Thread nD τ).loc b))

/-! ## The scratch invariant, opened and closed -/

/-- At any point the scratch is held at some contents beside the other scoped buffers. -/
theorem Φ2_open (c : Dev nD) (n : ℕ) : Φ2 V c n ⊢ iprop((∃ y, owns (c : Thread nD τ) scM2 fullShare y)
      ∗ Pipeline.scopedRestBut (Ix := Unit) (Name := ℕ) (U := UR sig nD τ) (Lvl := ℕ) (Val := Elt F) spec2 c [cc2_scratch0]) := by
  cases n with
  | zero =>
    show Pipeline.scopedRest (Ix := Unit) (Name := ℕ) (U := UR sig nD τ) (Lvl := ℕ) (Val := Elt F) spec2 c ⊢ _
    rw [scopedRest2_split]
    iintro ⟨⟨%f, Hs⟩, Hr⟩
    isplitl [Hs]
    · iexists f; rw [owns_whole]; iexact Hs
    iexact Hr
  | succ n =>
    rw [Φ2_succ]
    iintro ⟨Hs, Hr⟩
    isplitl [Hs]
    · iexists _; iexact Hs
    iexact Hr

/-- So the scoped buffers are whole again, the scratch among them. -/
theorem Φ2_close (c : Dev nD) (n : ℕ) : Φ2 V c n ⊢
    Pipeline.scopedRest (Ix := Unit) (Name := ℕ) (U := UR sig nD τ) (Lvl := ℕ) (Val := Elt F) spec2 c := by
  have hs : ∀ y, (owns (c : Thread nD τ) scM2 fullShare y : sProp 𝕄)
      ⊢ iprop(∃ f : Buf (Elt F) ((c : Thread nD τ).loc cc2_scratch0), ((c : Thread nD τ).loc cc2_scratch0) ↦{fullShare} f) := by
    intro y
    rw [owns_whole_eq]
    iintro ⟨%f, -, Hs⟩
    iexists f; iexact Hs
  refine (Φ2_open V c n).trans ?_
  rw [scopedRest2_split]
  iintro ⟨⟨%y, Hs⟩, Hr⟩
  isplitl [Hs]
  · iapply (hs y); iexact Hs
  iexact Hr

/-! ## What the body finds in each window's buffer -/
/-- Each input's current staging buffer holds its block at every point, fetched there or not: where it is not
    fetched its block index has not moved and the body left the block in place. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-- There the statistics' buffers hold what the tile before left. -/
theorem before2_4_B (c : Dev nD) (t : Fin cfg2.N) (h0 : ¬t.val % tilesPerHalf2 = 0) (d) :
    (dat2 V c).before 4 t d = (stats2 V c (t.val - 1)).m := by
  rw [Dat.before_out_kept _ 4 rfl t (sched2_4 t h0).1 (sched2_4 t h0).2 (fun _ => rfl) (fun _ _ => rfl)]
  dsimp only [dat2]
theorem before2_5_B (c : Dev nD) (t : Fin cfg2.N) (h0 : ¬t.val % tilesPerHalf2 = 0) (d) :
    (dat2 V c).before 5 t d = (stats2 V c (t.val - 1)).l := by
  rw [Dat.before_out_kept _ 5 rfl t (sched2_5 t h0).1 (sched2_5 t h0).2 (fun _ => rfl) (fun _ _ => rfl)]
  dsimp only [dat2]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 1600000 in
/-- The body at any point: the inputs' buffers hold their blocks; at the first tile of a half the scratch and the
    statistics are whatever they are and are set afresh; at a later tile they hold what the tile before left. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = Φ2 V c (t.val + 1) from rfl,
    show (dat2 V c).Φ t.castSucc = Φ2 V c t.val from rfl,
    show (dat2 V c).owesAt () t.succ = (dat2 V c).owesAt () t.castSucc from rfl,
    after2_0, after2_1, after2_2, after2_3, after2_4, after2_5, Φ2_succ]
  by_cases h0 : t.val % tilesPerHalf2 = 0
  · rw [stats2_A V c t h0]
    unfold stepAt2 startAt2
    refine (sep_mono (Φ2_open V c t.val) .rfl).trans ?_
    iintro ⟨⟨⟨%y, Hs⟩, Hrest⟩, Ho, ⟨%d0, H0⟩, ⟨%d1, H1⟩, ⟨%d2, H2⟩, ⟨%d3, H3⟩, ⟨%d4, H4⟩, ⟨%d5, H5⟩⟩
    iapply (run2_A c Set.univ (grid2.coords t) _ _ _ _ _ _ _ _ _ _ _ _ _ _ ((hcond2 t).mpr h0)
      (hidBlk2 V c t) (prjBlk2 V c t) (wBlk2 V c t) (bBlk2 V c t) _)
    isplitl [H0]; · iexact H0
    isplitl [H1]; · iexact H1
    isplitl [H2]; · iexact H2
    isplitl [H3]; · iexact H3
    isplitl [H4]; · iexists _; iexact H4
    isplitl [H5]; · iexists _; iexact H5
    isplitl [Hs]; · iexists _; iexact Hs
    iintro ⟨H0, H1, H2, H3, H4, H5, Hs⟩
    isplitl [Hs Hrest]
    · isplitl [Hs]; · iexact Hs
      iexact Hrest
    isplitl [Ho]; · iexact Ho
    isplitl [H0]; · iexact H0
    isplitl [H1]; · iexact H1
    isplitl [H2]; · iexact H2
    isplitl [H3]; · iexact H3
    isplitl [H4]; · iexact H4
    iexact H5
  · have ht : t.val ≠ 0 := fun e => h0 (by rw [e]; exact Nat.zero_mod _)
    rw [stats2_B V c t h0]
    simp only [before2_4_B V c t h0, before2_5_B V c t h0]
    rw [show Φ2 V c t.val = Φ2 V c (t.val - 1 + 1) from by rw [Nat.sub_one_add_one ht], Φ2_succ]
    unfold stepAt2
    iintro ⟨⟨Hs, Hrest⟩, Ho, ⟨%d0, H0⟩, ⟨%d1, H1⟩, ⟨%d2, H2⟩, ⟨%d3, H3⟩, ⟨%d4, H4⟩, ⟨%d5, H5⟩⟩
    iapply (run2_B c Set.univ (grid2.coords t) _ _ _ _ _ _ _ _ _ _ _ _ _ _ (fun h => h0 ((hcond2 t).mp h))
      (hidBlk2 V c t) (prjBlk2 V c t) (wBlk2 V c t) (bBlk2 V c t)
      (stats2 V c (t.val - 1)).y (stats2 V c (t.val - 1)).m (stats2 V c (t.val - 1)).l _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]; · iexact Hs
      iexact Hrest
    isplitl [Ho]; · iexact Ho
    isplitl [H0]; · iexact H0
    isplitl [H1]; · iexact H1
    isplitl [H2]; · iexact H2
    isplitl [H3]; · iexact H3
    isplitl [H4]; · iexact H4
    iexact H5

/-- The pipeline rule's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the two ends of the region -/

theorem Φ2_in (c : Dev nD) (T : sProp 𝕄) :
    iprop(BI.emp ∗ T ∗ Pipeline.scopedRest (Ix := Unit) (Name := ℕ) (U := UR sig nD τ) (Lvl := ℕ) (Val := Elt F) spec2 c)
      ⊢ (dat2 V c).Φ 0 := by
  show _ ⊢ Pipeline.scopedRest (Ix := Unit) (Name := ℕ) (U := UR sig nD τ) (Lvl := ℕ) (Val := Elt F) spec2 c
  iintro ⟨-, -, Hr⟩
  iexact Hr

theorem Φ2_out (c : Dev nD) :
    (dat2 V c).Φ (Fin.last _) ⊢ iprop(BI.emp ∗ Pipeline.ownSems0 (fun k : PEmpty => k.elim) c
      ∗ Pipeline.scopedRest (Ix := Unit) (Name := ℕ) (U := UR sig nD τ) (Lvl := ℕ) (Val := Elt F) spec2 c) := by
  rw [Pipeline.ownSems0_none, show (dat2 V c).Φ (Fin.last cfg2.N) = Φ2 V c cfg2.N from rfl]
  refine (Φ2_close V c _).trans ?_
  iintro Hr
  isplitr; · iempintro
  isplitr; · iempintro
  iexact Hr

end Region

end Cert.KernelIdeal.Hand

end
-- ==== Proof.Write3.lean ====
/-
  The write launch of vocabulary cluster 1 (launch 3), its body obligation.

  The body has one conditional: at a half's first tile it projects the hidden rows into the scratch. So a point is in
  one of two cases, decided by the tile coordinate (the point's position modulo the tiles per half): in the first the
  scratch comes in at anything and leaves at the projected rows; in the second it comes in at them and is left alone.
  In both the output window's buffer is stored whole, once, with the tile's payload over the projected rows: the masked
  logits less the row maximum and the logarithm of the row sum, plus the row's extra term.

  The hidden rows and the projection are one block each, the same at every point, so the projected rows are one value,
  and the invariant between points is the scratch owned at it (before the first point: at anything, inside the scoped
  rest). The invariant takes the scoped rest in before the first point and gives it back after the last.
-/
import proofs.«124427_j55336358642036_2_alg».proof.Proof.Write3Defs
import proofs.«124427_j55336358642036_2_alg».proof.Proof.Gen.KernelIdeal.Points
import proofs.«124427_j55336358642036_2_alg».proof.Proof.Sizes
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand

open Cert.KernelIdeal.Gen
open Cert.Sizes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's branch condition -/

/-- The condition of the body's one conditional: the tile coordinate is the half's first. -/
abbrev cond3_0 (i : grid3.Coords) : Prop :=
  (Scalar.cmpi .ne (Scalar.extui (Scalar.cmpi .eq (BitVec.ofNat 32 (i 1).val) 0#32)) 0#32) = 1#1

/-- It holds at each half's first point only, decided over the grid. -/
theorem hcond3_0 : ∀ t : Fin cfg3.N, cond3_0 (grid3.coords t) ↔ t.val % tilesPerHalf3 = 0 :=
  (by decide +kernel : ∀ t : Fin grid3.N, cond3_0 (grid3.coords t) ↔ t.val % tilesPerHalf3 = 0)

/-! ## What the body finds in the inputs' buffers -/

/-- Input window 0's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)

/-- Input window 1's current staging buffer holds its block at every point, fetched there or not. -/
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)

/-- Input window 2's current staging buffer holds its block at every point, fetched there or not. -/
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

/-- Input window 3's current staging buffer holds its block at every point, fetched there or not. -/
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

/-- Input window 4's current staging buffer holds its block at every point, fetched there or not. -/
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)

/-- Input window 5's current staging buffer holds its block at every point, fetched there or not. -/
theorem before3_5 (c : Dev nD) (t : Fin cfg3.N) (d) : (dat3 V c).before 5 t d = iblk3 V c 5 t :=
  ((dat3 V c).before_in_eq_fetched 5 rfl (fun _ => rfl) (fun _ _ _ => rfl)
    (fun t => by rw [after3_5]; unfold Dat.blockOf iblk3; rw [A_eq3]; try rfl) t d).trans
    (by unfold Dat.fetched Dat.blockOf iblk3; rw [A_eq3]; try rfl)

/-- Input window 6's current staging buffer holds its block at every point, fetched there or not. -/
theorem before3_6 (c : Dev nD) (t : Fin cfg3.N) (d) : (dat3 V c).before 6 t d = iblk3 V c 6 t :=
  ((dat3 V c).before_in_eq_fetched 6 rfl (fun _ => rfl) (fun _ _ _ => rfl)
    (fun t => by rw [after3_6]; unfold Dat.blockOf iblk3; rw [A_eq3]; try rfl) t d).trans
    (by unfold Dat.fetched Dat.blockOf iblk3; rw [A_eq3]; try rfl)

/-- The hidden rows' window and the projection's have one block: the same at every point. -/
theorem iblk3_0_const (c : Dev nD) (t : Fin cfg3.N) : iblk3 V c 0 t = iblk3 V c 0 pt3_0 := rfl
theorem iblk3_1_const (c : Dev nD) (t : Fin cfg3.N) : iblk3 V c 1 t = iblk3 V c 1 pt3_0 := rfl

/-! ## The body's two runs -/

/-- The offsets of every access of the body: the buffers' origins. -/
theorem zero3 : (![0, 0] : Fin 2 → Nat) = fun _ => 0 := funext fun a => by fin_cases a <;> rfl

set_option maxHeartbeats 1000000 in
/-- The body where the tile is NOT the half's first, on whole memrefs: the inputs' at their contents, the output's at
    anything, the scratch at contents ys. It runs to the continuation holding the inputs and the scratch as they were
    and the output's buffer at the tile's payload over ys. -/
theorem sound_kernel3_B (c : Dev nD) (E : Set ℕ) (i : grid3.Coords) (arg2 : Memref sig .tc .vmem S512x1024 .bf16) (harg2 : arg2.IsWhole) (arg3 : Memref sig .tc .vmem S256x1024 .bf16) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x2048 .f32) (harg9 : arg9.IsWhole) (arg10 : Memref sig .tc .vmem S512x256 .bf16) (harg10 : arg10.IsWhole) (hc : ¬cond3_0 i)
    (x0 : Vec F S512x1024 .bf16) (x1 : Vec F S256x1024 .bf16) (x2 : Vec F S2048x256 .bf16) (x3 : Vec F S1x2048 .f32) (x4 : Vec F S512x1 .f32) (x5 : Vec F S512x1 .f32) (x6 : Vec F S512x1 .f32) (ys : Vec F S512x256 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare ys
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k3_pay2 i ys x2 x3 x4 x5 x6) ∗ owns (c : Thread nD τ) arg10 fullShare ys) -∗ K ⟨⟩))
      ⊢ wp frame (wpE (defs₀ (F := F)) Variants.none c none) E (cc3_kernel i arg2 harg2 arg3 harg3 arg4 harg4 arg5 harg5 arg6 harg6 arg7 harg7 arg8 harg8 arg9 harg9 arg10 harg10) K := by
  simp only [cc3_kernel_eq_skeleton]; unfold cc3_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg10.eq_unread hfs
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H9]
  · iexists _; isplitr
    swap; · iexact H9
    ipureintro
    rw [View.read_writes_eq_canon _ _ _ (fun y => ⟨_, List.mem_singleton_self _, View.mem_set_unit_zero zero3 inb_S512x2048_S512x2048_0_0 y⟩), View.canon_unit_zero zero3]
    simp only [View.readAt_eq_ld, harg2.read_unread, harg3.read_unread, harg4.read_unread, harg5.read_unread, harg6.read_unread, harg7.read_unread, harg8.read_unread, harg10.read_unread,
      View.ld_unit_zero (S := S512x1024) zero3, View.ld_unit_zero (S := S256x1024) zero3, View.ld_unit_zero (S := S2048x256) zero3, View.ld_unit_zero (S := S1x2048) zero3,
      View.ld_unit_zero (S := S512x1) zero3, View.ld_unit_zero (S := S512x256) zero3]
  iexists _; isplitr; · ipureintro; exact harg10.read_unread _
  iexact HS

set_option maxHeartbeats 1000000 in
/-- The body where the tile IS the half's first, on whole memrefs: the inputs' at their contents, the output's and the
    scratch at anything. It runs to the continuation holding the inputs as they were, the scratch at the projected
    hidden rows and the output's buffer at the tile's payload over them. -/
theorem sound_kernel3_A (c : Dev nD) (E : Set ℕ) (i : grid3.Coords) (arg2 : Memref sig .tc .vmem S512x1024 .bf16) (harg2 : arg2.IsWhole) (arg3 : Memref sig .tc .vmem S256x1024 .bf16) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x2048 .f32) (harg9 : arg9.IsWhole) (arg10 : Memref sig .tc .vmem S512x256 .bf16) (harg10 : arg10.IsWhole) (hc : cond3_0 i)
    (x0 : Vec F S512x1024 .bf16) (x1 : Vec F S256x1024 .bf16) (x2 : Vec F S2048x256 .bf16) (x3 : Vec F S1x2048 .f32) (x4 : Vec F S512x1 .f32) (x5 : Vec F S512x1 .f32) (x6 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k3_pay2 i (k3_pay1 x0 x1) x2 x3 x4 x5 x6) ∗ owns (c : Thread nD τ) arg10 fullShare (k3_pay1 x0 x1)) -∗ K ⟨⟩))
      ⊢ wp frame (wpE (defs₀ (F := F)) Variants.none c none) E (cc3_kernel i arg2 harg2 arg3 harg3 arg4 harg4 arg5 harg5 arg6 harg6 arg7 harg7 arg8 harg8 arg9 harg9 arg10 harg10) K := by
  simp only [cc3_kernel_eq_skeleton]; unfold cc3_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc)

  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H9]
  · iexists _; isplitr
    swap; · iexact H9
    ipureintro
    rw [View.read_writes_eq_canon _ _ _ (fun y => ⟨_, List.mem_singleton_self _, View.mem_set_unit_zero zero3 inb_S512x2048_S512x2048_0_0 y⟩), View.canon_unit_zero zero3]
    sl_unfold_words
    simp only [View.readAt_eq_ld, harg2.read_unread, harg3.read_unread, harg4.read_unread, harg5.read_unread, harg6.read_unread, harg7.read_unread, harg8.read_unread,
      View.ld_unit_zero (S := S512x1024) zero3, View.ld_unit_zero (S := S256x1024) zero3, View.ld_unit_zero (S := S2048x256) zero3, View.ld_unit_zero (S := S1x2048) zero3,
      View.ld_unit_zero (S := S512x1) zero3, View.ld_unit_zero (S := S512x256) zero3, View.readCov_unit_zero (S := S512x256) _ zero3]
  iexists _; isplitr
  swap; · iexact HS
  ipureintro
  sl_unfold_words
  rw [View.read_writes_eq_canon _ _ _ (fun y => ⟨_, List.mem_singleton_self _, View.mem_set_unit_zero zero3 inb_S512x256_S512x256_0_0 y⟩), View.canon_unit_zero zero3]
  simp only [View.readAt_eq_ld, harg2.read_unread, harg3.read_unread, harg4.read_unread, harg5.read_unread, harg6.read_unread, harg7.read_unread, harg8.read_unread,
      View.ld_unit_zero (S := S512x1024) zero3, View.ld_unit_zero (S := S256x1024) zero3, View.ld_unit_zero (S := S2048x256) zero3, View.ld_unit_zero (S := S1x2048) zero3,
      View.ld_unit_zero (S := S512x1) zero3, View.ld_unit_zero (S := S512x256) zero3]

/-! ## The body obligation, at a generic point -/

/-- The scratch's contents in terms of the blocks at any point: the hidden rows' block and the projection's are the
    same at every point. -/
theorem y3_eq (c : Dev nD) (t : Fin cfg3.N) : y3 V c = k3_pay1 (iblk3 V c 0 t) (iblk3 V c 1 t) := rfl

/-- Before any point the invariant holds the scratch at some contents beside the scoped rest without it. -/
theorem Phi3_any (c : Dev nD) (n : ℕ) :
    Phi3 V c n ⊢ iprop((∃ d, owns (c : Thread nD τ) scM3 fullShare d) ∗ Pipeline.scopedRestBut (Ix := Unit) (Name := ℕ) (U := UR sig nD τ) (Lvl := ℕ) (Val := Elt F) spec3 c [cc3_scratch0]) := by
  cases n with
  | zero =>
    rw [Phi3_zero V c 0 rfl, scopedRest3_split]; simp only [owns_whole]; exact .rfl
  | succ n =>
    rw [Phi3_pos V c _ (Nat.succ_ne_zero n)]
    iintro ⟨Hs, Hr⟩
    isplitl [Hs]; · iexists _; iexact Hs
    iexact Hr

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 1000000 in
/-- The body at any point: the inputs' memrefs hold their blocks; at a half's first tile the scratch comes in at
    anything and leaves at the projected hidden rows, elsewhere it comes in and leaves at them; the output's buffer is
    left at the tile's payload over them; the rest of the invariant and the core's tallies pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl,
    show (dat3 V c).Φ t.succ = Phi3 V c (t.val + 1) from rfl, Phi3_pos V c _ (Nat.succ_ne_zero _),
    show (dat3 V c).Φ t.castSucc = Phi3 V c t.val from rfl,
    after3_0, after3_1, after3_2, after3_3, after3_4, after3_5, after3_6, after3_7]
  unfold out3_7
  by_cases h0 : t.val % tilesPerHalf3 = 0
  · rw [y3_eq V c t]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (Phi3_any V c t.val) $$ HΦ
    icases HΦ' with ⟨HS, Hr⟩
    iapply (sound_kernel3_A c Set.univ (grid3.coords t) _ _ _ _ _ _ _ _ _ _ _ _ _ _ _ _ _ _ ((hcond3_0 t).mpr h0)
      (iblk3 V c 0 t) (iblk3 V c 1 t) (iblk3 V c 2 t) (iblk3 V c 3 t) (iblk3 V c 4 t) (iblk3 V c 5 t) (iblk3 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := fun h => h0 (by rw [h]; exact Nat.zero_mod _)
    rw [Phi3_pos V c _ hz]
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel3_B c Set.univ (grid3.coords t) _ _ _ _ _ _ _ _ _ _ _ _ _ _ _ _ _ _ (fun h => h0 ((hcond3_0 t).mp h))
      (iblk3 V c 0 t) (iblk3 V c 1 t) (iblk3 V c 2 t) (iblk3 V c 3 t) (iblk3 V c 4 t) (iblk3 V c 5 t) (iblk3 V c 6 t) (y3 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's two ends -/

/-- What the region is handed (nothing of its own, the tables' part T, the scoped rest) is the invariant before the
    first point. -/
theorem Φ3_in (c : Dev nD) (T : sProp 𝕄) :
    iprop(BI.emp ∗ T ∗ Pipeline.scopedRest (Ix := Unit) (Name := ℕ) (U := UR sig nD τ) (Lvl := ℕ) (Val := Elt F) spec3 c) ⊢ (dat3 V c).Φ 0 := by
  rw [show (dat3 V c).Φ 0 = Pipeline.scopedRest (Ix := Unit) (Name := ℕ) (U := UR sig nD τ) (Lvl := ℕ) (Val := Elt F) spec3 c from rfl]
  iintro ⟨-, -, Hr⟩
  iexact Hr

/-- After the last point the invariant gives the scoped rest back: the scratch's named contents are forgotten. -/
theorem Φ3_out (c : Dev nD) :
    (dat3 V c).Φ (Fin.last _) ⊢ iprop(BI.emp ∗ Pipeline.ownSems0 (fun k : PEmpty => k.elim) c ∗ Pipeline.scopedRest (Ix := Unit) (Name := ℕ) (U := UR sig nD τ) (Lvl := ℕ) (Val := Elt F) spec3 c) := by
  rw [Pipeline.ownSems0_none, show (dat3 V c).Φ (Fin.last _) = Phi3 V c cfg3.N from rfl,
    Phi3_pos V c _ (by rw [show cfg3.N = grid3.N from rfl, N_3]; decide), scopedRest3_split, owns_whole]
  iintro ⟨Hs, Hr⟩
  isplitr; · iempintro
  isplitr; · iempintro
  isplitl [Hs]
  · iexists _; iexact Hs
  iexact Hr

end Cert.KernelIdeal.Hand

end
-- ==== Proof.Stats4.lean ====
/-
  The statistics launch of one vocabulary cluster: its body, run. The body has two cases, told apart by the tile's
  index inside its half. At the first tile it projects the hidden rows into the scratch and sets the running maximum
  and sum to their start before the tile's update; whatever the scratch and the two statistics' buffers held is
  overwritten, so nothing is asked of them. At every other tile the scratch and the two buffers hold what the tile
  before left (the buffers are not written back inside a half), and the body updates the statistics from them.
  In both cases every buffer is loaded and stored whole, so what a buffer holds afterwards is the payload of the last
  store into it, and what a load after a store reads is that store's payload.

  From the two cases: the body obligation of the pipeline rule at the proof data `dat4`, whose staging contents
  are the fold `stats4`; and the scratch invariant `Φ4` at the two ends of the region, where the scratch returns to
  the scoped buffers at some contents.
-/
import proofs.«124427_j55336358642036_2_alg».proof.Proof.Stats4Defs
import Idealize.ShloMosaic.Lib.Pipeline.FrameBody
import Idealize.ShloMosaic.Lib.Pipeline.Value
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal.Gen Cert.Sizes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of a whole-buffer access, of rank two and three. -/
private theorem offPair : (![0, 0] : Fin 2 → Nat) = fun _ => 0 := funext fun a => by fin_cases a <;> rfl
private theorem offTriple : (![0, 0, 0] : Fin 3 → Nat) = fun _ => 0 := funext fun a => by fin_cases a <;> rfl

/-- The condition of the body's conditional: the tile's index inside its half is zero. -/
abbrev cond4 (i : grid4.Coords) : Prop :=
  (Scalar.cmpi .ne (Scalar.extui (Scalar.cmpi .eq (BitVec.ofNat 32 (i 1).val) 0#32)) 0#32) = 1#1

/-- It holds at the first tile of each half: decided over the grid. -/
theorem hcond4 : ∀ t : Fin cfg4.N, cond4 (grid4.coords t) ↔ t.val % tilesPerHalf4 = 0 :=
  (by decide +kernel : ∀ t : Fin grid4.N, cond4 (grid4.coords t) ↔ t.val % tilesPerHalf4 = 0)

/-! ## The body's two cases -/

set_option maxHeartbeats 2000000 in
/-- The body at the first tile of a half: the hidden rows are projected into the scratch, the statistics are set to
    their start and updated by the tile; whatever the scratch and the statistics' buffers held is overwritten. -/
theorem run4_A (c : Dev nD) (E : Set ℕ) (i : grid4.Coords)
    (arg2 : Memref sig .tc .vmem S512x1024 .bf16) (harg2 : arg2.IsWhole) (arg3 : Memref sig .tc .vmem S64x1024 .bf16) (harg3 : arg3.IsWhole)
    (arg4 : Memref sig .tc .vmem S4096x64 .bf16) (harg4 : arg4.IsWhole) (arg5 : Memref sig .tc .vmem S1x4096 .f32) (harg5 : arg5.IsWhole)
    (arg6 : Memref sig .tc .vmem S1x512x1 .f32) (harg6 : arg6.IsWhole) (arg7 : Memref sig .tc .vmem S1x512x1 .f32) (harg7 : arg7.IsWhole)
    (arg8 : Memref sig .tc .vmem S512x64 .bf16) (harg8 : arg8.IsWhole) (hc : cond4 i)
    (hid : Vec F S512x1024 .bf16) (prj : Vec F S64x1024 .bf16) (wb : Vec F S4096x64 .bf16) (bb : Vec F S1x4096 .f32)
    (K : PUnit → sProp 𝕄) :
    iprop(owns (c : Thread nD τ) arg2 fullShare hid ∗ owns (c : Thread nD τ) arg3 fullShare prj
        ∗ owns (c : Thread nD τ) arg4 fullShare wb ∗ owns (c : Thread nD τ) arg5 fullShare bb
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare hid ∗ owns (c : Thread nD τ) arg3 fullShare prj
            ∗ owns (c : Thread nD τ) arg4 fullShare wb ∗ owns (c : Thread nD τ) arg5 fullShare bb
            ∗ owns (c : Thread nD τ) arg6 fullShare (step4 i wb bb (start4 hid prj)).m
            ∗ owns (c : Thread nD τ) arg7 fullShare (step4 i wb bb (start4 hid prj)).l
            ∗ owns (c : Thread nD τ) arg8 fullShare (step4 i wb bb (start4 hid prj)).y) -∗ K ⟨⟩))
      ⊢ wp frame (wpE (defs₀ (F := F)) Variants.none c none) E (cc4_kernel i arg2 harg2 arg3 harg3 arg4 harg4 arg5 harg5 arg6 harg6 arg7 harg7 arg8 harg8) K := by
  simp only [cc4_kernel_eq_skeleton]; unfold cc4_kernel_skel
  simp only [k4_part1_eq_skeleton]; unfold k4_part1_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf2 hf3 hf4 hf5
  sl_exec (disch := first | exact hc)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    dsimp only [step4, start4]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x64) _ offPair, View.readCov_unit_zero (S := S1x512x1) _ offTriple,
      View.readAt_eq_ld, View.ld_unit_zero (S := S512x1024) offPair, View.ld_unit_zero (S := S64x1024) offPair,
      View.ld_unit_zero (S := S4096x64) offPair, View.ld_unit_zero (S := S1x4096) offPair, View.ld_unit_zero (S := S1x512x1) offTriple,
      View.ld_unit_zero (S := S512x64) offPair]
  isplitl [H7]
  · iexists _; isplitr
    swap; · iexact H7
    ipureintro
    dsimp only [step4, start4]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x64) _ offPair, View.readCov_unit_zero (S := S1x512x1) _ offTriple,
      View.readAt_eq_ld, View.ld_unit_zero (S := S512x1024) offPair, View.ld_unit_zero (S := S64x1024) offPair,
      View.ld_unit_zero (S := S4096x64) offPair, View.ld_unit_zero (S := S1x4096) offPair, View.ld_unit_zero (S := S1x512x1) offTriple,
      View.ld_unit_zero (S := S512x64) offPair]
  iexists _; isplitr
  swap; · iexact H8
  ipureintro
  dsimp only [step4, start4]
  sl_unfold_words
  rw [View.read_writes_eq_canon _ _ _ (fun y => ⟨_, List.Mem.head _, View.mem_set_unit_zero offPair inb_S512x64_S512x64_0_0 y⟩),
    View.canon_cons_unit_zero (S := S512x64) offPair]
  simp only [View.readCov_unit_zero (S := S512x64) _ offPair, View.readCov_unit_zero (S := S1x512x1) _ offTriple,
    View.readAt_eq_ld, View.ld_unit_zero (S := S512x1024) offPair, View.ld_unit_zero (S := S64x1024) offPair,
    View.ld_unit_zero (S := S4096x64) offPair, View.ld_unit_zero (S := S1x4096) offPair, View.ld_unit_zero (S := S1x512x1) offTriple,
    View.ld_unit_zero (S := S512x64) offPair]

set_option maxHeartbeats 2000000 in
/-- The body at a later tile of a half: the scratch and the running statistics are read as the tile before left
    them; the statistics are updated, the scratch and the inputs stay. -/
theorem run4_B (c : Dev nD) (E : Set ℕ) (i : grid4.Coords)
    (arg2 : Memref sig .tc .vmem S512x1024 .bf16) (harg2 : arg2.IsWhole) (arg3 : Memref sig .tc .vmem S64x1024 .bf16) (harg3 : arg3.IsWhole)
    (arg4 : Memref sig .tc .vmem S4096x64 .bf16) (harg4 : arg4.IsWhole) (arg5 : Memref sig .tc .vmem S1x4096 .f32) (harg5 : arg5.IsWhole)
    (arg6 : Memref sig .tc .vmem S1x512x1 .f32) (harg6 : arg6.IsWhole) (arg7 : Memref sig .tc .vmem S1x512x1 .f32) (harg7 : arg7.IsWhole)
    (arg8 : Memref sig .tc .vmem S512x64 .bf16) (harg8 : arg8.IsWhole) (hc : ¬cond4 i)
    (hid : Vec F S512x1024 .bf16) (prj : Vec F S64x1024 .bf16) (wb : Vec F S4096x64 .bf16) (bb : Vec F S1x4096 .f32)
    (y : Vec F S512x64 .bf16) (m l : Vec F S1x512x1 .f32)
    (K : PUnit → sProp 𝕄) :
    iprop(owns (c : Thread nD τ) arg2 fullShare hid ∗ owns (c : Thread nD τ) arg3 fullShare prj
        ∗ owns (c : Thread nD τ) arg4 fullShare wb ∗ owns (c : Thread nD τ) arg5 fullShare bb
        ∗ owns (c : Thread nD τ) arg6 fullShare m ∗ owns (c : Thread nD τ) arg7 fullShare l
        ∗ owns (c : Thread nD τ) arg8 fullShare y
        ∗ (iprop(owns (c : Thread nD τ) arg2 fullShare hid ∗ owns (c : Thread nD τ) arg3 fullShare prj
            ∗ owns (c : Thread nD τ) arg4 fullShare wb ∗ owns (c : Thread nD τ) arg5 fullShare bb
            ∗ owns (c : Thread nD τ) arg6 fullShare (step4 i wb bb ⟨y, m, l⟩).m
            ∗ owns (c : Thread nD τ) arg7 fullShare (step4 i wb bb ⟨y, m, l⟩).l
            ∗ owns (c : Thread nD τ) arg8 fullShare (step4 i wb bb ⟨y, m, l⟩).y) -∗ K ⟨⟩))
      ⊢ wp frame (wpE (defs₀ (F := F)) Variants.none c none) E (cc4_kernel i arg2 harg2 arg3 harg3 arg4 harg4 arg5 harg5 arg6 harg6 arg7 harg7 arg8 harg8) K := by
  simp only [cc4_kernel_eq_skeleton]; unfold cc4_kernel_skel
  simp only [k4_part1_eq_skeleton]; unfold k4_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2 hf3 hf4 hf5 hf6 hf7 hf8
  sl_exec (disch := first | exact hc)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    dsimp only [step4, start4]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x64) _ offPair, View.readCov_unit_zero (S := S1x512x1) _ offTriple,
      View.readAt_eq_ld, View.ld_unit_zero (S := S512x1024) offPair, View.ld_unit_zero (S := S64x1024) offPair,
      View.ld_unit_zero (S := S4096x64) offPair, View.ld_unit_zero (S := S1x4096) offPair, View.ld_unit_zero (S := S1x512x1) offTriple,
      View.ld_unit_zero (S := S512x64) offPair]
  isplitl [H7]
  · iexists _; isplitr
    swap; · iexact H7
    ipureintro
    dsimp only [step4, start4]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x64) _ offPair, View.readCov_unit_zero (S := S1x512x1) _ offTriple,
      View.readAt_eq_ld, View.ld_unit_zero (S := S512x1024) offPair, View.ld_unit_zero (S := S64x1024) offPair,
      View.ld_unit_zero (S := S4096x64) offPair, View.ld_unit_zero (S := S1x4096) offPair, View.ld_unit_zero (S := S1x512x1) offTriple,
      View.ld_unit_zero (S := S512x64) offPair]
  iexists f8; isplitr; · ipureintro; rfl
  iexact H8

section Region

variable (V : (c : Dev nD) → (b : Ref sig .tc) → Buf (Elt F) ((c : Thread nD τ).loc b))

/-! ## The scratch invariant, opened and closed -/

/-- At any point the scratch is held at some contents beside the other scoped buffers. -/
theorem Φ4_open (c : Dev nD) (n : ℕ) : Φ4 V c n ⊢ iprop((∃ y, owns (c : Thread nD τ) scM4 fullShare y)
      ∗ Pipeline.scopedRestBut (Ix := Unit) (Name := ℕ) (U := UR sig nD τ) (Lvl := ℕ) (Val := Elt F) spec4 c [cc4_scratch0]) := by
  cases n with
  | zero =>
    show Pipeline.scopedRest (Ix := Unit) (Name := ℕ) (U := UR sig nD τ) (Lvl := ℕ) (Val := Elt F) spec4 c ⊢ _
    rw [scopedRest4_split]
    iintro ⟨⟨%f, Hs⟩, Hr⟩
    isplitl [Hs]
    · iexists f; rw [owns_whole]; iexact Hs
    iexact Hr
  | succ n =>
    rw [Φ4_succ]
    iintro ⟨Hs, Hr⟩
    isplitl [Hs]
    · iexists _; iexact Hs
    iexact Hr

/-- So the scoped buffers are whole again, the scratch among them. -/
theorem Φ4_close (c : Dev nD) (n : ℕ) : Φ4 V c n ⊢
    Pipeline.scopedRest (Ix := Unit) (Name := ℕ) (U := UR sig nD τ) (Lvl := ℕ) (Val := Elt F) spec4 c := by
  have hs : ∀ y, (owns (c : Thread nD τ) scM4 fullShare y : sProp 𝕄)
      ⊢ iprop(∃ f : Buf (Elt F) ((c : Thread nD τ).loc cc4_scratch0), ((c : Thread nD τ).loc cc4_scratch0) ↦{fullShare} f) := by
    intro y
    rw [owns_whole_eq]
    iintro ⟨%f, -, Hs⟩
    iexists f; iexact Hs
  refine (Φ4_open V c n).trans ?_
  rw [scopedRest4_split]
  iintro ⟨⟨%y, Hs⟩, Hr⟩
  isplitl [Hs]
  · iapply (hs y); iexact Hs
  iexact Hr

/-! ## What the body finds in each window's buffer -/
/-- Each input's current staging buffer holds its block at every point, fetched there or not: where it is not
    fetched its block index has not moved and the body left the block in place. -/
theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)

/-- There the statistics' buffers hold what the tile before left. -/
theorem before4_4_B (c : Dev nD) (t : Fin cfg4.N) (h0 : ¬t.val % tilesPerHalf4 = 0) (d) :
    (dat4 V c).before 4 t d = (stats4 V c (t.val - 1)).m := by
  rw [Dat.before_out_kept _ 4 rfl t (sched4_4 t h0).1 (sched4_4 t h0).2 (fun _ => rfl) (fun _ _ => rfl)]
  dsimp only [dat4]
theorem before4_5_B (c : Dev nD) (t : Fin cfg4.N) (h0 : ¬t.val % tilesPerHalf4 = 0) (d) :
    (dat4 V c).before 5 t d = (stats4 V c (t.val - 1)).l := by
  rw [Dat.before_out_kept _ 5 rfl t (sched4_5 t h0).1 (sched4_5 t h0).2 (fun _ => rfl) (fun _ _ => rfl)]
  dsimp only [dat4]

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

set_option maxHeartbeats 1600000 in
/-- The body at any point: the inputs' buffers hold their blocks; at the first tile of a half the scratch and the
    statistics are whatever they are and are set afresh; at a later tile they hold what the tile before left. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = Φ4 V c (t.val + 1) from rfl,
    show (dat4 V c).Φ t.castSucc = Φ4 V c t.val from rfl,
    show (dat4 V c).owesAt () t.succ = (dat4 V c).owesAt () t.castSucc from rfl,
    after4_0, after4_1, after4_2, after4_3, after4_4, after4_5, Φ4_succ]
  by_cases h0 : t.val % tilesPerHalf4 = 0
  · rw [stats4_A V c t h0]
    unfold stepAt4 startAt4
    refine (sep_mono (Φ4_open V c t.val) .rfl).trans ?_
    iintro ⟨⟨⟨%y, Hs⟩, Hrest⟩, Ho, ⟨%d0, H0⟩, ⟨%d1, H1⟩, ⟨%d2, H2⟩, ⟨%d3, H3⟩, ⟨%d4, H4⟩, ⟨%d5, H5⟩⟩
    iapply (run4_A c Set.univ (grid4.coords t) _ _ _ _ _ _ _ _ _ _ _ _ _ _ ((hcond4 t).mpr h0)
      (hidBlk4 V c t) (prjBlk4 V c t) (wBlk4 V c t) (bBlk4 V c t) _)
    isplitl [H0]; · iexact H0
    isplitl [H1]; · iexact H1
    isplitl [H2]; · iexact H2
    isplitl [H3]; · iexact H3
    isplitl [H4]; · iexists _; iexact H4
    isplitl [H5]; · iexists _; iexact H5
    isplitl [Hs]; · iexists _; iexact Hs
    iintro ⟨H0, H1, H2, H3, H4, H5, Hs⟩
    isplitl [Hs Hrest]
    · isplitl [Hs]; · iexact Hs
      iexact Hrest
    isplitl [Ho]; · iexact Ho
    isplitl [H0]; · iexact H0
    isplitl [H1]; · iexact H1
    isplitl [H2]; · iexact H2
    isplitl [H3]; · iexact H3
    isplitl [H4]; · iexact H4
    iexact H5
  · have ht : t.val ≠ 0 := fun e => h0 (by rw [e]; exact Nat.zero_mod _)
    rw [stats4_B V c t h0]
    simp only [before4_4_B V c t h0, before4_5_B V c t h0]
    rw [show Φ4 V c t.val = Φ4 V c (t.val - 1 + 1) from by rw [Nat.sub_one_add_one ht], Φ4_succ]
    unfold stepAt4
    iintro ⟨⟨Hs, Hrest⟩, Ho, ⟨%d0, H0⟩, ⟨%d1, H1⟩, ⟨%d2, H2⟩, ⟨%d3, H3⟩, ⟨%d4, H4⟩, ⟨%d5, H5⟩⟩
    iapply (run4_B c Set.univ (grid4.coords t) _ _ _ _ _ _ _ _ _ _ _ _ _ _ (fun h => h0 ((hcond4 t).mp h))
      (hidBlk4 V c t) (prjBlk4 V c t) (wBlk4 V c t) (bBlk4 V c t)
      (stats4 V c (t.val - 1)).y (stats4 V c (t.val - 1)).m (stats4 V c (t.val - 1)).l _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]; · iexact Hs
      iexact Hrest
    isplitl [Ho]; · iexact Ho
    isplitl [H0]; · iexact H0
    isplitl [H1]; · iexact H1
    isplitl [H2]; · iexact H2
    isplitl [H3]; · iexact H3
    isplitl [H4]; · iexact H4
    iexact H5

/-- The pipeline rule's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the two ends of the region -/

theorem Φ4_in (c : Dev nD) (T : sProp 𝕄) :
    iprop(BI.emp ∗ T ∗ Pipeline.scopedRest (Ix := Unit) (Name := ℕ) (U := UR sig nD τ) (Lvl := ℕ) (Val := Elt F) spec4 c)
      ⊢ (dat4 V c).Φ 0 := by
  show _ ⊢ Pipeline.scopedRest (Ix := Unit) (Name := ℕ) (U := UR sig nD τ) (Lvl := ℕ) (Val := Elt F) spec4 c
  iintro ⟨-, -, Hr⟩
  iexact Hr

theorem Φ4_out (c : Dev nD) :
    (dat4 V c).Φ (Fin.last _) ⊢ iprop(BI.emp ∗ Pipeline.ownSems0 (fun k : PEmpty => k.elim) c
      ∗ Pipeline.scopedRest (Ix := Unit) (Name := ℕ) (U := UR sig nD τ) (Lvl := ℕ) (Val := Elt F) spec4 c) := by
  rw [Pipeline.ownSems0_none, show (dat4 V c).Φ (Fin.last cfg4.N) = Φ4 V c cfg4.N from rfl]
  refine (Φ4_close V c _).trans ?_
  iintro Hr
  isplitr; · iempintro
  isplitr; · iempintro
  iexact Hr

end Region

end Cert.KernelIdeal.Hand

end
-- ==== Proof.Write5.lean ====
/-
  The write launch of vocabulary cluster 1 (launch 3), its body obligation.

  The body has one conditional: at a half's first tile it projects the hidden rows into the scratch. So a point is in
  one of two cases, decided by the tile coordinate (the point's position modulo the tiles per half): in the first the
  scratch comes in at anything and leaves at the projected rows; in the second it comes in at them and is left alone.
  In both the output window's buffer is stored whole, once, with the tile's payload over the projected rows: the masked
  logits less the row maximum and the logarithm of the row sum, plus the row's extra term.

  The hidden rows and the projection are one block each, the same at every point, so the projected rows are one value,
  and the invariant between points is the scratch owned at it (before the first point: at anything, inside the scoped
  rest). The invariant takes the scoped rest in before the first point and gives it back after the last.
-/
import proofs.«124427_j55336358642036_2_alg».proof.Proof.Write5Defs
import proofs.«124427_j55336358642036_2_alg».proof.Proof.Gen.KernelIdeal.Points
import proofs.«124427_j55336358642036_2_alg».proof.Proof.Sizes
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand

open Cert.KernelIdeal.Gen
open Cert.Sizes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's branch condition -/

/-- The condition of the body's one conditional: the tile coordinate is the half's first. -/
abbrev cond5_0 (i : grid5.Coords) : Prop :=
  (Scalar.cmpi .ne (Scalar.extui (Scalar.cmpi .eq (BitVec.ofNat 32 (i 1).val) 0#32)) 0#32) = 1#1

/-- It holds at each half's first point only, decided over the grid. -/
theorem hcond5_0 : ∀ t : Fin cfg5.N, cond5_0 (grid5.coords t) ↔ t.val % tilesPerHalf5 = 0 :=
  (by decide +kernel : ∀ t : Fin grid5.N, cond5_0 (grid5.coords t) ↔ t.val % tilesPerHalf5 = 0)

/-! ## What the body finds in the inputs' buffers -/

/-- Input window 0's current staging buffer holds its block at every point, fetched there or not. -/
theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)

/-- Input window 1's current staging buffer holds its block at every point, fetched there or not. -/
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)

/-- Input window 2's current staging buffer holds its block at every point, fetched there or not. -/
theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)

/-- Input window 3's current staging buffer holds its block at every point, fetched there or not. -/
theorem before5_3 (c : Dev nD) (t : Fin cfg5.N) (d) : (dat5 V c).before 3 t d = iblk5 V c 3 t :=
  ((dat5 V c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)

/-- Input window 4's current staging buffer holds its block at every point, fetched there or not. -/
theorem before5_4 (c : Dev nD) (t : Fin cfg5.N) (d) : (dat5 V c).before 4 t d = iblk5 V c 4 t :=
  ((dat5 V c).before_in_eq_fetched 4 rfl (fun _ => rfl) (fun _ _ _ => rfl)
    (fun t => by rw [after5_4]; unfold Dat.blockOf iblk5; rw [A_eq5]; try rfl) t d).trans
    (by unfold Dat.fetched Dat.blockOf iblk5; rw [A_eq5]; try rfl)

/-- Input window 5's current staging buffer holds its block at every point, fetched there or not. -/
theorem before5_5 (c : Dev nD) (t : Fin cfg5.N) (d) : (dat5 V c).before 5 t d = iblk5 V c 5 t :=
  ((dat5 V c).before_in_eq_fetched 5 rfl (fun _ => rfl) (fun _ _ _ => rfl)
    (fun t => by rw [after5_5]; unfold Dat.blockOf iblk5; rw [A_eq5]; try rfl) t d).trans
    (by unfold Dat.fetched Dat.blockOf iblk5; rw [A_eq5]; try rfl)

/-- Input window 6's current staging buffer holds its block at every point, fetched there or not. -/
theorem before5_6 (c : Dev nD) (t : Fin cfg5.N) (d) : (dat5 V c).before 6 t d = iblk5 V c 6 t :=
  ((dat5 V c).before_in_eq_fetched 6 rfl (fun _ => rfl) (fun _ _ _ => rfl)
    (fun t => by rw [after5_6]; unfold Dat.blockOf iblk5; rw [A_eq5]; try rfl) t d).trans
    (by unfold Dat.fetched Dat.blockOf iblk5; rw [A_eq5]; try rfl)

/-- The hidden rows' window and the projection's have one block: the same at every point. -/
theorem iblk5_0_const (c : Dev nD) (t : Fin cfg5.N) : iblk5 V c 0 t = iblk5 V c 0 pt5_0 := rfl
theorem iblk5_1_const (c : Dev nD) (t : Fin cfg5.N) : iblk5 V c 1 t = iblk5 V c 1 pt5_0 := rfl

/-! ## The body's two runs -/

/-- The offsets of every access of the body: the buffers' origins. -/
theorem zero3 : (![0, 0] : Fin 2 → Nat) = fun _ => 0 := funext fun a => by fin_cases a <;> rfl

set_option maxHeartbeats 1000000 in
/-- The body where the tile is NOT the half's first, on whole memrefs: the inputs' at their contents, the output's at
    anything, the scratch at contents ys. It runs to the continuation holding the inputs and the scratch as they were
    and the output's buffer at the tile's payload over ys. -/
theorem sound_kernel5_B (c : Dev nD) (E : Set ℕ) (i : grid5.Coords) (arg2 : Memref sig .tc .vmem S512x1024 .bf16) (harg2 : arg2.IsWhole) (arg3 : Memref sig .tc .vmem S64x1024 .bf16) (harg3 : arg3.IsWhole) (arg4 : Memref sig .tc .vmem S4096x64 .bf16) (harg4 : arg4.IsWhole) (arg5 : Memref sig .tc .vmem S1x4096 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x64 .bf16) (harg10 : arg10.IsWhole) (hc : ¬cond5_0 i)
    (x0 : Vec F S512x1024 .bf16) (x1 : Vec F S64x1024 .bf16) (x2 : Vec F S4096x64 .bf16) (x3 : Vec F S1x4096 .f32) (x4 : Vec F S512x1 .f32) (x5 : Vec F S512x1 .f32) (x6 : Vec F S512x1 .f32) (ys : Vec F S512x64 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare ys
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k5_pay2 i ys x2 x3 x4 x5 x6) ∗ owns (c : Thread nD τ) arg10 fullShare ys) -∗ K ⟨⟩))
      ⊢ wp frame (wpE (defs₀ (F := F)) Variants.none c none) E (cc5_kernel i arg2 harg2 arg3 harg3 arg4 harg4 arg5 harg5 arg6 harg6 arg7 harg7 arg8 harg8 arg9 harg9 arg10 harg10) K := by
  simp only [cc5_kernel_eq_skeleton]; unfold cc5_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg10.eq_unread hfs
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H9]
  · iexists _; isplitr
    swap; · iexact H9
    ipureintro
    rw [View.read_writes_eq_canon _ _ _ (fun y => ⟨_, List.mem_singleton_self _, View.mem_set_unit_zero zero3 inb_S512x4096_S512x4096_0_0 y⟩), View.canon_unit_zero zero3]
    simp only [View.readAt_eq_ld, harg2.read_unread, harg3.read_unread, harg4.read_unread, harg5.read_unread, harg6.read_unread, harg7.read_unread, harg8.read_unread, harg10.read_unread,
      View.ld_unit_zero (S := S512x1024) zero3, View.ld_unit_zero (S := S64x1024) zero3, View.ld_unit_zero (S := S4096x64) zero3, View.ld_unit_zero (S := S1x4096) zero3,
      View.ld_unit_zero (S := S512x1) zero3, View.ld_unit_zero (S := S512x64) zero3]
  iexists _; isplitr; · ipureintro; exact harg10.read_unread _
  iexact HS

set_option maxHeartbeats 1000000 in
/-- The body where the tile IS the half's first, on whole memrefs: the inputs' at their contents, the output's and the
    scratch at anything. It runs to the continuation holding the inputs as they were, the scratch at the projected
    hidden rows and the output's buffer at the tile's payload over them. -/
theorem sound_kernel5_A (c : Dev nD) (E : Set ℕ) (i : grid5.Coords) (arg2 : Memref sig .tc .vmem S512x1024 .bf16) (harg2 : arg2.IsWhole) (arg3 : Memref sig .tc .vmem S64x1024 .bf16) (harg3 : arg3.IsWhole) (arg4 : Memref sig .tc .vmem S4096x64 .bf16) (harg4 : arg4.IsWhole) (arg5 : Memref sig .tc .vmem S1x4096 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x64 .bf16) (harg10 : arg10.IsWhole) (hc : cond5_0 i)
    (x0 : Vec F S512x1024 .bf16) (x1 : Vec F S64x1024 .bf16) (x2 : Vec F S4096x64 .bf16) (x3 : Vec F S1x4096 .f32) (x4 : Vec F S512x1 .f32) (x5 : Vec F S512x1 .f32) (x6 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k5_pay2 i (k5_pay1 x0 x1) x2 x3 x4 x5 x6) ∗ owns (c : Thread nD τ) arg10 fullShare (k5_pay1 x0 x1)) -∗ K ⟨⟩))
      ⊢ wp frame (wpE (defs₀ (F := F)) Variants.none c none) E (cc5_kernel i arg2 harg2 arg3 harg3 arg4 harg4 arg5 harg5 arg6 harg6 arg7 harg7 arg8 harg8 arg9 harg9 arg10 harg10) K := by
  simp only [cc5_kernel_eq_skeleton]; unfold cc5_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc)

  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H9]
  · iexists _; isplitr
    swap; · iexact H9
    ipureintro
    rw [View.read_writes_eq_canon _ _ _ (fun y => ⟨_, List.mem_singleton_self _, View.mem_set_unit_zero zero3 inb_S512x4096_S512x4096_0_0 y⟩), View.canon_unit_zero zero3]
    sl_unfold_words
    simp only [View.readAt_eq_ld, harg2.read_unread, harg3.read_unread, harg4.read_unread, harg5.read_unread, harg6.read_unread, harg7.read_unread, harg8.read_unread,
      View.ld_unit_zero (S := S512x1024) zero3, View.ld_unit_zero (S := S64x1024) zero3, View.ld_unit_zero (S := S4096x64) zero3, View.ld_unit_zero (S := S1x4096) zero3,
      View.ld_unit_zero (S := S512x1) zero3, View.ld_unit_zero (S := S512x64) zero3, View.readCov_unit_zero (S := S512x64) _ zero3]
  iexists _; isplitr
  swap; · iexact HS
  ipureintro
  sl_unfold_words
  rw [View.read_writes_eq_canon _ _ _ (fun y => ⟨_, List.mem_singleton_self _, View.mem_set_unit_zero zero3 inb_S512x64_S512x64_0_0 y⟩), View.canon_unit_zero zero3]
  simp only [View.readAt_eq_ld, harg2.read_unread, harg3.read_unread, harg4.read_unread, harg5.read_unread, harg6.read_unread, harg7.read_unread, harg8.read_unread,
      View.ld_unit_zero (S := S512x1024) zero3, View.ld_unit_zero (S := S64x1024) zero3, View.ld_unit_zero (S := S4096x64) zero3, View.ld_unit_zero (S := S1x4096) zero3,
      View.ld_unit_zero (S := S512x1) zero3, View.ld_unit_zero (S := S512x64) zero3]

/-! ## The body obligation, at a generic point -/

/-- The scratch's contents in terms of the blocks at any point: the hidden rows' block and the projection's are the
    same at every point. -/
theorem y5_eq (c : Dev nD) (t : Fin cfg5.N) : y5 V c = k5_pay1 (iblk5 V c 0 t) (iblk5 V c 1 t) := rfl

/-- Before any point the invariant holds the scratch at some contents beside the scoped rest without it. -/
theorem Phi5_any (c : Dev nD) (n : ℕ) :
    Phi5 V c n ⊢ iprop((∃ d, owns (c : Thread nD τ) scM5 fullShare d) ∗ Pipeline.scopedRestBut (Ix := Unit) (Name := ℕ) (U := UR sig nD τ) (Lvl := ℕ) (Val := Elt F) spec5 c [cc5_scratch0]) := by
  cases n with
  | zero =>
    rw [Phi5_zero V c 0 rfl, scopedRest5_split]; simp only [owns_whole]; exact .rfl
  | succ n =>
    rw [Phi5_pos V c _ (Nat.succ_ne_zero n)]
    iintro ⟨Hs, Hr⟩
    isplitl [Hs]; · iexists _; iexact Hs
    iexact Hr

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

set_option maxHeartbeats 1000000 in
/-- The body at any point: the inputs' memrefs hold their blocks; at a half's first tile the scratch comes in at
    anything and leaves at the projected hidden rows, elsewhere it comes in and leaves at them; the output's buffer is
    left at the tile's payload over them; the rest of the invariant and the core's tallies pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).owesAt () t.succ = (dat5 V c).owesAt () t.castSucc from rfl,
    show (dat5 V c).Φ t.succ = Phi5 V c (t.val + 1) from rfl, Phi5_pos V c _ (Nat.succ_ne_zero _),
    show (dat5 V c).Φ t.castSucc = Phi5 V c t.val from rfl,
    after5_0, after5_1, after5_2, after5_3, after5_4, after5_5, after5_6, after5_7]
  unfold out5_7
  by_cases h0 : t.val % tilesPerHalf5 = 0
  · rw [y5_eq V c t]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (Phi5_any V c t.val) $$ HΦ
    icases HΦ' with ⟨HS, Hr⟩
    iapply (sound_kernel5_A c Set.univ (grid5.coords t) _ _ _ _ _ _ _ _ _ _ _ _ _ _ _ _ _ _ ((hcond5_0 t).mpr h0)
      (iblk5 V c 0 t) (iblk5 V c 1 t) (iblk5 V c 2 t) (iblk5 V c 3 t) (iblk5 V c 4 t) (iblk5 V c 5 t) (iblk5 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := fun h => h0 (by rw [h]; exact Nat.zero_mod _)
    rw [Phi5_pos V c _ hz]
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel5_B c Set.univ (grid5.coords t) _ _ _ _ _ _ _ _ _ _ _ _ _ _ _ _ _ _ (fun h => h0 ((hcond5_0 t).mp h))
      (iblk5 V c 0 t) (iblk5 V c 1 t) (iblk5 V c 2 t) (iblk5 V c 3 t) (iblk5 V c 4 t) (iblk5 V c 5 t) (iblk5 V c 6 t) (y5 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The invariant at the region's two ends -/

/-- What the region is handed (nothing of its own, the tables' part T, the scoped rest) is the invariant before the
    first point. -/
theorem Φ5_in (c : Dev nD) (T : sProp 𝕄) :
    iprop(BI.emp ∗ T ∗ Pipeline.scopedRest (Ix := Unit) (Name := ℕ) (U := UR sig nD τ) (Lvl := ℕ) (Val := Elt F) spec5 c) ⊢ (dat5 V c).Φ 0 := by
  rw [show (dat5 V c).Φ 0 = Pipeline.scopedRest (Ix := Unit) (Name := ℕ) (U := UR sig nD τ) (Lvl := ℕ) (Val := Elt F) spec5 c from rfl]
  iintro ⟨-, -, Hr⟩
  iexact Hr

/-- After the last point the invariant gives the scoped rest back: the scratch's named contents are forgotten. -/
theorem Φ5_out (c : Dev nD) :
    (dat5 V c).Φ (Fin.last _) ⊢ iprop(BI.emp ∗ Pipeline.ownSems0 (fun k : PEmpty => k.elim) c ∗ Pipeline.scopedRest (Ix := Unit) (Name := ℕ) (U := UR sig nD τ) (Lvl := ℕ) (Val := Elt F) spec5 c) := by
  rw [Pipeline.ownSems0_none, show (dat5 V c).Φ (Fin.last _) = Phi5 V c cfg5.N from rfl,
    Phi5_pos V c _ (by rw [show cfg5.N = grid5.N from rfl, N_5]; decide), scopedRest5_split, owns_whole]
  iintro ⟨Hs, Hr⟩
  isplitr; · iempintro
  isplitr; · iempintro
  isplitl [Hs]
  · iexists _; iexact Hs
  iexact Hr

end Cert.KernelIdeal.Hand

end
-- ==== Proof.Stats6.lean ====
/-
  The statistics launch of one vocabulary cluster: its body, run. The body has two cases, told apart by the tile's
  index inside its half. At the first tile it projects the hidden rows into the scratch and sets the running maximum
  and sum to their start before the tile's update; whatever the scratch and the two statistics' buffers held is
  overwritten, so nothing is asked of them. At every other tile the scratch and the two buffers hold what the tile
  before left (the buffers are not written back inside a half), and the body updates the statistics from them.
  In both cases every buffer is loaded and stored whole, so what a buffer holds afterwards is the payload of the last
  store into it, and what a load after a store reads is that store's payload.

  From the two cases: the body obligation of the pipeline rule at the proof data `dat6`, whose staging contents
  are the fold `stats6`; and the scratch invariant `Φ6` at the two ends of the region, where the scratch returns to
  the scoped buffers at some contents.
-/
import proofs.«124427_j55336358642036_2_alg».proof.Proof.Stats6Defs
import Idealize.ShloMosaic.Lib.Pipeline.FrameBody
import Idealize.ShloMosaic.Lib.Pipeline.Value
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal.Gen Cert.Sizes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of a whole-buffer access, of rank two and three. -/
private theorem offPair : (![0, 0] : Fin 2 → Nat) = fun _ => 0 := funext fun a => by fin_cases a <;> rfl
private theorem offTriple : (![0, 0, 0] : Fin 3 → Nat) = fun _ => 0 := funext fun a => by fin_cases a <;> rfl

/-- The condition of the body's conditional: the tile's index inside its half is zero. -/
abbrev cond6 (i : grid6.Coords) : Prop :=
  (Scalar.cmpi .ne (Scalar.extui (Scalar.cmpi .eq (BitVec.ofNat 32 (i 1).val) 0#32)) 0#32) = 1#1

/-- It holds at the first tile of each half: decided over the grid. -/
theorem hcond6 : ∀ t : Fin cfg6.N, cond6 (grid6.coords t) ↔ t.val % tilesPerHalf6 = 0 :=
  (by decide +kernel : ∀ t : Fin grid6.N, cond6 (grid6.coords t) ↔ t.val % tilesPerHalf6 = 0)

/-! ## The body's two cases -/

set_option maxHeartbeats 2000000 in
/-- The body at the first tile of a half: the hidden rows are projected into the scratch, the statistics are set to
    their start and updated by the tile; whatever the scratch and the statistics' buffers held is overwritten. -/
theorem run6_A (c : Dev nD) (E : Set ℕ) (i : grid6.Coords)
    (arg2 : Memref sig .tc .vmem S512x1024 .bf16) (harg2 : arg2.IsWhole) (arg3 : Memref sig .tc .vmem S16x1024 .bf16) (harg3 : arg3.IsWhole)
    (arg4 : Memref sig .tc .vmem S4096x16 .bf16) (harg4 : arg4.IsWhole) (arg5 : Memref sig .tc .vmem S1x4096 .f32) (harg5 : arg5.IsWhole)
    (arg6 : Memref sig .tc .vmem S1x512x1 .f32) (harg6 : arg6.IsWhole) (arg7 : Memref sig .tc .vmem S1x512x1 .f32) (harg7 : arg7.IsWhole)
    (arg8 : Memref sig .tc .vmem S512x16 .bf16) (harg8 : arg8.IsWhole) (hc : cond6 i)
    (hid : Vec F S512x1024 .bf16) (prj : Vec F S16x1024 .bf16) (wb : Vec F S4096x16 .bf16) (bb : Vec F S1x4096 .f32)
    (K : PUnit → sProp 𝕄) :
    iprop(owns (c : Thread nD τ) arg2 fullShare hid ∗ owns (c : Thread nD τ) arg3 fullShare prj
        ∗ owns (c : Thread nD τ) arg4 fullShare wb ∗ owns (c : Thread nD τ) arg5 fullShare bb
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare hid ∗ owns (c : Thread nD τ) arg3 fullShare prj
            ∗ owns (c : Thread nD τ) arg4 fullShare wb ∗ owns (c : Thread nD τ) arg5 fullShare bb
            ∗ owns (c : Thread nD τ) arg6 fullShare (step6 i wb bb (start6 hid prj)).m
            ∗ owns (c : Thread nD τ) arg7 fullShare (step6 i wb bb (start6 hid prj)).l
            ∗ owns (c : Thread nD τ) arg8 fullShare (step6 i wb bb (start6 hid prj)).y) -∗ K ⟨⟩))
      ⊢ wp frame (wpE (defs₀ (F := F)) Variants.none c none) E (cc6_kernel i arg2 harg2 arg3 harg3 arg4 harg4 arg5 harg5 arg6 harg6 arg7 harg7 arg8 harg8) K := by
  simp only [cc6_kernel_eq_skeleton]; unfold cc6_kernel_skel
  simp only [k6_part1_eq_skeleton]; unfold k6_part1_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf2 hf3 hf4 hf5
  sl_exec (disch := first | exact hc)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    dsimp only [step6, start6]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x16) _ offPair, View.readCov_unit_zero (S := S1x512x1) _ offTriple,
      View.readAt_eq_ld, View.ld_unit_zero (S := S512x1024) offPair, View.ld_unit_zero (S := S16x1024) offPair,
      View.ld_unit_zero (S := S4096x16) offPair, View.ld_unit_zero (S := S1x4096) offPair, View.ld_unit_zero (S := S1x512x1) offTriple,
      View.ld_unit_zero (S := S512x16) offPair]
  isplitl [H7]
  · iexists _; isplitr
    swap; · iexact H7
    ipureintro
    dsimp only [step6, start6]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x16) _ offPair, View.readCov_unit_zero (S := S1x512x1) _ offTriple,
      View.readAt_eq_ld, View.ld_unit_zero (S := S512x1024) offPair, View.ld_unit_zero (S := S16x1024) offPair,
      View.ld_unit_zero (S := S4096x16) offPair, View.ld_unit_zero (S := S1x4096) offPair, View.ld_unit_zero (S := S1x512x1) offTriple,
      View.ld_unit_zero (S := S512x16) offPair]
  iexists _; isplitr
  swap; · iexact H8
  ipureintro
  dsimp only [step6, start6]
  sl_unfold_words
  rw [View.read_writes_eq_canon _ _ _ (fun y => ⟨_, List.Mem.head _, View.mem_set_unit_zero offPair inb_S512x16_S512x16_0_0 y⟩),
    View.canon_cons_unit_zero (S := S512x16) offPair]
  simp only [View.readCov_unit_zero (S := S512x16) _ offPair, View.readCov_unit_zero (S := S1x512x1) _ offTriple,
    View.readAt_eq_ld, View.ld_unit_zero (S := S512x1024) offPair, View.ld_unit_zero (S := S16x1024) offPair,
    View.ld_unit_zero (S := S4096x16) offPair, View.ld_unit_zero (S := S1x4096) offPair, View.ld_unit_zero (S := S1x512x1) offTriple,
    View.ld_unit_zero (S := S512x16) offPair]

set_option maxHeartbeats 2000000 in
/-- The body at a later tile of a half: the scratch and the running statistics are read as the tile before left
    them; the statistics are updated, the scratch and the inputs stay. -/
theorem run6_B (c : Dev nD) (E : Set ℕ) (i : grid6.Coords)
    (arg2 : Memref sig .tc .vmem S512x1024 .bf16) (harg2 : arg2.IsWhole) (arg3 : Memref sig .tc .vmem S16x1024 .bf16) (harg3 : arg3.IsWhole)
    (arg4 : Memref sig .tc .vmem S4096x16 .bf16) (harg4 : arg4.IsWhole) (arg5 : Memref sig .tc .vmem S1x4096 .f32) (harg5 : arg5.IsWhole)
    (arg6 : Memref sig .tc .vmem S1x512x1 .f32) (harg6 : arg6.IsWhole) (arg7 : Memref sig .tc .vmem S1x512x1 .f32) (harg7 : arg7.IsWhole)
    (arg8 : Memref sig .tc .vmem S512x16 .bf16) (harg8 : arg8.IsWhole) (hc : ¬cond6 i)
    (hid : Vec F S512x1024 .bf16) (prj : Vec F S16x1024 .bf16) (wb : Vec F S4096x16 .bf16) (bb : Vec F S1x4096 .f32)
    (y : Vec F S512x16 .bf16) (m l : Vec F S1x512x1 .f32)
    (K : PUnit → sProp 𝕄) :
    iprop(owns (c : Thread nD τ) arg2 fullShare hid ∗ owns (c : Thread nD τ) arg3 fullShare prj
        ∗ owns (c : Thread nD τ) arg4 fullShare wb ∗ owns (c : Thread nD τ) arg5 fullShare bb
        ∗ owns (c : Thread nD τ) arg6 fullShare m ∗ owns (c : Thread nD τ) arg7 fullShare l
        ∗ owns (c : Thread nD τ) arg8 fullShare y
        ∗ (iprop(owns (c : Thread nD τ) arg2 fullShare hid ∗ owns (c : Thread nD τ) arg3 fullShare prj
            ∗ owns (c : Thread nD τ) arg4 fullShare wb ∗ owns (c : Thread nD τ) arg5 fullShare bb
            ∗ owns (c : Thread nD τ) arg6 fullShare (step6 i wb bb ⟨y, m, l⟩).m
            ∗ owns (c : Thread nD τ) arg7 fullShare (step6 i wb bb ⟨y, m, l⟩).l
            ∗ owns (c : Thread nD τ) arg8 fullShare (step6 i wb bb ⟨y, m, l⟩).y) -∗ K ⟨⟩))
      ⊢ wp frame (wpE (defs₀ (F := F)) Variants.none c none) E (cc6_kernel i arg2 harg2 arg3 harg3 arg4 harg4 arg5 harg5 arg6 harg6 arg7 harg7 arg8 harg8) K := by
  simp only [cc6_kernel_eq_skeleton]; unfold cc6_kernel_skel
  simp only [k6_part1_eq_skeleton]; unfold k6_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2 hf3 hf4 hf5 hf6 hf7 hf8
  sl_exec (disch := first | exact hc)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    dsimp only [step6, start6]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x16) _ offPair, View.readCov_unit_zero (S := S1x512x1) _ offTriple,
      View.readAt_eq_ld, View.ld_unit_zero (S := S512x1024) offPair, View.ld_unit_zero (S := S16x1024) offPair,
      View.ld_unit_zero (S := S4096x16) offPair, View.ld_unit_zero (S := S1x4096) offPair, View.ld_unit_zero (S := S1x512x1) offTriple,
      View.ld_unit_zero (S := S512x16) offPair]
  isplitl [H7]
  · iexists _; isplitr
    swap; · iexact H7
    ipureintro
    dsimp only [step6, start6]
    sl_unfold_words
    rw [View.read_writes_eq_canon _ _ _ (fun y => ⟨_, List.Mem.head _, View.mem_set_unit_zero offTriple inb_S1x512x1_S1x512x1_0_0_0 y⟩),
      View.canon_cons_unit_zero (S := S1x512x1) offTriple]
    simp only [View.readCov_unit_zero (S := S512x16) _ offPair, View.readCov_unit_zero (S := S1x512x1) _ offTriple,
      View.readAt_eq_ld, View.ld_unit_zero (S := S512x1024) offPair, View.ld_unit_zero (S := S16x1024) offPair,
      View.ld_unit_zero (S := S4096x16) offPair, View.ld_unit_zero (S := S1x4096) offPair, View.ld_unit_zero (S := S1x512x1) offTriple,
      View.ld_unit_zero (S := S512x16) offPair]
  iexists f8; isplitr; · ipureintro; rfl
  iexact H8

section Region

variable (V : (c : Dev nD) → (b : Ref sig .tc) → Buf (Elt F) ((c : Thread nD τ).loc b))

/-! ## The scratch invariant, opened and closed -/

/-- At any point the scratch is held at some contents beside the other scoped buffers. -/
theorem Φ6_open (c : Dev nD) (n : ℕ) : Φ6 V c n ⊢ iprop((∃ y, owns (c : Thread nD τ) scM6 fullShare y)
      ∗ Pipeline.scopedRestBut (Ix := Unit) (Name := ℕ) (U := UR sig nD τ) (Lvl := ℕ) (Val := Elt F) spec6 c [cc6_scratch0]) := by
  cases n with
  | zero =>
    show Pipeline.scopedRest (Ix := Unit) (Name := ℕ) (U := UR sig nD τ) (Lvl := ℕ) (Val := Elt F) spec6 c ⊢ _
    rw [scopedRest6_split]
    iintro ⟨⟨%f, Hs⟩, Hr⟩
    isplitl [Hs]
    · iexists f; rw [owns_whole]; iexact Hs
    iexact Hr
  | succ n =>
    rw [Φ6_succ]
    iintro ⟨Hs, Hr⟩
    isplitl [Hs]
    · iexists _; iexact Hs
    iexact Hr

/-- So the scoped buffers are whole again, the scratch among them. -/
theorem Φ6_close (c : Dev nD) (n : ℕ) : Φ6 V c n ⊢
    Pipeline.scopedRest (Ix := Unit) (Name := ℕ) (U := UR sig nD τ) (Lvl := ℕ) (Val := Elt F) spec6 c := by
  have hs : ∀ y, (owns (c : Thread nD τ) scM6 fullShare y : sProp 𝕄)
      ⊢ iprop(∃ f : Buf (Elt F) ((c : Thread nD τ).loc cc6_scratch0), ((c : Thread nD τ).loc cc6_scratch0) ↦{fullShare} f) := by
    intro y
    rw [owns_whole_eq]
    iintro ⟨%f, -, Hs⟩
    iexists f; iexact Hs
  refine (Φ6_open V c n).trans ?_
  rw [scopedRest6_split]
  iintro ⟨⟨%y, Hs⟩, Hr⟩
  isplitl [Hs]
  · iapply (hs y); iexact Hs
  iexact Hr

/-! ## What the body finds in each window's buffer -/
/-- Each input's current staging buffer holds its block at every point, fetched there or not: where it is not
    fetched its block index has not moved and the body left the block in place. -/
theorem before6_0 (c : Dev nD) (t : Fin cfg6.N) (d) : (dat6 V c).before 0 t d = iblk6 V c 0 t :=
  ((dat6 V c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl)
    (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl)
    (fun t => by rw [after6_3]; unfold Dat.blockOf iblk6; rw [A_eq6]; try rfl) t d).trans
    (by unfold Dat.fetched Dat.blockOf iblk6; rw [A_eq6]; try rfl)

/-- There the statistics' buffers hold what the tile before left. -/
theorem before6_4_B (c : Dev nD) (t : Fin cfg6.N) (h0 : ¬t.val % tilesPerHalf6 = 0) (d) :
    (dat6 V c).before 4 t d = (stats6 V c (t.val - 1)).m := by
  rw [Dat.before_out_kept _ 4 rfl t (sched6_4 t h0).1 (sched6_4 t h0).2 (fun _ => rfl) (fun _ _ => rfl)]
  dsimp only [dat6]
theorem before6_5_B (c : Dev nD) (t : Fin cfg6.N) (h0 : ¬t.val % tilesPerHalf6 = 0) (d) :
    (dat6 V c).before 5 t d = (stats6 V c (t.val - 1)).l := by
  rw [Dat.before_out_kept _ 5 rfl t (sched6_5 t h0).1 (sched6_5 t h0).2 (fun _ => rfl) (fun _ _ => rfl)]
  dsimp only [dat6]

/-! ## The body obligation -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

set_option maxHeartbeats 1600000 in
/-- The body at any point: the inputs' buffers hold their blocks; at the first tile of a half the scratch and the
    statistics are whatever they are and are set afresh; at a later tile they hold what the tile before left. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = Φ6 V c (t.val + 1) from rfl,
    show (dat6 V c).Φ t.castSucc = Φ6 V c t.val from rfl,
    show (dat6 V c).owesAt () t.succ = (dat6 V c).owesAt () t.castSucc from rfl,
    after6_0, after6_1, after6_2, after6_3, after6_4, after6_5, Φ6_succ]
  by_cases h0 : t.val % tilesPerHalf6 = 0
  · rw [stats6_A V c t h0]
    unfold stepAt6 startAt6
    refine (sep_mono (Φ6_open V c t.val) .rfl).trans ?_
    iintro ⟨⟨⟨%y, Hs⟩, Hrest⟩, Ho, ⟨%d0, H0⟩, ⟨%d1, H1⟩, ⟨%d2, H2⟩, ⟨%d3, H3⟩, ⟨%d4, H4⟩, ⟨%d5, H5⟩⟩
    iapply (run6_A c Set.univ (grid6.coords t) _ _ _ _ _ _ _ _ _ _ _ _ _ _ ((hcond6 t).mpr h0)
      (hidBlk6 V c t) (prjBlk6 V c t) (wBlk6 V c t) (bBlk6 V c t) _)
    isplitl [H0]; · iexact H0
    isplitl [H1]; · iexact H1
    isplitl [H2]; · iexact H2
    isplitl [H3]; · iexact H3
    isplitl [H4]; · iexists _; iexact H4
    isplitl [H5]; · iexists _; iexact H5
    isplitl [Hs]; · iexists _; iexact Hs
    iintro ⟨H0, H1, H2, H3, H4, H5, Hs⟩
    isplitl [Hs Hrest]
    · isplitl [Hs]; · iexact Hs
      iexact Hrest
    isplitl [Ho]; · iexact Ho
    isplitl [H0]; · iexact H0
    isplitl [H1]; · iexact H1
    isplitl [H2]; · iexact H2
    isplitl [H3]; · iexact H3
    isplitl [H4]; · iexact H4
    iexact H5
  · have ht : t.val ≠ 0 := fun e => h0 (by rw [e]; exact Nat.zero_mod _)
    rw [stats6_B V c t h0]
    simp only [before6_4_B V c t h0, before6_5_B V c t h0]
    rw [show Φ6 V c t.val = Φ6 V c (t.val - 1 + 1) from by rw [Nat.sub_one_add_one ht], Φ6_succ]
    unfold stepAt6
    iintro ⟨⟨Hs, Hrest⟩, Ho, ⟨%d0, H0⟩, ⟨%d1, H1⟩, ⟨%d2, H2⟩, ⟨%d3, H3⟩, ⟨%d4, H4⟩, ⟨%d5, H5⟩⟩
    iapply (run6_B c Set.univ (grid6.coords t) _ _ _ _ _ _ _ _ _ _ _ _ _ _ (fun h => h0 ((hcond6 t).mp h))
      (hidBlk6 V c t) (prjBlk6 V c t) (wBlk6 V c t) (bBlk6 V c t)
      (stats6 V c (t.val - 1)).y (stats6 V c (t.val - 1)).m (stats6 V c (t.val - 1)).l _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]; · iexact Hs
      iexact Hrest
    isplitl [Ho]; · iexact Ho
    isplitl [H0]; · iexact H0
    isplitl [H1]; · iexact H1
    isplitl [H2]; · iexact H2
    isplitl [H3]; · iexact H3
    isplitl [H4]; · iexact H4
    iexact H5

/-- The pipeline rule's body obligation, at every point. -/
theorem body_obligation6 (c : Dev nD) : BodyObligation (dat6 (F := F) V c) (defs₀ (F := F)) Variants.none () Set.univ := fun t => by
  rw [bigSep_W6, bigSep_W6]
  exact sound_body6 V c t

/-! ## The invariant at the two ends of the region -/

theorem Φ6_in (c : Dev nD) (T : sProp 𝕄) :
    iprop(BI.emp ∗ T ∗ Pipeline.scopedRest (Ix := Unit) (Name := ℕ) (U := UR sig nD τ) (Lvl := ℕ) (Val := Elt F) spec6 c)
      ⊢ (dat6 V c).Φ 0 := by
  show _ ⊢ Pipeline.scopedRest (Ix := Unit) (Name := ℕ) (U := UR sig nD τ) (Lvl := ℕ) (Val := Elt F) spec6 c
  iintro ⟨-, -, Hr⟩
  iexact Hr

theorem Φ6_out (c : Dev nD) :
    (dat6 V c).Φ (Fin.last _) ⊢ iprop(BI.emp ∗ Pipeline.ownSems0 (fun k : PEmpty => k.elim) c
      ∗ Pipeline.scopedRest (Ix := Unit) (Name := ℕ) (U := UR sig nD τ) (Lvl := ℕ) (Val := Elt F) spec6 c) := by
  rw [Pipeline.ownSems0_none, show (dat6 V c).Φ (Fin.last cfg6.N) = Φ6 V c cfg6.N from rfl]
  refine (Φ6_close V c _).trans ?_
  iintro Hr
  isplitr; · iempintro
  isplitr; · iempintro
  iexact Hr

end Region

end Cert.KernelIdeal.Hand

end
-- ==== Proof.Write7.lean ====
/-
  The write launch of vocabulary cluster 1 (launch 3), its body obligation.

  The body has one conditional: at a half's first tile it projects the hidden rows into the scratch. So a point is in
  one of two cases, decided by the tile coordinate (the point's position modulo the tiles per half): in the first the
  scratch comes in at anything and leaves at the projected rows; in the second it comes in at them and is left alone.
  In both the output window's buffer is stored whole, once, with the tile's payload over the projected rows: the masked
  logits less the row maximum and the logarithm of the row sum, plus the row's extra term.

  The hidden rows and the projection are one block each, the same at every point, so the projected rows are one value,
  and the invariant between points is the scratch owned at it (before the first point: at anything, inside the scoped
  rest). The invariant takes the scoped rest in before the first point and gives it back after the last.
-/
import proofs.«124427_j55336358642036_2_alg».proof.Proof.Write7Defs
import proofs.«124427_j55336358642036_2_alg».proof.Proof.Gen.KernelIdeal.Points
import proofs.«124427_j55336358642036_2_alg».proof.Proof.Sizes
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand

open Cert.KernelIdeal.Gen
open Cert.Sizes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's branch condition -/

/-- The condition of the body's one conditional: the tile coordinate is the half's first. -/
abbrev cond7_0 (i : grid7.Coords) : Prop :=
  (Scalar.cmpi .ne (Scalar.extui (Scalar.cmpi .eq (BitVec.ofNat 32 (i 1).val) 0#32)) 0#32) = 1#1

/-- It holds at each half's first point only, decided over the grid. -/
theorem hcond7_0 : ∀ t : Fin cfg7.N, cond7_0 (grid7.coords t) ↔ t.val % tilesPerHalf7 = 0 :=
  (by decide +kernel : ∀ t : Fin grid7.N, cond7_0 (grid7.coords t) ↔ t.val % tilesPerHalf7 = 0)

/-! ## What the body finds in the inputs' buffers -/

/-- Input window 0's current staging buffer holds its block at every point, fetched there or not. -/
theorem before7_0 (c : Dev nD) (t : Fin cfg7.N) (d) : (dat7 V c).before 0 t d = iblk7 V c 0 t :=
  ((dat7 V c).before_in_eq_fetched 0 rfl (fun _ => rfl) (fun _ _ _ => rfl)
    (fun t => by rw [after7_0]; unfold Dat.blockOf iblk7; rw [A_eq7]; try rfl) t d).trans
    (by unfold Dat.fetched Dat.blockOf iblk7; rw [A_eq7]; try rfl)

/-- Input window 1's current staging buffer holds its block at every point, fetched there or not. -/
theorem before7_1 (c : Dev nD) (t : Fin cfg7.N) (d) : (dat7 V c).before 1 t d = iblk7 V c 1 t :=
  ((dat7 V c).before_in_eq_fetched 1 rfl (fun _ => rfl) (fun _ _ _ => rfl)
    (fun t => by rw [after7_1]; unfold Dat.blockOf iblk7; rw [A_eq7]; try rfl) t d).trans
    (by unfold Dat.fetched Dat.blockOf iblk7; rw [A_eq7]; try rfl)

/-- Input window 2's current staging buffer holds its block at every point, fetched there or not. -/
theorem before7_2 (c : Dev nD) (t : Fin cfg7.N) (d) : (dat7 V c).before 2 t d = iblk7 V c 2 t :=
  ((dat7 V c).before_in_eq_fetched 2 rfl (fun _ => rfl) (fun _ _ _ => rfl)
    (fun t => by rw [after7_2]; unfold Dat.blockOf iblk7; rw [A_eq7]; try rfl) t d).trans
    (by unfold Dat.fetched Dat.blockOf iblk7; rw [A_eq7]; try rfl)

/-- Input window 3's current staging buffer holds its block at every point, fetched there or not. -/
theorem before7_3 (c : Dev nD) (t : Fin cfg7.N) (d) : (dat7 V c).before 3 t d = iblk7 V c 3 t :=
  ((dat7 V c).before_in_eq_fetched 3 rfl (fun _ => rfl) (fun _ _ _ => rfl)
    (fun t => by rw [after7_3]; unfold Dat.blockOf iblk7; rw [A_eq7]; try rfl) t d).trans
    (by unfold Dat.fetched Dat.blockOf iblk7; rw [A_eq7]; try rfl)

/-- Input window 4's current staging buffer holds its block at every point, fetched there or not. -/
theorem before7_4 (c : Dev nD) (t : Fin cfg7.N) (d) : (dat7 V c).before 4 t d = iblk7 V c 4 t :=
  ((dat7 V c).before_in_eq_fetched 4 rfl (fun _ => rfl) (fun _ _ _ => rfl)
    (fun t => by rw [after7_4]; unfold Dat.blockOf iblk7; rw [A_eq7]; try rfl) t d).trans
    (by unfold Dat.fetched Dat.blockOf iblk7; rw [A_eq7]; try rfl)

/-- Input window 5's current staging buffer holds its block at every point, fetched there or not. -/
theorem before7_5 (c : Dev nD) (t : Fin cfg7.N) (d) : (dat7 V c).before 5 t d = iblk7 V c 5 t :=
  ((dat7 V c).before_in_eq_fetched 5 rfl (fun _ => rfl) (fun _ _ _ => rfl)
    (fun t => by rw [after7_5]; unfold Dat.blockOf iblk7; rw [A_eq7]; try rfl) t d).trans
    (by unfold Dat.fetched Dat.blockOf iblk7; rw [A_eq7]; try rfl)

/-- Input window 6's current staging buffer holds its block at every point, fetched there or not. -/
theorem before7_6 (c : Dev nD) (t : Fin cfg7.N) (d) : (dat7 V c).before 6 t d = iblk7 V c 6 t :=
  ((dat7 V c).before_in_eq_fetched 6 rfl (fun _ => rfl) (fun _ _ _ => rfl)
    (fun t => by rw [after7_6]; unfold Dat.blockOf iblk7; rw [A_eq7]; try rfl) t d).trans
    (by unfold Dat.fetched Dat.blockOf iblk7; rw [A_eq7]; try rfl)

/-- The hidden rows' window and the projection's have one block: the same at every point. -/
theorem iblk7_0_const (c : Dev nD) (t : Fin cfg7.N) : iblk7 V c 0 t = iblk7 V c 0 pt7_0 := rfl
theorem iblk7_1_const (c : Dev nD) (t : Fin cfg7.N) : iblk7 V c 1 t = iblk7 V c 1 pt7_0 := rfl

/-! ## The body's two runs -/

/-- The offsets of every access of the body: the buffers' origins. -/
theorem zero3 : (![0, 0] : Fin 2 → Nat) = fun _ => 0 := funext fun a => by fin_cases a <;> rfl

set_option maxHeartbeats 1000000 in
/-- The body where the tile is NOT the half's first, on whole memrefs: the inputs' at their contents, the output's at
    anything, the scratch at contents ys. It runs to the continuation holding the inputs and the scratch as they were
    and the output's buffer at the tile's payload over ys. -/
theorem sound_kernel7_B (c : Dev nD) (E : Set ℕ) (i : grid7.Coords) (arg2 : Memref sig .tc .vmem S512x1024 .bf16) (harg2 : arg2.IsWhole) (arg3 : Memref sig .tc .vmem S16x1024 .bf16) (harg3 : arg3.IsWhole) (arg4 : Memref sig .tc .vmem S4096x16 .bf16) (harg4 : arg4.IsWhole) (arg5 : Memref sig .tc .vmem S1x4096 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x16 .bf16) (harg10 : arg10.IsWhole) (hc : ¬cond7_0 i)
    (x0 : Vec F S512x1024 .bf16) (x1 : Vec F S16x1024 .bf16) (x2 : Vec F S4096x16 .bf16) (x3 : Vec F S1x4096 .f32) (x4 : Vec F S512x1 .f32) (x5 : Vec F S512x1 .f32) (x6 : Vec F S512x1 .f32) (ys : Vec F S512x16 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare ys
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k7_pay2 i ys x2 x3 x4 x5 x6) ∗ owns (c : Thread nD τ) arg10 fullShare ys) -∗ K ⟨⟩))
      ⊢ wp frame (wpE (defs₀ (F := F)) Variants.none c none) E (cc7_kernel i arg2 harg2 arg3 harg3 arg4 harg4 arg5 harg5 arg6 harg6 arg7 harg7 arg8 harg8 arg9 harg9 arg10 harg10) K := by
  simp only [cc7_kernel_eq_skeleton]; unfold cc7_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg10.eq_unread hfs
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H9]
  · iexists _; isplitr
    swap; · iexact H9
    ipureintro
    rw [View.read_writes_eq_canon _ _ _ (fun y => ⟨_, List.mem_singleton_self _, View.mem_set_unit_zero zero3 inb_S512x4096_S512x4096_0_0 y⟩), View.canon_unit_zero zero3]
    simp only [View.readAt_eq_ld, harg2.read_unread, harg3.read_unread, harg4.read_unread, harg5.read_unread, harg6.read_unread, harg7.read_unread, harg8.read_unread, harg10.read_unread,
      View.ld_unit_zero (S := S512x1024) zero3, View.ld_unit_zero (S := S16x1024) zero3, View.ld_unit_zero (S := S4096x16) zero3, View.ld_unit_zero (S := S1x4096) zero3,
      View.ld_unit_zero (S := S512x1) zero3, View.ld_unit_zero (S := S512x16) zero3]
  iexists _; isplitr; · ipureintro; exact harg10.read_unread _
  iexact HS

set_option maxHeartbeats 1000000 in
/-- The body where the tile IS the half's first, on whole memrefs: the inputs' at their contents, the output's and the
    scratch at anything. It runs to the continuation holding the inputs as they were, the scratch at the projected
    hidden rows and the output's buffer at the tile's payload over them. -/
theorem sound_kernel7_A (c : Dev nD) (E : Set ℕ) (i : grid7.Coords) (arg2 : Memref sig .tc .vmem S512x1024 .bf16) (harg2 : arg2.IsWhole) (arg3 : Memref sig .tc .vmem S16x1024 .bf16) (harg3 : arg3.IsWhole) (arg4 : Memref sig .tc .vmem S4096x16 .bf16) (harg4 : arg4.IsWhole) (arg5 : Memref sig .tc .vmem S1x4096 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x4096 .f32) (harg9 : arg9.IsWhole) (arg10 : Memref sig .tc .vmem S512x16 .bf16) (harg10 : arg10.IsWhole) (hc : cond7_0 i)
    (x0 : Vec F S512x1024 .bf16) (x1 : Vec F S16x1024 .bf16) (x2 : Vec F S4096x16 .bf16) (x3 : Vec F S1x4096 .f32) (x4 : Vec F S512x1 .f32) (x5 : Vec F S512x1 .f32) (x6 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k7_pay2 i (k7_pay1 x0 x1) x2 x3 x4 x5 x6) ∗ owns (c : Thread nD τ) arg10 fullShare (k7_pay1 x0 x1)) -∗ K ⟨⟩))
      ⊢ wp frame (wpE (defs₀ (F := F)) Variants.none c none) E (cc7_kernel i arg2 harg2 arg3 harg3 arg4 harg4 arg5 harg5 arg6 harg6 arg7 harg7 arg8 harg8 arg9 harg9 arg10 harg10) K := by
  simp only [cc7_kernel_eq_skeleton]; unfold cc7_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc)

  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H9]
  · iexists _; isplitr
    swap; · iexact H9
    ipureintro
    rw [View.read_writes_eq_canon _ _ _ (fun y => ⟨_, List.mem_singleton_self _, View.mem_set_unit_zero zero3 inb_S512x4096_S512x4096_0_0 y⟩), View.canon_unit_zero zero3]
    sl_unfold_words
    simp only [View.readAt_eq_ld, harg2.read_unread, harg3.read_unread, harg4.read_unread, harg5.read_unread, harg6.read_unread, harg7.read_unread, harg8.read_unread,
      View.ld_unit_zero (S := S512x1024) zero3, View.ld_unit_zero (S := S16x1024) zero3, View.ld_unit_zero (S := S4096x16) zero3, View.ld_unit_zero (S := S1x4096) zero3,
      View.ld_unit_zero (S := S512x1) zero3, View.ld_unit_zero (S := S512x16) zero3, View.readCov_unit_zero (S := S512x16) _ zero3]
  iexists _; isplitr
  swap; · iexact HS
  ipureintro
  sl_unfold_words
  rw [View.read_writes_eq_canon _ _ _ (fun y => ⟨_, List.mem_singleton_self _, View.mem_set_unit_zero zero3 inb_S512x16_S512x16_0_0 y⟩), View.canon_unit_zero zero3]
  simp only [View.readAt_eq_ld, harg2.read_unread, harg3.read_unread, harg4.read_unread, harg5.read_unread, harg6.read_unread, harg7.read_unread, harg8.read_unread,
      View.ld_unit_zero (S := S512x1024) zero3, View.ld_unit_zero (S := S16x1024) zero3, View.ld_unit_zero (S := S4096x16) zero3, View.ld_unit_zero (S := S1x4096) zero3,
      View.ld_unit_zero (S := S512x1) zero3, View.ld_unit_zero (S := S512x16) zero3]

/-! ## The body obligation, at a generic point -/

/-- The scratch's contents in terms of the blocks at any point: the hidden rows' block and the projection's are the
    same at every point. -/
theorem y7_eq (c : Dev nD) (t : Fin cfg7.N) : y7 V c = k7_pay1 (iblk7 V c 0 t) (iblk7 V c 1 t) := rfl

/-- Before any point the invariant holds the scratch at some contents beside the scoped rest without it. -/
theorem Phi7_any (c : Dev nD) (n : ℕ) :
    Phi7 V c n ⊢ iprop((∃ d, owns (c : Thread nD τ) scM7 fullShare d) ∗ Pipeline.scopedRestBut (Ix := Unit) (Name := ℕ) (U := UR sig nD τ) (Lvl := ℕ) (Val := Elt F) spec7 c [cc7_scratch0]) := by
  cases n with
  | zero =>
    rw [Phi7_zero V c 0 rfl, scopedRest7_split]; simp only [owns_whole]; exact .rfl
  | succ n =>
    rw [Phi7_pos V c _ (Nat.succ_ne_zero n)]
    iintro ⟨Hs, Hr⟩
    isplitl [Hs]; · iexists _; iexact Hs
    iexact Hr

/-- What the body is called with at point t, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

set_option maxHeartbeats 1000000 in
/-- The body at any point: the inputs' memrefs hold their blocks; at a half's first tile the scratch comes in at
    anything and leaves at the projected hidden rows, elsewhere it comes in and leaves at them; the output's buffer is
    left at the tile's payload over them; the rest of the invariant and the core's tallies pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).owesAt () t.succ = (dat7 V c).owesAt () t.castSucc from rfl,
    show (dat7 V c).Φ t.succ = Phi7 V c (t.val + 1) from rfl, Phi7_pos V c _ (Nat.succ_ne_zero _),
    show (dat7 V c).Φ t.castSucc = Phi7 V c t.val from rfl,
    after7_0, after7_1, after7_2, after7_3, after7_4, after7_5, after7_6, after7_7]
  unfold out7_7
  by_cases h0 : t.val % tilesPerHalf7 = 0
  · rw [y7_eq V c t]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (Phi7_any V c t.val) $$ HΦ
    icases HΦ' with ⟨HS, Hr⟩
    iapply (sound_kernel7_A c Set.univ (grid7.coords t) _ _ _ _ _ _ _ _ _ _ _ _ _ _ _ _ _ _ ((hcond7_0 t).mpr h0)
      (iblk7 V c 0 t) (iblk7 V c 1 t) (iblk7 V c 2 t) (iblk7 V c 3 t) (iblk7 V c 4 t) (iblk7 V c 5 t) (iblk7 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := fun h => h0 (by rw [h]; exact Nat.zero_mod _)
    rw [Phi7_pos V c _ hz]
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel7_B c Set.univ (grid7.coords t) _ _ _ _ _ _ _ _ _ _ _ _ _ _ _ _ _ _ (fun h => h0 ((hcond7_0 t).mp h))
      (iblk7 V c 0 t) (iblk7 V c 1 t) (iblk7 V c 2 t) (iblk7 V c 3 t) (iblk7 V c 4 t) (iblk7 V c 5 t) (iblk7 V c 6 t) (y7 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## The invariant at the region's two ends -/

/-- What the region is handed (nothing of its own, the tables' part T, the scoped rest) is the invariant before the
    first point. -/
theorem Φ7_in (c : Dev nD) (T : sProp 𝕄) :
    iprop(BI.emp ∗ T ∗ Pipeline.scopedRest (Ix := Unit) (Name := ℕ) (U := UR sig nD τ) (Lvl := ℕ) (Val := Elt F) spec7 c) ⊢ (dat7 V c).Φ 0 := by
  rw [show (dat7 V c).Φ 0 = Pipeline.scopedRest (Ix := Unit) (Name := ℕ) (U := UR sig nD τ) (Lvl := ℕ) (Val := Elt F) spec7 c from rfl]
  iintro ⟨-, -, Hr⟩
  iexact Hr

/-- After the last point the invariant gives the scoped rest back: the scratch's named contents are forgotten. -/
theorem Φ7_out (c : Dev nD) :
    (dat7 V c).Φ (Fin.last _) ⊢ iprop(BI.emp ∗ Pipeline.ownSems0 (fun k : PEmpty => k.elim) c ∗ Pipeline.scopedRest (Ix := Unit) (Name := ℕ) (U := UR sig nD τ) (Lvl := ℕ) (Val := Elt F) spec7 c) := by
  rw [Pipeline.ownSems0_none, show (dat7 V c).Φ (Fin.last _) = Phi7 V c cfg7.N from rfl,
    Phi7_pos V c _ (by rw [show cfg7.N = grid7.N from rfl, N_7]; decide), scopedRest7_split, owns_whole]
  iintro ⟨Hs, Hr⟩
  isplitr; · iempintro
  isplitr; · iempintro
  isplitl [Hs]
  · iexists _; iexact Hs
  iexact Hr

end Cert.KernelIdeal.Hand

end
-- ==== Proof.AssembleRun.lean ====
/- The spine of the kernel program's run, second half: the eight regions' records over the thread state, the program's frame,
   and the run read at every unscoped buffer — in particular at @main's two results. -/
import proofs.«124427_j55336358642036_2_alg».proof.Proof.Assemble
import proofs.«124427_j55336358642036_2_alg».proof.Proof.Stats0
import proofs.«124427_j55336358642036_2_alg».proof.Proof.Write1
import proofs.«124427_j55336358642036_2_alg».proof.Proof.Stats2
import proofs.«124427_j55336358642036_2_alg».proof.Proof.Write3
import proofs.«124427_j55336358642036_2_alg».proof.Proof.Stats4
import proofs.«124427_j55336358642036_2_alg».proof.Proof.Write5
import proofs.«124427_j55336358642036_2_alg».proof.Proof.Stats6
import proofs.«124427_j55336358642036_2_alg».proof.Proof.Write7
import Idealize.ShloMosaic.Lib.Pipeline.FrameSuffix
import Idealize.ShloMosaic.Lib.Pipeline.RegionsLoop
import Idealize.ShloMosaic.Lib.Tactic

set_option maxRecDepth 16384

noncomputable section

namespace Cert.KernelIdeal.Hand

open Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ)
/-! ## The eight regions -/

/-- REGION 0: entered at `V5`, left at `V6`. -/
def reg0 : RegionSeg (pcfgs (F := F)) adm (pdats m) () defs₀ 𝒱₀ L lv 0 :=
  mkReg (pdats m) 0 launch0 (V5 m) (V6 m (outs m))
    (fun c => body_obligation0 _ c) (fun _ _ => rfl) (fun _ _ => rfl) (fun _ _ => rfl) (fun c w => A_eq0 _ c w)
    (fun c b => V6_left m c b) (fun c T => Φ0_in _ c T) (fun c => Φ0_out _ c)

/-- REGION 1: entered at `V7`, left at `V8`. -/
def reg1 : RegionSeg (pcfgs (F := F)) adm (pdats m) () defs₀ 𝒱₀ L lv 1 :=
  mkReg (pdats m) 1 launch1 (V7 m (outs m)) (V8 m (outs m))
    (fun c => body_obligation1 _ c) (fun _ _ => rfl) (fun _ _ => rfl) (fun _ _ => rfl) (fun c w => A_eq1 _ c w)
    (fun c b => V8_left m c b) (fun c T => Φ1_in _ c T) (fun c => Φ1_out _ c)

/-- REGION 2: entered at `V13`, left at `V14`. -/
def reg2 : RegionSeg (pcfgs (F := F)) adm (pdats m) () defs₀ 𝒱₀ L lv 2 :=
  mkReg (pdats m) 2 launch2 (V13 m (outs m)) (V14 m (outs m))
    (fun c => body_obligation2 _ c) (fun _ _ => rfl) (fun _ _ => rfl) (fun _ _ => rfl) (fun c w => A_eq2 _ c w)
    (fun c b => V14_left m c b) (fun c T => Φ2_in _ c T) (fun c => Φ2_out _ c)

/-- REGION 3: entered at `V15`, left at `V16`. -/
def reg3 : RegionSeg (pcfgs (F := F)) adm (pdats m) () defs₀ 𝒱₀ L lv 3 :=
  mkReg (pdats m) 3 launch3 (V15 m (outs m)) (V16 m (outs m))
    (fun c => body_obligation3 _ c) (fun _ _ => rfl) (fun _ _ => rfl) (fun _ _ => rfl) (fun c w => A_eq3 _ c w)
    (fun c b => V16_left m c b) (fun c T => Φ3_in _ c T) (fun c => Φ3_out _ c)

/-- REGION 4: entered at `V21`, left at `V22`. -/
def reg4 : RegionSeg (pcfgs (F := F)) adm (pdats m) () defs₀ 𝒱₀ L lv 4 :=
  mkReg (pdats m) 4 launch4 (V21 m (outs m)) (V22 m (outs m))
    (fun c => body_obligation4 _ c) (fun _ _ => rfl) (fun _ _ => rfl) (fun _ _ => rfl) (fun c w => A_eq4 _ c w)
    (fun c b => V22_left m c b) (fun c T => Φ4_in _ c T) (fun c => Φ4_out _ c)

/-- REGION 5: entered at `V23`, left at `V24`. -/
def reg5 : RegionSeg (pcfgs (F := F)) adm (pdats m) () defs₀ 𝒱₀ L lv 5 :=
  mkReg (pdats m) 5 launch5 (V23 m (outs m)) (V24 m (outs m))
    (fun c => body_obligation5 _ c) (fun _ _ => rfl) (fun _ _ => rfl) (fun _ _ => rfl) (fun c w => A_eq5 _ c w)
    (fun c b => V24_left m c b) (fun c T => Φ5_in _ c T) (fun c => Φ5_out _ c)

/-- REGION 6: entered at `V29`, left at `V30`. -/
def reg6 : RegionSeg (pcfgs (F := F)) adm (pdats m) () defs₀ 𝒱₀ L lv 6 :=
  mkReg (pdats m) 6 launch6 (V29 m (outs m)) (V30 m (outs m))
    (fun c => body_obligation6 _ c) (fun _ _ => rfl) (fun _ _ => rfl) (fun _ _ => rfl) (fun c w => A_eq6 _ c w)
    (fun c b => V30_left m c b) (fun c T => Φ6_in _ c T) (fun c => Φ6_out _ c)

/-- REGION 7: entered at `V31`, left at `V32`. -/
def reg7 : RegionSeg (pcfgs (F := F)) adm (pdats m) () defs₀ 𝒱₀ L lv 7 :=
  mkReg (pdats m) 7 launch7 (V31 m (outs m)) (V32 m (outs m))
    (fun c => body_obligation7 _ c) (fun _ _ => rfl) (fun _ _ => rfl) (fun _ _ => rfl) (fun c w => A_eq7 _ c w)
    (fun c b => V32_left m c b) (fun c T => Φ7_in _ c T) (fun c => Φ7_out _ c)

variable (ρ : Dev nD → PrngReg)
set_option backward.isDefEq.respectTransparency.types false in
/-- THE FRAME: from any memory with zero counters every weakly fair execution of @main terminates, nothing faulting, and
    every final memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  GenP.frame_cond m emb₁ () 𝒱₀ L lv (fun _ _ => rfl) ρ (outs m) (pdats m)
    (fun _ => 0) (fun _ => BI.emp) (initOf (Pipeline.cells cfgs cellOf_inj) (Pipeline.launchToks cfgs cellOf_inj))
    launch_elem E (rest_init ρ) rest_end
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
    (reg7 m) (fun _ => .rfl) (fun _ => .rfl)

/-! ## The run, read at every unscoped buffer -/

/-- @main's items as segments: the host stretches' generated segments and the eight regions' records. -/
abbrev theSegs : Dev nD → List (Seg (pcfgs (F := F)) adm (pdats m) () defs₀ 𝒱₀ L lv) :=
  GenP.segs m (outs m) 𝒱₀ L lv E () (pdats m) (reg0 m) (reg1 m) (reg2 m) (reg3 m) (reg4 m) (reg5 m) (reg6 m) (reg7 m)

set_option backward.isDefEq.respectTransparency.types false in
/-- THE RUN. From any memory with zero counters every weakly fair execution of @main terminates, nothing faulting, and the
    final memory holds, at every unscoped buffer, the last valuation of the chain at the regions' results: so any claim that
    follows from those readings holds of every final memory. -/
theorem run_post (ρ : Dev nD → PrngReg) {Q : PUnit × MemSt nD τ sig (Elt F) → Prop}
    (hQ : ∀ s : MemSt nD τ sig (Elt F),
      (∀ c : Dev nD, ∀ b ∈ Pipeline.ucRefs τ sig, s.mem (((c : Thread nD τ)).1, b) = V35 m (outs m) c b) → Q (⟨⟩, s)) :
    θ_run defs (onTc (τ := τ) (main (F := F))) ⟨m, fun _ => 0, ρ⟩ Q := by
  refine Pipeline.θ_run_regions_kit_dev (pcfgs (F := F)) adm (pdats m) () cellOf_inj emb₁ defs₀ 𝒱₀ L lv m ρ main (theSegs m)
    (fun c Q => by
      rewrite [main_chain c, Seg.run_eq_chain,
        show (theSegs m c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          StableHlo.seq hostOps4_3,
          StableHlo.seq hostOps4_4,
          Prog.lift (.customCall (Pipeline.entry 4) ()),
          StableHlo.seq hostOps5,
          Prog.lift (.customCall (Pipeline.entry 5) ()),
          StableHlo.seq hostOps6,
          StableHlo.seq hostOps6_1,
          StableHlo.seq hostOps6_2,
          StableHlo.seq hostOps6_3,
          StableHlo.seq hostOps6_4,
          Prog.lift (.customCall (Pipeline.entry 6) ()),
          StableHlo.seq hostOps7,
          Prog.lift (.customCall (Pipeline.entry 7) ()),
          StableHlo.seq hostOps8,
          StableHlo.seq hostOps8_1,
          StableHlo.seq hostOps8_2 ] from rfl]
      with_reducible exact .rfl)
    (fun c => by simp only [theSegs, GenP.segs, Seg.pipes_host, Seg.pipes_region, Seg.pipes_nil]; decide)
    (fun _ => 0) (fun _ _ => rfl) (fun _ => BI.emp)
    (initOf (Pipeline.cells cfgs cellOf_inj) (Pipeline.launchToks cfgs cellOf_inj)) launch_elem
    (T₀ := fun c => iprop(StableHlo.held (c : Thread nD τ) (Pipeline.ucRefs τ sig) (V0 m c) ∗ E 0 c))
    (Tₙ := fun c => StableHlo.held (c : Thread nD τ) (Pipeline.ucRefs τ sig) (V35 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (rest_end c)⟩)
    (hinit := ?_)
    (QY := fun c s => ∀ b ∈ Pipeline.ucRefs τ sig, s.mem (((c : Thread nD τ)).1, b) = V35 m (outs m) c b)
    (hfin := fun c s' => ?_) (hQ := hQ)
  · -- the launch: each core's unscoped buffers are held at the launch contents, the rest made beside them
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]
    · iexists _; iexact Hp
    iexists ∅
    iexact HO
  · -- the end: what is held is what the final memory has
    iintro ⟨Hh, HSI⟩
    unfold StableHlo.held
    imodintro
    iapply (pointsTo_read_all (Pipeline.ucRefs τ sig) (fun b => (((c : Thread nD τ)).1, b)) (V35 m (outs m) c) s')
    isplitl [Hh] <;> iassumption

/-- THE RUN WITH ITS RESULTS: @main's two results, the log-probabilities and the loss, end at the last valuation's contents
    there, and every argument array as launched. -/
theorem run_values (ρ : Dev nD → PrngReg) : θ_run defs (onTc (τ := τ) (main (F := F))) ⟨m, fun _ => 0, ρ⟩ (fun r => ∀ c : Dev nD,
      r.2.mem ((c.tc : Thread nD τ).loc main_v127) = V35 m (outs m) c main_v127
      ∧ r.2.mem ((c.tc : Thread nD τ).loc main_v134) = V35 m (outs m) c main_v134
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_post m ρ fun s h c =>
    ⟨(h c (Proc.devRef .tc main_v127) (mem_uc main_v127 (by decide))), (h c (Proc.devRef .tc main_v134) (mem_uc main_v134 (by decide))),
      (h c (Proc.devRef .tc main_arg0) (mem_uc main_arg0 (by decide))).trans (GenP.V35_main_arg0 m (outs m) c),
      (h c (Proc.devRef .tc main_arg1) (mem_uc main_arg1 (by decide))).trans (GenP.V35_main_arg1 m (outs m) c),
      (h c (Proc.devRef .tc main_arg2) (mem_uc main_arg2 (by decide))).trans (GenP.V35_main_arg2 m (outs m) c),
      (h c (Proc.devRef .tc main_arg3) (mem_uc main_arg3 (by decide))).trans (GenP.V35_main_arg3 m (outs m) c),
      (h c (Proc.devRef .tc main_arg4) (mem_uc main_arg4 (by decide))).trans (GenP.V35_main_arg4 m (outs m) c),
      (h c (Proc.devRef .tc main_arg5) (mem_uc main_arg5 (by decide))).trans (GenP.V35_main_arg5 m (outs m) c),
      (h c (Proc.devRef .tc main_arg6) (mem_uc main_arg6 (by decide))).trans (GenP.V35_main_arg6 m (outs m) c),
      (h c (Proc.devRef .tc main_arg7) (mem_uc main_arg7 (by decide))).trans (GenP.V35_main_arg7 m (outs m) c),
      (h c (Proc.devRef .tc main_arg8) (mem_uc main_arg8 (by decide))).trans (GenP.V35_main_arg8 m (outs m) c),
      (h c (Proc.devRef .tc main_arg9) (mem_uc main_arg9 (by decide))).trans (GenP.V35_main_arg9 m (outs m) c),
      (h c (Proc.devRef .tc main_arg10) (mem_uc main_arg10 (by decide))).trans (GenP.V35_main_arg10 m (outs m) c),
      (h c (Proc.devRef .tc main_arg11) (mem_uc main_arg11 (by decide))).trans (GenP.V35_main_arg11 m (outs m) c),
      (h c (Proc.devRef .tc main_arg12) (mem_uc main_arg12 (by decide))).trans (GenP.V35_main_arg12 m (outs m) c),
      (h c (Proc.devRef .tc main_arg13) (mem_uc main_arg13 (by decide))).trans (GenP.V35_main_arg13 m (outs m) c),
      (h c (Proc.devRef .tc main_arg14) (mem_uc main_arg14 (by decide))).trans (GenP.V35_main_arg14 m (outs m) c),
      (h c (Proc.devRef .tc main_arg15) (mem_uc main_arg15 (by decide))).trans (GenP.V35_main_arg15 m (outs m) c)⟩

end Cert.KernelIdeal.Hand

end
-- ==== Proof.HostGlue1.lean ====
import proofs.«124427_j55336358642036_2_alg».proof.Proof.RegionsIdealP
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws
import Idealize.ShloMosaic.Lib.IdealHost

/-! # The host operations before each region: the regions' operands as functions of the arguments

Each region K of the program reads, besides what earlier regions left, arrays the host program prepared from the
arguments: the hidden states reshaped to 512 rows, the cluster's projection, its output matrix padded with zero rows
to a whole number of tiles, and its bias padded likewise as one row. This module names those four arrays per cluster
(`hid`, the argument itself, `padRows`, `padVec`) and proves that the contents of the corresponding buffers, when a
region is entered, are these functions of the launch contents `m`, read at an index. -/

set_option maxRecDepth 1668

noncomputable section

namespace Cert.KernelIdeal.Hand

open Cert.KernelIdeal.Gen Cert.KernelIdeal.GenP
open Idealize.ShloMosaic Idealize.ShloMosaic.TcCoe
open Idealize.ShloMosaic.ValueIdx
open scoped BigOperators

variable (m : (ℓ : Loc nD τ sig) → Buf (Elt Ideal) ℓ) (outs : Outs (F := Ideal))

/-! ## The argument arrays' derived operands -/

/-- The hidden states as a [512, 1024] array: row r = 4·s + b holds hidden[s, b, :]. -/
def hid (c : Dev nD) (r : Fin 512) (k : Fin 1024) : EReal :=
  (m ((c : Thread nD τ).loc main_arg0) : S128x4x1024.Idx → EReal)
    (ix3 ⟨r.val / 4, by have := r.isLt; omega⟩ ⟨r.val % 4, by omega⟩ k)

/-- A matrix of n rows extended by zero rows to npad rows, read at (j, e). -/
def padRows {n d : Nat} (npad : Nat) (W : (⟨2, ![n, d]⟩ : Shape).Idx → EReal) (j : Fin npad) (e : Fin d) : EReal :=
  if h : j.val < n then W (ix2 ⟨j.val, h⟩ e) else 0

/-- A vector of n entries extended by zeros to npad entries, read at j. -/
def padVec {n : Nat} (npad : Nat) (b : (⟨1, ![n]⟩ : Shape).Idx → EReal) (j : Fin npad) : EReal :=
  if h : j.val < n then b (ix1 ⟨j.val, h⟩) else 0

/-! ## The merge of the two halves' statistics -/

/-- m = max(m₀, m₁) at row r, of a [2, 512, 1] array of per-half maxima. -/
def mrgM (M : S2x512x1.Idx → EReal) (r : Fin 512) : EReal :=
  max (M (ix3 (0 : Fin 2) r (0 : Fin 1))) (M (ix3 (1 : Fin 2) r (0 : Fin 1)))

/-- l = l₀·exp(m₀ − m) + l₁·exp(m₁ − m) at row r. -/
def mrgL (M L : S2x512x1.Idx → EReal) (r : Fin 512) : EReal :=
  L (ix3 (0 : Fin 2) r (0 : Fin 1)) * Ideal.exp (M (ix3 (0 : Fin 2) r (0 : Fin 1)) - mrgM M r)
    + L (ix3 (1 : Fin 2) r (0 : Fin 1)) * Ideal.exp (M (ix3 (1 : Fin 2) r (0 : Fin 1)) - mrgM M r)

/-! ## The head's three cluster logits -/

/-- y₀ = hidden · proj₀ᵀ at (r, e). -/
def y0 (c : Dev nD) (r : Fin 512) (e : Fin 1024) : EReal :=
  ∑ k : Fin 1024, hid m c r k * (m ((c : Thread nD τ).loc main_arg4) : S1024x1024.Idx → EReal) (ix2 e k)

/-- The cluster logit q of row r: y₀ · cluster_weightᵀ + cluster_bias. -/
def xlogit (c : Dev nD) (r : Fin 512) (q : Fin 3) : EReal :=
  (∑ e : Fin 1024, y0 m c r e * (m ((c : Thread nD τ).loc main_arg2) : S3x1024.Idx → EReal) (ix2 q e))
    + (m ((c : Thread nD τ).loc main_arg3) : S3.Idx → EReal) (ix1 q)

/-- The largest of the three cluster logits of row r. -/
def xmax (c : Dev nD) (r : Fin 512) : EReal :=
  (Finset.univ : Finset (Fin 3)).fold max ⊥ (xlogit m c r)

/-- combined_m of row r. -/
def headM (c : Dev nD) (r : Fin 512) : EReal :=
  max (mrgM (outs 6 main_v7_0 c) r) (xmax m c r)

/-- combined_l of row r. -/
def headL (c : Dev nD) (r : Fin 512) : EReal :=
  mrgL (outs 6 main_v7_0 c) (outs 6 main_v7_1 c) r * Ideal.exp (mrgM (outs 6 main_v7_0 c) r - headM m outs c r)
    + ∑ q : Fin 3, Ideal.exp (xlogit m c r q - headM m outs c r)

/-- extra_logprob of row r, cluster q. -/
def xlogprob (c : Dev nD) (r : Fin 512) (q : Fin 3) : EReal :=
  xlogit m c r q - headM m outs c r - Ideal.log (headL m outs c r)

/-! ## The result -/

/-- out_flat at (r, v): the four write regions' arrays, each cut to its real width, side by side. -/
def outFlat (c : Dev nD) (r : Fin 512) (v : Fin 267735) : EReal :=
  if h0 : v.val < 20000 then (outs 8 main_v49 c : S512x20480.Idx → EReal) (ix2 r ⟨v.val, by omega⟩)
  else if h1 : v.val < 40000 then (outs 16 main_v74 c : S512x20480.Idx → EReal) (ix2 r ⟨v.val - 20000, by omega⟩)
  else if h2 : v.val < 200000 then (outs 24 main_v99 c : S512x163840.Idx → EReal) (ix2 r ⟨v.val - 40000, by omega⟩)
  else (outs 32 main_v124 c : S512x73728.Idx → EReal) (ix2 r ⟨v.val - 200000, by have := v.isLt; omega⟩)

/-- Steps the reading of a reference back over every item that does not write it. -/
macro "v_back" : tactic => `(tactic| repeat (first
  | (rw [V35_of]; rotate_left; decide) | (rw [V34_of]; rotate_left; decide) | (rw [V33_of]; rotate_left; decide)
  | (rw [V32_of]; rotate_left; decide) | (rw [V31_of]; rotate_left; decide) | (rw [V30_of]; rotate_left; decide)
  | (rw [V29_of]; rotate_left; decide) | (rw [V28_of]; rotate_left; decide) | (rw [V27_of]; rotate_left; decide)
  | (rw [V26_of]; rotate_left; decide) | (rw [V25_of]; rotate_left; decide) | (rw [V24_of]; rotate_left; decide)
  | (rw [V23_of]; rotate_left; decide) | (rw [V22_of]; rotate_left; decide) | (rw [V21_of]; rotate_left; decide)
  | (rw [V20_of]; rotate_left; decide) | (rw [V19_of]; rotate_left; decide) | (rw [V18_of]; rotate_left; decide)
  | (rw [V17_of]; rotate_left; decide) | (rw [V16_of]; rotate_left; decide) | (rw [V15_of]; rotate_left; decide)
  | (rw [V14_of]; rotate_left; decide) | (rw [V13_of]; rotate_left; decide) | (rw [V12_of]; rotate_left; decide)
  | (rw [V11_of]; rotate_left; decide) | (rw [V10_of]; rotate_left; decide) | (rw [V9_of]; rotate_left; decide)
  | (rw [V8_of]; rotate_left; decide) | (rw [V7_of]; rotate_left; decide) | (rw [V6_of]; rotate_left; decide)
  | (rw [V5_of]; rotate_left; decide) | (rw [V4_of]; rotate_left; decide) | (rw [V3_of]; rotate_left; decide)
  | (rw [V2_of]; rotate_left; decide) | (rw [V1_of]; rotate_left; decide)))

/-! ## Padding with zero rows, read at an index -/

/-- The converted integer constant zero is the extended real zero. -/
theorem sitofp_zero_ix0 : (sitofp (F := Ideal) .f32 (constantI S_ 32 0#32)) ix0 = 0 := by
  show (((0#32 : BitVec 32).toInt : ℝ) : EReal) = 0
  simp

/-- A matrix padded below with `hi` rows of a zero scalar, at (j, e): the row if j < n, else 0. -/
theorem pad2_apply {n d npad hi : Nat} (W : (⟨2, ![n, d]⟩ : Shape).Idx → EReal) (v : S_.Idx → EReal) (hv : v ix0 = 0)
    (h : (⟨2, ![n, d]⟩ : Shape).Pads ![0, 0] ![hi, 0] ![0, 0] ⟨2, ![npad, d]⟩) (hu : 0 < S_.numel)
    (i : (⟨2, ![npad, d]⟩ : Shape).Idx) :
    pad ⟨2, ![npad, d]⟩ ![0, 0] ![hi, 0] ![0, 0] W v h hu i = padRows npad W (i 0) (i 1) := by
  unfold padRows
  by_cases hlt : (i 0).val < n
  · rw [dif_pos hlt]
    refine pad_apply_of_inside _ _ _ W v h hu i (ix2 ⟨(i 0).val, hlt⟩ (i 1)) (fun a => ?_)
    match a with
    | ⟨0, _⟩ => show (i 0).val = 0 + (i 0).val * (0 + 1); omega
    | ⟨1, _⟩ => show (i 1).val = 0 + (i 1).val * (0 + 1); omega
  · rw [dif_neg hlt]
    refine (pad_apply_of_not_inside _ _ _ W v h hu i (0 : Fin 2) (fun hh => hlt ?_)).trans ?_
    · have h3 : ((i 0).val - 0) / (0 + 1) < n := hh.2.2
      omega
    · exact (congrArg v (funext fun a => a.elim0)).trans hv

/-- A vector padded with `hi` entries of a zero scalar, at j: the entry if j < n, else 0. -/
theorem pad1_apply {n npad hi : Nat} (b : (⟨1, ![n]⟩ : Shape).Idx → EReal) (v : S_.Idx → EReal) (hv : v ix0 = 0)
    (h : (⟨1, ![n]⟩ : Shape).Pads ![0] ![hi] ![0] ⟨1, ![npad]⟩) (hu : 0 < S_.numel)
    (i : (⟨1, ![npad]⟩ : Shape).Idx) :
    pad ⟨1, ![npad]⟩ ![0] ![hi] ![0] b v h hu i = padVec npad b (i 0) := by
  unfold padVec
  by_cases hlt : (i 0).val < n
  · rw [dif_pos hlt]
    refine pad_apply_of_inside _ _ _ b v h hu i (ix1 ⟨(i 0).val, hlt⟩) (fun a => ?_)
    match a with
    | ⟨0, _⟩ => show (i 0).val = 0 + (i 0).val * (0 + 1); omega
  · rw [dif_neg hlt]
    refine (pad_apply_of_not_inside _ _ _ b v h hu i (0 : Fin 1) (fun hh => hlt ?_)).trans ?_
    · have h3 : ((i 0).val - 0) / (0 + 1) < n := hh.2.2
      omega
    · exact (congrArg v (funext fun a => a.elim0)).trans hv

/-- The padded vector as one row [1, npad], at (0, j). -/
theorem pad1_row_apply {n npad hi : Nat} (b : (⟨1, ![n]⟩ : Shape).Idx → EReal) (v : S_.Idx → EReal) (hv : v ix0 = 0)
    (h : (⟨1, ![n]⟩ : Shape).Pads ![0] ![hi] ![0] ⟨1, ![npad]⟩) (hu : 0 < S_.numel)
    (hc : (⟨1, ![npad]⟩ : Shape).ShapeCasts ⟨2, ![1, npad]⟩) (i : (⟨2, ![1, npad]⟩ : Shape).Idx) :
    shapeCast ⟨2, ![1, npad]⟩ (pad ⟨1, ![npad]⟩ ![0] ![hi] ![0] b v h hu) hc i = padVec npad b (i 1) := by
  refine (shapeCast_apply _ hc i (ix1 (i 1)) ?_).trans (pad1_apply b v hv h hu (ix1 (i 1)))
  rw [Shape.rowMajor_val_two, Shape.rowMajor_val_one]
  have h0 : (i 0).val < 1 := (i 0).isLt
  show (i 1).val = (i 0).val * npad + (i 1).val
  have : (i 0).val = 0 := by omega
  rw [this, Nat.zero_mul, Nat.zero_add]

/-! ## The stretches before region 0, over any incoming contents -/

section Stretch0
variable (Vin : Valuation τ sig (Elt Ideal))

theorem s0_v1 : StableHlo.after hostOps0 Vin (Proc.devRef .tc main_v1)
    = truncf (F := Ideal) .bf16 (shapeCast S512x1024 (Vin (Proc.devRef .tc main_arg0) : S128x4x1024.Idx → EReal) shapeCasts_S128x4x1024_S512x1024) bitsLt_bf16_f32 := by
  after_results <;> rfl

theorem s0_v2 : StableHlo.after hostOps0 Vin (Proc.devRef .tc main_v2)
    = truncf (F := Ideal) .bf16 (Vin (Proc.devRef .tc main_arg4) : S1024x1024.Idx → EReal) bitsLt_bf16_f32 := by
  after_results <;> rfl

theorem s0_v4 : StableHlo.after hostOps0_2 (StableHlo.after hostOps0_1 (StableHlo.after hostOps0 Vin)) (Proc.devRef .tc main_v4)
    = truncf (F := Ideal) .bf16 (pad S20480x1024 ![0, 0] ![480, 0] ![0, 0] (Vin (Proc.devRef .tc main_arg8) : S20000x1024.Idx → EReal)
        (sitofp (F := Ideal) .f32 (constantI S_ 32 0#32)) pads_S20000x1024_S20480x1024_04800_000 h_S_) bitsLt_bf16_f32 := by
  after_results <;> rfl

theorem s0_v6 : StableHlo.after hostOps0_4 (StableHlo.after hostOps0_3 (StableHlo.after hostOps0_2 Vin)) (Proc.devRef .tc main_v6)
    = shapeCast S1x20480 (pad S20480 ![0] ![480] ![0] (Vin (Proc.devRef .tc main_arg12) : S20000.Idx → EReal)
        (sitofp (F := Ideal) .f32 (constantI S_ 32 0#32)) pads_S20000_S20480_04800 h_S_) shapeCasts_S20480_S1x20480 := by
  after_results <;> rfl

end Stretch0

/-! ## Region 0's and region 1's operands -/

theorem hid_reshape (X : S128x4x1024.Idx → EReal) (i : S512x1024.Idx) :
    shapeCast S512x1024 X shapeCasts_S128x4x1024_S512x1024 i
      = X (ix3 ⟨(i 0).val / 4, by have : (i 0).val < 512 := (i 0).isLt; omega⟩ ⟨(i 0).val % 4, by omega⟩ (i 1)) := by
  refine shapeCast_apply _ _ i _ ?_
  rw [Shape.rowMajor_val_three, Shape.rowMajor_val_two]
  show ((i 0).val / 4 * 4 + (i 0).val % 4) * 1024 + (i 1).val = (i 0).val * 1024 + (i 1).val
  omega

theorem V1_v1 (c : Dev nD) (i : S512x1024.Idx) : (V1 m c main_v1 : S512x1024.Idx → EReal) i = hid m c (i 0) (i 1) :=
  (congrFun (s0_v1 (V0 m c)) i).trans (hid_reshape _ i)

theorem V5_v1 (c : Dev nD) (i : S512x1024.Idx) : (V5 m c main_v1 : S512x1024.Idx → EReal) i = hid m c (i 0) (i 1) := by
  v_back; exact V1_v1 m c i
theorem V7_v1 (c : Dev nD) (i : S512x1024.Idx) : (V7 m outs c main_v1 : S512x1024.Idx → EReal) i = hid m c (i 0) (i 1) := by
  v_back; exact V1_v1 m c i

theorem V1_v2 (c : Dev nD) : (V1 m c main_v2 : S1024x1024.Idx → EReal) = (m ((c : Thread nD τ).loc main_arg4) : S1024x1024.Idx → EReal) :=
  s0_v2 (V0 m c)
theorem V5_v2 (c : Dev nD) : (V5 m c main_v2 : S1024x1024.Idx → EReal) = (m ((c : Thread nD τ).loc main_arg4) : S1024x1024.Idx → EReal) := by
  v_back; exact V1_v2 m c
theorem V7_v2 (c : Dev nD) : (V7 m outs c main_v2 : S1024x1024.Idx → EReal) = (m ((c : Thread nD τ).loc main_arg4) : S1024x1024.Idx → EReal) := by
  v_back; exact V1_v2 m c

theorem V3_v4 (c : Dev nD) (i : S20480x1024.Idx) : (V3 m c main_v4 : S20480x1024.Idx → EReal) i
    = padRows 20480 (m ((c : Thread nD τ).loc main_arg8) : S20000x1024.Idx → EReal) (i 0) (i 1) :=
  (congrFun (s0_v4 (V0 m c)) i).trans (pad2_apply (hi := 480) _ _ sitofp_zero_ix0 pads_S20000x1024_S20480x1024_04800_000 h_S_ i)
theorem V5_v4 (c : Dev nD) (i : S20480x1024.Idx) : (V5 m c main_v4 : S20480x1024.Idx → EReal) i
    = padRows 20480 (m ((c : Thread nD τ).loc main_arg8) : S20000x1024.Idx → EReal) (i 0) (i 1) := by
  v_back; exact V3_v4 m c i
theorem V7_v4 (c : Dev nD) (i : S20480x1024.Idx) : (V7 m outs c main_v4 : S20480x1024.Idx → EReal) i
    = padRows 20480 (m ((c : Thread nD τ).loc main_arg8) : S20000x1024.Idx → EReal) (i 0) (i 1) := by
  v_back; exact V3_v4 m c i

theorem V5_v6 (c : Dev nD) (i : S1x20480.Idx) : (V5 m c main_v6 : S1x20480.Idx → EReal) i
    = padVec 20480 (m ((c : Thread nD τ).loc main_arg12) : S20000.Idx → EReal) (i 1) := by
  refine (congrFun (s0_v6 (V2 m c)) i).trans ?_
  rw [show (V2 m c (Proc.devRef .tc main_arg12)) = m ((c : Thread nD τ).loc main_arg12) from by v_back <;> rfl]
  exact pad1_row_apply (hi := 480) _ _ sitofp_zero_ix0 pads_S20000_S20480_04800 h_S_ shapeCasts_S20480_S1x20480 i
theorem V7_v6 (c : Dev nD) (i : S1x20480.Idx) : (V7 m outs c main_v6 : S1x20480.Idx → EReal) i
    = padVec 20480 (m ((c : Thread nD τ).loc main_arg12) : S20000.Idx → EReal) (i 1) := by
  v_back; exact V5_v6 m c i

/-! ## The stretches before region 2, over any incoming contents -/

section Stretch2
variable (Vin : Valuation τ sig (Elt Ideal))

theorem s2_v51 : StableHlo.after hostOps2 Vin (Proc.devRef .tc main_v51)
    = truncf (F := Ideal) .bf16 (Vin (Proc.devRef .tc main_arg5) : S256x1024.Idx → EReal) bitsLt_bf16_f32 := by
  after_results <;> rfl

theorem s2_v53 : StableHlo.after hostOps2_2 (StableHlo.after hostOps2_1 (StableHlo.after hostOps2 Vin)) (Proc.devRef .tc main_v53)
    = truncf (F := Ideal) .bf16 (pad S20480x256 ![0, 0] ![480, 0] ![0, 0] (Vin (Proc.devRef .tc main_arg9) : S20000x256.Idx → EReal)
        (sitofp (F := Ideal) .f32 (constantI S_ 32 0#32)) pads_S20000x256_S20480x256_04800_000 h_S_) bitsLt_bf16_f32 := by
  after_results <;> rfl

theorem s2_v55 : StableHlo.after hostOps2_4 (StableHlo.after hostOps2_3 (StableHlo.after hostOps2_2 Vin)) (Proc.devRef .tc main_v55)
    = shapeCast S1x20480 (pad S20480 ![0] ![480] ![0] (Vin (Proc.devRef .tc main_arg13) : S20000.Idx → EReal)
        (sitofp (F := Ideal) .f32 (constantI S_ 32 0#32)) pads_S20000_S20480_04800 h_S_) shapeCasts_S20480_S1x20480 := by
  after_results <;> rfl

end Stretch2

/-! ## Region 2's and region 3's operands -/

theorem V13_v1 (c : Dev nD) (i : S512x1024.Idx) : (V13 m outs c main_v1 : S512x1024.Idx → EReal) i = hid m c (i 0) (i 1) := by
  v_back; exact V1_v1 m c i
theorem V15_v1 (c : Dev nD) (i : S512x1024.Idx) : (V15 m outs c main_v1 : S512x1024.Idx → EReal) i = hid m c (i 0) (i 1) := by
  v_back; exact V1_v1 m c i

theorem V9_v51 (c : Dev nD) : (V9 m outs c main_v51 : S256x1024.Idx → EReal) = (m ((c : Thread nD τ).loc main_arg5) : S256x1024.Idx → EReal) := by
  refine (s2_v51 (V8 m outs c)).trans ?_
  v_back <;> rfl
theorem V13_v51 (c : Dev nD) : (V13 m outs c main_v51 : S256x1024.Idx → EReal) = (m ((c : Thread nD τ).loc main_arg5) : S256x1024.Idx → EReal) := by
  v_back; exact V9_v51 m outs c
theorem V15_v51 (c : Dev nD) : (V15 m outs c main_v51 : S256x1024.Idx → EReal) = (m ((c : Thread nD τ).loc main_arg5) : S256x1024.Idx → EReal) := by
  v_back; exact V9_v51 m outs c

theorem V11_v53 (c : Dev nD) (i : S20480x256.Idx) : (V11 m outs c main_v53 : S20480x256.Idx → EReal) i
    = padRows 20480 (m ((c : Thread nD τ).loc main_arg9) : S20000x256.Idx → EReal) (i 0) (i 1) := by
  refine (congrFun (s2_v53 (V8 m outs c)) i).trans ?_
  v_back; exact pad2_apply (hi := 480) _ _ sitofp_zero_ix0 pads_S20000x256_S20480x256_04800_000 h_S_ i
theorem V13_v53 (c : Dev nD) (i : S20480x256.Idx) : (V13 m outs c main_v53 : S20480x256.Idx → EReal) i
    = padRows 20480 (m ((c : Thread nD τ).loc main_arg9) : S20000x256.Idx → EReal) (i 0) (i 1) := by
  v_back; exact V11_v53 m outs c i
theorem V15_v53 (c : Dev nD) (i : S20480x256.Idx) : (V15 m outs c main_v53 : S20480x256.Idx → EReal) i
    = padRows 20480 (m ((c : Thread nD τ).loc main_arg9) : S20000x256.Idx → EReal) (i 0) (i 1) := by
  v_back; exact V11_v53 m outs c i

theorem V13_v55 (c : Dev nD) (i : S1x20480.Idx) : (V13 m outs c main_v55 : S1x20480.Idx → EReal) i
    = padVec 20480 (m ((c : Thread nD τ).loc main_arg13) : S20000.Idx → EReal) (i 1) := by
  refine (congrFun (s2_v55 (V10 m outs c)) i).trans ?_
  v_back; exact pad1_row_apply (hi := 480) _ _ sitofp_zero_ix0 pads_S20000_S20480_04800 h_S_ shapeCasts_S20480_S1x20480 i
theorem V15_v55 (c : Dev nD) (i : S1x20480.Idx) : (V15 m outs c main_v55 : S1x20480.Idx → EReal) i
    = padVec 20480 (m ((c : Thread nD τ).loc main_arg13) : S20000.Idx → EReal) (i 1) := by
  v_back; exact V13_v55 m outs c i

/-! ## The stretches before region 4, over any incoming contents -/

section Stretch4
variable (Vin : Valuation τ sig (Elt Ideal))

theorem s4_v76 : StableHlo.after hostOps4 Vin (Proc.devRef .tc main_v76)
    = truncf (F := Ideal) .bf16 (Vin (Proc.devRef .tc main_arg6) : S64x1024.Idx → EReal) bitsLt_bf16_f32 := by
  after_results <;> rfl

theorem s4_v78 : StableHlo.after hostOps4_2 (StableHlo.after hostOps4_1 (StableHlo.after hostOps4 Vin)) (Proc.devRef .tc main_v78)
    = truncf (F := Ideal) .bf16 (pad S163840x64 ![0, 0] ![3840, 0] ![0, 0] (Vin (Proc.devRef .tc main_arg10) : S160000x64.Idx → EReal)
        (sitofp (F := Ideal) .f32 (constantI S_ 32 0#32)) pads_S160000x64_S163840x64_038400_000 h_S_) bitsLt_bf16_f32 := by
  after_results <;> rfl

theorem s4_v80 : StableHlo.after hostOps4_4 (StableHlo.after hostOps4_3 (StableHlo.after hostOps4_2 Vin)) (Proc.devRef .tc main_v80)
    = shapeCast S1x163840 (pad S163840 ![0] ![3840] ![0] (Vin (Proc.devRef .tc main_arg14) : S160000.Idx → EReal)
        (sitofp (F := Ideal) .f32 (constantI S_ 32 0#32)) pads_S160000_S163840_038400 h_S_) shapeCasts_S163840_S1x163840 := by
  after_results <;> rfl

end Stretch4

/-! ## Region 4's and region 5's operands -/

theorem V21_v1 (c : Dev nD) (i : S512x1024.Idx) : (V21 m outs c main_v1 : S512x1024.Idx → EReal) i = hid m c (i 0) (i 1) := by
  v_back; exact V1_v1 m c i
theorem V23_v1 (c : Dev nD) (i : S512x1024.Idx) : (V23 m outs c main_v1 : S512x1024.Idx → EReal) i = hid m c (i 0) (i 1) := by
  v_back; exact V1_v1 m c i

theorem V17_v76 (c : Dev nD) : (V17 m outs c main_v76 : S64x1024.Idx → EReal) = (m ((c : Thread nD τ).loc main_arg6) : S64x1024.Idx → EReal) := by
  refine (s4_v76 (V16 m outs c)).trans ?_
  v_back <;> rfl
theorem V21_v76 (c : Dev nD) : (V21 m outs c main_v76 : S64x1024.Idx → EReal) = (m ((c : Thread nD τ).loc main_arg6) : S64x1024.Idx → EReal) := by
  v_back; exact V17_v76 m outs c
theorem V23_v76 (c : Dev nD) : (V23 m outs c main_v76 : S64x1024.Idx → EReal) = (m ((c : Thread nD τ).loc main_arg6) : S64x1024.Idx → EReal) := by
  v_back; exact V17_v76 m outs c

theorem V19_v78 (c : Dev nD) (i : S163840x64.Idx) : (V19 m outs c main_v78 : S163840x64.Idx → EReal) i
    = padRows 163840 (m ((c : Thread nD τ).loc main_arg10) : S160000x64.Idx → EReal) (i 0) (i 1) := by
  refine (congrFun (s4_v78 (V16 m outs c)) i).trans ?_
  v_back; exact pad2_apply (hi := 3840) _ _ sitofp_zero_ix0 pads_S160000x64_S163840x64_038400_000 h_S_ i
theorem V21_v78 (c : Dev nD) (i : S163840x64.Idx) : (V21 m outs c main_v78 : S163840x64.Idx → EReal) i
    = padRows 163840 (m ((c : Thread nD τ).loc main_arg10) : S160000x64.Idx → EReal) (i 0) (i 1) := by
  v_back; exact V19_v78 m outs c i
theorem V23_v78 (c : Dev nD) (i : S163840x64.Idx) : (V23 m outs c main_v78 : S163840x64.Idx → EReal) i
    = padRows 163840 (m ((c : Thread nD τ).loc main_arg10) : S160000x64.Idx → EReal) (i 0) (i 1) := by
  v_back; exact V19_v78 m outs c i

theorem V21_v80 (c : Dev nD) (i : S1x163840.Idx) : (V21 m outs c main_v80 : S1x163840.Idx → EReal) i
    = padVec 163840 (m ((c : Thread nD τ).loc main_arg14) : S160000.Idx → EReal) (i 1) := by
  refine (congrFun (s4_v80 (V18 m outs c)) i).trans ?_
  v_back; exact pad1_row_apply (hi := 3840) _ _ sitofp_zero_ix0 pads_S160000_S163840_038400 h_S_ shapeCasts_S163840_S1x163840 i
theorem V23_v80 (c : Dev nD) (i : S1x163840.Idx) : (V23 m outs c main_v80 : S1x163840.Idx → EReal) i
    = padVec 163840 (m ((c : Thread nD τ).loc main_arg14) : S160000.Idx → EReal) (i 1) := by
  v_back; exact V21_v80 m outs c i

/-! ## The stretches before region 6, over any incoming contents -/

section Stretch6
variable (Vin : Valuation τ sig (Elt Ideal))

theorem s6_v101 : StableHlo.after hostOps6 Vin (Proc.devRef .tc main_v101)
    = truncf (F := Ideal) .bf16 (Vin (Proc.devRef .tc main_arg7) : S16x1024.Idx → EReal) bitsLt_bf16_f32 := by
  after_results <;> rfl

theorem s6_v103 : StableHlo.after hostOps6_2 (StableHlo.after hostOps6_1 (StableHlo.after hostOps6 Vin)) (Proc.devRef .tc main_v103)
    = truncf (F := Ideal) .bf16 (pad S73728x16 ![0, 0] ![5993, 0] ![0, 0] (Vin (Proc.devRef .tc main_arg11) : S67735x16.Idx → EReal)
        (sitofp (F := Ideal) .f32 (constantI S_ 32 0#32)) pads_S67735x16_S73728x16_059930_000 h_S_) bitsLt_bf16_f32 := by
  after_results <;> rfl

theorem s6_v105 : StableHlo.after hostOps6_4 (StableHlo.after hostOps6_3 (StableHlo.after hostOps6_2 Vin)) (Proc.devRef .tc main_v105)
    = shapeCast S1x73728 (pad S73728 ![0] ![5993] ![0] (Vin (Proc.devRef .tc main_arg15) : S67735.Idx → EReal)
        (sitofp (F := Ideal) .f32 (constantI S_ 32 0#32)) pads_S67735_S73728_059930 h_S_) shapeCasts_S73728_S1x73728 := by
  after_results <;> rfl

end Stretch6

/-! ## Region 6's and region 7's operands -/

theorem V29_v1 (c : Dev nD) (i : S512x1024.Idx) : (V29 m outs c main_v1 : S512x1024.Idx → EReal) i = hid m c (i 0) (i 1) := by
  v_back; exact V1_v1 m c i
theorem V31_v1 (c : Dev nD) (i : S512x1024.Idx) : (V31 m outs c main_v1 : S512x1024.Idx → EReal) i = hid m c (i 0) (i 1) := by
  v_back; exact V1_v1 m c i

theorem V25_v101 (c : Dev nD) : (V25 m outs c main_v101 : S16x1024.Idx → EReal) = (m ((c : Thread nD τ).loc main_arg7) : S16x1024.Idx → EReal) := by
  refine (s6_v101 (V24 m outs c)).trans ?_
  v_back <;> rfl
theorem V29_v101 (c : Dev nD) : (V29 m outs c main_v101 : S16x1024.Idx → EReal) = (m ((c : Thread nD τ).loc main_arg7) : S16x1024.Idx → EReal) := by
  v_back; exact V25_v101 m outs c
theorem V31_v101 (c : Dev nD) : (V31 m outs c main_v101 : S16x1024.Idx → EReal) = (m ((c : Thread nD τ).loc main_arg7) : S16x1024.Idx → EReal) := by
  v_back; exact V25_v101 m outs c

theorem V27_v103 (c : Dev nD) (i : S73728x16.Idx) : (V27 m outs c main_v103 : S73728x16.Idx → EReal) i
    = padRows 73728 (m ((c : Thread nD τ).loc main_arg11) : S67735x16.Idx → EReal) (i 0) (i 1) := by
  refine (congrFun (s6_v103 (V24 m outs c)) i).trans ?_
  v_back; exact pad2_apply (hi := 5993) _ _ sitofp_zero_ix0 pads_S67735x16_S73728x16_059930_000 h_S_ i
theorem V29_v103 (c : Dev nD) (i : S73728x16.Idx) : (V29 m outs c main_v103 : S73728x16.Idx → EReal) i
    = padRows 73728 (m ((c : Thread nD τ).loc main_arg11) : S67735x16.Idx → EReal) (i 0) (i 1) := by
  v_back; exact V27_v103 m outs c i
theorem V31_v103 (c : Dev nD) (i : S73728x16.Idx) : (V31 m outs c main_v103 : S73728x16.Idx → EReal) i
    = padRows 73728 (m ((c : Thread nD τ).loc main_arg11) : S67735x16.Idx → EReal) (i 0) (i 1) := by
  v_back; exact V27_v103 m outs c i

theorem V29_v105 (c : Dev nD) (i : S1x73728.Idx) : (V29 m outs c main_v105 : S1x73728.Idx → EReal) i
    = padVec 73728 (m ((c : Thread nD τ).loc main_arg15) : S67735.Idx → EReal) (i 1) := by
  refine (congrFun (s6_v105 (V26 m outs c)) i).trans ?_
  v_back; exact pad1_row_apply (hi := 5993) _ _ sitofp_zero_ix0 pads_S67735_S73728_059930 h_S_ shapeCasts_S73728_S1x73728 i
theorem V31_v105 (c : Dev nD) (i : S1x73728.Idx) : (V31 m outs c main_v105 : S1x73728.Idx → EReal) i
    = padVec 73728 (m ((c : Thread nD τ).loc main_arg15) : S67735.Idx → EReal) (i 1) := by
  v_back; exact V29_v105 m outs c i

end Cert.KernelIdeal.Hand
-- ==== Proof.HostGlue3.lean ====
import proofs.«124427_j55336358642036_2_alg».proof.Proof.HostGlue1

/-! # The host operations after the last region: the two results

The program's first result is out[s, b, v] = out_flat[4·s + b, v], where out_flat puts side by side the four write
regions' arrays, each cut to its cluster's real width: columns [0, 20000) from cluster 0, [20000, 40000) from cluster 1,
[40000, 200000) from cluster 2, [200000, 267735) from cluster 3 (`outFlat`). Its second result, the loss, is the mean
over the 512 rows of the negated entry of out_flat at the row's target; that tail of the program — the target's
reshape, the gather with its index wrap and range mask, the negation, the sum and the division by 512 — is kept as ONE
function `lossTail` of out_flat and the target, so that it can be compared with another program's same tail without
being opened. -/

set_option maxRecDepth 1668

noncomputable section

namespace Cert.KernelIdeal.Hand

open Cert.KernelIdeal.Gen Cert.KernelIdeal.GenP
open Idealize.ShloMosaic Idealize.ShloMosaic.TcCoe
open Idealize.ShloMosaic.ValueIdx
open scoped BigOperators

variable (m : (ℓ : Loc nD τ sig) → Buf (Elt Ideal) ℓ) (outs : Outs (F := Ideal))

/-! ## The tail of the program after the concatenate, as one function of out_flat and the target -/

/-- The target [128, 4] as a [512, 1] column of integers. -/
def tgtCol (tgt : IVec S128x4 32) : IVec S512x1 32 :=
  broadcastInDim S512x1 ![0] bcast_S512_S512x1_0 (shapeCast S512 tgt shapeCasts_S128x4_S512)

/-- The gather's start indices: a negative target wrapped by the row length, as a [512, 1, 1] array. -/
def gIdx (T : IVec S512x1 32) : IVec S512x1x1 32 :=
  shapeCast S512x1x1
    (select (cmpi .slt T (broadcastInDim S512x1 ![] bcast_S_S512x1 (constantI S_ 32 0#32)))
      (addi T (broadcastInDim S512x1 ![] bcast_S_S512x1 (constantI S_ 32 267735#32))) T)
    shapeCasts_S512x1_S512x1x1

/-- Which rows' start index lies inside the row: 0 ≤ index ≤ 267734. -/
def gMask (I : IVec S512x1x1 32) : IVec S512x1 1 :=
  Host.reduce IntOp.andi
    (andi (cmpi .sge I (broadcastInDim S512x1x1 ![] bcast_S_S512x1x1 (constantI S_ 32 0#32)))
      (cmpi .sle I (broadcastInDim S512x1x1 ![0, 1, 2] bcast_S1x1x1_S512x1x1_0_1_2
        (broadcastInDim S1x1x1 ![2] bcast_S1_S1x1x1_2 (constantI S1 32 267734#32)))))
    (constantI S_ 1 1#1) reducesTo_S512x1x1_S512x1_d2 h_S_

/-- Each row's entry at its target, where the index is inside the row. -/
def gTake (o : FVec Ideal S512x267735 .f32) (T : IVec S512x1 32) : FVec Ideal S512x1 .f32 :=
  select (gMask (gIdx T))
    (Host.gather gather_S512x267735_S512x1x1_S512x1_n_1_0_0_1_2_11 o (gIdx T))
    (broadcastInDim S512x1 ![] bcast_S_S512x1 (constant (F := Ideal) S_ .f32 0x7FC00000#32))

/-- The mean over the 512 rows of the negated entries. -/
def meanNeg (g : FVec Ideal S512x1 .f32) : FVec Ideal S_ .f32 :=
  Host.divf
    (Host.reduceAdd (Host.negf (shapeCast S512 g shapeCasts_S512x1_S512))
      (constant (F := Ideal) S_ .f32 0x00000000#32) reducesTo_S512_S_d0 h_S_)
    (constant (F := Ideal) S_ .f32 0x44000000#32)

/-- The loss as a function of out_flat [512, 267735] and the target [128, 4]. -/
def lossTail (o : S512x267735.Idx → EReal) (tgt : S128x4.Idx → BitVec 32) : S_.Idx → EReal :=
  meanNeg (gTake o (tgtCol tgt))

/-! ## The stretches that cut, join and gather, over any incoming contents -/

section Stretch8
variable (Vin : Valuation τ sig (Elt Ideal))

theorem s2_v50 : StableHlo.after hostOps2 Vin (Proc.devRef .tc main_v50)
    = extractStridedSlice S512x20000 ![0, 0] (Vin (Proc.devRef .tc main_v49) : FVec Ideal S512x20480 .f32) slices_S512x20480_S512x20000_0_0 := by
  after_results <;> rfl
theorem s4_v75 : StableHlo.after hostOps4 Vin (Proc.devRef .tc main_v75)
    = extractStridedSlice S512x20000 ![0, 0] (Vin (Proc.devRef .tc main_v74) : FVec Ideal S512x20480 .f32) slices_S512x20480_S512x20000_0_0 := by
  after_results <;> rfl
theorem s6_v100 : StableHlo.after hostOps6 Vin (Proc.devRef .tc main_v100)
    = extractStridedSlice S512x160000 ![0, 0] (Vin (Proc.devRef .tc main_v99) : FVec Ideal S512x163840 .f32) slices_S512x163840_S512x160000_0_0 := by
  after_results <;> rfl

theorem s8_v126 : StableHlo.after hostOps8 Vin (Proc.devRef .tc main_v126)
    = concatenate S512x267735 1 [⟨S512x20000, (Vin (Proc.devRef .tc main_v50) : FVec Ideal S512x20000 .f32)⟩,
        ⟨S512x20000, (Vin (Proc.devRef .tc main_v75) : FVec Ideal S512x20000 .f32)⟩,
        ⟨S512x160000, (Vin (Proc.devRef .tc main_v100) : FVec Ideal S512x160000 .f32)⟩,
        ⟨S512x67735, extractStridedSlice S512x67735 ![0, 0] (Vin (Proc.devRef .tc main_v124) : FVec Ideal S512x73728 .f32) slices_S512x73728_S512x67735_0_0⟩]
        concatenates_S512x20000_S512x20000_S512x160000_S512x67735_S512x267735_d1 := by
  after_results <;> rfl

theorem s8_v127 : StableHlo.after hostOps8 Vin (Proc.devRef .tc main_v127)
    = shapeCast S128x4x267735 (StableHlo.after hostOps8 Vin (Proc.devRef .tc main_v126) : FVec Ideal S512x267735 .f32) shapeCasts_S512x267735_S128x4x267735 := by
  after_results <;> rfl

theorem s8_v129 : StableHlo.after hostOps8 Vin (Proc.devRef .tc main_v129)
    = tgtCol (Vin (Proc.devRef .tc main_arg1)) := by
  after_results <;> rfl

theorem s82_v134 : StableHlo.after hostOps8_2 Vin (Proc.devRef .tc main_v134)
    = meanNeg (Vin (Proc.devRef .tc main_v130)) := by
  after_results <;> rfl

set_option maxHeartbeats 4000000 in
theorem s81_v130 : StableHlo.after hostOps8_1 Vin (Proc.devRef .tc main_v130)
    = gTake (Vin (Proc.devRef .tc main_v126)) (Vin (Proc.devRef .tc main_v129)) := by
  after_results_simp <;> (try simp only [StableHlo.TRef.ofBuf, StableHlo.TRef.toBuf, cast_eq]) <;> rfl

end Stretch8

/-! ## What the write regions left, read back -/

theorem V8_v49 (c : Dev nD) : V8 m outs c main_v49 = outs 8 main_v49 c := by
  simp only [V8, Function.update_self]
theorem V16_v74 (c : Dev nD) : V16 m outs c main_v74 = outs 16 main_v74 c := by
  simp only [V16, Function.update_self]
theorem V24_v99 (c : Dev nD) : V24 m outs c main_v99 = outs 24 main_v99 c := by
  simp only [V24, Function.update_self]
theorem V32_v124 (c : Dev nD) : V32 m outs c main_v124 = outs 32 main_v124 c := by
  simp only [V32, Function.update_self]

/-- The first n columns of a [512, npad] array, at (r, v). -/
theorem cut_apply {n npad : Nat} (hn : n ≤ npad) (X : FVec Ideal ⟨2, ![512, npad]⟩ .f32)
    (h : (⟨2, ![512, npad]⟩ : Shape).Slices ![0, 0] ⟨2, ![512, n]⟩) (i : (⟨2, ![512, n]⟩ : Shape).Idx) :
    extractStridedSlice ⟨2, ![512, n]⟩ ![0, 0] X h i
      = X (ix2 (i 0) ⟨(i 1).val, by have : (i 1).val < n := (i 1).isLt; omega⟩) := by
  refine extractStridedSlice_apply _ X h i _ (fun a => ?_)
  match a with
  | ⟨0, _⟩ => show (i 0).val = 0 + (i 0).val; omega
  | ⟨1, _⟩ => show (i 1).val = 0 + (i 1).val; omega

theorem V9_v50 (c : Dev nD) (i : S512x20000.Idx) : (V9 m outs c main_v50 : S512x20000.Idx → EReal) i
    = (outs 8 main_v49 c : S512x20480.Idx → EReal) (ix2 (i 0) ⟨(i 1).val, by have : (i 1).val < 20000 := (i 1).isLt; omega⟩) := by
  refine (congrFun (s2_v50 (V8 m outs c)) i).trans ?_
  rw [V8_v49]
  exact cut_apply (by decide) _ _ i
theorem V17_v75 (c : Dev nD) (i : S512x20000.Idx) : (V17 m outs c main_v75 : S512x20000.Idx → EReal) i
    = (outs 16 main_v74 c : S512x20480.Idx → EReal) (ix2 (i 0) ⟨(i 1).val, by have : (i 1).val < 20000 := (i 1).isLt; omega⟩) := by
  refine (congrFun (s4_v75 (V16 m outs c)) i).trans ?_
  rw [V16_v74]
  exact cut_apply (by decide) _ _ i
theorem V25_v100 (c : Dev nD) (i : S512x160000.Idx) : (V25 m outs c main_v100 : S512x160000.Idx → EReal) i
    = (outs 24 main_v99 c : S512x163840.Idx → EReal) (ix2 (i 0) ⟨(i 1).val, by have : (i 1).val < 160000 := (i 1).isLt; omega⟩) := by
  refine (congrFun (s6_v100 (V24 m outs c)) i).trans ?_
  rw [V24_v99]
  exact cut_apply (by decide) _ _ i

/-! ## The four parts side by side, read at an index -/

section Cat
variable (X0 X1 : FVec Ideal S512x20000 .f32) (X2 : FVec Ideal S512x160000 .f32) (X3 : FVec Ideal S512x67735 .f32) (i : S512x267735.Idx)

theorem cat_piece0 (h0 : (i 1).val < 20000) :
    concatenate S512x267735 1 [⟨S512x20000, X0⟩, ⟨S512x20000, X1⟩, ⟨S512x160000, X2⟩, ⟨S512x67735, X3⟩]
        concatenates_S512x20000_S512x20000_S512x160000_S512x67735_S512x267735_d1 i = X0 (ix2 (i 0) ⟨(i 1).val, h0⟩) := by
  refine concatenate_apply_piece (1 : Fin 2) [⟨S512x20000, X0⟩, ⟨S512x20000, X1⟩, ⟨S512x160000, X2⟩, ⟨S512x67735, X3⟩] _ i 0
    (by show (0 : ℕ) < 4; omega) S512x20000 X0 rfl rfl 0 rfl (ix2 (i 0) ⟨(i 1).val, h0⟩) (fun b hb => ?_) ?_
  · match b with
    | ⟨0, _⟩ => rfl
    | ⟨1, _⟩ => exact absurd rfl hb
  · show 0 + (i 1).val = (i 1).val
    omega

theorem cat_piece1 (h0 : ¬ (i 1).val < 20000) (h1 : (i 1).val < 40000) :
    concatenate S512x267735 1 [⟨S512x20000, X0⟩, ⟨S512x20000, X1⟩, ⟨S512x160000, X2⟩, ⟨S512x67735, X3⟩]
        concatenates_S512x20000_S512x20000_S512x160000_S512x67735_S512x267735_d1 i
      = X1 (ix2 (i 0) ⟨(i 1).val - 20000, by omega⟩) := by
  refine concatenate_apply_piece (1 : Fin 2) [⟨S512x20000, X0⟩, ⟨S512x20000, X1⟩, ⟨S512x160000, X2⟩, ⟨S512x67735, X3⟩] _ i 1
    (by show (1 : ℕ) < 4; omega) S512x20000 X1 rfl rfl 20000 rfl (ix2 (i 0) ⟨(i 1).val - 20000, by omega⟩) (fun b hb => ?_) ?_
  · match b with
    | ⟨0, _⟩ => rfl
    | ⟨1, _⟩ => exact absurd rfl hb
  · show 20000 + ((i 1).val - 20000) = (i 1).val
    omega

theorem cat_piece2 (h1 : ¬ (i 1).val < 40000) (h2 : (i 1).val < 200000) :
    concatenate S512x267735 1 [⟨S512x20000, X0⟩, ⟨S512x20000, X1⟩, ⟨S512x160000, X2⟩, ⟨S512x67735, X3⟩]
        concatenates_S512x20000_S512x20000_S512x160000_S512x67735_S512x267735_d1 i
      = X2 (ix2 (i 0) ⟨(i 1).val - 40000, by omega⟩) := by
  refine concatenate_apply_piece (1 : Fin 2) [⟨S512x20000, X0⟩, ⟨S512x20000, X1⟩, ⟨S512x160000, X2⟩, ⟨S512x67735, X3⟩] _ i 2
    (by show (2 : ℕ) < 4; omega) S512x160000 X2 rfl rfl 40000 rfl (ix2 (i 0) ⟨(i 1).val - 40000, by omega⟩) (fun b hb => ?_) ?_
  · match b with
    | ⟨0, _⟩ => rfl
    | ⟨1, _⟩ => exact absurd rfl hb
  · show 40000 + ((i 1).val - 40000) = (i 1).val
    omega

theorem cat_piece3 (h2 : ¬ (i 1).val < 200000) :
    concatenate S512x267735 1 [⟨S512x20000, X0⟩, ⟨S512x20000, X1⟩, ⟨S512x160000, X2⟩, ⟨S512x67735, X3⟩]
        concatenates_S512x20000_S512x20000_S512x160000_S512x67735_S512x267735_d1 i
      = X3 (ix2 (i 0) ⟨(i 1).val - 200000, by have : (i 1).val < 267735 := (i 1).isLt; omega⟩) := by
  have hlt : (i 1).val < 267735 := (i 1).isLt
  refine concatenate_apply_piece (1 : Fin 2) [⟨S512x20000, X0⟩, ⟨S512x20000, X1⟩, ⟨S512x160000, X2⟩, ⟨S512x67735, X3⟩] _ i 3
    (by show (3 : ℕ) < 4; omega) S512x67735 X3 rfl rfl 200000
    (by show (([S512x20000, S512x20000, S512x160000] : List Shape).map fun s : Shape =>
          if h : s.rank = S512x267735.rank then s.size ((1 : Fin S512x267735.rank).cast h.symm) else 0).sum = 200000
        decide)
    (ix2 (i 0) ⟨(i 1).val - 200000, by omega⟩) (fun b hb => ?_) ?_
  · match b with
    | ⟨0, _⟩ => rfl
    | ⟨1, _⟩ => exact absurd rfl hb
  · show 200000 + ((i 1).val - 200000) = (i 1).val
    omega

end Cat

/-! ## The two results -/

theorem V33_v126 (c : Dev nD) (i : S512x267735.Idx) : (V33 m outs c main_v126 : S512x267735.Idx → EReal) i = outFlat outs c (i 0) (i 1) := by
  refine (congrFun (s8_v126 (V32 m outs c)) i).trans ?_
  unfold outFlat
  by_cases h0 : (i 1).val < 20000
  · rw [dif_pos h0]
    refine (cat_piece0 _ _ _ _ i h0).trans ?_
    v_back
    exact V9_v50 m outs c (ix2 (i 0) ⟨(i 1).val, h0⟩)
  · rw [dif_neg h0]
    by_cases h1 : (i 1).val < 40000
    · rw [dif_pos h1]
      refine (cat_piece1 _ _ _ _ i h0 h1).trans ?_
      v_back
      exact V17_v75 m outs c (ix2 (i 0) ⟨(i 1).val - 20000, by omega⟩)
    · rw [dif_neg h1]
      by_cases h2 : (i 1).val < 200000
      · rw [dif_pos h2]
        refine (cat_piece2 _ _ _ _ i h1 h2).trans ?_
        v_back
        exact V25_v100 m outs c (ix2 (i 0) ⟨(i 1).val - 40000, by omega⟩)
      · rw [dif_neg h2]
        refine (cat_piece3 _ _ _ _ i h2).trans ?_
        rw [V32_v124]
        exact cut_apply (by decide) _ _ (ix2 (i 0) ⟨(i 1).val - 200000, by have : (i 1).val < 267735 := (i 1).isLt; omega⟩)

theorem V35_v127 (c : Dev nD) (i : S128x4x267735.Idx) : (V35 m outs c main_v127 : S128x4x267735.Idx → EReal) i
    = outFlat outs c ⟨4 * (i 0).val + (i 1).val, by
        have h0 : (i 0).val < 128 := (i 0).isLt
        have h1 : (i 1).val < 4 := (i 1).isLt
        omega⟩ (i 2) := by
  have h0 : (i 0).val < 128 := (i 0).isLt
  have h1 : (i 1).val < 4 := (i 1).isLt
  v_back
  refine (congrFun (s8_v127 (V32 m outs c)) i).trans ?_
  refine (shapeCast_apply _ _ i (ix2 ⟨4 * (i 0).val + (i 1).val, by omega⟩ (i 2)) ?_).trans (V33_v126 m outs c _)
  rw [Shape.rowMajor_val_two, Shape.rowMajor_val_three]
  show (4 * (i 0).val + (i 1).val) * 267735 + (i 2).val = ((i 0).val * 4 + (i 1).val) * 267735 + (i 2).val
  omega

theorem V35_v134 (c : Dev nD) : (V35 m outs c main_v134 : S_.Idx → EReal)
    = lossTail (fun i => outFlat outs c (i 0) (i 1)) (m ((c : Thread nD τ).loc main_arg1)) := by
  unfold lossTail
  refine (s82_v134 (V34 m outs c)).trans (congrArg meanNeg ?_)
  refine (s81_v130 (V33 m outs c)).trans ?_
  refine congrArg₂ gTake (funext fun i => V33_v126 m outs c i) ?_
  refine (s8_v129 (V32 m outs c)).trans (congrArg tgtCol ?_)
  v_back <;> rfl

end Cert.KernelIdeal.Hand
-- ==== Proof.RefLossDef.lean ====
/-
  THE REFERENCE'S LOSS AS ONE FUNCTION of the log-probability array [128, 4, 267735] and the target array [128, 4]:
  each token's log-probability is gathered at its target index along the last axis — a negative index has 267735
  added, and where the resulting index lies outside [0, 267734] the gathered value is replaced by a fill constant —,
  the gathered values are negated, summed over the 512 tokens and divided by 512. The operations are the program's
  own, in its order, so that the program's second result is this function of its first result and its target
  argument by unfolding alone.
-/
import proofs.«124427_j55336358642036_2_alg».proof.Proof.Gen.ReferenceIdeal
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

/-- The loss as ONE function of the log-probability array and the target array: the target's entry of each row
    gathered (a negative target wrapped by 267735, the gathered value kept where the wrapped index lies in
    `[0, 267734]`), negated, summed over the 512 rows and divided by 512. -/
def lossOf (out : (⟨S128x4x267735, .f32⟩ : BufTy).Contents (Elt Ideal)) (tgt : (⟨S128x4, .i32⟩ : BufTy).Contents (Elt Ideal)) : (⟨S_, .f32⟩ : BufTy).Contents (Elt Ideal) :=
  Host.divf (F := Ideal) (Host.reduceAdd (F := Ideal) (Host.negf (F := Ideal) (shapeCast _ (select (Host.reduce IntOp.andi (andi (cmpi .sge (shapeCast _ (select (cmpi .slt (broadcastInDim S128x4x1 ![0, 1] bcast_S128x4_S128x4x1_0_1 tgt) (broadcastInDim S128x4x1 ![] bcast_S_S128x4x1 (constantI S_ 32 0#32))) (addi (broadcastInDim S128x4x1 ![0, 1] bcast_S128x4_S128x4x1_0_1 tgt) (broadcastInDim S128x4x1 ![] bcast_S_S128x4x1 (constantI S_ 32 267735#32))) (broadcastInDim S128x4x1 ![0, 1] bcast_S128x4_S128x4x1_0_1 tgt)) shapeCasts_S128x4x1_S128x4x1x1) (broadcastInDim S128x4x1x1 ![] bcast_S_S128x4x1x1 (constantI S_ 32 0#32))) (cmpi .sle (shapeCast _ (select (cmpi .slt (broadcastInDim S128x4x1 ![0, 1] bcast_S128x4_S128x4x1_0_1 tgt) (broadcastInDim S128x4x1 ![] bcast_S_S128x4x1 (constantI S_ 32 0#32))) (addi (broadcastInDim S128x4x1 ![0, 1] bcast_S128x4_S128x4x1_0_1 tgt) (broadcastInDim S128x4x1 ![] bcast_S_S128x4x1 (constantI S_ 32 267735#32))) (broadcastInDim S128x4x1 ![0, 1] bcast_S128x4_S128x4x1_0_1 tgt)) shapeCasts_S128x4x1_S128x4x1x1) (broadcastInDim S128x4x1x1 ![0, 1, 2, 3] bcast_S1x1x1x1_S128x4x1x1_0_1_2_3 (broadcastInDim S1x1x1x1 ![3] bcast_S1_S1x1x1x1_3 (constantI S1 32 267734#32))))) (constantI S_ 1 1#1) reducesTo_S128x4x1x1_S128x4x1_d3 h_S_) (Host.gather gather_S128x4x267735_S128x4x1x1_S128x4x1_n_2_01_01_2_3_111 out (shapeCast _ (select (cmpi .slt (broadcastInDim S128x4x1 ![0, 1] bcast_S128x4_S128x4x1_0_1 tgt) (broadcastInDim S128x4x1 ![] bcast_S_S128x4x1 (constantI S_ 32 0#32))) (addi (broadcastInDim S128x4x1 ![0, 1] bcast_S128x4_S128x4x1_0_1 tgt) (broadcastInDim S128x4x1 ![] bcast_S_S128x4x1 (constantI S_ 32 267735#32))) (broadcastInDim S128x4x1 ![0, 1] bcast_S128x4_S128x4x1_0_1 tgt)) shapeCasts_S128x4x1_S128x4x1x1)) (broadcastInDim S128x4x1 ![] bcast_S_S128x4x1 (constant (F := Ideal) S_ .f32 0x7FC00000#32))) shapeCasts_S128x4x1_S128x4)) (constant (F := Ideal) S_ .f32 0x00000000#32) reducesTo_S128x4_S_d0_1 h_S_) (constant (F := Ideal) S_ .f32 0x44000000#32)

end Cert.ReferenceIdeal.RefValue

end
-- ==== Proof.LibOnlineSoftmax.lean ====
/-
  The online softmax on the extended reals, read at the ideal float values.

  A row of logits is consumed tile by tile. The running state is a pair (m, l): m the maximum of
  the entries seen so far and l the sum of exp (entry - m) over them. A new tile x rescales l by
  exp (m - m') for the new maximum m' and adds the tile's own exponentials ("step"). Two states over
  disjoint sets of entries are combined the same way ("merge"). An entry may be the bottom element
  (a masked column): it is the identity of max, and exp (⊥ - m) = 0 for a real m, so it drops out of
  both. Everything is stated with the functions the ideal float operations unfold to: EReal's
  max, -, *, +, Finset.sum, Finset.sup (which IS the fold of max from ⊥) and Ideal.exp / Ideal.log.

  The statements: the value of a step and of a merge on states of the form
  (m, ∑ exp (a i - m)) with m real (step_sum, merge_sum); the fold of step over tiles from (⊥, 0)
  (run_succ: the invariant at every tile; run_eq); the merge of two folds (merge_run) and a further
  step on it (step_merge_run); a row cut into masked tiles of a fixed width (Tiled; sumTo_tiled,
  supTo_tiled, and the two halves of a row: sumTo_halves, supTo_halves); the composites
  merge_halves_tiled, step_merge_halves_tiled; and the log-softmax they feed (logSoftmax,
  out_eq_logSoftmax).
-/
import Idealize.ShloMosaic.PureOps.Ideal
import Idealize.ShloMosaic.PureOps.Ideal.Laws
import Mathlib.Data.EReal.Operations
import Mathlib.Algebra.BigOperators.Group.Finset.Basic
import Mathlib.Algebra.BigOperators.Intervals
import Mathlib.Data.Finset.Lattice.Fold

noncomputable section

namespace Cert.OnlineSoftmax

open Idealize.ShloMosaic
open scoped BigOperators

variable {J : Type*} [Fintype J]

/-! ### Definitions -/

/-- One update of a row's running state (m, l) by one tile x: the new maximum, and the old sum
    rescaled to it plus the tile's exponentials. -/
def step (s : EReal × EReal) (x : J → EReal) : EReal × EReal :=
  (max s.1 (Finset.univ.sup x),
   s.2 * Ideal.exp (s.1 - max s.1 (Finset.univ.sup x))
     + ∑ j, Ideal.exp (x j - max s.1 (Finset.univ.sup x)))

/-- The fold of max from ⊥ over a finite family is its Finset.sup, by definition. -/
theorem fold_max_bot_eq_sup (x : J → EReal) : Finset.univ.fold max ⊥ x = Finset.univ.sup x := rfl

/-- The state after the first k tiles, from (⊥, 0). -/
def run (x : ℕ → J → EReal) : ℕ → EReal × EReal
  | 0 => (⊥, 0)
  | k + 1 => step (run x k) (x k)

/-- The supremum of all entries of the first k tiles. -/
def supTo (x : ℕ → J → EReal) (k : ℕ) : EReal :=
  (Finset.range k).sup fun t => Finset.univ.sup (x t)

/-- The sum of exp (entry - M) over all entries of the first k tiles. -/
def sumTo (x : ℕ → J → EReal) (k : ℕ) (M : EReal) : EReal :=
  ∑ t ∈ Finset.range k, ∑ j, Ideal.exp (x t j - M)

/-- Two states over disjoint sets of entries, combined. -/
def merge (s₀ s₁ : EReal × EReal) : EReal × EReal :=
  (max s₀.1 s₁.1,
   s₀.2 * Ideal.exp (s₀.1 - max s₀.1 s₁.1) + s₁.2 * Ideal.exp (s₁.1 - max s₀.1 s₁.1))

/-- x is the row z cut into tiles of width tn, masked to ⊥ from column n on. -/
def Tiled (z : ℕ → EReal) (n tn : ℕ) (x : ℕ → Fin tn → EReal) : Prop :=
  ∀ g (j : Fin tn), x g j = if g * tn + j.val < n then z (g * tn + j.val) else ⊥

/-- The log-softmax of the first n entries of z at entry v, as a shifted difference. -/
def logSoftmax (n : ℕ) (z : ℕ → EReal) (v : ℕ) : EReal :=
  (z v - (Finset.range n).sup z)
    - Ideal.log (∑ c ∈ Finset.range n, Ideal.exp (z c - (Finset.range n).sup z))

/-! ### Real forms

An entry that is ⊥ or real, shifted by a real m and exponentiated, is the coercion of a real
number; sums and products of coercions are coercions, so the rescaling identity is proved in ℝ. -/

/-- The real number exp (a - m) for an entry a that is ⊥ or real. -/
def rexp (a : EReal) (m : ℝ) : ℝ := if a = ⊥ then 0 else Real.exp (a.toReal - m)

theorem exp_sub_coe {a : EReal} (ha : a ≠ ⊤) (m : ℝ) :
    Ideal.exp (a - (m : EReal)) = ((rexp a m : ℝ) : EReal) := by
  induction a using EReal.rec with
  | bot => simp [rexp, EReal.bot_sub]
  | coe r =>
    have h : (r : EReal) - (m : EReal) = ((r - m : ℝ) : EReal) := (EReal.coe_sub r m).symm
    rw [h, Ideal.exp_coe]
    simp [rexp]
  | top => exact absurd rfl ha

theorem rexp_mul (a : EReal) (m m' : ℝ) : rexp a m * Real.exp (m - m') = rexp a m' := by
  unfold rexp
  split_ifs
  · simp
  · rw [← Real.exp_add]
    congr 1
    ring

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_exp_sub_coe {ι : Type*} (s : Finset ι) (a : ι → EReal) (ha : ∀ i ∈ s, a i ≠ ⊤) (m : ℝ) :
    ∑ i ∈ s, Ideal.exp (a i - (m : EReal)) = ((∑ i ∈ s, rexp (a i) m : ℝ) : EReal) := by
  rw [coe_sum]
  exact Finset.sum_congr rfl fun i hi => exp_sub_coe (ha i hi) m

/-- Rescaling a sum of exponentials from one real shift to another. -/
theorem sum_exp_rescale {ι : Type*} (s : Finset ι) (a : ι → EReal) (ha : ∀ i ∈ s, a i ≠ ⊤) (m m' : ℝ) :
    (∑ i ∈ s, Ideal.exp (a i - (m : EReal))) * Ideal.exp ((m : EReal) - (m' : EReal))
      = ∑ i ∈ s, Ideal.exp (a i - (m' : EReal)) := by
  have h : (m : EReal) - (m' : EReal) = ((m - m' : ℝ) : EReal) := (EReal.coe_sub m m').symm
  rw [sum_exp_sub_coe s a ha m, sum_exp_sub_coe s a ha m', h, Ideal.exp_coe, ← EReal.coe_mul,
    Finset.sum_mul]
  exact congrArg _ (Finset.sum_congr rfl fun i _ => rexp_mul _ _ _)

/-- The supremum of a finite family with no ⊤ entry is not ⊤. -/
theorem sup_ne_top {ι : Type*} (s : Finset ι) (f : ι → EReal) (hf : ∀ i ∈ s, f i ≠ ⊤) : s.sup f ≠ ⊤ :=
  ne_of_lt ((Finset.sup_lt_iff (bot_lt_top)).2 fun i hi => lt_top_iff_ne_top.2 (hf i hi))

/-- The maximum of a real and an extended real that is not ⊤ is real. -/
theorem max_coe_real (m : ℝ) {S : EReal} (hS : S ≠ ⊤) : ∃ m' : ℝ, max (m : EReal) S = (m' : EReal) := by
  refine ⟨(max (m : EReal) S).toReal, (EReal.coe_toReal ?_ ?_).symm⟩
  · exact ne_of_lt (max_lt (EReal.coe_lt_top m) (lt_top_iff_ne_top.2 hS))
  · exact ne_of_gt (lt_of_lt_of_le (EReal.bot_lt_coe m) (le_max_left _ _))

/-! ### One step, one merge -/

theorem step_sum {ι : Type*} (s : Finset ι) (a : ι → EReal) (ha : ∀ i ∈ s, a i ≠ ⊤) (m : ℝ)
    (x : J → EReal) (hx : ∀ j, x j ≠ ⊤) :
    step ((m : EReal), ∑ i ∈ s, Ideal.exp (a i - m)) x
      = (max (m : EReal) (Finset.univ.sup x),
         ∑ i ∈ s, Ideal.exp (a i - max (m : EReal) (Finset.univ.sup x))
           + ∑ j, Ideal.exp (x j - max (m : EReal) (Finset.univ.sup x))) := by
  obtain ⟨m', hm'⟩ := max_coe_real m (sup_ne_top Finset.univ x fun j _ => hx j)
  unfold step
  simp only [hm']
  rw [sum_exp_rescale s a ha m m']

theorem merge_sum {ι₀ ι₁ : Type*} (s₀ : Finset ι₀) (a₀ : ι₀ → EReal) (h₀ : ∀ i ∈ s₀, a₀ i ≠ ⊤)
    (s₁ : Finset ι₁) (a₁ : ι₁ → EReal) (h₁ : ∀ i ∈ s₁, a₁ i ≠ ⊤) (m₀ m₁ : ℝ) :
    merge ((m₀ : EReal), ∑ i ∈ s₀, Ideal.exp (a₀ i - m₀)) ((m₁ : EReal), ∑ i ∈ s₁, Ideal.exp (a₁ i - m₁))
      = (max (m₀ : EReal) m₁,
         ∑ i ∈ s₀, Ideal.exp (a₀ i - max (m₀ : EReal) m₁)
           + ∑ i ∈ s₁, Ideal.exp (a₁ i - max (m₀ : EReal) m₁)) := by
  obtain ⟨m', hm'⟩ := max_coe_real m₀ (EReal.coe_ne_top m₁)
  unfold merge
  simp only [hm']
  rw [sum_exp_rescale s₀ a₀ h₀ m₀ m', sum_exp_rescale s₁ a₁ h₁ m₁ m']

/-! ### The fold over tiles -/

theorem sumTo_eq_sum_product (x : ℕ → J → EReal) (k : ℕ) (M : EReal) :
    sumTo x k M = ∑ p ∈ Finset.range k ×ˢ (Finset.univ : Finset J), Ideal.exp (x p.1 p.2 - M) :=
  (Finset.sum_product' _ _ _).symm

theorem supTo_succ (x : ℕ → J → EReal) (k : ℕ) :
    supTo x (k + 1) = max (supTo x k) (Finset.univ.sup (x k)) := by
  unfold supTo
  rw [Finset.range_add_one, Finset.sup_insert]
  exact max_comm _ _

theorem sumTo_succ (x : ℕ → J → EReal) (k : ℕ) (M : EReal) :
    sumTo x (k + 1) M = sumTo x k M + ∑ j, Ideal.exp (x k j - M) :=
  Finset.sum_range_succ _ _

/-- With no entry ⊤ and a real entry in tile 0, the supremum of the first k+1 tiles is real. -/
theorem supTo_succ_real (x : ℕ → J → EReal) (hx : ∀ t j, x t j ≠ ⊤) (h0 : ∃ j, x 0 j ≠ ⊥) (k : ℕ) :
    ∃ m : ℝ, supTo x (k + 1) = (m : EReal) := by
  obtain ⟨j, hj⟩ := h0
  refine ⟨(supTo x (k + 1)).toReal, (EReal.coe_toReal ?_ ?_).symm⟩
  · exact sup_ne_top _ _ fun t _ => sup_ne_top _ _ fun j _ => hx t j
  · have h1 : x 0 j ≤ supTo x (k + 1) :=
      le_trans (Finset.le_sup (f := x 0) (Finset.mem_univ j))
        (Finset.le_sup (f := fun t => Finset.univ.sup (x t)) (Finset.mem_range.2 (Nat.succ_pos k)))
    exact ne_of_gt (lt_of_lt_of_le (bot_lt_iff_ne_bot.2 hj) h1)

/-- The invariant at every tile. -/
theorem run_succ (x : ℕ → J → EReal) (hx : ∀ t j, x t j ≠ ⊤) (h0 : ∃ j, x 0 j ≠ ⊥) (k : ℕ) :
    run x (k + 1) = (supTo x (k + 1), sumTo x (k + 1) (supTo x (k + 1))) := by
  induction k with
  | zero =>
    obtain ⟨m, hm⟩ := supTo_succ_real x hx h0 0
    have hs : supTo x (0 + 1) = Finset.univ.sup (x 0) := by
      rw [supTo_succ]; simp [supTo]
    show step (⊥, 0) (x 0) = _
    unfold step
    simp only [bot_sup_eq, max_bot_left, zero_mul, zero_add]
    rw [hs, sumTo_succ]
    simp [sumTo]
  | succ k ih =>
    obtain ⟨m, hm⟩ := supTo_succ_real x hx h0 k
    show step (run x (k + 1)) (x (k + 1)) = _
    rw [ih, hm, sumTo_eq_sum_product,
      step_sum _ (fun p : ℕ × J => x p.1 p.2) (fun p _ => hx p.1 p.2) m (x (k + 1)) (hx (k + 1)),
      ← sumTo_eq_sum_product, supTo_succ x (k + 1), hm, sumTo_succ x (k + 1)]

theorem run_eq (x : ℕ → J → EReal) (hx : ∀ t j, x t j ≠ ⊤) (h0 : ∃ j, x 0 j ≠ ⊥) {T : ℕ} (hT : 0 < T) :
    run x T = (supTo x T, sumTo x T (supTo x T)) := by
  obtain ⟨k, rfl⟩ := Nat.exists_eq_succ_of_ne_zero (Nat.pos_iff_ne_zero.1 hT)
  exact run_succ x hx h0 k

/-! ### Merging two folds; a further step -/

/-- A step on a state whose sum is the sum of two families' exponentials. -/
theorem step_sum₂ {ι₀ ι₁ : Type*} (s₀ : Finset ι₀) (a₀ : ι₀ → EReal) (h₀ : ∀ i ∈ s₀, a₀ i ≠ ⊤)
    (s₁ : Finset ι₁) (a₁ : ι₁ → EReal) (h₁ : ∀ i ∈ s₁, a₁ i ≠ ⊤) (m : ℝ) (x : J → EReal) (hx : ∀ j, x j ≠ ⊤) :
    step ((m : EReal), ∑ i ∈ s₀, Ideal.exp (a₀ i - m) + ∑ i ∈ s₁, Ideal.exp (a₁ i - m)) x
      = (max (m : EReal) (Finset.univ.sup x),
         ∑ i ∈ s₀, Ideal.exp (a₀ i - max (m : EReal) (Finset.univ.sup x))
           + ∑ i ∈ s₁, Ideal.exp (a₁ i - max (m : EReal) (Finset.univ.sup x))
           + ∑ j, Ideal.exp (x j - max (m : EReal) (Finset.univ.sup x))) := by
  have ha : ∀ i ∈ s₀.disjSum s₁, Sum.elim a₀ a₁ i ≠ ⊤ := by
    intro i hi
    rcases Finset.mem_disjSum.1 hi with ⟨a, ha, rfl⟩ | ⟨b, hb, rfl⟩
    · exact h₀ a ha
    · exact h₁ b hb
  have h := step_sum (s₀.disjSum s₁) (Sum.elim a₀ a₁) ha m x hx
  simpa only [Finset.sum_disjSum, Sum.elim_inl, Sum.elim_inr] using h

theorem merge_run {J₁ : Type*} [Fintype J₁] (x₀ : ℕ → J → EReal) (x₁ : ℕ → J₁ → EReal)
    (hx₀ : ∀ t j, x₀ t j ≠ ⊤) (h0₀ : ∃ j, x₀ 0 j ≠ ⊥) (hx₁ : ∀ t j, x₁ t j ≠ ⊤) (h0₁ : ∃ j, x₁ 0 j ≠ ⊥)
    {T₀ T₁ : ℕ} (hT₀ : 0 < T₀) (hT₁ : 0 < T₁) :
    merge (run x₀ T₀) (run x₁ T₁)
      = (max (supTo x₀ T₀) (supTo x₁ T₁),
         sumTo x₀ T₀ (max (supTo x₀ T₀) (supTo x₁ T₁)) + sumTo x₁ T₁ (max (supTo x₀ T₀) (supTo x₁ T₁))) := by
  obtain ⟨k₀, rfl⟩ : ∃ k, T₀ = k + 1 := ⟨T₀ - 1, by omega⟩
  obtain ⟨k₁, rfl⟩ : ∃ k, T₁ = k + 1 := ⟨T₁ - 1, by omega⟩
  obtain ⟨m₀, hm₀⟩ := supTo_succ_real x₀ hx₀ h0₀ k₀
  obtain ⟨m₁, hm₁⟩ := supTo_succ_real x₁ hx₁ h0₁ k₁
  rw [run_succ x₀ hx₀ h0₀, run_succ x₁ hx₁ h0₁, hm₀, hm₁]
  simp only [sumTo_eq_sum_product]
  exact merge_sum _ (fun p : ℕ × J => x₀ p.1 p.2) (fun p _ => hx₀ p.1 p.2)
    _ (fun p : ℕ × J₁ => x₁ p.1 p.2) (fun p _ => hx₁ p.1 p.2) m₀ m₁

theorem step_merge_run {J₁ K : Type*} [Fintype J₁] [Fintype K] (x₀ : ℕ → J → EReal) (x₁ : ℕ → J₁ → EReal)
    (hx₀ : ∀ t j, x₀ t j ≠ ⊤) (h0₀ : ∃ j, x₀ 0 j ≠ ⊥) (hx₁ : ∀ t j, x₁ t j ≠ ⊤) (h0₁ : ∃ j, x₁ 0 j ≠ ⊥)
    {T₀ T₁ : ℕ} (hT₀ : 0 < T₀) (hT₁ : 0 < T₁) (e : K → EReal) (he : ∀ k, e k ≠ ⊤) :
    step (merge (run x₀ T₀) (run x₁ T₁)) e
      = (max (max (supTo x₀ T₀) (supTo x₁ T₁)) (Finset.univ.sup e),
         sumTo x₀ T₀ (max (max (supTo x₀ T₀) (supTo x₁ T₁)) (Finset.univ.sup e))
           + sumTo x₁ T₁ (max (max (supTo x₀ T₀) (supTo x₁ T₁)) (Finset.univ.sup e))
           + ∑ k, Ideal.exp (e k - max (max (supTo x₀ T₀) (supTo x₁ T₁)) (Finset.univ.sup e))) := by
  rw [merge_run x₀ x₁ hx₀ h0₀ hx₁ h0₁ hT₀ hT₁]
  obtain ⟨k₀, rfl⟩ : ∃ k, T₀ = k + 1 := ⟨T₀ - 1, by omega⟩
  obtain ⟨m₀, hm₀⟩ := supTo_succ_real x₀ hx₀ h0₀ k₀
  obtain ⟨m, hm⟩ := max_coe_real m₀ (sup_ne_top _ _ fun t (_ : t ∈ Finset.range T₁) =>
    sup_ne_top Finset.univ (x₁ t) fun j _ => hx₁ t j)
  rw [hm₀]
  have hm' : max (m₀ : EReal) (supTo x₁ T₁) = (m : EReal) := hm
  rw [hm']
  simp only [sumTo_eq_sum_product]
  exact step_sum₂ _ (fun p : ℕ × J => x₀ p.1 p.2) (fun p _ => hx₀ p.1 p.2)
    _ (fun p : ℕ × J₁ => x₁ p.1 p.2) (fun p _ => hx₁ p.1 p.2) m e he

/-! ### A row cut into masked tiles -/

/-- A sum over tile index and lane is the sum over the flat column index. -/
theorem sum_range_mul_add {A : Type*} [AddCommMonoid A] (F : ℕ → A) (G tn : ℕ) :
    ∑ g ∈ Finset.range G, ∑ j ∈ Finset.range tn, F (g * tn + j) = ∑ c ∈ Finset.range (G * tn), F c := by
  induction G with
  | zero => simp
  | succ G ih => rw [Finset.sum_range_succ, ih, Nat.succ_mul, Finset.sum_range_add]

variable {tn : ℕ}

theorem sumTo_tiled {z : ℕ → EReal} {n : ℕ} {x : ℕ → Fin tn → EReal} (hx : Tiled z n tn x) {G : ℕ}
    (hG : n ≤ G * tn) (m : ℝ) :
    sumTo x G (m : EReal) = ∑ c ∈ Finset.range n, Ideal.exp (z c - m) := by
  have h1 : sumTo x G (m : EReal)
      = ∑ g ∈ Finset.range G, ∑ j ∈ Finset.range tn,
          Ideal.exp ((if g * tn + j < n then z (g * tn + j) else ⊥) - (m : EReal)) := by
    unfold sumTo
    refine Finset.sum_congr rfl fun g _ => ?_
    rw [Finset.sum_range fun j => Ideal.exp ((if g * tn + j < n then z (g * tn + j) else ⊥) - (m : EReal))]
    exact Finset.sum_congr rfl fun j _ => by rw [hx g j]
  rw [h1, sum_range_mul_add fun c => Ideal.exp ((if c < n then z c else ⊥) - (m : EReal))]
  obtain ⟨d, hd⟩ := Nat.exists_eq_add_of_le hG
  rw [hd, Finset.sum_range_add]
  have h2 : ∑ c ∈ Finset.range d, Ideal.exp ((if n + c < n then z (n + c) else ⊥) - (m : EReal)) = 0 := by
    refine Finset.sum_eq_zero fun c _ => ?_
    rw [if_neg (by omega), EReal.bot_sub, Ideal.exp_bot]
  rw [h2, add_zero]
  exact Finset.sum_congr rfl fun c hc => by rw [if_pos (Finset.mem_range.1 hc)]

theorem supTo_tiled {z : ℕ → EReal} {n : ℕ} {x : ℕ → Fin tn → EReal} (hx : Tiled z n tn x) {G : ℕ}
    (hG : n ≤ G * tn) :
    supTo x G = (Finset.range n).sup z := by
  apply le_antisymm
  · refine Finset.sup_le fun g _ => Finset.sup_le fun j _ => ?_
    rw [hx g j]
    split_ifs with h
    · exact Finset.le_sup (f := z) (Finset.mem_range.2 h)
    · exact bot_le
  · refine Finset.sup_le fun c hc => ?_
    have hcn : c < n := Finset.mem_range.1 hc
    have htn : 0 < tn := by
      rcases Nat.eq_zero_or_pos tn with h | h
      · rw [h, Nat.mul_zero] at hG; omega
      · exact h
    have hg : c / tn < G := Nat.div_lt_of_lt_mul (by rw [Nat.mul_comm]; omega)
    have hc' : c / tn * tn + c % tn = c := Nat.div_add_mod' c tn
    have hxe : x (c / tn) ⟨c % tn, Nat.mod_lt c htn⟩ = z c := by
      rw [hx]
      simp only [hc', if_pos hcn]
    rw [← hxe]
    exact le_trans (Finset.le_sup (f := x (c / tn)) (Finset.mem_univ _))
      (Finset.le_sup (f := fun t => Finset.univ.sup (x t)) (Finset.mem_range.2 hg))

theorem sumTo_halves (x : ℕ → J → EReal) (T : ℕ) (M : EReal) :
    sumTo x T M + sumTo (fun t => x (T + t)) T M = sumTo x (T + T) M := by
  unfold sumTo
  exact (Finset.sum_range_add _ T T).symm

theorem sup_range_add (f : ℕ → EReal) (n K : ℕ) :
    (Finset.range (n + K)).sup f = max ((Finset.range n).sup f) ((Finset.range K).sup fun k => f (n + k)) := by
  rw [Finset.range_add_eq_union, Finset.sup_union, Finset.sup_map]
  rfl

theorem supTo_halves (x : ℕ → J → EReal) (T : ℕ) :
    max (supTo x T) (supTo (fun t => x (T + t)) T) = supTo x (T + T) := by
  unfold supTo
  exact (sup_range_add _ T T).symm

theorem sup_range_eq_sup_fin (f : ℕ → EReal) (n : ℕ) :
    (Finset.range n).sup f = Finset.univ.sup fun i : Fin n => f i.val := by
  apply le_antisymm
  · exact Finset.sup_le fun c hc =>
      Finset.le_sup (f := fun i : Fin n => f i.val) (Finset.mem_univ ⟨c, Finset.mem_range.1 hc⟩)
  · exact Finset.sup_le fun i _ => Finset.le_sup (f := f) (Finset.mem_range.2 i.isLt)

/-- All of the first n entries real: their supremum is real (n positive). -/
theorem sup_range_real {z : ℕ → EReal} {n : ℕ} (hz : ∀ c, c < n → z c ≠ ⊤ ∧ z c ≠ ⊥) (hn : 0 < n) :
    ∃ m : ℝ, (Finset.range n).sup z = (m : EReal) := by
  refine ⟨((Finset.range n).sup z).toReal, (EReal.coe_toReal ?_ ?_).symm⟩
  · exact sup_ne_top _ _ fun c hc => (hz c (Finset.mem_range.1 hc)).1
  · exact ne_of_gt (lt_of_lt_of_le (bot_lt_iff_ne_bot.2 (hz 0 hn).2)
      (Finset.le_sup (f := z) (Finset.mem_range.2 hn)))

/-- The two halves of a tiled row, each folded from (⊥, 0), merged: the row's maximum and the sum
    of its exponentials. The first tile of the second half must hold a column below n. -/
theorem merge_halves_tiled {z : ℕ → EReal} {n : ℕ} {x : ℕ → Fin tn → EReal} (hx : Tiled z n tn x)
    (hz : ∀ c, c < n → z c ≠ ⊤ ∧ z c ≠ ⊥) {T : ℕ} (h1 : T * tn < n) (hn : n ≤ (T + T) * tn) :
    merge (run x T) (run (fun t => x (T + t)) T)
      = ((Finset.range n).sup z, ∑ c ∈ Finset.range n, Ideal.exp (z c - (Finset.range n).sup z)) := by
  have hnpos : 0 < n := by omega
  have htn : 0 < tn := by
    rcases Nat.eq_zero_or_pos tn with h | h
    · rw [h, Nat.mul_zero] at hn; omega
    · exact h
  have hT : 0 < T := by
    rcases Nat.eq_zero_or_pos T with h | h
    · rw [h, Nat.zero_mul] at hn; omega
    · exact h
  have hxt : ∀ t j, x t j ≠ ⊤ := by
    intro t j
    rw [hx t j]
    split_ifs with h
    · exact (hz _ h).1
    · exact bot_ne_top
  have h0₀ : ∃ j, x 0 j ≠ ⊥ := by
    refine ⟨⟨0, htn⟩, ?_⟩
    rw [hx 0 ⟨0, htn⟩]
    simp only [Nat.zero_mul, Nat.add_zero, if_pos hnpos]
    exact (hz 0 hnpos).2
  have h0₁ : ∃ j, (fun t => x (T + t)) 0 j ≠ ⊥ := by
    refine ⟨⟨0, htn⟩, ?_⟩
    show x (T + 0) ⟨0, htn⟩ ≠ ⊥
    rw [hx (T + 0) ⟨0, htn⟩]
    simp only [Nat.add_zero, if_pos h1]
    exact (hz _ h1).2
  obtain ⟨m, hm⟩ := sup_range_real hz hnpos
  rw [merge_run x (fun t => x (T + t)) hxt h0₀ (fun t j => hxt (T + t) j) h0₁ hT hT,
    supTo_halves, sumTo_halves, supTo_tiled hx hn, hm, sumTo_tiled hx hn m]

/-- The same with a further step by a finite family e with no ⊤ entry. -/
theorem step_merge_halves_tiled {K : Type*} [Fintype K] {z : ℕ → EReal} {n : ℕ} {x : ℕ → Fin tn → EReal}
    (hx : Tiled z n tn x) (hz : ∀ c, c < n → z c ≠ ⊤ ∧ z c ≠ ⊥) {T : ℕ} (h1 : T * tn < n)
    (hn : n ≤ (T + T) * tn) (e : K → EReal) (he : ∀ k, e k ≠ ⊤) :
    step (merge (run x T) (run (fun t => x (T + t)) T)) e
      = (max ((Finset.range n).sup z) (Finset.univ.sup e),
         ∑ c ∈ Finset.range n, Ideal.exp (z c - max ((Finset.range n).sup z) (Finset.univ.sup e))
           + ∑ k, Ideal.exp (e k - max ((Finset.range n).sup z) (Finset.univ.sup e))) := by
  obtain ⟨m, hm⟩ := sup_range_real hz (by omega : 0 < n)
  rw [merge_halves_tiled hx hz h1 hn, hm]
  exact step_sum _ z (fun c hc => (hz c (Finset.mem_range.1 hc)).1) m e he

/-! ### The log-softmax -/

/-- What is written for column v of a tiled row: entry minus the merged maximum minus the log of the
    merged sum IS the row's log-softmax. -/
theorem out_eq_logSoftmax {z : ℕ → EReal} {n : ℕ} {x : ℕ → Fin tn → EReal} (hx : Tiled z n tn x)
    (hz : ∀ c, c < n → z c ≠ ⊤ ∧ z c ≠ ⊥) {T : ℕ} (h1 : T * tn < n) (hn : n ≤ (T + T) * tn) (v : ℕ) :
    z v - (merge (run x T) (run (fun t => x (T + t)) T)).1
        - Ideal.log (merge (run x T) (run (fun t => x (T + t)) T)).2
      = logSoftmax n z v := by
  rw [merge_halves_tiled hx hz h1 hn]
  rfl

end Cert.OnlineSoftmax

end
-- ==== Proof.Spec.lean ====
/-
  The function both programs compute, row by row, on the extended reals.

  A token's hidden vector `x` (1024 numbers) is projected into cluster k's embedding space, `y e = ∑ j, x j * proj e j`, and
  scored against every word of the cluster, `z c = (∑ e, y e * W c e) + b c`. The head row is the 20000 shortlist scores
  followed by one score per tail cluster (the cluster weights and biases scored through the head's projection). The
  log-probability of word v is the head row's log-softmax at v for a shortlist word, and otherwise the head row's
  log-softmax at the word's cluster column plus the cluster row's log-softmax at the word's place in its cluster.
-/
import proofs.«124427_j55336358642036_2_alg».proof.Proof.LibOnlineSoftmax

noncomputable section

namespace Cert.Spec

open Cert.OnlineSoftmax

/-- The fifteen float arguments, as functions of plain coordinates. -/
structure Args where
  hidden : Fin 128 → Fin 4 → Fin 1024 → EReal
  clusterW : Fin 3 → Fin 1024 → EReal
  clusterB : Fin 3 → EReal
  proj0 : Fin 1024 → Fin 1024 → EReal
  proj1 : Fin 256 → Fin 1024 → EReal
  proj2 : Fin 64 → Fin 1024 → EReal
  proj3 : Fin 16 → Fin 1024 → EReal
  W0 : Fin 20000 → Fin 1024 → EReal
  W1 : Fin 20000 → Fin 256 → EReal
  W2 : Fin 160000 → Fin 64 → EReal
  W3 : Fin 67735 → Fin 16 → EReal
  b0 : Fin 20000 → EReal
  b1 : Fin 20000 → EReal
  b2 : Fin 160000 → EReal
  b3 : Fin 67735 → EReal

/-- A hidden vector projected into an embedding space of dimension d. -/
def project {d : ℕ} (x : Fin 1024 → EReal) (proj : Fin d → Fin 1024 → EReal) (e : Fin d) : EReal :=
  ∑ j, x j * proj e j

/-- The score of word c of a cluster of n words (zero past the cluster's end, where nothing reads it). -/
def score {n d : ℕ} (x : Fin 1024 → EReal) (proj : Fin d → Fin 1024 → EReal) (W : Fin n → Fin d → EReal)
    (b : Fin n → EReal) (c : ℕ) : EReal :=
  if h : c < n then (∑ e, project x proj e * W ⟨c, h⟩ e) + b ⟨c, h⟩ else 0

variable (A : Args)

/-- The score of tail cluster q in the head: its weight row scored through the head's projection, plus its bias. -/
def clusterScore (x : Fin 1024 → EReal) (q : Fin 3) : EReal :=
  (∑ e, project x A.proj0 e * A.clusterW q e) + A.clusterB q

/-- The head row: 20000 shortlist scores, then the three cluster scores. -/
def headRow (x : Fin 1024 → EReal) (c : ℕ) : EReal :=
  if c < 20000 then score x A.proj0 A.W0 A.b0 c
  else if h : c - 20000 < 3 then clusterScore A x ⟨c - 20000, h⟩ else 0

/-- The log-probability of word v (v < 267735) for the token at (s, b). -/
def logProb (s : Fin 128) (b : Fin 4) (v : ℕ) : EReal :=
  if v < 20000 then logSoftmax 20003 (headRow A (A.hidden s b)) v
  else if v < 40000 then
    logSoftmax 20003 (headRow A (A.hidden s b)) 20000
      + logSoftmax 20000 (score (A.hidden s b) A.proj1 A.W1 A.b1) (v - 20000)
  else if v < 200000 then
    logSoftmax 20003 (headRow A (A.hidden s b)) 20001
      + logSoftmax 160000 (score (A.hidden s b) A.proj2 A.W2 A.b2) (v - 40000)
  else
    logSoftmax 20003 (headRow A (A.hidden s b)) 20002
      + logSoftmax 67735 (score (A.hidden s b) A.proj3 A.W3 A.b3) (v - 200000)

end Cert.Spec

end
-- ==== Proof.LibLogSoftmaxRows.lean ====
/-
  Rows of log-softmax values from the online-softmax state.

  A row z of n real entries is cut into masked tiles of width tn; its two halves are folded from
  (⊥, 0) and merged (LibOnlineSoftmax: run, merge, Tiled). This file states what the differences
  "entry - maximum - log sum" are, in the shapes a consumer of the merged state computes them:

  * a further finite family e stepped onto the merged state gives the maximum and the sum of
    exponentials of the row zz of n + K columns that is z followed by e
    (step_merge_halves_tiled_append); so an entry of z, and an entry of e, minus that state is the
    log-softmax of zz at its column (out_append_eq, extra_append_eq; out_eq_logSoftmax_append for
    any column), also with the state written out in the components of the two halves' states
    (the _unfolded forms: no definition left to unfold, the maximum of e as the fold of max from ⊥);
  * an entry of z minus the merged state, plus a further term, is that term plus the log-softmax of
    z (out_add_eq; unfolded: out_add_eq_unfolded) — commutativity of + on the extended reals, which
    needs no finiteness of the further term;
  * the log-softmax over Finset.range n is the one over Fin n (logSoftmax_eq_fin), also in the
    shape with the redundant "max ⊥" and "0 +" a reduction from its initial value leaves
    (logSoftmax_eq_fin_init), and against a Fin-indexed row (logSoftmaxFin, logSoftmax_eq_logSoftmaxFin).

  Side conditions throughout: Tiled z n tn x; every z c with c < n real (neither ⊤ nor ⊥); the first
  tile of the second half holds a column below n (T * tn < n); the 2T tiles cover the row
  (n ≤ (T + T) * tn); no entry of e is ⊤.
-/
import proofs.«124427_j55336358642036_2_alg».proof.Proof.LibOnlineSoftmax

noncomputable section

namespace Cert.OnlineSoftmax

open Idealize.ShloMosaic
open scoped BigOperators

variable {tn : ℕ}

/-! ### A row with a finite family appended -/

/-- The exponentials of real entries shifted by a real sum to a positive real. -/
theorem sum_exp_pos_real {z : ℕ → EReal} {n : ℕ} (hz : ∀ c, c < n → z c ≠ ⊤ ∧ z c ≠ ⊥) (hn : 0 < n) (m : ℝ) :
    ∃ l : ℝ, 0 < l ∧ ∑ c ∈ Finset.range n, Ideal.exp (z c - (m : EReal)) = (l : EReal) := by
  refine ⟨∑ c ∈ Finset.range n, rexp (z c) m, ?_,
    sum_exp_sub_coe _ z (fun c hc => (hz c (Finset.mem_range.1 hc)).1) m⟩
  refine Finset.sum_pos (fun c hc => ?_) ⟨0, Finset.mem_range.2 hn⟩
  unfold rexp
  rw [if_neg (hz c (Finset.mem_range.1 hc)).2]
  exact Real.exp_pos _

/-- The merged and stepped state of a tiled row z (n columns) and a further family e (K entries) is
    the maximum and the sum of exponentials of the row zz of n + K columns that is z followed by e. -/
theorem step_merge_halves_tiled_append {K : ℕ} {z : ℕ → EReal} {n : ℕ} {x : ℕ → Fin tn → EReal}
    (hx : Tiled z n tn x) (hz : ∀ c, c < n → z c ≠ ⊤ ∧ z c ≠ ⊥) {T : ℕ} (h1 : T * tn < n)
    (hn : n ≤ (T + T) * tn) (e : Fin K → EReal) (he : ∀ k, e k ≠ ⊤)
    (zz : ℕ → EReal) (hzz₀ : ∀ c, c < n → zz c = z c) (hzz₁ : ∀ k : Fin K, zz (n + k.val) = e k) :
    step (merge (run x T) (run (fun t => x (T + t)) T)) e
      = ((Finset.range (n + K)).sup zz,
         ∑ c ∈ Finset.range (n + K), Ideal.exp (zz c - (Finset.range (n + K)).sup zz)) := by
  have hs : (Finset.range (n + K)).sup zz = max ((Finset.range n).sup z) (Finset.univ.sup e) := by
    rw [sup_range_add, sup_range_eq_sup_fin (fun k => zz (n + k)) K]
    congr 1
    · exact Finset.sup_congr rfl fun c hc => hzz₀ c (Finset.mem_range.1 hc)
    · exact Finset.sup_congr rfl fun k _ => hzz₁ k
  rw [step_merge_halves_tiled hx hz h1 hn e he, hs, Finset.sum_range_add,
    Finset.sum_range fun k => Ideal.exp (zz (n + k) - max ((Finset.range n).sup z) (Finset.univ.sup e))]
  congr 2
  · exact Finset.sum_congr rfl fun c hc => by rw [hzz₀ c (Finset.mem_range.1 hc)]
  · exact Finset.sum_congr rfl fun k _ => by rw [hzz₁ k]

/-- So what the appended row's entries minus that state give is the log-softmax of the appended row. -/
theorem out_eq_logSoftmax_append {K : ℕ} {z : ℕ → EReal} {n : ℕ} {x : ℕ → Fin tn → EReal}
    (hx : Tiled z n tn x) (hz : ∀ c, c < n → z c ≠ ⊤ ∧ z c ≠ ⊥) {T : ℕ} (h1 : T * tn < n)
    (hn : n ≤ (T + T) * tn) (e : Fin K → EReal) (he : ∀ k, e k ≠ ⊤)
    (zz : ℕ → EReal) (hzz₀ : ∀ c, c < n → zz c = z c) (hzz₁ : ∀ k : Fin K, zz (n + k.val) = e k) (v : ℕ) :
    zz v - (step (merge (run x T) (run (fun t => x (T + t)) T)) e).1
        - Ideal.log (step (merge (run x T) (run (fun t => x (T + t)) T)) e).2
      = logSoftmax (n + K) zz v := by
  rw [step_merge_halves_tiled_append hx hz h1 hn e he zz hzz₀ hzz₁]
  rfl

/-- An entry of z minus the stepped state: the appended row's log-softmax at that column. -/
theorem out_append_eq {K : ℕ} {z : ℕ → EReal} {n : ℕ} {x : ℕ → Fin tn → EReal}
    (hx : Tiled z n tn x) (hz : ∀ c, c < n → z c ≠ ⊤ ∧ z c ≠ ⊥) {T : ℕ} (h1 : T * tn < n)
    (hn : n ≤ (T + T) * tn) (e : Fin K → EReal) (he : ∀ k, e k ≠ ⊤)
    (zz : ℕ → EReal) (hzz₀ : ∀ c, c < n → zz c = z c) (hzz₁ : ∀ k : Fin K, zz (n + k.val) = e k)
    {v : ℕ} (hv : v < n) :
    z v - (step (merge (run x T) (run (fun t => x (T + t)) T)) e).1
        - Ideal.log (step (merge (run x T) (run (fun t => x (T + t)) T)) e).2
      = logSoftmax (n + K) zz v := by
  rw [← hzz₀ v hv]
  exact out_eq_logSoftmax_append hx hz h1 hn e he zz hzz₀ hzz₁ v

/-- An entry of e minus the stepped state: the appended row's log-softmax at column n + q. -/
theorem extra_append_eq {K : ℕ} {z : ℕ → EReal} {n : ℕ} {x : ℕ → Fin tn → EReal}
    (hx : Tiled z n tn x) (hz : ∀ c, c < n → z c ≠ ⊤ ∧ z c ≠ ⊥) {T : ℕ} (h1 : T * tn < n)
    (hn : n ≤ (T + T) * tn) (e : Fin K → EReal) (he : ∀ k, e k ≠ ⊤)
    (zz : ℕ → EReal) (hzz₀ : ∀ c, c < n → zz c = z c) (hzz₁ : ∀ k : Fin K, zz (n + k.val) = e k)
    (q : Fin K) :
    e q - (step (merge (run x T) (run (fun t => x (T + t)) T)) e).1
        - Ideal.log (step (merge (run x T) (run (fun t => x (T + t)) T)) e).2
      = logSoftmax (n + K) zz (n + q.val) := by
  rw [← hzz₁ q]
  exact out_eq_logSoftmax_append hx hz h1 hn e he zz hzz₀ hzz₁ (n + q.val)

/-- out_append_eq with the state written out in the halves' components (M₀, L₀), (M₁, L₁). -/
theorem out_append_eq_unfolded {K : ℕ} {z : ℕ → EReal} {n : ℕ} {x : ℕ → Fin tn → EReal}
    (hx : Tiled z n tn x) (hz : ∀ c, c < n → z c ≠ ⊤ ∧ z c ≠ ⊥) {T : ℕ} (h1 : T * tn < n)
    (hn : n ≤ (T + T) * tn) (e : Fin K → EReal) (he : ∀ k, e k ≠ ⊤)
    (zz : ℕ → EReal) (hzz₀ : ∀ c, c < n → zz c = z c) (hzz₁ : ∀ k : Fin K, zz (n + k.val) = e k)
    {M₀ L₀ M₁ L₁ : EReal} (hs₀ : run x T = (M₀, L₀)) (hs₁ : run (fun t => x (T + t)) T = (M₁, L₁))
    {v : ℕ} (hv : v < n) :
    z v - max (max M₀ M₁) (Finset.univ.fold max ⊥ e)
        - Ideal.log
            ((L₀ * Ideal.exp (M₀ - max M₀ M₁) + L₁ * Ideal.exp (M₁ - max M₀ M₁))
                * Ideal.exp (max M₀ M₁ - max (max M₀ M₁) (Finset.univ.fold max ⊥ e))
              + ∑ q, Ideal.exp (e q - max (max M₀ M₁) (Finset.univ.fold max ⊥ e)))
      = logSoftmax (n + K) zz v := by
  have h := out_append_eq hx hz h1 hn e he zz hzz₀ hzz₁ hv
  rw [hs₀, hs₁] at h
  exact h

/-- extra_append_eq with the state written out in the halves' components. -/
theorem extra_append_eq_unfolded {K : ℕ} {z : ℕ → EReal} {n : ℕ} {x : ℕ → Fin tn → EReal}
    (hx : Tiled z n tn x) (hz : ∀ c, c < n → z c ≠ ⊤ ∧ z c ≠ ⊥) {T : ℕ} (h1 : T * tn < n)
    (hn : n ≤ (T + T) * tn) (e : Fin K → EReal) (he : ∀ k, e k ≠ ⊤)
    (zz : ℕ → EReal) (hzz₀ : ∀ c, c < n → zz c = z c) (hzz₁ : ∀ k : Fin K, zz (n + k.val) = e k)
    {M₀ L₀ M₁ L₁ : EReal} (hs₀ : run x T = (M₀, L₀)) (hs₁ : run (fun t => x (T + t)) T = (M₁, L₁))
    (q : Fin K) :
    e q - max (max M₀ M₁) (Finset.univ.fold max ⊥ e)
        - Ideal.log
            ((L₀ * Ideal.exp (M₀ - max M₀ M₁) + L₁ * Ideal.exp (M₁ - max M₀ M₁))
                * Ideal.exp (max M₀ M₁ - max (max M₀ M₁) (Finset.univ.fold max ⊥ e))
              + ∑ q, Ideal.exp (e q - max (max M₀ M₁) (Finset.univ.fold max ⊥ e)))
      = logSoftmax (n + K) zz (n + q.val) := by
  have h := extra_append_eq hx hz h1 hn e he zz hzz₀ hzz₁ q
  rw [hs₀, hs₁] at h
  exact h

/-- An entry of z minus the merged state, plus a further term: that term plus the row's
    log-softmax. No condition on the further term or on v. -/
theorem out_add_eq {z : ℕ → EReal} {n : ℕ} {x : ℕ → Fin tn → EReal} (hx : Tiled z n tn x)
    (hz : ∀ c, c < n → z c ≠ ⊤ ∧ z c ≠ ⊥) {T : ℕ} (h1 : T * tn < n) (hn : n ≤ (T + T) * tn)
    (extra : EReal) (v : ℕ) :
    z v - (merge (run x T) (run (fun t => x (T + t)) T)).1
        - Ideal.log (merge (run x T) (run (fun t => x (T + t)) T)).2 + extra
      = extra + logSoftmax n z v := by
  rw [out_eq_logSoftmax hx hz h1 hn v, add_comm]

/-- out_add_eq with the merged state written out in the halves' components. -/
theorem out_add_eq_unfolded {z : ℕ → EReal} {n : ℕ} {x : ℕ → Fin tn → EReal} (hx : Tiled z n tn x)
    (hz : ∀ c, c < n → z c ≠ ⊤ ∧ z c ≠ ⊥) {T : ℕ} (h1 : T * tn < n) (hn : n ≤ (T + T) * tn)
    {M₀ L₀ M₁ L₁ : EReal} (hs₀ : run x T = (M₀, L₀)) (hs₁ : run (fun t => x (T + t)) T = (M₁, L₁))
    (extra : EReal) (v : ℕ) :
    z v - max M₀ M₁
        - Ideal.log (L₀ * Ideal.exp (M₀ - max M₀ M₁) + L₁ * Ideal.exp (M₁ - max M₀ M₁)) + extra
      = extra + logSoftmax n z v := by
  have h := out_add_eq hx hz h1 hn extra v
  rw [hs₀, hs₁] at h
  exact h

/-! ### Fin-indexed forms of the log-softmax -/

theorem logSoftmax_eq_fin (n : ℕ) (z : ℕ → EReal) (v : ℕ) :
    logSoftmax n z v
      = (z v - Finset.univ.sup fun i : Fin n => z i.val)
          - Ideal.log (∑ i : Fin n, Ideal.exp (z i.val - Finset.univ.sup fun i : Fin n => z i.val)) := by
  unfold logSoftmax
  rw [sup_range_eq_sup_fin, Finset.sum_range]

/-- The same with the "max ⊥" and "0 +" that a reduction started from its initial value leaves,
    the maximum as the fold of max from ⊥. -/
theorem logSoftmax_eq_fin_init (n : ℕ) (z : ℕ → EReal) (v : ℕ) :
    logSoftmax n z v
      = (z v - max ⊥ (Finset.univ.fold max ⊥ fun i : Fin n => z i.val))
          - Ideal.log (0 + ∑ i : Fin n,
              Ideal.exp (z i.val - max ⊥ (Finset.univ.fold max ⊥ fun i : Fin n => z i.val))) := by
  rw [logSoftmax_eq_fin, zero_add, max_bot_left]
  rfl

/-- The log-softmax of a Fin-indexed row. -/
def logSoftmaxFin {n : ℕ} (w : Fin n → EReal) (v : Fin n) : EReal :=
  (w v - Finset.univ.sup w) - Ideal.log (∑ i, Ideal.exp (w i - Finset.univ.sup w))

theorem logSoftmax_eq_logSoftmaxFin {n : ℕ} (z : ℕ → EReal) (w : Fin n → EReal)
    (hw : ∀ i : Fin n, z i.val = w i) (v : Fin n) :
    logSoftmax n z v.val = logSoftmaxFin w v := by
  rw [logSoftmax_eq_fin]
  simp only [hw]
  rfl

end Cert.OnlineSoftmax

end
-- ==== Proof.LibClusterRows.lean ====
/-
  One row of a clustered log-softmax from the per-half statistics of its tiles.

  A row z of n real entries is cut into 2T masked tiles of width tn (Tiled). Each half h of the tiles
  is folded from (⊥, 0) into a pair (Mp h, Lp h). A consumer merges the two pairs into (mA, lA),
  possibly steps a further family e onto them, and writes ((z v - mA) - log lA) + exA. This file
  says what is written, with every quantity an explicit hypothesis in the shape the consumer
  computes it, so that the statements can be used by rewriting alone:

  * merged only (row_merged): the written value is exA + logSoftmax n z v;
  * merged and stepped by e (row_stepped, v < n; row_stepped_extra, an entry of e): the written
    value is the log-softmax of the row zz that is z followed by e.
-/
import proofs.«124427_j55336358642036_2_alg».proof.Proof.LibLogSoftmaxRows

noncomputable section

namespace Cert.OnlineSoftmax

open Idealize.ShloMosaic
open scoped BigOperators

variable {tn : ℕ}

/-- The halves' folds as one pair each, from their components. -/
theorem run_half_eq {x : ℕ → Fin tn → EReal} {T : ℕ} (Mp Lp : Fin 2 → EReal)
    (hM : ∀ h : Fin 2, Mp h = (run (fun t => x (h.val * T + t)) T).1)
    (hL : ∀ h : Fin 2, Lp h = (run (fun t => x (h.val * T + t)) T).2) :
    run x T = (Mp 0, Lp 0) ∧ run (fun t => x (T + t)) T = (Mp 1, Lp 1) := by
  have e0 : (fun t => x ((0 : Fin 2).val * T + t)) = x := by
    funext t
    simp
  have e1 : (fun t => x ((1 : Fin 2).val * T + t)) = fun t => x (T + t) := by
    funext t
    simp
  have hM0 := hM 0
  have hL0 := hL 0
  have hM1 := hM 1
  have hL1 := hL 1
  rw [e0] at hM0 hL0
  rw [e1] at hM1 hL1
  exact ⟨Prod.ext hM0.symm hL0.symm, Prod.ext hM1.symm hL1.symm⟩

/-- The value written for column v from the merged statistics, plus a further term. -/
theorem row_merged {z : ℕ → EReal} {n : ℕ} {x : ℕ → Fin tn → EReal} (hx : Tiled z n tn x)
    (hz : ∀ c, c < n → z c ≠ ⊤ ∧ z c ≠ ⊥) {T : ℕ} (h1 : T * tn < n) (hn : n ≤ (T + T) * tn)
    (Mp Lp : Fin 2 → EReal)
    (hM : ∀ h : Fin 2, Mp h = (run (fun t => x (h.val * T + t)) T).1)
    (hL : ∀ h : Fin 2, Lp h = (run (fun t => x (h.val * T + t)) T).2)
    {mA lA exA out : EReal} (hmA : mA = max (Mp 0) (Mp 1))
    (hlA : lA = Lp 0 * Ideal.exp (Mp 0 - max (Mp 0) (Mp 1)) + Lp 1 * Ideal.exp (Mp 1 - max (Mp 0) (Mp 1)))
    (v : ℕ) (hout : out = ((z v - mA) - Ideal.log lA) + exA) :
    out = exA + logSoftmax n z v := by
  obtain ⟨hs₀, hs₁⟩ := run_half_eq Mp Lp hM hL
  rw [hout, hmA, hlA]
  exact out_add_eq_unfolded hx hz h1 hn hs₀ hs₁ exA v

/-- The value written for column v < n from the merged statistics stepped by e. -/
theorem row_stepped {K : ℕ} {z : ℕ → EReal} {n : ℕ} {x : ℕ → Fin tn → EReal} (hx : Tiled z n tn x)
    (hz : ∀ c, c < n → z c ≠ ⊤ ∧ z c ≠ ⊥) {T : ℕ} (h1 : T * tn < n) (hn : n ≤ (T + T) * tn)
    (Mp Lp : Fin 2 → EReal)
    (hM : ∀ h : Fin 2, Mp h = (run (fun t => x (h.val * T + t)) T).1)
    (hL : ∀ h : Fin 2, Lp h = (run (fun t => x (h.val * T + t)) T).2)
    (e : Fin K → EReal) (he : ∀ k, e k ≠ ⊤)
    (zz : ℕ → EReal) (hzz₀ : ∀ c, c < n → zz c = z c) (hzz₁ : ∀ k : Fin K, zz (n + k.val) = e k)
    {mA lA out : EReal} (hmA : mA = max (max (Mp 0) (Mp 1)) (Finset.univ.fold max ⊥ e))
    (hlA : lA = (Lp 0 * Ideal.exp (Mp 0 - max (Mp 0) (Mp 1)) + Lp 1 * Ideal.exp (Mp 1 - max (Mp 0) (Mp 1)))
                  * Ideal.exp (max (Mp 0) (Mp 1) - max (max (Mp 0) (Mp 1)) (Finset.univ.fold max ⊥ e))
                + ∑ q, Ideal.exp (e q - max (max (Mp 0) (Mp 1)) (Finset.univ.fold max ⊥ e)))
    {v : ℕ} (hv : v < n) (hout : out = ((z v - mA) - Ideal.log lA) + 0) :
    out = logSoftmax (n + K) zz v := by
  obtain ⟨hs₀, hs₁⟩ := run_half_eq Mp Lp hM hL
  rw [hout, add_zero, hmA, hlA]
  exact out_append_eq_unfolded hx hz h1 hn e he zz hzz₀ hzz₁ hs₀ hs₁ hv

/-- An entry of e less the stepped statistics. -/
theorem row_stepped_extra {K : ℕ} {z : ℕ → EReal} {n : ℕ} {x : ℕ → Fin tn → EReal} (hx : Tiled z n tn x)
    (hz : ∀ c, c < n → z c ≠ ⊤ ∧ z c ≠ ⊥) {T : ℕ} (h1 : T * tn < n) (hn : n ≤ (T + T) * tn)
    (Mp Lp : Fin 2 → EReal)
    (hM : ∀ h : Fin 2, Mp h = (run (fun t => x (h.val * T + t)) T).1)
    (hL : ∀ h : Fin 2, Lp h = (run (fun t => x (h.val * T + t)) T).2)
    (e : Fin K → EReal) (he : ∀ k, e k ≠ ⊤)
    (zz : ℕ → EReal) (hzz₀ : ∀ c, c < n → zz c = z c) (hzz₁ : ∀ k : Fin K, zz (n + k.val) = e k)
    {mA lA : EReal} (hmA : mA = max (max (Mp 0) (Mp 1)) (Finset.univ.fold max ⊥ e))
    (hlA : lA = (Lp 0 * Ideal.exp (Mp 0 - max (Mp 0) (Mp 1)) + Lp 1 * Ideal.exp (Mp 1 - max (Mp 0) (Mp 1)))
                  * Ideal.exp (max (Mp 0) (Mp 1) - max (max (Mp 0) (Mp 1)) (Finset.univ.fold max ⊥ e))
                + ∑ q, Ideal.exp (e q - max (max (Mp 0) (Mp 1)) (Finset.univ.fold max ⊥ e)))
    (q : Fin K) :
    e q - mA - Ideal.log lA = logSoftmax (n + K) zz (n + q.val) := by
  obtain ⟨hs₀, hs₁⟩ := run_half_eq Mp Lp hM hL
  rw [hmA, hlA]
  exact extra_append_eq_unfolded hx hz h1 hn e he zz hzz₀ hzz₁ hs₀ hs₁ q

end Cert.OnlineSoftmax

end
-- ==== Proof.SpecRows.lean ====
/-
  The rows of the function both programs compute (Spec), from the statistics of their tiles.

  A number is called real here when it is neither ⊤ nor ⊥; products and finite sums of real numbers
  are real, so every score of real arguments is real. A row of scores computed from zero-padded
  weight and bias arrays agrees with the score below the cluster's width. With that, the value
  written for a column from the two halves' statistics (LibClusterRows) is: for a tail cluster, a
  further term plus the log-softmax of the cluster's scores; for the head, the log-softmax of the
  head row (the shortlist scores followed by the cluster scores); and the log-probability of a word
  is assembled from the two by its range.
-/
import proofs.«124427_j55336358642036_2_alg».proof.Proof.Spec
import proofs.«124427_j55336358642036_2_alg».proof.Proof.LibClusterRows

noncomputable section

namespace Cert.Spec

open Cert.OnlineSoftmax Idealize.ShloMosaic
open scoped BigOperators

/-! ### Real numbers among the extended reals -/

/-- Neither ⊤ nor ⊥. -/
def IsReal (a : EReal) : Prop := a ≠ ⊤ ∧ a ≠ ⊥

theorem isReal_iff (a : EReal) : IsReal a ↔ ∃ r : ℝ, a = (r : EReal) := by
  constructor
  · intro h
    exact ⟨a.toReal, (EReal.coe_toReal h.1 h.2).symm⟩
  · rintro ⟨r, rfl⟩
    exact ⟨EReal.coe_ne_top r, EReal.coe_ne_bot r⟩

theorem isReal_coe (r : ℝ) : IsReal (r : EReal) := ⟨EReal.coe_ne_top r, EReal.coe_ne_bot r⟩

theorem isReal_zero : IsReal (0 : EReal) := isReal_coe 0

theorem IsReal.mul {a b : EReal} (ha : IsReal a) (hb : IsReal b) : IsReal (a * b) := by
  obtain ⟨r, rfl⟩ := (isReal_iff a).1 ha
  obtain ⟨s, rfl⟩ := (isReal_iff b).1 hb
  rw [← EReal.coe_mul]
  exact isReal_coe _

theorem IsReal.add {a b : EReal} (ha : IsReal a) (hb : IsReal b) : IsReal (a + b) := by
  obtain ⟨r, rfl⟩ := (isReal_iff a).1 ha
  obtain ⟨s, rfl⟩ := (isReal_iff b).1 hb
  rw [← EReal.coe_add]
  exact isReal_coe _

theorem isReal_sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

theorem isReal_project {d : ℕ} {x : Fin 1024 → EReal} {proj : Fin d → Fin 1024 → EReal}
    (hx : ∀ j, IsReal (x j)) (hp : ∀ e j, IsReal (proj e j)) (e : Fin d) : IsReal (project x proj e) :=
  isReal_sum _ _ fun j _ => (hx j).mul (hp e j)

theorem isReal_score {n d : ℕ} {x : Fin 1024 → EReal} {proj : Fin d → Fin 1024 → EReal}
    {W : Fin n → Fin d → EReal} {b : Fin n → EReal} (hx : ∀ j, IsReal (x j)) (hp : ∀ e j, IsReal (proj e j))
    (hW : ∀ c e, IsReal (W c e)) (hb : ∀ c, IsReal (b c)) (c : ℕ) : IsReal (score x proj W b c) := by
  unfold score
  split_ifs with h
  · exact (isReal_sum _ _ fun e _ => (isReal_project hx hp e).mul (hW _ e)).add (hb _)
  · exact isReal_zero

/-- Every entry of every argument real. -/
structure ArgsReal (A : Args) : Prop where
  hidden : ∀ s b k, IsReal (A.hidden s b k)
  clusterW : ∀ q e, IsReal (A.clusterW q e)
  clusterB : ∀ q, IsReal (A.clusterB q)
  proj0 : ∀ e k, IsReal (A.proj0 e k)
  proj1 : ∀ e k, IsReal (A.proj1 e k)
  proj2 : ∀ e k, IsReal (A.proj2 e k)
  proj3 : ∀ e k, IsReal (A.proj3 e k)
  W0 : ∀ c e, IsReal (A.W0 c e)
  W1 : ∀ c e, IsReal (A.W1 c e)
  W2 : ∀ c e, IsReal (A.W2 c e)
  W3 : ∀ c e, IsReal (A.W3 c e)
  b0 : ∀ c, IsReal (A.b0 c)
  b1 : ∀ c, IsReal (A.b1 c)
  b2 : ∀ c, IsReal (A.b2 c)
  b3 : ∀ c, IsReal (A.b3 c)

theorem isReal_clusterScore {A : Args} (hA : ArgsReal A) {x : Fin 1024 → EReal} (hx : ∀ j, IsReal (x j)) (q : Fin 3) :
    IsReal (clusterScore A x q) :=
  (isReal_sum _ _ fun e _ => (isReal_project hx hA.proj0 e).mul (hA.clusterW q e)).add (hA.clusterB q)

/-! ### Congruence of the log-softmax and of a tiling in the row -/

theorem logSoftmax_congr {n : ℕ} {z z' : ℕ → EReal} (h : ∀ c, c < n → z c = z' c) {v : ℕ} (hv : z v = z' v) :
    logSoftmax n z v = logSoftmax n z' v := by
  have hs : (Finset.range n).sup z = (Finset.range n).sup z' :=
    Finset.sup_congr rfl fun c hc => h c (Finset.mem_range.1 hc)
  unfold logSoftmax
  rw [hs, hv]
  congr 2
  exact Finset.sum_congr rfl fun c hc => by rw [h c (Finset.mem_range.1 hc)]

theorem tiled_congr {n tn : ℕ} {z z' : ℕ → EReal} (h : ∀ c, c < n → z c = z' c) {x : ℕ → Fin tn → EReal}
    (hx : Tiled z n tn x) : Tiled z' n tn x := by
  intro g j
  rw [hx g j]
  split_ifs with hlt
  · exact h _ hlt
  · rfl

/-! ### A score row from zero-padded arrays -/

/-- The row computed from a hidden row, a projection, and weight and bias arrays that hold the cluster's
    weights and biases below its width: the score, below the width. -/
theorem padded_eq_score {n d npad : ℕ} (x : Fin 1024 → EReal) (proj : Fin d → Fin 1024 → EReal)
    (W : Fin n → Fin d → EReal) (b : Fin n → EReal)
    (hidA : Fin 1024 → EReal) (prjA : Fin d → Fin 1024 → EReal) (wA : Fin npad → Fin d → EReal) (bA : Fin npad → EReal)
    (hh : ∀ k, hidA k = x k) (hp : ∀ e k, prjA e k = proj e k)
    (hw : ∀ (j : Fin npad) (h : j.val < n) e, wA j e = W ⟨j.val, h⟩ e)
    (hb : ∀ (j : Fin npad) (h : j.val < n), bA j = b ⟨j.val, h⟩)
    {col : ℕ} (hc : col < n) (hcp : col < npad) :
    (∑ e : Fin d, (∑ k : Fin 1024, hidA k * prjA e k) * wA ⟨col, hcp⟩ e) + bA ⟨col, hcp⟩
      = score x proj W b col := by
  unfold score project
  rw [dif_pos hc, hb ⟨col, hcp⟩ hc]
  congr 1
  refine Finset.sum_congr rfl fun e _ => ?_
  rw [hw ⟨col, hcp⟩ hc e]
  congr 1
  exact Finset.sum_congr rfl fun k _ => by rw [hh k, hp e k]

/-! ### The written values -/

/-- A tail cluster's written value at column v of its n: the further term plus the log-softmax of the
    cluster's scores. zs, zw are the score rows as the two launches compute them. -/
theorem tail_row {n d tn T : ℕ} {x : Fin 1024 → EReal} {proj : Fin d → Fin 1024 → EReal}
    {W : Fin n → Fin d → EReal} {b : Fin n → EReal} (hx : ∀ j, IsReal (x j)) (hp : ∀ e j, IsReal (proj e j))
    (hW : ∀ c e, IsReal (W c e)) (hb : ∀ c, IsReal (b c))
    (zs zw : ℕ → EReal) (hzs : ∀ c, c < n → zs c = score x proj W b c) (hzw : ∀ c, c < n → zw c = score x proj W b c)
    {xs : ℕ → Fin tn → EReal} (hxs : Tiled zs n tn xs) (h1 : T * tn < n) (hn : n ≤ (T + T) * tn)
    (Mp Lp : Fin 2 → EReal)
    (hM : ∀ h : Fin 2, Mp h = (run (fun t => xs (h.val * T + t)) T).1)
    (hL : ∀ h : Fin 2, Lp h = (run (fun t => xs (h.val * T + t)) T).2)
    {mA lA exA out : EReal} (hmA : mA = max (Mp 0) (Mp 1))
    (hlA : lA = Lp 0 * Ideal.exp (Mp 0 - max (Mp 0) (Mp 1)) + Lp 1 * Ideal.exp (Mp 1 - max (Mp 0) (Mp 1)))
    {v : ℕ} (hv : v < n) (hout : out = ((zw v - mA) - Ideal.log lA) + exA) :
    out = exA + logSoftmax n (score x proj W b) v := by
  rw [hzw v hv] at hout
  exact row_merged (tiled_congr hzs hxs) (fun c _ => isReal_score hx hp hW hb c) h1 hn Mp Lp hM hL hmA hlA v hout

variable (A : Args)

theorem headRow_lt (x : Fin 1024 → EReal) {c : ℕ} (hc : c < 20000) : headRow A x c = score x A.proj0 A.W0 A.b0 c := by
  unfold headRow
  rw [if_pos hc]

theorem headRow_add (x : Fin 1024 → EReal) (q : Fin 3) : headRow A x (20000 + q.val) = clusterScore A x q := by
  unfold headRow
  have h1 : ¬ (20000 + q.val < 20000) := by omega
  have h2 : 20000 + q.val - 20000 < 3 := by have := q.isLt; omega
  have h3 : (⟨20000 + q.val - 20000, h2⟩ : Fin 3) = q := Fin.ext (Nat.add_sub_cancel_left 20000 q.val)
  rw [if_neg h1, dif_pos h2, h3]

/-- The head's written value at shortlist column v: the head row's log-softmax. -/
theorem head_row {tn T : ℕ} (hA : ArgsReal A) {x : Fin 1024 → EReal} (hx : ∀ j, IsReal (x j))
    (zs zw : ℕ → EReal) (hzs : ∀ c, c < 20000 → zs c = score x A.proj0 A.W0 A.b0 c)
    (hzw : ∀ c, c < 20000 → zw c = score x A.proj0 A.W0 A.b0 c)
    {xs : ℕ → Fin tn → EReal} (hxs : Tiled zs 20000 tn xs) (h1 : T * tn < 20000) (hn : 20000 ≤ (T + T) * tn)
    (Mp Lp : Fin 2 → EReal)
    (hM : ∀ h : Fin 2, Mp h = (run (fun t => xs (h.val * T + t)) T).1)
    (hL : ∀ h : Fin 2, Lp h = (run (fun t => xs (h.val * T + t)) T).2)
    (e : Fin 3 → EReal) (he : ∀ q, e q = clusterScore A x q)
    {mA lA out : EReal} (hmA : mA = max (max (Mp 0) (Mp 1)) (Finset.univ.fold max ⊥ e))
    (hlA : lA = (Lp 0 * Ideal.exp (Mp 0 - max (Mp 0) (Mp 1)) + Lp 1 * Ideal.exp (Mp 1 - max (Mp 0) (Mp 1)))
                  * Ideal.exp (max (Mp 0) (Mp 1) - max (max (Mp 0) (Mp 1)) (Finset.univ.fold max ⊥ e))
                + ∑ q, Ideal.exp (e q - max (max (Mp 0) (Mp 1)) (Finset.univ.fold max ⊥ e)))
    {v : ℕ} (hv : v < 20000) (hout : out = ((zw v - mA) - Ideal.log lA) + 0) :
    out = logSoftmax 20003 (headRow A x) v := by
  rw [hzw v hv] at hout
  exact row_stepped (K := 3) (tiled_congr hzs hxs)
    (fun c _ => isReal_score hx hA.proj0 hA.W0 hA.b0 c) h1 hn Mp Lp hM hL e
    (fun q => by rw [he q]; exact (isReal_clusterScore hA hx q).1)
    (headRow A x) (fun c hc => headRow_lt A x hc) (fun q => by rw [headRow_add, he q]) hmA hlA hv hout

/-- A cluster score less the head's statistics: the head row's log-softmax at the cluster's column. -/
theorem head_extra {tn T : ℕ} (hA : ArgsReal A) {x : Fin 1024 → EReal} (hx : ∀ j, IsReal (x j))
    (zs : ℕ → EReal) (hzs : ∀ c, c < 20000 → zs c = score x A.proj0 A.W0 A.b0 c)
    {xs : ℕ → Fin tn → EReal} (hxs : Tiled zs 20000 tn xs) (h1 : T * tn < 20000) (hn : 20000 ≤ (T + T) * tn)
    (Mp Lp : Fin 2 → EReal)
    (hM : ∀ h : Fin 2, Mp h = (run (fun t => xs (h.val * T + t)) T).1)
    (hL : ∀ h : Fin 2, Lp h = (run (fun t => xs (h.val * T + t)) T).2)
    (e : Fin 3 → EReal) (he : ∀ q, e q = clusterScore A x q)
    {mA lA : EReal} (hmA : mA = max (max (Mp 0) (Mp 1)) (Finset.univ.fold max ⊥ e))
    (hlA : lA = (Lp 0 * Ideal.exp (Mp 0 - max (Mp 0) (Mp 1)) + Lp 1 * Ideal.exp (Mp 1 - max (Mp 0) (Mp 1)))
                  * Ideal.exp (max (Mp 0) (Mp 1) - max (max (Mp 0) (Mp 1)) (Finset.univ.fold max ⊥ e))
                + ∑ q, Ideal.exp (e q - max (max (Mp 0) (Mp 1)) (Finset.univ.fold max ⊥ e)))
    (q : Fin 3) :
    e q - mA - Ideal.log lA = logSoftmax 20003 (headRow A x) (20000 + q.val) :=
  row_stepped_extra (K := 3) (tiled_congr hzs hxs)
    (fun c _ => isReal_score hx hA.proj0 hA.W0 hA.b0 c) h1 hn Mp Lp hM hL e
    (fun q => by rw [he q]; exact (isReal_clusterScore hA hx q).1)
    (headRow A x) (fun c hc => headRow_lt A x hc) (fun q => by rw [headRow_add, he q]) hmA hlA q

/-! ### The log-probability by the word's range -/

theorem logProb_head (s : Fin 128) (b : Fin 4) {v : ℕ} (h : v < 20000) :
    logProb A s b v = logSoftmax 20003 (headRow A (A.hidden s b)) v := by
  unfold logProb
  rw [if_pos h]

theorem logProb_tail1 (s : Fin 128) (b : Fin 4) {v : ℕ} (h0 : ¬ v < 20000) (h1 : v < 40000) :
    logProb A s b v = logSoftmax 20003 (headRow A (A.hidden s b)) 20000
      + logSoftmax 20000 (score (A.hidden s b) A.proj1 A.W1 A.b1) (v - 20000) := by
  unfold logProb
  rw [if_neg h0, if_pos h1]

theorem logProb_tail2 (s : Fin 128) (b : Fin 4) {v : ℕ} (h0 : ¬ v < 20000) (h1 : ¬ v < 40000) (h2 : v < 200000) :
    logProb A s b v = logSoftmax 20003 (headRow A (A.hidden s b)) 20001
      + logSoftmax 160000 (score (A.hidden s b) A.proj2 A.W2 A.b2) (v - 40000) := by
  unfold logProb
  rw [if_neg h0, if_neg h1, if_pos h2]

theorem logProb_tail3 (s : Fin 128) (b : Fin 4) {v : ℕ} (h0 : ¬ v < 20000) (h1 : ¬ v < 40000) (h2 : ¬ v < 200000) :
    logProb A s b v = logSoftmax 20003 (headRow A (A.hidden s b)) 20002
      + logSoftmax 67735 (score (A.hidden s b) A.proj3 A.W3 A.b3) (v - 200000) := by
  unfold logProb
  rw [if_neg h0, if_neg h1, if_neg h2]

end Cert.Spec

end
-- ==== Proof.Finite.lean ====
/-
  Finiteness of the inputs, and finite sums of reals.

  The certificate's precondition is a printed predicate: for each of the fifteen float arguments `x` the test
  `all(|x| < +∞)`, the fifteen tests joined by `and`, and the claim that the result is 1. Read back, it says that every
  entry of every float argument is a real number (an extended real that is neither `⊤` nor `⊥`). One general lemma
  reads a single test over an arbitrary shape; it is then used once per argument. The bound's bit pattern is never
  evaluated: an absolute value `max x (-x)` that lies strictly below anything at all is not `⊤`, and that already
  excludes both infinities.

  The second part collects the closure facts used downstream: sums and products of reals, finite sums of reals, and
  finite sums of products of reals (a row of a matrix product) plus a real (a bias), are reals.
-/
import proofs.«124427_j55336358642036_2_alg».proof.Defs
import proofs.«124427_j55336358642036_2_alg».proof.Proof.Gen.Pre_finite_inputs
import proofs.«124427_j55336358642036_2_alg».proof.Proof.Gen.KernelIdeal
import Idealize.ShloMosaic.Lib.ReduceAll
import Idealize.ShloMosaic.Lib.ValueIdx
import Mathlib.Data.EReal.Basic

noncomputable section

namespace Cert.KernelIdeal.Hand

open Idealize.ShloMosaic Idealize.SL.Sem Cert.KernelIdeal
open scoped BigOperators

/-! ## Extended reals that are reals -/

/-- An extended real that is neither infinity is a real. -/
theorem exists_real_of_ne {x : EReal} (h : x ≠ ⊤ ∧ x ≠ ⊥) : ∃ r : ℝ, x = (r : EReal) :=
  ⟨x.toReal, (EReal.coe_toReal h.1 h.2).symm⟩

/-- A real, read as an extended real, is neither infinity. -/
theorem ne_of_exists_real {x : EReal} (h : ∃ r : ℝ, x = (r : EReal)) : x ≠ ⊤ ∧ x ≠ ⊥ := by
  obtain ⟨r, rfl⟩ := h
  exact ⟨EReal.coe_ne_top r, EReal.coe_ne_bot r⟩

/-- If the absolute value `max x (-x)` of an extended real lies strictly below anything, `x` is neither infinity:
    `x = ⊤` makes the absolute value `⊤`, and so does `x = ⊥` (then `-x = ⊤`); nothing is strictly above `⊤`. -/
theorem ne_of_abs_lt {x y : EReal} (h : max x (-x) < y) : x ≠ ⊤ ∧ x ≠ ⊥ := by
  obtain ⟨h1, h2⟩ := max_lt_iff.1 h
  refine ⟨fun e => ?_, fun e => ?_⟩
  · subst e; exact absurd (lt_of_lt_of_le h1 le_top) (lt_irrefl _)
  · subst e; rw [EReal.neg_bot] at h2; exact absurd (lt_of_lt_of_le h2 le_top) (lt_irrefl _)

/-! ## One printed test `all(|x| < y)`, read back over an arbitrary shape -/

/-- The printed `all(|x| < y)`: if the reduction by `and`, over all axes, of the elementwise comparison `|x| < y` is 1,
    then every entry of `x` is a real. The reduction being 1 gives the comparison 1 at every index; at the exact
    instance the comparison is the order's `<` and the absolute value is `max x (-x)`; and `ne_of_abs_lt` ends it. The
    shape `s` is arbitrary and nothing here depends on its extents. -/
theorem real_of_all_abs_lt {s t u : Shape} [Subsingleton t.Idx] {axes : List (Fin s.rank)}
    (x y : FVec Ideal s .f32) (init : IVec u 1) (h : s.ReducesTo axes t) (hu : 0 < u.numel) (j : t.Idx)
    (e : Host.reduce IntOp.andi (cmpf .olt (Host.absf x) y) init h hu j = 1#1) (i : s.Idx) :
    ∃ r : ℝ, (x i : EReal) = (r : EReal) := by
  have h1 : cmpf .olt (Host.absf x) y i = 1#1 := Host.reduce_andi_all _ init h hu j e i
  have h2 : Ideal.cmp .olt (max (x i : EReal) (-(x i : EReal))) (y i) = 1#1 := h1
  have h3 : max (x i : EReal) (-(x i : EReal)) < y i := by
    unfold Ideal.cmp at h2
    by_contra hn
    simp [hn] at h2
  exact exists_real_of_ne (ne_of_abs_lt h3)

/-- The rank-0 shape has exactly one index (the empty tuple). -/
instance : Subsingleton Cert.Pre_finite_inputs.S_.Idx := ⟨fun a b => funext fun d => d.elim0⟩

/-- The componentwise `and` of two `i1` arrays is 1 at an index only if both are 1 there. -/
theorem andi_apply_split {s : Shape} {a b : IVec s 1} {i : s.Idx} (h : andi a b i = 1#1) : a i = 1#1 ∧ b i = 1#1 :=
  IntOp.andi_eq_one.1 h

/-! ## The fifteen float arguments -/

/-- Under the precondition every entry of every float argument is a real. The predicate's value at its one index is 1;
    unfolded, it is a left-nested `and` of fifteen tests `all(|x| < +∞)`, split from the outside in; each test is read
    by `real_of_all_abs_lt`. The conjuncts come in argument order (argument 1, the integer targets, has no test). -/
theorem finite_args (m : (ℓ : Loc Cert.KernelIdeal.nD Cert.KernelIdeal.τ Cert.KernelIdeal.sig) → Buf (Elt Ideal) ℓ)
    (hpre : Cert.Pre_KernelIdeal m) (c : Dev nD) :
    (∀ i, ∃ r : ℝ, (m ((c.tc : Thread nD τ).loc main_arg0) : S128x4x1024.Idx → EReal) i = (r : EReal)) ∧
    (∀ i, ∃ r : ℝ, (m ((c.tc : Thread nD τ).loc main_arg2) : S3x1024.Idx → EReal) i = (r : EReal)) ∧
    (∀ i, ∃ r : ℝ, (m ((c.tc : Thread nD τ).loc main_arg3) : S3.Idx → EReal) i = (r : EReal)) ∧
    (∀ i, ∃ r : ℝ, (m ((c.tc : Thread nD τ).loc main_arg4) : S1024x1024.Idx → EReal) i = (r : EReal)) ∧
    (∀ i, ∃ r : ℝ, (m ((c.tc : Thread nD τ).loc main_arg5) : S256x1024.Idx → EReal) i = (r : EReal)) ∧
    (∀ i, ∃ r : ℝ, (m ((c.tc : Thread nD τ).loc main_arg6) : S64x1024.Idx → EReal) i = (r : EReal)) ∧
    (∀ i, ∃ r : ℝ, (m ((c.tc : Thread nD τ).loc main_arg7) : S16x1024.Idx → EReal) i = (r : EReal)) ∧
    (∀ i, ∃ r : ℝ, (m ((c.tc : Thread nD τ).loc main_arg8) : S20000x1024.Idx → EReal) i = (r : EReal)) ∧
    (∀ i, ∃ r : ℝ, (m ((c.tc : Thread nD τ).loc main_arg9) : S20000x256.Idx → EReal) i = (r : EReal)) ∧
    (∀ i, ∃ r : ℝ, (m ((c.tc : Thread nD τ).loc main_arg10) : S160000x64.Idx → EReal) i = (r : EReal)) ∧
    (∀ i, ∃ r : ℝ, (m ((c.tc : Thread nD τ).loc main_arg11) : S67735x16.Idx → EReal) i = (r : EReal)) ∧
    (∀ i, ∃ r : ℝ, (m ((c.tc : Thread nD τ).loc main_arg12) : S20000.Idx → EReal) i = (r : EReal)) ∧
    (∀ i, ∃ r : ℝ, (m ((c.tc : Thread nD τ).loc main_arg13) : S20000.Idx → EReal) i = (r : EReal)) ∧
    (∀ i, ∃ r : ℝ, (m ((c.tc : Thread nD τ).loc main_arg14) : S160000.Idx → EReal) i = (r : EReal)) ∧
    (∀ i, ∃ r : ℝ, (m ((c.tc : Thread nD τ).loc main_arg15) : S67735.Idx → EReal) i = (r : EReal)) := by
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h
  obtain ⟨h, h15⟩ := andi_apply_split h
  obtain ⟨h, h14⟩ := andi_apply_split h
  obtain ⟨h, h13⟩ := andi_apply_split h
  obtain ⟨h, h12⟩ := andi_apply_split h
  obtain ⟨h, h11⟩ := andi_apply_split h
  obtain ⟨h, h10⟩ := andi_apply_split h
  obtain ⟨h, h9⟩ := andi_apply_split h
  obtain ⟨h, h8⟩ := andi_apply_split h
  obtain ⟨h, h7⟩ := andi_apply_split h
  obtain ⟨h, h6⟩ := andi_apply_split h
  obtain ⟨h, h5⟩ := andi_apply_split h
  obtain ⟨h, h4⟩ := andi_apply_split h
  obtain ⟨h, h3⟩ := andi_apply_split h
  obtain ⟨h0, h2⟩ := andi_apply_split h
  exact ⟨fun i => real_of_all_abs_lt _ _ _ _ _ _ h0 i,
    fun i => real_of_all_abs_lt _ _ _ _ _ _ h2 i,
    fun i => real_of_all_abs_lt _ _ _ _ _ _ h3 i,
    fun i => real_of_all_abs_lt _ _ _ _ _ _ h4 i,
    fun i => real_of_all_abs_lt _ _ _ _ _ _ h5 i,
    fun i => real_of_all_abs_lt _ _ _ _ _ _ h6 i,
    fun i => real_of_all_abs_lt _ _ _ _ _ _ h7 i,
    fun i => real_of_all_abs_lt _ _ _ _ _ _ h8 i,
    fun i => real_of_all_abs_lt _ _ _ _ _ _ h9 i,
    fun i => real_of_all_abs_lt _ _ _ _ _ _ h10 i,
    fun i => real_of_all_abs_lt _ _ _ _ _ _ h11 i,
    fun i => real_of_all_abs_lt _ _ _ _ _ _ h12 i,
    fun i => real_of_all_abs_lt _ _ _ _ _ _ h13 i,
    fun i => real_of_all_abs_lt _ _ _ _ _ _ h14 i,
    fun i => real_of_all_abs_lt _ _ _ _ _ _ h15 i⟩

/-- The same, each entry as "neither `⊤` nor `⊥`". The disequalities are stated at the type of extended reals explicitly
    (`@Ne EReal`): an argument's element type is the extended reals only after its buffer type is computed, and `⊤`, `⊥`
    are meant in the extended reals. -/
theorem finite_args_ne (m : (ℓ : Loc Cert.KernelIdeal.nD Cert.KernelIdeal.τ Cert.KernelIdeal.sig) → Buf (Elt Ideal) ℓ)
    (hpre : Cert.Pre_KernelIdeal m) (c : Dev nD) :
    (∀ i, @Ne EReal ((m ((c.tc : Thread nD τ).loc main_arg0) : S128x4x1024.Idx → EReal) i) ⊤ ∧ @Ne EReal ((m ((c.tc : Thread nD τ).loc main_arg0) : S128x4x1024.Idx → EReal) i) ⊥) ∧
    (∀ i, @Ne EReal ((m ((c.tc : Thread nD τ).loc main_arg2) : S3x1024.Idx → EReal) i) ⊤ ∧ @Ne EReal ((m ((c.tc : Thread nD τ).loc main_arg2) : S3x1024.Idx → EReal) i) ⊥) ∧
    (∀ i, @Ne EReal ((m ((c.tc : Thread nD τ).loc main_arg3) : S3.Idx → EReal) i) ⊤ ∧ @Ne EReal ((m ((c.tc : Thread nD τ).loc main_arg3) : S3.Idx → EReal) i) ⊥) ∧
    (∀ i, @Ne EReal ((m ((c.tc : Thread nD τ).loc main_arg4) : S1024x1024.Idx → EReal) i) ⊤ ∧ @Ne EReal ((m ((c.tc : Thread nD τ).loc main_arg4) : S1024x1024.Idx → EReal) i) ⊥) ∧
    (∀ i, @Ne EReal ((m ((c.tc : Thread nD τ).loc main_arg5) : S256x1024.Idx → EReal) i) ⊤ ∧ @Ne EReal ((m ((c.tc : Thread nD τ).loc main_arg5) : S256x1024.Idx → EReal) i) ⊥) ∧
    (∀ i, @Ne EReal ((m ((c.tc : Thread nD τ).loc main_arg6) : S64x1024.Idx → EReal) i) ⊤ ∧ @Ne EReal ((m ((c.tc : Thread nD τ).loc main_arg6) : S64x1024.Idx → EReal) i) ⊥) ∧
    (∀ i, @Ne EReal ((m ((c.tc : Thread nD τ).loc main_arg7) : S16x1024.Idx → EReal) i) ⊤ ∧ @Ne EReal ((m ((c.tc : Thread nD τ).loc main_arg7) : S16x1024.Idx → EReal) i) ⊥) ∧
    (∀ i, @Ne EReal ((m ((c.tc : Thread nD τ).loc main_arg8) : S20000x1024.Idx → EReal) i) ⊤ ∧ @Ne EReal ((m ((c.tc : Thread nD τ).loc main_arg8) : S20000x1024.Idx → EReal) i) ⊥) ∧
    (∀ i, @Ne EReal ((m ((c.tc : Thread nD τ).loc main_arg9) : S20000x256.Idx → EReal) i) ⊤ ∧ @Ne EReal ((m ((c.tc : Thread nD τ).loc main_arg9) : S20000x256.Idx → EReal) i) ⊥) ∧
    (∀ i, @Ne EReal ((m ((c.tc : Thread nD τ).loc main_arg10) : S160000x64.Idx → EReal) i) ⊤ ∧ @Ne EReal ((m ((c.tc : Thread nD τ).loc main_arg10) : S160000x64.Idx → EReal) i) ⊥) ∧
    (∀ i, @Ne EReal ((m ((c.tc : Thread nD τ).loc main_arg11) : S67735x16.Idx → EReal) i) ⊤ ∧ @Ne EReal ((m ((c.tc : Thread nD τ).loc main_arg11) : S67735x16.Idx → EReal) i) ⊥) ∧
    (∀ i, @Ne EReal ((m ((c.tc : Thread nD τ).loc main_arg12) : S20000.Idx → EReal) i) ⊤ ∧ @Ne EReal ((m ((c.tc : Thread nD τ).loc main_arg12) : S20000.Idx → EReal) i) ⊥) ∧
    (∀ i, @Ne EReal ((m ((c.tc : Thread nD τ).loc main_arg13) : S20000.Idx → EReal) i) ⊤ ∧ @Ne EReal ((m ((c.tc : Thread nD τ).loc main_arg13) : S20000.Idx → EReal) i) ⊥) ∧
    (∀ i, @Ne EReal ((m ((c.tc : Thread nD τ).loc main_arg14) : S160000.Idx → EReal) i) ⊤ ∧ @Ne EReal ((m ((c.tc : Thread nD τ).loc main_arg14) : S160000.Idx → EReal) i) ⊥) ∧
    (∀ i, @Ne EReal ((m ((c.tc : Thread nD τ).loc main_arg15) : S67735.Idx → EReal) i) ⊤ ∧ @Ne EReal ((m ((c.tc : Thread nD τ).loc main_arg15) : S67735.Idx → EReal) i) ⊥) := by
  obtain ⟨h0, h2, h3, h4, h5, h6, h7, h8, h9, h10, h11, h12, h13, h14, h15⟩ := finite_args m hpre c
  exact ⟨fun i => ne_of_exists_real (h0 i),
    fun i => ne_of_exists_real (h2 i),
    fun i => ne_of_exists_real (h3 i),
    fun i => ne_of_exists_real (h4 i),
    fun i => ne_of_exists_real (h5 i),
    fun i => ne_of_exists_real (h6 i),
    fun i => ne_of_exists_real (h7 i),
    fun i => ne_of_exists_real (h8 i),
    fun i => ne_of_exists_real (h9 i),
    fun i => ne_of_exists_real (h10 i),
    fun i => ne_of_exists_real (h11 i),
    fun i => ne_of_exists_real (h12 i),
    fun i => ne_of_exists_real (h13 i),
    fun i => ne_of_exists_real (h14 i),
    fun i => ne_of_exists_real (h15 i)⟩

/-- Every entry of float argument 0 is a real. -/
theorem finite_arg0 (m : (ℓ : Loc Cert.KernelIdeal.nD Cert.KernelIdeal.τ Cert.KernelIdeal.sig) → Buf (Elt Ideal) ℓ)
    (hpre : Cert.Pre_KernelIdeal m) (c : Dev nD) (i : S128x4x1024.Idx) :
    ∃ r : ℝ, (m ((c.tc : Thread nD τ).loc main_arg0) : S128x4x1024.Idx → EReal) i = (r : EReal) :=
  (finite_args m hpre c).1 i

/-- Every entry of float argument 0 is neither infinity. -/
theorem finite_arg0_ne (m : (ℓ : Loc Cert.KernelIdeal.nD Cert.KernelIdeal.τ Cert.KernelIdeal.sig) → Buf (Elt Ideal) ℓ)
    (hpre : Cert.Pre_KernelIdeal m) (c : Dev nD) (i : S128x4x1024.Idx) :
    @Ne EReal ((m ((c.tc : Thread nD τ).loc main_arg0) : S128x4x1024.Idx → EReal) i) ⊤ ∧ @Ne EReal ((m ((c.tc : Thread nD τ).loc main_arg0) : S128x4x1024.Idx → EReal) i) ⊥ :=
  ne_of_exists_real (finite_arg0 m hpre c i)

/-- Every entry of float argument 2 is a real. -/
theorem finite_arg2 (m : (ℓ : Loc Cert.KernelIdeal.nD Cert.KernelIdeal.τ Cert.KernelIdeal.sig) → Buf (Elt Ideal) ℓ)
    (hpre : Cert.Pre_KernelIdeal m) (c : Dev nD) (i : S3x1024.Idx) :
    ∃ r : ℝ, (m ((c.tc : Thread nD τ).loc main_arg2) : S3x1024.Idx → EReal) i = (r : EReal) :=
  (finite_args m hpre c).2.1 i

/-- Every entry of float argument 2 is neither infinity. -/
theorem finite_arg2_ne (m : (ℓ : Loc Cert.KernelIdeal.nD Cert.KernelIdeal.τ Cert.KernelIdeal.sig) → Buf (Elt Ideal) ℓ)
    (hpre : Cert.Pre_KernelIdeal m) (c : Dev nD) (i : S3x1024.Idx) :
    @Ne EReal ((m ((c.tc : Thread nD τ).loc main_arg2) : S3x1024.Idx → EReal) i) ⊤ ∧ @Ne EReal ((m ((c.tc : Thread nD τ).loc main_arg2) : S3x1024.Idx → EReal) i) ⊥ :=
  ne_of_exists_real (finite_arg2 m hpre c i)

/-- Every entry of float argument 3 is a real. -/
theorem finite_arg3 (m : (ℓ : Loc Cert.KernelIdeal.nD Cert.KernelIdeal.τ Cert.KernelIdeal.sig) → Buf (Elt Ideal) ℓ)
    (hpre : Cert.Pre_KernelIdeal m) (c : Dev nD) (i : S3.Idx) :
    ∃ r : ℝ, (m ((c.tc : Thread nD τ).loc main_arg3) : S3.Idx → EReal) i = (r : EReal) :=
  (finite_args m hpre c).2.2.1 i

/-- Every entry of float argument 3 is neither infinity. -/
theorem finite_arg3_ne (m : (ℓ : Loc Cert.KernelIdeal.nD Cert.KernelIdeal.τ Cert.KernelIdeal.sig) → Buf (Elt Ideal) ℓ)
    (hpre : Cert.Pre_KernelIdeal m) (c : Dev nD) (i : S3.Idx) :
    @Ne EReal ((m ((c.tc : Thread nD τ).loc main_arg3) : S3.Idx → EReal) i) ⊤ ∧ @Ne EReal ((m ((c.tc : Thread nD τ).loc main_arg3) : S3.Idx → EReal) i) ⊥ :=
  ne_of_exists_real (finite_arg3 m hpre c i)

/-- Every entry of float argument 4 is a real. -/
theorem finite_arg4 (m : (ℓ : Loc Cert.KernelIdeal.nD Cert.KernelIdeal.τ Cert.KernelIdeal.sig) → Buf (Elt Ideal) ℓ)
    (hpre : Cert.Pre_KernelIdeal m) (c : Dev nD) (i : S1024x1024.Idx) :
    ∃ r : ℝ, (m ((c.tc : Thread nD τ).loc main_arg4) : S1024x1024.Idx → EReal) i = (r : EReal) :=
  (finite_args m hpre c).2.2.2.1 i

/-- Every entry of float argument 4 is neither infinity. -/
theorem finite_arg4_ne (m : (ℓ : Loc Cert.KernelIdeal.nD Cert.KernelIdeal.τ Cert.KernelIdeal.sig) → Buf (Elt Ideal) ℓ)
    (hpre : Cert.Pre_KernelIdeal m) (c : Dev nD) (i : S1024x1024.Idx) :
    @Ne EReal ((m ((c.tc : Thread nD τ).loc main_arg4) : S1024x1024.Idx → EReal) i) ⊤ ∧ @Ne EReal ((m ((c.tc : Thread nD τ).loc main_arg4) : S1024x1024.Idx → EReal) i) ⊥ :=
  ne_of_exists_real (finite_arg4 m hpre c i)

/-- Every entry of float argument 5 is a real. -/
theorem finite_arg5 (m : (ℓ : Loc Cert.KernelIdeal.nD Cert.KernelIdeal.τ Cert.KernelIdeal.sig) → Buf (Elt Ideal) ℓ)
    (hpre : Cert.Pre_KernelIdeal m) (c : Dev nD) (i : S256x1024.Idx) :
    ∃ r : ℝ, (m ((c.tc : Thread nD τ).loc main_arg5) : S256x1024.Idx → EReal) i = (r : EReal) :=
  (finite_args m hpre c).2.2.2.2.1 i

/-- Every entry of float argument 5 is neither infinity. -/
theorem finite_arg5_ne (m : (ℓ : Loc Cert.KernelIdeal.nD Cert.KernelIdeal.τ Cert.KernelIdeal.sig) → Buf (Elt Ideal) ℓ)
    (hpre : Cert.Pre_KernelIdeal m) (c : Dev nD) (i : S256x1024.Idx) :
    @Ne EReal ((m ((c.tc : Thread nD τ).loc main_arg5) : S256x1024.Idx → EReal) i) ⊤ ∧ @Ne EReal ((m ((c.tc : Thread nD τ).loc main_arg5) : S256x1024.Idx → EReal) i) ⊥ :=
  ne_of_exists_real (finite_arg5 m hpre c i)

/-- Every entry of float argument 6 is a real. -/
theorem finite_arg6 (m : (ℓ : Loc Cert.KernelIdeal.nD Cert.KernelIdeal.τ Cert.KernelIdeal.sig) → Buf (Elt Ideal) ℓ)
    (hpre : Cert.Pre_KernelIdeal m) (c : Dev nD) (i : S64x1024.Idx) :
    ∃ r : ℝ, (m ((c.tc : Thread nD τ).loc main_arg6) : S64x1024.Idx → EReal) i = (r : EReal) :=
  (finite_args m hpre c).2.2.2.2.2.1 i

/-- Every entry of float argument 6 is neither infinity. -/
theorem finite_arg6_ne (m : (ℓ : Loc Cert.KernelIdeal.nD Cert.KernelIdeal.τ Cert.KernelIdeal.sig) → Buf (Elt Ideal) ℓ)
    (hpre : Cert.Pre_KernelIdeal m) (c : Dev nD) (i : S64x1024.Idx) :
    @Ne EReal ((m ((c.tc : Thread nD τ).loc main_arg6) : S64x1024.Idx → EReal) i) ⊤ ∧ @Ne EReal ((m ((c.tc : Thread nD τ).loc main_arg6) : S64x1024.Idx → EReal) i) ⊥ :=
  ne_of_exists_real (finite_arg6 m hpre c i)

/-- Every entry of float argument 7 is a real. -/
theorem finite_arg7 (m : (ℓ : Loc Cert.KernelIdeal.nD Cert.KernelIdeal.τ Cert.KernelIdeal.sig) → Buf (Elt Ideal) ℓ)
    (hpre : Cert.Pre_KernelIdeal m) (c : Dev nD) (i : S16x1024.Idx) :
    ∃ r : ℝ, (m ((c.tc : Thread nD τ).loc main_arg7) : S16x1024.Idx → EReal) i = (r : EReal) :=
  (finite_args m hpre c).2.2.2.2.2.2.1 i

/-- Every entry of float argument 7 is neither infinity. -/
theorem finite_arg7_ne (m : (ℓ : Loc Cert.KernelIdeal.nD Cert.KernelIdeal.τ Cert.KernelIdeal.sig) → Buf (Elt Ideal) ℓ)
    (hpre : Cert.Pre_KernelIdeal m) (c : Dev nD) (i : S16x1024.Idx) :
    @Ne EReal ((m ((c.tc : Thread nD τ).loc main_arg7) : S16x1024.Idx → EReal) i) ⊤ ∧ @Ne EReal ((m ((c.tc : Thread nD τ).loc main_arg7) : S16x1024.Idx → EReal) i) ⊥ :=
  ne_of_exists_real (finite_arg7 m hpre c i)

/-- Every entry of float argument 8 is a real. -/
theorem finite_arg8 (m : (ℓ : Loc Cert.KernelIdeal.nD Cert.KernelIdeal.τ Cert.KernelIdeal.sig) → Buf (Elt Ideal) ℓ)
    (hpre : Cert.Pre_KernelIdeal m) (c : Dev nD) (i : S20000x1024.Idx) :
    ∃ r : ℝ, (m ((c.tc : Thread nD τ).loc main_arg8) : S20000x1024.Idx → EReal) i = (r : EReal) :=
  (finite_args m hpre c).2.2.2.2.2.2.2.1 i

/-- Every entry of float argument 8 is neither infinity. -/
theorem finite_arg8_ne (m : (ℓ : Loc Cert.KernelIdeal.nD Cert.KernelIdeal.τ Cert.KernelIdeal.sig) → Buf (Elt Ideal) ℓ)
    (hpre : Cert.Pre_KernelIdeal m) (c : Dev nD) (i : S20000x1024.Idx) :
    @Ne EReal ((m ((c.tc : Thread nD τ).loc main_arg8) : S20000x1024.Idx → EReal) i) ⊤ ∧ @Ne EReal ((m ((c.tc : Thread nD τ).loc main_arg8) : S20000x1024.Idx → EReal) i) ⊥ :=
  ne_of_exists_real (finite_arg8 m hpre c i)

/-- Every entry of float argument 9 is a real. -/
theorem finite_arg9 (m : (ℓ : Loc Cert.KernelIdeal.nD Cert.KernelIdeal.τ Cert.KernelIdeal.sig) → Buf (Elt Ideal) ℓ)
    (hpre : Cert.Pre_KernelIdeal m) (c : Dev nD) (i : S20000x256.Idx) :
    ∃ r : ℝ, (m ((c.tc : Thread nD τ).loc main_arg9) : S20000x256.Idx → EReal) i = (r : EReal) :=
  (finite_args m hpre c).2.2.2.2.2.2.2.2.1 i

/-- Every entry of float argument 9 is neither infinity. -/
theorem finite_arg9_ne (m : (ℓ : Loc Cert.KernelIdeal.nD Cert.KernelIdeal.τ Cert.KernelIdeal.sig) → Buf (Elt Ideal) ℓ)
    (hpre : Cert.Pre_KernelIdeal m) (c : Dev nD) (i : S20000x256.Idx) :
    @Ne EReal ((m ((c.tc : Thread nD τ).loc main_arg9) : S20000x256.Idx → EReal) i) ⊤ ∧ @Ne EReal ((m ((c.tc : Thread nD τ).loc main_arg9) : S20000x256.Idx → EReal) i) ⊥ :=
  ne_of_exists_real (finite_arg9 m hpre c i)

/-- Every entry of float argument 10 is a real. -/
theorem finite_arg10 (m : (ℓ : Loc Cert.KernelIdeal.nD Cert.KernelIdeal.τ Cert.KernelIdeal.sig) → Buf (Elt Ideal) ℓ)
    (hpre : Cert.Pre_KernelIdeal m) (c : Dev nD) (i : S160000x64.Idx) :
    ∃ r : ℝ, (m ((c.tc : Thread nD τ).loc main_arg10) : S160000x64.Idx → EReal) i = (r : EReal) :=
  (finite_args m hpre c).2.2.2.2.2.2.2.2.2.1 i

/-- Every entry of float argument 10 is neither infinity. -/
theorem finite_arg10_ne (m : (ℓ : Loc Cert.KernelIdeal.nD Cert.KernelIdeal.τ Cert.KernelIdeal.sig) → Buf (Elt Ideal) ℓ)
    (hpre : Cert.Pre_KernelIdeal m) (c : Dev nD) (i : S160000x64.Idx) :
    @Ne EReal ((m ((c.tc : Thread nD τ).loc main_arg10) : S160000x64.Idx → EReal) i) ⊤ ∧ @Ne EReal ((m ((c.tc : Thread nD τ).loc main_arg10) : S160000x64.Idx → EReal) i) ⊥ :=
  ne_of_exists_real (finite_arg10 m hpre c i)

/-- Every entry of float argument 11 is a real. -/
theorem finite_arg11 (m : (ℓ : Loc Cert.KernelIdeal.nD Cert.KernelIdeal.τ Cert.KernelIdeal.sig) → Buf (Elt Ideal) ℓ)
    (hpre : Cert.Pre_KernelIdeal m) (c : Dev nD) (i : S67735x16.Idx) :
    ∃ r : ℝ, (m ((c.tc : Thread nD τ).loc main_arg11) : S67735x16.Idx → EReal) i = (r : EReal) :=
  (finite_args m hpre c).2.2.2.2.2.2.2.2.2.2.1 i

/-- Every entry of float argument 11 is neither infinity. -/
theorem finite_arg11_ne (m : (ℓ : Loc Cert.KernelIdeal.nD Cert.KernelIdeal.τ Cert.KernelIdeal.sig) → Buf (Elt Ideal) ℓ)
    (hpre : Cert.Pre_KernelIdeal m) (c : Dev nD) (i : S67735x16.Idx) :
    @Ne EReal ((m ((c.tc : Thread nD τ).loc main_arg11) : S67735x16.Idx → EReal) i) ⊤ ∧ @Ne EReal ((m ((c.tc : Thread nD τ).loc main_arg11) : S67735x16.Idx → EReal) i) ⊥ :=
  ne_of_exists_real (finite_arg11 m hpre c i)

/-- Every entry of float argument 12 is a real. -/
theorem finite_arg12 (m : (ℓ : Loc Cert.KernelIdeal.nD Cert.KernelIdeal.τ Cert.KernelIdeal.sig) → Buf (Elt Ideal) ℓ)
    (hpre : Cert.Pre_KernelIdeal m) (c : Dev nD) (i : S20000.Idx) :
    ∃ r : ℝ, (m ((c.tc : Thread nD τ).loc main_arg12) : S20000.Idx → EReal) i = (r : EReal) :=
  (finite_args m hpre c).2.2.2.2.2.2.2.2.2.2.2.1 i

/-- Every entry of float argument 12 is neither infinity. -/
theorem finite_arg12_ne (m : (ℓ : Loc Cert.KernelIdeal.nD Cert.KernelIdeal.τ Cert.KernelIdeal.sig) → Buf (Elt Ideal) ℓ)
    (hpre : Cert.Pre_KernelIdeal m) (c : Dev nD) (i : S20000.Idx) :
    @Ne EReal ((m ((c.tc : Thread nD τ).loc main_arg12) : S20000.Idx → EReal) i) ⊤ ∧ @Ne EReal ((m ((c.tc : Thread nD τ).loc main_arg12) : S20000.Idx → EReal) i) ⊥ :=
  ne_of_exists_real (finite_arg12 m hpre c i)

/-- Every entry of float argument 13 is a real. -/
theorem finite_arg13 (m : (ℓ : Loc Cert.KernelIdeal.nD Cert.KernelIdeal.τ Cert.KernelIdeal.sig) → Buf (Elt Ideal) ℓ)
    (hpre : Cert.Pre_KernelIdeal m) (c : Dev nD) (i : S20000.Idx) :
    ∃ r : ℝ, (m ((c.tc : Thread nD τ).loc main_arg13) : S20000.Idx → EReal) i = (r : EReal) :=
  (finite_args m hpre c).2.2.2.2.2.2.2.2.2.2.2.2.1 i

/-- Every entry of float argument 13 is neither infinity. -/
theorem finite_arg13_ne (m : (ℓ : Loc Cert.KernelIdeal.nD Cert.KernelIdeal.τ Cert.KernelIdeal.sig) → Buf (Elt Ideal) ℓ)
    (hpre : Cert.Pre_KernelIdeal m) (c : Dev nD) (i : S20000.Idx) :
    @Ne EReal ((m ((c.tc : Thread nD τ).loc main_arg13) : S20000.Idx → EReal) i) ⊤ ∧ @Ne EReal ((m ((c.tc : Thread nD τ).loc main_arg13) : S20000.Idx → EReal) i) ⊥ :=
  ne_of_exists_real (finite_arg13 m hpre c i)

/-- Every entry of float argument 14 is a real. -/
theorem finite_arg14 (m : (ℓ : Loc Cert.KernelIdeal.nD Cert.KernelIdeal.τ Cert.KernelIdeal.sig) → Buf (Elt Ideal) ℓ)
    (hpre : Cert.Pre_KernelIdeal m) (c : Dev nD) (i : S160000.Idx) :
    ∃ r : ℝ, (m ((c.tc : Thread nD τ).loc main_arg14) : S160000.Idx → EReal) i = (r : EReal) :=
  (finite_args m hpre c).2.2.2.2.2.2.2.2.2.2.2.2.2.1 i

/-- Every entry of float argument 14 is neither infinity. -/
theorem finite_arg14_ne (m : (ℓ : Loc Cert.KernelIdeal.nD Cert.KernelIdeal.τ Cert.KernelIdeal.sig) → Buf (Elt Ideal) ℓ)
    (hpre : Cert.Pre_KernelIdeal m) (c : Dev nD) (i : S160000.Idx) :
    @Ne EReal ((m ((c.tc : Thread nD τ).loc main_arg14) : S160000.Idx → EReal) i) ⊤ ∧ @Ne EReal ((m ((c.tc : Thread nD τ).loc main_arg14) : S160000.Idx → EReal) i) ⊥ :=
  ne_of_exists_real (finite_arg14 m hpre c i)

/-- Every entry of float argument 15 is a real. -/
theorem finite_arg15 (m : (ℓ : Loc Cert.KernelIdeal.nD Cert.KernelIdeal.τ Cert.KernelIdeal.sig) → Buf (Elt Ideal) ℓ)
    (hpre : Cert.Pre_KernelIdeal m) (c : Dev nD) (i : S67735.Idx) :
    ∃ r : ℝ, (m ((c.tc : Thread nD τ).loc main_arg15) : S67735.Idx → EReal) i = (r : EReal) :=
  (finite_args m hpre c).2.2.2.2.2.2.2.2.2.2.2.2.2.2 i

/-- Every entry of float argument 15 is neither infinity. -/
theorem finite_arg15_ne (m : (ℓ : Loc Cert.KernelIdeal.nD Cert.KernelIdeal.τ Cert.KernelIdeal.sig) → Buf (Elt Ideal) ℓ)
    (hpre : Cert.Pre_KernelIdeal m) (c : Dev nD) (i : S67735.Idx) :
    @Ne EReal ((m ((c.tc : Thread nD τ).loc main_arg15) : S67735.Idx → EReal) i) ⊤ ∧ @Ne EReal ((m ((c.tc : Thread nD τ).loc main_arg15) : S67735.Idx → EReal) i) ⊥ :=
  ne_of_exists_real (finite_arg15 m hpre c i)

/-! ## Finite sums of reals

General facts about extended reals, independent of the certificate: the reals are closed, inside the extended reals,
under sum, product and finite sums; so a finite sum of products of reals (one entry of a matrix product) plus a real
(a bias) is a real. -/

/-- The sum of two reals is a real. -/
theorem exists_real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The product of two reals is a real. -/
theorem exists_real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A finite sum of reals is the real sum of their real parts (induction on the index set). -/
theorem sum_eq_coe_sum_toReal {ι : Type*} (s : Finset ι) (f : ι → EReal) (hf : ∀ k ∈ s, ∃ r : ℝ, f k = (r : EReal)) :
    ∑ k ∈ s, f k = ((∑ k ∈ s, (f k).toReal : ℝ) : EReal) := by
  classical
  revert hf
  refine Finset.induction_on s (fun _ => by simp) ?_
  intro a s ha ih hf
  obtain ⟨r, hr⟩ := hf a (Finset.mem_insert_self a s)
  rw [Finset.sum_insert ha, Finset.sum_insert ha, ih fun k hk => hf k (Finset.mem_insert_of_mem hk), hr,
    EReal.toReal_coe, EReal.coe_add]

/-- A finite sum of reals is a real. -/
theorem exists_real_sum {ι : Type*} (s : Finset ι) (f : ι → EReal) (hf : ∀ k ∈ s, ∃ r : ℝ, f k = (r : EReal)) :
    ∃ r : ℝ, ∑ k ∈ s, f k = (r : EReal) :=
  ⟨_, sum_eq_coe_sum_toReal s f hf⟩

/-- A finite sum of products of reals is a real. -/
theorem exists_real_sum_mul {ι : Type*} [Fintype ι] (a b : ι → EReal) (ha : ∀ k, ∃ r : ℝ, a k = (r : EReal))
    (hb : ∀ k, ∃ r : ℝ, b k = (r : EReal)) : ∃ r : ℝ, ∑ k, a k * b k = (r : EReal) :=
  exists_real_sum Finset.univ _ fun k _ => exists_real_mul (ha k) (hb k)

/-- A finite sum of products of reals, plus a real, is a real. -/
theorem exists_real_sum_mul_add {ι : Type*} [Fintype ι] (a b : ι → EReal) (c : EReal)
    (ha : ∀ k, ∃ r : ℝ, a k = (r : EReal)) (hb : ∀ k, ∃ r : ℝ, b k = (r : EReal)) (hc : ∃ r : ℝ, c = (r : EReal)) :
    ∃ r : ℝ, ∑ k, a k * b k + c = (r : EReal) :=
  exists_real_add (exists_real_sum_mul a b ha hb) hc

/-- The value of a finite sum of products of reals: the real sum of the products of the real parts. -/
theorem sum_mul_eq_coe {ι : Type*} [Fintype ι] (a b : ι → EReal) (ha : ∀ k, ∃ r : ℝ, a k = (r : EReal))
    (hb : ∀ k, ∃ r : ℝ, b k = (r : EReal)) :
    ∑ k, a k * b k = ((∑ k, (a k).toReal * (b k).toReal : ℝ) : EReal) := by
  rw [sum_eq_coe_sum_toReal Finset.univ _ fun k _ => exists_real_mul (ha k) (hb k)]
  refine congrArg _ (Finset.sum_congr rfl fun k _ => ?_)
  obtain ⟨r, hr⟩ := ha k
  obtain ⟨q, hq⟩ := hb k
  rw [hr, hq, ← EReal.coe_mul]
  simp only [EReal.toReal_coe]

end Cert.KernelIdeal.Hand

end
-- ==== Proof.KernelArgs.lean ====
/-
  The arguments of the program on one core as plain functions (the shape the row-by-row description of the computed
  function takes them in), that every entry of them is a real number under the precondition, and that row 4·s + b of
  the hidden states flattened to 512 rows is the hidden vector of token (s, b).
-/
import proofs.«124427_j55336358642036_2_alg».proof.Proof.RegionsIdealP
import proofs.«124427_j55336358642036_2_alg».proof.Proof.SpecRows
import proofs.«124427_j55336358642036_2_alg».proof.Proof.HostGlue1
import proofs.«124427_j55336358642036_2_alg».proof.Proof.Finite
import Idealize.ShloMosaic.Lib.ValueIdx

set_option maxRecDepth 16384

noncomputable section

namespace Cert.KernelIdeal.Hand

open Cert.KernelIdeal.Gen Cert.KernelIdeal.GenP
open Idealize.ShloMosaic Idealize.ShloMosaic.TcCoe
open Idealize.ShloMosaic.ValueIdx
open scoped BigOperators

variable (m : (ℓ : Loc nD τ sig) → Buf (Elt Ideal) ℓ)

/-- The fifteen float arguments of the program on core c, as functions of plain coordinates. -/
def kArgs (c : Dev nD) : Cert.Spec.Args where
  hidden s b k := (m ((c : Thread nD τ).loc main_arg0) : S128x4x1024.Idx → EReal) (ix3 s b k)
  clusterW q e := (m ((c : Thread nD τ).loc main_arg2) : S3x1024.Idx → EReal) (ix2 q e)
  clusterB q := (m ((c : Thread nD τ).loc main_arg3) : S3.Idx → EReal) (ix1 q)
  proj0 e k := (m ((c : Thread nD τ).loc main_arg4) : S1024x1024.Idx → EReal) (ix2 e k)
  proj1 e k := (m ((c : Thread nD τ).loc main_arg5) : S256x1024.Idx → EReal) (ix2 e k)
  proj2 e k := (m ((c : Thread nD τ).loc main_arg6) : S64x1024.Idx → EReal) (ix2 e k)
  proj3 e k := (m ((c : Thread nD τ).loc main_arg7) : S16x1024.Idx → EReal) (ix2 e k)
  W0 j e := (m ((c : Thread nD τ).loc main_arg8) : S20000x1024.Idx → EReal) (ix2 j e)
  W1 j e := (m ((c : Thread nD τ).loc main_arg9) : S20000x256.Idx → EReal) (ix2 j e)
  W2 j e := (m ((c : Thread nD τ).loc main_arg10) : S160000x64.Idx → EReal) (ix2 j e)
  W3 j e := (m ((c : Thread nD τ).loc main_arg11) : S67735x16.Idx → EReal) (ix2 j e)
  b0 j := (m ((c : Thread nD τ).loc main_arg12) : S20000.Idx → EReal) (ix1 j)
  b1 j := (m ((c : Thread nD τ).loc main_arg13) : S20000.Idx → EReal) (ix1 j)
  b2 j := (m ((c : Thread nD τ).loc main_arg14) : S160000.Idx → EReal) (ix1 j)
  b3 j := (m ((c : Thread nD τ).loc main_arg15) : S67735.Idx → EReal) (ix1 j)

/-- Under the precondition every entry of every argument is a real number. -/
theorem argsReal (hpre : Cert.Pre_KernelIdeal m) (c : Dev nD) : Cert.Spec.ArgsReal (kArgs m c) where
  hidden s b k := finite_arg0_ne m hpre c (ix3 s b k)
  clusterW q e := finite_arg2_ne m hpre c (ix2 q e)
  clusterB q := finite_arg3_ne m hpre c (ix1 q)
  proj0 e k := finite_arg4_ne m hpre c (ix2 e k)
  proj1 e k := finite_arg5_ne m hpre c (ix2 e k)
  proj2 e k := finite_arg6_ne m hpre c (ix2 e k)
  proj3 e k := finite_arg7_ne m hpre c (ix2 e k)
  W0 j e := finite_arg8_ne m hpre c (ix2 j e)
  W1 j e := finite_arg9_ne m hpre c (ix2 j e)
  W2 j e := finite_arg10_ne m hpre c (ix2 j e)
  W3 j e := finite_arg11_ne m hpre c (ix2 j e)
  b0 j := finite_arg12_ne m hpre c (ix1 j)
  b1 j := finite_arg13_ne m hpre c (ix1 j)
  b2 j := finite_arg14_ne m hpre c (ix1 j)
  b3 j := finite_arg15_ne m hpre c (ix1 j)

/-- Row r = 4·s + b of the flattened hidden states is the token (s, b)'s hidden vector. -/
theorem hid_eq (c : Dev nD) (r : Fin 512) (s : Fin 128) (b : Fin 4) (hr : r.val = 4 * s.val + b.val) (k : Fin 1024) :
    hid m c r k = (kArgs m c).hidden s b k := by
  have hs : (⟨r.val / 4, by have := r.isLt; omega⟩ : Fin 128) = s := Fin.ext (by have := b.isLt; simp only; omega)
  have hb : (⟨r.val % 4, by omega⟩ : Fin 4) = b := Fin.ext (by have := b.isLt; simp only; omega)
  unfold hid
  rw [hs, hb]
  rfl

end Cert.KernelIdeal.Hand

end
-- ==== Proof.LossTail.lean ====
/-
  THE TWO PROGRAMS' LOSS TAILS AGREE, at the ideal values. Both programs end alike: each token's log-probability is
  gathered at its target index (a negative index wrapped by the vocabulary size 267735, an index outside
  [0, 267734] answered by a fill constant), negated, summed and divided by 512. One program does it on a
  [128, 4, 267735] array and sums over two axes, the other on the same entries laid out as [512, 267735]
  (row r = 4·s + b) and sums over one axis. Each gather is read at an index, the range test pointwise, so that both
  tails become the same closed form: (0 + Σ_s Σ_b −(term of token (s, b))) / 512; the sum over 512 rows against
  the double sum over [128, 4] is one reindexing of a finite sum.
-/
import proofs.«124427_j55336358642036_2_alg».proof.Proof.RefLossDef
import proofs.«124427_j55336358642036_2_alg».proof.Proof.HostGlue3
import Idealize.ShloMosaic.Lib.ValueIdx
import Idealize.ShloMosaic.Lib.IdealHost
import Idealize.ShloMosaic.Lib.Pipeline.Value
import Idealize.ShloMosaic.PureOps.Ideal.Laws
import Idealize.ShloMosaic.PureOps.Reduce

noncomputable section

namespace Cert.LossTailGen

open Idealize.ShloMosaic Idealize.ShloMosaic.ValueIdx
open scoped BigOperators

instance andi_comm1 : Std.Commutative (IntOp.andi (w := 1)) := ⟨fun a b => BitVec.and_comm a b⟩
instance andi_assoc1 : Std.Associative (IntOp.andi (w := 1)) := ⟨fun a b c => BitVec.and_assoc a b c⟩

/-- A fold over the one coordinate of a unit axis. -/
theorem fold_univ_fin_one {β : Type} (op : β → β → β) [Std.Commutative op] [Std.Associative op] (b : β) (f : Fin 1 → β) :
    (Finset.univ : Finset (Fin 1)).fold op b f = op (f 0) b := by
  rw [Finset.univ_unique, Finset.fold_singleton]
  rfl

/-! ## One token's loss term -/

/-- A target index wrapped: a negative one has the vocabulary size added. -/
def wrapT (t : BitVec 32) : BitVec 32 :=
  Scalar.select (IntOp.cmpi .slt t 0#32) (IntOp.addi t 267735#32) t

/-- The range test on a wrapped index, folded from 1 by and. -/
def okT (w : BitVec 32) : BitVec 1 :=
  IntOp.andi (IntOp.andi (IntOp.cmpi .sge w 0#32) (IntOp.cmpi .sle w 267734#32)) 1#1

/-- The gathered entry of a row at a target: the row at the wrapped index clamped into the row when the wrapped index
    is in range, the fill constant otherwise. -/
def tokVal (row : Fin 267735 → EReal) (t : BitVec 32) : EReal :=
  Scalar.select (okT (wrapT t)) (row ⟨min (wrapT t).toInt.toNat (267735 - 1), by omega⟩) (Ideal.ofBits .f32 0x7FC00000#32)

/-- The loss term stated at a start index known to be the wrapped target. -/
theorem tokVal_of_eq (row : Fin 267735 → EReal) (w t : BitVec 32) (h : w = wrapT t) :
    Scalar.select (okT w) (row ⟨min w.toInt.toNat (267735 - 1), by omega⟩) (Ideal.ofBits .f32 0x7FC00000#32)
      = tokVal row t := by
  subst h
  rfl

/-! ## The 512 rows as 128 × 4 -/

/-- Row r = 4·s + b of the flat array is position (s, b). -/
def rowEquiv : (⟨1, ![512]⟩ : Shape).Idx ≃ Fin 128 × Fin 4 where
  toFun i := (⟨(i 0).val / 4, by have : (i 0).val < 512 := (i 0).isLt; omega⟩, ⟨(i 0).val % 4, by omega⟩)
  invFun p := ix1 ⟨4 * p.1.val + p.2.val, by have := p.1.isLt; have := p.2.isLt; omega⟩
  left_inv i := by
    funext d
    match d with
    | ⟨0, _⟩ => exact Fin.ext (by show 4 * ((i 0).val / 4) + (i 0).val % 4 = (i 0).val; omega)
  right_inv p := by
    refine Prod.ext (Fin.ext ?_) (Fin.ext ?_)
    · show (4 * p.1.val + p.2.val) / 4 = p.1.val
      have := p.2.isLt; omega
    · show (4 * p.1.val + p.2.val) % 4 = p.2.val
      have := p.2.isLt; omega

/-- A sum over the 512 rows is the double sum over (s, b) at row 4·s + b. -/
theorem sum_rows {M : Type*} [AddCommMonoid M] (f : (⟨1, ![512]⟩ : Shape).Idx → M) :
    ∑ i, f i = ∑ s : Fin 128, ∑ b : Fin 4,
      f (ix1 ⟨4 * s.val + b.val, by have := s.isLt; have := b.isLt; omega⟩) := by
  rw [← Equiv.sum_comp rowEquiv.symm f, Fintype.sum_prod_type]
  rfl

/-! ## The flat program's reshapes, read at an index -/

section Flat
variable {α : Type}

/-- The targets reshaped to [512] and broadcast to [512, 1], read at row 4·s + b. -/
theorem tgtK_apply (tgt : (⟨2, ![128, 4]⟩ : Shape).Idx → α) (hs : (⟨2, ![128, 4]⟩ : Shape).ShapeCasts ⟨1, ![512]⟩)
    (hb : (⟨1, ![512]⟩ : Shape).BroadcastsInDim ⟨2, ![512, 1]⟩ ![0]) (k : (⟨2, ![512, 1]⟩ : Shape).Idx)
    (s : Fin 128) (b : Fin 4) (hk : (k 0).val = 4 * s.val + b.val) :
    broadcastInDim ⟨2, ![512, 1]⟩ ![0] hb (shapeCast ⟨1, ![512]⟩ tgt hs) k = tgt (ix2 s b) := by
  refine (broadcastInDim_apply _ hb _ k (ix1 (k 0)) (fun a => ?_)).trans ?_
  · obtain rfl : a = 0 := Subsingleton.elim _ _
    exact (if_neg (show ¬ ((512 : ℕ) = 1) by decide)).symm
  refine shapeCast_apply tgt hs (ix1 (k 0)) (ix2 s b) ?_
  rw [Shape.rowMajor_val_two, Shape.rowMajor_val_one]
  show s.val * 4 + b.val = (k 0).val
  omega

/-- [512, 1] reshaped to [512, 1, 1]. -/
theorem castK3_apply (v : (⟨2, ![512, 1]⟩ : Shape).Idx → α) (h : (⟨2, ![512, 1]⟩ : Shape).ShapeCasts ⟨3, ![512, 1, 1]⟩)
    (j : (⟨3, ![512, 1, 1]⟩ : Shape).Idx) : shapeCast ⟨3, ![512, 1, 1]⟩ v h j = v (ix2 (j 0) 0) := by
  refine shapeCast_apply v h j (ix2 (j 0) 0) ?_
  rw [Shape.rowMajor_val_two, Shape.rowMajor_val_three]
  have h1 : (j 1).val < 1 := (j 1).isLt
  have h2 : (j 2).val < 1 := (j 2).isLt
  show (j 0).val * 1 + 0 = ((j 0).val * 1 + (j 1).val) * 1 + (j 2).val
  omega

/-- [512, 1] reshaped to [512]. -/
theorem castK1_apply (v : (⟨2, ![512, 1]⟩ : Shape).Idx → α) (h : (⟨2, ![512, 1]⟩ : Shape).ShapeCasts ⟨1, ![512]⟩)
    (j : (⟨1, ![512]⟩ : Shape).Idx) : shapeCast ⟨1, ![512]⟩ v h j = v (ix2 (j 0) 0) := by
  refine shapeCast_apply v h j (ix2 (j 0) 0) ?_
  rw [Shape.rowMajor_val_two, Shape.rowMajor_val_one]
  show (j 0).val * 1 + 0 = (j 0).val
  omega

end Flat

/-- The and-reduce of a [512, 1, 1] array of bits over its last (unit) axis. -/
theorem reduceAndK_apply (x : IVec ⟨3, ![512, 1, 1]⟩ 1) (init : (⟨0, ![]⟩ : Shape).Idx → BitVec 1)
    (h' : (⟨3, ![512, 1, 1]⟩ : Shape).ReducesTo [2] ⟨2, ![512, 1]⟩) (hu : 0 < (⟨0, ![]⟩ : Shape).numel)
    (y : (⟨2, ![512, 1]⟩ : Shape).Idx) :
    Host.reduce IntOp.andi x init h' hu y = IntOp.andi (x (ix3 (y 0) (y 1) 0)) (init (Shape.Idx.first hu)) := by
  have h : (⟨3, ![512, 1, 1]⟩ : Shape).Reduces [2] ⟨2, ![512, 1]⟩ := by decide
  rw [Host.reduce_eq_fold_single IntOp.andi x init h' h hu y]
  refine (fold_univ_fin_one IntOp.andi (init (Shape.Idx.first hu)) (x ∘ h.lift y)).trans ?_
  show IntOp.andi (x (h.lift y (0 : Fin 1))) _ = _
  congr 2
  funext c
  refine Fin.ext ?_
  match c with
  | ⟨0, _⟩ => rfl
  | ⟨1, _⟩ => rfl
  | ⟨2, _⟩ => rfl

/-! ## The flat program's gather -/

section GatherFlat
variable {α : Type}

/-- The dimension numbers of a take along the last axis of a [512, 267735] array, rows batched. -/
abbrev gK (wf : GatherDims.WF ⟨2, ![512, 267735]⟩ ⟨3, ![512, 1, 1]⟩ ⟨2, ![512, 1]⟩ [] [1] [0] [1] [0] 2 ![1, 1]) :
    GatherDims ⟨2, ![512, 267735]⟩ ⟨3, ![512, 1, 1]⟩ ⟨2, ![512, 1]⟩ where
  offsetDims := []
  collapsedSliceDims := [1]
  operandBatchingDims := [0]
  startIndicesBatchingDims := [0]
  startIndexMap := [1]
  indexVectorDim := 2
  sliceSizes := ![1, 1]
  wf := wf

/-- That gather read at (r, c): row r of the operand at the start index of (r, c), read signed and clamped into the row. -/
theorem gatherK_apply {w : Nat}
    (wf : GatherDims.WF ⟨2, ![512, 267735]⟩ ⟨3, ![512, 1, 1]⟩ ⟨2, ![512, 1]⟩ [] [1] [0] [1] [0] 2 ![1, 1])
    (x : (⟨2, ![512, 267735]⟩ : Shape).Idx → α) (idx : IVec ⟨3, ![512, 1, 1]⟩ w) (y : (⟨2, ![512, 1]⟩ : Shape).Idx) :
    Host.gather (gK wf) x idx y
      = x (ix2 (y 0) ⟨min (idx (ix3 (y 0) (y 1) 0)).toInt.toNat (267735 - 1), by omega⟩) := by
  unfold Host.gather
  congr 1
  funext a
  refine Fin.ext ?_
  match a with
  | ⟨0, _⟩ =>
    show (gK wf).start y idx 0 + (gK wf).batchCoord y 0 + (gK wf).offCoord y 0 = (y 0).val
    rw [GatherDims.start_batching _ _ _ _ (List.mem_singleton.mpr rfl),
      GatherDims.offCoord_eq_zero _ _ _ (fun h => ((GatherDims.mem_sKept _ _).mp h).2 (List.mem_singleton.mpr rfl))]
    show 0 + (gK wf).batchCoord y 0 + 0 = (y 0).val
    rw [Nat.zero_add, Nat.add_zero]
    rfl
  | ⟨1, _⟩ =>
    show (gK wf).start y idx 1 + (gK wf).batchCoord y 1 + (gK wf).offCoord y 1 = _
    rw [GatherDims.batchCoord_eq_zero _ _ _ (show (1 : Fin 2) ∉ ([0] : List (Fin 2)) by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gK wf).startIndexMap from List.mem_singleton.mpr rfl)]
    have hsi : (gK wf).siIdx y ⟨List.idxOf (1 : Fin 2) (gK wf).startIndexMap,
        List.idxOf_lt_length_iff.2 (List.mem_singleton.mpr rfl)⟩ = ix3 (y 0) (y 1) 0 := by
      funext b; refine Fin.ext ?_
      match b with
      | ⟨0, _⟩ => rfl
      | ⟨1, _⟩ => rfl
      | ⟨2, _⟩ => rfl
    rw [hsi]
    rfl

end GatherFlat

/-! ## The [128, 4] program's reshapes, and-reduce and gather -/

section Nested
variable {α : Type}

/-- The targets broadcast to [128, 4, 1]. -/
theorem tgtR_apply (tgt : (⟨2, ![128, 4]⟩ : Shape).Idx → α)
    (hb : (⟨2, ![128, 4]⟩ : Shape).BroadcastsInDim ⟨3, ![128, 4, 1]⟩ ![0, 1]) (k : (⟨3, ![128, 4, 1]⟩ : Shape).Idx) :
    broadcastInDim ⟨3, ![128, 4, 1]⟩ ![0, 1] hb tgt k = tgt (ix2 (k 0) (k 1)) := by
  refine broadcastInDim_apply ![0, 1] hb tgt k (ix2 (k 0) (k 1)) (fun a => ?_)
  match a with
  | ⟨0, _⟩ => exact (if_neg (show ¬ ((128 : ℕ) = 1) by decide)).symm
  | ⟨1, _⟩ => exact (if_neg (show ¬ ((4 : ℕ) = 1) by decide)).symm

/-- [128, 4, 1] reshaped to [128, 4, 1, 1]. -/
theorem castR4_apply (v : (⟨3, ![128, 4, 1]⟩ : Shape).Idx → α)
    (h : (⟨3, ![128, 4, 1]⟩ : Shape).ShapeCasts ⟨4, ![128, 4, 1, 1]⟩) (j : (⟨4, ![128, 4, 1, 1]⟩ : Shape).Idx) :
    shapeCast ⟨4, ![128, 4, 1, 1]⟩ v h j = v (ix3 (j 0) (j 1) 0) := by
  refine shapeCast_apply v h j (ix3 (j 0) (j 1) 0) ?_
  rw [Shape.rowMajor_val_three, Shape.rowMajor_val_four]
  have h2 : (j 2).val < 1 := (j 2).isLt
  have h3 : (j 3).val < 1 := (j 3).isLt
  show ((j 0).val * 4 + (j 1).val) * 1 + 0 = (((j 0).val * 4 + (j 1).val) * 1 + (j 2).val) * 1 + (j 3).val
  omega

/-- [128, 4, 1] reshaped to [128, 4]. -/
theorem castR2_apply (v : (⟨3, ![128, 4, 1]⟩ : Shape).Idx → α)
    (h : (⟨3, ![128, 4, 1]⟩ : Shape).ShapeCasts ⟨2, ![128, 4]⟩) (j : (⟨2, ![128, 4]⟩ : Shape).Idx) :
    shapeCast ⟨2, ![128, 4]⟩ v h j = v (ix3 (j 0) (j 1) 0) := by
  refine shapeCast_apply v h j (ix3 (j 0) (j 1) 0) ?_
  rw [Shape.rowMajor_val_three, Shape.rowMajor_val_two]
  show ((j 0).val * 4 + (j 1).val) * 1 + 0 = (j 0).val * 4 + (j 1).val
  omega

end Nested

/-- The and-reduce of a [128, 4, 1, 1] array of bits over its last (unit) axis. -/
theorem reduceAndR_apply (x : IVec ⟨4, ![128, 4, 1, 1]⟩ 1) (init : (⟨0, ![]⟩ : Shape).Idx → BitVec 1)
    (h' : (⟨4, ![128, 4, 1, 1]⟩ : Shape).ReducesTo [3] ⟨3, ![128, 4, 1]⟩) (hu : 0 < (⟨0, ![]⟩ : Shape).numel)
    (y : (⟨3, ![128, 4, 1]⟩ : Shape).Idx) :
    Host.reduce IntOp.andi x init h' hu y = IntOp.andi (x (ix4 (y 0) (y 1) (y 2) 0)) (init (Shape.Idx.first hu)) := by
  have h : (⟨4, ![128, 4, 1, 1]⟩ : Shape).Reduces [3] ⟨3, ![128, 4, 1]⟩ := by decide
  rw [Host.reduce_eq_fold_single IntOp.andi x init h' h hu y]
  refine (fold_univ_fin_one IntOp.andi (init (Shape.Idx.first hu)) (x ∘ h.lift y)).trans ?_
  show IntOp.andi (x (h.lift y (0 : Fin 1))) _ = _
  congr 2
  funext c
  refine Fin.ext ?_
  match c with
  | ⟨0, _⟩ => rfl
  | ⟨1, _⟩ => rfl
  | ⟨2, _⟩ => rfl
  | ⟨3, _⟩ => rfl

section GatherNested
variable {α : Type}

/-- The dimension numbers of a take along the last axis of a [128, 4, 267735] array, the two leading axes batched. -/
abbrev gR (wf : GatherDims.WF ⟨3, ![128, 4, 267735]⟩ ⟨4, ![128, 4, 1, 1]⟩ ⟨3, ![128, 4, 1]⟩ [] [2] [0, 1] [2] [0, 1] 3 ![1, 1, 1]) :
    GatherDims ⟨3, ![128, 4, 267735]⟩ ⟨4, ![128, 4, 1, 1]⟩ ⟨3, ![128, 4, 1]⟩ where
  offsetDims := []
  collapsedSliceDims := [2]
  operandBatchingDims := [0, 1]
  startIndicesBatchingDims := [0, 1]
  startIndexMap := [2]
  indexVectorDim := 3
  sliceSizes := ![1, 1, 1]
  wf := wf

/-- That gather read at (s, b, c): row (s, b) of the operand at the start index of (s, b, c), read signed and clamped
    into the row. -/
theorem gatherR_apply {w : Nat}
    (wf : GatherDims.WF ⟨3, ![128, 4, 267735]⟩ ⟨4, ![128, 4, 1, 1]⟩ ⟨3, ![128, 4, 1]⟩ [] [2] [0, 1] [2] [0, 1] 3 ![1, 1, 1])
    (x : (⟨3, ![128, 4, 267735]⟩ : Shape).Idx → α) (idx : IVec ⟨4, ![128, 4, 1, 1]⟩ w)
    (y : (⟨3, ![128, 4, 1]⟩ : Shape).Idx) :
    Host.gather (gR wf) x idx y
      = x (ix3 (y 0) (y 1) ⟨min (idx (ix4 (y 0) (y 1) (y 2) 0)).toInt.toNat (267735 - 1), by omega⟩) := by
  unfold Host.gather
  congr 1
  funext a
  refine Fin.ext ?_
  match a with
  | ⟨0, _⟩ =>
    show (gR wf).start y idx 0 + (gR wf).batchCoord y 0 + (gR wf).offCoord y 0 = (y 0).val
    rw [GatherDims.start_batching _ _ _ _ (show (0 : Fin 3) ∈ ([0, 1] : List (Fin 3)) by decide),
      GatherDims.offCoord_eq_zero _ _ _ (fun h => ((GatherDims.mem_sKept _ _).mp h).2 (show (0 : Fin 3) ∈ ([0, 1] : List (Fin 3)) by decide))]
    show 0 + (gR wf).batchCoord y 0 + 0 = (y 0).val
    rw [Nat.zero_add, Nat.add_zero]
    rfl
  | ⟨1, _⟩ =>
    show (gR wf).start y idx 1 + (gR wf).batchCoord y 1 + (gR wf).offCoord y 1 = (y 1).val
    rw [GatherDims.start_batching _ _ _ _ (show (1 : Fin 3) ∈ ([0, 1] : List (Fin 3)) by decide),
      GatherDims.offCoord_eq_zero _ _ _ (fun h => ((GatherDims.mem_sKept _ _).mp h).2 (show (1 : Fin 3) ∈ ([0, 1] : List (Fin 3)) by decide))]
    show 0 + (gR wf).batchCoord y 1 + 0 = (y 1).val
    rw [Nat.zero_add, Nat.add_zero]
    rfl
  | ⟨2, _⟩ =>
    show (gR wf).start y idx 2 + (gR wf).batchCoord y 2 + (gR wf).offCoord y 2 = _
    rw [GatherDims.batchCoord_eq_zero _ _ _ (show (2 : Fin 3) ∉ ([0, 1] : List (Fin 3)) by decide),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (gR wf).startIndexMap from List.mem_singleton.mpr rfl)]
    have hsi : (gR wf).siIdx y ⟨List.idxOf (2 : Fin 3) (gR wf).startIndexMap,
        List.idxOf_lt_length_iff.2 (List.mem_singleton.mpr rfl)⟩ = ix4 (y 0) (y 1) (y 2) 0 := by
      funext b; refine Fin.ext ?_
      match b with
      | ⟨0, _⟩ => rfl
      | ⟨1, _⟩ => rfl
      | ⟨2, _⟩ => rfl
      | ⟨3, _⟩ => rfl
    rw [hsi]
    rfl

end GatherNested

end Cert.LossTailGen

/-! # The two loss tails -/

namespace Cert.ReferenceIdeal.RefValue.Tail

open Cert.ReferenceIdeal Cert.ReferenceIdeal.Gen Cert.ReferenceIdeal.RefValue Idealize.ShloMosaic Idealize.ShloMosaic.TcCoe Idealize.SL.Sem Idealize.ShloMosaic.StableHlo Idealize.ShloMosaic.ValueIdx Cert.LossTailGen
open scoped BigOperators

/-- The start indices of the gather: each target wrapped, as a [128, 4, 1, 1] array. -/
def idxR (tgt : S128x4.Idx → BitVec 32) : IVec S128x4x1x1 32 :=
  shapeCast S128x4x1x1 (select (cmpi .slt (broadcastInDim S128x4x1 ![0, 1] bcast_S128x4_S128x4x1_0_1 tgt) (broadcastInDim S128x4x1 ![] bcast_S_S128x4x1 (constantI S_ 32 0#32))) (addi (broadcastInDim S128x4x1 ![0, 1] bcast_S128x4_S128x4x1_0_1 tgt) (broadcastInDim S128x4x1 ![] bcast_S_S128x4x1 (constantI S_ 32 267735#32))) (broadcastInDim S128x4x1 ![0, 1] bcast_S128x4_S128x4x1_0_1 tgt)) shapeCasts_S128x4x1_S128x4x1x1

/-- The gathered entries, the fill constant where the range test fails, as a [128, 4, 1] array. -/
def selR (out : S128x4x267735.Idx → EReal) (tgt : S128x4.Idx → BitVec 32) : S128x4x1.Idx → EReal :=
  select (Host.reduce IntOp.andi (andi (cmpi .sge (idxR tgt) (broadcastInDim S128x4x1x1 ![] bcast_S_S128x4x1x1 (constantI S_ 32 0#32))) (cmpi .sle (idxR tgt) (broadcastInDim S128x4x1x1 ![0, 1, 2, 3] bcast_S1x1x1x1_S128x4x1x1_0_1_2_3 (broadcastInDim S1x1x1x1 ![3] bcast_S1_S1x1x1x1_3 (constantI S1 32 267734#32))))) (constantI S_ 1 1#1) reducesTo_S128x4x1x1_S128x4x1_d3 h_S_)
    (Host.gather gather_S128x4x267735_S128x4x1x1_S128x4x1_n_2_01_01_2_3_111 out (idxR tgt))
    (broadcastInDim S128x4x1 ![] bcast_S_S128x4x1 (constant (F := Ideal) S_ .f32 0x7FC00000#32))

theorem lossOf_unfold (out : S128x4x267735.Idx → EReal) (tgt : S128x4.Idx → BitVec 32) :
    lossOf out tgt = Host.divf (F := Ideal) (Host.reduceAdd (F := Ideal) (Host.negf (F := Ideal) (shapeCast S128x4 (selR out tgt) shapeCasts_S128x4x1_S128x4)) (constant (F := Ideal) S_ .f32 0x00000000#32) reducesTo_S128x4_S_d0_1 h_S_) (constant (F := Ideal) S_ .f32 0x44000000#32) := rfl

theorem idxR_apply (tgt : S128x4.Idx → BitVec 32) (j : S128x4x1x1.Idx) :
    idxR tgt j = wrapT (tgt (ix2 (j 0) (j 1))) := by
  unfold idxR
  rw [castR4_apply]
  unfold wrapT
  rw [← tgtR_apply tgt bcast_S128x4_S128x4x1_0_1 (ix3 (j 0) (j 1) 0)]
  rfl

theorem selR_apply (out : S128x4x267735.Idx → EReal) (tgt : S128x4.Idx → BitVec 32) (s : Fin 128) (b : Fin 4) :
    selR out tgt (ix3 s b 0) = tokVal (fun v => out (ix3 s b v)) (tgt (ix2 s b)) := by
  have hg : gather_S128x4x267735_S128x4x1x1_S128x4x1_n_2_01_01_2_3_111 = gR gather_S128x4x267735_S128x4x1x1_S128x4x1_n_2_01_01_2_3_111_wf := rfl
  have e : idxR tgt (ix4 s b 0 0) = wrapT (tgt (ix2 s b)) := idxR_apply tgt (ix4 s b 0 0)
  unfold selR
  rw [select_apply, reduceAndR_apply, hg, gatherR_apply]
  show Scalar.select (okT (idxR tgt (ix4 s b 0 0)))
      (out (ix3 s b ⟨min (idxR tgt (ix4 s b 0 0)).toInt.toNat (267735 - 1), by omega⟩))
      (Ideal.ofBits .f32 0x7FC00000#32) = _
  exact tokVal_of_eq (fun v => out (ix3 s b v)) _ _ e

theorem lossOf_eq (out : S128x4x267735.Idx → EReal) (tgt : S128x4.Idx → BitVec 32) :
    lossOf out tgt = fun _ => Ideal.div (Ideal.ofBits .f32 0x00000000#32
        + ∑ s : Fin 128, ∑ b : Fin 4, -(tokVal (fun v => out (ix3 s b v)) (tgt (ix2 s b))))
      (Ideal.ofBits .f32 0x44000000#32) := by
  funext j
  rw [lossOf_unfold, hostDivf_apply, hostReduceAdd_apply, Ideal.hostReduceAdd_total _ (fun b => b.elim0), sum_idx2]
  refine congrArg (fun z => Ideal.div (Ideal.ofBits .f32 0x00000000#32 + z) (Ideal.ofBits .f32 0x44000000#32)) ?_
  refine Finset.sum_congr rfl fun s _ => Finset.sum_congr rfl fun b _ => ?_
  show -(shapeCast S128x4 (selR out tgt) shapeCasts_S128x4x1_S128x4 (ix2 s b)) = _
  rw [castR2_apply]
  exact congrArg Neg.neg (selR_apply out tgt s b)

end Cert.ReferenceIdeal.RefValue.Tail

namespace Cert.KernelIdeal.Hand.Tail

open Cert.KernelIdeal Cert.KernelIdeal.Gen Cert.KernelIdeal.Hand Idealize.ShloMosaic Idealize.ShloMosaic.TcCoe Idealize.SL.Sem Idealize.ShloMosaic.StableHlo Idealize.ShloMosaic.ValueIdx Cert.LossTailGen
open scoped BigOperators

/-- The start index of row 4·s + b is the target (s, b) wrapped. -/
theorem gIdx_apply (tgt : S128x4.Idx → BitVec 32) (j : S512x1x1.Idx) (s : Fin 128) (b : Fin 4)
    (hj : (j 0).val = 4 * s.val + b.val) : gIdx (tgtCol tgt) j = wrapT (tgt (ix2 s b)) := by
  unfold gIdx
  rw [castK3_apply]
  unfold wrapT
  rw [← tgtK_apply tgt shapeCasts_S128x4_S512 bcast_S512_S512x1_0 (ix2 (j 0) 0) s b hj]
  rfl

/-- The taken entry of row 4·s + b is that row's loss term at the target (s, b). -/
theorem gTake_apply (o : S512x267735.Idx → EReal) (tgt : S128x4.Idx → BitVec 32) (s : Fin 128) (b : Fin 4) :
    gTake o (tgtCol tgt) (ix2 ⟨4 * s.val + b.val, by have := s.isLt; have := b.isLt; omega⟩ 0)
      = tokVal (fun v => o (ix2 ⟨4 * s.val + b.val, by have := s.isLt; have := b.isLt; omega⟩ v)) (tgt (ix2 s b)) := by
  have hg : gather_S512x267735_S512x1x1_S512x1_n_1_0_0_1_2_11 = gK gather_S512x267735_S512x1x1_S512x1_n_1_0_0_1_2_11_wf := rfl
  have e : gIdx (tgtCol tgt) (ix3 ⟨4 * s.val + b.val, by have := s.isLt; have := b.isLt; omega⟩ 0 0) = wrapT (tgt (ix2 s b)) :=
    gIdx_apply tgt _ s b rfl
  unfold gTake gMask
  rw [select_apply, reduceAndK_apply, hg, gatherK_apply]
  show Scalar.select (okT (gIdx (tgtCol tgt) (ix3 ⟨4 * s.val + b.val, by have := s.isLt; have := b.isLt; omega⟩ 0 0)))
      (o (ix2 ⟨4 * s.val + b.val, by have := s.isLt; have := b.isLt; omega⟩
        ⟨min (gIdx (tgtCol tgt) (ix3 ⟨4 * s.val + b.val, by have := s.isLt; have := b.isLt; omega⟩ 0 0)).toInt.toNat (267735 - 1), by omega⟩))
      (Ideal.ofBits .f32 0x7FC00000#32) = _
  exact tokVal_of_eq (fun v => o (ix2 ⟨4 * s.val + b.val, by have := s.isLt; have := b.isLt; omega⟩ v)) _ _ e

/-- The kernel's tail: the mean over (s, b) of the negated loss terms of row 4·s + b. -/
theorem lossTail_eq (o : S512x267735.Idx → EReal) (tgt : S128x4.Idx → BitVec 32) :
    lossTail o tgt = fun _ => Ideal.div (Ideal.ofBits .f32 0x00000000#32
        + ∑ s : Fin 128, ∑ b : Fin 4,
            -(tokVal (fun v => o (ix2 ⟨4 * s.val + b.val, by have := s.isLt; have := b.isLt; omega⟩ v)) (tgt (ix2 s b))))
      (Ideal.ofBits .f32 0x44000000#32) := by
  funext j
  unfold lossTail meanNeg
  rw [hostDivf_apply, hostReduceAdd_apply, Ideal.hostReduceAdd_total _ (fun b => b.elim0), sum_rows]
  refine congrArg (fun z => Ideal.div (Ideal.ofBits .f32 0x00000000#32 + z) (Ideal.ofBits .f32 0x44000000#32)) ?_
  refine Finset.sum_congr rfl fun s _ => Finset.sum_congr rfl fun b _ => ?_
  show -(shapeCast S512 (gTake o (tgtCol tgt)) shapeCasts_S512x1_S512 (ix1 ⟨4 * s.val + b.val, by have := s.isLt; have := b.isLt; omega⟩)) = _
  rw [castK1_apply]
  exact congrArg Neg.neg (gTake_apply o tgt s b)

end Cert.KernelIdeal.Hand.Tail

namespace Cert.KernelIdeal.Hand

open Cert.KernelIdeal Cert.KernelIdeal.Gen Cert.KernelIdeal.Hand Idealize.ShloMosaic Idealize.ShloMosaic.TcCoe Idealize.SL.Sem Idealize.ShloMosaic.StableHlo Idealize.ShloMosaic.ValueIdx Cert.LossTailGen
open scoped BigOperators
open Cert.KernelIdeal.Hand.Tail

/-- THE TWO TAILS AGREE: the kernel's tail on the flat array is the reference's tail on the array read as
    [128, 4, 267735], row r = 4·s + b. -/
theorem lossTail_eq_lossOf (o : S512x267735.Idx → EReal) (tgt : S128x4.Idx → BitVec 32) :
    lossTail o tgt = Cert.ReferenceIdeal.RefValue.lossOf
      (fun i => o (ix2 ⟨4 * (i 0).val + (i 1).val, by
        have h0 : (i 0).val < 128 := (i 0).isLt
        have h1 : (i 1).val < 4 := (i 1).isLt
        omega⟩ (i 2))) tgt := by
  rw [lossTail_eq, Cert.ReferenceIdeal.RefValue.Tail.lossOf_eq]

end Cert.KernelIdeal.Hand

end
-- ==== Proof.Algebraic.lean ====
/-
  The last conjunct of the claim: at the ideal values the kernel program and the reference, from memories that agree
  on the arguments, both run and end with the same two results and unchanged arguments.

  Both results are named by the specification (Spec.lean): the first is the array of the specification's
  log-probabilities `logProb A s b v` of the arguments' record `A`, the second the reference's loss function `lossOf`
  of that array and the target. The kernel program's run leaves its buffers at the valuation after its last host
  stretch; its first result there is the specification's array entry by entry (taken here as the hypothesis `hkout`),
  and its second is its own tail on out_flat, which is `lossOf` on the array read as [128, 4, 267735] (`kernel_loss`).
  The reference's side is taken in whatever spelling its run is stated (`algebraic_of`): the terms `R42`, `R48` it leaves
  in its two result buffers, the first read entry by entry as the specification's array of ITS arguments' record, the
  second as `lossOf` of the first; the two records are equal when the memories agree. `frame_ri_of` is the reference's
  frame from the same run.
-/
import proofs.«124427_j55336358642036_2_alg».proof.Defs
import proofs.«124427_j55336358642036_2_alg».proof.Proof.AssembleRun
import proofs.«124427_j55336358642036_2_alg».proof.Proof.HostGlue3
import proofs.«124427_j55336358642036_2_alg».proof.Proof.RefLossDef
import proofs.«124427_j55336358642036_2_alg».proof.Proof.KernelArgs
import proofs.«124427_j55336358642036_2_alg».proof.Proof.LossTail
import proofs.«124427_j55336358642036_2_alg».proof.Proof.Gen.ReferenceIdeal
import proofs.«124427_j55336358642036_2_alg».proof.Proof.Gen.Pre_finite_inputs
import Idealize.ShloMosaic.Lib.ValueIdx

set_option maxRecDepth 8192

noncomputable section

namespace Cert.Proof

open Idealize.ShloMosaic Idealize.ShloMosaic.TcCoe Idealize.SL.Sem Idealize.ShloMosaic.ValueIdx
open Cert.KernelIdeal.Hand (outs kArgs V35_v127 V35_v134 lossTail_eq_lossOf run_values)
open Cert.ReferenceIdeal.RefValue (lossOf)

/-- The kernel program's second result is the reference's loss function of the specification's log-probabilities:
    the program's own tail on out_flat is that function on the array read as [128, 4, 267735], row 4·s + b, and the
    array read so is the program's first result, which is the specification's. -/
theorem kernel_loss
    (hkout : ∀ (m : (ℓ : Loc Cert.KernelIdeal.nD Cert.KernelIdeal.τ Cert.KernelIdeal.sig) → Buf (Elt Ideal) ℓ), Cert.Pre_KernelIdeal m → ∀ (c : Dev Cert.KernelIdeal.nD) (i : Cert.KernelIdeal.S128x4x267735.Idx),
      (Cert.KernelIdeal.GenP.V35 m (outs m) c Cert.KernelIdeal.main_v127 : Cert.KernelIdeal.S128x4x267735.Idx → EReal) i = Cert.Spec.logProb (kArgs m c) (i 0) (i 1) (i 2).val)
    (m : (ℓ : Loc Cert.KernelIdeal.nD Cert.KernelIdeal.τ Cert.KernelIdeal.sig) → Buf (Elt Ideal) ℓ)
    (hpre : Cert.Pre_KernelIdeal m) (c : Dev Cert.KernelIdeal.nD) :
    (Cert.KernelIdeal.GenP.V35 m (outs m) c Cert.KernelIdeal.main_v134 : Cert.KernelIdeal.S_.Idx → EReal)
      = lossOf (fun i => Cert.Spec.logProb (kArgs m c) (i 0) (i 1) (i 2).val) (m ((c.tc : Thread Cert.KernelIdeal.nD Cert.KernelIdeal.τ).loc Cert.KernelIdeal.main_arg1)) := by
  refine (V35_v134 m (outs m) c).trans ((lossTail_eq_lossOf _ _).trans ?_)
  refine congrArg (fun o => lossOf o (m ((c.tc : Thread Cert.KernelIdeal.nD Cert.KernelIdeal.τ).loc Cert.KernelIdeal.main_arg1))) (funext fun i => ?_)
  exact (V35_v127 m (outs m) c i).symm.trans (hkout m hpre c i)

/-- The two launch memories agree on the sixteen arguments, on core c. -/
abbrev ArgsAgree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)

/-- THE LAST CONJUNCT, given the kernel program's first result entry by entry (`hkout`) and the reference's run in any
    spelling: `RA` the reference's arguments as the specification's
    record (equal to the kernel's when the memories agree), `R42` and `R48` the terms the run leaves in the
    reference's two result buffers, `hout` the first read entry by entry as the specification's log-probability and
    `hloss` the second as the loss function of the first and the target. Both programs then end with the same two
    arrays: the specification's log-probabilities and their loss. -/
theorem algebraic_of
    (hkout : ∀ (m : (ℓ : Loc Cert.KernelIdeal.nD Cert.KernelIdeal.τ Cert.KernelIdeal.sig) → Buf (Elt Ideal) ℓ), Cert.Pre_KernelIdeal m → ∀ (c : Dev Cert.KernelIdeal.nD) (i : Cert.KernelIdeal.S128x4x267735.Idx),
      (Cert.KernelIdeal.GenP.V35 m (outs m) c Cert.KernelIdeal.main_v127 : Cert.KernelIdeal.S128x4x267735.Idx → EReal) i = Cert.Spec.logProb (kArgs m c) (i 0) (i 1) (i 2).val)
    (RA : ((ℓ : Loc Cert.ReferenceIdeal.nD Cert.ReferenceIdeal.τ Cert.ReferenceIdeal.sig) → Buf (Elt Ideal) ℓ) → Dev Cert.ReferenceIdeal.nD → Cert.Spec.Args)
    (hRA : ∀ m m' c, ArgsAgree m m' c → kArgs m c = RA m' c)
    (R42 : (m' : (ℓ : Loc Cert.ReferenceIdeal.nD Cert.ReferenceIdeal.τ Cert.ReferenceIdeal.sig) → Buf (Elt Ideal) ℓ) → (c : Dev Cert.ReferenceIdeal.nD) → Buf (Elt Ideal) ((c.tc : Thread Cert.ReferenceIdeal.nD Cert.ReferenceIdeal.τ).loc Cert.ReferenceIdeal.main_v42))
    (R48 : (m' : (ℓ : Loc Cert.ReferenceIdeal.nD Cert.ReferenceIdeal.τ Cert.ReferenceIdeal.sig) → Buf (Elt Ideal) ℓ) → (c : Dev Cert.ReferenceIdeal.nD) → Buf (Elt Ideal) ((c.tc : Thread Cert.ReferenceIdeal.nD Cert.ReferenceIdeal.τ).loc Cert.ReferenceIdeal.main_v48))
    (hrun : ∀ (m' : (ℓ : Loc Cert.ReferenceIdeal.nD Cert.ReferenceIdeal.τ Cert.ReferenceIdeal.sig) → Buf (Elt Ideal) ℓ) (ρ' : Dev Cert.ReferenceIdeal.nD → PrngReg),
      θ_run (Cert.ReferenceIdeal.defs (F := Ideal)) (onTc (τ := Cert.ReferenceIdeal.τ) (Cert.ReferenceIdeal.main (F := Ideal))) ⟨m', fun _ => 0, ρ'⟩
        (fun r => ∀ c : Dev Cert.ReferenceIdeal.nD,
          r.2.mem ((c.tc : Thread Cert.ReferenceIdeal.nD Cert.ReferenceIdeal.τ).loc Cert.ReferenceIdeal.main_v42) = R42 m' c
          ∧ r.2.mem ((c.tc : Thread Cert.ReferenceIdeal.nD Cert.ReferenceIdeal.τ).loc Cert.ReferenceIdeal.main_v48) = R48 m' c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)))
    (hout : ∀ m' c (i : Cert.ReferenceIdeal.S128x4x267735.Idx),
      (R42 m' c : Cert.ReferenceIdeal.S128x4x267735.Idx → EReal) i = Cert.Spec.logProb (RA m' c) (i 0) (i 1) (i 2).val)
    (hloss : ∀ m' c, R48 m' c = lossOf (R42 m' c) (m' ((c.tc : Thread Cert.ReferenceIdeal.nD Cert.ReferenceIdeal.τ).loc Cert.ReferenceIdeal.main_arg1))) :
    Cert.algebraic_KernelIdeal_ReferenceIdeal := by
  intro m g m' g' hpre hagree
  refine ⟨fun c => (fun i => Cert.Spec.logProb (kArgs m c) (i 0) (i 1) (i 2).val),
    fun c => lossOf (fun i => Cert.Spec.logProb (kArgs m c) (i 0) (i 1) (i 2).val) (m ((c.tc : Thread Cert.KernelIdeal.nD Cert.KernelIdeal.τ).loc Cert.KernelIdeal.main_arg1)), ?_, ?_⟩
  · refine (θ_run Cert.KernelIdeal.defs _ _).mono (fun r h c => ?_) (run_values m g)
    obtain ⟨h127, h134, hargs⟩ := h c
    exact ⟨h127.trans (funext fun i => hkout m hpre c i), h134.trans (kernel_loss hkout m hpre c), hargs⟩
  · refine (θ_run Cert.ReferenceIdeal.defs _ _).mono (fun r h c => ?_) (hrun m' g')
    obtain ⟨h42, h48, hargs⟩ := h c
    have hA : kArgs m c = RA m' c := hRA m m' c (hagree c)
    refine ⟨h42.trans (funext fun i => ?_), h48.trans ?_, hargs⟩
    · exact (hout m' c i).trans (congrArg (fun A => Cert.Spec.logProb A (i 0) (i 1) (i 2).val) hA.symm)
    · exact (hloss m' c).trans (congrArg₂ lossOf
        (funext fun i => (hout m' c i).trans (congrArg (fun A => Cert.Spec.logProb A (i 0) (i 1) (i 2).val) hA.symm))
        (hagree c).2.1)

/-- The reference's frame from the same run: the two results dropped. -/
theorem frame_ri_of
    (R42 : (m' : (ℓ : Loc Cert.ReferenceIdeal.nD Cert.ReferenceIdeal.τ Cert.ReferenceIdeal.sig) → Buf (Elt Ideal) ℓ) → (c : Dev Cert.ReferenceIdeal.nD) → Buf (Elt Ideal) ((c.tc : Thread Cert.ReferenceIdeal.nD Cert.ReferenceIdeal.τ).loc Cert.ReferenceIdeal.main_v42))
    (R48 : (m' : (ℓ : Loc Cert.ReferenceIdeal.nD Cert.ReferenceIdeal.τ Cert.ReferenceIdeal.sig) → Buf (Elt Ideal) ℓ) → (c : Dev Cert.ReferenceIdeal.nD) → Buf (Elt Ideal) ((c.tc : Thread Cert.ReferenceIdeal.nD Cert.ReferenceIdeal.τ).loc Cert.ReferenceIdeal.main_v48))
    (hrun : ∀ (m' : (ℓ : Loc Cert.ReferenceIdeal.nD Cert.ReferenceIdeal.τ Cert.ReferenceIdeal.sig) → Buf (Elt Ideal) ℓ) (ρ' : Dev Cert.ReferenceIdeal.nD → PrngReg),
      θ_run (Cert.ReferenceIdeal.defs (F := Ideal)) (onTc (τ := Cert.ReferenceIdeal.τ) (Cert.ReferenceIdeal.main (F := Ideal))) ⟨m', fun _ => 0, ρ'⟩
        (fun r => ∀ c : Dev Cert.ReferenceIdeal.nD,
          r.2.mem ((c.tc : Thread Cert.ReferenceIdeal.nD Cert.ReferenceIdeal.τ).loc Cert.ReferenceIdeal.main_v42) = R42 m' c
          ∧ r.2.mem ((c.tc : Thread Cert.ReferenceIdeal.nD Cert.ReferenceIdeal.τ).loc Cert.ReferenceIdeal.main_v48) = R48 m' c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))) :
    Cert.frame_ReferenceIdeal := by
  intro m' g' _
  exact (θ_run Cert.ReferenceIdeal.defs _ _).mono (fun r h c => (h c).2.2) (hrun m' g')

end Cert.Proof

end
-- ==== Proof.HostGlue2.lean ====
import proofs.«124427_j55336358642036_2_alg».proof.Proof.HostGlue1
import Idealize.ShloMosaic.Lib.IdealHost

/-! # The host operations between a statistics region and its write region: the merges

After the statistics region of a cluster the host program merges the two halves' running maximum and sum:
m = max(m₀, m₁), l = l₀·exp(m₀ − m) + l₁·exp(m₁ − m) (`mrgM`, `mrgL`). For the head cluster it further merges the
three cluster logits xₛ = y₀·cwₛ + cbₛ into combined_m = max(m, maxₛ xₛ), combined_l = l·exp(m − combined_m) +
Σₛ exp(xₛ − combined_m), and forms the three extra log-probabilities xₛ − combined_m − log combined_l (`headM`, `headL`,
`xlogprob`), column s − 1 of which is the `extra` operand of tail cluster s. This module proves that the write regions'
operands m, l and extra hold exactly these, read at a row, in terms of what the statistics regions left and the arguments. -/

set_option maxRecDepth 1668

noncomputable section

namespace Cert.KernelIdeal.Hand

open Cert.KernelIdeal.Gen Cert.KernelIdeal.GenP
open Idealize.ShloMosaic Idealize.ShloMosaic.TcCoe
open Idealize.ShloMosaic.ValueIdx
open scoped BigOperators

variable (m : (ℓ : Loc nD τ sig) → Buf (Elt Ideal) ℓ) (outs : Outs (F := Ideal))

/-! ## One half of a stacked [2, 512, 1] array, as the host program cuts it -/

/-- Half 0 as a column: the slice [0:1, :, :] reshaped to [512, 1]. -/
abbrev H0 (M : FVec Ideal S2x512x1 .f32) : FVec Ideal S512x1 .f32 :=
  shapeCast S512x1 (extractStridedSlice S1x512x1 ![0, 0, 0] M slices_S2x512x1_S1x512x1_0_0_0) shapeCasts_S1x512x1_S512x1
/-- Half 1 as a column. -/
abbrev H1 (M : FVec Ideal S2x512x1 .f32) : FVec Ideal S512x1 .f32 :=
  shapeCast S512x1 (extractStridedSlice S1x512x1 ![1, 0, 0] M slices_S2x512x1_S1x512x1_1_0_0) shapeCasts_S1x512x1_S512x1

theorem H0_apply (M : FVec Ideal S2x512x1 .f32) (i : S512x1.Idx) : H0 M i = M (ix3 (0 : Fin 2) (i 0) (0 : Fin 1)) := by
  refine (shapeCast_apply _ _ i (ix3 (0 : Fin 1) (i 0) (0 : Fin 1)) ?_).trans
    (extractStridedSlice_apply _ M _ _ (ix3 (0 : Fin 2) (i 0) (0 : Fin 1)) (fun a => ?_))
  · rw [Shape.rowMajor_val_three, Shape.rowMajor_val_two]
    have h1 : (i 1).val < 1 := (i 1).isLt
    show (0 * 512 + (i 0).val) * 1 + 0 = (i 0).val * 1 + (i 1).val
    omega
  · match a with
    | ⟨0, _⟩ => rfl
    | ⟨1, _⟩ => show (i 0).val = 0 + (i 0).val; omega
    | ⟨2, _⟩ => rfl

theorem H1_apply (M : FVec Ideal S2x512x1 .f32) (i : S512x1.Idx) : H1 M i = M (ix3 (1 : Fin 2) (i 0) (0 : Fin 1)) := by
  refine (shapeCast_apply _ _ i (ix3 (0 : Fin 1) (i 0) (0 : Fin 1)) ?_).trans
    (extractStridedSlice_apply _ M _ _ (ix3 (1 : Fin 2) (i 0) (0 : Fin 1)) (fun a => ?_))
  · rw [Shape.rowMajor_val_three, Shape.rowMajor_val_two]
    have h1 : (i 1).val < 1 := (i 1).isLt
    show (0 * 512 + (i 0).val) * 1 + 0 = (i 0).val * 1 + (i 1).val
    omega
  · match a with
    | ⟨0, _⟩ => rfl
    | ⟨1, _⟩ => show (i 0).val = 0 + (i 0).val; omega
    | ⟨2, _⟩ => rfl

/-- The merged maximum as the host program computes it. -/
abbrev MG (M : FVec Ideal S2x512x1 .f32) : FVec Ideal S512x1 .f32 := maximumf (H0 M) (H1 M)
/-- The merged sum as the host program computes it. -/
abbrev LG (M L : FVec Ideal S2x512x1 .f32) : FVec Ideal S512x1 .f32 :=
  addf (mulf (H0 L) (Host.exp (subf (H0 M) (MG M)))) (mulf (H1 L) (Host.exp (subf (H1 M) (MG M))))

theorem MG_apply (M : FVec Ideal S2x512x1 .f32) (i : S512x1.Idx) : MG M i = mrgM M (i 0) := by
  unfold mrgM
  exact congrArg₂ max (H0_apply M i) (H1_apply M i)

theorem LG_apply (M L : FVec Ideal S2x512x1 .f32) (i : S512x1.Idx) : LG M L i = mrgL M L (i 0) := by
  unfold mrgL
  show H0 L i * Ideal.exp (H0 M i - MG M i) + H1 L i * Ideal.exp (H1 M i - MG M i) = _
  rw [H0_apply, H0_apply, H1_apply, H1_apply, MG_apply]

/-- A [512, 1] index is (row, 0). -/
theorem col_idx (i : S512x1.Idx) : i = ix2 (i 0) (0 : Fin 1) := by
  have h1 : (i 1).val < 1 := (i 1).isLt
  funext a
  match a with
  | ⟨0, _⟩ => rfl
  | ⟨1, _⟩ => exact Fin.ext (by show (i 1).val = 0; omega)

/-! ## The head's dot products at an index -/

theorem dot1_apply (X : FVec Ideal S512x1024 .bf16) (P : FVec Ideal S1024x1024 .bf16) (j : S512x1024.Idx) :
    Host.dotGeneral dot_S512x1024_S1024x1024_S512x1024_1_1_0_0_n_n none X P j
      = ∑ k : Fin 1024, X (ix2 (j 0) k) * P (ix2 (j 1) k) := by
  simp only [Host.dotGeneral]
  rw [Ideal.dotGeneral_apply]
  rw [← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  congr 2
  · funext a
    match a with
    | ⟨0, _⟩ => rfl
    | ⟨1, _⟩ => exact Fin.ext hk
  · funext a
    match a with
    | ⟨0, _⟩ => rfl
    | ⟨1, _⟩ => exact Fin.ext hk

theorem dot2_apply (Y : FVec Ideal S512x1024 .bf16) (CW : FVec Ideal S3x1024 .bf16) (j : S512x3.Idx) :
    Host.dotGeneral dot_S512x1024_S3x1024_S512x3_1_1_0_0_n_n none Y CW j
      = ∑ e : Fin 1024, Y (ix2 (j 0) e) * CW (ix2 (j 1) e) := by
  simp only [Host.dotGeneral]
  rw [Ideal.dotGeneral_apply]
  rw [← Equiv.sum_comp (contrEquiv1 dot_S512x1024_S3x1024_S512x3_1_1_0_0_n_n 1024 rfl rfl).symm]
  refine Finset.sum_congr rfl fun k _ => ?_
  have hk := contrEquiv1_symm_val dot_S512x1024_S3x1024_S512x3_1_1_0_0_n_n 1024 rfl rfl k
  congr 2
  · funext a
    match a with
    | ⟨0, _⟩ => rfl
    | ⟨1, _⟩ => exact Fin.ext hk
  · funext a
    match a with
    | ⟨0, _⟩ => rfl
    | ⟨1, _⟩ => exact Fin.ext hk

/-- The three cluster logits as the host program computes them. -/
abbrev XL (H : FVec Ideal S512x1024 .bf16) (P : FVec Ideal S1024x1024 .bf16) (CW : FVec Ideal S3x1024 .f32) (CB : FVec Ideal S3 .f32) :
    FVec Ideal S512x3 .f32 :=
  addf (Host.dotGeneral dot_S512x1024_S3x1024_S512x3_1_1_0_0_n_n none
          (truncf .bf16 (Host.dotGeneral dot_S512x1024_S1024x1024_S512x1024_1_1_0_0_n_n none H P) bitsLt_bf16_f32)
          (truncf .bf16 CW bitsLt_bf16_f32))
       (broadcastInDim S512x3 ![0, 1] bcast_S1x3_S512x3_0_1 (broadcastInDim S1x3 ![1] bcast_S3_S1x3_1 CB))

theorem bias_apply (CB : FVec Ideal S3 .f32) (j : S512x3.Idx) :
    broadcastInDim S512x3 ![0, 1] bcast_S1x3_S512x3_0_1 (broadcastInDim S1x3 ![1] bcast_S3_S1x3_1 CB) j = CB (ix1 (j 1)) := by
  refine (broadcastInDim_apply _ _ _ j (ix2 (0 : Fin 1) (j 1)) (fun a => ?_)).trans
    (broadcastInDim_apply _ _ CB (ix2 (0 : Fin 1) (j 1)) (ix1 (j 1)) (fun a => ?_))
  · match a with
    | ⟨0, _⟩ => rfl
    | ⟨1, _⟩ => rfl
  · match a with
    | ⟨0, _⟩ => rfl

theorem XL_apply (H : FVec Ideal S512x1024 .bf16) (P : FVec Ideal S1024x1024 .bf16) (CW : FVec Ideal S3x1024 .f32) (CB : FVec Ideal S3 .f32)
    (j : S512x3.Idx) :
    XL H P CW CB j = (∑ e : Fin 1024, (∑ k : Fin 1024, H (ix2 (j 0) k) * P (ix2 e k)) * CW (ix2 (j 1) e)) + CB (ix1 (j 1)) := by
  show Host.dotGeneral dot_S512x1024_S3x1024_S512x3_1_1_0_0_n_n none _ _ j + _ = _
  rw [dot2_apply, bias_apply]
  refine congrArg (· + CB (ix1 (j 1))) (Finset.sum_congr rfl fun e _ => ?_)
  show Host.dotGeneral dot_S512x1024_S1024x1024_S512x1024_1_1_0_0_n_n none H P (ix2 (j 0) e) * CW (ix2 (j 1) e) = _
  rw [dot1_apply]

/-! ## The head's merge with the cluster logits -/

theorem ofBits_neg_inf : Ideal.ofBits .f32 0xFF800000#32 = (⊥ : EReal) := by
  simp [Ideal.ofBits, Ideal.ieee]

/-- A column [512, 1] broadcast over three columns, at (r, q). -/
theorem bcol3_apply (X : FVec Ideal S512x1 .f32) (j : S512x3.Idx) :
    broadcastInDim S512x3 ![0, 1] bcast_S512x1_S512x3_0_1 X j = X (ix2 (j 0) (0 : Fin 1)) := by
  refine broadcastInDim_apply _ _ X j (ix2 (j 0) (0 : Fin 1)) (fun a => ?_)
  match a with
  | ⟨0, _⟩ => rfl
  | ⟨1, _⟩ => rfl

/-- A vector [512] as a column [512, 1], at (r, 0). -/
theorem vcol_apply (X : FVec Ideal S512 .f32) (i : S512x1.Idx) :
    broadcastInDim S512x1 ![0] bcast_S512_S512x1_0 X i = X (ix1 (i 0)) := by
  refine broadcastInDim_apply _ _ X i (ix1 (i 0)) (fun a => ?_)
  match a with
  | ⟨0, _⟩ => rfl

theorem rowmax_apply (X : FVec Ideal S512x3 .f32) (r : Fin 512) :
    Host.reduce FloatOps.maximumf X (constant (F := Ideal) S_ .f32 0xFF800000#32) reducesTo_S512x3_S512_d1 h_S_ (ix1 r)
      = (Finset.univ : Finset (Fin 3)).fold max ⊥ (fun q => X (ix2 r q)) := by
  have h : S512x3.Reduces [1] S512 := by decide
  rw [Host.reduce_eq_fold_single FloatOps.maximumf X _ reducesTo_S512x3_S512_d1 h h_S_]
  show (Finset.univ : Finset (Fin 3)).fold max (Ideal.ofBits .f32 0xFF800000#32) (X ∘ h.lift (ix1 r)) = _
  rw [ofBits_neg_inf]
  refine congrArg (fun f => Finset.fold max (⊥ : EReal) f (Finset.univ : Finset (Fin 3))) (funext fun q => ?_)
  show X (h.lift (ix1 r) q) = X (ix2 r q)
  refine congrArg X (funext fun a => ?_)
  match a with
  | ⟨0, _⟩ => rfl
  | ⟨1, _⟩ => rfl

theorem rowsum_apply (X : FVec Ideal S512x3 .f32) (r : Fin 512) :
    Host.reduceAdd X (constant (F := Ideal) S_ .f32 0x00000000#32) reducesTo_S512x3_S512_d1 h_S_ (ix1 r) = ∑ q : Fin 3, X (ix2 r q) := by
  have h : S512x3.Reduces [1] S512 := by decide
  rw [hostReduceAdd_apply, Ideal.hostReduceAdd_single reducesTo_S512x3_S512_d1 h]
  show Ideal.ofBits .f32 0x00000000#32 + _ = _
  rw [Ideal.ofBits_zero_f32, zero_add]
  refine Finset.sum_congr rfl fun q _ => congrArg X (funext fun a => ?_)
  match a with
  | ⟨0, _⟩ => rfl
  | ⟨1, _⟩ => rfl

/-- combined_m as the host program computes it from the merged maximum and the cluster logits. -/
abbrev HM (M16 : FVec Ideal S512x1 .f32) (X : FVec Ideal S512x3 .f32) : FVec Ideal S512x1 .f32 :=
  maximumf M16 (broadcastInDim S512x1 ![0] bcast_S512_S512x1_0
    (Host.reduce FloatOps.maximumf X (constant (F := Ideal) S_ .f32 0xFF800000#32) reducesTo_S512x3_S512_d1 h_S_))
/-- combined_l likewise. -/
abbrev HL (M16 L23 M33 : FVec Ideal S512x1 .f32) (X : FVec Ideal S512x3 .f32) : FVec Ideal S512x1 .f32 :=
  addf (mulf L23 (Host.exp (subf M16 M33)))
    (broadcastInDim S512x1 ![0] bcast_S512_S512x1_0
      (Host.reduceAdd (Host.exp (subf X (broadcastInDim S512x3 ![0, 1] bcast_S512x1_S512x3_0_1 M33)))
        (constant (F := Ideal) S_ .f32 0x00000000#32) reducesTo_S512x3_S512_d1 h_S_))
/-- extra_logprob likewise. -/
abbrev HP (X : FVec Ideal S512x3 .f32) (M33 L42 : FVec Ideal S512x1 .f32) : FVec Ideal S512x3 .f32 :=
  subf (subf X (broadcastInDim S512x3 ![0, 1] bcast_S512x1_S512x3_0_1 M33))
    (broadcastInDim S512x3 ![0, 1] bcast_S512x1_S512x3_0_1 (Host.log L42))

theorem HM_apply (M16 : FVec Ideal S512x1 .f32) (X : FVec Ideal S512x3 .f32) (i : S512x1.Idx) :
    HM M16 X i = max (M16 i) ((Finset.univ : Finset (Fin 3)).fold max ⊥ (fun q => X (ix2 (i 0) q))) := by
  exact (maximumf_apply _ _ i).trans (congrArg (max (M16 i)) ((vcol_apply _ i).trans (rowmax_apply X (i 0))))

theorem HL_apply (M16 L23 M33 : FVec Ideal S512x1 .f32) (X : FVec Ideal S512x3 .f32) (i : S512x1.Idx) :
    HL M16 L23 M33 X i = L23 i * Ideal.exp (M16 i - M33 i) + ∑ q : Fin 3, Ideal.exp (X (ix2 (i 0) q) - M33 i) := by
  refine (addf_apply _ _ i).trans (congrArg₂ (fun a b : EReal => a + b)
    (rfl : mulf L23 (Host.exp (subf M16 M33)) i = L23 i * Ideal.exp (M16 i - M33 i))
    ((vcol_apply _ i).trans ((rowsum_apply _ (i 0)).trans (Finset.sum_congr rfl fun q _ => ?_))))
  exact congrArg Ideal.exp (congrArg (fun z : EReal => X (ix2 (i 0) q) - z)
    ((bcol3_apply M33 (ix2 (i 0) q)).trans (congrArg M33 (col_idx i).symm)))

theorem HP_apply (X : FVec Ideal S512x3 .f32) (M33 L42 : FVec Ideal S512x1 .f32) (j : S512x3.Idx) :
    HP X M33 L42 j = X j - M33 (ix2 (j 0) (0 : Fin 1)) - Ideal.log (L42 (ix2 (j 0) (0 : Fin 1))) := by
  show X j - broadcastInDim S512x3 ![0, 1] bcast_S512x1_S512x3_0_1 M33 j
      - broadcastInDim S512x3 ![0, 1] bcast_S512x1_S512x3_0_1 (Host.log L42) j = _
  rw [bcol3_apply, bcol3_apply]
  rfl

/-! ## The stretch after region 0, over any incoming contents -/

section Stretch1
variable (Vin : Valuation τ sig (Elt Ideal))

theorem s1_v16 : StableHlo.after hostOps1 Vin (Proc.devRef .tc main_v16) = MG (Vin (Proc.devRef .tc main_v7_0)) := by
  after_results_simp <;> rfl
theorem s1_v23 : StableHlo.after hostOps1 Vin (Proc.devRef .tc main_v23)
    = LG (Vin (Proc.devRef .tc main_v7_0)) (Vin (Proc.devRef .tc main_v7_1)) := by
  after_results_simp <;> rfl
theorem s1_v30 : StableHlo.after hostOps1 Vin (Proc.devRef .tc main_v30)
    = XL (Vin (Proc.devRef .tc main_v1)) (Vin (Proc.devRef .tc main_v2)) (Vin (Proc.devRef .tc main_arg2)) (Vin (Proc.devRef .tc main_arg3)) := by
  after_results_simp <;> rfl
theorem s1_v33 : StableHlo.after hostOps1 Vin (Proc.devRef .tc main_v33)
    = HM (StableHlo.after hostOps1 Vin (Proc.devRef .tc main_v16)) (StableHlo.after hostOps1 Vin (Proc.devRef .tc main_v30)) := by
  after_results_simp <;> rfl
theorem s1_v42 : StableHlo.after hostOps1 Vin (Proc.devRef .tc main_v42)
    = HL (StableHlo.after hostOps1 Vin (Proc.devRef .tc main_v16)) (StableHlo.after hostOps1 Vin (Proc.devRef .tc main_v23))
        (StableHlo.after hostOps1 Vin (Proc.devRef .tc main_v33)) (StableHlo.after hostOps1 Vin (Proc.devRef .tc main_v30)) := by
  after_results_simp <;> rfl
theorem s1_v47 : StableHlo.after hostOps1 Vin (Proc.devRef .tc main_v47)
    = HP (StableHlo.after hostOps1 Vin (Proc.devRef .tc main_v30)) (StableHlo.after hostOps1 Vin (Proc.devRef .tc main_v33))
        (StableHlo.after hostOps1 Vin (Proc.devRef .tc main_v42)) := by
  after_results_simp <;> rfl
theorem s1_v48 : StableHlo.after hostOps1 Vin (Proc.devRef .tc main_v48)
    = broadcastInDim S512x1 ![] bcast_S_S512x1 (constant (F := Ideal) S_ .f32 0x00000000#32) := by
  after_results_simp <;> rfl

end Stretch1

/-! ## What the regions left, read back -/

theorem V6_v7_0 (c : Dev nD) : V6 m outs c main_v7_0 = outs 6 main_v7_0 c := by
  simp only [V6, Function.update_of_ne (StableHlo.devRef_ne_of_ne (by decide : main_v7_0 ≠ main_v7_1) : (Proc.devRef .tc main_v7_0 : DevRef τ sig) ≠ Proc.devRef .tc main_v7_1), Function.update_self]
theorem V6_v7_1 (c : Dev nD) : V6 m outs c main_v7_1 = outs 6 main_v7_1 c := by
  simp only [V6, Function.update_self]
theorem V14_v56_0 (c : Dev nD) : V14 m outs c main_v56_0 = outs 14 main_v56_0 c := by
  simp only [V14, Function.update_of_ne (StableHlo.devRef_ne_of_ne (by decide : main_v56_0 ≠ main_v56_1) : (Proc.devRef .tc main_v56_0 : DevRef τ sig) ≠ Proc.devRef .tc main_v56_1), Function.update_self]
theorem V14_v56_1 (c : Dev nD) : V14 m outs c main_v56_1 = outs 14 main_v56_1 c := by
  simp only [V14, Function.update_self]
theorem V22_v81_0 (c : Dev nD) : V22 m outs c main_v81_0 = outs 22 main_v81_0 c := by
  simp only [V22, Function.update_of_ne (StableHlo.devRef_ne_of_ne (by decide : main_v81_0 ≠ main_v81_1) : (Proc.devRef .tc main_v81_0 : DevRef τ sig) ≠ Proc.devRef .tc main_v81_1), Function.update_self]
theorem V22_v81_1 (c : Dev nD) : V22 m outs c main_v81_1 = outs 22 main_v81_1 c := by
  simp only [V22, Function.update_self]
theorem V30_v106_0 (c : Dev nD) : V30 m outs c main_v106_0 = outs 30 main_v106_0 c := by
  simp only [V30, Function.update_of_ne (StableHlo.devRef_ne_of_ne (by decide : main_v106_0 ≠ main_v106_1) : (Proc.devRef .tc main_v106_0 : DevRef τ sig) ≠ Proc.devRef .tc main_v106_1), Function.update_self]
theorem V30_v106_1 (c : Dev nD) : V30 m outs c main_v106_1 = outs 30 main_v106_1 c := by
  simp only [V30, Function.update_self]

/-! ## The head: region 1's operands m, l, extra, and the three extra log-probabilities -/

theorem V7_v16 (c : Dev nD) (i : S512x1.Idx) : (V7 m outs c main_v16 : S512x1.Idx → EReal) i = mrgM (outs 6 main_v7_0 c) (i 0) := by
  refine (congrFun (s1_v16 (V6 m outs c)) i).trans ?_
  rw [V6_v7_0]
  exact MG_apply _ i

theorem V7_v23 (c : Dev nD) (i : S512x1.Idx) : (V7 m outs c main_v23 : S512x1.Idx → EReal) i
    = mrgL (outs 6 main_v7_0 c) (outs 6 main_v7_1 c) (i 0) := by
  refine (congrFun (s1_v23 (V6 m outs c)) i).trans ?_
  rw [V6_v7_0, V6_v7_1]
  exact LG_apply _ _ i

theorem V7_v30 (c : Dev nD) (j : S512x3.Idx) : (V7 m outs c main_v30 : S512x3.Idx → EReal) j = xlogit m c (j 0) (j 1) := by
  refine (congrFun (s1_v30 (V6 m outs c)) j).trans ?_
  rw [XL_apply]
  unfold xlogit y0
  have h1 : ∀ k : Fin 1024, (V6 m outs c main_v1 : S512x1024.Idx → EReal) (ix2 (j 0) k) = hid m c (j 0) k := fun k => by
    v_back; exact V1_v1 m c (ix2 (j 0) k)
  have h2 : (V6 m outs c main_v2 : S1024x1024.Idx → EReal) = (m ((c : Thread nD τ).loc main_arg4) : S1024x1024.Idx → EReal) := by
    v_back; exact V1_v2 m c
  have h3 : (V6 m outs c main_arg2 : S3x1024.Idx → EReal) = (m ((c : Thread nD τ).loc main_arg2) : S3x1024.Idx → EReal) := by
    v_back <;> rfl
  have h4 : (V6 m outs c main_arg3 : S3.Idx → EReal) = (m ((c : Thread nD τ).loc main_arg3) : S3.Idx → EReal) := by
    v_back <;> rfl
  rw [h2, h3, h4]
  simp only [h1]

theorem V7_v33 (c : Dev nD) (i : S512x1.Idx) : (V7 m outs c main_v33 : S512x1.Idx → EReal) i = headM m outs c (i 0) := by
  refine (congrFun (s1_v33 (V6 m outs c)) i).trans ?_
  rw [HM_apply]
  unfold headM xmax
  refine congrArg₂ (fun a b : EReal => max a b) (V7_v16 m outs c i) ?_
  refine congrArg (fun f => Finset.fold max (⊥ : EReal) f (Finset.univ : Finset (Fin 3))) (funext fun q => ?_)
  exact V7_v30 m outs c (ix2 (i 0) q)

theorem V7_v42 (c : Dev nD) (i : S512x1.Idx) : (V7 m outs c main_v42 : S512x1.Idx → EReal) i = headL m outs c (i 0) := by
  refine (congrFun (s1_v42 (V6 m outs c)) i).trans ?_
  rw [HL_apply]
  unfold headL
  have e16 : StableHlo.after hostOps1 (V6 m outs c) (Proc.devRef .tc main_v16) i = mrgM (outs 6 main_v7_0 c) (i 0) := V7_v16 m outs c i
  have e23 : StableHlo.after hostOps1 (V6 m outs c) (Proc.devRef .tc main_v23) i = mrgL (outs 6 main_v7_0 c) (outs 6 main_v7_1 c) (i 0) :=
    V7_v23 m outs c i
  have e33 : StableHlo.after hostOps1 (V6 m outs c) (Proc.devRef .tc main_v33) i = headM m outs c (i 0) := V7_v33 m outs c i
  have e30 : ∀ q : Fin 3, StableHlo.after hostOps1 (V6 m outs c) (Proc.devRef .tc main_v30) (ix2 (i 0) q) = xlogit m c (i 0) q :=
    fun q => V7_v30 m outs c (ix2 (i 0) q)
  rw [e16, e23, e33]
  simp only [e30]

theorem V7_v47 (c : Dev nD) (j : S512x3.Idx) : (V7 m outs c main_v47 : S512x3.Idx → EReal) j = xlogprob m outs c (j 0) (j 1) := by
  refine (congrFun (s1_v47 (V6 m outs c)) j).trans ?_
  rw [HP_apply]
  unfold xlogprob
  have e30 : StableHlo.after hostOps1 (V6 m outs c) (Proc.devRef .tc main_v30) j = xlogit m c (j 0) (j 1) := V7_v30 m outs c j
  have e33 : StableHlo.after hostOps1 (V6 m outs c) (Proc.devRef .tc main_v33) (ix2 (j 0) (0 : Fin 1)) = headM m outs c (j 0) :=
    V7_v33 m outs c (ix2 (j 0) (0 : Fin 1))
  have e42 : StableHlo.after hostOps1 (V6 m outs c) (Proc.devRef .tc main_v42) (ix2 (j 0) (0 : Fin 1)) = headL m outs c (j 0) :=
    V7_v42 m outs c (ix2 (j 0) (0 : Fin 1))
  rw [e30, e33, e42]

theorem V7_v48 (c : Dev nD) (i : S512x1.Idx) : (V7 m outs c main_v48 : S512x1.Idx → EReal) i = (0 : EReal) := by
  refine (congrFun (s1_v48 (V6 m outs c)) i).trans ?_
  exact (broadcastInDim_scalar_apply _ _ i).trans Ideal.ofBits_zero_f32

/-! ## The tails: regions 3, 5, 7's operands m, l, extra -/

section Stretch357
variable (Vin : Valuation τ sig (Elt Ideal))

theorem s3_v65 : StableHlo.after hostOps3 Vin (Proc.devRef .tc main_v65) = MG (Vin (Proc.devRef .tc main_v56_0)) := by
  after_results <;> rfl
theorem s3_v72 : StableHlo.after hostOps3 Vin (Proc.devRef .tc main_v72)
    = LG (Vin (Proc.devRef .tc main_v56_0)) (Vin (Proc.devRef .tc main_v56_1)) := by
  after_results <;> rfl
theorem s3_v73 : StableHlo.after hostOps3 Vin (Proc.devRef .tc main_v73)
    = extractStridedSlice S512x1 ![0, 0] (Vin (Proc.devRef .tc main_v47) : FVec Ideal S512x3 .f32) slices_S512x3_S512x1_0_0 := by
  after_results <;> rfl

theorem s5_v90 : StableHlo.after hostOps5 Vin (Proc.devRef .tc main_v90) = MG (Vin (Proc.devRef .tc main_v81_0)) := by
  after_results <;> rfl
theorem s5_v97 : StableHlo.after hostOps5 Vin (Proc.devRef .tc main_v97)
    = LG (Vin (Proc.devRef .tc main_v81_0)) (Vin (Proc.devRef .tc main_v81_1)) := by
  after_results <;> rfl
theorem s5_v98 : StableHlo.after hostOps5 Vin (Proc.devRef .tc main_v98)
    = extractStridedSlice S512x1 ![0, 1] (Vin (Proc.devRef .tc main_v47) : FVec Ideal S512x3 .f32) slices_S512x3_S512x1_0_1 := by
  after_results <;> rfl

theorem s7_v115 : StableHlo.after hostOps7 Vin (Proc.devRef .tc main_v115) = MG (Vin (Proc.devRef .tc main_v106_0)) := by
  after_results <;> rfl
theorem s7_v122 : StableHlo.after hostOps7 Vin (Proc.devRef .tc main_v122)
    = LG (Vin (Proc.devRef .tc main_v106_0)) (Vin (Proc.devRef .tc main_v106_1)) := by
  after_results <;> rfl
theorem s7_v123 : StableHlo.after hostOps7 Vin (Proc.devRef .tc main_v123)
    = extractStridedSlice S512x1 ![0, 2] (Vin (Proc.devRef .tc main_v47) : FVec Ideal S512x3 .f32) slices_S512x3_S512x1_0_2 := by
  after_results <;> rfl

end Stretch357

/-- Column q of a [512, 3] array as a [512, 1] column, at (r, 0). -/
theorem colq_apply (X : FVec Ideal S512x3 .f32) (q : Fin 3) (h : S512x3.Slices ![0, q.val] S512x1) (i : S512x1.Idx) :
    extractStridedSlice S512x1 ![0, q.val] X h i = X (ix2 (i 0) q) := by
  have h1 : (i 1).val < 1 := (i 1).isLt
  refine extractStridedSlice_apply _ X h i (ix2 (i 0) q) (fun a => ?_)
  match a with
  | ⟨0, _⟩ => show (i 0).val = 0 + (i 0).val; omega
  | ⟨1, _⟩ => show q.val = q.val + (i 1).val; omega

theorem V15_v65 (c : Dev nD) (i : S512x1.Idx) : (V15 m outs c main_v65 : S512x1.Idx → EReal) i = mrgM (outs 14 main_v56_0 c) (i 0) := by
  refine (congrFun (s3_v65 (V14 m outs c)) i).trans ?_
  rw [V14_v56_0]
  exact MG_apply _ i
theorem V15_v72 (c : Dev nD) (i : S512x1.Idx) : (V15 m outs c main_v72 : S512x1.Idx → EReal) i
    = mrgL (outs 14 main_v56_0 c) (outs 14 main_v56_1 c) (i 0) := by
  refine (congrFun (s3_v72 (V14 m outs c)) i).trans ?_
  rw [V14_v56_0, V14_v56_1]
  exact LG_apply _ _ i
theorem V15_v73 (c : Dev nD) (i : S512x1.Idx) : (V15 m outs c main_v73 : S512x1.Idx → EReal) i = xlogprob m outs c (i 0) (0 : Fin 3) := by
  refine (congrFun (s3_v73 (V14 m outs c)) i).trans ?_
  refine (colq_apply _ (0 : Fin 3) slices_S512x3_S512x1_0_0 i).trans ?_
  v_back
  exact V7_v47 m outs c (ix2 (i 0) (0 : Fin 3))

theorem V23_v90 (c : Dev nD) (i : S512x1.Idx) : (V23 m outs c main_v90 : S512x1.Idx → EReal) i = mrgM (outs 22 main_v81_0 c) (i 0) := by
  refine (congrFun (s5_v90 (V22 m outs c)) i).trans ?_
  rw [V22_v81_0]
  exact MG_apply _ i
theorem V23_v97 (c : Dev nD) (i : S512x1.Idx) : (V23 m outs c main_v97 : S512x1.Idx → EReal) i
    = mrgL (outs 22 main_v81_0 c) (outs 22 main_v81_1 c) (i 0) := by
  refine (congrFun (s5_v97 (V22 m outs c)) i).trans ?_
  rw [V22_v81_0, V22_v81_1]
  exact LG_apply _ _ i
theorem V23_v98 (c : Dev nD) (i : S512x1.Idx) : (V23 m outs c main_v98 : S512x1.Idx → EReal) i = xlogprob m outs c (i 0) (1 : Fin 3) := by
  refine (congrFun (s5_v98 (V22 m outs c)) i).trans ?_
  refine (colq_apply _ (1 : Fin 3) slices_S512x3_S512x1_0_1 i).trans ?_
  v_back
  exact V7_v47 m outs c (ix2 (i 0) (1 : Fin 3))

theorem V31_v115 (c : Dev nD) (i : S512x1.Idx) : (V31 m outs c main_v115 : S512x1.Idx → EReal) i = mrgM (outs 30 main_v106_0 c) (i 0) := by
  refine (congrFun (s7_v115 (V30 m outs c)) i).trans ?_
  rw [V30_v106_0]
  exact MG_apply _ i
theorem V31_v122 (c : Dev nD) (i : S512x1.Idx) : (V31 m outs c main_v122 : S512x1.Idx → EReal) i
    = mrgL (outs 30 main_v106_0 c) (outs 30 main_v106_1 c) (i 0) := by
  refine (congrFun (s7_v122 (V30 m outs c)) i).trans ?_
  rw [V30_v106_0, V30_v106_1]
  exact LG_apply _ _ i
theorem V31_v123 (c : Dev nD) (i : S512x1.Idx) : (V31 m outs c main_v123 : S512x1.Idx → EReal) i = xlogprob m outs c (i 0) (2 : Fin 3) := by
  refine (congrFun (s7_v123 (V30 m outs c)) i).trans ?_
  refine (colq_apply _ (2 : Fin 3) slices_S512x3_S512x1_0_2 i).trans ?_
  v_back
  exact V7_v47 m outs c (ix2 (i 0) (2 : Fin 3))

end Cert.KernelIdeal.Hand
-- ==== Proof.Stats0Pay.lean ====
/-
  The statistics launch of one vocabulary cluster, read at an index at the ideal float values.

  Every grid point (half h, tile t) forms the logit tile  y · Wᵀ + bias  of its 512 rows against its block of
  tileWidth columns, masks the columns from validCols on to the bottom element, and updates the row's running
  maximum m and running sum l:   m' = max m (max over the tile),   l' = l · exp (m − m') + Σ_j exp (x_j − m').
  At the first tile of a half it first forms the scratch block  hidden · projᵀ  and sets m to the bottom element
  and l to zero.  Each store of the body is a pure function of its loads; this module reads those functions at one
  index: the tile's entry (Stats0_logit), the new maximum and its stored form (Stats0_newMax, Stats0_storedMax),
  the rescaled old sum (Stats0_rescaled), the maximum spread over the tile (Stats0_bcastMax), the new sum
  (Stats0_newSum), the first-tile stores (Stats0_scratch, Stats0_initMax, Stats0_initSum), and in one statement the
  pair (m', l') as one step of the online softmax on the tile (Stats0_step).
-/
import proofs.«124427_j55336358642036_2_alg».proof.Proof.Gen.KernelIdeal.Skeleton
import proofs.«124427_j55336358642036_2_alg».proof.Proof.Sizes
import proofs.«124427_j55336358642036_2_alg».proof.Proof.LibOnlineSoftmax
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate
import Mathlib.Data.Finset.Lattice.Fold

noncomputable section

namespace Cert.KernelIdeal.Hand

open Idealize.ShloMosaic Idealize.ShloMosaic.ValueIdx Cert.KernelIdeal.Gen Cert.Sizes
open scoped BigOperators

/-! ## The tile -/

/-- The masked logit tile of grid point i = (h, t) at row n: column j of the tile is column (h·T + t)·tn + j of the
    cluster; below validCols it holds the row of y against row j of the weight block plus the bias, from there on
    the bottom element. -/
def Stats0_tile (i : grid0.Coords) (y : FVec Ideal S512x1024 .bf16) (Wb : FVec Ideal S2048x1024 .bf16)
    (b : FVec Ideal S1x2048 .f32) (n : Fin 512) (j : Fin tileWidth0) : EReal :=
  if ((i 0).val * tilesPerHalf0 + (i 1).val) * tileWidth0 + j.val < validCols0
  then ((∑ e : Fin embDim0, y (ix2 n e) * Wb (ix2 j e) : EReal) + (b (ix2 (0 : Fin 1) j) : EReal)) else ⊥

/-! ## Words: the column number and the mask bit -/

/-- An integer comparison of two vectors at an index compares the elements. -/
theorem Stats0_cmpi_apply {s : Shape} {w : ℕ} (p : CmpIPredicate) (a c : IVec s w) (q : s.Idx) :
    cmpi p a c q = IntOp.cmpi p (a q) (c q) := rfl

/-- An integer sum of two vectors at an index adds the elements. -/
theorem Stats0_addi_apply {s : Shape} {w : ℕ} (a c : IVec s w) (q : s.Idx) :
    addi a c q = IntOp.addi (a q) (c q) := rfl

/-- The 32-bit word the body computes for a column, lane + ((half · T + tile) · tn), is the word of the natural
    number (half · T + tile) · tn + lane. -/
theorem Stats0_word (h T t tn j : ℕ) :
    IntOp.addi (BitVec.ofNat 32 j)
        (Scalar.muli (Scalar.addi (Scalar.muli (BitVec.ofNat 32 h) (BitVec.ofNat 32 T)) (BitVec.ofNat 32 t)) (BitVec.ofNat 32 tn))
      = BitVec.ofNat 32 ((h * T + t) * tn + j) := by
  show BitVec.ofNat 32 j + (BitVec.ofNat 32 h * BitVec.ofNat 32 T + BitVec.ofNat 32 t) * BitVec.ofNat 32 tn = _
  rw [BitVec.ofNat_mul_ofNat, BitVec.ofNat_add_ofNat, BitVec.ofNat_mul_ofNat, BitVec.ofNat_add_ofNat, Nat.add_comm]

/-- Every column number of the grid is a small non-negative word. -/
theorem Stats0_colBound (h t j : ℕ) (hh : h < 2) (ht : t < tilesPerHalf0) (hj : j < tileWidth0) :
    (h * tilesPerHalf0 + t) * tileWidth0 + j < 2 ^ 31 := by
  unfold tilesPerHalf0 at *
  unfold tileWidth0 at *
  omega

/-! ## The two products -/

theorem Stats0_lhsW_0 (q : S512x2048.Idx) (k : dot_S512x1024_S2048x1024_S512x2048_1_1_0_0_n_n.contr.Idx) :
    (dot_S512x1024_S2048x1024_S512x2048_1_1_0_0_n_n.lhsIdx q k 0).val = (q 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
theorem Stats0_lhsW_1 (q : S512x2048.Idx) (k : dot_S512x1024_S2048x1024_S512x2048_1_1_0_0_n_n.contr.Idx) :
    (dot_S512x1024_S2048x1024_S512x2048_1_1_0_0_n_n.lhsIdx q k 1).val = (k ⟨0, by decide⟩).val :=
  dot_S512x1024_S2048x1024_S512x2048_1_1_0_0_n_n.lhsIdx_val_of_single rfl q k
theorem Stats0_rhsW_0 (q : S512x2048.Idx) (k : dot_S512x1024_S2048x1024_S512x2048_1_1_0_0_n_n.contr.Idx) :
    (dot_S512x1024_S2048x1024_S512x2048_1_1_0_0_n_n.rhsIdx q k 0).val = (q 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
theorem Stats0_rhsW_1 (q : S512x2048.Idx) (k : dot_S512x1024_S2048x1024_S512x2048_1_1_0_0_n_n.contr.Idx) :
    (dot_S512x1024_S2048x1024_S512x2048_1_1_0_0_n_n.rhsIdx q k 1).val = (k ⟨0, by decide⟩).val :=
  dot_S512x1024_S2048x1024_S512x2048_1_1_0_0_n_n.rhsIdx_val_of_single rfl q k

/-- The tile's product at (n, j): row n of y against row j of the weight block. -/
theorem Stats0_dotW (y : FVec Ideal S512x1024 .bf16) (Wb : FVec Ideal S2048x1024 .bf16) (n : Fin 512) (j : Fin tileWidth0) :
    matmul (F := Ideal) dot_S512x1024_S2048x1024_S512x2048_1_1_0_0_n_n none y Wb (constant (F := Ideal) S512x2048 .f32 0x00000000#32) (ix2 n j)
      = ∑ e : Fin embDim0, y (ix2 n e) * Wb (ix2 j e) := by
  simp only [matmul]
  rw [Ideal.matmul_constant_zero_apply, ← Equiv.sum_comp (contrEquiv1 dot_S512x1024_S2048x1024_S512x2048_1_1_0_0_n_n embDim0 rfl rfl).symm]
  refine Finset.sum_congr rfl fun e _ => ?_
  have he := contrEquiv1_symm_val dot_S512x1024_S2048x1024_S512x2048_1_1_0_0_n_n embDim0 rfl rfl e
  have el : dot_S512x1024_S2048x1024_S512x2048_1_1_0_0_n_n.lhsIdx (ix2 n j) ((contrEquiv1 dot_S512x1024_S2048x1024_S512x2048_1_1_0_0_n_n embDim0 rfl rfl).symm e) = ix2 n e := funext fun a => Fin.ext (by
    match a with
    | ⟨0, _⟩ => exact Stats0_lhsW_0 _ _
    | ⟨1, _⟩ => exact (Stats0_lhsW_1 _ _).trans he)
  have er : dot_S512x1024_S2048x1024_S512x2048_1_1_0_0_n_n.rhsIdx (ix2 n j) ((contrEquiv1 dot_S512x1024_S2048x1024_S512x2048_1_1_0_0_n_n embDim0 rfl rfl).symm e) = ix2 j e := funext fun a => Fin.ext (by
    match a with
    | ⟨0, _⟩ => exact Stats0_rhsW_0 _ _
    | ⟨1, _⟩ => exact (Stats0_rhsW_1 _ _).trans he)
  rw [el, er]

theorem Stats0_lhsP_0 (q : S512x1024.Idx) (k : dot_S512x1024_S1024x1024_S512x1024_1_1_0_0_n_n.contr.Idx) :
    (dot_S512x1024_S1024x1024_S512x1024_1_1_0_0_n_n.lhsIdx q k 0).val = (q 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem Stats0_lhsP_1 (q : S512x1024.Idx) (k : dot_S512x1024_S1024x1024_S512x1024_1_1_0_0_n_n.contr.Idx) :
    (dot_S512x1024_S1024x1024_S512x1024_1_1_0_0_n_n.lhsIdx q k 1).val = (k ⟨0, by decide⟩).val :=
  dot_S512x1024_S1024x1024_S512x1024_1_1_0_0_n_n.lhsIdx_val_of_single rfl q k
theorem Stats0_rhsP_0 (q : S512x1024.Idx) (k : dot_S512x1024_S1024x1024_S512x1024_1_1_0_0_n_n.contr.Idx) :
    (dot_S512x1024_S1024x1024_S512x1024_1_1_0_0_n_n.rhsIdx q k 0).val = (q 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem Stats0_rhsP_1 (q : S512x1024.Idx) (k : dot_S512x1024_S1024x1024_S512x1024_1_1_0_0_n_n.contr.Idx) :
    (dot_S512x1024_S1024x1024_S512x1024_1_1_0_0_n_n.rhsIdx q k 1).val = (k ⟨0, by decide⟩).val :=
  dot_S512x1024_S1024x1024_S512x1024_1_1_0_0_n_n.rhsIdx_val_of_single rfl q k

/-- The scratch block's product at (n, e): row n of the hidden block against row e of the projection. -/
theorem Stats0_dotP (hid : FVec Ideal S512x1024 .bf16) (prj : FVec Ideal S1024x1024 .bf16) (n : Fin 512) (e : Fin embDim0) :
    matmul (F := Ideal) dot_S512x1024_S1024x1024_S512x1024_1_1_0_0_n_n none hid prj (constant (F := Ideal) S512x1024 .f32 0x00000000#32) (ix2 n e)
      = ∑ k : Fin 1024, hid (ix2 n k) * prj (ix2 e k) := by
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 n e) ((contrEquiv1 dot_S512x1024_S1024x1024_S512x1024_1_1_0_0_n_n 1024 rfl rfl).symm k) = ix2 n k := funext fun a => Fin.ext (by
    match a with
    | ⟨0, _⟩ => exact Stats0_lhsP_0 _ _
    | ⟨1, _⟩ => exact (Stats0_lhsP_1 _ _).trans hk)
  have er : dot_S512x1024_S1024x1024_S512x1024_1_1_0_0_n_n.rhsIdx (ix2 n e) ((contrEquiv1 dot_S512x1024_S1024x1024_S512x1024_1_1_0_0_n_n 1024 rfl rfl).symm k) = ix2 e k := funext fun a => Fin.ext (by
    match a with
    | ⟨0, _⟩ => exact Stats0_rhsP_0 _ _
    | ⟨1, _⟩ => exact (Stats0_rhsP_1 _ _).trans hk)
  rw [el, er]

/-! ## The tile's entry -/

/-- The named floor constant is the bottom element at the ideal values. -/
theorem Stats0_negBig : Named.named (F := Ideal) κ "neg_big" (φ := .f32) 0xFF333332#32 = ⊥ :=
  IdealRules.named_const.ideal_named_scalar _ _ _ _ rfl

/-- The masked logit the body forms, at (n, j), is the tile's entry. -/
theorem Stats0_logit (i : grid0.Coords) (y : FVec Ideal S512x1024 .bf16) (Wb : FVec Ideal S2048x1024 .bf16)
    (b : FVec Ideal S1x2048 .f32) (n : Fin 512) (j : Fin tileWidth0) :
    k0_pay6 (F := Ideal) i y Wb b (ix2 n j) = Stats0_tile i y Wb b n j := by
  unfold k0_pay6 Stats0_tile
  dsimp only
  rw [select_apply]
  unfold Scalar.select
  refine ite_congr (propext ?_) (fun _ => ?_) (fun _ => ?_)
  · rw [Stats0_cmpi_apply, Stats0_addi_apply, broadcast_apply, broadcast_apply, iota_single_apply, Stats0_word]
    unfold IntOp.cmpi
    exact StableHlo.Predicate.slt_ofNat_iff _ _ (Stats0_colBound _ _ _ (i 0).isLt (i 1).isLt j.isLt) (by decide)
  · rw [addf_apply, shapeCast_self, shapeCast_self, Stats0_dotW, broadcastTo_1b_ab_apply]
  · exact Stats0_negBig

/-! ## Layout steps of the running statistics -/

/-- A [512] vector viewed as a [512, 1] column reads its entry n at (n, c). -/
theorem Stats0_col_apply (v : FVec Ideal S512 .f32) (h : S512.ShapeCasts S512x1) (n : Fin 512) (c : Fin 1) :
    shapeCast S512x1 v h (ix2 n c) = v (ix1 n) :=
  shapeCast_apply v h _ _ (by
    have hc : c.val = 0 := by omega
    rw [Shape.rowMajor_val_one, Shape.rowMajor_val_two]
    show n.val = n.val * 1 + c.val
    omega)

/-- A [512, 1] column spread over the tile's lanes reads its entry n at (n, j). -/
theorem Stats0_spread_apply (v : FVec Ideal S512x1 .f32) (h : S512x1.Broadcasts S512x2048) (n : Fin 512) (j : Fin tileWidth0) :
    broadcastTo S512x2048 v h (ix2 n j) = v (ix2 n (0 : Fin 1)) := by
  refine broadcastTo_apply v h (ix2 n j) (ix2 n (0 : Fin 1)) fun ax => ?_
  match ax with
  | ⟨0, _⟩ => rfl
  | ⟨1, _⟩ => rfl

/-- The exponential of a vector at an index is the exponential of the element. -/
theorem Stats0_exp_apply {s : Shape} {φ : FTy} (a : FVec Ideal s φ) (q : s.Idx) : exp a q = Ideal.exp (a q) := rfl

/-- The index a lane reduction of the tile reads at row n and lane k. -/
theorem Stats0_lift (h : S512x2048.Reduces [1] S512) (n : Fin 512) (k : Fin tileWidth0) : h.lift (ix1 n) k = ix2 n k :=
  funext fun c => Fin.ext (by match c with | ⟨0, _⟩ => rfl | ⟨1, _⟩ => rfl)

/-- The row maximum over the tile's lanes, from the bottom element. -/
theorem Stats0_rowMax (x : FVec Ideal S512x2048 .f32) (h : S512x2048.Reduces [1] S512) (hφ : FKind.Formats .f32)
    (hacc : (0xFF800000#32 : BitVec 32) = 0xFF800000#32) (n : Fin 512) :
    multiReduction .maximumf [1] S512 x 0xFF800000#32 h hφ hacc (ix1 n) = Finset.univ.sup fun j : Fin tileWidth0 => x (ix2 n j) := by
  refine (Ideal.multiReduction_maximumf_single x 0xFF800000#32 h hφ hacc (ix1 n)).trans ?_
  have hb : (FloatOps.ofBits .f32 0xFF800000#32 : Ideal .f32) = ⊥ := by
    show Ideal.ofBits .f32 0xFF800000#32 = ⊥
    simp [Ideal.ofBits, Ideal.ieee]
  have hf : (x ∘ h.lift (ix1 n)) = fun j : Fin tileWidth0 => x (ix2 n j) :=
    funext fun k => congrArg x (Stats0_lift h n k)
  rw [hb, hf]
  rfl

/-- The row sum over the tile's lanes. -/
theorem Stats0_rowSum (x : FVec Ideal S512x2048 .f32) (h : S512x2048.Reduces [1] S512) (hφ : FKind.Formats .f32)
    (hacc : (0x00000000#32 : BitVec 32) = 0x00000000#32) (n : Fin 512) :
    multiReduction .add [1] S512 x 0x00000000#32 h hφ hacc (ix1 n) = ∑ j : Fin tileWidth0, x (ix2 n j) := by
  refine (Ideal.multiReduction_add_single x 0x00000000#32 h hφ hacc (ix1 n)).trans ?_
  exact Finset.sum_congr rfl fun k _ => congrArg x (Stats0_lift h n k)

/-! ## The running maximum -/

/-- The new running maximum at row n: the loaded one against the tile's maximum. -/
theorem Stats0_newMax (i : grid0.Coords) (y : FVec Ideal S512x1024 .bf16) (Wb : FVec Ideal S2048x1024 .bf16)
    (b : FVec Ideal S1x2048 .f32) (m : FVec Ideal S1x512x1 .f32) (n : Fin 512) (c : Fin 1) :
    k0_pay7 (F := Ideal) i y Wb b m (ix2 n c)
      = max (m (ix3 (0 : Fin 1) n (0 : Fin 1))) (Finset.univ.sup (Stats0_tile i y Wb b n)) := by
  obtain rfl : c = 0 := Subsingleton.elim _ _
  unfold k0_pay7
  rw [maximumf_apply, shapeCast_1ab_ab_apply, Stats0_col_apply, Stats0_rowMax]
  simp only [Stats0_logit]

/-- The block the body stores a [512, 1] column into reads the column. -/
theorem Stats0_pay2 (v : FVec Ideal S512x1 .f32) (u : Fin 1) (n : Fin 512) (c : Fin 1) :
    k0_pay2 (F := Ideal) v (ix3 u n c) = v (ix2 n c) := by
  unfold k0_pay2
  exact shapeCast_ab_1ab_apply v _ u n c

/-- The stored running maximum. -/
theorem Stats0_storedMax (i : grid0.Coords) (y : FVec Ideal S512x1024 .bf16) (Wb : FVec Ideal S2048x1024 .bf16)
    (b : FVec Ideal S1x2048 .f32) (m : FVec Ideal S1x512x1 .f32) (u : Fin 1) (n : Fin 512) (c : Fin 1) :
    k0_pay2 (k0_pay7 (F := Ideal) i y Wb b m) (ix3 u n c)
      = max (m (ix3 (0 : Fin 1) n (0 : Fin 1))) (Finset.univ.sup (Stats0_tile i y Wb b n)) := by
  rw [Stats0_pay2, Stats0_newMax]

/-- The old running sum rescaled to the new maximum. -/
theorem Stats0_rescaled (i : grid0.Coords) (y : FVec Ideal S512x1024 .bf16) (Wb : FVec Ideal S2048x1024 .bf16)
    (b : FVec Ideal S1x2048 .f32) (m m' l : FVec Ideal S1x512x1 .f32) (n : Fin 512) (c : Fin 1) :
    k0_pay8 (F := Ideal) i y Wb b m m' l (ix2 n c)
      = l (ix3 (0 : Fin 1) n (0 : Fin 1))
          * Ideal.exp (m' (ix3 (0 : Fin 1) n (0 : Fin 1))
              - max (m (ix3 (0 : Fin 1) n (0 : Fin 1))) (Finset.univ.sup (Stats0_tile i y Wb b n))) := by
  obtain rfl : c = 0 := Subsingleton.elim _ _
  unfold k0_pay8
  rw [mulf_apply, Stats0_exp_apply, subf_apply, shapeCast_1ab_ab_apply, shapeCast_1ab_ab_apply, Stats0_newMax]

/-- The new running maximum spread over the tile's lanes. -/
theorem Stats0_bcastMax (i : grid0.Coords) (y : FVec Ideal S512x1024 .bf16) (Wb : FVec Ideal S2048x1024 .bf16)
    (b : FVec Ideal S1x2048 .f32) (m : FVec Ideal S1x512x1 .f32) (n : Fin 512) (j : Fin tileWidth0) :
    k0_pay9 (F := Ideal) i y Wb b m (ix2 n j)
      = max (m (ix3 (0 : Fin 1) n (0 : Fin 1))) (Finset.univ.sup (Stats0_tile i y Wb b n)) := by
  unfold k0_pay9
  rw [Stats0_spread_apply, Stats0_newMax]

/-! ## The running sum -/

/-- The new running sum at row n: the rescaled old sum plus the tile's exponentials against the spread maximum. -/
theorem Stats0_newSum (x : FVec Ideal S512x2048 .f32) (r : FVec Ideal S512x1 .f32) (mb : FVec Ideal S512x2048 .f32)
    (u : Fin 1) (n : Fin 512) (c : Fin 1) :
    k0_pay1 (F := Ideal) x r mb (ix3 u n c)
      = r (ix2 n (0 : Fin 1)) + ∑ j : Fin tileWidth0, Ideal.exp (x (ix2 n j) - mb (ix2 n j)) := by
  obtain rfl : c = 0 := Subsingleton.elim _ _
  unfold k0_pay1
  rw [shapeCast_ab_1ab_apply, addf_apply, Stats0_col_apply, Stats0_rowSum]
  rfl

/-! ## The first tile's stores -/

/-- The scratch block at (n, e): the hidden row against the projection's row e (the narrowing to the scratch
    block's format is the identity on the ideal values). -/
theorem Stats0_scratch (hid : FVec Ideal S512x1024 .bf16) (prj : FVec Ideal S1024x1024 .bf16) (n : Fin 512) (e : Fin embDim0) :
    k0_pay3 (F := Ideal) hid prj (ix2 n e) = ∑ k : Fin 1024, hid (ix2 n k) * prj (ix2 e k) := by
  unfold k0_pay3
  simp only [shapeCast_self, truncf_apply]
  exact Stats0_dotP hid prj n e

/-- The first tile sets the running maximum to the bottom element … -/
theorem Stats0_initMax : k0_pay4 (F := Ideal) = fun _ => ⊥ := by
  funext q
  obtain ⟨u, n, c, rfl⟩ : ∃ (u : Fin 1) (n : Fin 512) (c : Fin 1), q = ix3 u n c := ⟨q 0, q 1, q 2, eq_ix3 q⟩
  unfold k0_pay4
  rw [shapeCast_ab_1ab_apply, broadcast_apply, Stats0_negBig]

/-- … and the running sum to zero. -/
theorem Stats0_initSum : k0_pay5 (F := Ideal) = fun _ => 0 := by
  funext q
  obtain ⟨u, n, c, rfl⟩ : ∃ (u : Fin 1) (n : Fin 512) (c : Fin 1), q = ix3 u n c := ⟨q 0, q 1, q 2, eq_ix3 q⟩
  unfold k0_pay5
  rw [shapeCast_ab_1ab_apply, broadcast_apply]
  exact Ideal.ofBits_zero_f32

/-! ## One step of the online softmax -/

/-- The pair the body stores at row n — the new maximum and the new sum — is one step of the online softmax from
    the loaded pair on the grid point's tile. -/
theorem Stats0_step (i : grid0.Coords) (y : FVec Ideal S512x1024 .bf16) (Wb : FVec Ideal S2048x1024 .bf16)
    (b : FVec Ideal S1x2048 .f32) (m l : FVec Ideal S1x512x1 .f32) (n : Fin 512) :
    (k0_pay2 (k0_pay7 (F := Ideal) i y Wb b m) (ix3 (0 : Fin 1) n (0 : Fin 1)),
     k0_pay1 (k0_pay6 (F := Ideal) i y Wb b) (k0_pay8 (F := Ideal) i y Wb b m m l) (k0_pay9 (F := Ideal) i y Wb b m)
        (ix3 (0 : Fin 1) n (0 : Fin 1)))
      = Cert.OnlineSoftmax.step (m (ix3 (0 : Fin 1) n (0 : Fin 1)), l (ix3 (0 : Fin 1) n (0 : Fin 1))) (Stats0_tile i y Wb b n) := by
  rw [Stats0_storedMax, Stats0_newSum, Stats0_rescaled]
  simp only [Stats0_logit, Stats0_bcastMax]
  rfl

end Cert.KernelIdeal.Hand
-- ==== Proof.Stats0Value.lean ====
/-
  The statistics launch of one vocabulary cluster, read row by row at the ideal values.

  For one row n of the hidden activations the launch walks, in each half h of its grid, the tiles
  h·T, …, h·T + T − 1 of the row's logits z (the projected row times the padded weight's rows, plus the
  padded bias), masked to the bottom element from the cluster's last real column on. Each tile is one step of the
  online softmax on the pair (running maximum, running sum): so the pair a half ends with is the fold of those
  steps from (⊥, 0), and that is what the two statistics arrays hold at (h, n, 0) after the launch.

  Here: the row's data as functions of the four input arrays (the projected row, the logits, the masked tiles);
  each window's block read back as rows of its array (a block's coordinate is the block index times the block's
  size plus the coordinate inside the block, the block indices decided over the grid); one tile's update as one
  step of the fold; the fold inside a half by induction on the tile; and the arrays after the launch: each half's
  last point writes its block back, and the two blocks are the two halves of the array.
-/
import proofs.«124427_j55336358642036_2_alg».proof.Proof.Stats0Defs
import proofs.«124427_j55336358642036_2_alg».proof.Proof.Stats0Pay
import proofs.«124427_j55336358642036_2_alg».proof.Proof.LibOnlineSoftmax
import proofs.«124427_j55336358642036_2_alg».proof.Proof.Gen.KernelIdeal.Points
import Idealize.ShloMosaic.Lib.ValueIdx
import Idealize.ShloMosaic.Lib.Pipeline.Value

set_option maxRecDepth 16384

noncomputable section

namespace Cert.KernelIdeal.Hand

open Cert.KernelIdeal Cert.KernelIdeal.Gen Cert.Sizes
open Idealize.ShloMosaic Idealize.ShloMosaic.TcCoe Idealize.ShloMosaic.ValueIdx
open Idealize.SL Idealize.SL.Sem
open Idealize.ShloMosaic.Pipeline (Dat)
open scoped BigOperators

-- the contents of the TensorCore's buffers when the launch is entered, at the ideal values
variable (V : (c : Dev nD) → (b : Ref sig .tc) → Buf (Elt Ideal) ((c : Thread nD τ).loc b))

/-! ## The row's data, as functions of the four input arrays -/

/-- The hidden rows, the projection, the padded weight and the padded bias, as the launch finds them. -/
abbrev Stats0_hidA (c : Dev nD) : Vec Ideal S512x1024 .bf16 := V c (Pipeline.arrRef spec0 0)
abbrev Stats0_prjA (c : Dev nD) : Vec Ideal S1024x1024 .bf16 := V c (Pipeline.arrRef spec0 1)
abbrev Stats0_wA (c : Dev nD) : Vec Ideal S20480x1024 .bf16 := V c (Pipeline.arrRef spec0 2)
abbrev Stats0_bA (c : Dev nD) : Vec Ideal S1x20480 .f32 := V c (Pipeline.arrRef spec0 3)

/-- Row n of the hidden activations, projected: entry e. -/
def yrow0 (c : Dev nD) (n : Fin 512) (e : Fin embDim0) : EReal :=
  ∑ k : Fin 1024, Stats0_hidA V c (ix2 n k) * Stats0_prjA V c (ix2 e k)

/-- Row n's logit at column col of the padded weight: the projected row times the weight's row col, plus the bias
    at col (zero past the padded width, where nothing reads it). -/
def zrow0 (c : Dev nD) (n : Fin 512) (col : ℕ) : EReal :=
  if h : col < 2 * tilesPerHalf0 * tileWidth0 then
    (∑ e : Fin embDim0, yrow0 V c n e * Stats0_wA V c (ix2 (⟨col, h⟩ : Fin (2 * tilesPerHalf0 * tileWidth0)) e))
      + Stats0_bA V c (ix2 (0 : Fin 1) (⟨col, h⟩ : Fin (2 * tilesPerHalf0 * tileWidth0)))
  else 0

/-- Row n's logits cut into tiles, masked to the bottom element from the cluster's last real column on. -/
def xrow0 (c : Dev nD) (n : Fin 512) : ℕ → Fin tileWidth0 → EReal :=
  fun g j => if g * tileWidth0 + j.val < validCols0 then zrow0 V c n (g * tileWidth0 + j.val) else ⊥

theorem xrow0_tiled (c : Dev nD) (n : Fin 512) :
    Cert.OnlineSoftmax.Tiled (zrow0 V c n) validCols0 tileWidth0 (xrow0 V c n) := fun _ _ => rfl

/-! ## The grid: its size, and the windows' block indices at a point -/

theorem Stats0_N : cfg0.N = 2 * tilesPerHalf0 := N_0

theorem Stats0_T_pos : 0 < tilesPerHalf0 := by decide

/-- Point t of the grid is tile t of the row (the grid is the two halves, one after the other); the hidden rows and
    the projection are one block each; the weight's and the bias's block is the tile's; each statistics block is
    the half's. Decided over the grid. -/
theorem Stats0_idx : ∀ t : Fin cfg0.N,
    (grid0.coords t 0).val * tilesPerHalf0 + (grid0.coords t 1).val = t.val
    ∧ win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_4.index t (0 : Fin 3) = t.val / tilesPerHalf0 ∧ win0_4.index t (1 : Fin 3) = 0 ∧ win0_4.index t (2 : Fin 3) = 0
    ∧ win0_5.index t (0 : Fin 3) = t.val / tilesPerHalf0 ∧ win0_5.index t (1 : Fin 3) = 0 ∧ win0_5.index t (2 : Fin 3) = 0 :=
  (by decide +kernel : ∀ t : Fin grid0.N, _)

/-- A column of tile t lies inside the padded width. -/
theorem Stats0_col_lt (t : Fin cfg0.N) (j : Fin tileWidth0) : t.val * tileWidth0 + j.val < 2 * tilesPerHalf0 * tileWidth0 := by
  have ht : t.val + 1 ≤ 2 * tilesPerHalf0 := Nat.lt_of_lt_of_eq t.isLt Stats0_N
  have h1 : t.val * tileWidth0 + j.val < (t.val + 1) * tileWidth0 := by rw [Nat.succ_mul]; have := j.isLt; omega
  exact Nat.lt_of_lt_of_le h1 (Nat.mul_le_mul_right _ ht)

/-! ## The blocks, read back as entries of their arrays -/

theorem Stats0_hidBlk_apply (c : Dev nD) (t : Fin cfg0.N) (n : Fin 512) (k : Fin 1024) :
    hidBlk0 V c t (ix2 n k) = Stats0_hidA V c (ix2 n k) := by
  obtain ⟨-, e0, e1, -⟩ := Stats0_idx t
  show V c (Pipeline.arrRef spec0 0) (((cfg0.win 0).blk t).view.emb (ix2 n k)) = V c (Pipeline.arrRef spec0 0) (ix2 n k)
  congr 1
  funext a; apply Fin.ext
  match a with
  | ⟨0, _⟩ => show win0_0.index t (0 : Fin 2) * 512 + 1 * n.val = n.val; rw [e0]; omega
  | ⟨1, _⟩ => show win0_0.index t (1 : Fin 2) * 1024 + 1 * k.val = k.val; rw [e1]; omega

theorem Stats0_prjBlk_apply (c : Dev nD) (t : Fin cfg0.N) (e : Fin embDim0) (k : Fin 1024) :
    prjBlk0 V c t (ix2 e k) = Stats0_prjA V c (ix2 e k) := by
  obtain ⟨-, -, -, e0, e1, -⟩ := Stats0_idx t
  show V c (Pipeline.arrRef spec0 1) (((cfg0.win 1).blk t).view.emb (ix2 e k)) = V c (Pipeline.arrRef spec0 1) (ix2 e k)
  congr 1
  funext a; apply Fin.ext
  match a with
  | ⟨0, _⟩ => show win0_1.index t (0 : Fin 2) * embDim0 + 1 * e.val = e.val; rw [e0]; omega
  | ⟨1, _⟩ => show win0_1.index t (1 : Fin 2) * 1024 + 1 * k.val = k.val; rw [e1]; omega

theorem Stats0_wBlk_apply (c : Dev nD) (t : Fin cfg0.N) (j : Fin tileWidth0) (e : Fin embDim0)
    (h : t.val * tileWidth0 + j.val < 2 * tilesPerHalf0 * tileWidth0) :
    wBlk0 V c t (ix2 j e) = Stats0_wA V c (ix2 (⟨t.val * tileWidth0 + j.val, h⟩ : Fin (2 * tilesPerHalf0 * tileWidth0)) e) := by
  obtain ⟨-, -, -, -, -, e0, e1, -⟩ := Stats0_idx t
  show V c (Pipeline.arrRef spec0 2) (((cfg0.win 2).blk t).view.emb (ix2 j e))
    = V c (Pipeline.arrRef spec0 2) (ix2 (⟨t.val * tileWidth0 + j.val, h⟩ : Fin (2 * tilesPerHalf0 * tileWidth0)) e)
  congr 1
  funext a; apply Fin.ext
  match a with
  | ⟨0, _⟩ => show win0_2.index t (0 : Fin 2) * tileWidth0 + 1 * j.val = t.val * tileWidth0 + j.val; rw [e0]; omega
  | ⟨1, _⟩ => show win0_2.index t (1 : Fin 2) * embDim0 + 1 * e.val = e.val; rw [e1]; omega

theorem Stats0_bBlk_apply (c : Dev nD) (t : Fin cfg0.N) (j : Fin tileWidth0)
    (h : t.val * tileWidth0 + j.val < 2 * tilesPerHalf0 * tileWidth0) :
    bBlk0 V c t (ix2 (0 : Fin 1) j) = Stats0_bA V c (ix2 (0 : Fin 1) (⟨t.val * tileWidth0 + j.val, h⟩ : Fin (2 * tilesPerHalf0 * tileWidth0))) := by
  obtain ⟨-, -, -, -, -, -, -, e0, e1, -⟩ := Stats0_idx t
  show V c (Pipeline.arrRef spec0 3) (((cfg0.win 3).blk t).view.emb (ix2 (0 : Fin 1) j))
    = V c (Pipeline.arrRef spec0 3) (ix2 (0 : Fin 1) (⟨t.val * tileWidth0 + j.val, h⟩ : Fin (2 * tilesPerHalf0 * tileWidth0)))
  congr 1
  funext a; apply Fin.ext
  match a with
  | ⟨0, _⟩ => show win0_3.index t (0 : Fin 2) * 1 + 1 * 0 = 0; omega
  | ⟨1, _⟩ => show win0_3.index t (1 : Fin 2) * tileWidth0 + 1 * j.val = t.val * tileWidth0 + j.val; rw [e1]; omega

/-! ## One tile's update is one step of the fold, at a row -/

theorem Stats0_stepAt_y (c : Dev nD) (t : Fin cfg0.N) (s : Stat0 Ideal) : (stepAt0 V c t s).y = s.y := rfl

/-- The tile of point t at row n, over a scratch that holds the projected row, is the row's masked tile t. -/
theorem Stats0_tile_eq (c : Dev nD) (t : Fin cfg0.N) (y : Vec Ideal S512x1024 .bf16) (n : Fin 512)
    (hy : ∀ e : Fin embDim0, y (ix2 n e) = yrow0 V c n e) :
    Stats0_tile (grid0.coords t) y (wBlk0 V c t) (bBlk0 V c t) n = xrow0 V c n t.val := by
  obtain ⟨hc, -⟩ := Stats0_idx t
  funext j
  unfold Stats0_tile xrow0
  rw [hc]
  by_cases hv : t.val * tileWidth0 + j.val < validCols0
  · rw [if_pos hv, if_pos hv]
    unfold zrow0
    rw [dif_pos (Stats0_col_lt t j), Stats0_bBlk_apply V c t j (Stats0_col_lt t j)]
    congr 1
    exact Finset.sum_congr rfl fun e _ => by rw [hy e, Stats0_wBlk_apply V c t j e (Stats0_col_lt t j)]
  · rw [if_neg hv, if_neg hv]

theorem Stats0_stepAt_row (c : Dev nD) (t : Fin cfg0.N) (s : Stat0 Ideal) (n : Fin 512)
    (hy : ∀ e : Fin embDim0, s.y (ix2 n e) = yrow0 V c n e) :
    ((stepAt0 V c t s).m (ix3 (0 : Fin 1) n (0 : Fin 1)), (stepAt0 V c t s).l (ix3 (0 : Fin 1) n (0 : Fin 1)))
      = Cert.OnlineSoftmax.step (s.m (ix3 (0 : Fin 1) n (0 : Fin 1)), s.l (ix3 (0 : Fin 1) n (0 : Fin 1))) (xrow0 V c n t.val) := by
  rw [← Stats0_tile_eq V c t s.y n hy]
  exact Stats0_step (grid0.coords t) s.y (wBlk0 V c t) (bBlk0 V c t) s.m s.l n

/-! ## The fold inside a half -/

/-- A point of half h, tile τ, as a natural number, is below the grid's size; so the point's number is itself. -/
theorem Stats0_pt_val (h : Fin 2) (τ : ℕ) (hτ : τ < tilesPerHalf0) :
    (pt0 (h.val * tilesPerHalf0 + τ)).val = h.val * tilesPerHalf0 + τ := by
  have hh : h.val * tilesPerHalf0 ≤ 1 * tilesPerHalf0 := Nat.mul_le_mul_right _ (by have := h.isLt; omega)
  show (h.val * tilesPerHalf0 + τ) % cfg0.N = h.val * tilesPerHalf0 + τ
  refine Nat.mod_eq_of_lt ?_
  rw [Stats0_N]; omega

/-- What a half starts from, at a row: the projected row, the bottom element and zero. -/
theorem Stats0_start_y (c : Dev nD) (t : Fin cfg0.N) (n : Fin 512) (e : Fin embDim0) :
    (startAt0 V c t).y (ix2 n e) = yrow0 V c n e := by
  refine (Stats0_scratch (hidBlk0 V c t) (prjBlk0 V c t) n e).trans ?_
  unfold yrow0
  exact Finset.sum_congr rfl fun k _ => by rw [Stats0_hidBlk_apply V c t n k, Stats0_prjBlk_apply V c t e k]

theorem Stats0_start_ml (c : Dev nD) (t : Fin cfg0.N) (n : Fin 512) :
    ((startAt0 V c t).m (ix3 (0 : Fin 1) n (0 : Fin 1)), (startAt0 V c t).l (ix3 (0 : Fin 1) n (0 : Fin 1))) = ((⊥ : EReal), (0 : EReal)) := by
  show (k0_pay4 (F := Ideal) (ix3 (0 : Fin 1) n (0 : Fin 1)), k0_pay5 (F := Ideal) (ix3 (0 : Fin 1) n (0 : Fin 1))) = _
  rw [Stats0_initMax, Stats0_initSum]

/-- After tile τ of half h the pair at row n is the fold of the first τ + 1 steps over the half's tiles, and the
    scratch holds the projected row. -/
theorem Stats0_fold (c : Dev nD) (n : Fin 512) (h : Fin 2) (τ : ℕ) (hτ : τ < tilesPerHalf0) :
    ((stats0 V c (h.val * tilesPerHalf0 + τ)).m (ix3 (0 : Fin 1) n (0 : Fin 1)), (stats0 V c (h.val * tilesPerHalf0 + τ)).l (ix3 (0 : Fin 1) n (0 : Fin 1)))
        = Cert.OnlineSoftmax.run (fun t => xrow0 V c n (h.val * tilesPerHalf0 + t)) (τ + 1)
      ∧ ∀ e : Fin embDim0, (stats0 V c (h.val * tilesPerHalf0 + τ)).y (ix2 n e) = yrow0 V c n e := by
  induction τ with
  | zero =>
    have hmod : (h.val * tilesPerHalf0 + 0) % tilesPerHalf0 = 0 := by rw [Nat.add_zero]; exact Nat.mul_mod_left _ _
    rw [stats0_first V c _ hmod, Stats0_stepAt_y]
    refine ⟨?_, fun e => Stats0_start_y V c _ n e⟩
    rw [Stats0_stepAt_row V c _ _ n (fun e => Stats0_start_y V c _ n e), Stats0_start_ml, Stats0_pt_val h 0 hτ]
    rfl
  | succ τ ih =>
    obtain ⟨ih1, ih2⟩ := ih (Nat.lt_of_succ_lt hτ)
    have hne : ¬(h.val * tilesPerHalf0 + τ + 1) % tilesPerHalf0 = 0 := by
      rw [Nat.add_assoc, Nat.add_comm (h.val * tilesPerHalf0) (τ + 1), Nat.add_mul_mod_self_right, Nat.mod_eq_of_lt hτ]; exact Nat.succ_ne_zero τ
    show ((stats0 V c (h.val * tilesPerHalf0 + τ + 1)).m _, (stats0 V c (h.val * tilesPerHalf0 + τ + 1)).l _) = _
      ∧ ∀ e : Fin embDim0, (stats0 V c (h.val * tilesPerHalf0 + τ + 1)).y (ix2 n e) = yrow0 V c n e
    rw [stats0_next V c _ hne, Stats0_stepAt_y]
    refine ⟨?_, ih2⟩
    rw [Stats0_stepAt_row V c _ _ n ih2, ih1]
    have hv : (pt0 (h.val * tilesPerHalf0 + τ + 1)).val = h.val * tilesPerHalf0 + (τ + 1) := Stats0_pt_val h (τ + 1) hτ
    rw [hv]
    rfl

end Cert.KernelIdeal.Hand

end
-- ==== Proof.Stats0Value3.lean ====
/-
  The statistics launch of one vocabulary cluster: what its two output arrays hold after the launch, row by row.

  Each half of the grid writes its block of the maxima and of the sums back once, at its last tile; the two blocks
  are the two halves of each array. So the arrays hold at (h, n, 0) what the last tile of half h left at row n:
  the fold of the online softmax over the half's masked tiles of the row.
-/
import proofs.«124427_j55336358642036_2_alg».proof.Proof.Stats0Value

set_option maxRecDepth 16384

noncomputable section

namespace Cert.KernelIdeal.Hand

open Cert.KernelIdeal Cert.KernelIdeal.Gen Cert.Sizes
open Idealize.ShloMosaic Idealize.ShloMosaic.TcCoe Idealize.ShloMosaic.ValueIdx
open Idealize.SL Idealize.SL.Sem
open Idealize.ShloMosaic.Pipeline (Dat)
open scoped BigOperators

-- the contents of the TensorCore's buffers when the launch is entered, at the ideal values
variable (V : (c : Dev nD) → (b : Ref sig .tc) → Buf (Elt Ideal) ((c : Thread nD τ).loc b))

/-! ## The two statistics arrays after the launch -/

abbrev Stats0_mOut (c : Dev nD) : Vec Ideal S2x512x1 .f32 := (dat0 V c).arrAt 4 cfg0.N
abbrev Stats0_lOut (c : Dev nD) : Vec Ideal S2x512x1 .f32 := (dat0 V c).arrAt 5 cfg0.N

/-- The last point of half h: the one that writes the half's blocks back. -/
def Stats0_last (h : Fin 2) : Fin cfg0.N :=
  ⟨h.val * tilesPerHalf0 + (tilesPerHalf0 - 1), by
    have hh : h.val * tilesPerHalf0 ≤ 1 * tilesPerHalf0 := Nat.mul_le_mul_right _ (by have := h.isLt; omega)
    have := Stats0_T_pos
    rw [Stats0_N]; omega⟩

theorem Stats0_last_mod (h : Fin 2) : (Stats0_last h).val % tilesPerHalf0 = tilesPerHalf0 - 1 := by
  show (h.val * tilesPerHalf0 + (tilesPerHalf0 - 1)) % tilesPerHalf0 = tilesPerHalf0 - 1
  rw [Nat.add_comm (h.val * tilesPerHalf0) (tilesPerHalf0 - 1), Nat.add_mul_mod_self_right]
  exact Nat.mod_eq_of_lt (by have := Stats0_T_pos; omega)

/-- What the arrays end holding, as functions of the index: at (h, n, ·) the pair the last tile of half h leaves at row n. -/
def Stats0_mG (c : Dev nD) : Vec Ideal S2x512x1 .f32 :=
  fun i => (stats0 V c ((i 0).val * tilesPerHalf0 + (tilesPerHalf0 - 1))).m (ix3 (0 : Fin 1) (⟨(i 1).val, (i 1).isLt⟩ : Fin 512) (0 : Fin 1))
def Stats0_lG (c : Dev nD) : Vec Ideal S2x512x1 .f32 :=
  fun i => (stats0 V c ((i 0).val * tilesPerHalf0 + (tilesPerHalf0 - 1))).l (ix3 (0 : Fin 1) (⟨(i 1).val, (i 1).isLt⟩ : Fin 512) (0 : Fin 1))

/-- Stats0_mG and Stats0_lG at an index, from the point's number and the block's index. -/
theorem Stats0_mG_apply (c : Dev nD) (i : S2x512x1.Idx) (k : ℕ) (hk : (i 0).val * tilesPerHalf0 + (tilesPerHalf0 - 1) = k)
    (j : S1x512x1.Idx) (hj : ix3 (0 : Fin 1) (⟨(i 1).val, (i 1).isLt⟩ : Fin 512) (0 : Fin 1) = j) :
    Stats0_mG V c i = (stats0 V c k).m j := by subst hk; subst hj; rfl
theorem Stats0_lG_apply (c : Dev nD) (i : S2x512x1.Idx) (k : ℕ) (hk : (i 0).val * tilesPerHalf0 + (tilesPerHalf0 - 1) = k)
    (j : S1x512x1.Idx) (hj : ix3 (0 : Fin 1) (⟨(i 1).val, (i 1).isLt⟩ : Fin 512) (0 : Fin 1) = j) :
    Stats0_lG V c i = (stats0 V c k).l j := by subst hk; subst hj; rfl

/-- A point that writes the maxima's block back writes the block of Stats0_mG at its place (and the sums' likewise). -/
theorem Stats0_flushed4 (c : Dev nD) (t : Fin cfg0.N) (hf : (cfg0.win 4).flush t = true) :
    (dat0 V c).flushed 4 t = ((cfg0.win 4).blk t).view.read (Elt Ideal) (Stats0_mG V c) := by
  have hmod : t.val % tilesPerHalf0 = tilesPerHalf0 - 1 := (flush0_4 t).mp hf
  have e0 : win0_4.index t (0 : Fin 3) = t.val / tilesPerHalf0 := (Stats0_idx t).2.2.2.2.2.2.2.2.2.1
  have e1 : win0_4.index t (1 : Fin 3) = 0 := (Stats0_idx t).2.2.2.2.2.2.2.2.2.2.1
  show (cfg0.win 4).cut (grid0.coords t) ((dat0 V c).after 4 t) = _
  rw [after0_4]
  funext y
  show (stats0 V c t.val).m y = Stats0_mG V c (((cfg0.win 4).blk t).view.emb y)
  have hy0 : (y 0).val = 0 := Nat.lt_one_iff.mp (y 0).isLt
  have hy2 : (y 2).val = 0 := Nat.lt_one_iff.mp (y 2).isLt
  have hj : ix3 (0 : Fin 1) (⟨((((cfg0.win 4).blk t).view.emb y) 1).val, ((((cfg0.win 4).blk t).view.emb y) 1).isLt⟩ : Fin 512) (0 : Fin 1) = y := by
    funext a; apply Fin.ext
    match a with
    | ⟨0, _⟩ => show 0 = (y 0).val; exact hy0.symm
    | ⟨1, _⟩ => show win0_4.index t (1 : Fin 3) * 512 + 1 * (y 1).val = (y 1).val; rw [e1, Nat.zero_mul, Nat.zero_add, Nat.one_mul]
    | ⟨2, _⟩ => show 0 = (y 2).val; exact hy2.symm
  have hk : ((((cfg0.win 4).blk t).view.emb y) 0).val * tilesPerHalf0 + (tilesPerHalf0 - 1) = t.val := by
    show (win0_4.index t (0 : Fin 3) * 1 + 1 * (y 0).val) * tilesPerHalf0 + (tilesPerHalf0 - 1) = t.val
    rw [e0, hy0, Nat.mul_one, Nat.mul_zero, Nat.add_zero, ← hmod]
    exact Nat.div_add_mod' _ _
  exact (Stats0_mG_apply V c (((cfg0.win 4).blk t).view.emb y) t.val hk y hj).symm

theorem Stats0_flushed5 (c : Dev nD) (t : Fin cfg0.N) (hf : (cfg0.win 5).flush t = true) :
    (dat0 V c).flushed 5 t = ((cfg0.win 5).blk t).view.read (Elt Ideal) (Stats0_lG V c) := by
  have hmod : t.val % tilesPerHalf0 = tilesPerHalf0 - 1 := (flush0_5 t).mp hf
  have e0 : win0_5.index t (0 : Fin 3) = t.val / tilesPerHalf0 := (Stats0_idx t).2.2.2.2.2.2.2.2.2.2.2.2.1
  have e1 : win0_5.index t (1 : Fin 3) = 0 := (Stats0_idx t).2.2.2.2.2.2.2.2.2.2.2.2.2.1
  show (cfg0.win 5).cut (grid0.coords t) ((dat0 V c).after 5 t) = _
  rw [after0_5]
  funext y
  show (stats0 V c t.val).l y = Stats0_lG V c (((cfg0.win 5).blk t).view.emb y)
  have hy0 : (y 0).val = 0 := Nat.lt_one_iff.mp (y 0).isLt
  have hy2 : (y 2).val = 0 := Nat.lt_one_iff.mp (y 2).isLt
  have hj : ix3 (0 : Fin 1) (⟨((((cfg0.win 5).blk t).view.emb y) 1).val, ((((cfg0.win 5).blk t).view.emb y) 1).isLt⟩ : Fin 512) (0 : Fin 1) = y := by
    funext a; apply Fin.ext
    match a with
    | ⟨0, _⟩ => show 0 = (y 0).val; exact hy0.symm
    | ⟨1, _⟩ => show win0_5.index t (1 : Fin 3) * 512 + 1 * (y 1).val = (y 1).val; rw [e1, Nat.zero_mul, Nat.zero_add, Nat.one_mul]
    | ⟨2, _⟩ => show 0 = (y 2).val; exact hy2.symm
  have hk : ((((cfg0.win 5).blk t).view.emb y) 0).val * tilesPerHalf0 + (tilesPerHalf0 - 1) = t.val := by
    show (win0_5.index t (0 : Fin 3) * 1 + 1 * (y 0).val) * tilesPerHalf0 + (tilesPerHalf0 - 1) = t.val
    rw [e0, hy0, Nat.mul_one, Nat.mul_zero, Nat.add_zero, ← hmod]
    exact Nat.div_add_mod' _ _
  exact (Stats0_lG_apply V c (((cfg0.win 5).blk t).view.emb y) t.val hk y hj).symm

/-- The index (h, n, 0) lies in the block the last point of half h writes back. -/
theorem Stats0_mem4 (h : Fin 2) (n : Fin 512) :
    (ix3 h n (0 : Fin 1) : S2x512x1.Idx) ∈ ((cfg0.win 4).blk (Stats0_last h)).view.set := by
  obtain ⟨-, -, -, -, -, -, -, -, -, e0, e1, e2, -⟩ := Stats0_idx (Stats0_last h)
  have hd : (Stats0_last h).val / tilesPerHalf0 = h.val := by
    show (h.val * tilesPerHalf0 + (tilesPerHalf0 - 1)) / tilesPerHalf0 = h.val
    rw [Nat.add_comm (h.val * tilesPerHalf0) (tilesPerHalf0 - 1), Nat.add_mul_div_right _ _ Stats0_T_pos, Nat.div_eq_of_lt (by have := Stats0_T_pos; omega), Nat.zero_add]
  show _ ∈ ((View.whole main_v7_0).slice (win0_4.rect (Stats0_last h))).set
  rw [View.set_slice_whole, Rect.mem_set_unit]
  intro a
  match a with
  | ⟨0, _⟩ => show win0_4.index (Stats0_last h) (0 : Fin 3) * 1 ≤ h.val ∧ h.val < win0_4.index (Stats0_last h) (0 : Fin 3) * 1 + 1; rw [e0, hd]; omega
  | ⟨1, _⟩ => show win0_4.index (Stats0_last h) (1 : Fin 3) * 512 ≤ n.val ∧ n.val < win0_4.index (Stats0_last h) (1 : Fin 3) * 512 + 512; rw [e1]; have := n.isLt; omega
  | ⟨2, _⟩ => show win0_4.index (Stats0_last h) (2 : Fin 3) * 1 ≤ (0 : Fin 1).val ∧ (0 : Fin 1).val < win0_4.index (Stats0_last h) (2 : Fin 3) * 1 + 1; rw [e2]; exact ⟨Nat.le_refl _, Nat.lt_succ_self _⟩

theorem Stats0_mem5 (h : Fin 2) (n : Fin 512) :
    (ix3 h n (0 : Fin 1) : S2x512x1.Idx) ∈ ((cfg0.win 5).blk (Stats0_last h)).view.set := by
  obtain ⟨-, -, -, -, -, -, -, -, -, -, -, -, e0, e1, e2⟩ := Stats0_idx (Stats0_last h)
  have hd : (Stats0_last h).val / tilesPerHalf0 = h.val := by
    show (h.val * tilesPerHalf0 + (tilesPerHalf0 - 1)) / tilesPerHalf0 = h.val
    rw [Nat.add_comm (h.val * tilesPerHalf0) (tilesPerHalf0 - 1), Nat.add_mul_div_right _ _ Stats0_T_pos, Nat.div_eq_of_lt (by have := Stats0_T_pos; omega), Nat.zero_add]
  show _ ∈ ((View.whole main_v7_1).slice (win0_5.rect (Stats0_last h))).set
  rw [View.set_slice_whole, Rect.mem_set_unit]
  intro a
  match a with
  | ⟨0, _⟩ => show win0_5.index (Stats0_last h) (0 : Fin 3) * 1 ≤ h.val ∧ h.val < win0_5.index (Stats0_last h) (0 : Fin 3) * 1 + 1; rw [e0, hd]; omega
  | ⟨1, _⟩ => show win0_5.index (Stats0_last h) (1 : Fin 3) * 512 ≤ n.val ∧ n.val < win0_5.index (Stats0_last h) (1 : Fin 3) * 512 + 512; rw [e1]; have := n.isLt; omega
  | ⟨2, _⟩ => show win0_5.index (Stats0_last h) (2 : Fin 3) * 1 ≤ (0 : Fin 1).val ∧ (0 : Fin 1).val < win0_5.index (Stats0_last h) (2 : Fin 3) * 1 + 1; rw [e2]; exact ⟨Nat.le_refl _, Nat.lt_succ_self _⟩

/-- THE RESULT. After the launch the maxima's array holds at (h, n, 0) the maximum, and the sums' array the sum, of the
    fold over the tiles of half h at row n. -/
theorem Stats0_m_parts (c : Dev nD) (h : Fin 2) (n : Fin 512) :
    Stats0_mOut V c (ix3 h n (0 : Fin 1))
      = (Cert.OnlineSoftmax.run (fun t => xrow0 V c n (h.val * tilesPerHalf0 + t)) tilesPerHalf0).1 := by
  have hf : (cfg0.win 4).flush (Stats0_last h) = true := (flush0_4 _).mpr (Stats0_last_mod h)
  have h1 : (dat0 V c).arrAt 4 cfg0.N (ix3 h n (0 : Fin 1)) = Stats0_mG V c (ix3 h n (0 : Fin 1)) :=
    (dat0 V c).arrAt_apply_of_mem 4 (Stats0_mG V c) (Stats0_flushed4 V c) cfg0.N (Stats0_last h) (ix3 h n (0 : Fin 1))
      (Stats0_last h).isLt hf (Stats0_mem4 h n)
  have h3 : Stats0_mG V c (ix3 h n (0 : Fin 1))
      = (stats0 V c (h.val * tilesPerHalf0 + (tilesPerHalf0 - 1))).m (ix3 (0 : Fin 1) n (0 : Fin 1)) :=
    Stats0_mG_apply V c (ix3 h n (0 : Fin 1)) (h.val * tilesPerHalf0 + (tilesPerHalf0 - 1)) rfl (ix3 (0 : Fin 1) n (0 : Fin 1)) rfl
  have hT : tilesPerHalf0 - 1 + 1 = tilesPerHalf0 := Nat.sub_add_cancel Stats0_T_pos
  have h2 := (Stats0_fold V c n h (tilesPerHalf0 - 1) (Nat.sub_lt Stats0_T_pos Nat.one_pos)).1
  rw [hT] at h2
  exact (h1.trans h3).trans (congrArg Prod.fst h2)

theorem Stats0_l_parts (c : Dev nD) (h : Fin 2) (n : Fin 512) :
    Stats0_lOut V c (ix3 h n (0 : Fin 1))
      = (Cert.OnlineSoftmax.run (fun t => xrow0 V c n (h.val * tilesPerHalf0 + t)) tilesPerHalf0).2 := by
  have hf : (cfg0.win 5).flush (Stats0_last h) = true := (flush0_5 _).mpr (Stats0_last_mod h)
  have h1 : (dat0 V c).arrAt 5 cfg0.N (ix3 h n (0 : Fin 1)) = Stats0_lG V c (ix3 h n (0 : Fin 1)) :=
    (dat0 V c).arrAt_apply_of_mem 5 (Stats0_lG V c) (Stats0_flushed5 V c) cfg0.N (Stats0_last h) (ix3 h n (0 : Fin 1))
      (Stats0_last h).isLt hf (Stats0_mem5 h n)
  have h3 : Stats0_lG V c (ix3 h n (0 : Fin 1))
      = (stats0 V c (h.val * tilesPerHalf0 + (tilesPerHalf0 - 1))).l (ix3 (0 : Fin 1) n (0 : Fin 1)) :=
    Stats0_lG_apply V c (ix3 h n (0 : Fin 1)) (h.val * tilesPerHalf0 + (tilesPerHalf0 - 1)) rfl (ix3 (0 : Fin 1) n (0 : Fin 1)) rfl
  have hT : tilesPerHalf0 - 1 + 1 = tilesPerHalf0 := Nat.sub_add_cancel Stats0_T_pos
  have h2 := (Stats0_fold V c n h (tilesPerHalf0 - 1) (Nat.sub_lt Stats0_T_pos Nat.one_pos)).1
  rw [hT] at h2
  exact (h1.trans h3).trans (congrArg Prod.snd h2)

end Cert.KernelIdeal.Hand

end
-- ==== Proof.Write1Pay.lean ====
import proofs.«124427_j55336358642036_2_alg».proof.Proof.Gen.KernelIdeal.Skeleton
import proofs.«124427_j55336358642036_2_alg».proof.Proof.Sizes
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Idealize.ShloMosaic.Lib.StableHlo.Predicate

/-!
# A cluster's write kernel read at an index

The write kernel of a vocabulary cluster stores two values: at the first tile of each half the projected
hidden rows `y = hidden · projᵀ` (kept in sixteen-bit floats, which at the ideal values is no change), and at
every tile the block of log-probabilities `(logit − m) − log l + extra`, the logit being `y · Wᵀ + bias` on
the cluster's real columns and `−∞` on the padding. Here both stored values are read at one element, as
plain sums and differences of extended reals, in the association the kernel computes them in.
-/

noncomputable section

namespace Cert.KernelIdeal.Hand

open Cert.KernelIdeal Cert.KernelIdeal.Gen Cert.Sizes
open Idealize.ShloMosaic Idealize.ShloMosaic.ValueIdx
open scoped BigOperators

/-! ## The projection `hidden · projᵀ` at an element -/

theorem k1_proj_lhs_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem k1_proj_lhs_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem k1_proj_rhs_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem k1_proj_rhs_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The product into the zero accumulator, at row `r` and column `c`: the sum over the contracted axis of the
    left operand's row `r` times the right operand's row `c`. -/
theorem k1_proj_apply (a : FVec Ideal S512x1024 .bf16) (b : FVec Ideal S1024x1024 .bf16) (r : Fin 512) (c : Fin embDim1) :
    matmul dot_S512x1024_S1024x1024_S512x1024_1_1_0_0_n_n none a b (constant S512x1024 .f32 0x00000000#32) (ix2 r c)
      = ∑ k : Fin 1024, a (ix2 r k) * b (ix2 c k) := by
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 r c) ((contrEquiv1 dot_S512x1024_S1024x1024_S512x1024_1_1_0_0_n_n 1024 rfl rfl).symm k) = ix2 r k := funext fun ax => Fin.ext (by
    match ax with
    | ⟨0, _⟩ => exact k1_proj_lhs_0 _ _
    | ⟨1, _⟩ => exact (k1_proj_lhs_1 _ _).trans hk)
  have er : dot_S512x1024_S1024x1024_S512x1024_1_1_0_0_n_n.rhsIdx (ix2 r c) ((contrEquiv1 dot_S512x1024_S1024x1024_S512x1024_1_1_0_0_n_n 1024 rfl rfl).symm k) = ix2 c k := funext fun ax => Fin.ext (by
    match ax with
    | ⟨0, _⟩ => exact k1_proj_rhs_0 _ _
    | ⟨1, _⟩ => exact (k1_proj_rhs_1 _ _).trans hk)
  rw [el, er]

/-- THE SCRATCH'S FILL at row `n`, embedding coordinate `e`: the hidden row times the projection's row `e`. -/
theorem k1_pay1_apply (v35 : Vec Ideal S512x1024 .bf16) (v37 : Vec Ideal S1024x1024 .bf16) (n : Fin 512) (e : Fin embDim1) :
    k1_pay1 (F := Ideal) v35 v37 (ix2 n e) = ∑ k : Fin 1024, v35 (ix2 n k) * v37 (ix2 e k) := by
  unfold k1_pay1
  simp only [shapeCast_self]
  rw [truncf_apply]
  exact k1_proj_apply v35 v37 n e

/-! ## The tile's logits `y · Wᵀ` at an element -/

theorem k1_wdot_lhs_0 (i : S512x2048.Idx) (q : dot_S512x1024_S2048x1024_S512x2048_1_1_0_0_n_n.contr.Idx) :
    (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
theorem k1_wdot_lhs_1 (i : S512x2048.Idx) (q : dot_S512x1024_S2048x1024_S512x2048_1_1_0_0_n_n.contr.Idx) :
    (dot_S512x1024_S2048x1024_S512x2048_1_1_0_0_n_n.lhsIdx i q 1).val = (q ⟨0, by decide⟩).val :=
  dot_S512x1024_S2048x1024_S512x2048_1_1_0_0_n_n.lhsIdx_val_of_single rfl i q
theorem k1_wdot_rhs_0 (i : S512x2048.Idx) (q : dot_S512x1024_S2048x1024_S512x2048_1_1_0_0_n_n.contr.Idx) :
    (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
theorem k1_wdot_rhs_1 (i : S512x2048.Idx) (q : dot_S512x1024_S2048x1024_S512x2048_1_1_0_0_n_n.contr.Idx) :
    (dot_S512x1024_S2048x1024_S512x2048_1_1_0_0_n_n.rhsIdx i q 1).val = (q ⟨0, by decide⟩).val :=
  dot_S512x1024_S2048x1024_S512x2048_1_1_0_0_n_n.rhsIdx_val_of_single rfl i q

/-- The product into the zero accumulator, at row `r` and column `c`: the sum over the contracted axis of the
    left operand's row `r` times the right operand's row `c`. -/
theorem k1_wdot_apply (a : FVec Ideal S512x1024 .bf16) (b : FVec Ideal S2048x1024 .bf16) (r : Fin 512) (c : Fin tileWidth1) :
    matmul dot_S512x1024_S2048x1024_S512x2048_1_1_0_0_n_n none a b (constant S512x2048 .f32 0x00000000#32) (ix2 r c)
      = ∑ k : Fin embDim1, a (ix2 r k) * b (ix2 c k) := by
  simp only [matmul]
  rw [Ideal.matmul_constant_zero_apply, ← Equiv.sum_comp (contrEquiv1 dot_S512x1024_S2048x1024_S512x2048_1_1_0_0_n_n embDim1 rfl rfl).symm]
  refine Finset.sum_congr rfl fun k _ => ?_
  have hk := contrEquiv1_symm_val dot_S512x1024_S2048x1024_S512x2048_1_1_0_0_n_n embDim1 rfl rfl k
  have el : dot_S512x1024_S2048x1024_S512x2048_1_1_0_0_n_n.lhsIdx (ix2 r c) ((contrEquiv1 dot_S512x1024_S2048x1024_S512x2048_1_1_0_0_n_n embDim1 rfl rfl).symm k) = ix2 r k := funext fun ax => Fin.ext (by
    match ax with
    | ⟨0, _⟩ => exact k1_wdot_lhs_0 _ _
    | ⟨1, _⟩ => exact (k1_wdot_lhs_1 _ _).trans hk)
  have er : dot_S512x1024_S2048x1024_S512x2048_1_1_0_0_n_n.rhsIdx (ix2 r c) ((contrEquiv1 dot_S512x1024_S2048x1024_S512x2048_1_1_0_0_n_n embDim1 rfl rfl).symm k) = ix2 c k := funext fun ax => Fin.ext (by
    match ax with
    | ⟨0, _⟩ => exact k1_wdot_rhs_0 _ _
    | ⟨1, _⟩ => exact (k1_wdot_rhs_1 _ _).trans hk)
  rw [el, er]

/-! ## The two broadcasts of the block -/

/-- A column of per-row values spread along the lanes reads, at `(n, j)`, row `n`'s value. -/
theorem k1_bcol_apply {α : Type} (v : S512x1.Idx → α) (h : S512x1.Broadcasts S512x2048) (n : Fin 512) (j : Fin tileWidth1) :
    broadcastTo S512x2048 v h (ix2 n j) = v (ix2 n (0 : Fin 1)) := by
  refine broadcastTo_apply v h (ix2 n j) (ix2 n (0 : Fin 1)) fun ax => ?_
  match ax with
  | ⟨0, _⟩ => rfl
  | ⟨1, _⟩ => rfl

/-- The bias row spread down the rows reads, at `(n, j)`, lane `j`'s bias. -/
theorem k1_brow_apply {α : Type} (v : S1x2048.Idx → α) (h : S1x2048.Broadcasts S512x2048) (n : Fin 512) (j : Fin tileWidth1) :
    broadcastTo S512x2048 v h (ix2 n j) = v (ix2 (0 : Fin 1) j) :=
  broadcastTo_1b_ab_apply v h n j

/-! ## The lane mask and its fill -/

/-- The padding's fill is `−∞` at the ideal values. -/
theorem k1_neg_big : Named.named (F := Ideal) κ "neg_big" (φ := .f32) 0xFF333332#32 = (⊥ : EReal) :=
  IdealRules.named_const.ideal_named_scalar _ _ _ _ rfl

/-- A lane's global column number stays far below the signed 32-bit range. -/
theorem k1_col_lt (i : grid1.Coords) (j : Fin tileWidth1) :
    ((i 0).val * tilesPerHalf1 + (i 1).val) * tileWidth1 + j.val < 2 ^ 31 := by
  have h0 : (i 0).val < 2 := (i 0).isLt
  have h1 : (i 1).val < tilesPerHalf1 := (i 1).isLt
  have hj : j.val < tileWidth1 := j.isLt
  simp only [tilesPerHalf1, tileWidth1] at h1 hj ⊢
  omega

/-- THE MASK DECODED: the 32-bit comparison of "lane number plus the tile's first column" with the cluster's size
    holds exactly when the lane's global column number is below the size, as naturals. -/
theorem k1_mask_iff (hi : S512x2048.Iotas .tc 32 [1]) (i : grid1.Coords) (n : Fin 512) (j : Fin tileWidth1) :
    cmpi .slt (addi (iota .tc S512x2048 32 [1] hi)
        (broadcast S512x2048 (Scalar.muli (Scalar.addi (Scalar.muli (BitVec.ofNat 32 (i 0).val) (BitVec.ofNat 32 tilesPerHalf1))
          (BitVec.ofNat 32 (i 1).val)) (BitVec.ofNat 32 tileWidth1))))
        (broadcast S512x2048 (BitVec.ofNat 32 validCols1)) (ix2 n j) = 1#1
      ↔ ((i 0).val * tilesPerHalf1 + (i 1).val) * tileWidth1 + j.val < validCols1 := by
  have hV : validCols1 < 2 ^ 31 := by decide
  have hw : addi (iota .tc S512x2048 32 [1] hi)
        (broadcast S512x2048 (Scalar.muli (Scalar.addi (Scalar.muli (BitVec.ofNat 32 (i 0).val) (BitVec.ofNat 32 tilesPerHalf1))
          (BitVec.ofNat 32 (i 1).val)) (BitVec.ofNat 32 tileWidth1))) (ix2 n j)
      = BitVec.ofNat 32 (((i 0).val * tilesPerHalf1 + (i 1).val) * tileWidth1 + j.val) := by
    show IntOp.addi (iota .tc S512x2048 32 [1] hi (ix2 n j)) _ = _
    rw [iota_single_apply]
    show BitVec.ofNat 32 j.val + (BitVec.ofNat 32 (i 0).val * BitVec.ofNat 32 tilesPerHalf1 + BitVec.ofNat 32 (i 1).val) * BitVec.ofNat 32 tileWidth1 = _
    rw [← BitVec.ofNat_mul, ← BitVec.ofNat_add, ← BitVec.ofNat_mul, ← BitVec.ofNat_add, Nat.add_comm j.val]
  show IntOp.cmpi .slt (addi (iota .tc S512x2048 32 [1] hi)
        (broadcast S512x2048 (Scalar.muli (Scalar.addi (Scalar.muli (BitVec.ofNat 32 (i 0).val) (BitVec.ofNat 32 tilesPerHalf1))
          (BitVec.ofNat 32 (i 1).val)) (BitVec.ofNat 32 tileWidth1))) (ix2 n j)) (BitVec.ofNat 32 validCols1) = 1#1 ↔ _
  rw [hw]
  exact StableHlo.Predicate.slt_ofNat_iff _ _ (k1_col_lt i j) hV

/-! ## The stored block at an element -/

/-- The masked logit of row `n`, lane `j` of the tile at grid point `i` (half `i 0`, tile `i 1`): `y · Wᵀ + bias` on a real
    column, `−∞` on the padding. -/
def k1_logit (i : grid1.Coords) (v3 : Vec Ideal S512x1024 .bf16) (v4 : Vec Ideal S2048x1024 .bf16) (v6 : Vec Ideal S1x2048 .f32)
    (n : Fin 512) (j : Fin tileWidth1) : EReal :=
  if ((i 0).val * tilesPerHalf1 + (i 1).val) * tileWidth1 + j.val < validCols1
  then (∑ e : Fin embDim1, v3 (ix2 n e) * v4 (ix2 j e)) + v6 (ix2 (0 : Fin 1) j) else ⊥

/-- THE OUTPUT BLOCK at row `n`, lane `j`: the masked logit, less the row's maximum, less the logarithm of the row's
    sum, plus the row's extra term — associated as the kernel computes it. -/
theorem k1_pay2_apply (i : grid1.Coords) (v3 : Vec Ideal S512x1024 .bf16) (v4 : Vec Ideal S2048x1024 .bf16) (v6 : Vec Ideal S1x2048 .f32)
    (v21 v25 v30 : Vec Ideal S512x1 .f32) (n : Fin 512) (j : Fin tileWidth1) :
    k1_pay2 (F := Ideal) i v3 v4 v6 v21 v25 v30 (ix2 n j)
      = ((k1_logit i v3 v4 v6 n j - v21 (ix2 n (0 : Fin 1))) - Ideal.log (v25 (ix2 n (0 : Fin 1)))) + v30 (ix2 n (0 : Fin 1)) := by
  unfold k1_pay2
  simp only [shapeCast_self]
  rw [addf_apply, subf_apply, subf_apply, select_apply, addf_apply, broadcast_apply, k1_bcol_apply, k1_bcol_apply, k1_bcol_apply,
    k1_brow_apply, k1_wdot_apply, k1_neg_big]
  unfold k1_logit
  by_cases hv : ((i 0).val * tilesPerHalf1 + (i 1).val) * tileWidth1 + j.val < validCols1
  · rw [if_pos hv, (k1_mask_iff _ i n j).mpr hv, select_one]
    rfl
  · rw [if_neg hv, eq_zero_of_ne_one (mt (k1_mask_iff _ i n j).mp hv), select_zero]
    rfl

/-- On a real column the block's element has no case split left. -/
theorem k1_pay2_valid (i : grid1.Coords) (v3 : Vec Ideal S512x1024 .bf16) (v4 : Vec Ideal S2048x1024 .bf16) (v6 : Vec Ideal S1x2048 .f32)
    (v21 v25 v30 : Vec Ideal S512x1 .f32) (n : Fin 512) (j : Fin tileWidth1)
    (hv : ((i 0).val * tilesPerHalf1 + (i 1).val) * tileWidth1 + j.val < validCols1) :
    k1_pay2 (F := Ideal) i v3 v4 v6 v21 v25 v30 (ix2 n j)
      = ((((∑ e : Fin embDim1, v3 (ix2 n e) * v4 (ix2 j e)) + v6 (ix2 (0 : Fin 1) j)) - v21 (ix2 n (0 : Fin 1)))
          - Ideal.log (v25 (ix2 n (0 : Fin 1)))) + v30 (ix2 n (0 : Fin 1)) := by
  rw [k1_pay2_apply, k1_logit, if_pos hv]

end Cert.KernelIdeal.Hand

end
-- ==== Proof.Write1Value.lean ====
/-
  The write launch of vocabulary cluster 1 (launch 3), its value: what the launch leaves in its output array, read
  at an index, at the ideal values.

  The launch finds seven arrays: the hidden rows [512, 1024], the cluster's projection [d, 1024], its weight rows
  [padded columns, d], its bias [1, padded columns], and per row the maximum m, the sum l and an extra term, each
  [512, 1]. Row n of the projected hidden rows is yrow n e = Σ_k hidden(n, k) · projection(e, k); the logit of row n at
  column col is zrow n col = Σ_e yrow n e · weight(col, e) + bias(col). At grid point (h, t) the body writes the tile
  h·T + t of the output: at lane j the masked logit of column (h·T + t)·tileWidth + j (−∞ on the padding columns),
  less m, less log l, plus the extra term. The hidden rows, the projection and the three row vectors are one block
  each; the weight rows' and the bias's blocks move with the output's tile. So every point writes its block of ONE
  function of the seven arrays, the tiles cover the padded width, and the output array ends holding that function:
  on a real column, (zrow n col − m n) − log (l n) + extra n.
-/
import proofs.«124427_j55336358642036_2_alg».proof.Proof.Write1Defs
import proofs.«124427_j55336358642036_2_alg».proof.Proof.Write1Pay
import proofs.«124427_j55336358642036_2_alg».proof.Proof.Gen.KernelIdeal.Points
import proofs.«124427_j55336358642036_2_alg».proof.Proof.Sizes
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Sizes
open Idealize.ShloMosaic Idealize.ShloMosaic.TcCoe Idealize.ShloMosaic.ValueIdx Idealize.SL.Sem
open Idealize.ShloMosaic.Pipeline (Dat)
open scoped BigOperators

/-! ## The arrays the launch finds -/

section Arrays
variable {F : FTy → Type} [FloatOps F] [Named F]
variable (V : (c : Dev nD) → (b : Ref sig .tc) → Buf (Elt F) ((c : Thread nD τ).loc b))

/-- The hidden rows. -/
abbrev hidA1 (c : Dev nD) : Vec F S512x1024 .bf16 := V c (Pipeline.arrRef spec1 0)
/-- The cluster's projection. -/
abbrev prjA1 (c : Dev nD) : Vec F S1024x1024 .bf16 := V c (Pipeline.arrRef spec1 1)
/-- The cluster's weight rows, one per padded column. -/
abbrev wA1 (c : Dev nD) : Vec F S20480x1024 .bf16 := V c (Pipeline.arrRef spec1 2)
/-- The cluster's bias, one entry per padded column. -/
abbrev bA1 (c : Dev nD) : Vec F S1x20480 .f32 := V c (Pipeline.arrRef spec1 3)
/-- The rows' maxima. -/
abbrev mA1 (c : Dev nD) : Vec F S512x1 .f32 := V c (Pipeline.arrRef spec1 4)
/-- The rows' sums. -/
abbrev lA1 (c : Dev nD) : Vec F S512x1 .f32 := V c (Pipeline.arrRef spec1 5)
/-- The rows' extra terms. -/
abbrev exA1 (c : Dev nD) : Vec F S512x1 .f32 := V c (Pipeline.arrRef spec1 6)

end Arrays

variable (V : (c : Dev nD) → (b : Ref sig .tc) → Buf (Elt Ideal) ((c : Thread nD τ).loc b))

/-- Row n of the projected hidden rows at embedding coordinate e: the hidden row against the projection's row e. -/
def yrow1 (c : Dev nD) (n : Fin 512) (e : Fin embDim1) : EReal :=
  ∑ k : Fin 1024, hidA1 V c (ix2 n k) * prjA1 V c (ix2 e k)

/-- The logit of row n at padded column col: the projected row against the column's weight row, plus the column's
    bias (0 past the padded width). -/
def zrow1 (c : Dev nD) (n : Fin 512) (col : ℕ) : EReal :=
  if h : col < 2 * tilesPerHalf1 * tileWidth1 then
    (∑ e : Fin embDim1, yrow1 V c n e * wA1 V c (ix2 ⟨col, h⟩ e)) + bA1 V c (ix2 (0 : Fin 1) ⟨col, h⟩)
  else 0

/-- The masked logit of row n at padded column col: the logit on a real column, −∞ on a padding column. -/
def xz1 (c : Dev nD) (n : Fin 512) (col : Fin (2 * tilesPerHalf1 * tileWidth1)) : EReal :=
  if col.val < validCols1 then
    (∑ e : Fin embDim1, yrow1 V c n e * wA1 V c (ix2 col e)) + bA1 V c (ix2 (0 : Fin 1) col)
  else ⊥

/-- What the output array ends holding, as one function of the arrays the launch finds: the masked logit less the
    row's maximum and the logarithm of the row's sum, plus the row's extra term. -/
def outG1 (c : Dev nD) : Vec Ideal S512x20480 .f32 := fun i =>
  ((xz1 V c (i 0) (i 1) - mA1 V c (ix2 (i 0) (0 : Fin 1))) - Ideal.log (lA1 V c (ix2 (i 0) (0 : Fin 1))))
    + exA1 V c (ix2 (i 0) (0 : Fin 1))

/-! ## The block index maps over the grid -/

/-- The printed index maps, decided over the grid: the hidden rows, the projection and the three row vectors are
    one block each; the weight rows' block index on the row axis and the bias's on the column axis are the output's
    on its column axis, which is h·T + t at grid point (h, t) and stays below 2·T. -/
theorem idxs1 : ∀ t : Fin cfg1.N,
      win1_0.index t (0 : Fin 2) = 0 ∧ win1_0.index t (1 : Fin 2) = 0
    ∧ win1_1.index t (0 : Fin 2) = 0 ∧ win1_1.index t (1 : Fin 2) = 0
    ∧ win1_2.index t (0 : Fin 2) = win1_7.index t (1 : Fin 2) ∧ win1_2.index t (1 : Fin 2) = 0
    ∧ win1_3.index t (0 : Fin 2) = 0 ∧ win1_3.index t (1 : Fin 2) = win1_7.index t (1 : Fin 2)
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0
    ∧ win1_7.index t (1 : Fin 2) = ((grid1.coords t) 0).val * tilesPerHalf1 + ((grid1.coords t) 1).val
    ∧ win1_7.index t (1 : Fin 2) < 2 * tilesPerHalf1 :=
  (by decide +kernel : ∀ t : Fin grid1.N, _)

/-- Every tile of the padded width is some grid point's. -/
theorem onto1 : ∀ q : Fin (2 * tilesPerHalf1), ∃ t : Fin cfg1.N, win1_7.index t (1 : Fin 2) = q.val :=
  (by decide +kernel : ∀ q : Fin (2 * tilesPerHalf1), ∃ t : Fin grid1.N, win1_7.index t (1 : Fin 2) = q.val)

/-! ## The input blocks as parts of the arrays -/

/-- The hidden rows' block is the whole array. -/
theorem iblk1_0_apply (c : Dev nD) (t : Fin cfg1.N) (n : Fin 512) (k : Fin 1024) :
    (iblk1 V c 0 t : Vec Ideal S512x1024 .bf16) (ix2 n k) = hidA1 V c (ix2 n k) := by
  obtain ⟨e0, e1, -⟩ := idxs1 t
  have h : (((cfg1.win 0).blk t).view.emb (ix2 n k) : S512x1024.Idx) = ix2 n k := by
    funext a; apply Fin.ext
    match a with
    | ⟨0, _⟩ => show win1_0.index t (0 : Fin 2) * 512 + 1 * n.val = n.val; rw [e0] <;> omega
    | ⟨1, _⟩ => show win1_0.index t (1 : Fin 2) * 1024 + 1 * k.val = k.val; rw [e1] <;> omega
  show V c (Pipeline.arrRef spec1 0) (((cfg1.win 0).blk t).view.emb (ix2 n k)) = V c (Pipeline.arrRef spec1 0) (ix2 n k)
  rw [h] <;> rfl

/-- The projection's block is the whole array. -/
theorem iblk1_1_apply (c : Dev nD) (t : Fin cfg1.N) (e : Fin embDim1) (k : Fin 1024) :
    (iblk1 V c 1 t : Vec Ideal S1024x1024 .bf16) (ix2 e k) = prjA1 V c (ix2 e k) := by
  obtain ⟨-, -, e0, e1, -⟩ := idxs1 t
  have h : (((cfg1.win 1).blk t).view.emb (ix2 e k) : S1024x1024.Idx) = ix2 e k := by
    funext a; apply Fin.ext
    match a with
    | ⟨0, _⟩ => show win1_1.index t (0 : Fin 2) * embDim1 + 1 * e.val = e.val; rw [e0] <;> omega
    | ⟨1, _⟩ => show win1_1.index t (1 : Fin 2) * 1024 + 1 * k.val = k.val; rw [e1] <;> omega
  show V c (Pipeline.arrRef spec1 1) (((cfg1.win 1).blk t).view.emb (ix2 e k)) = V c (Pipeline.arrRef spec1 1) (ix2 e k)
  rw [h] <;> rfl

/-- The weight rows' block at a point is the tile's rows of the array. -/
theorem iblk1_2_apply (c : Dev nD) (t : Fin cfg1.N) (j : Fin tileWidth1) (e : Fin embDim1)
    (hc : win1_7.index t (1 : Fin 2) * tileWidth1 + j.val < 2 * tilesPerHalf1 * tileWidth1) :
    (iblk1 V c 2 t : Vec Ideal S2048x1024 .bf16) (ix2 j e) = wA1 V c (ix2 ⟨win1_7.index t (1 : Fin 2) * tileWidth1 + j.val, hc⟩ e) := by
  obtain ⟨-, -, -, -, e0, e1, -⟩ := idxs1 t
  have h : (((cfg1.win 2).blk t).view.emb (ix2 j e) : S20480x1024.Idx) = ix2 ⟨win1_7.index t (1 : Fin 2) * tileWidth1 + j.val, hc⟩ e := by
    funext a; apply Fin.ext
    match a with
    | ⟨0, _⟩ => show win1_2.index t (0 : Fin 2) * tileWidth1 + 1 * j.val = win1_7.index t (1 : Fin 2) * tileWidth1 + j.val; rw [e0] <;> omega
    | ⟨1, _⟩ => show win1_2.index t (1 : Fin 2) * embDim1 + 1 * e.val = e.val; rw [e1] <;> omega
  show V c (Pipeline.arrRef spec1 2) (((cfg1.win 2).blk t).view.emb (ix2 j e)) = V c (Pipeline.arrRef spec1 2) (ix2 ⟨win1_7.index t (1 : Fin 2) * tileWidth1 + j.val, hc⟩ e)
  rw [h] <;> rfl

/-- The bias's block at a point is the tile's entries of the array. -/
theorem iblk1_3_apply (c : Dev nD) (t : Fin cfg1.N) (j : Fin tileWidth1)
    (hc : win1_7.index t (1 : Fin 2) * tileWidth1 + j.val < 2 * tilesPerHalf1 * tileWidth1) :
    (iblk1 V c 3 t : Vec Ideal S1x2048 .f32) (ix2 (0 : Fin 1) j) = bA1 V c (ix2 (0 : Fin 1) ⟨win1_7.index t (1 : Fin 2) * tileWidth1 + j.val, hc⟩) := by
  obtain ⟨-, -, -, -, -, -, e0, e1, -⟩ := idxs1 t
  have h : (((cfg1.win 3).blk t).view.emb (ix2 (0 : Fin 1) j) : S1x20480.Idx) = ix2 (0 : Fin 1) ⟨win1_7.index t (1 : Fin 2) * tileWidth1 + j.val, hc⟩ := by
    funext a; apply Fin.ext
    match a with
    | ⟨0, _⟩ => show win1_3.index t (0 : Fin 2) * 1 + 1 * (0 : Fin 1).val = (0 : Fin 1).val; omega
    | ⟨1, _⟩ => show win1_3.index t (1 : Fin 2) * tileWidth1 + 1 * j.val = win1_7.index t (1 : Fin 2) * tileWidth1 + j.val; rw [e1] <;> omega
  show V c (Pipeline.arrRef spec1 3) (((cfg1.win 3).blk t).view.emb (ix2 (0 : Fin 1) j)) = V c (Pipeline.arrRef spec1 3) (ix2 (0 : Fin 1) ⟨win1_7.index t (1 : Fin 2) * tileWidth1 + j.val, hc⟩)
  rw [h] <;> rfl

/-- The row maxima's block is the whole array. -/
theorem iblk1_4_apply (c : Dev nD) (t : Fin cfg1.N) (n : Fin 512) :
    (iblk1 V c 4 t : Vec Ideal S512x1 .f32) (ix2 n (0 : Fin 1)) = mA1 V c (ix2 n (0 : Fin 1)) := by
  obtain ⟨-, -, -, -, -, -, -, -, e0, e1, -⟩ := idxs1 t
  have h : (((cfg1.win 4).blk t).view.emb (ix2 n (0 : Fin 1)) : S512x1.Idx) = ix2 n (0 : Fin 1) := by
    funext a; apply Fin.ext
    match a with
    | ⟨0, _⟩ => show win1_4.index t (0 : Fin 2) * 512 + 1 * n.val = n.val; rw [e0] <;> omega
    | ⟨1, _⟩ => show win1_4.index t (1 : Fin 2) * 1 + 1 * (0 : Fin 1).val = (0 : Fin 1).val; omega
  show V c (Pipeline.arrRef spec1 4) (((cfg1.win 4).blk t).view.emb (ix2 n (0 : Fin 1))) = V c (Pipeline.arrRef spec1 4) (ix2 n (0 : Fin 1))
  rw [h] <;> rfl

/-- The row sums' block is the whole array. -/
theorem iblk1_5_apply (c : Dev nD) (t : Fin cfg1.N) (n : Fin 512) :
    (iblk1 V c 5 t : Vec Ideal S512x1 .f32) (ix2 n (0 : Fin 1)) = lA1 V c (ix2 n (0 : Fin 1)) := by
  obtain ⟨-, -, -, -, -, -, -, -, -, -, e0, e1, -⟩ := idxs1 t
  have h : (((cfg1.win 5).blk t).view.emb (ix2 n (0 : Fin 1)) : S512x1.Idx) = ix2 n (0 : Fin 1) := by
    funext a; apply Fin.ext
    match a with
    | ⟨0, _⟩ => show win1_5.index t (0 : Fin 2) * 512 + 1 * n.val = n.val; rw [e0] <;> omega
    | ⟨1, _⟩ => show win1_5.index t (1 : Fin 2) * 1 + 1 * (0 : Fin 1).val = (0 : Fin 1).val; omega
  show V c (Pipeline.arrRef spec1 5) (((cfg1.win 5).blk t).view.emb (ix2 n (0 : Fin 1))) = V c (Pipeline.arrRef spec1 5) (ix2 n (0 : Fin 1))
  rw [h] <;> rfl

/-- The extra terms' block is the whole array. -/
theorem iblk1_6_apply (c : Dev nD) (t : Fin cfg1.N) (n : Fin 512) :
    (iblk1 V c 6 t : Vec Ideal S512x1 .f32) (ix2 n (0 : Fin 1)) = exA1 V c (ix2 n (0 : Fin 1)) := by
  obtain ⟨-, -, -, -, -, -, -, -, -, -, -, -, e0, e1, -⟩ := idxs1 t
  have h : (((cfg1.win 6).blk t).view.emb (ix2 n (0 : Fin 1)) : S512x1.Idx) = ix2 n (0 : Fin 1) := by
    funext a; apply Fin.ext
    match a with
    | ⟨0, _⟩ => show win1_6.index t (0 : Fin 2) * 512 + 1 * n.val = n.val; rw [e0] <;> omega
    | ⟨1, _⟩ => show win1_6.index t (1 : Fin 2) * 1 + 1 * (0 : Fin 1).val = (0 : Fin 1).val; omega
  show V c (Pipeline.arrRef spec1 6) (((cfg1.win 6).blk t).view.emb (ix2 n (0 : Fin 1))) = V c (Pipeline.arrRef spec1 6) (ix2 n (0 : Fin 1))
  rw [h] <;> rfl

/-! ## The scratch and the tile's logits -/

/-- The scratch holds the projected hidden rows. -/
theorem y1_apply (c : Dev nD) (n : Fin 512) (e : Fin embDim1) : y1 V c (ix2 n e) = yrow1 V c n e := by
  unfold y1 yrow1
  refine (k1_pay1_apply (iblk1 V c 0 pt1_0) (iblk1 V c 1 pt1_0) n e).trans ?_
  exact Finset.sum_congr rfl fun k _ =>
    congrArg₂ (fun a b : EReal => a * b) (iblk1_0_apply V c pt1_0 n k) (iblk1_1_apply V c pt1_0 e k)

/-- The tile's masked logit at lane j is the masked logit at the tile's column j of the padded width. -/
theorem logit1_eq (c : Dev nD) (t : Fin cfg1.N) (n : Fin 512) (j : Fin tileWidth1)
    (hc : win1_7.index t (1 : Fin 2) * tileWidth1 + j.val < 2 * tilesPerHalf1 * tileWidth1) :
    k1_logit (grid1.coords t) (y1 V c) (iblk1 V c 2 t) (iblk1 V c 3 t) n j
      = xz1 V c n ⟨win1_7.index t (1 : Fin 2) * tileWidth1 + j.val, hc⟩ := by
  obtain ⟨-, -, -, -, -, -, -, -, -, -, -, -, -, -, -, e1, -⟩ := idxs1 t
  unfold k1_logit xz1
  by_cases hv : win1_7.index t (1 : Fin 2) * tileWidth1 + j.val < validCols1
  · rw [if_pos (show (((grid1.coords t) 0).val * tilesPerHalf1 + ((grid1.coords t) 1).val) * tileWidth1 + j.val < validCols1 from e1 ▸ hv), if_pos hv]
    exact congrArg₂ (fun a b : EReal => a + b)
      (Finset.sum_congr rfl fun e _ => congrArg₂ (fun a b : EReal => a * b) (y1_apply V c n e) (iblk1_2_apply V c t j e hc))
      (iblk1_3_apply V c t j hc)
  · rw [if_neg (show ¬ (((grid1.coords t) 0).val * tilesPerHalf1 + ((grid1.coords t) 1).val) * tileWidth1 + j.val < validCols1 from e1 ▸ hv), if_neg hv]

/-! ## What a point writes back, and the array after the launch -/

/-- What the body leaves in the output's buffer at point t, at row n and lane j, is the array function at an index
    with row n and the tile's column j. -/
theorem out1_7_at (c : Dev nD) (t : Fin cfg1.N) (n : Fin 512) (j : Fin tileWidth1) (i : S512x20480.Idx)
    (h0 : (i 0).val = n.val) (h1 : (i 1).val = win1_7.index t (1 : Fin 2) * tileWidth1 + j.val) :
    out1_7 V c t (ix2 n j) = outG1 V c i := by
  have hc : win1_7.index t (1 : Fin 2) * tileWidth1 + j.val < 2 * tilesPerHalf1 * tileWidth1 := h1 ▸ (i 1).isLt
  have hi0 : i 0 = n := Fin.ext h0
  have hi1 : i 1 = ⟨win1_7.index t (1 : Fin 2) * tileWidth1 + j.val, hc⟩ := Fin.ext h1
  unfold out1_7 outG1
  rw [hi0, hi1]
  refine (k1_pay2_apply (grid1.coords t) (y1 V c) (iblk1 V c 2 t) (iblk1 V c 3 t) (iblk1 V c 4 t) (iblk1 V c 5 t) (iblk1 V c 6 t) n j).trans ?_
  exact congrArg₂ (fun a b : EReal => a + b)
    (congrArg₂ (fun a b : EReal => a - b)
      (congrArg₂ (fun a b : EReal => a - b) (logit1_eq V c t n j hc) (iblk1_4_apply V c t n))
      (congrArg Ideal.log (iblk1_5_apply V c t n)))
    (iblk1_6_apply V c t n)

/-- What point t writes back is block t of the array function. -/
theorem flushed1_7_eq (c : Dev nD) (t : Fin cfg1.N) :
    (dat1 V c).flushed 7 t = ((cfg1.win 7).blk t).view.read (Elt Ideal) (outG1 V c) := by
  obtain ⟨-, -, -, -, -, -, -, -, -, -, -, -, -, -, e0, -, -⟩ := idxs1 t
  show (cfg1.win 7).cut (grid1.coords t) ((dat1 V c).after 7 t) = _
  rw [after1_7]
  funext y
  obtain ⟨n, j, rfl⟩ : ∃ (n : Fin 512) (j : Fin tileWidth1), y = ix2 n j := ⟨y 0, y 1, eq_ix2 y⟩
  show out1_7 V c t (ix2 n j) = outG1 V c (((cfg1.win 7).blk t).view.emb (ix2 n j))
  refine out1_7_at V c t n j _ ?_ ?_
  · show win1_7.index t (0 : Fin 2) * 512 + 1 * n.val = n.val
    rw [e0]; omega
  · show win1_7.index t (1 : Fin 2) * tileWidth1 + 1 * j.val = win1_7.index t (1 : Fin 2) * tileWidth1 + j.val
    omega

/-- An index of the output array is in point t's block iff each coordinate is in the block's range on its axis. -/
theorem memblk1 (t : Fin cfg1.N) (i : S512x20480.Idx) :
    i ∈ ((cfg1.win 7).blk t).view.set ↔ ∀ a : Fin 2, win1_7.index t a * S512x2048.size a ≤ (i a).val ∧ (i a).val < win1_7.index t a * S512x2048.size a + S512x2048.size a := by
  show i ∈ ((View.whole main_v49).slice (win1_7.rect t)).set ↔ _
  rw [View.set_slice_whole, Rect.mem_set_unit]
  exact Iff.rfl

/-- Every index of the output array is in some point's block: column col is in the block of the point whose tile
    is col / tileWidth. -/
theorem cover1 (i : S512x20480.Idx) :
    ∃ t : Fin cfg1.N, (cfg1.win 7).flush t = true ∧ i ∈ ((cfg1.win 7).blk t).view.set := by
  have hi0 : (i 0).val < 512 := (i 0).isLt
  have hi1 : (i 1).val < 2 * tilesPerHalf1 * tileWidth1 := (i 1).isLt
  have hw : 0 < tileWidth1 := by decide
  have hq : (i 1).val / tileWidth1 < 2 * tilesPerHalf1 := Nat.div_lt_of_lt_mul (by rw [Nat.mul_comm]; exact hi1)
  obtain ⟨t, ht⟩ := onto1 ⟨(i 1).val / tileWidth1, hq⟩
  obtain ⟨-, -, -, -, -, -, -, -, -, -, -, -, -, -, e0, -, -⟩ := idxs1 t
  refine ⟨t, flush1_7 t, ?_⟩
  rw [memblk1]
  intro a
  match a with
  | ⟨0, _⟩ =>
    show win1_7.index t (0 : Fin 2) * 512 ≤ (i 0).val ∧ (i 0).val < win1_7.index t (0 : Fin 2) * 512 + 512
    rw [e0]; omega
  | ⟨1, _⟩ =>
    show win1_7.index t (1 : Fin 2) * tileWidth1 ≤ (i 1).val ∧ (i 1).val < win1_7.index t (1 : Fin 2) * tileWidth1 + tileWidth1
    rw [ht]
    exact ⟨Nat.div_mul_le_self _ _, Nat.lt_div_mul_add hw⟩

/-- The output array after the launch is the array function. -/
theorem out1_all (c : Dev nD) : (dat1 V c).arrAt 7 cfg1.N = outG1 V c :=
  (dat1 V c).arrAt_eq_of_cover 7 (outG1 V c) (fun t _ => flushed1_7_eq V c t) cover1

/-- THE RESULT: at row n and a real column col the output array holds the logit less the row's maximum and the
    logarithm of the row's sum, plus the row's extra term. -/
theorem out1_valid (c : Dev nD) (n : Fin 512) (col : Fin (2 * tilesPerHalf1 * tileWidth1)) (hv : col.val < validCols1) :
    (dat1 V c).arrAt 7 cfg1.N (ix2 n col)
      = ((zrow1 V c n col.val - mA1 V c (ix2 n (0 : Fin 1))) - Ideal.log (lA1 V c (ix2 n (0 : Fin 1))))
          + exA1 V c (ix2 n (0 : Fin 1)) := by
  have hx : xz1 V c n col = zrow1 V c n col.val := by
    unfold xz1 zrow1
    rw [if_pos hv, dif_pos col.isLt]
    rfl
  refine (congrFun (out1_all V c) (ix2 n col)).trans ?_
  show ((xz1 V c n col - mA1 V c (ix2 n (0 : Fin 1))) - Ideal.log (lA1 V c (ix2 n (0 : Fin 1)))) + exA1 V c (ix2 n (0 : Fin 1)) = _
  rw [hx]

end Cert.KernelIdeal.Hand

end
-- ==== Proof.KernelHead.lean ====
/-
  The head (launches 0 and 1): what launch 1 leaves in its output array, row by row, and the head's log-probabilities
  of the three tail clusters.

  The score row each of the two launches computes for row r = 4·s + b from its window arrays is, below 20000, the
  shortlist score of the token (s, b) (zrow0_score, zrow1_score); the three cluster logits the host computes are the
  cluster scores (xlogit_eq). Launch 0 leaves the two halves' running maxima and sums of the masked tiles of the row; the
  host merges them and steps the three cluster logits onto the merged pair. Launch 1 writes, at a shortlist column, the
  score less that maximum less the logarithm of that sum: the log-softmax of the head row (the 20000 shortlist scores
  followed by the three cluster scores) at the column (out8_eq). A cluster logit less the same two numbers is the head
  row's log-softmax at the cluster's column (xlogprob_eq).
-/
import proofs.«124427_j55336358642036_2_alg».proof.Proof.KernelArgs
import proofs.«124427_j55336358642036_2_alg».proof.Proof.HostGlue2
import proofs.«124427_j55336358642036_2_alg».proof.Proof.Assemble
import proofs.«124427_j55336358642036_2_alg».proof.Proof.Stats0Value3
import proofs.«124427_j55336358642036_2_alg».proof.Proof.Write1Value
import proofs.«124427_j55336358642036_2_alg».proof.Proof.Sizes

set_option maxRecDepth 16384

noncomputable section

namespace Cert.KernelIdeal.Hand

open Cert.KernelIdeal.Gen Cert.KernelIdeal.GenP Cert.Sizes
open Idealize.ShloMosaic Idealize.ShloMosaic.TcCoe
open Idealize.ShloMosaic.ValueIdx
open Cert.OnlineSoftmax
open scoped BigOperators

variable (m : (ℓ : Loc nD τ sig) → Buf (Elt Ideal) ℓ)

/-- The score row launch 0 computes from its window arrays is the shortlist score below 20000. -/
theorem zrow0_score (c : Dev nD) (r : Fin 512) (s : Fin 128) (b : Fin 4) (hr : r.val = 4 * s.val + b.val)
    (col : ℕ) (hc : col < validCols0) :
    zrow0 (rd (V5 m)) c r col
      = Cert.Spec.score ((kArgs m c).hidden s b) (kArgs m c).proj0 (kArgs m c).W0 (kArgs m c).b0 col := by
  have hcp : col < 2 * tilesPerHalf0 * tileWidth0 := lt_of_lt_of_le hc (by decide)
  unfold zrow0
  rw [dif_pos hcp]
  simp only [yrow0]
  refine Cert.Spec.padded_eq_score (npad := 2 * tilesPerHalf0 * tileWidth0) _ _ _ _
    (fun k => Stats0_hidA (rd (V5 m)) c (ix2 r k))
    (fun e k => Stats0_prjA (rd (V5 m)) c (ix2 e k))
    (fun j e => Stats0_wA (rd (V5 m)) c (ix2 j e))
    (fun j => Stats0_bA (rd (V5 m)) c (ix2 (0 : Fin 1) j)) ?_ ?_ ?_ ?_ hc hcp
  · intro k
    show (V5 m c main_v1 : S512x1024.Idx → EReal) (ix2 r k) = _
    rw [V5_v1 m]
    exact hid_eq m c r s b hr k
  · intro e k
    show (V5 m c main_v2 : S1024x1024.Idx → EReal) (ix2 e k) = _
    rw [V5_v2 m]
    rfl
  · intro j h e
    show (V5 m c main_v4 : S20480x1024.Idx → EReal) (ix2 j e) = _
    rw [V5_v4 m]
    unfold padRows
    rw [dif_pos h]
    rfl
  · intro j h
    show (V5 m c main_v6 : S1x20480.Idx → EReal) (ix2 (0 : Fin 1) j) = _
    rw [V5_v6 m]
    unfold padVec
    rw [dif_pos h]
    rfl

/-- The score row launch 1 computes from its window arrays is the shortlist score below 20000. -/
theorem zrow1_score (c : Dev nD) (r : Fin 512) (s : Fin 128) (b : Fin 4) (hr : r.val = 4 * s.val + b.val)
    (col : ℕ) (hc : col < validCols1) :
    zrow1 (rd (V7 m (outs m))) c r col
      = Cert.Spec.score ((kArgs m c).hidden s b) (kArgs m c).proj0 (kArgs m c).W0 (kArgs m c).b0 col := by
  have hcp : col < 2 * tilesPerHalf1 * tileWidth1 := lt_of_lt_of_le hc (by decide)
  unfold zrow1
  rw [dif_pos hcp]
  simp only [yrow1]
  refine Cert.Spec.padded_eq_score (npad := 2 * tilesPerHalf1 * tileWidth1) _ _ _ _
    (fun k => hidA1 (rd (V7 m (outs m))) c (ix2 r k))
    (fun e k => prjA1 (rd (V7 m (outs m))) c (ix2 e k))
    (fun j e => wA1 (rd (V7 m (outs m))) c (ix2 j e))
    (fun j => bA1 (rd (V7 m (outs m))) c (ix2 (0 : Fin 1) j)) ?_ ?_ ?_ ?_ hc hcp
  · intro k
    show (V7 m (outs m) c main_v1 : S512x1024.Idx → EReal) (ix2 r k) = _
    rw [V7_v1 m (outs m)]
    exact hid_eq m c r s b hr k
  · intro e k
    show (V7 m (outs m) c main_v2 : S1024x1024.Idx → EReal) (ix2 e k) = _
    rw [V7_v2 m (outs m)]
    rfl
  · intro j h e
    show (V7 m (outs m) c main_v4 : S20480x1024.Idx → EReal) (ix2 j e) = _
    rw [V7_v4 m (outs m)]
    unfold padRows
    rw [dif_pos h]
    rfl
  · intro j h
    show (V7 m (outs m) c main_v6 : S1x20480.Idx → EReal) (ix2 (0 : Fin 1) j) = _
    rw [V7_v6 m (outs m)]
    unfold padVec
    rw [dif_pos h]
    rfl

/-- The host's cluster logit q of row r = 4·s + b is the token's cluster score. -/
theorem xlogit_eq (c : Dev nD) (r : Fin 512) (s : Fin 128) (b : Fin 4) (hr : r.val = 4 * s.val + b.val) (q : Fin 3) :
    xlogit m c r q = Cert.Spec.clusterScore (kArgs m c) ((kArgs m c).hidden s b) q := by
  unfold xlogit y0 Cert.Spec.clusterScore Cert.Spec.project
  simp only [hid_eq m c r s b hr]
  rfl

/-- The two halves' statistics launch 0 leaves for row r are the folds of the row's masked tiles. -/
theorem head_parts (c : Dev nD) (r : Fin 512) :
    (∀ h : Fin 2, (outs m 6 main_v7_0 c : S2x512x1.Idx → EReal) (ix3 h r (0 : Fin 1))
        = (run (fun t => xrow0 (rd (V5 m)) c r (h.val * tilesPerHalf0 + t)) tilesPerHalf0).1)
      ∧ ∀ h : Fin 2, (outs m 6 main_v7_1 c : S2x512x1.Idx → EReal) (ix3 h r (0 : Fin 1))
        = (run (fun t => xrow0 (rd (V5 m)) c r (h.val * tilesPerHalf0 + t)) tilesPerHalf0).2 :=
  ⟨fun h => by rw [outs_6_0 m c]; exact Stats0_m_parts (rd (V5 m)) c h r,
   fun h => by rw [outs_6_1 m c]; exact Stats0_l_parts (rd (V5 m)) c h r⟩

/-- What launch 1 writes at row r = 4·s + b and a shortlist column: the head row's log-softmax there. -/
theorem out8_eq (c : Dev nD) (hA : Cert.Spec.ArgsReal (kArgs m c)) (r : Fin 512) (s : Fin 128) (b : Fin 4)
    (hr : r.val = 4 * s.val + b.val) (col : Fin (2 * tilesPerHalf1 * tileWidth1)) (hv : col.val < validCols1) :
    (outs m 8 main_v49 c : S512x20480.Idx → EReal) (ix2 r col)
      = logSoftmax 20003 (Cert.Spec.headRow (kArgs m c) ((kArgs m c).hidden s b)) col.val := by
  rw [outs_8 m c, out1_valid (rd (V7 m (outs m))) c r col hv]
  have hmA : mA1 (rd (V7 m (outs m))) c (ix2 r (0 : Fin 1)) = headM m (outs m) c r := by
    show (V7 m (outs m) c main_v33 : S512x1.Idx → EReal) (ix2 r (0 : Fin 1)) = _
    rw [V7_v33 m (outs m)]
  have hlA : lA1 (rd (V7 m (outs m))) c (ix2 r (0 : Fin 1)) = headL m (outs m) c r := by
    show (V7 m (outs m) c main_v42 : S512x1.Idx → EReal) (ix2 r (0 : Fin 1)) = _
    rw [V7_v42 m (outs m)]
  have hex : exA1 (rd (V7 m (outs m))) c (ix2 r (0 : Fin 1)) = (0 : EReal) := by
    show (V7 m (outs m) c main_v48 : S512x1.Idx → EReal) (ix2 r (0 : Fin 1)) = _
    rw [V7_v48 m (outs m)]
  rw [hex]
  exact Cert.Spec.head_row (kArgs m c) (T := tilesPerHalf0) hA (fun k => hA.hidden s b k)
    (zrow0 (rd (V5 m)) c r) (zrow1 (rd (V7 m (outs m))) c r)
    (fun col hc => zrow0_score m c r s b hr col hc) (fun col hc => zrow1_score m c r s b hr col hc)
    (xrow0_tiled (rd (V5 m)) c r) (by decide) (by decide)
    (fun h => (outs m 6 main_v7_0 c : S2x512x1.Idx → EReal) (ix3 h r (0 : Fin 1)))
    (fun h => (outs m 6 main_v7_1 c : S2x512x1.Idx → EReal) (ix3 h r (0 : Fin 1)))
    (head_parts m c r).1 (head_parts m c r).2
    (xlogit m c r) (fun q => xlogit_eq m c r s b hr q) hmA hlA hv rfl

/-- The head's log-probability of tail cluster q for row r = 4·s + b: the head row's log-softmax at column 20000 + q. -/
theorem xlogprob_eq (c : Dev nD) (hA : Cert.Spec.ArgsReal (kArgs m c)) (r : Fin 512) (s : Fin 128) (b : Fin 4)
    (hr : r.val = 4 * s.val + b.val) (q : Fin 3) :
    xlogprob m (outs m) c r q
      = logSoftmax 20003 (Cert.Spec.headRow (kArgs m c) ((kArgs m c).hidden s b)) (20000 + q.val) := by
  unfold xlogprob
  exact Cert.Spec.head_extra (kArgs m c) (T := tilesPerHalf0) hA (fun k => hA.hidden s b k)
    (zrow0 (rd (V5 m)) c r) (fun col hc => zrow0_score m c r s b hr col hc)
    (xrow0_tiled (rd (V5 m)) c r) (by decide) (by decide)
    (fun h => (outs m 6 main_v7_0 c : S2x512x1.Idx → EReal) (ix3 h r (0 : Fin 1)))
    (fun h => (outs m 6 main_v7_1 c : S2x512x1.Idx → EReal) (ix3 h r (0 : Fin 1)))
    (head_parts m c r).1 (head_parts m c r).2
    (xlogit m c r) (fun q => xlogit_eq m c r s b hr q) rfl rfl q

end Cert.KernelIdeal.Hand

end
-- ==== Proof.Stats2Pay.lean ====
/-
  The statistics launch of one vocabulary cluster, read at an index at the ideal float values.

  Every grid point (half h, tile t) forms the logit tile  y · Wᵀ + bias  of its 512 rows against its block of
  tileWidth columns, masks the columns from validCols on to the bottom element, and updates the row's running
  maximum m and running sum l:   m' = max m (max over the tile),   l' = l · exp (m − m') + Σ_j exp (x_j − m').
  At the first tile of a half it first forms the scratch block  hidden · projᵀ  and sets m to the bottom element
  and l to zero.  Each store of the body is a pure function of its loads; this module reads those functions at one
  index: the tile's entry (Stats2_logit), the new maximum and its stored form (Stats2_newMax, Stats2_storedMax),
  the rescaled old sum (Stats2_rescaled), the maximum spread over the tile (Stats2_bcastMax), the new sum
  (Stats2_newSum), the first-tile stores (Stats2_scratch, Stats2_initMax, Stats2_initSum), and in one statement the
  pair (m', l') as one step of the online softmax on the tile (Stats2_step).
-/
import proofs.«124427_j55336358642036_2_alg».proof.Proof.Gen.KernelIdeal.Skeleton
import proofs.«124427_j55336358642036_2_alg».proof.Proof.Sizes
import proofs.«124427_j55336358642036_2_alg».proof.Proof.LibOnlineSoftmax
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate
import Mathlib.Data.Finset.Lattice.Fold

noncomputable section

namespace Cert.KernelIdeal.Hand

open Idealize.ShloMosaic Idealize.ShloMosaic.ValueIdx Cert.KernelIdeal.Gen Cert.Sizes
open scoped BigOperators

/-! ## The tile -/

/-- The masked logit tile of grid point i = (h, t) at row n: column j of the tile is column (h·T + t)·tn + j of the
    cluster; below validCols it holds the row of y against row j of the weight block plus the bias, from there on
    the bottom element. -/
def Stats2_tile (i : grid2.Coords) (y : FVec Ideal S512x256 .bf16) (Wb : FVec Ideal S2048x256 .bf16)
    (b : FVec Ideal S1x2048 .f32) (n : Fin 512) (j : Fin tileWidth2) : EReal :=
  if ((i 0).val * tilesPerHalf2 + (i 1).val) * tileWidth2 + j.val < validCols2
  then ((∑ e : Fin embDim2, y (ix2 n e) * Wb (ix2 j e) : EReal) + (b (ix2 (0 : Fin 1) j) : EReal)) else ⊥

/-! ## Words: the column number and the mask bit -/

/-- An integer comparison of two vectors at an index compares the elements. -/
theorem Stats2_cmpi_apply {s : Shape} {w : ℕ} (p : CmpIPredicate) (a c : IVec s w) (q : s.Idx) :
    cmpi p a c q = IntOp.cmpi p (a q) (c q) := rfl

/-- An integer sum of two vectors at an index adds the elements. -/
theorem Stats2_addi_apply {s : Shape} {w : ℕ} (a c : IVec s w) (q : s.Idx) :
    addi a c q = IntOp.addi (a q) (c q) := rfl

/-- The 32-bit word the body computes for a column, lane + ((half · T + tile) · tn), is the word of the natural
    number (half · T + tile) · tn + lane. -/
theorem Stats2_word (h T t tn j : ℕ) :
    IntOp.addi (BitVec.ofNat 32 j)
        (Scalar.muli (Scalar.addi (Scalar.muli (BitVec.ofNat 32 h) (BitVec.ofNat 32 T)) (BitVec.ofNat 32 t)) (BitVec.ofNat 32 tn))
      = BitVec.ofNat 32 ((h * T + t) * tn + j) := by
  show BitVec.ofNat 32 j + (BitVec.ofNat 32 h * BitVec.ofNat 32 T + BitVec.ofNat 32 t) * BitVec.ofNat 32 tn = _
  rw [BitVec.ofNat_mul_ofNat, BitVec.ofNat_add_ofNat, BitVec.ofNat_mul_ofNat, BitVec.ofNat_add_ofNat, Nat.add_comm]

/-- Every column number of the grid is a small non-negative word. -/
theorem Stats2_colBound (h t j : ℕ) (hh : h < 2) (ht : t < tilesPerHalf2) (hj : j < tileWidth2) :
    (h * tilesPerHalf2 + t) * tileWidth2 + j < 2 ^ 31 := by
  unfold tilesPerHalf2 at *
  unfold tileWidth2 at *
  omega

/-! ## The two products -/

theorem Stats2_lhsW_0 (q : S512x2048.Idx) (k : dot_S512x256_S2048x256_S512x2048_1_1_0_0_n_n.contr.Idx) :
    (dot_S512x256_S2048x256_S512x2048_1_1_0_0_n_n.lhsIdx q k 0).val = (q 0).val := by
  unfold DotDims.lhsIdx
  rw [dif_neg (show ¬(0 : Fin S512x256.rank) ∈ dot_S512x256_S2048x256_S512x2048_1_1_0_0_n_n.lhsBatch by decide), dif_pos (show (0 : Fin S512x256.rank) ∈ dot_S512x256_S2048x256_S512x2048_1_1_0_0_n_n.lhsNonContracting by decide)]
  rfl
theorem Stats2_lhsW_1 (q : S512x2048.Idx) (k : dot_S512x256_S2048x256_S512x2048_1_1_0_0_n_n.contr.Idx) :
    (dot_S512x256_S2048x256_S512x2048_1_1_0_0_n_n.lhsIdx q k 1).val = (k ⟨0, by decide⟩).val :=
  dot_S512x256_S2048x256_S512x2048_1_1_0_0_n_n.lhsIdx_val_of_single rfl q k
theorem Stats2_rhsW_0 (q : S512x2048.Idx) (k : dot_S512x256_S2048x256_S512x2048_1_1_0_0_n_n.contr.Idx) :
    (dot_S512x256_S2048x256_S512x2048_1_1_0_0_n_n.rhsIdx q k 0).val = (q 1).val := by
  unfold DotDims.rhsIdx
  rw [dif_neg (show ¬(0 : Fin S2048x256.rank) ∈ dot_S512x256_S2048x256_S512x2048_1_1_0_0_n_n.rhsBatch by decide), dif_pos (show (0 : Fin S2048x256.rank) ∈ dot_S512x256_S2048x256_S512x2048_1_1_0_0_n_n.rhsNonContracting by decide)]
  rfl
theorem Stats2_rhsW_1 (q : S512x2048.Idx) (k : dot_S512x256_S2048x256_S512x2048_1_1_0_0_n_n.contr.Idx) :
    (dot_S512x256_S2048x256_S512x2048_1_1_0_0_n_n.rhsIdx q k 1).val = (k ⟨0, by decide⟩).val :=
  dot_S512x256_S2048x256_S512x2048_1_1_0_0_n_n.rhsIdx_val_of_single rfl q k

/-- The tile's product at (n, j): row n of y against row j of the weight block. -/
theorem Stats2_dotW (y : FVec Ideal S512x256 .bf16) (Wb : FVec Ideal S2048x256 .bf16) (n : Fin 512) (j : Fin tileWidth2) :
    matmul (F := Ideal) dot_S512x256_S2048x256_S512x2048_1_1_0_0_n_n none y Wb (constant (F := Ideal) S512x2048 .f32 0x00000000#32) (ix2 n j)
      = ∑ e : Fin embDim2, y (ix2 n e) * Wb (ix2 j e) := by
  simp only [matmul]
  rw [Ideal.matmul_constant_zero_apply, ← Equiv.sum_comp (contrEquiv1 dot_S512x256_S2048x256_S512x2048_1_1_0_0_n_n embDim2 rfl rfl).symm]
  refine Finset.sum_congr rfl fun e _ => ?_
  have he := contrEquiv1_symm_val dot_S512x256_S2048x256_S512x2048_1_1_0_0_n_n embDim2 rfl rfl e
  have el : dot_S512x256_S2048x256_S512x2048_1_1_0_0_n_n.lhsIdx (ix2 n j) ((contrEquiv1 dot_S512x256_S2048x256_S512x2048_1_1_0_0_n_n embDim2 rfl rfl).symm e) = ix2 n e := funext fun a => Fin.ext (by
    match a with
    | ⟨0, _⟩ => exact Stats2_lhsW_0 _ _
    | ⟨1, _⟩ => exact (Stats2_lhsW_1 _ _).trans he)
  have er : dot_S512x256_S2048x256_S512x2048_1_1_0_0_n_n.rhsIdx (ix2 n j) ((contrEquiv1 dot_S512x256_S2048x256_S512x2048_1_1_0_0_n_n embDim2 rfl rfl).symm e) = ix2 j e := funext fun a => Fin.ext (by
    match a with
    | ⟨0, _⟩ => exact Stats2_rhsW_0 _ _
    | ⟨1, _⟩ => exact (Stats2_rhsW_1 _ _).trans he)
  rw [el, er]

theorem Stats2_lhsP_0 (q : S512x256.Idx) (k : dot_S512x1024_S256x1024_S512x256_1_1_0_0_n_n.contr.Idx) :
    (dot_S512x1024_S256x1024_S512x256_1_1_0_0_n_n.lhsIdx q k 0).val = (q 0).val := by
  unfold DotDims.lhsIdx
  rw [dif_neg (show ¬(0 : Fin S512x1024.rank) ∈ dot_S512x1024_S256x1024_S512x256_1_1_0_0_n_n.lhsBatch by decide), dif_pos (show (0 : Fin S512x1024.rank) ∈ dot_S512x1024_S256x1024_S512x256_1_1_0_0_n_n.lhsNonContracting by decide)]
  rfl
theorem Stats2_lhsP_1 (q : S512x256.Idx) (k : dot_S512x1024_S256x1024_S512x256_1_1_0_0_n_n.contr.Idx) :
    (dot_S512x1024_S256x1024_S512x256_1_1_0_0_n_n.lhsIdx q k 1).val = (k ⟨0, by decide⟩).val :=
  dot_S512x1024_S256x1024_S512x256_1_1_0_0_n_n.lhsIdx_val_of_single rfl q k
theorem Stats2_rhsP_0 (q : S512x256.Idx) (k : dot_S512x1024_S256x1024_S512x256_1_1_0_0_n_n.contr.Idx) :
    (dot_S512x1024_S256x1024_S512x256_1_1_0_0_n_n.rhsIdx q k 0).val = (q 1).val := by
  unfold DotDims.rhsIdx
  rw [dif_neg (show ¬(0 : Fin S256x1024.rank) ∈ dot_S512x1024_S256x1024_S512x256_1_1_0_0_n_n.rhsBatch by decide), dif_pos (show (0 : Fin S256x1024.rank) ∈ dot_S512x1024_S256x1024_S512x256_1_1_0_0_n_n.rhsNonContracting by decide)]
  rfl
theorem Stats2_rhsP_1 (q : S512x256.Idx) (k : dot_S512x1024_S256x1024_S512x256_1_1_0_0_n_n.contr.Idx) :
    (dot_S512x1024_S256x1024_S512x256_1_1_0_0_n_n.rhsIdx q k 1).val = (k ⟨0, by decide⟩).val :=
  dot_S512x1024_S256x1024_S512x256_1_1_0_0_n_n.rhsIdx_val_of_single rfl q k

/-- The scratch block's product at (n, e): row n of the hidden block against row e of the projection. -/
theorem Stats2_dotP (hid : FVec Ideal S512x1024 .bf16) (prj : FVec Ideal S256x1024 .bf16) (n : Fin 512) (e : Fin embDim2) :
    matmul (F := Ideal) dot_S512x1024_S256x1024_S512x256_1_1_0_0_n_n none hid prj (constant (F := Ideal) S512x256 .f32 0x00000000#32) (ix2 n e)
      = ∑ k : Fin 1024, hid (ix2 n k) * prj (ix2 e k) := by
  simp only [matmul]
  rw [Ideal.matmul_constant_zero_apply, ← Equiv.sum_comp (contrEquiv1 dot_S512x1024_S256x1024_S512x256_1_1_0_0_n_n 1024 rfl rfl).symm]
  refine Finset.sum_congr rfl fun k _ => ?_
  have hk := contrEquiv1_symm_val dot_S512x1024_S256x1024_S512x256_1_1_0_0_n_n 1024 rfl rfl k
  have el : dot_S512x1024_S256x1024_S512x256_1_1_0_0_n_n.lhsIdx (ix2 n e) ((contrEquiv1 dot_S512x1024_S256x1024_S512x256_1_1_0_0_n_n 1024 rfl rfl).symm k) = ix2 n k := funext fun a => Fin.ext (by
    match a with
    | ⟨0, _⟩ => exact Stats2_lhsP_0 _ _
    | ⟨1, _⟩ => exact (Stats2_lhsP_1 _ _).trans hk)
  have er : dot_S512x1024_S256x1024_S512x256_1_1_0_0_n_n.rhsIdx (ix2 n e) ((contrEquiv1 dot_S512x1024_S256x1024_S512x256_1_1_0_0_n_n 1024 rfl rfl).symm k) = ix2 e k := funext fun a => Fin.ext (by
    match a with
    | ⟨0, _⟩ => exact Stats2_rhsP_0 _ _
    | ⟨1, _⟩ => exact (Stats2_rhsP_1 _ _).trans hk)
  rw [el, er]

/-! ## The tile's entry -/

/-- The named floor constant is the bottom element at the ideal values. -/
theorem Stats2_negBig : Named.named (F := Ideal) κ "neg_big" (φ := .f32) 0xFF333332#32 = ⊥ :=
  IdealRules.named_const.ideal_named_scalar _ _ _ _ rfl

/-- The masked logit the body forms, at (n, j), is the tile's entry. -/
theorem Stats2_logit (i : grid2.Coords) (y : FVec Ideal S512x256 .bf16) (Wb : FVec Ideal S2048x256 .bf16)
    (b : FVec Ideal S1x2048 .f32) (n : Fin 512) (j : Fin tileWidth2) :
    k2_pay6 (F := Ideal) i y Wb b (ix2 n j) = Stats2_tile i y Wb b n j := by
  unfold k2_pay6 Stats2_tile
  dsimp only
  rw [select_apply]
  unfold Scalar.select
  refine ite_congr (propext ?_) (fun _ => ?_) (fun _ => ?_)
  · rw [Stats2_cmpi_apply, Stats2_addi_apply, broadcast_apply, broadcast_apply, iota_single_apply, Stats2_word]
    unfold IntOp.cmpi
    exact StableHlo.Predicate.slt_ofNat_iff _ _ (Stats2_colBound _ _ _ (i 0).isLt (i 1).isLt j.isLt) (by decide)
  · rw [addf_apply, shapeCast_self, shapeCast_self, Stats2_dotW, broadcastTo_1b_ab_apply]
  · exact Stats2_negBig

/-! ## Layout steps of the running statistics -/

/-- A [512] vector viewed as a [512, 1] column reads its entry n at (n, c). -/
theorem Stats2_col_apply (v : FVec Ideal S512 .f32) (h : S512.ShapeCasts S512x1) (n : Fin 512) (c : Fin 1) :
    shapeCast S512x1 v h (ix2 n c) = v (ix1 n) :=
  shapeCast_apply v h _ _ (by
    have hc : c.val = 0 := by omega
    rw [Shape.rowMajor_val_one, Shape.rowMajor_val_two]
    show n.val = n.val * 1 + c.val
    omega)

/-- A [512, 1] column spread over the tile's lanes reads its entry n at (n, j). -/
theorem Stats2_spread_apply (v : FVec Ideal S512x1 .f32) (h : S512x1.Broadcasts S512x2048) (n : Fin 512) (j : Fin tileWidth2) :
    broadcastTo S512x2048 v h (ix2 n j) = v (ix2 n (0 : Fin 1)) := by
  refine broadcastTo_apply v h (ix2 n j) (ix2 n (0 : Fin 1)) fun ax => ?_
  match ax with
  | ⟨0, _⟩ => rfl
  | ⟨1, _⟩ => rfl

/-- The exponential of a vector at an index is the exponential of the element. -/
theorem Stats2_exp_apply {s : Shape} {φ : FTy} (a : FVec Ideal s φ) (q : s.Idx) : exp a q = Ideal.exp (a q) := rfl

/-- The index a lane reduction of the tile reads at row n and lane k. -/
theorem Stats2_lift (h : S512x2048.Reduces [1] S512) (n : Fin 512) (k : Fin tileWidth2) : h.lift (ix1 n) k = ix2 n k :=
  funext fun c => Fin.ext (by match c with | ⟨0, _⟩ => rfl | ⟨1, _⟩ => rfl)

/-- The row maximum over the tile's lanes, from the bottom element. -/
theorem Stats2_rowMax (x : FVec Ideal S512x2048 .f32) (h : S512x2048.Reduces [1] S512) (hφ : FKind.Formats .f32)
    (hacc : (0xFF800000#32 : BitVec 32) = 0xFF800000#32) (n : Fin 512) :
    multiReduction .maximumf [1] S512 x 0xFF800000#32 h hφ hacc (ix1 n) = Finset.univ.sup fun j : Fin tileWidth2 => x (ix2 n j) := by
  refine (Ideal.multiReduction_maximumf_single x 0xFF800000#32 h hφ hacc (ix1 n)).trans ?_
  have hb : (FloatOps.ofBits .f32 0xFF800000#32 : Ideal .f32) = ⊥ := by
    show Ideal.ofBits .f32 0xFF800000#32 = ⊥
    simp [Ideal.ofBits, Ideal.ieee]
  have hf : (x ∘ h.lift (ix1 n)) = fun j : Fin tileWidth2 => x (ix2 n j) :=
    funext fun k => congrArg x (Stats2_lift h n k)
  rw [hb, hf]
  rfl

/-- The row sum over the tile's lanes. -/
theorem Stats2_rowSum (x : FVec Ideal S512x2048 .f32) (h : S512x2048.Reduces [1] S512) (hφ : FKind.Formats .f32)
    (hacc : (0x00000000#32 : BitVec 32) = 0x00000000#32) (n : Fin 512) :
    multiReduction .add [1] S512 x 0x00000000#32 h hφ hacc (ix1 n) = ∑ j : Fin tileWidth2, x (ix2 n j) := by
  refine (Ideal.multiReduction_add_single x 0x00000000#32 h hφ hacc (ix1 n)).trans ?_
  exact Finset.sum_congr rfl fun k _ => congrArg x (Stats2_lift h n k)

/-! ## The running maximum -/

/-- The new running maximum at row n: the loaded one against the tile's maximum. -/
theorem Stats2_newMax (i : grid2.Coords) (y : FVec Ideal S512x256 .bf16) (Wb : FVec Ideal S2048x256 .bf16)
    (b : FVec Ideal S1x2048 .f32) (m : FVec Ideal S1x512x1 .f32) (n : Fin 512) (c : Fin 1) :
    k2_pay7 (F := Ideal) i y Wb b m (ix2 n c)
      = max (m (ix3 (0 : Fin 1) n (0 : Fin 1))) (Finset.univ.sup (Stats2_tile i y Wb b n)) := by
  obtain rfl : c = 0 := Subsingleton.elim _ _
  unfold k2_pay7
  rw [maximumf_apply, shapeCast_1ab_ab_apply, Stats2_col_apply, Stats2_rowMax]
  simp only [Stats2_logit]

/-- The block the body stores a [512, 1] column into reads the column. -/
theorem Stats2_pay2 (v : FVec Ideal S512x1 .f32) (u : Fin 1) (n : Fin 512) (c : Fin 1) :
    k2_pay2 (F := Ideal) v (ix3 u n c) = v (ix2 n c) := by
  unfold k2_pay2
  exact shapeCast_ab_1ab_apply v _ u n c

/-- The stored running maximum. -/
theorem Stats2_storedMax (i : grid2.Coords) (y : FVec Ideal S512x256 .bf16) (Wb : FVec Ideal S2048x256 .bf16)
    (b : FVec Ideal S1x2048 .f32) (m : FVec Ideal S1x512x1 .f32) (u : Fin 1) (n : Fin 512) (c : Fin 1) :
    k2_pay2 (k2_pay7 (F := Ideal) i y Wb b m) (ix3 u n c)
      = max (m (ix3 (0 : Fin 1) n (0 : Fin 1))) (Finset.univ.sup (Stats2_tile i y Wb b n)) := by
  rw [Stats2_pay2, Stats2_newMax]

/-- The old running sum rescaled to the new maximum. -/
theorem Stats2_rescaled (i : grid2.Coords) (y : FVec Ideal S512x256 .bf16) (Wb : FVec Ideal S2048x256 .bf16)
    (b : FVec Ideal S1x2048 .f32) (m m' l : FVec Ideal S1x512x1 .f32) (n : Fin 512) (c : Fin 1) :
    k2_pay8 (F := Ideal) i y Wb b m m' l (ix2 n c)
      = l (ix3 (0 : Fin 1) n (0 : Fin 1))
          * Ideal.exp (m' (ix3 (0 : Fin 1) n (0 : Fin 1))
              - max (m (ix3 (0 : Fin 1) n (0 : Fin 1))) (Finset.univ.sup (Stats2_tile i y Wb b n))) := by
  obtain rfl : c = 0 := Subsingleton.elim _ _
  unfold k2_pay8
  rw [mulf_apply, Stats2_exp_apply, subf_apply, shapeCast_1ab_ab_apply, shapeCast_1ab_ab_apply, Stats2_newMax]

/-- The new running maximum spread over the tile's lanes. -/
theorem Stats2_bcastMax (i : grid2.Coords) (y : FVec Ideal S512x256 .bf16) (Wb : FVec Ideal S2048x256 .bf16)
    (b : FVec Ideal S1x2048 .f32) (m : FVec Ideal S1x512x1 .f32) (n : Fin 512) (j : Fin tileWidth2) :
    k2_pay9 (F := Ideal) i y Wb b m (ix2 n j)
      = max (m (ix3 (0 : Fin 1) n (0 : Fin 1))) (Finset.univ.sup (Stats2_tile i y Wb b n)) := by
  unfold k2_pay9
  rw [Stats2_spread_apply, Stats2_newMax]

/-! ## The running sum -/

/-- The new running sum at row n: the rescaled old sum plus the tile's exponentials against the spread maximum. -/
theorem Stats2_newSum (x : FVec Ideal S512x2048 .f32) (r : FVec Ideal S512x1 .f32) (mb : FVec Ideal S512x2048 .f32)
    (u : Fin 1) (n : Fin 512) (c : Fin 1) :
    k2_pay1 (F := Ideal) x r mb (ix3 u n c)
      = r (ix2 n (0 : Fin 1)) + ∑ j : Fin tileWidth2, Ideal.exp (x (ix2 n j) - mb (ix2 n j)) := by
  obtain rfl : c = 0 := Subsingleton.elim _ _
  unfold k2_pay1
  rw [shapeCast_ab_1ab_apply, addf_apply, Stats2_col_apply, Stats2_rowSum]
  rfl

/-! ## The first tile's stores -/

/-- The scratch block at (n, e): the hidden row against the projection's row e (the narrowing to the scratch
    block's format is the identity on the ideal values). -/
theorem Stats2_scratch (hid : FVec Ideal S512x1024 .bf16) (prj : FVec Ideal S256x1024 .bf16) (n : Fin 512) (e : Fin embDim2) :
    k2_pay3 (F := Ideal) hid prj (ix2 n e) = ∑ k : Fin 1024, hid (ix2 n k) * prj (ix2 e k) := by
  unfold k2_pay3
  simp only [shapeCast_self, truncf_apply]
  exact Stats2_dotP hid prj n e

/-- The first tile sets the running maximum to the bottom element … -/
theorem Stats2_initMax : k2_pay4 (F := Ideal) = fun _ => ⊥ := by
  funext q
  obtain ⟨u, n, c, rfl⟩ : ∃ (u : Fin 1) (n : Fin 512) (c : Fin 1), q = ix3 u n c := ⟨q 0, q 1, q 2, eq_ix3 q⟩
  unfold k2_pay4
  rw [shapeCast_ab_1ab_apply, broadcast_apply, Stats2_negBig]

/-- … and the running sum to zero. -/
theorem Stats2_initSum : k2_pay5 (F := Ideal) = fun _ => 0 := by
  funext q
  obtain ⟨u, n, c, rfl⟩ : ∃ (u : Fin 1) (n : Fin 512) (c : Fin 1), q = ix3 u n c := ⟨q 0, q 1, q 2, eq_ix3 q⟩
  unfold k2_pay5
  rw [shapeCast_ab_1ab_apply, broadcast_apply]
  exact Ideal.ofBits_zero_f32

/-! ## One step of the online softmax -/

/-- The pair the body stores at row n — the new maximum and the new sum — is one step of the online softmax from
    the loaded pair on the grid point's tile. -/
theorem Stats2_step (i : grid2.Coords) (y : FVec Ideal S512x256 .bf16) (Wb : FVec Ideal S2048x256 .bf16)
    (b : FVec Ideal S1x2048 .f32) (m l : FVec Ideal S1x512x1 .f32) (n : Fin 512) :
    (k2_pay2 (k2_pay7 (F := Ideal) i y Wb b m) (ix3 (0 : Fin 1) n (0 : Fin 1)),
     k2_pay1 (k2_pay6 (F := Ideal) i y Wb b) (k2_pay8 (F := Ideal) i y Wb b m m l) (k2_pay9 (F := Ideal) i y Wb b m)
        (ix3 (0 : Fin 1) n (0 : Fin 1)))
      = Cert.OnlineSoftmax.step (m (ix3 (0 : Fin 1) n (0 : Fin 1)), l (ix3 (0 : Fin 1) n (0 : Fin 1))) (Stats2_tile i y Wb b n) := by
  rw [Stats2_storedMax, Stats2_newSum, Stats2_rescaled]
  simp only [Stats2_logit, Stats2_bcastMax]
  rfl

end Cert.KernelIdeal.Hand
-- ==== Proof.Stats2Value.lean ====
/-
  The statistics launch of one vocabulary cluster, read row by row at the ideal values.

  For one row n of the hidden activations the launch walks, in each half h of its grid, the tiles
  h·T, …, h·T + T − 1 of the row's logits z (the projected row times the padded weight's rows, plus the
  padded bias), masked to the bottom element from the cluster's last real column on. Each tile is one step of the
  online softmax on the pair (running maximum, running sum): so the pair a half ends with is the fold of those
  steps from (⊥, 0), and that is what the two statistics arrays hold at (h, n, 0) after the launch.

  Here: the row's data as functions of the four input arrays (the projected row, the logits, the masked tiles);
  each window's block read back as rows of its array (a block's coordinate is the block index times the block's
  size plus the coordinate inside the block, the block indices decided over the grid); one tile's update as one
  step of the fold; the fold inside a half by induction on the tile; and the arrays after the launch: each half's
  last point writes its block back, and the two blocks are the two halves of the array.
-/
import proofs.«124427_j55336358642036_2_alg».proof.Proof.Stats2Defs
import proofs.«124427_j55336358642036_2_alg».proof.Proof.Stats2Pay
import proofs.«124427_j55336358642036_2_alg».proof.Proof.LibOnlineSoftmax
import proofs.«124427_j55336358642036_2_alg».proof.Proof.Gen.KernelIdeal.Points
import Idealize.ShloMosaic.Lib.ValueIdx
import Idealize.ShloMosaic.Lib.Pipeline.Value

set_option maxRecDepth 16384

noncomputable section

namespace Cert.KernelIdeal.Hand

open Cert.KernelIdeal Cert.KernelIdeal.Gen Cert.Sizes
open Idealize.ShloMosaic Idealize.ShloMosaic.TcCoe Idealize.ShloMosaic.ValueIdx
open Idealize.SL Idealize.SL.Sem
open Idealize.ShloMosaic.Pipeline (Dat)
open scoped BigOperators

-- the contents of the TensorCore's buffers when the launch is entered, at the ideal values
variable (V : (c : Dev nD) → (b : Ref sig .tc) → Buf (Elt Ideal) ((c : Thread nD τ).loc b))

/-! ## The row's data, as functions of the four input arrays -/

/-- The hidden rows, the projection, the padded weight and the padded bias, as the launch finds them. -/
abbrev Stats2_hidA (c : Dev nD) : Vec Ideal S512x1024 .bf16 := V c (Pipeline.arrRef spec2 0)
abbrev Stats2_prjA (c : Dev nD) : Vec Ideal S256x1024 .bf16 := V c (Pipeline.arrRef spec2 1)
abbrev Stats2_wA (c : Dev nD) : Vec Ideal S20480x256 .bf16 := V c (Pipeline.arrRef spec2 2)
abbrev Stats2_bA (c : Dev nD) : Vec Ideal S1x20480 .f32 := V c (Pipeline.arrRef spec2 3)

/-- Row n of the hidden activations, projected: entry e. -/
def yrow2 (c : Dev nD) (n : Fin 512) (e : Fin embDim2) : EReal :=
  ∑ k : Fin 1024, Stats2_hidA V c (ix2 n k) * Stats2_prjA V c (ix2 e k)

/-- Row n's logit at column col of the padded weight: the projected row times the weight's row col, plus the bias
    at col (zero past the padded width, where nothing reads it). -/
def zrow2 (c : Dev nD) (n : Fin 512) (col : ℕ) : EReal :=
  if h : col < 2 * tilesPerHalf2 * tileWidth2 then
    (∑ e : Fin embDim2, yrow2 V c n e * Stats2_wA V c (ix2 (⟨col, h⟩ : Fin (2 * tilesPerHalf2 * tileWidth2)) e))
      + Stats2_bA V c (ix2 (0 : Fin 1) (⟨col, h⟩ : Fin (2 * tilesPerHalf2 * tileWidth2)))
  else 0

/-- Row n's logits cut into tiles, masked to the bottom element from the cluster's last real column on. -/
def xrow2 (c : Dev nD) (n : Fin 512) : ℕ → Fin tileWidth2 → EReal :=
  fun g j => if g * tileWidth2 + j.val < validCols2 then zrow2 V c n (g * tileWidth2 + j.val) else ⊥

theorem xrow2_tiled (c : Dev nD) (n : Fin 512) :
    Cert.OnlineSoftmax.Tiled (zrow2 V c n) validCols2 tileWidth2 (xrow2 V c n) := fun _ _ => rfl

/-! ## The grid: its size, and the windows' block indices at a point -/

theorem Stats2_N : cfg2.N = 2 * tilesPerHalf2 := N_2

theorem Stats2_T_pos : 0 < tilesPerHalf2 := by decide

/-- Point t of the grid is tile t of the row (the grid is the two halves, one after the other); the hidden rows and
    the projection are one block each; the weight's and the bias's block is the tile's; each statistics block is
    the half's. Decided over the grid. -/
theorem Stats2_idx : ∀ t : Fin cfg2.N,
    (grid2.coords t 0).val * tilesPerHalf2 + (grid2.coords t 1).val = t.val
    ∧ win2_0.index t (0 : Fin 2) = 0 ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = t.val
    ∧ win2_4.index t (0 : Fin 3) = t.val / tilesPerHalf2 ∧ win2_4.index t (1 : Fin 3) = 0 ∧ win2_4.index t (2 : Fin 3) = 0
    ∧ win2_5.index t (0 : Fin 3) = t.val / tilesPerHalf2 ∧ win2_5.index t (1 : Fin 3) = 0 ∧ win2_5.index t (2 : Fin 3) = 0 :=
  (by decide +kernel : ∀ t : Fin grid2.N, _)

/-- A column of tile t lies inside the padded width. -/
theorem Stats2_col_lt (t : Fin cfg2.N) (j : Fin tileWidth2) : t.val * tileWidth2 + j.val < 2 * tilesPerHalf2 * tileWidth2 := by
  have ht : t.val + 1 ≤ 2 * tilesPerHalf2 := Nat.lt_of_lt_of_eq t.isLt Stats2_N
  have h1 : t.val * tileWidth2 + j.val < (t.val + 1) * tileWidth2 := by rw [Nat.succ_mul]; have := j.isLt; omega
  exact Nat.lt_of_lt_of_le h1 (Nat.mul_le_mul_right _ ht)

/-! ## The blocks, read back as entries of their arrays -/

theorem Stats2_hidBlk_apply (c : Dev nD) (t : Fin cfg2.N) (n : Fin 512) (k : Fin 1024) :
    hidBlk2 V c t (ix2 n k) = Stats2_hidA V c (ix2 n k) := by
  obtain ⟨-, e0, e1, -⟩ := Stats2_idx t
  show V c (Pipeline.arrRef spec2 0) (((cfg2.win 0).blk t).view.emb (ix2 n k)) = V c (Pipeline.arrRef spec2 0) (ix2 n k)
  congr 1
  funext a; apply Fin.ext
  match a with
  | ⟨0, _⟩ => show win2_0.index t (0 : Fin 2) * 512 + 1 * n.val = n.val; rw [e0]; omega
  | ⟨1, _⟩ => show win2_0.index t (1 : Fin 2) * 1024 + 1 * k.val = k.val; rw [e1]; omega

theorem Stats2_prjBlk_apply (c : Dev nD) (t : Fin cfg2.N) (e : Fin embDim2) (k : Fin 1024) :
    prjBlk2 V c t (ix2 e k) = Stats2_prjA V c (ix2 e k) := by
  obtain ⟨-, -, -, e0, e1, -⟩ := Stats2_idx t
  show V c (Pipeline.arrRef spec2 1) (((cfg2.win 1).blk t).view.emb (ix2 e k)) = V c (Pipeline.arrRef spec2 1) (ix2 e k)
  congr 1
  funext a; apply Fin.ext
  match a with
  | ⟨0, _⟩ => show win2_1.index t (0 : Fin 2) * embDim2 + 1 * e.val = e.val; rw [e0]; omega
  | ⟨1, _⟩ => show win2_1.index t (1 : Fin 2) * 1024 + 1 * k.val = k.val; rw [e1]; omega

theorem Stats2_wBlk_apply (c : Dev nD) (t : Fin cfg2.N) (j : Fin tileWidth2) (e : Fin embDim2)
    (h : t.val * tileWidth2 + j.val < 2 * tilesPerHalf2 * tileWidth2) :
    wBlk2 V c t (ix2 j e) = Stats2_wA V c (ix2 (⟨t.val * tileWidth2 + j.val, h⟩ : Fin (2 * tilesPerHalf2 * tileWidth2)) e) := by
  obtain ⟨-, -, -, -, -, e0, e1, -⟩ := Stats2_idx t
  show V c (Pipeline.arrRef spec2 2) (((cfg2.win 2).blk t).view.emb (ix2 j e))
    = V c (Pipeline.arrRef spec2 2) (ix2 (⟨t.val * tileWidth2 + j.val, h⟩ : Fin (2 * tilesPerHalf2 * tileWidth2)) e)
  congr 1
  funext a; apply Fin.ext
  match a with
  | ⟨0, _⟩ => show win2_2.index t (0 : Fin 2) * tileWidth2 + 1 * j.val = t.val * tileWidth2 + j.val; rw [e0]; omega
  | ⟨1, _⟩ => show win2_2.index t (1 : Fin 2) * embDim2 + 1 * e.val = e.val; rw [e1]; omega

theorem Stats2_bBlk_apply (c : Dev nD) (t : Fin cfg2.N) (j : Fin tileWidth2)
    (h : t.val * tileWidth2 + j.val < 2 * tilesPerHalf2 * tileWidth2) :
    bBlk2 V c t (ix2 (0 : Fin 1) j) = Stats2_bA V c (ix2 (0 : Fin 1) (⟨t.val * tileWidth2 + j.val, h⟩ : Fin (2 * tilesPerHalf2 * tileWidth2))) := by
  obtain ⟨-, -, -, -, -, -, -, e0, e1, -⟩ := Stats2_idx t
  show V c (Pipeline.arrRef spec2 3) (((cfg2.win 3).blk t).view.emb (ix2 (0 : Fin 1) j))
    = V c (Pipeline.arrRef spec2 3) (ix2 (0 : Fin 1) (⟨t.val * tileWidth2 + j.val, h⟩ : Fin (2 * tilesPerHalf2 * tileWidth2)))
  congr 1
  funext a; apply Fin.ext
  match a with
  | ⟨0, _⟩ => show win2_3.index t (0 : Fin 2) * 1 + 1 * 0 = 0; omega
  | ⟨1, _⟩ => show win2_3.index t (1 : Fin 2) * tileWidth2 + 1 * j.val = t.val * tileWidth2 + j.val; rw [e1]; omega

/-! ## One tile's update is one step of the fold, at a row -/

theorem Stats2_stepAt_y (c : Dev nD) (t : Fin cfg2.N) (s : Stat2 Ideal) : (stepAt2 V c t s).y = s.y := rfl

/-- The tile of point t at row n, over a scratch that holds the projected row, is the row's masked tile t. -/
theorem Stats2_tile_eq (c : Dev nD) (t : Fin cfg2.N) (y : Vec Ideal S512x256 .bf16) (n : Fin 512)
    (hy : ∀ e : Fin embDim2, y (ix2 n e) = yrow2 V c n e) :
    Stats2_tile (grid2.coords t) y (wBlk2 V c t) (bBlk2 V c t) n = xrow2 V c n t.val := by
  obtain ⟨hc, -⟩ := Stats2_idx t
  funext j
  unfold Stats2_tile xrow2
  rw [hc]
  by_cases hv : t.val * tileWidth2 + j.val < validCols2
  · rw [if_pos hv, if_pos hv]
    unfold zrow2
    rw [dif_pos (Stats2_col_lt t j), Stats2_bBlk_apply V c t j (Stats2_col_lt t j)]
    congr 1
    exact Finset.sum_congr rfl fun e _ => by rw [hy e, Stats2_wBlk_apply V c t j e (Stats2_col_lt t j)]
  · rw [if_neg hv, if_neg hv]

theorem Stats2_stepAt_row (c : Dev nD) (t : Fin cfg2.N) (s : Stat2 Ideal) (n : Fin 512)
    (hy : ∀ e : Fin embDim2, s.y (ix2 n e) = yrow2 V c n e) :
    ((stepAt2 V c t s).m (ix3 (0 : Fin 1) n (0 : Fin 1)), (stepAt2 V c t s).l (ix3 (0 : Fin 1) n (0 : Fin 1)))
      = Cert.OnlineSoftmax.step (s.m (ix3 (0 : Fin 1) n (0 : Fin 1)), s.l (ix3 (0 : Fin 1) n (0 : Fin 1))) (xrow2 V c n t.val) := by
  rw [← Stats2_tile_eq V c t s.y n hy]
  exact Stats2_step (grid2.coords t) s.y (wBlk2 V c t) (bBlk2 V c t) s.m s.l n

/-! ## The fold inside a half -/

/-- A point of half h, tile τ, as a natural number, is below the grid's size; so the point's number is itself. -/
theorem Stats2_pt_val (h : Fin 2) (τ : ℕ) (hτ : τ < tilesPerHalf2) :
    (pt2 (h.val * tilesPerHalf2 + τ)).val = h.val * tilesPerHalf2 + τ := by
  have hh : h.val * tilesPerHalf2 ≤ 1 * tilesPerHalf2 := Nat.mul_le_mul_right _ (by have := h.isLt; omega)
  show (h.val * tilesPerHalf2 + τ) % cfg2.N = h.val * tilesPerHalf2 + τ
  refine Nat.mod_eq_of_lt ?_
  rw [Stats2_N]; omega

/-- What a half starts from, at a row: the projected row, the bottom element and zero. -/
theorem Stats2_start_y (c : Dev nD) (t : Fin cfg2.N) (n : Fin 512) (e : Fin embDim2) :
    (startAt2 V c t).y (ix2 n e) = yrow2 V c n e := by
  refine (Stats2_scratch (hidBlk2 V c t) (prjBlk2 V c t) n e).trans ?_
  unfold yrow2
  exact Finset.sum_congr rfl fun k _ => by rw [Stats2_hidBlk_apply V c t n k, Stats2_prjBlk_apply V c t e k]

theorem Stats2_start_ml (c : Dev nD) (t : Fin cfg2.N) (n : Fin 512) :
    ((startAt2 V c t).m (ix3 (0 : Fin 1) n (0 : Fin 1)), (startAt2 V c t).l (ix3 (0 : Fin 1) n (0 : Fin 1))) = ((⊥ : EReal), (0 : EReal)) := by
  show (k2_pay4 (F := Ideal) (ix3 (0 : Fin 1) n (0 : Fin 1)), k2_pay5 (F := Ideal) (ix3 (0 : Fin 1) n (0 : Fin 1))) = _
  rw [Stats2_initMax, Stats2_initSum]

/-- After tile τ of half h the pair at row n is the fold of the first τ + 1 steps over the half's tiles, and the
    scratch holds the projected row. -/
theorem Stats2_fold (c : Dev nD) (n : Fin 512) (h : Fin 2) (τ : ℕ) (hτ : τ < tilesPerHalf2) :
    ((stats2 V c (h.val * tilesPerHalf2 + τ)).m (ix3 (0 : Fin 1) n (0 : Fin 1)), (stats2 V c (h.val * tilesPerHalf2 + τ)).l (ix3 (0 : Fin 1) n (0 : Fin 1)))
        = Cert.OnlineSoftmax.run (fun t => xrow2 V c n (h.val * tilesPerHalf2 + t)) (τ + 1)
      ∧ ∀ e : Fin embDim2, (stats2 V c (h.val * tilesPerHalf2 + τ)).y (ix2 n e) = yrow2 V c n e := by
  induction τ with
  | zero =>
    have hmod : (h.val * tilesPerHalf2 + 0) % tilesPerHalf2 = 0 := by rw [Nat.add_zero]; exact Nat.mul_mod_left _ _
    rw [stats2_first V c _ hmod, Stats2_stepAt_y]
    refine ⟨?_, fun e => Stats2_start_y V c _ n e⟩
    rw [Stats2_stepAt_row V c _ _ n (fun e => Stats2_start_y V c _ n e), Stats2_start_ml, Stats2_pt_val h 0 hτ]
    rfl
  | succ τ ih =>
    obtain ⟨ih1, ih2⟩ := ih (Nat.lt_of_succ_lt hτ)
    have hne : ¬(h.val * tilesPerHalf2 + τ + 1) % tilesPerHalf2 = 0 := by
      rw [Nat.add_assoc, Nat.add_comm (h.val * tilesPerHalf2) (τ + 1), Nat.add_mul_mod_self_right, Nat.mod_eq_of_lt hτ]; exact Nat.succ_ne_zero τ
    show ((stats2 V c (h.val * tilesPerHalf2 + τ + 1)).m _, (stats2 V c (h.val * tilesPerHalf2 + τ + 1)).l _) = _
      ∧ ∀ e : Fin embDim2, (stats2 V c (h.val * tilesPerHalf2 + τ + 1)).y (ix2 n e) = yrow2 V c n e
    rw [stats2_next V c _ hne, Stats2_stepAt_y]
    refine ⟨?_, ih2⟩
    rw [Stats2_stepAt_row V c _ _ n ih2, ih1]
    have hv : (pt2 (h.val * tilesPerHalf2 + τ + 1)).val = h.val * tilesPerHalf2 + (τ + 1) := Stats2_pt_val h (τ + 1) hτ
    rw [hv]
    rfl

end Cert.KernelIdeal.Hand

end
-- ==== Proof.Stats2Value3.lean ====
/-
  The statistics launch of one vocabulary cluster: what its two output arrays hold after the launch, row by row.

  Each half of the grid writes its block of the maxima and of the sums back once, at its last tile; the two blocks
  are the two halves of each array. So the arrays hold at (h, n, 0) what the last tile of half h left at row n:
  the fold of the online softmax over the half's masked tiles of the row.
-/
import proofs.«124427_j55336358642036_2_alg».proof.Proof.Stats2Value

set_option maxRecDepth 16384

noncomputable section

namespace Cert.KernelIdeal.Hand

open Cert.KernelIdeal Cert.KernelIdeal.Gen Cert.Sizes
open Idealize.ShloMosaic Idealize.ShloMosaic.TcCoe Idealize.ShloMosaic.ValueIdx
open Idealize.SL Idealize.SL.Sem
open Idealize.ShloMosaic.Pipeline (Dat)
open scoped BigOperators

-- the contents of the TensorCore's buffers when the launch is entered, at the ideal values
variable (V : (c : Dev nD) → (b : Ref sig .tc) → Buf (Elt Ideal) ((c : Thread nD τ).loc b))

/-! ## The two statistics arrays after the launch -/

abbrev Stats2_mOut (c : Dev nD) : Vec Ideal S2x512x1 .f32 := (dat2 V c).arrAt 4 cfg2.N
abbrev Stats2_lOut (c : Dev nD) : Vec Ideal S2x512x1 .f32 := (dat2 V c).arrAt 5 cfg2.N

/-- The last point of half h: the one that writes the half's blocks back. -/
def Stats2_last (h : Fin 2) : Fin cfg2.N :=
  ⟨h.val * tilesPerHalf2 + (tilesPerHalf2 - 1), by
    have hh : h.val * tilesPerHalf2 ≤ 1 * tilesPerHalf2 := Nat.mul_le_mul_right _ (by have := h.isLt; omega)
    have := Stats2_T_pos
    rw [Stats2_N]; omega⟩

theorem Stats2_last_mod (h : Fin 2) : (Stats2_last h).val % tilesPerHalf2 = tilesPerHalf2 - 1 := by
  show (h.val * tilesPerHalf2 + (tilesPerHalf2 - 1)) % tilesPerHalf2 = tilesPerHalf2 - 1
  rw [Nat.add_comm (h.val * tilesPerHalf2) (tilesPerHalf2 - 1), Nat.add_mul_mod_self_right]
  exact Nat.mod_eq_of_lt (by have := Stats2_T_pos; omega)

/-- What the arrays end holding, as functions of the index: at (h, n, ·) the pair the last tile of half h leaves at row n. -/
def Stats2_mG (c : Dev nD) : Vec Ideal S2x512x1 .f32 :=
  fun i => (stats2 V c ((i 0).val * tilesPerHalf2 + (tilesPerHalf2 - 1))).m (ix3 (0 : Fin 1) (⟨(i 1).val, (i 1).isLt⟩ : Fin 512) (0 : Fin 1))
def Stats2_lG (c : Dev nD) : Vec Ideal S2x512x1 .f32 :=
  fun i => (stats2 V c ((i 0).val * tilesPerHalf2 + (tilesPerHalf2 - 1))).l (ix3 (0 : Fin 1) (⟨(i 1).val, (i 1).isLt⟩ : Fin 512) (0 : Fin 1))

/-- Stats2_mG and Stats2_lG at an index, from the point's number and the block's index. -/
theorem Stats2_mG_apply (c : Dev nD) (i : S2x512x1.Idx) (k : ℕ) (hk : (i 0).val * tilesPerHalf2 + (tilesPerHalf2 - 1) = k)
    (j : S1x512x1.Idx) (hj : ix3 (0 : Fin 1) (⟨(i 1).val, (i 1).isLt⟩ : Fin 512) (0 : Fin 1) = j) :
    Stats2_mG V c i = (stats2 V c k).m j := by subst hk; subst hj; rfl
theorem Stats2_lG_apply (c : Dev nD) (i : S2x512x1.Idx) (k : ℕ) (hk : (i 0).val * tilesPerHalf2 + (tilesPerHalf2 - 1) = k)
    (j : S1x512x1.Idx) (hj : ix3 (0 : Fin 1) (⟨(i 1).val, (i 1).isLt⟩ : Fin 512) (0 : Fin 1) = j) :
    Stats2_lG V c i = (stats2 V c k).l j := by subst hk; subst hj; rfl

/-- A point that writes the maxima's block back writes the block of Stats2_mG at its place (and the sums' likewise). -/
theorem Stats2_flushed4 (c : Dev nD) (t : Fin cfg2.N) (hf : (cfg2.win 4).flush t = true) :
    (dat2 V c).flushed 4 t = ((cfg2.win 4).blk t).view.read (Elt Ideal) (Stats2_mG V c) := by
  have hmod : t.val % tilesPerHalf2 = tilesPerHalf2 - 1 := (flush2_4 t).mp hf
  have e0 : win2_4.index t (0 : Fin 3) = t.val / tilesPerHalf2 := (Stats2_idx t).2.2.2.2.2.2.2.2.2.1
  have e1 : win2_4.index t (1 : Fin 3) = 0 := (Stats2_idx t).2.2.2.2.2.2.2.2.2.2.1
  show (cfg2.win 4).cut (grid2.coords t) ((dat2 V c).after 4 t) = _
  rw [after2_4]
  funext y
  show (stats2 V c t.val).m y = Stats2_mG V c (((cfg2.win 4).blk t).view.emb y)
  have hy0 : (y 0).val = 0 := Nat.lt_one_iff.mp (y 0).isLt
  have hy2 : (y 2).val = 0 := Nat.lt_one_iff.mp (y 2).isLt
  have hj : ix3 (0 : Fin 1) (⟨((((cfg2.win 4).blk t).view.emb y) 1).val, ((((cfg2.win 4).blk t).view.emb y) 1).isLt⟩ : Fin 512) (0 : Fin 1) = y := by
    funext a; apply Fin.ext
    match a with
    | ⟨0, _⟩ => show 0 = (y 0).val; exact hy0.symm
    | ⟨1, _⟩ => show win2_4.index t (1 : Fin 3) * 512 + 1 * (y 1).val = (y 1).val; rw [e1, Nat.zero_mul, Nat.zero_add, Nat.one_mul]
    | ⟨2, _⟩ => show 0 = (y 2).val; exact hy2.symm
  have hk : ((((cfg2.win 4).blk t).view.emb y) 0).val * tilesPerHalf2 + (tilesPerHalf2 - 1) = t.val := by
    show (win2_4.index t (0 : Fin 3) * 1 + 1 * (y 0).val) * tilesPerHalf2 + (tilesPerHalf2 - 1) = t.val
    rw [e0, hy0, Nat.mul_one, Nat.mul_zero, Nat.add_zero, ← hmod]
    exact Nat.div_add_mod' _ _
  exact (Stats2_mG_apply V c (((cfg2.win 4).blk t).view.emb y) t.val hk y hj).symm

theorem Stats2_flushed5 (c : Dev nD) (t : Fin cfg2.N) (hf : (cfg2.win 5).flush t = true) :
    (dat2 V c).flushed 5 t = ((cfg2.win 5).blk t).view.read (Elt Ideal) (Stats2_lG V c) := by
  have hmod : t.val % tilesPerHalf2 = tilesPerHalf2 - 1 := (flush2_5 t).mp hf
  have e0 : win2_5.index t (0 : Fin 3) = t.val / tilesPerHalf2 := (Stats2_idx t).2.2.2.2.2.2.2.2.2.2.2.2.1
  have e1 : win2_5.index t (1 : Fin 3) = 0 := (Stats2_idx t).2.2.2.2.2.2.2.2.2.2.2.2.2.1
  show (cfg2.win 5).cut (grid2.coords t) ((dat2 V c).after 5 t) = _
  rw [after2_5]
  funext y
  show (stats2 V c t.val).l y = Stats2_lG V c (((cfg2.win 5).blk t).view.emb y)
  have hy0 : (y 0).val = 0 := Nat.lt_one_iff.mp (y 0).isLt
  have hy2 : (y 2).val = 0 := Nat.lt_one_iff.mp (y 2).isLt
  have hj : ix3 (0 : Fin 1) (⟨((((cfg2.win 5).blk t).view.emb y) 1).val, ((((cfg2.win 5).blk t).view.emb y) 1).isLt⟩ : Fin 512) (0 : Fin 1) = y := by
    funext a; apply Fin.ext
    match a with
    | ⟨0, _⟩ => show 0 = (y 0).val; exact hy0.symm
    | ⟨1, _⟩ => show win2_5.index t (1 : Fin 3) * 512 + 1 * (y 1).val = (y 1).val; rw [e1, Nat.zero_mul, Nat.zero_add, Nat.one_mul]
    | ⟨2, _⟩ => show 0 = (y 2).val; exact hy2.symm
  have hk : ((((cfg2.win 5).blk t).view.emb y) 0).val * tilesPerHalf2 + (tilesPerHalf2 - 1) = t.val := by
    show (win2_5.index t (0 : Fin 3) * 1 + 1 * (y 0).val) * tilesPerHalf2 + (tilesPerHalf2 - 1) = t.val
    rw [e0, hy0, Nat.mul_one, Nat.mul_zero, Nat.add_zero, ← hmod]
    exact Nat.div_add_mod' _ _
  exact (Stats2_lG_apply V c (((cfg2.win 5).blk t).view.emb y) t.val hk y hj).symm

/-- The index (h, n, 0) lies in the block the last point of half h writes back. -/
theorem Stats2_mem4 (h : Fin 2) (n : Fin 512) :
    (ix3 h n (0 : Fin 1) : S2x512x1.Idx) ∈ ((cfg2.win 4).blk (Stats2_last h)).view.set := by
  obtain ⟨-, -, -, -, -, -, -, -, -, e0, e1, e2, -⟩ := Stats2_idx (Stats2_last h)
  have hd : (Stats2_last h).val / tilesPerHalf2 = h.val := by
    show (h.val * tilesPerHalf2 + (tilesPerHalf2 - 1)) / tilesPerHalf2 = h.val
    rw [Nat.add_comm (h.val * tilesPerHalf2) (tilesPerHalf2 - 1), Nat.add_mul_div_right _ _ Stats2_T_pos, Nat.div_eq_of_lt (by have := Stats2_T_pos; omega), Nat.zero_add]
  show _ ∈ ((View.whole main_v56_0).slice (win2_4.rect (Stats2_last h))).set
  rw [View.set_slice_whole, Rect.mem_set_unit]
  intro a
  match a with
  | ⟨0, _⟩ => show win2_4.index (Stats2_last h) (0 : Fin 3) * 1 ≤ h.val ∧ h.val < win2_4.index (Stats2_last h) (0 : Fin 3) * 1 + 1; rw [e0, hd]; omega
  | ⟨1, _⟩ => show win2_4.index (Stats2_last h) (1 : Fin 3) * 512 ≤ n.val ∧ n.val < win2_4.index (Stats2_last h) (1 : Fin 3) * 512 + 512; rw [e1]; have := n.isLt; omega
  | ⟨2, _⟩ => show win2_4.index (Stats2_last h) (2 : Fin 3) * 1 ≤ (0 : Fin 1).val ∧ (0 : Fin 1).val < win2_4.index (Stats2_last h) (2 : Fin 3) * 1 + 1; rw [e2]; exact ⟨Nat.le_refl _, Nat.lt_succ_self _⟩

theorem Stats2_mem5 (h : Fin 2) (n : Fin 512) :
    (ix3 h n (0 : Fin 1) : S2x512x1.Idx) ∈ ((cfg2.win 5).blk (Stats2_last h)).view.set := by
  obtain ⟨-, -, -, -, -, -, -, -, -, -, -, -, e0, e1, e2⟩ := Stats2_idx (Stats2_last h)
  have hd : (Stats2_last h).val / tilesPerHalf2 = h.val := by
    show (h.val * tilesPerHalf2 + (tilesPerHalf2 - 1)) / tilesPerHalf2 = h.val
    rw [Nat.add_comm (h.val * tilesPerHalf2) (tilesPerHalf2 - 1), Nat.add_mul_div_right _ _ Stats2_T_pos, Nat.div_eq_of_lt (by have := Stats2_T_pos; omega), Nat.zero_add]
  show _ ∈ ((View.whole main_v56_1).slice (win2_5.rect (Stats2_last h))).set
  rw [View.set_slice_whole, Rect.mem_set_unit]
  intro a
  match a with
  | ⟨0, _⟩ => show win2_5.index (Stats2_last h) (0 : Fin 3) * 1 ≤ h.val ∧ h.val < win2_5.index (Stats2_last h) (0 : Fin 3) * 1 + 1; rw [e0, hd]; omega
  | ⟨1, _⟩ => show win2_5.index (Stats2_last h) (1 : Fin 3) * 512 ≤ n.val ∧ n.val < win2_5.index (Stats2_last h) (1 : Fin 3) * 512 + 512; rw [e1]; have := n.isLt; omega
  | ⟨2, _⟩ => show win2_5.index (Stats2_last h) (2 : Fin 3) * 1 ≤ (0 : Fin 1).val ∧ (0 : Fin 1).val < win2_5.index (Stats2_last h) (2 : Fin 3) * 1 + 1; rw [e2]; exact ⟨Nat.le_refl _, Nat.lt_succ_self _⟩

/-- THE RESULT. After the launch the maxima's array holds at (h, n, 0) the maximum, and the sums' array the sum, of the
    fold over the tiles of half h at row n. -/
theorem Stats2_m_parts (c : Dev nD) (h : Fin 2) (n : Fin 512) :
    Stats2_mOut V c (ix3 h n (0 : Fin 1))
      = (Cert.OnlineSoftmax.run (fun t => xrow2 V c n (h.val * tilesPerHalf2 + t)) tilesPerHalf2).1 := by
  have hf : (cfg2.win 4).flush (Stats2_last h) = true := (flush2_4 _).mpr (Stats2_last_mod h)
  have h1 : (dat2 V c).arrAt 4 cfg2.N (ix3 h n (0 : Fin 1)) = Stats2_mG V c (ix3 h n (0 : Fin 1)) :=
    (dat2 V c).arrAt_apply_of_mem 4 (Stats2_mG V c) (Stats2_flushed4 V c) cfg2.N (Stats2_last h) (ix3 h n (0 : Fin 1))
      (Stats2_last h).isLt hf (Stats2_mem4 h n)
  have h3 : Stats2_mG V c (ix3 h n (0 : Fin 1))
      = (stats2 V c (h.val * tilesPerHalf2 + (tilesPerHalf2 - 1))).m (ix3 (0 : Fin 1) n (0 : Fin 1)) :=
    Stats2_mG_apply V c (ix3 h n (0 : Fin 1)) (h.val * tilesPerHalf2 + (tilesPerHalf2 - 1)) rfl (ix3 (0 : Fin 1) n (0 : Fin 1)) rfl
  have hT : tilesPerHalf2 - 1 + 1 = tilesPerHalf2 := Nat.sub_add_cancel Stats2_T_pos
  have h2 := (Stats2_fold V c n h (tilesPerHalf2 - 1) (Nat.sub_lt Stats2_T_pos Nat.one_pos)).1
  rw [hT] at h2
  exact (h1.trans h3).trans (congrArg Prod.fst h2)

theorem Stats2_l_parts (c : Dev nD) (h : Fin 2) (n : Fin 512) :
    Stats2_lOut V c (ix3 h n (0 : Fin 1))
      = (Cert.OnlineSoftmax.run (fun t => xrow2 V c n (h.val * tilesPerHalf2 + t)) tilesPerHalf2).2 := by
  have hf : (cfg2.win 5).flush (Stats2_last h) = true := (flush2_5 _).mpr (Stats2_last_mod h)
  have h1 : (dat2 V c).arrAt 5 cfg2.N (ix3 h n (0 : Fin 1)) = Stats2_lG V c (ix3 h n (0 : Fin 1)) :=
    (dat2 V c).arrAt_apply_of_mem 5 (Stats2_lG V c) (Stats2_flushed5 V c) cfg2.N (Stats2_last h) (ix3 h n (0 : Fin 1))
      (Stats2_last h).isLt hf (Stats2_mem5 h n)
  have h3 : Stats2_lG V c (ix3 h n (0 : Fin 1))
      = (stats2 V c (h.val * tilesPerHalf2 + (tilesPerHalf2 - 1))).l (ix3 (0 : Fin 1) n (0 : Fin 1)) :=
    Stats2_lG_apply V c (ix3 h n (0 : Fin 1)) (h.val * tilesPerHalf2 + (tilesPerHalf2 - 1)) rfl (ix3 (0 : Fin 1) n (0 : Fin 1)) rfl
  have hT : tilesPerHalf2 - 1 + 1 = tilesPerHalf2 := Nat.sub_add_cancel Stats2_T_pos
  have h2 := (Stats2_fold V c n h (tilesPerHalf2 - 1) (Nat.sub_lt Stats2_T_pos Nat.one_pos)).1
  rw [hT] at h2
  exact (h1.trans h3).trans (congrArg Prod.snd h2)

end Cert.KernelIdeal.Hand

end
-- ==== Proof.Write3Pay.lean ====
import proofs.«124427_j55336358642036_2_alg».proof.Proof.Gen.KernelIdeal.Skeleton
import proofs.«124427_j55336358642036_2_alg».proof.Proof.Sizes
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Idealize.ShloMosaic.Lib.StableHlo.Predicate

/-!
# A cluster's write kernel read at an index

The write kernel of a vocabulary cluster stores two values: at the first tile of each half the projected
hidden rows `y = hidden · projᵀ` (kept in sixteen-bit floats, which at the ideal values is no change), and at
every tile the block of log-probabilities `(logit − m) − log l + extra`, the logit being `y · Wᵀ + bias` on
the cluster's real columns and `−∞` on the padding. Here both stored values are read at one element, as
plain sums and differences of extended reals, in the association the kernel computes them in.
-/

noncomputable section

namespace Cert.KernelIdeal.Hand

open Cert.KernelIdeal Cert.KernelIdeal.Gen Cert.Sizes
open Idealize.ShloMosaic Idealize.ShloMosaic.ValueIdx
open scoped BigOperators

/-! ## The projection `hidden · projᵀ` at an element -/

theorem k3_proj_lhs_0 (i : S512x256.Idx) (q : dot_S512x1024_S256x1024_S512x256_1_1_0_0_n_n.contr.Idx) :
    (dot_S512x1024_S256x1024_S512x256_1_1_0_0_n_n.lhsIdx i q 0).val = (i 0).val := by
  unfold DotDims.lhsIdx
  rw [dif_neg (show ¬(0 : Fin S512x1024.rank) ∈ dot_S512x1024_S256x1024_S512x256_1_1_0_0_n_n.lhsBatch by decide), dif_pos (show (0 : Fin S512x1024.rank) ∈ dot_S512x1024_S256x1024_S512x256_1_1_0_0_n_n.lhsNonContracting by decide)]
  rfl
theorem k3_proj_lhs_1 (i : S512x256.Idx) (q : dot_S512x1024_S256x1024_S512x256_1_1_0_0_n_n.contr.Idx) :
    (dot_S512x1024_S256x1024_S512x256_1_1_0_0_n_n.lhsIdx i q 1).val = (q ⟨0, by decide⟩).val :=
  dot_S512x1024_S256x1024_S512x256_1_1_0_0_n_n.lhsIdx_val_of_single rfl i q
theorem k3_proj_rhs_0 (i : S512x256.Idx) (q : dot_S512x1024_S256x1024_S512x256_1_1_0_0_n_n.contr.Idx) :
    (dot_S512x1024_S256x1024_S512x256_1_1_0_0_n_n.rhsIdx i q 0).val = (i 1).val := by
  unfold DotDims.rhsIdx
  rw [dif_neg (show ¬(0 : Fin S256x1024.rank) ∈ dot_S512x1024_S256x1024_S512x256_1_1_0_0_n_n.rhsBatch by decide), dif_pos (show (0 : Fin S256x1024.rank) ∈ dot_S512x1024_S256x1024_S512x256_1_1_0_0_n_n.rhsNonContracting by decide)]
  rfl
theorem k3_proj_rhs_1 (i : S512x256.Idx) (q : dot_S512x1024_S256x1024_S512x256_1_1_0_0_n_n.contr.Idx) :
    (dot_S512x1024_S256x1024_S512x256_1_1_0_0_n_n.rhsIdx i q 1).val = (q ⟨0, by decide⟩).val :=
  dot_S512x1024_S256x1024_S512x256_1_1_0_0_n_n.rhsIdx_val_of_single rfl i q

/-- The product into the zero accumulator, at row `r` and column `c`: the sum over the contracted axis of the
    left operand's row `r` times the right operand's row `c`. -/
theorem k3_proj_apply (a : FVec Ideal S512x1024 .bf16) (b : FVec Ideal S256x1024 .bf16) (r : Fin 512) (c : Fin embDim3) :
    matmul dot_S512x1024_S256x1024_S512x256_1_1_0_0_n_n none a b (constant S512x256 .f32 0x00000000#32) (ix2 r c)
      = ∑ k : Fin 1024, a (ix2 r k) * b (ix2 c k) := by
  simp only [matmul]
  rw [Ideal.matmul_constant_zero_apply, ← Equiv.sum_comp (contrEquiv1 dot_S512x1024_S256x1024_S512x256_1_1_0_0_n_n 1024 rfl rfl).symm]
  refine Finset.sum_congr rfl fun k _ => ?_
  have hk := contrEquiv1_symm_val dot_S512x1024_S256x1024_S512x256_1_1_0_0_n_n 1024 rfl rfl k
  have el : dot_S512x1024_S256x1024_S512x256_1_1_0_0_n_n.lhsIdx (ix2 r c) ((contrEquiv1 dot_S512x1024_S256x1024_S512x256_1_1_0_0_n_n 1024 rfl rfl).symm k) = ix2 r k := funext fun ax => Fin.ext (by
    match ax with
    | ⟨0, _⟩ => exact k3_proj_lhs_0 _ _
    | ⟨1, _⟩ => exact (k3_proj_lhs_1 _ _).trans hk)
  have er : dot_S512x1024_S256x1024_S512x256_1_1_0_0_n_n.rhsIdx (ix2 r c) ((contrEquiv1 dot_S512x1024_S256x1024_S512x256_1_1_0_0_n_n 1024 rfl rfl).symm k) = ix2 c k := funext fun ax => Fin.ext (by
    match ax with
    | ⟨0, _⟩ => exact k3_proj_rhs_0 _ _
    | ⟨1, _⟩ => exact (k3_proj_rhs_1 _ _).trans hk)
  rw [el, er]

/-- THE SCRATCH'S FILL at row `n`, embedding coordinate `e`: the hidden row times the projection's row `e`. -/
theorem k3_pay1_apply (v35 : Vec Ideal S512x1024 .bf16) (v37 : Vec Ideal S256x1024 .bf16) (n : Fin 512) (e : Fin embDim3) :
    k3_pay1 (F := Ideal) v35 v37 (ix2 n e) = ∑ k : Fin 1024, v35 (ix2 n k) * v37 (ix2 e k) := by
  unfold k3_pay1
  simp only [shapeCast_self]
  rw [truncf_apply]
  exact k3_proj_apply v35 v37 n e

/-! ## The tile's logits `y · Wᵀ` at an element -/

theorem k3_wdot_lhs_0 (i : S512x2048.Idx) (q : dot_S512x256_S2048x256_S512x2048_1_1_0_0_n_n.contr.Idx) :
    (dot_S512x256_S2048x256_S512x2048_1_1_0_0_n_n.lhsIdx i q 0).val = (i 0).val := by
  unfold DotDims.lhsIdx
  rw [dif_neg (show ¬(0 : Fin S512x256.rank) ∈ dot_S512x256_S2048x256_S512x2048_1_1_0_0_n_n.lhsBatch by decide), dif_pos (show (0 : Fin S512x256.rank) ∈ dot_S512x256_S2048x256_S512x2048_1_1_0_0_n_n.lhsNonContracting by decide)]
  rfl
theorem k3_wdot_lhs_1 (i : S512x2048.Idx) (q : dot_S512x256_S2048x256_S512x2048_1_1_0_0_n_n.contr.Idx) :
    (dot_S512x256_S2048x256_S512x2048_1_1_0_0_n_n.lhsIdx i q 1).val = (q ⟨0, by decide⟩).val :=
  dot_S512x256_S2048x256_S512x2048_1_1_0_0_n_n.lhsIdx_val_of_single rfl i q
theorem k3_wdot_rhs_0 (i : S512x2048.Idx) (q : dot_S512x256_S2048x256_S512x2048_1_1_0_0_n_n.contr.Idx) :
    (dot_S512x256_S2048x256_S512x2048_1_1_0_0_n_n.rhsIdx i q 0).val = (i 1).val := by
  unfold DotDims.rhsIdx
  rw [dif_neg (show ¬(0 : Fin S2048x256.rank) ∈ dot_S512x256_S2048x256_S512x2048_1_1_0_0_n_n.rhsBatch by decide), dif_pos (show (0 : Fin S2048x256.rank) ∈ dot_S512x256_S2048x256_S512x2048_1_1_0_0_n_n.rhsNonContracting by decide)]
  rfl
theorem k3_wdot_rhs_1 (i : S512x2048.Idx) (q : dot_S512x256_S2048x256_S512x2048_1_1_0_0_n_n.contr.Idx) :
    (dot_S512x256_S2048x256_S512x2048_1_1_0_0_n_n.rhsIdx i q 1).val = (q ⟨0, by decide⟩).val :=
  dot_S512x256_S2048x256_S512x2048_1_1_0_0_n_n.rhsIdx_val_of_single rfl i q

/-- The product into the zero accumulator, at row `r` and column `c`: the sum over the contracted axis of the
    left operand's row `r` times the right operand's row `c`. -/
theorem k3_wdot_apply (a : FVec Ideal S512x256 .bf16) (b : FVec Ideal S2048x256 .bf16) (r : Fin 512) (c : Fin tileWidth3) :
    matmul dot_S512x256_S2048x256_S512x2048_1_1_0_0_n_n none a b (constant S512x2048 .f32 0x00000000#32) (ix2 r c)
      = ∑ k : Fin embDim3, a (ix2 r k) * b (ix2 c k) := by
  simp only [matmul]
  rw [Ideal.matmul_constant_zero_apply, ← Equiv.sum_comp (contrEquiv1 dot_S512x256_S2048x256_S512x2048_1_1_0_0_n_n embDim3 rfl rfl).symm]
  refine Finset.sum_congr rfl fun k _ => ?_
  have hk := contrEquiv1_symm_val dot_S512x256_S2048x256_S512x2048_1_1_0_0_n_n embDim3 rfl rfl k
  have el : dot_S512x256_S2048x256_S512x2048_1_1_0_0_n_n.lhsIdx (ix2 r c) ((contrEquiv1 dot_S512x256_S2048x256_S512x2048_1_1_0_0_n_n embDim3 rfl rfl).symm k) = ix2 r k := funext fun ax => Fin.ext (by
    match ax with
    | ⟨0, _⟩ => exact k3_wdot_lhs_0 _ _
    | ⟨1, _⟩ => exact (k3_wdot_lhs_1 _ _).trans hk)
  have er : dot_S512x256_S2048x256_S512x2048_1_1_0_0_n_n.rhsIdx (ix2 r c) ((contrEquiv1 dot_S512x256_S2048x256_S512x2048_1_1_0_0_n_n embDim3 rfl rfl).symm k) = ix2 c k := funext fun ax => Fin.ext (by
    match ax with
    | ⟨0, _⟩ => exact k3_wdot_rhs_0 _ _
    | ⟨1, _⟩ => exact (k3_wdot_rhs_1 _ _).trans hk)
  rw [el, er]

/-! ## The two broadcasts of the block -/

/-- A column of per-row values spread along the lanes reads, at `(n, j)`, row `n`'s value. -/
theorem k3_bcol_apply {α : Type} (v : S512x1.Idx → α) (h : S512x1.Broadcasts S512x2048) (n : Fin 512) (j : Fin tileWidth3) :
    broadcastTo S512x2048 v h (ix2 n j) = v (ix2 n (0 : Fin 1)) := by
  refine broadcastTo_apply v h (ix2 n j) (ix2 n (0 : Fin 1)) fun ax => ?_
  match ax with
  | ⟨0, _⟩ => rfl
  | ⟨1, _⟩ => rfl

/-- The bias row spread down the rows reads, at `(n, j)`, lane `j`'s bias. -/
theorem k3_brow_apply {α : Type} (v : S1x2048.Idx → α) (h : S1x2048.Broadcasts S512x2048) (n : Fin 512) (j : Fin tileWidth3) :
    broadcastTo S512x2048 v h (ix2 n j) = v (ix2 (0 : Fin 1) j) :=
  broadcastTo_1b_ab_apply v h n j

/-! ## The lane mask and its fill -/

/-- The padding's fill is `−∞` at the ideal values. -/
theorem k3_neg_big : Named.named (F := Ideal) κ "neg_big" (φ := .f32) 0xFF333332#32 = (⊥ : EReal) :=
  IdealRules.named_const.ideal_named_scalar _ _ _ _ rfl

/-- A lane's global column number stays far below the signed 32-bit range. -/
theorem k3_col_lt (i : grid3.Coords) (j : Fin tileWidth3) :
    ((i 0).val * tilesPerHalf3 + (i 1).val) * tileWidth3 + j.val < 2 ^ 31 := by
  have h0 : (i 0).val < 2 := (i 0).isLt
  have h1 : (i 1).val < tilesPerHalf3 := (i 1).isLt
  have hj : j.val < tileWidth3 := j.isLt
  simp only [tilesPerHalf3, tileWidth3] at h1 hj ⊢
  omega

/-- THE MASK DECODED: the 32-bit comparison of "lane number plus the tile's first column" with the cluster's size
    holds exactly when the lane's global column number is below the size, as naturals. -/
theorem k3_mask_iff (hi : S512x2048.Iotas .tc 32 [1]) (i : grid3.Coords) (n : Fin 512) (j : Fin tileWidth3) :
    cmpi .slt (addi (iota .tc S512x2048 32 [1] hi)
        (broadcast S512x2048 (Scalar.muli (Scalar.addi (Scalar.muli (BitVec.ofNat 32 (i 0).val) (BitVec.ofNat 32 tilesPerHalf3))
          (BitVec.ofNat 32 (i 1).val)) (BitVec.ofNat 32 tileWidth3))))
        (broadcast S512x2048 (BitVec.ofNat 32 validCols3)) (ix2 n j) = 1#1
      ↔ ((i 0).val * tilesPerHalf3 + (i 1).val) * tileWidth3 + j.val < validCols3 := by
  have hV : validCols3 < 2 ^ 31 := by decide
  have hw : addi (iota .tc S512x2048 32 [1] hi)
        (broadcast S512x2048 (Scalar.muli (Scalar.addi (Scalar.muli (BitVec.ofNat 32 (i 0).val) (BitVec.ofNat 32 tilesPerHalf3))
          (BitVec.ofNat 32 (i 1).val)) (BitVec.ofNat 32 tileWidth3))) (ix2 n j)
      = BitVec.ofNat 32 (((i 0).val * tilesPerHalf3 + (i 1).val) * tileWidth3 + j.val) := by
    show IntOp.addi (iota .tc S512x2048 32 [1] hi (ix2 n j)) _ = _
    rw [iota_single_apply]
    show BitVec.ofNat 32 j.val + (BitVec.ofNat 32 (i 0).val * BitVec.ofNat 32 tilesPerHalf3 + BitVec.ofNat 32 (i 1).val) * BitVec.ofNat 32 tileWidth3 = _
    rw [← BitVec.ofNat_mul, ← BitVec.ofNat_add, ← BitVec.ofNat_mul, ← BitVec.ofNat_add, Nat.add_comm j.val]
  show IntOp.cmpi .slt (addi (iota .tc S512x2048 32 [1] hi)
        (broadcast S512x2048 (Scalar.muli (Scalar.addi (Scalar.muli (BitVec.ofNat 32 (i 0).val) (BitVec.ofNat 32 tilesPerHalf3))
          (BitVec.ofNat 32 (i 1).val)) (BitVec.ofNat 32 tileWidth3))) (ix2 n j)) (BitVec.ofNat 32 validCols3) = 1#1 ↔ _
  rw [hw]
  exact StableHlo.Predicate.slt_ofNat_iff _ _ (k3_col_lt i j) hV

/-! ## The stored block at an element -/

/-- The masked logit of row `n`, lane `j` of the tile at grid point `i` (half `i 0`, tile `i 1`): `y · Wᵀ + bias` on a real
    column, `−∞` on the padding. -/
def k3_logit (i : grid3.Coords) (v3 : Vec Ideal S512x256 .bf16) (v4 : Vec Ideal S2048x256 .bf16) (v6 : Vec Ideal S1x2048 .f32)
    (n : Fin 512) (j : Fin tileWidth3) : EReal :=
  if ((i 0).val * tilesPerHalf3 + (i 1).val) * tileWidth3 + j.val < validCols3
  then (∑ e : Fin embDim3, v3 (ix2 n e) * v4 (ix2 j e)) + v6 (ix2 (0 : Fin 1) j) else ⊥

/-- THE OUTPUT BLOCK at row `n`, lane `j`: the masked logit, less the row's maximum, less the logarithm of the row's
    sum, plus the row's extra term — associated as the kernel computes it. -/
theorem k3_pay2_apply (i : grid3.Coords) (v3 : Vec Ideal S512x256 .bf16) (v4 : Vec Ideal S2048x256 .bf16) (v6 : Vec Ideal S1x2048 .f32)
    (v21 v25 v30 : Vec Ideal S512x1 .f32) (n : Fin 512) (j : Fin tileWidth3) :
    k3_pay2 (F := Ideal) i v3 v4 v6 v21 v25 v30 (ix2 n j)
      = ((k3_logit i v3 v4 v6 n j - v21 (ix2 n (0 : Fin 1))) - Ideal.log (v25 (ix2 n (0 : Fin 1)))) + v30 (ix2 n (0 : Fin 1)) := by
  unfold k3_pay2
  simp only [shapeCast_self]
  rw [addf_apply, subf_apply, subf_apply, select_apply, addf_apply, broadcast_apply, k3_bcol_apply, k3_bcol_apply, k3_bcol_apply,
    k3_brow_apply, k3_wdot_apply, k3_neg_big]
  unfold k3_logit
  by_cases hv : ((i 0).val * tilesPerHalf3 + (i 1).val) * tileWidth3 + j.val < validCols3
  · rw [if_pos hv, (k3_mask_iff _ i n j).mpr hv, select_one]
    rfl
  · rw [if_neg hv, eq_zero_of_ne_one (mt (k3_mask_iff _ i n j).mp hv), select_zero]
    rfl

/-- On a real column the block's element has no case split left. -/
theorem k3_pay2_valid (i : grid3.Coords) (v3 : Vec Ideal S512x256 .bf16) (v4 : Vec Ideal S2048x256 .bf16) (v6 : Vec Ideal S1x2048 .f32)
    (v21 v25 v30 : Vec Ideal S512x1 .f32) (n : Fin 512) (j : Fin tileWidth3)
    (hv : ((i 0).val * tilesPerHalf3 + (i 1).val) * tileWidth3 + j.val < validCols3) :
    k3_pay2 (F := Ideal) i v3 v4 v6 v21 v25 v30 (ix2 n j)
      = ((((∑ e : Fin embDim3, v3 (ix2 n e) * v4 (ix2 j e)) + v6 (ix2 (0 : Fin 1) j)) - v21 (ix2 n (0 : Fin 1)))
          - Ideal.log (v25 (ix2 n (0 : Fin 1)))) + v30 (ix2 n (0 : Fin 1)) := by
  rw [k3_pay2_apply, k3_logit, if_pos hv]

end Cert.KernelIdeal.Hand

end
-- ==== Proof.Write3Value.lean ====
/-
  The write launch of vocabulary cluster 1 (launch 3), its value: what the launch leaves in its output array, read
  at an index, at the ideal values.

  The launch finds seven arrays: the hidden rows [512, 1024], the cluster's projection [d, 1024], its weight rows
  [padded columns, d], its bias [1, padded columns], and per row the maximum m, the sum l and an extra term, each
  [512, 1]. Row n of the projected hidden rows is yrow n e = Σ_k hidden(n, k) · projection(e, k); the logit of row n at
  column col is zrow n col = Σ_e yrow n e · weight(col, e) + bias(col). At grid point (h, t) the body writes the tile
  h·T + t of the output: at lane j the masked logit of column (h·T + t)·tileWidth + j (−∞ on the padding columns),
  less m, less log l, plus the extra term. The hidden rows, the projection and the three row vectors are one block
  each; the weight rows' and the bias's blocks move with the output's tile. So every point writes its block of ONE
  function of the seven arrays, the tiles cover the padded width, and the output array ends holding that function:
  on a real column, (zrow n col − m n) − log (l n) + extra n.
-/
import proofs.«124427_j55336358642036_2_alg».proof.Proof.Write3Defs
import proofs.«124427_j55336358642036_2_alg».proof.Proof.Write3Pay
import proofs.«124427_j55336358642036_2_alg».proof.Proof.Gen.KernelIdeal.Points
import proofs.«124427_j55336358642036_2_alg».proof.Proof.Sizes
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Sizes
open Idealize.ShloMosaic Idealize.ShloMosaic.TcCoe Idealize.ShloMosaic.ValueIdx Idealize.SL.Sem
open Idealize.ShloMosaic.Pipeline (Dat)
open scoped BigOperators

/-! ## The arrays the launch finds -/

section Arrays
variable {F : FTy → Type} [FloatOps F] [Named F]
variable (V : (c : Dev nD) → (b : Ref sig .tc) → Buf (Elt F) ((c : Thread nD τ).loc b))

/-- The hidden rows. -/
abbrev hidA3 (c : Dev nD) : Vec F S512x1024 .bf16 := V c (Pipeline.arrRef spec3 0)
/-- The cluster's projection. -/
abbrev prjA3 (c : Dev nD) : Vec F S256x1024 .bf16 := V c (Pipeline.arrRef spec3 1)
/-- The cluster's weight rows, one per padded column. -/
abbrev wA3 (c : Dev nD) : Vec F S20480x256 .bf16 := V c (Pipeline.arrRef spec3 2)
/-- The cluster's bias, one entry per padded column. -/
abbrev bA3 (c : Dev nD) : Vec F S1x20480 .f32 := V c (Pipeline.arrRef spec3 3)
/-- The rows' maxima. -/
abbrev mA3 (c : Dev nD) : Vec F S512x1 .f32 := V c (Pipeline.arrRef spec3 4)
/-- The rows' sums. -/
abbrev lA3 (c : Dev nD) : Vec F S512x1 .f32 := V c (Pipeline.arrRef spec3 5)
/-- The rows' extra terms. -/
abbrev exA3 (c : Dev nD) : Vec F S512x1 .f32 := V c (Pipeline.arrRef spec3 6)

end Arrays

variable (V : (c : Dev nD) → (b : Ref sig .tc) → Buf (Elt Ideal) ((c : Thread nD τ).loc b))

/-- Row n of the projected hidden rows at embedding coordinate e: the hidden row against the projection's row e. -/
def yrow3 (c : Dev nD) (n : Fin 512) (e : Fin embDim3) : EReal :=
  ∑ k : Fin 1024, hidA3 V c (ix2 n k) * prjA3 V c (ix2 e k)

/-- The logit of row n at padded column col: the projected row against the column's weight row, plus the column's
    bias (0 past the padded width). -/
def zrow3 (c : Dev nD) (n : Fin 512) (col : ℕ) : EReal :=
  if h : col < 2 * tilesPerHalf3 * tileWidth3 then
    (∑ e : Fin embDim3, yrow3 V c n e * wA3 V c (ix2 ⟨col, h⟩ e)) + bA3 V c (ix2 (0 : Fin 1) ⟨col, h⟩)
  else 0

/-- The masked logit of row n at padded column col: the logit on a real column, −∞ on a padding column. -/
def xz3 (c : Dev nD) (n : Fin 512) (col : Fin (2 * tilesPerHalf3 * tileWidth3)) : EReal :=
  if col.val < validCols3 then
    (∑ e : Fin embDim3, yrow3 V c n e * wA3 V c (ix2 col e)) + bA3 V c (ix2 (0 : Fin 1) col)
  else ⊥

/-- What the output array ends holding, as one function of the arrays the launch finds: the masked logit less the
    row's maximum and the logarithm of the row's sum, plus the row's extra term. -/
def outG3 (c : Dev nD) : Vec Ideal S512x20480 .f32 := fun i =>
  ((xz3 V c (i 0) (i 1) - mA3 V c (ix2 (i 0) (0 : Fin 1))) - Ideal.log (lA3 V c (ix2 (i 0) (0 : Fin 1))))
    + exA3 V c (ix2 (i 0) (0 : Fin 1))

/-! ## The block index maps over the grid -/

/-- The printed index maps, decided over the grid: the hidden rows, the projection and the three row vectors are
    one block each; the weight rows' block index on the row axis and the bias's on the column axis are the output's
    on its column axis, which is h·T + t at grid point (h, t) and stays below 2·T. -/
theorem idxs3 : ∀ t : Fin cfg3.N,
      win3_0.index t (0 : Fin 2) = 0 ∧ win3_0.index t (1 : Fin 2) = 0
    ∧ win3_1.index t (0 : Fin 2) = 0 ∧ win3_1.index t (1 : Fin 2) = 0
    ∧ win3_2.index t (0 : Fin 2) = win3_7.index t (1 : Fin 2) ∧ win3_2.index t (1 : Fin 2) = 0
    ∧ win3_3.index t (0 : Fin 2) = 0 ∧ win3_3.index t (1 : Fin 2) = win3_7.index t (1 : Fin 2)
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0
    ∧ win3_7.index t (1 : Fin 2) = ((grid3.coords t) 0).val * tilesPerHalf3 + ((grid3.coords t) 1).val
    ∧ win3_7.index t (1 : Fin 2) < 2 * tilesPerHalf3 :=
  (by decide +kernel : ∀ t : Fin grid3.N, _)

/-- Every tile of the padded width is some grid point's. -/
theorem onto3 : ∀ q : Fin (2 * tilesPerHalf3), ∃ t : Fin cfg3.N, win3_7.index t (1 : Fin 2) = q.val :=
  (by decide +kernel : ∀ q : Fin (2 * tilesPerHalf3), ∃ t : Fin grid3.N, win3_7.index t (1 : Fin 2) = q.val)

/-! ## The input blocks as parts of the arrays -/

/-- The hidden rows' block is the whole array. -/
theorem iblk3_0_apply (c : Dev nD) (t : Fin cfg3.N) (n : Fin 512) (k : Fin 1024) :
    (iblk3 V c 0 t : Vec Ideal S512x1024 .bf16) (ix2 n k) = hidA3 V c (ix2 n k) := by
  obtain ⟨e0, e1, -⟩ := idxs3 t
  have h : (((cfg3.win 0).blk t).view.emb (ix2 n k) : S512x1024.Idx) = ix2 n k := by
    funext a; apply Fin.ext
    match a with
    | ⟨0, _⟩ => show win3_0.index t (0 : Fin 2) * 512 + 1 * n.val = n.val; rw [e0] <;> omega
    | ⟨1, _⟩ => show win3_0.index t (1 : Fin 2) * 1024 + 1 * k.val = k.val; rw [e1] <;> omega
  show V c (Pipeline.arrRef spec3 0) (((cfg3.win 0).blk t).view.emb (ix2 n k)) = V c (Pipeline.arrRef spec3 0) (ix2 n k)
  rw [h] <;> rfl

/-- The projection's block is the whole array. -/
theorem iblk3_1_apply (c : Dev nD) (t : Fin cfg3.N) (e : Fin embDim3) (k : Fin 1024) :
    (iblk3 V c 1 t : Vec Ideal S256x1024 .bf16) (ix2 e k) = prjA3 V c (ix2 e k) := by
  obtain ⟨-, -, e0, e1, -⟩ := idxs3 t
  have h : (((cfg3.win 1).blk t).view.emb (ix2 e k) : S256x1024.Idx) = ix2 e k := by
    funext a; apply Fin.ext
    match a with
    | ⟨0, _⟩ => show win3_1.index t (0 : Fin 2) * embDim3 + 1 * e.val = e.val; rw [e0] <;> omega
    | ⟨1, _⟩ => show win3_1.index t (1 : Fin 2) * 1024 + 1 * k.val = k.val; rw [e1] <;> omega
  show V c (Pipeline.arrRef spec3 1) (((cfg3.win 1).blk t).view.emb (ix2 e k)) = V c (Pipeline.arrRef spec3 1) (ix2 e k)
  rw [h] <;> rfl

/-- The weight rows' block at a point is the tile's rows of the array. -/
theorem iblk3_2_apply (c : Dev nD) (t : Fin cfg3.N) (j : Fin tileWidth3) (e : Fin embDim3)
    (hc : win3_7.index t (1 : Fin 2) * tileWidth3 + j.val < 2 * tilesPerHalf3 * tileWidth3) :
    (iblk3 V c 2 t : Vec Ideal S2048x256 .bf16) (ix2 j e) = wA3 V c (ix2 ⟨win3_7.index t (1 : Fin 2) * tileWidth3 + j.val, hc⟩ e) := by
  obtain ⟨-, -, -, -, e0, e1, -⟩ := idxs3 t
  have h : (((cfg3.win 2).blk t).view.emb (ix2 j e) : S20480x256.Idx) = ix2 ⟨win3_7.index t (1 : Fin 2) * tileWidth3 + j.val, hc⟩ e := by
    funext a; apply Fin.ext
    match a with
    | ⟨0, _⟩ => show win3_2.index t (0 : Fin 2) * tileWidth3 + 1 * j.val = win3_7.index t (1 : Fin 2) * tileWidth3 + j.val; rw [e0] <;> omega
    | ⟨1, _⟩ => show win3_2.index t (1 : Fin 2) * embDim3 + 1 * e.val = e.val; rw [e1] <;> omega
  show V c (Pipeline.arrRef spec3 2) (((cfg3.win 2).blk t).view.emb (ix2 j e)) = V c (Pipeline.arrRef spec3 2) (ix2 ⟨win3_7.index t (1 : Fin 2) * tileWidth3 + j.val, hc⟩ e)
  rw [h] <;> rfl

/-- The bias's block at a point is the tile's entries of the array. -/
theorem iblk3_3_apply (c : Dev nD) (t : Fin cfg3.N) (j : Fin tileWidth3)
    (hc : win3_7.index t (1 : Fin 2) * tileWidth3 + j.val < 2 * tilesPerHalf3 * tileWidth3) :
    (iblk3 V c 3 t : Vec Ideal S1x2048 .f32) (ix2 (0 : Fin 1) j) = bA3 V c (ix2 (0 : Fin 1) ⟨win3_7.index t (1 : Fin 2) * tileWidth3 + j.val, hc⟩) := by
  obtain ⟨-, -, -, -, -, -, e0, e1, -⟩ := idxs3 t
  have h : (((cfg3.win 3).blk t).view.emb (ix2 (0 : Fin 1) j) : S1x20480.Idx) = ix2 (0 : Fin 1) ⟨win3_7.index t (1 : Fin 2) * tileWidth3 + j.val, hc⟩ := by
    funext a; apply Fin.ext
    match a with
    | ⟨0, _⟩ => show win3_3.index t (0 : Fin 2) * 1 + 1 * (0 : Fin 1).val = (0 : Fin 1).val; omega
    | ⟨1, _⟩ => show win3_3.index t (1 : Fin 2) * tileWidth3 + 1 * j.val = win3_7.index t (1 : Fin 2) * tileWidth3 + j.val; rw [e1] <;> omega
  show V c (Pipeline.arrRef spec3 3) (((cfg3.win 3).blk t).view.emb (ix2 (0 : Fin 1) j)) = V c (Pipeline.arrRef spec3 3) (ix2 (0 : Fin 1) ⟨win3_7.index t (1 : Fin 2) * tileWidth3 + j.val, hc⟩)
  rw [h] <;> rfl

/-- The row maxima's block is the whole array. -/
theorem iblk3_4_apply (c : Dev nD) (t : Fin cfg3.N) (n : Fin 512) :
    (iblk3 V c 4 t : Vec Ideal S512x1 .f32) (ix2 n (0 : Fin 1)) = mA3 V c (ix2 n (0 : Fin 1)) := by
  obtain ⟨-, -, -, -, -, -, -, -, e0, e1, -⟩ := idxs3 t
  have h : (((cfg3.win 4).blk t).view.emb (ix2 n (0 : Fin 1)) : S512x1.Idx) = ix2 n (0 : Fin 1) := by
    funext a; apply Fin.ext
    match a with
    | ⟨0, _⟩ => show win3_4.index t (0 : Fin 2) * 512 + 1 * n.val = n.val; rw [e0] <;> omega
    | ⟨1, _⟩ => show win3_4.index t (1 : Fin 2) * 1 + 1 * (0 : Fin 1).val = (0 : Fin 1).val; omega
  show V c (Pipeline.arrRef spec3 4) (((cfg3.win 4).blk t).view.emb (ix2 n (0 : Fin 1))) = V c (Pipeline.arrRef spec3 4) (ix2 n (0 : Fin 1))
  rw [h] <;> rfl

/-- The row sums' block is the whole array. -/
theorem iblk3_5_apply (c : Dev nD) (t : Fin cfg3.N) (n : Fin 512) :
    (iblk3 V c 5 t : Vec Ideal S512x1 .f32) (ix2 n (0 : Fin 1)) = lA3 V c (ix2 n (0 : Fin 1)) := by
  obtain ⟨-, -, -, -, -, -, -, -, -, -, e0, e1, -⟩ := idxs3 t
  have h : (((cfg3.win 5).blk t).view.emb (ix2 n (0 : Fin 1)) : S512x1.Idx) = ix2 n (0 : Fin 1) := by
    funext a; apply Fin.ext
    match a with
    | ⟨0, _⟩ => show win3_5.index t (0 : Fin 2) * 512 + 1 * n.val = n.val; rw [e0] <;> omega
    | ⟨1, _⟩ => show win3_5.index t (1 : Fin 2) * 1 + 1 * (0 : Fin 1).val = (0 : Fin 1).val; omega
  show V c (Pipeline.arrRef spec3 5) (((cfg3.win 5).blk t).view.emb (ix2 n (0 : Fin 1))) = V c (Pipeline.arrRef spec3 5) (ix2 n (0 : Fin 1))
  rw [h] <;> rfl

/-- The extra terms' block is the whole array. -/
theorem iblk3_6_apply (c : Dev nD) (t : Fin cfg3.N) (n : Fin 512) :
    (iblk3 V c 6 t : Vec Ideal S512x1 .f32) (ix2 n (0 : Fin 1)) = exA3 V c (ix2 n (0 : Fin 1)) := by
  obtain ⟨-, -, -, -, -, -, -, -, -, -, -, -, e0, e1, -⟩ := idxs3 t
  have h : (((cfg3.win 6).blk t).view.emb (ix2 n (0 : Fin 1)) : S512x1.Idx) = ix2 n (0 : Fin 1) := by
    funext a; apply Fin.ext
    match a with
    | ⟨0, _⟩ => show win3_6.index t (0 : Fin 2) * 512 + 1 * n.val = n.val; rw [e0] <;> omega
    | ⟨1, _⟩ => show win3_6.index t (1 : Fin 2) * 1 + 1 * (0 : Fin 1).val = (0 : Fin 1).val; omega
  show V c (Pipeline.arrRef spec3 6) (((cfg3.win 6).blk t).view.emb (ix2 n (0 : Fin 1))) = V c (Pipeline.arrRef spec3 6) (ix2 n (0 : Fin 1))
  rw [h] <;> rfl

/-! ## The scratch and the tile's logits -/

/-- The scratch holds the projected hidden rows. -/
theorem y3_apply (c : Dev nD) (n : Fin 512) (e : Fin embDim3) : y3 V c (ix2 n e) = yrow3 V c n e := by
  unfold y3 yrow3
  refine (k3_pay1_apply (iblk3 V c 0 pt3_0) (iblk3 V c 1 pt3_0) n e).trans ?_
  exact Finset.sum_congr rfl fun k _ =>
    congrArg₂ (fun a b : EReal => a * b) (iblk3_0_apply V c pt3_0 n k) (iblk3_1_apply V c pt3_0 e k)

/-- The tile's masked logit at lane j is the masked logit at the tile's column j of the padded width. -/
theorem logit3_eq (c : Dev nD) (t : Fin cfg3.N) (n : Fin 512) (j : Fin tileWidth3)
    (hc : win3_7.index t (1 : Fin 2) * tileWidth3 + j.val < 2 * tilesPerHalf3 * tileWidth3) :
    k3_logit (grid3.coords t) (y3 V c) (iblk3 V c 2 t) (iblk3 V c 3 t) n j
      = xz3 V c n ⟨win3_7.index t (1 : Fin 2) * tileWidth3 + j.val, hc⟩ := by
  obtain ⟨-, -, -, -, -, -, -, -, -, -, -, -, -, -, -, e1, -⟩ := idxs3 t
  unfold k3_logit xz3
  by_cases hv : win3_7.index t (1 : Fin 2) * tileWidth3 + j.val < validCols3
  · rw [if_pos (show (((grid3.coords t) 0).val * tilesPerHalf3 + ((grid3.coords t) 1).val) * tileWidth3 + j.val < validCols3 from e1 ▸ hv), if_pos hv]
    exact congrArg₂ (fun a b : EReal => a + b)
      (Finset.sum_congr rfl fun e _ => congrArg₂ (fun a b : EReal => a * b) (y3_apply V c n e) (iblk3_2_apply V c t j e hc))
      (iblk3_3_apply V c t j hc)
  · rw [if_neg (show ¬ (((grid3.coords t) 0).val * tilesPerHalf3 + ((grid3.coords t) 1).val) * tileWidth3 + j.val < validCols3 from e1 ▸ hv), if_neg hv]

/-! ## What a point writes back, and the array after the launch -/

/-- What the body leaves in the output's buffer at point t, at row n and lane j, is the array function at an index
    with row n and the tile's column j. -/
theorem out3_7_at (c : Dev nD) (t : Fin cfg3.N) (n : Fin 512) (j : Fin tileWidth3) (i : S512x20480.Idx)
    (h0 : (i 0).val = n.val) (h1 : (i 1).val = win3_7.index t (1 : Fin 2) * tileWidth3 + j.val) :
    out3_7 V c t (ix2 n j) = outG3 V c i := by
  have hc : win3_7.index t (1 : Fin 2) * tileWidth3 + j.val < 2 * tilesPerHalf3 * tileWidth3 := h1 ▸ (i 1).isLt
  have hi0 : i 0 = n := Fin.ext h0
  have hi1 : i 1 = ⟨win3_7.index t (1 : Fin 2) * tileWidth3 + j.val, hc⟩ := Fin.ext h1
  unfold out3_7 outG3
  rw [hi0, hi1]
  refine (k3_pay2_apply (grid3.coords t) (y3 V c) (iblk3 V c 2 t) (iblk3 V c 3 t) (iblk3 V c 4 t) (iblk3 V c 5 t) (iblk3 V c 6 t) n j).trans ?_
  exact congrArg₂ (fun a b : EReal => a + b)
    (congrArg₂ (fun a b : EReal => a - b)
      (congrArg₂ (fun a b : EReal => a - b) (logit3_eq V c t n j hc) (iblk3_4_apply V c t n))
      (congrArg Ideal.log (iblk3_5_apply V c t n)))
    (iblk3_6_apply V c t n)

/-- What point t writes back is block t of the array function. -/
theorem flushed3_7_eq (c : Dev nD) (t : Fin cfg3.N) :
    (dat3 V c).flushed 7 t = ((cfg3.win 7).blk t).view.read (Elt Ideal) (outG3 V c) := by
  obtain ⟨-, -, -, -, -, -, -, -, -, -, -, -, -, -, e0, -, -⟩ := idxs3 t
  show (cfg3.win 7).cut (grid3.coords t) ((dat3 V c).after 7 t) = _
  rw [after3_7]
  funext y
  obtain ⟨n, j, rfl⟩ : ∃ (n : Fin 512) (j : Fin tileWidth3), y = ix2 n j := ⟨y 0, y 1, eq_ix2 y⟩
  show out3_7 V c t (ix2 n j) = outG3 V c (((cfg3.win 7).blk t).view.emb (ix2 n j))
  refine out3_7_at V c t n j _ ?_ ?_
  · show win3_7.index t (0 : Fin 2) * 512 + 1 * n.val = n.val
    rw [e0]; omega
  · show win3_7.index t (1 : Fin 2) * tileWidth3 + 1 * j.val = win3_7.index t (1 : Fin 2) * tileWidth3 + j.val
    omega

/-- An index of the output array is in point t's block iff each coordinate is in the block's range on its axis. -/
theorem memblk3 (t : Fin cfg3.N) (i : S512x20480.Idx) :
    i ∈ ((cfg3.win 7).blk t).view.set ↔ ∀ a : Fin 2, win3_7.index t a * S512x2048.size a ≤ (i a).val ∧ (i a).val < win3_7.index t a * S512x2048.size a + S512x2048.size a := by
  show i ∈ ((View.whole main_v74).slice (win3_7.rect t)).set ↔ _
  rw [View.set_slice_whole, Rect.mem_set_unit]
  exact Iff.rfl

/-- Every index of the output array is in some point's block: column col is in the block of the point whose tile
    is col / tileWidth. -/
theorem cover3 (i : S512x20480.Idx) :
    ∃ t : Fin cfg3.N, (cfg3.win 7).flush t = true ∧ i ∈ ((cfg3.win 7).blk t).view.set := by
  have hi0 : (i 0).val < 512 := (i 0).isLt
  have hi1 : (i 1).val < 2 * tilesPerHalf3 * tileWidth3 := (i 1).isLt
  have hw : 0 < tileWidth3 := by decide
  have hq : (i 1).val / tileWidth3 < 2 * tilesPerHalf3 := Nat.div_lt_of_lt_mul (by rw [Nat.mul_comm]; exact hi1)
  obtain ⟨t, ht⟩ := onto3 ⟨(i 1).val / tileWidth3, hq⟩
  obtain ⟨-, -, -, -, -, -, -, -, -, -, -, -, -, -, e0, -, -⟩ := idxs3 t
  refine ⟨t, flush3_7 t, ?_⟩
  rw [memblk3]
  intro a
  match a with
  | ⟨0, _⟩ =>
    show win3_7.index t (0 : Fin 2) * 512 ≤ (i 0).val ∧ (i 0).val < win3_7.index t (0 : Fin 2) * 512 + 512
    rw [e0]; omega
  | ⟨1, _⟩ =>
    show win3_7.index t (1 : Fin 2) * tileWidth3 ≤ (i 1).val ∧ (i 1).val < win3_7.index t (1 : Fin 2) * tileWidth3 + tileWidth3
    rw [ht]
    exact ⟨Nat.div_mul_le_self _ _, Nat.lt_div_mul_add hw⟩

/-- The output array after the launch is the array function. -/
theorem out3_all (c : Dev nD) : (dat3 V c).arrAt 7 cfg3.N = outG3 V c :=
  (dat3 V c).arrAt_eq_of_cover 7 (outG3 V c) (fun t _ => flushed3_7_eq V c t) cover3

/-- THE RESULT: at row n and a real column col the output array holds the logit less the row's maximum and the
    logarithm of the row's sum, plus the row's extra term. -/
theorem out3_valid (c : Dev nD) (n : Fin 512) (col : Fin (2 * tilesPerHalf3 * tileWidth3)) (hv : col.val < validCols3) :
    (dat3 V c).arrAt 7 cfg3.N (ix2 n col)
      = ((zrow3 V c n col.val - mA3 V c (ix2 n (0 : Fin 1))) - Ideal.log (lA3 V c (ix2 n (0 : Fin 1))))
          + exA3 V c (ix2 n (0 : Fin 1)) := by
  have hx : xz3 V c n col = zrow3 V c n col.val := by
    unfold xz3 zrow3
    rw [if_pos hv, dif_pos col.isLt]
    rfl
  refine (congrFun (out3_all V c) (ix2 n col)).trans ?_
  show ((xz3 V c n col - mA3 V c (ix2 n (0 : Fin 1))) - Ideal.log (lA3 V c (ix2 n (0 : Fin 1)))) + exA3 V c (ix2 n (0 : Fin 1)) = _
  rw [hx]

end Cert.KernelIdeal.Hand

end
-- ==== Proof.KernelCluster1.lean ====
/-
  Vocabulary cluster 1 (launches 2 and 3): what launch 3 leaves in its output array, row by row.

  The score row that each of the two launches computes for row r = 4·s + b from its window arrays — the hidden rows, the
  cluster's projection, its weight matrix padded with zero rows, its bias padded with zeros — is, below the cluster's
  width, the cluster's score of the token (s, b) (zrow2_score, zrow3_score). Launch 2 leaves the two halves' running
  maxima and sums of the masked tiles of that row; the host merges them and launch 3 writes, at a real column, the score
  less the merged maximum less the logarithm of the merged sum plus the head's log-probability of the cluster. That is
  the head's log-probability of the cluster plus the log-softmax of the cluster's scores at the column (out16_eq).
-/
import proofs.«124427_j55336358642036_2_alg».proof.Proof.KernelArgs
import proofs.«124427_j55336358642036_2_alg».proof.Proof.HostGlue2
import proofs.«124427_j55336358642036_2_alg».proof.Proof.Assemble
import proofs.«124427_j55336358642036_2_alg».proof.Proof.Stats2Value3
import proofs.«124427_j55336358642036_2_alg».proof.Proof.Write3Value
import proofs.«124427_j55336358642036_2_alg».proof.Proof.Sizes

set_option maxRecDepth 16384

noncomputable section

namespace Cert.KernelIdeal.Hand

open Cert.KernelIdeal.Gen Cert.KernelIdeal.GenP Cert.Sizes
open Idealize.ShloMosaic Idealize.ShloMosaic.TcCoe
open Idealize.ShloMosaic.ValueIdx
open Cert.OnlineSoftmax
open scoped BigOperators

variable (m : (ℓ : Loc nD τ sig) → Buf (Elt Ideal) ℓ)

/-- The score row launch 2 computes from its window arrays is the cluster's score below its width. -/
theorem zrow2_score (c : Dev nD) (r : Fin 512) (s : Fin 128) (b : Fin 4) (hr : r.val = 4 * s.val + b.val)
    (col : ℕ) (hc : col < validCols2) :
    zrow2 (rd (V13 m (outs m))) c r col
      = Cert.Spec.score ((kArgs m c).hidden s b) (kArgs m c).proj1 (kArgs m c).W1 (kArgs m c).b1 col := by
  have hcp : col < 2 * tilesPerHalf2 * tileWidth2 := lt_of_lt_of_le hc (by decide)
  unfold zrow2
  rw [dif_pos hcp]
  simp only [yrow2]
  refine Cert.Spec.padded_eq_score (npad := 2 * tilesPerHalf2 * tileWidth2) _ _ _ _
    (fun k => Stats2_hidA (rd (V13 m (outs m))) c (ix2 r k))
    (fun e k => Stats2_prjA (rd (V13 m (outs m))) c (ix2 e k))
    (fun j e => Stats2_wA (rd (V13 m (outs m))) c (ix2 j e))
    (fun j => Stats2_bA (rd (V13 m (outs m))) c (ix2 (0 : Fin 1) j)) ?_ ?_ ?_ ?_ hc hcp
  · intro k
    show (V13 m (outs m) c main_v1 : S512x1024.Idx → EReal) (ix2 r k) = _
    rw [V13_v1 m (outs m)]
    exact hid_eq m c r s b hr k
  · intro e k
    show (V13 m (outs m) c main_v51 : S256x1024.Idx → EReal) (ix2 e k) = _
    rw [V13_v51 m (outs m)]
    rfl
  · intro j h e
    show (V13 m (outs m) c main_v53 : S20480x256.Idx → EReal) (ix2 j e) = _
    rw [V13_v53 m (outs m)]
    unfold padRows
    rw [dif_pos h]
    rfl
  · intro j h
    show (V13 m (outs m) c main_v55 : S1x20480.Idx → EReal) (ix2 (0 : Fin 1) j) = _
    rw [V13_v55 m (outs m)]
    unfold padVec
    rw [dif_pos h]
    rfl

/-- The score row launch 3 computes from its window arrays is the cluster's score below its width. -/
theorem zrow3_score (c : Dev nD) (r : Fin 512) (s : Fin 128) (b : Fin 4) (hr : r.val = 4 * s.val + b.val)
    (col : ℕ) (hc : col < validCols3) :
    zrow3 (rd (V15 m (outs m))) c r col
      = Cert.Spec.score ((kArgs m c).hidden s b) (kArgs m c).proj1 (kArgs m c).W1 (kArgs m c).b1 col := by
  have hcp : col < 2 * tilesPerHalf3 * tileWidth3 := lt_of_lt_of_le hc (by decide)
  unfold zrow3
  rw [dif_pos hcp]
  simp only [yrow3]
  refine Cert.Spec.padded_eq_score (npad := 2 * tilesPerHalf3 * tileWidth3) _ _ _ _
    (fun k => hidA3 (rd (V15 m (outs m))) c (ix2 r k))
    (fun e k => prjA3 (rd (V15 m (outs m))) c (ix2 e k))
    (fun j e => wA3 (rd (V15 m (outs m))) c (ix2 j e))
    (fun j => bA3 (rd (V15 m (outs m))) c (ix2 (0 : Fin 1) j)) ?_ ?_ ?_ ?_ hc hcp
  · intro k
    show (V15 m (outs m) c main_v1 : S512x1024.Idx → EReal) (ix2 r k) = _
    rw [V15_v1 m (outs m)]
    exact hid_eq m c r s b hr k
  · intro e k
    show (V15 m (outs m) c main_v51 : S256x1024.Idx → EReal) (ix2 e k) = _
    rw [V15_v51 m (outs m)]
    rfl
  · intro j h e
    show (V15 m (outs m) c main_v53 : S20480x256.Idx → EReal) (ix2 j e) = _
    rw [V15_v53 m (outs m)]
    unfold padRows
    rw [dif_pos h]
    rfl
  · intro j h
    show (V15 m (outs m) c main_v55 : S1x20480.Idx → EReal) (ix2 (0 : Fin 1) j) = _
    rw [V15_v55 m (outs m)]
    unfold padVec
    rw [dif_pos h]
    rfl

/-- What launch 3 writes at row r = 4·s + b and a real column of cluster 1: the head's log-probability of the
    cluster plus the cluster's own log-softmax. -/
theorem out16_eq (c : Dev nD) (hA : Cert.Spec.ArgsReal (kArgs m c)) (r : Fin 512) (s : Fin 128) (b : Fin 4)
    (hr : r.val = 4 * s.val + b.val) (col : Fin (2 * tilesPerHalf3 * tileWidth3)) (hv : col.val < validCols3) :
    (outs m 16 main_v74 c : S512x20480.Idx → EReal) (ix2 r col)
      = xlogprob m (outs m) c r (0 : Fin 3)
        + logSoftmax 20000 (Cert.Spec.score ((kArgs m c).hidden s b) (kArgs m c).proj1 (kArgs m c).W1 (kArgs m c).b1) col.val := by
  rw [outs_16 m c, out3_valid (rd (V15 m (outs m))) c r col hv]
  have hmA : mA3 (rd (V15 m (outs m))) c (ix2 r (0 : Fin 1)) = mrgM (outs m 14 main_v56_0 c) r := by
    show (V15 m (outs m) c main_v65 : S512x1.Idx → EReal) (ix2 r (0 : Fin 1)) = _
    rw [V15_v65 m (outs m)]
  have hlA : lA3 (rd (V15 m (outs m))) c (ix2 r (0 : Fin 1))
      = mrgL (outs m 14 main_v56_0 c) (outs m 14 main_v56_1 c) r := by
    show (V15 m (outs m) c main_v72 : S512x1.Idx → EReal) (ix2 r (0 : Fin 1)) = _
    rw [V15_v72 m (outs m)]
  have hex : exA3 (rd (V15 m (outs m))) c (ix2 r (0 : Fin 1)) = xlogprob m (outs m) c r (0 : Fin 3) := by
    show (V15 m (outs m) c main_v73 : S512x1.Idx → EReal) (ix2 r (0 : Fin 1)) = _
    rw [V15_v73 m (outs m)]
  rw [hex]
  exact Cert.Spec.tail_row (T := tilesPerHalf2) (fun k => hA.hidden s b k) hA.proj1 hA.W1 hA.b1
    (zrow2 (rd (V13 m (outs m))) c r) (zrow3 (rd (V15 m (outs m))) c r)
    (fun col hc => zrow2_score m c r s b hr col hc) (fun col hc => zrow3_score m c r s b hr col hc)
    (xrow2_tiled (rd (V13 m (outs m))) c r) (by decide) (by decide)
    (fun h => (outs m 14 main_v56_0 c : S2x512x1.Idx → EReal) (ix3 h r (0 : Fin 1)))
    (fun h => (outs m 14 main_v56_1 c : S2x512x1.Idx → EReal) (ix3 h r (0 : Fin 1)))
    (fun h => by rw [outs_14_0 m c]; exact Stats2_m_parts (rd (V13 m (outs m))) c h r)
    (fun h => by rw [outs_14_1 m c]; exact Stats2_l_parts (rd (V13 m (outs m))) c h r)
    hmA hlA hv rfl

end Cert.KernelIdeal.Hand

end
-- ==== Proof.Stats4Pay.lean ====
/-
  The statistics launch of one vocabulary cluster, read at an index at the ideal float values.

  Every grid point (half h, tile t) forms the logit tile  y · Wᵀ + bias  of its 512 rows against its block of
  tileWidth columns, masks the columns from validCols on to the bottom element, and updates the row's running
  maximum m and running sum l:   m' = max m (max over the tile),   l' = l · exp (m − m') + Σ_j exp (x_j − m').
  At the first tile of a half it first forms the scratch block  hidden · projᵀ  and sets m to the bottom element
  and l to zero.  Each store of the body is a pure function of its loads; this module reads those functions at one
  index: the tile's entry (Stats4_logit), the new maximum and its stored form (Stats4_newMax, Stats4_storedMax),
  the rescaled old sum (Stats4_rescaled), the maximum spread over the tile (Stats4_bcastMax), the new sum
  (Stats4_newSum), the first-tile stores (Stats4_scratch, Stats4_initMax, Stats4_initSum), and in one statement the
  pair (m', l') as one step of the online softmax on the tile (Stats4_step).
-/
import proofs.«124427_j55336358642036_2_alg».proof.Proof.Gen.KernelIdeal.Skeleton
import proofs.«124427_j55336358642036_2_alg».proof.Proof.Sizes
import proofs.«124427_j55336358642036_2_alg».proof.Proof.LibOnlineSoftmax
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate
import Mathlib.Data.Finset.Lattice.Fold

noncomputable section

namespace Cert.KernelIdeal.Hand

open Idealize.ShloMosaic Idealize.ShloMosaic.ValueIdx Cert.KernelIdeal.Gen Cert.Sizes
open scoped BigOperators

/-! ## The tile -/

/-- The masked logit tile of grid point i = (h, t) at row n: column j of the tile is column (h·T + t)·tn + j of the
    cluster; below validCols it holds the row of y against row j of the weight block plus the bias, from there on
    the bottom element. -/
def Stats4_tile (i : grid4.Coords) (y : FVec Ideal S512x64 .bf16) (Wb : FVec Ideal S4096x64 .bf16)
    (b : FVec Ideal S1x4096 .f32) (n : Fin 512) (j : Fin tileWidth4) : EReal :=
  if ((i 0).val * tilesPerHalf4 + (i 1).val) * tileWidth4 + j.val < validCols4
  then ((∑ e : Fin embDim4, y (ix2 n e) * Wb (ix2 j e) : EReal) + (b (ix2 (0 : Fin 1) j) : EReal)) else ⊥

/-! ## Words: the column number and the mask bit -/

/-- An integer comparison of two vectors at an index compares the elements. -/
theorem Stats4_cmpi_apply {s : Shape} {w : ℕ} (p : CmpIPredicate) (a c : IVec s w) (q : s.Idx) :
    cmpi p a c q = IntOp.cmpi p (a q) (c q) := rfl

/-- An integer sum of two vectors at an index adds the elements. -/
theorem Stats4_addi_apply {s : Shape} {w : ℕ} (a c : IVec s w) (q : s.Idx) :
    addi a c q = IntOp.addi (a q) (c q) := rfl

/-- The 32-bit word the body computes for a column, lane + ((half · T + tile) · tn), is the word of the natural
    number (half · T + tile) · tn + lane. -/
theorem Stats4_word (h T t tn j : ℕ) :
    IntOp.addi (BitVec.ofNat 32 j)
        (Scalar.muli (Scalar.addi (Scalar.muli (BitVec.ofNat 32 h) (BitVec.ofNat 32 T)) (BitVec.ofNat 32 t)) (BitVec.ofNat 32 tn))
      = BitVec.ofNat 32 ((h * T + t) * tn + j) := by
  show BitVec.ofNat 32 j + (BitVec.ofNat 32 h * BitVec.ofNat 32 T + BitVec.ofNat 32 t) * BitVec.ofNat 32 tn = _
  rw [BitVec.ofNat_mul_ofNat, BitVec.ofNat_add_ofNat, BitVec.ofNat_mul_ofNat, BitVec.ofNat_add_ofNat, Nat.add_comm]

/-- Every column number of the grid is a small non-negative word. -/
theorem Stats4_colBound (h t j : ℕ) (hh : h < 2) (ht : t < tilesPerHalf4) (hj : j < tileWidth4) :
    (h * tilesPerHalf4 + t) * tileWidth4 + j < 2 ^ 31 := by
  unfold tilesPerHalf4 at *
  unfold tileWidth4 at *
  omega

/-! ## The two products -/

theorem Stats4_lhsW_0 (q : S512x4096.Idx) (k : dot_S512x64_S4096x64_S512x4096_1_1_0_0_n_n.contr.Idx) :
    (dot_S512x64_S4096x64_S512x4096_1_1_0_0_n_n.lhsIdx q k 0).val = (q 0).val := by
  unfold DotDims.lhsIdx
  rw [dif_neg (show ¬(0 : Fin S512x64.rank) ∈ dot_S512x64_S4096x64_S512x4096_1_1_0_0_n_n.lhsBatch by decide), dif_pos (show (0 : Fin S512x64.rank) ∈ dot_S512x64_S4096x64_S512x4096_1_1_0_0_n_n.lhsNonContracting by decide)]
  rfl
theorem Stats4_lhsW_1 (q : S512x4096.Idx) (k : dot_S512x64_S4096x64_S512x4096_1_1_0_0_n_n.contr.Idx) :
    (dot_S512x64_S4096x64_S512x4096_1_1_0_0_n_n.lhsIdx q k 1).val = (k ⟨0, by decide⟩).val :=
  dot_S512x64_S4096x64_S512x4096_1_1_0_0_n_n.lhsIdx_val_of_single rfl q k
theorem Stats4_rhsW_0 (q : S512x4096.Idx) (k : dot_S512x64_S4096x64_S512x4096_1_1_0_0_n_n.contr.Idx) :
    (dot_S512x64_S4096x64_S512x4096_1_1_0_0_n_n.rhsIdx q k 0).val = (q 1).val := by
  unfold DotDims.rhsIdx
  rw [dif_neg (show ¬(0 : Fin S4096x64.rank) ∈ dot_S512x64_S4096x64_S512x4096_1_1_0_0_n_n.rhsBatch by decide), dif_pos (show (0 : Fin S4096x64.rank) ∈ dot_S512x64_S4096x64_S512x4096_1_1_0_0_n_n.rhsNonContracting by decide)]
  rfl
theorem Stats4_rhsW_1 (q : S512x4096.Idx) (k : dot_S512x64_S4096x64_S512x4096_1_1_0_0_n_n.contr.Idx) :
    (dot_S512x64_S4096x64_S512x4096_1_1_0_0_n_n.rhsIdx q k 1).val = (k ⟨0, by decide⟩).val :=
  dot_S512x64_S4096x64_S512x4096_1_1_0_0_n_n.rhsIdx_val_of_single rfl q k

/-- The tile's product at (n, j): row n of y against row j of the weight block. -/
theorem Stats4_dotW (y : FVec Ideal S512x64 .bf16) (Wb : FVec Ideal S4096x64 .bf16) (n : Fin 512) (j : Fin tileWidth4) :
    matmul (F := Ideal) dot_S512x64_S4096x64_S512x4096_1_1_0_0_n_n none y Wb (constant (F := Ideal) S512x4096 .f32 0x00000000#32) (ix2 n j)
      = ∑ e : Fin embDim4, y (ix2 n e) * Wb (ix2 j e) := by
  simp only [matmul]
  rw [Ideal.matmul_constant_zero_apply, ← Equiv.sum_comp (contrEquiv1 dot_S512x64_S4096x64_S512x4096_1_1_0_0_n_n embDim4 rfl rfl).symm]
  refine Finset.sum_congr rfl fun e _ => ?_
  have he := contrEquiv1_symm_val dot_S512x64_S4096x64_S512x4096_1_1_0_0_n_n embDim4 rfl rfl e
  have el : dot_S512x64_S4096x64_S512x4096_1_1_0_0_n_n.lhsIdx (ix2 n j) ((contrEquiv1 dot_S512x64_S4096x64_S512x4096_1_1_0_0_n_n embDim4 rfl rfl).symm e) = ix2 n e := funext fun a => Fin.ext (by
    match a with
    | ⟨0, _⟩ => exact Stats4_lhsW_0 _ _
    | ⟨1, _⟩ => exact (Stats4_lhsW_1 _ _).trans he)
  have er : dot_S512x64_S4096x64_S512x4096_1_1_0_0_n_n.rhsIdx (ix2 n j) ((contrEquiv1 dot_S512x64_S4096x64_S512x4096_1_1_0_0_n_n embDim4 rfl rfl).symm e) = ix2 j e := funext fun a => Fin.ext (by
    match a with
    | ⟨0, _⟩ => exact Stats4_rhsW_0 _ _
    | ⟨1, _⟩ => exact (Stats4_rhsW_1 _ _).trans he)
  rw [el, er]

theorem Stats4_lhsP_0 (q : S512x64.Idx) (k : dot_S512x1024_S64x1024_S512x64_1_1_0_0_n_n.contr.Idx) :
    (dot_S512x1024_S64x1024_S512x64_1_1_0_0_n_n.lhsIdx q k 0).val = (q 0).val := by
  unfold DotDims.lhsIdx
  rw [dif_neg (show ¬(0 : Fin S512x1024.rank) ∈ dot_S512x1024_S64x1024_S512x64_1_1_0_0_n_n.lhsBatch by decide), dif_pos (show (0 : Fin S512x1024.rank) ∈ dot_S512x1024_S64x1024_S512x64_1_1_0_0_n_n.lhsNonContracting by decide)]
  rfl
theorem Stats4_lhsP_1 (q : S512x64.Idx) (k : dot_S512x1024_S64x1024_S512x64_1_1_0_0_n_n.contr.Idx) :
    (dot_S512x1024_S64x1024_S512x64_1_1_0_0_n_n.lhsIdx q k 1).val = (k ⟨0, by decide⟩).val :=
  dot_S512x1024_S64x1024_S512x64_1_1_0_0_n_n.lhsIdx_val_of_single rfl q k
theorem Stats4_rhsP_0 (q : S512x64.Idx) (k : dot_S512x1024_S64x1024_S512x64_1_1_0_0_n_n.contr.Idx) :
    (dot_S512x1024_S64x1024_S512x64_1_1_0_0_n_n.rhsIdx q k 0).val = (q 1).val := by
  unfold DotDims.rhsIdx
  rw [dif_neg (show ¬(0 : Fin S64x1024.rank) ∈ dot_S512x1024_S64x1024_S512x64_1_1_0_0_n_n.rhsBatch by decide), dif_pos (show (0 : Fin S64x1024.rank) ∈ dot_S512x1024_S64x1024_S512x64_1_1_0_0_n_n.rhsNonContracting by decide)]
  rfl
theorem Stats4_rhsP_1 (q : S512x64.Idx) (k : dot_S512x1024_S64x1024_S512x64_1_1_0_0_n_n.contr.Idx) :
    (dot_S512x1024_S64x1024_S512x64_1_1_0_0_n_n.rhsIdx q k 1).val = (k ⟨0, by decide⟩).val :=
  dot_S512x1024_S64x1024_S512x64_1_1_0_0_n_n.rhsIdx_val_of_single rfl q k

/-- The scratch block's product at (n, e): row n of the hidden block against row e of the projection. -/
theorem Stats4_dotP (hid : FVec Ideal S512x1024 .bf16) (prj : FVec Ideal S64x1024 .bf16) (n : Fin 512) (e : Fin embDim4) :
    matmul (F := Ideal) dot_S512x1024_S64x1024_S512x64_1_1_0_0_n_n none hid prj (constant (F := Ideal) S512x64 .f32 0x00000000#32) (ix2 n e)
      = ∑ k : Fin 1024, hid (ix2 n k) * prj (ix2 e k) := by
  simp only [matmul]
  rw [Ideal.matmul_constant_zero_apply, ← Equiv.sum_comp (contrEquiv1 dot_S512x1024_S64x1024_S512x64_1_1_0_0_n_n 1024 rfl rfl).symm]
  refine Finset.sum_congr rfl fun k _ => ?_
  have hk := contrEquiv1_symm_val dot_S512x1024_S64x1024_S512x64_1_1_0_0_n_n 1024 rfl rfl k
  have el : dot_S512x1024_S64x1024_S512x64_1_1_0_0_n_n.lhsIdx (ix2 n e) ((contrEquiv1 dot_S512x1024_S64x1024_S512x64_1_1_0_0_n_n 1024 rfl rfl).symm k) = ix2 n k := funext fun a => Fin.ext (by
    match a with
    | ⟨0, _⟩ => exact Stats4_lhsP_0 _ _
    | ⟨1, _⟩ => exact (Stats4_lhsP_1 _ _).trans hk)
  have er : dot_S512x1024_S64x1024_S512x64_1_1_0_0_n_n.rhsIdx (ix2 n e) ((contrEquiv1 dot_S512x1024_S64x1024_S512x64_1_1_0_0_n_n 1024 rfl rfl).symm k) = ix2 e k := funext fun a => Fin.ext (by
    match a with
    | ⟨0, _⟩ => exact Stats4_rhsP_0 _ _
    | ⟨1, _⟩ => exact (Stats4_rhsP_1 _ _).trans hk)
  rw [el, er]

/-! ## The tile's entry -/

/-- The named floor constant is the bottom element at the ideal values. -/
theorem Stats4_negBig : Named.named (F := Ideal) κ "neg_big" (φ := .f32) 0xFF333332#32 = ⊥ :=
  IdealRules.named_const.ideal_named_scalar _ _ _ _ rfl

/-- The masked logit the body forms, at (n, j), is the tile's entry. -/
theorem Stats4_logit (i : grid4.Coords) (y : FVec Ideal S512x64 .bf16) (Wb : FVec Ideal S4096x64 .bf16)
    (b : FVec Ideal S1x4096 .f32) (n : Fin 512) (j : Fin tileWidth4) :
    k4_pay6 (F := Ideal) i y Wb b (ix2 n j) = Stats4_tile i y Wb b n j := by
  unfold k4_pay6 Stats4_tile
  dsimp only
  rw [select_apply]
  unfold Scalar.select
  refine ite_congr (propext ?_) (fun _ => ?_) (fun _ => ?_)
  · rw [Stats4_cmpi_apply, Stats4_addi_apply, broadcast_apply, broadcast_apply, iota_single_apply, Stats4_word]
    unfold IntOp.cmpi
    exact StableHlo.Predicate.slt_ofNat_iff _ _ (Stats4_colBound _ _ _ (i 0).isLt (i 1).isLt j.isLt) (by decide)
  · rw [addf_apply, shapeCast_self, shapeCast_self, Stats4_dotW, broadcastTo_1b_ab_apply]
  · exact Stats4_negBig

/-! ## Layout steps of the running statistics -/

/-- A [512] vector viewed as a [512, 1] column reads its entry n at (n, c). -/
theorem Stats4_col_apply (v : FVec Ideal S512 .f32) (h : S512.ShapeCasts S512x1) (n : Fin 512) (c : Fin 1) :
    shapeCast S512x1 v h (ix2 n c) = v (ix1 n) :=
  shapeCast_apply v h _ _ (by
    have hc : c.val = 0 := by omega
    rw [Shape.rowMajor_val_one, Shape.rowMajor_val_two]
    show n.val = n.val * 1 + c.val
    omega)

/-- A [512, 1] column spread over the tile's lanes reads its entry n at (n, j). -/
theorem Stats4_spread_apply (v : FVec Ideal S512x1 .f32) (h : S512x1.Broadcasts S512x4096) (n : Fin 512) (j : Fin tileWidth4) :
    broadcastTo S512x4096 v h (ix2 n j) = v (ix2 n (0 : Fin 1)) := by
  refine broadcastTo_apply v h (ix2 n j) (ix2 n (0 : Fin 1)) fun ax => ?_
  match ax with
  | ⟨0, _⟩ => rfl
  | ⟨1, _⟩ => rfl

/-- The exponential of a vector at an index is the exponential of the element. -/
theorem Stats4_exp_apply {s : Shape} {φ : FTy} (a : FVec Ideal s φ) (q : s.Idx) : exp a q = Ideal.exp (a q) := rfl

/-- The index a lane reduction of the tile reads at row n and lane k. -/
theorem Stats4_lift (h : S512x4096.Reduces [1] S512) (n : Fin 512) (k : Fin tileWidth4) : h.lift (ix1 n) k = ix2 n k :=
  funext fun c => Fin.ext (by match c with | ⟨0, _⟩ => rfl | ⟨1, _⟩ => rfl)

/-- The row maximum over the tile's lanes, from the bottom element. -/
theorem Stats4_rowMax (x : FVec Ideal S512x4096 .f32) (h : S512x4096.Reduces [1] S512) (hφ : FKind.Formats .f32)
    (hacc : (0xFF800000#32 : BitVec 32) = 0xFF800000#32) (n : Fin 512) :
    multiReduction .maximumf [1] S512 x 0xFF800000#32 h hφ hacc (ix1 n) = Finset.univ.sup fun j : Fin tileWidth4 => x (ix2 n j) := by
  refine (Ideal.multiReduction_maximumf_single x 0xFF800000#32 h hφ hacc (ix1 n)).trans ?_
  have hb : (FloatOps.ofBits .f32 0xFF800000#32 : Ideal .f32) = ⊥ := by
    show Ideal.ofBits .f32 0xFF800000#32 = ⊥
    simp [Ideal.ofBits, Ideal.ieee]
  have hf : (x ∘ h.lift (ix1 n)) = fun j : Fin tileWidth4 => x (ix2 n j) :=
    funext fun k => congrArg x (Stats4_lift h n k)
  rw [hb, hf]
  rfl

/-- The row sum over the tile's lanes. -/
theorem Stats4_rowSum (x : FVec Ideal S512x4096 .f32) (h : S512x4096.Reduces [1] S512) (hφ : FKind.Formats .f32)
    (hacc : (0x00000000#32 : BitVec 32) = 0x00000000#32) (n : Fin 512) :
    multiReduction .add [1] S512 x 0x00000000#32 h hφ hacc (ix1 n) = ∑ j : Fin tileWidth4, x (ix2 n j) := by
  refine (Ideal.multiReduction_add_single x 0x00000000#32 h hφ hacc (ix1 n)).trans ?_
  exact Finset.sum_congr rfl fun k _ => congrArg x (Stats4_lift h n k)

/-! ## The running maximum -/

/-- The new running maximum at row n: the loaded one against the tile's maximum. -/
theorem Stats4_newMax (i : grid4.Coords) (y : FVec Ideal S512x64 .bf16) (Wb : FVec Ideal S4096x64 .bf16)
    (b : FVec Ideal S1x4096 .f32) (m : FVec Ideal S1x512x1 .f32) (n : Fin 512) (c : Fin 1) :
    k4_pay7 (F := Ideal) i y Wb b m (ix2 n c)
      = max (m (ix3 (0 : Fin 1) n (0 : Fin 1))) (Finset.univ.sup (Stats4_tile i y Wb b n)) := by
  obtain rfl : c = 0 := Subsingleton.elim _ _
  unfold k4_pay7
  rw [maximumf_apply, shapeCast_1ab_ab_apply, Stats4_col_apply, Stats4_rowMax]
  simp only [Stats4_logit]

/-- The block the body stores a [512, 1] column into reads the column. -/
theorem Stats4_pay2 (v : FVec Ideal S512x1 .f32) (u : Fin 1) (n : Fin 512) (c : Fin 1) :
    k4_pay2 (F := Ideal) v (ix3 u n c) = v (ix2 n c) := by
  unfold k4_pay2
  exact shapeCast_ab_1ab_apply v _ u n c

/-- The stored running maximum. -/
theorem Stats4_storedMax (i : grid4.Coords) (y : FVec Ideal S512x64 .bf16) (Wb : FVec Ideal S4096x64 .bf16)
    (b : FVec Ideal S1x4096 .f32) (m : FVec Ideal S1x512x1 .f32) (u : Fin 1) (n : Fin 512) (c : Fin 1) :
    k4_pay2 (k4_pay7 (F := Ideal) i y Wb b m) (ix3 u n c)
      = max (m (ix3 (0 : Fin 1) n (0 : Fin 1))) (Finset.univ.sup (Stats4_tile i y Wb b n)) := by
  rw [Stats4_pay2, Stats4_newMax]

/-- The old running sum rescaled to the new maximum. -/
theorem Stats4_rescaled (i : grid4.Coords) (y : FVec Ideal S512x64 .bf16) (Wb : FVec Ideal S4096x64 .bf16)
    (b : FVec Ideal S1x4096 .f32) (m m' l : FVec Ideal S1x512x1 .f32) (n : Fin 512) (c : Fin 1) :
    k4_pay8 (F := Ideal) i y Wb b m m' l (ix2 n c)
      = l (ix3 (0 : Fin 1) n (0 : Fin 1))
          * Ideal.exp (m' (ix3 (0 : Fin 1) n (0 : Fin 1))
              - max (m (ix3 (0 : Fin 1) n (0 : Fin 1))) (Finset.univ.sup (Stats4_tile i y Wb b n))) := by
  obtain rfl : c = 0 := Subsingleton.elim _ _
  unfold k4_pay8
  rw [mulf_apply, Stats4_exp_apply, subf_apply, shapeCast_1ab_ab_apply, shapeCast_1ab_ab_apply, Stats4_newMax]

/-- The new running maximum spread over the tile's lanes. -/
theorem Stats4_bcastMax (i : grid4.Coords) (y : FVec Ideal S512x64 .bf16) (Wb : FVec Ideal S4096x64 .bf16)
    (b : FVec Ideal S1x4096 .f32) (m : FVec Ideal S1x512x1 .f32) (n : Fin 512) (j : Fin tileWidth4) :
    k4_pay9 (F := Ideal) i y Wb b m (ix2 n j)
      = max (m (ix3 (0 : Fin 1) n (0 : Fin 1))) (Finset.univ.sup (Stats4_tile i y Wb b n)) := by
  unfold k4_pay9
  rw [Stats4_spread_apply, Stats4_newMax]

/-! ## The running sum -/

/-- The new running sum at row n: the rescaled old sum plus the tile's exponentials against the spread maximum. -/
theorem Stats4_newSum (x : FVec Ideal S512x4096 .f32) (r : FVec Ideal S512x1 .f32) (mb : FVec Ideal S512x4096 .f32)
    (u : Fin 1) (n : Fin 512) (c : Fin 1) :
    k4_pay1 (F := Ideal) x r mb (ix3 u n c)
      = r (ix2 n (0 : Fin 1)) + ∑ j : Fin tileWidth4, Ideal.exp (x (ix2 n j) - mb (ix2 n j)) := by
  obtain rfl : c = 0 := Subsingleton.elim _ _
  unfold k4_pay1
  rw [shapeCast_ab_1ab_apply, addf_apply, Stats4_col_apply, Stats4_rowSum]
  rfl

/-! ## The first tile's stores -/

/-- The scratch block at (n, e): the hidden row against the projection's row e (the narrowing to the scratch
    block's format is the identity on the ideal values). -/
theorem Stats4_scratch (hid : FVec Ideal S512x1024 .bf16) (prj : FVec Ideal S64x1024 .bf16) (n : Fin 512) (e : Fin embDim4) :
    k4_pay3 (F := Ideal) hid prj (ix2 n e) = ∑ k : Fin 1024, hid (ix2 n k) * prj (ix2 e k) := by
  unfold k4_pay3
  simp only [shapeCast_self, truncf_apply]
  exact Stats4_dotP hid prj n e

/-- The first tile sets the running maximum to the bottom element … -/
theorem Stats4_initMax : k4_pay4 (F := Ideal) = fun _ => ⊥ := by
  funext q
  obtain ⟨u, n, c, rfl⟩ : ∃ (u : Fin 1) (n : Fin 512) (c : Fin 1), q = ix3 u n c := ⟨q 0, q 1, q 2, eq_ix3 q⟩
  unfold k4_pay4
  rw [shapeCast_ab_1ab_apply, broadcast_apply, Stats4_negBig]

/-- … and the running sum to zero. -/
theorem Stats4_initSum : k4_pay5 (F := Ideal) = fun _ => 0 := by
  funext q
  obtain ⟨u, n, c, rfl⟩ : ∃ (u : Fin 1) (n : Fin 512) (c : Fin 1), q = ix3 u n c := ⟨q 0, q 1, q 2, eq_ix3 q⟩
  unfold k4_pay5
  rw [shapeCast_ab_1ab_apply, broadcast_apply]
  exact Ideal.ofBits_zero_f32

/-! ## One step of the online softmax -/

/-- The pair the body stores at row n — the new maximum and the new sum — is one step of the online softmax from
    the loaded pair on the grid point's tile. -/
theorem Stats4_step (i : grid4.Coords) (y : FVec Ideal S512x64 .bf16) (Wb : FVec Ideal S4096x64 .bf16)
    (b : FVec Ideal S1x4096 .f32) (m l : FVec Ideal S1x512x1 .f32) (n : Fin 512) :
    (k4_pay2 (k4_pay7 (F := Ideal) i y Wb b m) (ix3 (0 : Fin 1) n (0 : Fin 1)),
     k4_pay1 (k4_pay6 (F := Ideal) i y Wb b) (k4_pay8 (F := Ideal) i y Wb b m m l) (k4_pay9 (F := Ideal) i y Wb b m)
        (ix3 (0 : Fin 1) n (0 : Fin 1)))
      = Cert.OnlineSoftmax.step (m (ix3 (0 : Fin 1) n (0 : Fin 1)), l (ix3 (0 : Fin 1) n (0 : Fin 1))) (Stats4_tile i y Wb b n) := by
  rw [Stats4_storedMax, Stats4_newSum, Stats4_rescaled]
  simp only [Stats4_logit, Stats4_bcastMax]
  rfl

end Cert.KernelIdeal.Hand
-- ==== Proof.Stats4Value.lean ====
/-
  The statistics launch of one vocabulary cluster, read row by row at the ideal values.

  For one row n of the hidden activations the launch walks, in each half h of its grid, the tiles
  h·T, …, h·T + T − 1 of the row's logits z (the projected row times the padded weight's rows, plus the
  padded bias), masked to the bottom element from the cluster's last real column on. Each tile is one step of the
  online softmax on the pair (running maximum, running sum): so the pair a half ends with is the fold of those
  steps from (⊥, 0), and that is what the two statistics arrays hold at (h, n, 0) after the launch.

  Here: the row's data as functions of the four input arrays (the projected row, the logits, the masked tiles);
  each window's block read back as rows of its array (a block's coordinate is the block index times the block's
  size plus the coordinate inside the block, the block indices decided over the grid); one tile's update as one
  step of the fold; the fold inside a half by induction on the tile; and the arrays after the launch: each half's
  last point writes its block back, and the two blocks are the two halves of the array.
-/
import proofs.«124427_j55336358642036_2_alg».proof.Proof.Stats4Defs
import proofs.«124427_j55336358642036_2_alg».proof.Proof.Stats4Pay
import proofs.«124427_j55336358642036_2_alg».proof.Proof.LibOnlineSoftmax
import proofs.«124427_j55336358642036_2_alg».proof.Proof.Gen.KernelIdeal.Points
import Idealize.ShloMosaic.Lib.ValueIdx
import Idealize.ShloMosaic.Lib.Pipeline.Value

set_option maxRecDepth 16384

noncomputable section

namespace Cert.KernelIdeal.Hand

open Cert.KernelIdeal Cert.KernelIdeal.Gen Cert.Sizes
open Idealize.ShloMosaic Idealize.ShloMosaic.TcCoe Idealize.ShloMosaic.ValueIdx
open Idealize.SL Idealize.SL.Sem
open Idealize.ShloMosaic.Pipeline (Dat)
open scoped BigOperators

-- the contents of the TensorCore's buffers when the launch is entered, at the ideal values
variable (V : (c : Dev nD) → (b : Ref sig .tc) → Buf (Elt Ideal) ((c : Thread nD τ).loc b))

/-! ## The row's data, as functions of the four input arrays -/

/-- The hidden rows, the projection, the padded weight and the padded bias, as the launch finds them. -/
abbrev Stats4_hidA (c : Dev nD) : Vec Ideal S512x1024 .bf16 := V c (Pipeline.arrRef spec4 0)
abbrev Stats4_prjA (c : Dev nD) : Vec Ideal S64x1024 .bf16 := V c (Pipeline.arrRef spec4 1)
abbrev Stats4_wA (c : Dev nD) : Vec Ideal S163840x64 .bf16 := V c (Pipeline.arrRef spec4 2)
abbrev Stats4_bA (c : Dev nD) : Vec Ideal S1x163840 .f32 := V c (Pipeline.arrRef spec4 3)

/-- Row n of the hidden activations, projected: entry e. -/
def yrow4 (c : Dev nD) (n : Fin 512) (e : Fin embDim4) : EReal :=
  ∑ k : Fin 1024, Stats4_hidA V c (ix2 n k) * Stats4_prjA V c (ix2 e k)

/-- Row n's logit at column col of the padded weight: the projected row times the weight's row col, plus the bias
    at col (zero past the padded width, where nothing reads it). -/
def zrow4 (c : Dev nD) (n : Fin 512) (col : ℕ) : EReal :=
  if h : col < 2 * tilesPerHalf4 * tileWidth4 then
    (∑ e : Fin embDim4, yrow4 V c n e * Stats4_wA V c (ix2 (⟨col, h⟩ : Fin (2 * tilesPerHalf4 * tileWidth4)) e))
      + Stats4_bA V c (ix2 (0 : Fin 1) (⟨col, h⟩ : Fin (2 * tilesPerHalf4 * tileWidth4)))
  else 0

/-- Row n's logits cut into tiles, masked to the bottom element from the cluster's last real column on. -/
def xrow4 (c : Dev nD) (n : Fin 512) : ℕ → Fin tileWidth4 → EReal :=
  fun g j => if g * tileWidth4 + j.val < validCols4 then zrow4 V c n (g * tileWidth4 + j.val) else ⊥

theorem xrow4_tiled (c : Dev nD) (n : Fin 512) :
    Cert.OnlineSoftmax.Tiled (zrow4 V c n) validCols4 tileWidth4 (xrow4 V c n) := fun _ _ => rfl

/-! ## The grid: its size, and the windows' block indices at a point -/

theorem Stats4_N : cfg4.N = 2 * tilesPerHalf4 := N_4

theorem Stats4_T_pos : 0 < tilesPerHalf4 := by decide

/-- Point t of the grid is tile t of the row (the grid is the two halves, one after the other); the hidden rows and
    the projection are one block each; the weight's and the bias's block is the tile's; each statistics block is
    the half's. Decided over the grid. -/
theorem Stats4_idx : ∀ t : Fin cfg4.N,
    (grid4.coords t 0).val * tilesPerHalf4 + (grid4.coords t 1).val = t.val
    ∧ win4_0.index t (0 : Fin 2) = 0 ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = t.val
    ∧ win4_4.index t (0 : Fin 3) = t.val / tilesPerHalf4 ∧ win4_4.index t (1 : Fin 3) = 0 ∧ win4_4.index t (2 : Fin 3) = 0
    ∧ win4_5.index t (0 : Fin 3) = t.val / tilesPerHalf4 ∧ win4_5.index t (1 : Fin 3) = 0 ∧ win4_5.index t (2 : Fin 3) = 0 :=
  (by decide +kernel : ∀ t : Fin grid4.N, _)

/-- A column of tile t lies inside the padded width. -/
theorem Stats4_col_lt (t : Fin cfg4.N) (j : Fin tileWidth4) : t.val * tileWidth4 + j.val < 2 * tilesPerHalf4 * tileWidth4 := by
  have ht : t.val + 1 ≤ 2 * tilesPerHalf4 := Nat.lt_of_lt_of_eq t.isLt Stats4_N
  have h1 : t.val * tileWidth4 + j.val < (t.val + 1) * tileWidth4 := by rw [Nat.succ_mul]; have := j.isLt; omega
  exact Nat.lt_of_lt_of_le h1 (Nat.mul_le_mul_right _ ht)

/-! ## The blocks, read back as entries of their arrays -/

theorem Stats4_hidBlk_apply (c : Dev nD) (t : Fin cfg4.N) (n : Fin 512) (k : Fin 1024) :
    hidBlk4 V c t (ix2 n k) = Stats4_hidA V c (ix2 n k) := by
  obtain ⟨-, e0, e1, -⟩ := Stats4_idx t
  show V c (Pipeline.arrRef spec4 0) (((cfg4.win 0).blk t).view.emb (ix2 n k)) = V c (Pipeline.arrRef spec4 0) (ix2 n k)
  congr 1
  funext a; apply Fin.ext
  match a with
  | ⟨0, _⟩ => show win4_0.index t (0 : Fin 2) * 512 + 1 * n.val = n.val; rw [e0]; omega
  | ⟨1, _⟩ => show win4_0.index t (1 : Fin 2) * 1024 + 1 * k.val = k.val; rw [e1]; omega

theorem Stats4_prjBlk_apply (c : Dev nD) (t : Fin cfg4.N) (e : Fin embDim4) (k : Fin 1024) :
    prjBlk4 V c t (ix2 e k) = Stats4_prjA V c (ix2 e k) := by
  obtain ⟨-, -, -, e0, e1, -⟩ := Stats4_idx t
  show V c (Pipeline.arrRef spec4 1) (((cfg4.win 1).blk t).view.emb (ix2 e k)) = V c (Pipeline.arrRef spec4 1) (ix2 e k)
  congr 1
  funext a; apply Fin.ext
  match a with
  | ⟨0, _⟩ => show win4_1.index t (0 : Fin 2) * embDim4 + 1 * e.val = e.val; rw [e0]; omega
  | ⟨1, _⟩ => show win4_1.index t (1 : Fin 2) * 1024 + 1 * k.val = k.val; rw [e1]; omega

theorem Stats4_wBlk_apply (c : Dev nD) (t : Fin cfg4.N) (j : Fin tileWidth4) (e : Fin embDim4)
    (h : t.val * tileWidth4 + j.val < 2 * tilesPerHalf4 * tileWidth4) :
    wBlk4 V c t (ix2 j e) = Stats4_wA V c (ix2 (⟨t.val * tileWidth4 + j.val, h⟩ : Fin (2 * tilesPerHalf4 * tileWidth4)) e) := by
  obtain ⟨-, -, -, -, -, e0, e1, -⟩ := Stats4_idx t
  show V c (Pipeline.arrRef spec4 2) (((cfg4.win 2).blk t).view.emb (ix2 j e))
    = V c (Pipeline.arrRef spec4 2) (ix2 (⟨t.val * tileWidth4 + j.val, h⟩ : Fin (2 * tilesPerHalf4 * tileWidth4)) e)
  congr 1
  funext a; apply Fin.ext
  match a with
  | ⟨0, _⟩ => show win4_2.index t (0 : Fin 2) * tileWidth4 + 1 * j.val = t.val * tileWidth4 + j.val; rw [e0]; omega
  | ⟨1, _⟩ => show win4_2.index t (1 : Fin 2) * embDim4 + 1 * e.val = e.val; rw [e1]; omega

theorem Stats4_bBlk_apply (c : Dev nD) (t : Fin cfg4.N) (j : Fin tileWidth4)
    (h : t.val * tileWidth4 + j.val < 2 * tilesPerHalf4 * tileWidth4) :
    bBlk4 V c t (ix2 (0 : Fin 1) j) = Stats4_bA V c (ix2 (0 : Fin 1) (⟨t.val * tileWidth4 + j.val, h⟩ : Fin (2 * tilesPerHalf4 * tileWidth4))) := by
  obtain ⟨-, -, -, -, -, -, -, e0, e1, -⟩ := Stats4_idx t
  show V c (Pipeline.arrRef spec4 3) (((cfg4.win 3).blk t).view.emb (ix2 (0 : Fin 1) j))
    = V c (Pipeline.arrRef spec4 3) (ix2 (0 : Fin 1) (⟨t.val * tileWidth4 + j.val, h⟩ : Fin (2 * tilesPerHalf4 * tileWidth4)))
  congr 1
  funext a; apply Fin.ext
  match a with
  | ⟨0, _⟩ => show win4_3.index t (0 : Fin 2) * 1 + 1 * 0 = 0; omega
  | ⟨1, _⟩ => show win4_3.index t (1 : Fin 2) * tileWidth4 + 1 * j.val = t.val * tileWidth4 + j.val; rw [e1]; omega

/-! ## One tile's update is one step of the fold, at a row -/

theorem Stats4_stepAt_y (c : Dev nD) (t : Fin cfg4.N) (s : Stat4 Ideal) : (stepAt4 V c t s).y = s.y := rfl

/-- The tile of point t at row n, over a scratch that holds the projected row, is the row's masked tile t. -/
theorem Stats4_tile_eq (c : Dev nD) (t : Fin cfg4.N) (y : Vec Ideal S512x64 .bf16) (n : Fin 512)
    (hy : ∀ e : Fin embDim4, y (ix2 n e) = yrow4 V c n e) :
    Stats4_tile (grid4.coords t) y (wBlk4 V c t) (bBlk4 V c t) n = xrow4 V c n t.val := by
  obtain ⟨hc, -⟩ := Stats4_idx t
  funext j
  unfold Stats4_tile xrow4
  rw [hc]
  by_cases hv : t.val * tileWidth4 + j.val < validCols4
  · rw [if_pos hv, if_pos hv]
    unfold zrow4
    rw [dif_pos (Stats4_col_lt t j), Stats4_bBlk_apply V c t j (Stats4_col_lt t j)]
    congr 1
    exact Finset.sum_congr rfl fun e _ => by rw [hy e, Stats4_wBlk_apply V c t j e (Stats4_col_lt t j)]
  · rw [if_neg hv, if_neg hv]

theorem Stats4_stepAt_row (c : Dev nD) (t : Fin cfg4.N) (s : Stat4 Ideal) (n : Fin 512)
    (hy : ∀ e : Fin embDim4, s.y (ix2 n e) = yrow4 V c n e) :
    ((stepAt4 V c t s).m (ix3 (0 : Fin 1) n (0 : Fin 1)), (stepAt4 V c t s).l (ix3 (0 : Fin 1) n (0 : Fin 1)))
      = Cert.OnlineSoftmax.step (s.m (ix3 (0 : Fin 1) n (0 : Fin 1)), s.l (ix3 (0 : Fin 1) n (0 : Fin 1))) (xrow4 V c n t.val) := by
  rw [← Stats4_tile_eq V c t s.y n hy]
  exact Stats4_step (grid4.coords t) s.y (wBlk4 V c t) (bBlk4 V c t) s.m s.l n

/-! ## The fold inside a half -/

/-- A point of half h, tile τ, as a natural number, is below the grid's size; so the point's number is itself. -/
theorem Stats4_pt_val (h : Fin 2) (τ : ℕ) (hτ : τ < tilesPerHalf4) :
    (pt4 (h.val * tilesPerHalf4 + τ)).val = h.val * tilesPerHalf4 + τ := by
  have hh : h.val * tilesPerHalf4 ≤ 1 * tilesPerHalf4 := Nat.mul_le_mul_right _ (by have := h.isLt; omega)
  show (h.val * tilesPerHalf4 + τ) % cfg4.N = h.val * tilesPerHalf4 + τ
  refine Nat.mod_eq_of_lt ?_
  rw [Stats4_N]; omega

/-- What a half starts from, at a row: the projected row, the bottom element and zero. -/
theorem Stats4_start_y (c : Dev nD) (t : Fin cfg4.N) (n : Fin 512) (e : Fin embDim4) :
    (startAt4 V c t).y (ix2 n e) = yrow4 V c n e := by
  refine (Stats4_scratch (hidBlk4 V c t) (prjBlk4 V c t) n e).trans ?_
  unfold yrow4
  exact Finset.sum_congr rfl fun k _ => by rw [Stats4_hidBlk_apply V c t n k, Stats4_prjBlk_apply V c t e k]

theorem Stats4_start_ml (c : Dev nD) (t : Fin cfg4.N) (n : Fin 512) :
    ((startAt4 V c t).m (ix3 (0 : Fin 1) n (0 : Fin 1)), (startAt4 V c t).l (ix3 (0 : Fin 1) n (0 : Fin 1))) = ((⊥ : EReal), (0 : EReal)) := by
  show (k4_pay4 (F := Ideal) (ix3 (0 : Fin 1) n (0 : Fin 1)), k4_pay5 (F := Ideal) (ix3 (0 : Fin 1) n (0 : Fin 1))) = _
  rw [Stats4_initMax, Stats4_initSum]

/-- After tile τ of half h the pair at row n is the fold of the first τ + 1 steps over the half's tiles, and the
    scratch holds the projected row. -/
theorem Stats4_fold (c : Dev nD) (n : Fin 512) (h : Fin 2) (τ : ℕ) (hτ : τ < tilesPerHalf4) :
    ((stats4 V c (h.val * tilesPerHalf4 + τ)).m (ix3 (0 : Fin 1) n (0 : Fin 1)), (stats4 V c (h.val * tilesPerHalf4 + τ)).l (ix3 (0 : Fin 1) n (0 : Fin 1)))
        = Cert.OnlineSoftmax.run (fun t => xrow4 V c n (h.val * tilesPerHalf4 + t)) (τ + 1)
      ∧ ∀ e : Fin embDim4, (stats4 V c (h.val * tilesPerHalf4 + τ)).y (ix2 n e) = yrow4 V c n e := by
  induction τ with
  | zero =>
    have hmod : (h.val * tilesPerHalf4 + 0) % tilesPerHalf4 = 0 := by rw [Nat.add_zero]; exact Nat.mul_mod_left _ _
    rw [stats4_first V c _ hmod, Stats4_stepAt_y]
    refine ⟨?_, fun e => Stats4_start_y V c _ n e⟩
    rw [Stats4_stepAt_row V c _ _ n (fun e => Stats4_start_y V c _ n e), Stats4_start_ml, Stats4_pt_val h 0 hτ]
    rfl
  | succ τ ih =>
    obtain ⟨ih1, ih2⟩ := ih (Nat.lt_of_succ_lt hτ)
    have hne : ¬(h.val * tilesPerHalf4 + τ + 1) % tilesPerHalf4 = 0 := by
      rw [Nat.add_assoc, Nat.add_comm (h.val * tilesPerHalf4) (τ + 1), Nat.add_mul_mod_self_right, Nat.mod_eq_of_lt hτ]; exact Nat.succ_ne_zero τ
    show ((stats4 V c (h.val * tilesPerHalf4 + τ + 1)).m _, (stats4 V c (h.val * tilesPerHalf4 + τ + 1)).l _) = _
      ∧ ∀ e : Fin embDim4, (stats4 V c (h.val * tilesPerHalf4 + τ + 1)).y (ix2 n e) = yrow4 V c n e
    rw [stats4_next V c _ hne, Stats4_stepAt_y]
    refine ⟨?_, ih2⟩
    rw [Stats4_stepAt_row V c _ _ n ih2, ih1]
    have hv : (pt4 (h.val * tilesPerHalf4 + τ + 1)).val = h.val * tilesPerHalf4 + (τ + 1) := Stats4_pt_val h (τ + 1) hτ
    rw [hv]
    rfl

end Cert.KernelIdeal.Hand

end
-- ==== Proof.Stats4Value3.lean ====
/-
  The statistics launch of one vocabulary cluster: what its two output arrays hold after the launch, row by row.

  Each half of the grid writes its block of the maxima and of the sums back once, at its last tile; the two blocks
  are the two halves of each array. So the arrays hold at (h, n, 0) what the last tile of half h left at row n:
  the fold of the online softmax over the half's masked tiles of the row.
-/
import proofs.«124427_j55336358642036_2_alg».proof.Proof.Stats4Value

set_option maxRecDepth 16384

noncomputable section

namespace Cert.KernelIdeal.Hand

open Cert.KernelIdeal Cert.KernelIdeal.Gen Cert.Sizes
open Idealize.ShloMosaic Idealize.ShloMosaic.TcCoe Idealize.ShloMosaic.ValueIdx
open Idealize.SL Idealize.SL.Sem
open Idealize.ShloMosaic.Pipeline (Dat)
open scoped BigOperators

-- the contents of the TensorCore's buffers when the launch is entered, at the ideal values
variable (V : (c : Dev nD) → (b : Ref sig .tc) → Buf (Elt Ideal) ((c : Thread nD τ).loc b))

/-! ## The two statistics arrays after the launch -/

abbrev Stats4_mOut (c : Dev nD) : Vec Ideal S2x512x1 .f32 := (dat4 V c).arrAt 4 cfg4.N
abbrev Stats4_lOut (c : Dev nD) : Vec Ideal S2x512x1 .f32 := (dat4 V c).arrAt 5 cfg4.N

/-- The last point of half h: the one that writes the half's blocks back. -/
def Stats4_last (h : Fin 2) : Fin cfg4.N :=
  ⟨h.val * tilesPerHalf4 + (tilesPerHalf4 - 1), by
    have hh : h.val * tilesPerHalf4 ≤ 1 * tilesPerHalf4 := Nat.mul_le_mul_right _ (by have := h.isLt; omega)
    have := Stats4_T_pos
    rw [Stats4_N]; omega⟩

theorem Stats4_last_mod (h : Fin 2) : (Stats4_last h).val % tilesPerHalf4 = tilesPerHalf4 - 1 := by
  show (h.val * tilesPerHalf4 + (tilesPerHalf4 - 1)) % tilesPerHalf4 = tilesPerHalf4 - 1
  rw [Nat.add_comm (h.val * tilesPerHalf4) (tilesPerHalf4 - 1), Nat.add_mul_mod_self_right]
  exact Nat.mod_eq_of_lt (by have := Stats4_T_pos; omega)

/-- What the arrays end holding, as functions of the index: at (h, n, ·) the pair the last tile of half h leaves at row n. -/
def Stats4_mG (c : Dev nD) : Vec Ideal S2x512x1 .f32 :=
  fun i => (stats4 V c ((i 0).val * tilesPerHalf4 + (tilesPerHalf4 - 1))).m (ix3 (0 : Fin 1) (⟨(i 1).val, (i 1).isLt⟩ : Fin 512) (0 : Fin 1))
def Stats4_lG (c : Dev nD) : Vec Ideal S2x512x1 .f32 :=
  fun i => (stats4 V c ((i 0).val * tilesPerHalf4 + (tilesPerHalf4 - 1))).l (ix3 (0 : Fin 1) (⟨(i 1).val, (i 1).isLt⟩ : Fin 512) (0 : Fin 1))

/-- Stats4_mG and Stats4_lG at an index, from the point's number and the block's index. -/
theorem Stats4_mG_apply (c : Dev nD) (i : S2x512x1.Idx) (k : ℕ) (hk : (i 0).val * tilesPerHalf4 + (tilesPerHalf4 - 1) = k)
    (j : S1x512x1.Idx) (hj : ix3 (0 : Fin 1) (⟨(i 1).val, (i 1).isLt⟩ : Fin 512) (0 : Fin 1) = j) :
    Stats4_mG V c i = (stats4 V c k).m j := by subst hk; subst hj; rfl
theorem Stats4_lG_apply (c : Dev nD) (i : S2x512x1.Idx) (k : ℕ) (hk : (i 0).val * tilesPerHalf4 + (tilesPerHalf4 - 1) = k)
    (j : S1x512x1.Idx) (hj : ix3 (0 : Fin 1) (⟨(i 1).val, (i 1).isLt⟩ : Fin 512) (0 : Fin 1) = j) :
    Stats4_lG V c i = (stats4 V c k).l j := by subst hk; subst hj; rfl

/-- A point that writes the maxima's block back writes the block of Stats4_mG at its place (and the sums' likewise). -/
theorem Stats4_flushed4 (c : Dev nD) (t : Fin cfg4.N) (hf : (cfg4.win 4).flush t = true) :
    (dat4 V c).flushed 4 t = ((cfg4.win 4).blk t).view.read (Elt Ideal) (Stats4_mG V c) := by
  have hmod : t.val % tilesPerHalf4 = tilesPerHalf4 - 1 := (flush4_4 t).mp hf
  have e0 : win4_4.index t (0 : Fin 3) = t.val / tilesPerHalf4 := (Stats4_idx t).2.2.2.2.2.2.2.2.2.1
  have e1 : win4_4.index t (1 : Fin 3) = 0 := (Stats4_idx t).2.2.2.2.2.2.2.2.2.2.1
  show (cfg4.win 4).cut (grid4.coords t) ((dat4 V c).after 4 t) = _
  rw [after4_4]
  funext y
  show (stats4 V c t.val).m y = Stats4_mG V c (((cfg4.win 4).blk t).view.emb y)
  have hy0 : (y 0).val = 0 := Nat.lt_one_iff.mp (y 0).isLt
  have hy2 : (y 2).val = 0 := Nat.lt_one_iff.mp (y 2).isLt
  have hj : ix3 (0 : Fin 1) (⟨((((cfg4.win 4).blk t).view.emb y) 1).val, ((((cfg4.win 4).blk t).view.emb y) 1).isLt⟩ : Fin 512) (0 : Fin 1) = y := by
    funext a; apply Fin.ext
    match a with
    | ⟨0, _⟩ => show 0 = (y 0).val; exact hy0.symm
    | ⟨1, _⟩ => show win4_4.index t (1 : Fin 3) * 512 + 1 * (y 1).val = (y 1).val; rw [e1, Nat.zero_mul, Nat.zero_add, Nat.one_mul]
    | ⟨2, _⟩ => show 0 = (y 2).val; exact hy2.symm
  have hk : ((((cfg4.win 4).blk t).view.emb y) 0).val * tilesPerHalf4 + (tilesPerHalf4 - 1) = t.val := by
    show (win4_4.index t (0 : Fin 3) * 1 + 1 * (y 0).val) * tilesPerHalf4 + (tilesPerHalf4 - 1) = t.val
    rw [e0, hy0, Nat.mul_one, Nat.mul_zero, Nat.add_zero, ← hmod]
    exact Nat.div_add_mod' _ _
  exact (Stats4_mG_apply V c (((cfg4.win 4).blk t).view.emb y) t.val hk y hj).symm

theorem Stats4_flushed5 (c : Dev nD) (t : Fin cfg4.N) (hf : (cfg4.win 5).flush t = true) :
    (dat4 V c).flushed 5 t = ((cfg4.win 5).blk t).view.read (Elt Ideal) (Stats4_lG V c) := by
  have hmod : t.val % tilesPerHalf4 = tilesPerHalf4 - 1 := (flush4_5 t).mp hf
  have e0 : win4_5.index t (0 : Fin 3) = t.val / tilesPerHalf4 := (Stats4_idx t).2.2.2.2.2.2.2.2.2.2.2.2.1
  have e1 : win4_5.index t (1 : Fin 3) = 0 := (Stats4_idx t).2.2.2.2.2.2.2.2.2.2.2.2.2.1
  show (cfg4.win 5).cut (grid4.coords t) ((dat4 V c).after 5 t) = _
  rw [after4_5]
  funext y
  show (stats4 V c t.val).l y = Stats4_lG V c (((cfg4.win 5).blk t).view.emb y)
  have hy0 : (y 0).val = 0 := Nat.lt_one_iff.mp (y 0).isLt
  have hy2 : (y 2).val = 0 := Nat.lt_one_iff.mp (y 2).isLt
  have hj : ix3 (0 : Fin 1) (⟨((((cfg4.win 5).blk t).view.emb y) 1).val, ((((cfg4.win 5).blk t).view.emb y) 1).isLt⟩ : Fin 512) (0 : Fin 1) = y := by
    funext a; apply Fin.ext
    match a with
    | ⟨0, _⟩ => show 0 = (y 0).val; exact hy0.symm
    | ⟨1, _⟩ => show win4_5.index t (1 : Fin 3) * 512 + 1 * (y 1).val = (y 1).val; rw [e1, Nat.zero_mul, Nat.zero_add, Nat.one_mul]
    | ⟨2, _⟩ => show 0 = (y 2).val; exact hy2.symm
  have hk : ((((cfg4.win 5).blk t).view.emb y) 0).val * tilesPerHalf4 + (tilesPerHalf4 - 1) = t.val := by
    show (win4_5.index t (0 : Fin 3) * 1 + 1 * (y 0).val) * tilesPerHalf4 + (tilesPerHalf4 - 1) = t.val
    rw [e0, hy0, Nat.mul_one, Nat.mul_zero, Nat.add_zero, ← hmod]
    exact Nat.div_add_mod' _ _
  exact (Stats4_lG_apply V c (((cfg4.win 5).blk t).view.emb y) t.val hk y hj).symm

/-- The index (h, n, 0) lies in the block the last point of half h writes back. -/
theorem Stats4_mem4 (h : Fin 2) (n : Fin 512) :
    (ix3 h n (0 : Fin 1) : S2x512x1.Idx) ∈ ((cfg4.win 4).blk (Stats4_last h)).view.set := by
  obtain ⟨-, -, -, -, -, -, -, -, -, e0, e1, e2, -⟩ := Stats4_idx (Stats4_last h)
  have hd : (Stats4_last h).val / tilesPerHalf4 = h.val := by
    show (h.val * tilesPerHalf4 + (tilesPerHalf4 - 1)) / tilesPerHalf4 = h.val
    rw [Nat.add_comm (h.val * tilesPerHalf4) (tilesPerHalf4 - 1), Nat.add_mul_div_right _ _ Stats4_T_pos, Nat.div_eq_of_lt (by have := Stats4_T_pos; omega), Nat.zero_add]
  show _ ∈ ((View.whole main_v81_0).slice (win4_4.rect (Stats4_last h))).set
  rw [View.set_slice_whole, Rect.mem_set_unit]
  intro a
  match a with
  | ⟨0, _⟩ => show win4_4.index (Stats4_last h) (0 : Fin 3) * 1 ≤ h.val ∧ h.val < win4_4.index (Stats4_last h) (0 : Fin 3) * 1 + 1; rw [e0, hd]; omega
  | ⟨1, _⟩ => show win4_4.index (Stats4_last h) (1 : Fin 3) * 512 ≤ n.val ∧ n.val < win4_4.index (Stats4_last h) (1 : Fin 3) * 512 + 512; rw [e1]; have := n.isLt; omega
  | ⟨2, _⟩ => show win4_4.index (Stats4_last h) (2 : Fin 3) * 1 ≤ (0 : Fin 1).val ∧ (0 : Fin 1).val < win4_4.index (Stats4_last h) (2 : Fin 3) * 1 + 1; rw [e2]; exact ⟨Nat.le_refl _, Nat.lt_succ_self _⟩

theorem Stats4_mem5 (h : Fin 2) (n : Fin 512) :
    (ix3 h n (0 : Fin 1) : S2x512x1.Idx) ∈ ((cfg4.win 5).blk (Stats4_last h)).view.set := by
  obtain ⟨-, -, -, -, -, -, -, -, -, -, -, -, e0, e1, e2⟩ := Stats4_idx (Stats4_last h)
  have hd : (Stats4_last h).val / tilesPerHalf4 = h.val := by
    show (h.val * tilesPerHalf4 + (tilesPerHalf4 - 1)) / tilesPerHalf4 = h.val
    rw [Nat.add_comm (h.val * tilesPerHalf4) (tilesPerHalf4 - 1), Nat.add_mul_div_right _ _ Stats4_T_pos, Nat.div_eq_of_lt (by have := Stats4_T_pos; omega), Nat.zero_add]
  show _ ∈ ((View.whole main_v81_1).slice (win4_5.rect (Stats4_last h))).set
  rw [View.set_slice_whole, Rect.mem_set_unit]
  intro a
  match a with
  | ⟨0, _⟩ => show win4_5.index (Stats4_last h) (0 : Fin 3) * 1 ≤ h.val ∧ h.val < win4_5.index (Stats4_last h) (0 : Fin 3) * 1 + 1; rw [e0, hd]; omega
  | ⟨1, _⟩ => show win4_5.index (Stats4_last h) (1 : Fin 3) * 512 ≤ n.val ∧ n.val < win4_5.index (Stats4_last h) (1 : Fin 3) * 512 + 512; rw [e1]; have := n.isLt; omega
  | ⟨2, _⟩ => show win4_5.index (Stats4_last h) (2 : Fin 3) * 1 ≤ (0 : Fin 1).val ∧ (0 : Fin 1).val < win4_5.index (Stats4_last h) (2 : Fin 3) * 1 + 1; rw [e2]; exact ⟨Nat.le_refl _, Nat.lt_succ_self _⟩

/-- THE RESULT. After the launch the maxima's array holds at (h, n, 0) the maximum, and the sums' array the sum, of the
    fold over the tiles of half h at row n. -/
theorem Stats4_m_parts (c : Dev nD) (h : Fin 2) (n : Fin 512) :
    Stats4_mOut V c (ix3 h n (0 : Fin 1))
      = (Cert.OnlineSoftmax.run (fun t => xrow4 V c n (h.val * tilesPerHalf4 + t)) tilesPerHalf4).1 := by
  have hf : (cfg4.win 4).flush (Stats4_last h) = true := (flush4_4 _).mpr (Stats4_last_mod h)
  have h1 : (dat4 V c).arrAt 4 cfg4.N (ix3 h n (0 : Fin 1)) = Stats4_mG V c (ix3 h n (0 : Fin 1)) :=
    (dat4 V c).arrAt_apply_of_mem 4 (Stats4_mG V c) (Stats4_flushed4 V c) cfg4.N (Stats4_last h) (ix3 h n (0 : Fin 1))
      (Stats4_last h).isLt hf (Stats4_mem4 h n)
  have h3 : Stats4_mG V c (ix3 h n (0 : Fin 1))
      = (stats4 V c (h.val * tilesPerHalf4 + (tilesPerHalf4 - 1))).m (ix3 (0 : Fin 1) n (0 : Fin 1)) :=
    Stats4_mG_apply V c (ix3 h n (0 : Fin 1)) (h.val * tilesPerHalf4 + (tilesPerHalf4 - 1)) rfl (ix3 (0 : Fin 1) n (0 : Fin 1)) rfl
  have hT : tilesPerHalf4 - 1 + 1 = tilesPerHalf4 := Nat.sub_add_cancel Stats4_T_pos
  have h2 := (Stats4_fold V c n h (tilesPerHalf4 - 1) (Nat.sub_lt Stats4_T_pos Nat.one_pos)).1
  rw [hT] at h2
  exact (h1.trans h3).trans (congrArg Prod.fst h2)

theorem Stats4_l_parts (c : Dev nD) (h : Fin 2) (n : Fin 512) :
    Stats4_lOut V c (ix3 h n (0 : Fin 1))
      = (Cert.OnlineSoftmax.run (fun t => xrow4 V c n (h.val * tilesPerHalf4 + t)) tilesPerHalf4).2 := by
  have hf : (cfg4.win 5).flush (Stats4_last h) = true := (flush4_5 _).mpr (Stats4_last_mod h)
  have h1 : (dat4 V c).arrAt 5 cfg4.N (ix3 h n (0 : Fin 1)) = Stats4_lG V c (ix3 h n (0 : Fin 1)) :=
    (dat4 V c).arrAt_apply_of_mem 5 (Stats4_lG V c) (Stats4_flushed5 V c) cfg4.N (Stats4_last h) (ix3 h n (0 : Fin 1))
      (Stats4_last h).isLt hf (Stats4_mem5 h n)
  have h3 : Stats4_lG V c (ix3 h n (0 : Fin 1))
      = (stats4 V c (h.val * tilesPerHalf4 + (tilesPerHalf4 - 1))).l (ix3 (0 : Fin 1) n (0 : Fin 1)) :=
    Stats4_lG_apply V c (ix3 h n (0 : Fin 1)) (h.val * tilesPerHalf4 + (tilesPerHalf4 - 1)) rfl (ix3 (0 : Fin 1) n (0 : Fin 1)) rfl
  have hT : tilesPerHalf4 - 1 + 1 = tilesPerHalf4 := Nat.sub_add_cancel Stats4_T_pos
  have h2 := (Stats4_fold V c n h (tilesPerHalf4 - 1) (Nat.sub_lt Stats4_T_pos Nat.one_pos)).1
  rw [hT] at h2
  exact (h1.trans h3).trans (congrArg Prod.snd h2)

end Cert.KernelIdeal.Hand

end
-- ==== Proof.Write5Pay.lean ====
import proofs.«124427_j55336358642036_2_alg».proof.Proof.Gen.KernelIdeal.Skeleton
import proofs.«124427_j55336358642036_2_alg».proof.Proof.Sizes
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Idealize.ShloMosaic.Lib.StableHlo.Predicate

/-!
# A cluster's write kernel read at an index

The write kernel of a vocabulary cluster stores two values: at the first tile of each half the projected
hidden rows `y = hidden · projᵀ` (kept in sixteen-bit floats, which at the ideal values is no change), and at
every tile the block of log-probabilities `(logit − m) − log l + extra`, the logit being `y · Wᵀ + bias` on
the cluster's real columns and `−∞` on the padding. Here both stored values are read at one element, as
plain sums and differences of extended reals, in the association the kernel computes them in.
-/

noncomputable section

namespace Cert.KernelIdeal.Hand

open Cert.KernelIdeal Cert.KernelIdeal.Gen Cert.Sizes
open Idealize.ShloMosaic Idealize.ShloMosaic.ValueIdx
open scoped BigOperators

/-! ## The projection `hidden · projᵀ` at an element -/

theorem k5_proj_lhs_0 (i : S512x64.Idx) (q : dot_S512x1024_S64x1024_S512x64_1_1_0_0_n_n.contr.Idx) :
    (dot_S512x1024_S64x1024_S512x64_1_1_0_0_n_n.lhsIdx i q 0).val = (i 0).val := by
  unfold DotDims.lhsIdx
  rw [dif_neg (show ¬(0 : Fin S512x1024.rank) ∈ dot_S512x1024_S64x1024_S512x64_1_1_0_0_n_n.lhsBatch by decide), dif_pos (show (0 : Fin S512x1024.rank) ∈ dot_S512x1024_S64x1024_S512x64_1_1_0_0_n_n.lhsNonContracting by decide)]
  rfl
theorem k5_proj_lhs_1 (i : S512x64.Idx) (q : dot_S512x1024_S64x1024_S512x64_1_1_0_0_n_n.contr.Idx) :
    (dot_S512x1024_S64x1024_S512x64_1_1_0_0_n_n.lhsIdx i q 1).val = (q ⟨0, by decide⟩).val :=
  dot_S512x1024_S64x1024_S512x64_1_1_0_0_n_n.lhsIdx_val_of_single rfl i q
theorem k5_proj_rhs_0 (i : S512x64.Idx) (q : dot_S512x1024_S64x1024_S512x64_1_1_0_0_n_n.contr.Idx) :
    (dot_S512x1024_S64x1024_S512x64_1_1_0_0_n_n.rhsIdx i q 0).val = (i 1).val := by
  unfold DotDims.rhsIdx
  rw [dif_neg (show ¬(0 : Fin S64x1024.rank) ∈ dot_S512x1024_S64x1024_S512x64_1_1_0_0_n_n.rhsBatch by decide), dif_pos (show (0 : Fin S64x1024.rank) ∈ dot_S512x1024_S64x1024_S512x64_1_1_0_0_n_n.rhsNonContracting by decide)]
  rfl
theorem k5_proj_rhs_1 (i : S512x64.Idx) (q : dot_S512x1024_S64x1024_S512x64_1_1_0_0_n_n.contr.Idx) :
    (dot_S512x1024_S64x1024_S512x64_1_1_0_0_n_n.rhsIdx i q 1).val = (q ⟨0, by decide⟩).val :=
  dot_S512x1024_S64x1024_S512x64_1_1_0_0_n_n.rhsIdx_val_of_single rfl i q

/-- The product into the zero accumulator, at row `r` and column `c`: the sum over the contracted axis of the
    left operand's row `r` times the right operand's row `c`. -/
theorem k5_proj_apply (a : FVec Ideal S512x1024 .bf16) (b : FVec Ideal S64x1024 .bf16) (r : Fin 512) (c : Fin embDim5) :
    matmul dot_S512x1024_S64x1024_S512x64_1_1_0_0_n_n none a b (constant S512x64 .f32 0x00000000#32) (ix2 r c)
      = ∑ k : Fin 1024, a (ix2 r k) * b (ix2 c k) := by
  simp only [matmul]
  rw [Ideal.matmul_constant_zero_apply, ← Equiv.sum_comp (contrEquiv1 dot_S512x1024_S64x1024_S512x64_1_1_0_0_n_n 1024 rfl rfl).symm]
  refine Finset.sum_congr rfl fun k _ => ?_
  have hk := contrEquiv1_symm_val dot_S512x1024_S64x1024_S512x64_1_1_0_0_n_n 1024 rfl rfl k
  have el : dot_S512x1024_S64x1024_S512x64_1_1_0_0_n_n.lhsIdx (ix2 r c) ((contrEquiv1 dot_S512x1024_S64x1024_S512x64_1_1_0_0_n_n 1024 rfl rfl).symm k) = ix2 r k := funext fun ax => Fin.ext (by
    match ax with
    | ⟨0, _⟩ => exact k5_proj_lhs_0 _ _
    | ⟨1, _⟩ => exact (k5_proj_lhs_1 _ _).trans hk)
  have er : dot_S512x1024_S64x1024_S512x64_1_1_0_0_n_n.rhsIdx (ix2 r c) ((contrEquiv1 dot_S512x1024_S64x1024_S512x64_1_1_0_0_n_n 1024 rfl rfl).symm k) = ix2 c k := funext fun ax => Fin.ext (by
    match ax with
    | ⟨0, _⟩ => exact k5_proj_rhs_0 _ _
    | ⟨1, _⟩ => exact (k5_proj_rhs_1 _ _).trans hk)
  rw [el, er]

/-- THE SCRATCH'S FILL at row `n`, embedding coordinate `e`: the hidden row times the projection's row `e`. -/
theorem k5_pay1_apply (v35 : Vec Ideal S512x1024 .bf16) (v37 : Vec Ideal S64x1024 .bf16) (n : Fin 512) (e : Fin embDim5) :
    k5_pay1 (F := Ideal) v35 v37 (ix2 n e) = ∑ k : Fin 1024, v35 (ix2 n k) * v37 (ix2 e k) := by
  unfold k5_pay1
  simp only [shapeCast_self]
  rw [truncf_apply]
  exact k5_proj_apply v35 v37 n e

/-! ## The tile's logits `y · Wᵀ` at an element -/

theorem k5_wdot_lhs_0 (i : S512x4096.Idx) (q : dot_S512x64_S4096x64_S512x4096_1_1_0_0_n_n.contr.Idx) :
    (dot_S512x64_S4096x64_S512x4096_1_1_0_0_n_n.lhsIdx i q 0).val = (i 0).val := by
  unfold DotDims.lhsIdx
  rw [dif_neg (show ¬(0 : Fin S512x64.rank) ∈ dot_S512x64_S4096x64_S512x4096_1_1_0_0_n_n.lhsBatch by decide), dif_pos (show (0 : Fin S512x64.rank) ∈ dot_S512x64_S4096x64_S512x4096_1_1_0_0_n_n.lhsNonContracting by decide)]
  rfl
theorem k5_wdot_lhs_1 (i : S512x4096.Idx) (q : dot_S512x64_S4096x64_S512x4096_1_1_0_0_n_n.contr.Idx) :
    (dot_S512x64_S4096x64_S512x4096_1_1_0_0_n_n.lhsIdx i q 1).val = (q ⟨0, by decide⟩).val :=
  dot_S512x64_S4096x64_S512x4096_1_1_0_0_n_n.lhsIdx_val_of_single rfl i q
theorem k5_wdot_rhs_0 (i : S512x4096.Idx) (q : dot_S512x64_S4096x64_S512x4096_1_1_0_0_n_n.contr.Idx) :
    (dot_S512x64_S4096x64_S512x4096_1_1_0_0_n_n.rhsIdx i q 0).val = (i 1).val := by
  unfold DotDims.rhsIdx
  rw [dif_neg (show ¬(0 : Fin S4096x64.rank) ∈ dot_S512x64_S4096x64_S512x4096_1_1_0_0_n_n.rhsBatch by decide), dif_pos (show (0 : Fin S4096x64.rank) ∈ dot_S512x64_S4096x64_S512x4096_1_1_0_0_n_n.rhsNonContracting by decide)]
  rfl
theorem k5_wdot_rhs_1 (i : S512x4096.Idx) (q : dot_S512x64_S4096x64_S512x4096_1_1_0_0_n_n.contr.Idx) :
    (dot_S512x64_S4096x64_S512x4096_1_1_0_0_n_n.rhsIdx i q 1).val = (q ⟨0, by decide⟩).val :=
  dot_S512x64_S4096x64_S512x4096_1_1_0_0_n_n.rhsIdx_val_of_single rfl i q

/-- The product into the zero accumulator, at row `r` and column `c`: the sum over the contracted axis of the
    left operand's row `r` times the right operand's row `c`. -/
theorem k5_wdot_apply (a : FVec Ideal S512x64 .bf16) (b : FVec Ideal S4096x64 .bf16) (r : Fin 512) (c : Fin tileWidth5) :
    matmul dot_S512x64_S4096x64_S512x4096_1_1_0_0_n_n none a b (constant S512x4096 .f32 0x00000000#32) (ix2 r c)
      = ∑ k : Fin embDim5, a (ix2 r k) * b (ix2 c k) := by
  simp only [matmul]
  rw [Ideal.matmul_constant_zero_apply, ← Equiv.sum_comp (contrEquiv1 dot_S512x64_S4096x64_S512x4096_1_1_0_0_n_n embDim5 rfl rfl).symm]
  refine Finset.sum_congr rfl fun k _ => ?_
  have hk := contrEquiv1_symm_val dot_S512x64_S4096x64_S512x4096_1_1_0_0_n_n embDim5 rfl rfl k
  have el : dot_S512x64_S4096x64_S512x4096_1_1_0_0_n_n.lhsIdx (ix2 r c) ((contrEquiv1 dot_S512x64_S4096x64_S512x4096_1_1_0_0_n_n embDim5 rfl rfl).symm k) = ix2 r k := funext fun ax => Fin.ext (by
    match ax with
    | ⟨0, _⟩ => exact k5_wdot_lhs_0 _ _
    | ⟨1, _⟩ => exact (k5_wdot_lhs_1 _ _).trans hk)
  have er : dot_S512x64_S4096x64_S512x4096_1_1_0_0_n_n.rhsIdx (ix2 r c) ((contrEquiv1 dot_S512x64_S4096x64_S512x4096_1_1_0_0_n_n embDim5 rfl rfl).symm k) = ix2 c k := funext fun ax => Fin.ext (by
    match ax with
    | ⟨0, _⟩ => exact k5_wdot_rhs_0 _ _
    | ⟨1, _⟩ => exact (k5_wdot_rhs_1 _ _).trans hk)
  rw [el, er]

/-! ## The two broadcasts of the block -/

/-- A column of per-row values spread along the lanes reads, at `(n, j)`, row `n`'s value. -/
theorem k5_bcol_apply {α : Type} (v : S512x1.Idx → α) (h : S512x1.Broadcasts S512x4096) (n : Fin 512) (j : Fin tileWidth5) :
    broadcastTo S512x4096 v h (ix2 n j) = v (ix2 n (0 : Fin 1)) := by
  refine broadcastTo_apply v h (ix2 n j) (ix2 n (0 : Fin 1)) fun ax => ?_
  match ax with
  | ⟨0, _⟩ => rfl
  | ⟨1, _⟩ => rfl

/-- The bias row spread down the rows reads, at `(n, j)`, lane `j`'s bias. -/
theorem k5_brow_apply {α : Type} (v : S1x4096.Idx → α) (h : S1x4096.Broadcasts S512x4096) (n : Fin 512) (j : Fin tileWidth5) :
    broadcastTo S512x4096 v h (ix2 n j) = v (ix2 (0 : Fin 1) j) :=
  broadcastTo_1b_ab_apply v h n j

/-! ## The lane mask and its fill -/

/-- The padding's fill is `−∞` at the ideal values. -/
theorem k5_neg_big : Named.named (F := Ideal) κ "neg_big" (φ := .f32) 0xFF333332#32 = (⊥ : EReal) :=
  IdealRules.named_const.ideal_named_scalar _ _ _ _ rfl

/-- A lane's global column number stays far below the signed 32-bit range. -/
theorem k5_col_lt (i : grid5.Coords) (j : Fin tileWidth5) :
    ((i 0).val * tilesPerHalf5 + (i 1).val) * tileWidth5 + j.val < 2 ^ 31 := by
  have h0 : (i 0).val < 2 := (i 0).isLt
  have h1 : (i 1).val < tilesPerHalf5 := (i 1).isLt
  have hj : j.val < tileWidth5 := j.isLt
  simp only [tilesPerHalf5, tileWidth5] at h1 hj ⊢
  omega

/-- THE MASK DECODED: the 32-bit comparison of "lane number plus the tile's first column" with the cluster's size
    holds exactly when the lane's global column number is below the size, as naturals. -/
theorem k5_mask_iff (hi : S512x4096.Iotas .tc 32 [1]) (i : grid5.Coords) (n : Fin 512) (j : Fin tileWidth5) :
    cmpi .slt (addi (iota .tc S512x4096 32 [1] hi)
        (broadcast S512x4096 (Scalar.muli (Scalar.addi (Scalar.muli (BitVec.ofNat 32 (i 0).val) (BitVec.ofNat 32 tilesPerHalf5))
          (BitVec.ofNat 32 (i 1).val)) (BitVec.ofNat 32 tileWidth5))))
        (broadcast S512x4096 (BitVec.ofNat 32 validCols5)) (ix2 n j) = 1#1
      ↔ ((i 0).val * tilesPerHalf5 + (i 1).val) * tileWidth5 + j.val < validCols5 := by
  have hV : validCols5 < 2 ^ 31 := by decide
  have hw : addi (iota .tc S512x4096 32 [1] hi)
        (broadcast S512x4096 (Scalar.muli (Scalar.addi (Scalar.muli (BitVec.ofNat 32 (i 0).val) (BitVec.ofNat 32 tilesPerHalf5))
          (BitVec.ofNat 32 (i 1).val)) (BitVec.ofNat 32 tileWidth5))) (ix2 n j)
      = BitVec.ofNat 32 (((i 0).val * tilesPerHalf5 + (i 1).val) * tileWidth5 + j.val) := by
    show IntOp.addi (iota .tc S512x4096 32 [1] hi (ix2 n j)) _ = _
    rw [iota_single_apply]
    show BitVec.ofNat 32 j.val + (BitVec.ofNat 32 (i 0).val * BitVec.ofNat 32 tilesPerHalf5 + BitVec.ofNat 32 (i 1).val) * BitVec.ofNat 32 tileWidth5 = _
    rw [← BitVec.ofNat_mul, ← BitVec.ofNat_add, ← BitVec.ofNat_mul, ← BitVec.ofNat_add, Nat.add_comm j.val]
  show IntOp.cmpi .slt (addi (iota .tc S512x4096 32 [1] hi)
        (broadcast S512x4096 (Scalar.muli (Scalar.addi (Scalar.muli (BitVec.ofNat 32 (i 0).val) (BitVec.ofNat 32 tilesPerHalf5))
          (BitVec.ofNat 32 (i 1).val)) (BitVec.ofNat 32 tileWidth5))) (ix2 n j)) (BitVec.ofNat 32 validCols5) = 1#1 ↔ _
  rw [hw]
  exact StableHlo.Predicate.slt_ofNat_iff _ _ (k5_col_lt i j) hV

/-! ## The stored block at an element -/

/-- The masked logit of row `n`, lane `j` of the tile at grid point `i` (half `i 0`, tile `i 1`): `y · Wᵀ + bias` on a real
    column, `−∞` on the padding. -/
def k5_logit (i : grid5.Coords) (v3 : Vec Ideal S512x64 .bf16) (v4 : Vec Ideal S4096x64 .bf16) (v6 : Vec Ideal S1x4096 .f32)
    (n : Fin 512) (j : Fin tileWidth5) : EReal :=
  if ((i 0).val * tilesPerHalf5 + (i 1).val) * tileWidth5 + j.val < validCols5
  then (∑ e : Fin embDim5, v3 (ix2 n e) * v4 (ix2 j e)) + v6 (ix2 (0 : Fin 1) j) else ⊥

/-- THE OUTPUT BLOCK at row `n`, lane `j`: the masked logit, less the row's maximum, less the logarithm of the row's
    sum, plus the row's extra term — associated as the kernel computes it. -/
theorem k5_pay2_apply (i : grid5.Coords) (v3 : Vec Ideal S512x64 .bf16) (v4 : Vec Ideal S4096x64 .bf16) (v6 : Vec Ideal S1x4096 .f32)
    (v21 v25 v30 : Vec Ideal S512x1 .f32) (n : Fin 512) (j : Fin tileWidth5) :
    k5_pay2 (F := Ideal) i v3 v4 v6 v21 v25 v30 (ix2 n j)
      = ((k5_logit i v3 v4 v6 n j - v21 (ix2 n (0 : Fin 1))) - Ideal.log (v25 (ix2 n (0 : Fin 1)))) + v30 (ix2 n (0 : Fin 1)) := by
  unfold k5_pay2
  simp only [shapeCast_self]
  rw [addf_apply, subf_apply, subf_apply, select_apply, addf_apply, broadcast_apply, k5_bcol_apply, k5_bcol_apply, k5_bcol_apply,
    k5_brow_apply, k5_wdot_apply, k5_neg_big]
  unfold k5_logit
  by_cases hv : ((i 0).val * tilesPerHalf5 + (i 1).val) * tileWidth5 + j.val < validCols5
  · rw [if_pos hv, (k5_mask_iff _ i n j).mpr hv, select_one]
    rfl
  · rw [if_neg hv, eq_zero_of_ne_one (mt (k5_mask_iff _ i n j).mp hv), select_zero]
    rfl

/-- On a real column the block's element has no case split left. -/
theorem k5_pay2_valid (i : grid5.Coords) (v3 : Vec Ideal S512x64 .bf16) (v4 : Vec Ideal S4096x64 .bf16) (v6 : Vec Ideal S1x4096 .f32)
    (v21 v25 v30 : Vec Ideal S512x1 .f32) (n : Fin 512) (j : Fin tileWidth5)
    (hv : ((i 0).val * tilesPerHalf5 + (i 1).val) * tileWidth5 + j.val < validCols5) :
    k5_pay2 (F := Ideal) i v3 v4 v6 v21 v25 v30 (ix2 n j)
      = ((((∑ e : Fin embDim5, v3 (ix2 n e) * v4 (ix2 j e)) + v6 (ix2 (0 : Fin 1) j)) - v21 (ix2 n (0 : Fin 1)))
          - Ideal.log (v25 (ix2 n (0 : Fin 1)))) + v30 (ix2 n (0 : Fin 1)) := by
  rw [k5_pay2_apply, k5_logit, if_pos hv]

end Cert.KernelIdeal.Hand

end
-- ==== Proof.Write5Value.lean ====
/-
  The write launch of vocabulary cluster 1 (launch 3), its value: what the launch leaves in its output array, read
  at an index, at the ideal values.

  The launch finds seven arrays: the hidden rows [512, 1024], the cluster's projection [d, 1024], its weight rows
  [padded columns, d], its bias [1, padded columns], and per row the maximum m, the sum l and an extra term, each
  [512, 1]. Row n of the projected hidden rows is yrow n e = Σ_k hidden(n, k) · projection(e, k); the logit of row n at
  column col is zrow n col = Σ_e yrow n e · weight(col, e) + bias(col). At grid point (h, t) the body writes the tile
  h·T + t of the output: at lane j the masked logit of column (h·T + t)·tileWidth + j (−∞ on the padding columns),
  less m, less log l, plus the extra term. The hidden rows, the projection and the three row vectors are one block
  each; the weight rows' and the bias's blocks move with the output's tile. So every point writes its block of ONE
  function of the seven arrays, the tiles cover the padded width, and the output array ends holding that function:
  on a real column, (zrow n col − m n) − log (l n) + extra n.
-/
import proofs.«124427_j55336358642036_2_alg».proof.Proof.Write5Defs
import proofs.«124427_j55336358642036_2_alg».proof.Proof.Write5Pay
import proofs.«124427_j55336358642036_2_alg».proof.Proof.Gen.KernelIdeal.Points
import proofs.«124427_j55336358642036_2_alg».proof.Proof.Sizes
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Sizes
open Idealize.ShloMosaic Idealize.ShloMosaic.TcCoe Idealize.ShloMosaic.ValueIdx Idealize.SL.Sem
open Idealize.ShloMosaic.Pipeline (Dat)
open scoped BigOperators

/-! ## The arrays the launch finds -/

section Arrays
variable {F : FTy → Type} [FloatOps F] [Named F]
variable (V : (c : Dev nD) → (b : Ref sig .tc) → Buf (Elt F) ((c : Thread nD τ).loc b))

/-- The hidden rows. -/
abbrev hidA5 (c : Dev nD) : Vec F S512x1024 .bf16 := V c (Pipeline.arrRef spec5 0)
/-- The cluster's projection. -/
abbrev prjA5 (c : Dev nD) : Vec F S64x1024 .bf16 := V c (Pipeline.arrRef spec5 1)
/-- The cluster's weight rows, one per padded column. -/
abbrev wA5 (c : Dev nD) : Vec F S163840x64 .bf16 := V c (Pipeline.arrRef spec5 2)
/-- The cluster's bias, one entry per padded column. -/
abbrev bA5 (c : Dev nD) : Vec F S1x163840 .f32 := V c (Pipeline.arrRef spec5 3)
/-- The rows' maxima. -/
abbrev mA5 (c : Dev nD) : Vec F S512x1 .f32 := V c (Pipeline.arrRef spec5 4)
/-- The rows' sums. -/
abbrev lA5 (c : Dev nD) : Vec F S512x1 .f32 := V c (Pipeline.arrRef spec5 5)
/-- The rows' extra terms. -/
abbrev exA5 (c : Dev nD) : Vec F S512x1 .f32 := V c (Pipeline.arrRef spec5 6)

end Arrays

variable (V : (c : Dev nD) → (b : Ref sig .tc) → Buf (Elt Ideal) ((c : Thread nD τ).loc b))

/-- Row n of the projected hidden rows at embedding coordinate e: the hidden row against the projection's row e. -/
def yrow5 (c : Dev nD) (n : Fin 512) (e : Fin embDim5) : EReal :=
  ∑ k : Fin 1024, hidA5 V c (ix2 n k) * prjA5 V c (ix2 e k)

/-- The logit of row n at padded column col: the projected row against the column's weight row, plus the column's
    bias (0 past the padded width). -/
def zrow5 (c : Dev nD) (n : Fin 512) (col : ℕ) : EReal :=
  if h : col < 2 * tilesPerHalf5 * tileWidth5 then
    (∑ e : Fin embDim5, yrow5 V c n e * wA5 V c (ix2 ⟨col, h⟩ e)) + bA5 V c (ix2 (0 : Fin 1) ⟨col, h⟩)
  else 0

/-- The masked logit of row n at padded column col: the logit on a real column, −∞ on a padding column. -/
def xz5 (c : Dev nD) (n : Fin 512) (col : Fin (2 * tilesPerHalf5 * tileWidth5)) : EReal :=
  if col.val < validCols5 then
    (∑ e : Fin embDim5, yrow5 V c n e * wA5 V c (ix2 col e)) + bA5 V c (ix2 (0 : Fin 1) col)
  else ⊥

/-- What the output array ends holding, as one function of the arrays the launch finds: the masked logit less the
    row's maximum and the logarithm of the row's sum, plus the row's extra term. -/
def outG5 (c : Dev nD) : Vec Ideal S512x163840 .f32 := fun i =>
  ((xz5 V c (i 0) (i 1) - mA5 V c (ix2 (i 0) (0 : Fin 1))) - Ideal.log (lA5 V c (ix2 (i 0) (0 : Fin 1))))
    + exA5 V c (ix2 (i 0) (0 : Fin 1))

/-! ## The block index maps over the grid -/

/-- The printed index maps, decided over the grid: the hidden rows, the projection and the three row vectors are
    one block each; the weight rows' block index on the row axis and the bias's on the column axis are the output's
    on its column axis, which is h·T + t at grid point (h, t) and stays below 2·T. -/
theorem idxs5 : ∀ t : Fin cfg5.N,
      win5_0.index t (0 : Fin 2) = 0 ∧ win5_0.index t (1 : Fin 2) = 0
    ∧ win5_1.index t (0 : Fin 2) = 0 ∧ win5_1.index t (1 : Fin 2) = 0
    ∧ win5_2.index t (0 : Fin 2) = win5_7.index t (1 : Fin 2) ∧ win5_2.index t (1 : Fin 2) = 0
    ∧ win5_3.index t (0 : Fin 2) = 0 ∧ win5_3.index t (1 : Fin 2) = win5_7.index t (1 : Fin 2)
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0
    ∧ win5_7.index t (1 : Fin 2) = ((grid5.coords t) 0).val * tilesPerHalf5 + ((grid5.coords t) 1).val
    ∧ win5_7.index t (1 : Fin 2) < 2 * tilesPerHalf5 :=
  (by decide +kernel : ∀ t : Fin grid5.N, _)

/-- Every tile of the padded width is some grid point's. -/
theorem onto5 : ∀ q : Fin (2 * tilesPerHalf5), ∃ t : Fin cfg5.N, win5_7.index t (1 : Fin 2) = q.val :=
  (by decide +kernel : ∀ q : Fin (2 * tilesPerHalf5), ∃ t : Fin grid5.N, win5_7.index t (1 : Fin 2) = q.val)

/-! ## The input blocks as parts of the arrays -/

/-- The hidden rows' block is the whole array. -/
theorem iblk5_0_apply (c : Dev nD) (t : Fin cfg5.N) (n : Fin 512) (k : Fin 1024) :
    (iblk5 V c 0 t : Vec Ideal S512x1024 .bf16) (ix2 n k) = hidA5 V c (ix2 n k) := by
  obtain ⟨e0, e1, -⟩ := idxs5 t
  have h : (((cfg5.win 0).blk t).view.emb (ix2 n k) : S512x1024.Idx) = ix2 n k := by
    funext a; apply Fin.ext
    match a with
    | ⟨0, _⟩ => show win5_0.index t (0 : Fin 2) * 512 + 1 * n.val = n.val; rw [e0] <;> omega
    | ⟨1, _⟩ => show win5_0.index t (1 : Fin 2) * 1024 + 1 * k.val = k.val; rw [e1] <;> omega
  show V c (Pipeline.arrRef spec5 0) (((cfg5.win 0).blk t).view.emb (ix2 n k)) = V c (Pipeline.arrRef spec5 0) (ix2 n k)
  rw [h] <;> rfl

/-- The projection's block is the whole array. -/
theorem iblk5_1_apply (c : Dev nD) (t : Fin cfg5.N) (e : Fin embDim5) (k : Fin 1024) :
    (iblk5 V c 1 t : Vec Ideal S64x1024 .bf16) (ix2 e k) = prjA5 V c (ix2 e k) := by
  obtain ⟨-, -, e0, e1, -⟩ := idxs5 t
  have h : (((cfg5.win 1).blk t).view.emb (ix2 e k) : S64x1024.Idx) = ix2 e k := by
    funext a; apply Fin.ext
    match a with
    | ⟨0, _⟩ => show win5_1.index t (0 : Fin 2) * embDim5 + 1 * e.val = e.val; rw [e0] <;> omega
    | ⟨1, _⟩ => show win5_1.index t (1 : Fin 2) * 1024 + 1 * k.val = k.val; rw [e1] <;> omega
  show V c (Pipeline.arrRef spec5 1) (((cfg5.win 1).blk t).view.emb (ix2 e k)) = V c (Pipeline.arrRef spec5 1) (ix2 e k)
  rw [h] <;> rfl

/-- The weight rows' block at a point is the tile's rows of the array. -/
theorem iblk5_2_apply (c : Dev nD) (t : Fin cfg5.N) (j : Fin tileWidth5) (e : Fin embDim5)
    (hc : win5_7.index t (1 : Fin 2) * tileWidth5 + j.val < 2 * tilesPerHalf5 * tileWidth5) :
    (iblk5 V c 2 t : Vec Ideal S4096x64 .bf16) (ix2 j e) = wA5 V c (ix2 ⟨win5_7.index t (1 : Fin 2) * tileWidth5 + j.val, hc⟩ e) := by
  obtain ⟨-, -, -, -, e0, e1, -⟩ := idxs5 t
  have h : (((cfg5.win 2).blk t).view.emb (ix2 j e) : S163840x64.Idx) = ix2 ⟨win5_7.index t (1 : Fin 2) * tileWidth5 + j.val, hc⟩ e := by
    funext a; apply Fin.ext
    match a with
    | ⟨0, _⟩ => show win5_2.index t (0 : Fin 2) * tileWidth5 + 1 * j.val = win5_7.index t (1 : Fin 2) * tileWidth5 + j.val; rw [e0] <;> omega
    | ⟨1, _⟩ => show win5_2.index t (1 : Fin 2) * embDim5 + 1 * e.val = e.val; rw [e1] <;> omega
  show V c (Pipeline.arrRef spec5 2) (((cfg5.win 2).blk t).view.emb (ix2 j e)) = V c (Pipeline.arrRef spec5 2) (ix2 ⟨win5_7.index t (1 : Fin 2) * tileWidth5 + j.val, hc⟩ e)
  rw [h] <;> rfl

/-- The bias's block at a point is the tile's entries of the array. -/
theorem iblk5_3_apply (c : Dev nD) (t : Fin cfg5.N) (j : Fin tileWidth5)
    (hc : win5_7.index t (1 : Fin 2) * tileWidth5 + j.val < 2 * tilesPerHalf5 * tileWidth5) :
    (iblk5 V c 3 t : Vec Ideal S1x4096 .f32) (ix2 (0 : Fin 1) j) = bA5 V c (ix2 (0 : Fin 1) ⟨win5_7.index t (1 : Fin 2) * tileWidth5 + j.val, hc⟩) := by
  obtain ⟨-, -, -, -, -, -, e0, e1, -⟩ := idxs5 t
  have h : (((cfg5.win 3).blk t).view.emb (ix2 (0 : Fin 1) j) : S1x163840.Idx) = ix2 (0 : Fin 1) ⟨win5_7.index t (1 : Fin 2) * tileWidth5 + j.val, hc⟩ := by
    funext a; apply Fin.ext
    match a with
    | ⟨0, _⟩ => show win5_3.index t (0 : Fin 2) * 1 + 1 * (0 : Fin 1).val = (0 : Fin 1).val; omega
    | ⟨1, _⟩ => show win5_3.index t (1 : Fin 2) * tileWidth5 + 1 * j.val = win5_7.index t (1 : Fin 2) * tileWidth5 + j.val; rw [e1] <;> omega
  show V c (Pipeline.arrRef spec5 3) (((cfg5.win 3).blk t).view.emb (ix2 (0 : Fin 1) j)) = V c (Pipeline.arrRef spec5 3) (ix2 (0 : Fin 1) ⟨win5_7.index t (1 : Fin 2) * tileWidth5 + j.val, hc⟩)
  rw [h] <;> rfl

/-- The row maxima's block is the whole array. -/
theorem iblk5_4_apply (c : Dev nD) (t : Fin cfg5.N) (n : Fin 512) :
    (iblk5 V c 4 t : Vec Ideal S512x1 .f32) (ix2 n (0 : Fin 1)) = mA5 V c (ix2 n (0 : Fin 1)) := by
  obtain ⟨-, -, -, -, -, -, -, -, e0, e1, -⟩ := idxs5 t
  have h : (((cfg5.win 4).blk t).view.emb (ix2 n (0 : Fin 1)) : S512x1.Idx) = ix2 n (0 : Fin 1) := by
    funext a; apply Fin.ext
    match a with
    | ⟨0, _⟩ => show win5_4.index t (0 : Fin 2) * 512 + 1 * n.val = n.val; rw [e0] <;> omega
    | ⟨1, _⟩ => show win5_4.index t (1 : Fin 2) * 1 + 1 * (0 : Fin 1).val = (0 : Fin 1).val; omega
  show V c (Pipeline.arrRef spec5 4) (((cfg5.win 4).blk t).view.emb (ix2 n (0 : Fin 1))) = V c (Pipeline.arrRef spec5 4) (ix2 n (0 : Fin 1))
  rw [h] <;> rfl

/-- The row sums' block is the whole array. -/
theorem iblk5_5_apply (c : Dev nD) (t : Fin cfg5.N) (n : Fin 512) :
    (iblk5 V c 5 t : Vec Ideal S512x1 .f32) (ix2 n (0 : Fin 1)) = lA5 V c (ix2 n (0 : Fin 1)) := by
  obtain ⟨-, -, -, -, -, -, -, -, -, -, e0, e1, -⟩ := idxs5 t
  have h : (((cfg5.win 5).blk t).view.emb (ix2 n (0 : Fin 1)) : S512x1.Idx) = ix2 n (0 : Fin 1) := by
    funext a; apply Fin.ext
    match a with
    | ⟨0, _⟩ => show win5_5.index t (0 : Fin 2) * 512 + 1 * n.val = n.val; rw [e0] <;> omega
    | ⟨1, _⟩ => show win5_5.index t (1 : Fin 2) * 1 + 1 * (0 : Fin 1).val = (0 : Fin 1).val; omega
  show V c (Pipeline.arrRef spec5 5) (((cfg5.win 5).blk t).view.emb (ix2 n (0 : Fin 1))) = V c (Pipeline.arrRef spec5 5) (ix2 n (0 : Fin 1))
  rw [h] <;> rfl

/-- The extra terms' block is the whole array. -/
theorem iblk5_6_apply (c : Dev nD) (t : Fin cfg5.N) (n : Fin 512) :
    (iblk5 V c 6 t : Vec Ideal S512x1 .f32) (ix2 n (0 : Fin 1)) = exA5 V c (ix2 n (0 : Fin 1)) := by
  obtain ⟨-, -, -, -, -, -, -, -, -, -, -, -, e0, e1, -⟩ := idxs5 t
  have h : (((cfg5.win 6).blk t).view.emb (ix2 n (0 : Fin 1)) : S512x1.Idx) = ix2 n (0 : Fin 1) := by
    funext a; apply Fin.ext
    match a with
    | ⟨0, _⟩ => show win5_6.index t (0 : Fin 2) * 512 + 1 * n.val = n.val; rw [e0] <;> omega
    | ⟨1, _⟩ => show win5_6.index t (1 : Fin 2) * 1 + 1 * (0 : Fin 1).val = (0 : Fin 1).val; omega
  show V c (Pipeline.arrRef spec5 6) (((cfg5.win 6).blk t).view.emb (ix2 n (0 : Fin 1))) = V c (Pipeline.arrRef spec5 6) (ix2 n (0 : Fin 1))
  rw [h] <;> rfl

/-! ## The scratch and the tile's logits -/

/-- The scratch holds the projected hidden rows. -/
theorem y5_apply (c : Dev nD) (n : Fin 512) (e : Fin embDim5) : y5 V c (ix2 n e) = yrow5 V c n e := by
  unfold y5 yrow5
  refine (k5_pay1_apply (iblk5 V c 0 pt5_0) (iblk5 V c 1 pt5_0) n e).trans ?_
  exact Finset.sum_congr rfl fun k _ =>
    congrArg₂ (fun a b : EReal => a * b) (iblk5_0_apply V c pt5_0 n k) (iblk5_1_apply V c pt5_0 e k)

/-- The tile's masked logit at lane j is the masked logit at the tile's column j of the padded width. -/
theorem logit5_eq (c : Dev nD) (t : Fin cfg5.N) (n : Fin 512) (j : Fin tileWidth5)
    (hc : win5_7.index t (1 : Fin 2) * tileWidth5 + j.val < 2 * tilesPerHalf5 * tileWidth5) :
    k5_logit (grid5.coords t) (y5 V c) (iblk5 V c 2 t) (iblk5 V c 3 t) n j
      = xz5 V c n ⟨win5_7.index t (1 : Fin 2) * tileWidth5 + j.val, hc⟩ := by
  obtain ⟨-, -, -, -, -, -, -, -, -, -, -, -, -, -, -, e1, -⟩ := idxs5 t
  unfold k5_logit xz5
  by_cases hv : win5_7.index t (1 : Fin 2) * tileWidth5 + j.val < validCols5
  · rw [if_pos (show (((grid5.coords t) 0).val * tilesPerHalf5 + ((grid5.coords t) 1).val) * tileWidth5 + j.val < validCols5 from e1 ▸ hv), if_pos hv]
    exact congrArg₂ (fun a b : EReal => a + b)
      (Finset.sum_congr rfl fun e _ => congrArg₂ (fun a b : EReal => a * b) (y5_apply V c n e) (iblk5_2_apply V c t j e hc))
      (iblk5_3_apply V c t j hc)
  · rw [if_neg (show ¬ (((grid5.coords t) 0).val * tilesPerHalf5 + ((grid5.coords t) 1).val) * tileWidth5 + j.val < validCols5 from e1 ▸ hv), if_neg hv]

/-! ## What a point writes back, and the array after the launch -/

/-- What the body leaves in the output's buffer at point t, at row n and lane j, is the array function at an index
    with row n and the tile's column j. -/
theorem out5_7_at (c : Dev nD) (t : Fin cfg5.N) (n : Fin 512) (j : Fin tileWidth5) (i : S512x163840.Idx)
    (h0 : (i 0).val = n.val) (h1 : (i 1).val = win5_7.index t (1 : Fin 2) * tileWidth5 + j.val) :
    out5_7 V c t (ix2 n j) = outG5 V c i := by
  have hc : win5_7.index t (1 : Fin 2) * tileWidth5 + j.val < 2 * tilesPerHalf5 * tileWidth5 := h1 ▸ (i 1).isLt
  have hi0 : i 0 = n := Fin.ext h0
  have hi1 : i 1 = ⟨win5_7.index t (1 : Fin 2) * tileWidth5 + j.val, hc⟩ := Fin.ext h1
  unfold out5_7 outG5
  rw [hi0, hi1]
  refine (k5_pay2_apply (grid5.coords t) (y5 V c) (iblk5 V c 2 t) (iblk5 V c 3 t) (iblk5 V c 4 t) (iblk5 V c 5 t) (iblk5 V c 6 t) n j).trans ?_
  exact congrArg₂ (fun a b : EReal => a + b)
    (congrArg₂ (fun a b : EReal => a - b)
      (congrArg₂ (fun a b : EReal => a - b) (logit5_eq V c t n j hc) (iblk5_4_apply V c t n))
      (congrArg Ideal.log (iblk5_5_apply V c t n)))
    (iblk5_6_apply V c t n)

/-- What point t writes back is block t of the array function. -/
theorem flushed5_7_eq (c : Dev nD) (t : Fin cfg5.N) :
    (dat5 V c).flushed 7 t = ((cfg5.win 7).blk t).view.read (Elt Ideal) (outG5 V c) := by
  obtain ⟨-, -, -, -, -, -, -, -, -, -, -, -, -, -, e0, -, -⟩ := idxs5 t
  show (cfg5.win 7).cut (grid5.coords t) ((dat5 V c).after 7 t) = _
  rw [after5_7]
  funext y
  obtain ⟨n, j, rfl⟩ : ∃ (n : Fin 512) (j : Fin tileWidth5), y = ix2 n j := ⟨y 0, y 1, eq_ix2 y⟩
  show out5_7 V c t (ix2 n j) = outG5 V c (((cfg5.win 7).blk t).view.emb (ix2 n j))
  refine out5_7_at V c t n j _ ?_ ?_
  · show win5_7.index t (0 : Fin 2) * 512 + 1 * n.val = n.val
    rw [e0]; omega
  · show win5_7.index t (1 : Fin 2) * tileWidth5 + 1 * j.val = win5_7.index t (1 : Fin 2) * tileWidth5 + j.val
    omega

/-- An index of the output array is in point t's block iff each coordinate is in the block's range on its axis. -/
theorem memblk5 (t : Fin cfg5.N) (i : S512x163840.Idx) :
    i ∈ ((cfg5.win 7).blk t).view.set ↔ ∀ a : Fin 2, win5_7.index t a * S512x4096.size a ≤ (i a).val ∧ (i a).val < win5_7.index t a * S512x4096.size a + S512x4096.size a := by
  show i ∈ ((View.whole main_v99).slice (win5_7.rect t)).set ↔ _
  rw [View.set_slice_whole, Rect.mem_set_unit]
  exact Iff.rfl

/-- Every index of the output array is in some point's block: column col is in the block of the point whose tile
    is col / tileWidth. -/
theorem cover5 (i : S512x163840.Idx) :
    ∃ t : Fin cfg5.N, (cfg5.win 7).flush t = true ∧ i ∈ ((cfg5.win 7).blk t).view.set := by
  have hi0 : (i 0).val < 512 := (i 0).isLt
  have hi1 : (i 1).val < 2 * tilesPerHalf5 * tileWidth5 := (i 1).isLt
  have hw : 0 < tileWidth5 := by decide
  have hq : (i 1).val / tileWidth5 < 2 * tilesPerHalf5 := Nat.div_lt_of_lt_mul (by rw [Nat.mul_comm]; exact hi1)
  obtain ⟨t, ht⟩ := onto5 ⟨(i 1).val / tileWidth5, hq⟩
  obtain ⟨-, -, -, -, -, -, -, -, -, -, -, -, -, -, e0, -, -⟩ := idxs5 t
  refine ⟨t, flush5_7 t, ?_⟩
  rw [memblk5]
  intro a
  match a with
  | ⟨0, _⟩ =>
    show win5_7.index t (0 : Fin 2) * 512 ≤ (i 0).val ∧ (i 0).val < win5_7.index t (0 : Fin 2) * 512 + 512
    rw [e0]; omega
  | ⟨1, _⟩ =>
    show win5_7.index t (1 : Fin 2) * tileWidth5 ≤ (i 1).val ∧ (i 1).val < win5_7.index t (1 : Fin 2) * tileWidth5 + tileWidth5
    rw [ht]
    exact ⟨Nat.div_mul_le_self _ _, Nat.lt_div_mul_add hw⟩

/-- The output array after the launch is the array function. -/
theorem out5_all (c : Dev nD) : (dat5 V c).arrAt 7 cfg5.N = outG5 V c :=
  (dat5 V c).arrAt_eq_of_cover 7 (outG5 V c) (fun t _ => flushed5_7_eq V c t) cover5

/-- THE RESULT: at row n and a real column col the output array holds the logit less the row's maximum and the
    logarithm of the row's sum, plus the row's extra term. -/
theorem out5_valid (c : Dev nD) (n : Fin 512) (col : Fin (2 * tilesPerHalf5 * tileWidth5)) (hv : col.val < validCols5) :
    (dat5 V c).arrAt 7 cfg5.N (ix2 n col)
      = ((zrow5 V c n col.val - mA5 V c (ix2 n (0 : Fin 1))) - Ideal.log (lA5 V c (ix2 n (0 : Fin 1))))
          + exA5 V c (ix2 n (0 : Fin 1)) := by
  have hx : xz5 V c n col = zrow5 V c n col.val := by
    unfold xz5 zrow5
    rw [if_pos hv, dif_pos col.isLt]
    rfl
  refine (congrFun (out5_all V c) (ix2 n col)).trans ?_
  show ((xz5 V c n col - mA5 V c (ix2 n (0 : Fin 1))) - Ideal.log (lA5 V c (ix2 n (0 : Fin 1)))) + exA5 V c (ix2 n (0 : Fin 1)) = _
  rw [hx]

end Cert.KernelIdeal.Hand

end
-- ==== Proof.KernelCluster2.lean ====
/-
  Vocabulary cluster 2 (launches 4 and 5): what launch 5 leaves in its output array, row by row.

  The score row that each of the two launches computes for row r = 4·s + b from its window arrays — the hidden rows, the
  cluster's projection, its weight matrix padded with zero rows, its bias padded with zeros — is, below the cluster's
  width, the cluster's score of the token (s, b) (zrow4_score, zrow5_score). Launch 4 leaves the two halves' running
  maxima and sums of the masked tiles of that row; the host merges them and launch 5 writes, at a real column, the score
  less the merged maximum less the logarithm of the merged sum plus the head's log-probability of the cluster. That is
  the head's log-probability of the cluster plus the log-softmax of the cluster's scores at the column (out24_eq).
-/
import proofs.«124427_j55336358642036_2_alg».proof.Proof.KernelArgs
import proofs.«124427_j55336358642036_2_alg».proof.Proof.HostGlue2
import proofs.«124427_j55336358642036_2_alg».proof.Proof.Assemble
import proofs.«124427_j55336358642036_2_alg».proof.Proof.Stats4Value3
import proofs.«124427_j55336358642036_2_alg».proof.Proof.Write5Value
import proofs.«124427_j55336358642036_2_alg».proof.Proof.Sizes

set_option maxRecDepth 16384

noncomputable section

namespace Cert.KernelIdeal.Hand

open Cert.KernelIdeal.Gen Cert.KernelIdeal.GenP Cert.Sizes
open Idealize.ShloMosaic Idealize.ShloMosaic.TcCoe
open Idealize.ShloMosaic.ValueIdx
open Cert.OnlineSoftmax
open scoped BigOperators

variable (m : (ℓ : Loc nD τ sig) → Buf (Elt Ideal) ℓ)

/-- The score row launch 4 computes from its window arrays is the cluster's score below its width. -/
theorem zrow4_score (c : Dev nD) (r : Fin 512) (s : Fin 128) (b : Fin 4) (hr : r.val = 4 * s.val + b.val)
    (col : ℕ) (hc : col < validCols4) :
    zrow4 (rd (V21 m (outs m))) c r col
      = Cert.Spec.score ((kArgs m c).hidden s b) (kArgs m c).proj2 (kArgs m c).W2 (kArgs m c).b2 col := by
  have hcp : col < 2 * tilesPerHalf4 * tileWidth4 := lt_of_lt_of_le hc (by decide)
  unfold zrow4
  rw [dif_pos hcp]
  simp only [yrow4]
  refine Cert.Spec.padded_eq_score (npad := 2 * tilesPerHalf4 * tileWidth4) _ _ _ _
    (fun k => Stats4_hidA (rd (V21 m (outs m))) c (ix2 r k))
    (fun e k => Stats4_prjA (rd (V21 m (outs m))) c (ix2 e k))
    (fun j e => Stats4_wA (rd (V21 m (outs m))) c (ix2 j e))
    (fun j => Stats4_bA (rd (V21 m (outs m))) c (ix2 (0 : Fin 1) j)) ?_ ?_ ?_ ?_ hc hcp
  · intro k
    show (V21 m (outs m) c main_v1 : S512x1024.Idx → EReal) (ix2 r k) = _
    rw [V21_v1 m (outs m)]
    exact hid_eq m c r s b hr k
  · intro e k
    show (V21 m (outs m) c main_v76 : S64x1024.Idx → EReal) (ix2 e k) = _
    rw [V21_v76 m (outs m)]
    rfl
  · intro j h e
    show (V21 m (outs m) c main_v78 : S163840x64.Idx → EReal) (ix2 j e) = _
    rw [V21_v78 m (outs m)]
    unfold padRows
    rw [dif_pos h]
    rfl
  · intro j h
    show (V21 m (outs m) c main_v80 : S1x163840.Idx → EReal) (ix2 (0 : Fin 1) j) = _
    rw [V21_v80 m (outs m)]
    unfold padVec
    rw [dif_pos h]
    rfl

/-- The score row launch 5 computes from its window arrays is the cluster's score below its width. -/
theorem zrow5_score (c : Dev nD) (r : Fin 512) (s : Fin 128) (b : Fin 4) (hr : r.val = 4 * s.val + b.val)
    (col : ℕ) (hc : col < validCols5) :
    zrow5 (rd (V23 m (outs m))) c r col
      = Cert.Spec.score ((kArgs m c).hidden s b) (kArgs m c).proj2 (kArgs m c).W2 (kArgs m c).b2 col := by
  have hcp : col < 2 * tilesPerHalf5 * tileWidth5 := lt_of_lt_of_le hc (by decide)
  unfold zrow5
  rw [dif_pos hcp]
  simp only [yrow5]
  refine Cert.Spec.padded_eq_score (npad := 2 * tilesPerHalf5 * tileWidth5) _ _ _ _
    (fun k => hidA5 (rd (V23 m (outs m))) c (ix2 r k))
    (fun e k => prjA5 (rd (V23 m (outs m))) c (ix2 e k))
    (fun j e => wA5 (rd (V23 m (outs m))) c (ix2 j e))
    (fun j => bA5 (rd (V23 m (outs m))) c (ix2 (0 : Fin 1) j)) ?_ ?_ ?_ ?_ hc hcp
  · intro k
    show (V23 m (outs m) c main_v1 : S512x1024.Idx → EReal) (ix2 r k) = _
    rw [V23_v1 m (outs m)]
    exact hid_eq m c r s b hr k
  · intro e k
    show (V23 m (outs m) c main_v76 : S64x1024.Idx → EReal) (ix2 e k) = _
    rw [V23_v76 m (outs m)]
    rfl
  · intro j h e
    show (V23 m (outs m) c main_v78 : S163840x64.Idx → EReal) (ix2 j e) = _
    rw [V23_v78 m (outs m)]
    unfold padRows
    rw [dif_pos h]
    rfl
  · intro j h
    show (V23 m (outs m) c main_v80 : S1x163840.Idx → EReal) (ix2 (0 : Fin 1) j) = _
    rw [V23_v80 m (outs m)]
    unfold padVec
    rw [dif_pos h]
    rfl

/-- What launch 5 writes at row r = 4·s + b and a real column of cluster 2: the head's log-probability of the
    cluster plus the cluster's own log-softmax. -/
theorem out24_eq (c : Dev nD) (hA : Cert.Spec.ArgsReal (kArgs m c)) (r : Fin 512) (s : Fin 128) (b : Fin 4)
    (hr : r.val = 4 * s.val + b.val) (col : Fin (2 * tilesPerHalf5 * tileWidth5)) (hv : col.val < validCols5) :
    (outs m 24 main_v99 c : S512x163840.Idx → EReal) (ix2 r col)
      = xlogprob m (outs m) c r (1 : Fin 3)
        + logSoftmax 160000 (Cert.Spec.score ((kArgs m c).hidden s b) (kArgs m c).proj2 (kArgs m c).W2 (kArgs m c).b2) col.val := by
  rw [outs_24 m c, out5_valid (rd (V23 m (outs m))) c r col hv]
  have hmA : mA5 (rd (V23 m (outs m))) c (ix2 r (0 : Fin 1)) = mrgM (outs m 22 main_v81_0 c) r := by
    show (V23 m (outs m) c main_v90 : S512x1.Idx → EReal) (ix2 r (0 : Fin 1)) = _
    rw [V23_v90 m (outs m)]
  have hlA : lA5 (rd (V23 m (outs m))) c (ix2 r (0 : Fin 1))
      = mrgL (outs m 22 main_v81_0 c) (outs m 22 main_v81_1 c) r := by
    show (V23 m (outs m) c main_v97 : S512x1.Idx → EReal) (ix2 r (0 : Fin 1)) = _
    rw [V23_v97 m (outs m)]
  have hex : exA5 (rd (V23 m (outs m))) c (ix2 r (0 : Fin 1)) = xlogprob m (outs m) c r (1 : Fin 3) := by
    show (V23 m (outs m) c main_v98 : S512x1.Idx → EReal) (ix2 r (0 : Fin 1)) = _
    rw [V23_v98 m (outs m)]
  rw [hex]
  exact Cert.Spec.tail_row (T := tilesPerHalf4) (fun k => hA.hidden s b k) hA.proj2 hA.W2 hA.b2
    (zrow4 (rd (V21 m (outs m))) c r) (zrow5 (rd (V23 m (outs m))) c r)
    (fun col hc => zrow4_score m c r s b hr col hc) (fun col hc => zrow5_score m c r s b hr col hc)
    (xrow4_tiled (rd (V21 m (outs m))) c r) (by decide) (by decide)
    (fun h => (outs m 22 main_v81_0 c : S2x512x1.Idx → EReal) (ix3 h r (0 : Fin 1)))
    (fun h => (outs m 22 main_v81_1 c : S2x512x1.Idx → EReal) (ix3 h r (0 : Fin 1)))
    (fun h => by rw [outs_22_0 m c]; exact Stats4_m_parts (rd (V21 m (outs m))) c h r)
    (fun h => by rw [outs_22_1 m c]; exact Stats4_l_parts (rd (V21 m (outs m))) c h r)
    hmA hlA hv rfl

end Cert.KernelIdeal.Hand

end
-- ==== Proof.Stats6Pay.lean ====
/-
  The statistics launch of one vocabulary cluster, read at an index at the ideal float values.

  Every grid point (half h, tile t) forms the logit tile  y · Wᵀ + bias  of its 512 rows against its block of
  tileWidth columns, masks the columns from validCols on to the bottom element, and updates the row's running
  maximum m and running sum l:   m' = max m (max over the tile),   l' = l · exp (m − m') + Σ_j exp (x_j − m').
  At the first tile of a half it first forms the scratch block  hidden · projᵀ  and sets m to the bottom element
  and l to zero.  Each store of the body is a pure function of its loads; this module reads those functions at one
  index: the tile's entry (Stats6_logit), the new maximum and its stored form (Stats6_newMax, Stats6_storedMax),
  the rescaled old sum (Stats6_rescaled), the maximum spread over the tile (Stats6_bcastMax), the new sum
  (Stats6_newSum), the first-tile stores (Stats6_scratch, Stats6_initMax, Stats6_initSum), and in one statement the
  pair (m', l') as one step of the online softmax on the tile (Stats6_step).
-/
import proofs.«124427_j55336358642036_2_alg».proof.Proof.Gen.KernelIdeal.Skeleton
import proofs.«124427_j55336358642036_2_alg».proof.Proof.Sizes
import proofs.«124427_j55336358642036_2_alg».proof.Proof.LibOnlineSoftmax
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate
import Mathlib.Data.Finset.Lattice.Fold

noncomputable section

namespace Cert.KernelIdeal.Hand

open Idealize.ShloMosaic Idealize.ShloMosaic.ValueIdx Cert.KernelIdeal.Gen Cert.Sizes
open scoped BigOperators

/-! ## The tile -/

/-- The masked logit tile of grid point i = (h, t) at row n: column j of the tile is column (h·T + t)·tn + j of the
    cluster; below validCols it holds the row of y against row j of the weight block plus the bias, from there on
    the bottom element. -/
def Stats6_tile (i : grid6.Coords) (y : FVec Ideal S512x16 .bf16) (Wb : FVec Ideal S4096x16 .bf16)
    (b : FVec Ideal S1x4096 .f32) (n : Fin 512) (j : Fin tileWidth6) : EReal :=
  if ((i 0).val * tilesPerHalf6 + (i 1).val) * tileWidth6 + j.val < validCols6
  then ((∑ e : Fin embDim6, y (ix2 n e) * Wb (ix2 j e) : EReal) + (b (ix2 (0 : Fin 1) j) : EReal)) else ⊥

/-! ## Words: the column number and the mask bit -/

/-- An integer comparison of two vectors at an index compares the elements. -/
theorem Stats6_cmpi_apply {s : Shape} {w : ℕ} (p : CmpIPredicate) (a c : IVec s w) (q : s.Idx) :
    cmpi p a c q = IntOp.cmpi p (a q) (c q) := rfl

/-- An integer sum of two vectors at an index adds the elements. -/
theorem Stats6_addi_apply {s : Shape} {w : ℕ} (a c : IVec s w) (q : s.Idx) :
    addi a c q = IntOp.addi (a q) (c q) := rfl

/-- The 32-bit word the body computes for a column, lane + ((half · T + tile) · tn), is the word of the natural
    number (half · T + tile) · tn + lane. -/
theorem Stats6_word (h T t tn j : ℕ) :
    IntOp.addi (BitVec.ofNat 32 j)
        (Scalar.muli (Scalar.addi (Scalar.muli (BitVec.ofNat 32 h) (BitVec.ofNat 32 T)) (BitVec.ofNat 32 t)) (BitVec.ofNat 32 tn))
      = BitVec.ofNat 32 ((h * T + t) * tn + j) := by
  show BitVec.ofNat 32 j + (BitVec.ofNat 32 h * BitVec.ofNat 32 T + BitVec.ofNat 32 t) * BitVec.ofNat 32 tn = _
  rw [BitVec.ofNat_mul_ofNat, BitVec.ofNat_add_ofNat, BitVec.ofNat_mul_ofNat, BitVec.ofNat_add_ofNat, Nat.add_comm]

/-- Every column number of the grid is a small non-negative word. -/
theorem Stats6_colBound (h t j : ℕ) (hh : h < 2) (ht : t < tilesPerHalf6) (hj : j < tileWidth6) :
    (h * tilesPerHalf6 + t) * tileWidth6 + j < 2 ^ 31 := by
  unfold tilesPerHalf6 at *
  unfold tileWidth6 at *
  omega

/-! ## The two products -/

theorem Stats6_lhsW_0 (q : S512x4096.Idx) (k : dot_S512x16_S4096x16_S512x4096_1_1_0_0_n_n.contr.Idx) :
    (dot_S512x16_S4096x16_S512x4096_1_1_0_0_n_n.lhsIdx q k 0).val = (q 0).val := by
  unfold DotDims.lhsIdx
  rw [dif_neg (show ¬(0 : Fin S512x16.rank) ∈ dot_S512x16_S4096x16_S512x4096_1_1_0_0_n_n.lhsBatch by decide), dif_pos (show (0 : Fin S512x16.rank) ∈ dot_S512x16_S4096x16_S512x4096_1_1_0_0_n_n.lhsNonContracting by decide)]
  rfl
theorem Stats6_lhsW_1 (q : S512x4096.Idx) (k : dot_S512x16_S4096x16_S512x4096_1_1_0_0_n_n.contr.Idx) :
    (dot_S512x16_S4096x16_S512x4096_1_1_0_0_n_n.lhsIdx q k 1).val = (k ⟨0, by decide⟩).val :=
  dot_S512x16_S4096x16_S512x4096_1_1_0_0_n_n.lhsIdx_val_of_single rfl q k
theorem Stats6_rhsW_0 (q : S512x4096.Idx) (k : dot_S512x16_S4096x16_S512x4096_1_1_0_0_n_n.contr.Idx) :
    (dot_S512x16_S4096x16_S512x4096_1_1_0_0_n_n.rhsIdx q k 0).val = (q 1).val := by
  unfold DotDims.rhsIdx
  rw [dif_neg (show ¬(0 : Fin S4096x16.rank) ∈ dot_S512x16_S4096x16_S512x4096_1_1_0_0_n_n.rhsBatch by decide), dif_pos (show (0 : Fin S4096x16.rank) ∈ dot_S512x16_S4096x16_S512x4096_1_1_0_0_n_n.rhsNonContracting by decide)]
  rfl
theorem Stats6_rhsW_1 (q : S512x4096.Idx) (k : dot_S512x16_S4096x16_S512x4096_1_1_0_0_n_n.contr.Idx) :
    (dot_S512x16_S4096x16_S512x4096_1_1_0_0_n_n.rhsIdx q k 1).val = (k ⟨0, by decide⟩).val :=
  dot_S512x16_S4096x16_S512x4096_1_1_0_0_n_n.rhsIdx_val_of_single rfl q k

/-- The tile's product at (n, j): row n of y against row j of the weight block. -/
theorem Stats6_dotW (y : FVec Ideal S512x16 .bf16) (Wb : FVec Ideal S4096x16 .bf16) (n : Fin 512) (j : Fin tileWidth6) :
    matmul (F := Ideal) dot_S512x16_S4096x16_S512x4096_1_1_0_0_n_n none y Wb (constant (F := Ideal) S512x4096 .f32 0x00000000#32) (ix2 n j)
      = ∑ e : Fin embDim6, y (ix2 n e) * Wb (ix2 j e) := by
  simp only [matmul]
  rw [Ideal.matmul_constant_zero_apply, ← Equiv.sum_comp (contrEquiv1 dot_S512x16_S4096x16_S512x4096_1_1_0_0_n_n embDim6 rfl rfl).symm]
  refine Finset.sum_congr rfl fun e _ => ?_
  have he := contrEquiv1_symm_val dot_S512x16_S4096x16_S512x4096_1_1_0_0_n_n embDim6 rfl rfl e
  have el : dot_S512x16_S4096x16_S512x4096_1_1_0_0_n_n.lhsIdx (ix2 n j) ((contrEquiv1 dot_S512x16_S4096x16_S512x4096_1_1_0_0_n_n embDim6 rfl rfl).symm e) = ix2 n e := funext fun a => Fin.ext (by
    match a with
    | ⟨0, _⟩ => exact Stats6_lhsW_0 _ _
    | ⟨1, _⟩ => exact (Stats6_lhsW_1 _ _).trans he)
  have er : dot_S512x16_S4096x16_S512x4096_1_1_0_0_n_n.rhsIdx (ix2 n j) ((contrEquiv1 dot_S512x16_S4096x16_S512x4096_1_1_0_0_n_n embDim6 rfl rfl).symm e) = ix2 j e := funext fun a => Fin.ext (by
    match a with
    | ⟨0, _⟩ => exact Stats6_rhsW_0 _ _
    | ⟨1, _⟩ => exact (Stats6_rhsW_1 _ _).trans he)
  rw [el, er]

theorem Stats6_lhsP_0 (q : S512x16.Idx) (k : dot_S512x1024_S16x1024_S512x16_1_1_0_0_n_n.contr.Idx) :
    (dot_S512x1024_S16x1024_S512x16_1_1_0_0_n_n.lhsIdx q k 0).val = (q 0).val := by
  unfold DotDims.lhsIdx
  rw [dif_neg (show ¬(0 : Fin S512x1024.rank) ∈ dot_S512x1024_S16x1024_S512x16_1_1_0_0_n_n.lhsBatch by decide), dif_pos (show (0 : Fin S512x1024.rank) ∈ dot_S512x1024_S16x1024_S512x16_1_1_0_0_n_n.lhsNonContracting by decide)]
  rfl
theorem Stats6_lhsP_1 (q : S512x16.Idx) (k : dot_S512x1024_S16x1024_S512x16_1_1_0_0_n_n.contr.Idx) :
    (dot_S512x1024_S16x1024_S512x16_1_1_0_0_n_n.lhsIdx q k 1).val = (k ⟨0, by decide⟩).val :=
  dot_S512x1024_S16x1024_S512x16_1_1_0_0_n_n.lhsIdx_val_of_single rfl q k
theorem Stats6_rhsP_0 (q : S512x16.Idx) (k : dot_S512x1024_S16x1024_S512x16_1_1_0_0_n_n.contr.Idx) :
    (dot_S512x1024_S16x1024_S512x16_1_1_0_0_n_n.rhsIdx q k 0).val = (q 1).val := by
  unfold DotDims.rhsIdx
  rw [dif_neg (show ¬(0 : Fin S16x1024.rank) ∈ dot_S512x1024_S16x1024_S512x16_1_1_0_0_n_n.rhsBatch by decide), dif_pos (show (0 : Fin S16x1024.rank) ∈ dot_S512x1024_S16x1024_S512x16_1_1_0_0_n_n.rhsNonContracting by decide)]
  rfl
theorem Stats6_rhsP_1 (q : S512x16.Idx) (k : dot_S512x1024_S16x1024_S512x16_1_1_0_0_n_n.contr.Idx) :
    (dot_S512x1024_S16x1024_S512x16_1_1_0_0_n_n.rhsIdx q k 1).val = (k ⟨0, by decide⟩).val :=
  dot_S512x1024_S16x1024_S512x16_1_1_0_0_n_n.rhsIdx_val_of_single rfl q k

/-- The scratch block's product at (n, e): row n of the hidden block against row e of the projection. -/
theorem Stats6_dotP (hid : FVec Ideal S512x1024 .bf16) (prj : FVec Ideal S16x1024 .bf16) (n : Fin 512) (e : Fin embDim6) :
    matmul (F := Ideal) dot_S512x1024_S16x1024_S512x16_1_1_0_0_n_n none hid prj (constant (F := Ideal) S512x16 .f32 0x00000000#32) (ix2 n e)
      = ∑ k : Fin 1024, hid (ix2 n k) * prj (ix2 e k) := by
  simp only [matmul]
  rw [Ideal.matmul_constant_zero_apply, ← Equiv.sum_comp (contrEquiv1 dot_S512x1024_S16x1024_S512x16_1_1_0_0_n_n 1024 rfl rfl).symm]
  refine Finset.sum_congr rfl fun k _ => ?_
  have hk := contrEquiv1_symm_val dot_S512x1024_S16x1024_S512x16_1_1_0_0_n_n 1024 rfl rfl k
  have el : dot_S512x1024_S16x1024_S512x16_1_1_0_0_n_n.lhsIdx (ix2 n e) ((contrEquiv1 dot_S512x1024_S16x1024_S512x16_1_1_0_0_n_n 1024 rfl rfl).symm k) = ix2 n k := funext fun a => Fin.ext (by
    match a with
    | ⟨0, _⟩ => exact Stats6_lhsP_0 _ _
    | ⟨1, _⟩ => exact (Stats6_lhsP_1 _ _).trans hk)
  have er : dot_S512x1024_S16x1024_S512x16_1_1_0_0_n_n.rhsIdx (ix2 n e) ((contrEquiv1 dot_S512x1024_S16x1024_S512x16_1_1_0_0_n_n 1024 rfl rfl).symm k) = ix2 e k := funext fun a => Fin.ext (by
    match a with
    | ⟨0, _⟩ => exact Stats6_rhsP_0 _ _
    | ⟨1, _⟩ => exact (Stats6_rhsP_1 _ _).trans hk)
  rw [el, er]

/-! ## The tile's entry -/

/-- The named floor constant is the bottom element at the ideal values. -/
theorem Stats6_negBig : Named.named (F := Ideal) κ "neg_big" (φ := .f32) 0xFF333332#32 = ⊥ :=
  IdealRules.named_const.ideal_named_scalar _ _ _ _ rfl

/-- The masked logit the body forms, at (n, j), is the tile's entry. -/
theorem Stats6_logit (i : grid6.Coords) (y : FVec Ideal S512x16 .bf16) (Wb : FVec Ideal S4096x16 .bf16)
    (b : FVec Ideal S1x4096 .f32) (n : Fin 512) (j : Fin tileWidth6) :
    k6_pay6 (F := Ideal) i y Wb b (ix2 n j) = Stats6_tile i y Wb b n j := by
  unfold k6_pay6 Stats6_tile
  dsimp only
  rw [select_apply]
  unfold Scalar.select
  refine ite_congr (propext ?_) (fun _ => ?_) (fun _ => ?_)
  · rw [Stats6_cmpi_apply, Stats6_addi_apply, broadcast_apply, broadcast_apply, iota_single_apply, Stats6_word]
    unfold IntOp.cmpi
    exact StableHlo.Predicate.slt_ofNat_iff _ _ (Stats6_colBound _ _ _ (i 0).isLt (i 1).isLt j.isLt) (by decide)
  · rw [addf_apply, shapeCast_self, shapeCast_self, Stats6_dotW, broadcastTo_1b_ab_apply]
  · exact Stats6_negBig

/-! ## Layout steps of the running statistics -/

/-- A [512] vector viewed as a [512, 1] column reads its entry n at (n, c). -/
theorem Stats6_col_apply (v : FVec Ideal S512 .f32) (h : S512.ShapeCasts S512x1) (n : Fin 512) (c : Fin 1) :
    shapeCast S512x1 v h (ix2 n c) = v (ix1 n) :=
  shapeCast_apply v h _ _ (by
    have hc : c.val = 0 := by omega
    rw [Shape.rowMajor_val_one, Shape.rowMajor_val_two]
    show n.val = n.val * 1 + c.val
    omega)

/-- A [512, 1] column spread over the tile's lanes reads its entry n at (n, j). -/
theorem Stats6_spread_apply (v : FVec Ideal S512x1 .f32) (h : S512x1.Broadcasts S512x4096) (n : Fin 512) (j : Fin tileWidth6) :
    broadcastTo S512x4096 v h (ix2 n j) = v (ix2 n (0 : Fin 1)) := by
  refine broadcastTo_apply v h (ix2 n j) (ix2 n (0 : Fin 1)) fun ax => ?_
  match ax with
  | ⟨0, _⟩ => rfl
  | ⟨1, _⟩ => rfl

/-- The exponential of a vector at an index is the exponential of the element. -/
theorem Stats6_exp_apply {s : Shape} {φ : FTy} (a : FVec Ideal s φ) (q : s.Idx) : exp a q = Ideal.exp (a q) := rfl

/-- The index a lane reduction of the tile reads at row n and lane k. -/
theorem Stats6_lift (h : S512x4096.Reduces [1] S512) (n : Fin 512) (k : Fin tileWidth6) : h.lift (ix1 n) k = ix2 n k :=
  funext fun c => Fin.ext (by match c with | ⟨0, _⟩ => rfl | ⟨1, _⟩ => rfl)

/-- The row maximum over the tile's lanes, from the bottom element. -/
theorem Stats6_rowMax (x : FVec Ideal S512x4096 .f32) (h : S512x4096.Reduces [1] S512) (hφ : FKind.Formats .f32)
    (hacc : (0xFF800000#32 : BitVec 32) = 0xFF800000#32) (n : Fin 512) :
    multiReduction .maximumf [1] S512 x 0xFF800000#32 h hφ hacc (ix1 n) = Finset.univ.sup fun j : Fin tileWidth6 => x (ix2 n j) := by
  refine (Ideal.multiReduction_maximumf_single x 0xFF800000#32 h hφ hacc (ix1 n)).trans ?_
  have hb : (FloatOps.ofBits .f32 0xFF800000#32 : Ideal .f32) = ⊥ := by
    show Ideal.ofBits .f32 0xFF800000#32 = ⊥
    simp [Ideal.ofBits, Ideal.ieee]
  have hf : (x ∘ h.lift (ix1 n)) = fun j : Fin tileWidth6 => x (ix2 n j) :=
    funext fun k => congrArg x (Stats6_lift h n k)
  rw [hb, hf]
  rfl

/-- The row sum over the tile's lanes. -/
theorem Stats6_rowSum (x : FVec Ideal S512x4096 .f32) (h : S512x4096.Reduces [1] S512) (hφ : FKind.Formats .f32)
    (hacc : (0x00000000#32 : BitVec 32) = 0x00000000#32) (n : Fin 512) :
    multiReduction .add [1] S512 x 0x00000000#32 h hφ hacc (ix1 n) = ∑ j : Fin tileWidth6, x (ix2 n j) := by
  refine (Ideal.multiReduction_add_single x 0x00000000#32 h hφ hacc (ix1 n)).trans ?_
  exact Finset.sum_congr rfl fun k _ => congrArg x (Stats6_lift h n k)

/-! ## The running maximum -/

/-- The new running maximum at row n: the loaded one against the tile's maximum. -/
theorem Stats6_newMax (i : grid6.Coords) (y : FVec Ideal S512x16 .bf16) (Wb : FVec Ideal S4096x16 .bf16)
    (b : FVec Ideal S1x4096 .f32) (m : FVec Ideal S1x512x1 .f32) (n : Fin 512) (c : Fin 1) :
    k6_pay7 (F := Ideal) i y Wb b m (ix2 n c)
      = max (m (ix3 (0 : Fin 1) n (0 : Fin 1))) (Finset.univ.sup (Stats6_tile i y Wb b n)) := by
  obtain rfl : c = 0 := Subsingleton.elim _ _
  unfold k6_pay7
  rw [maximumf_apply, shapeCast_1ab_ab_apply, Stats6_col_apply, Stats6_rowMax]
  simp only [Stats6_logit]

/-- The block the body stores a [512, 1] column into reads the column. -/
theorem Stats6_pay2 (v : FVec Ideal S512x1 .f32) (u : Fin 1) (n : Fin 512) (c : Fin 1) :
    k6_pay2 (F := Ideal) v (ix3 u n c) = v (ix2 n c) := by
  unfold k6_pay2
  exact shapeCast_ab_1ab_apply v _ u n c

/-- The stored running maximum. -/
theorem Stats6_storedMax (i : grid6.Coords) (y : FVec Ideal S512x16 .bf16) (Wb : FVec Ideal S4096x16 .bf16)
    (b : FVec Ideal S1x4096 .f32) (m : FVec Ideal S1x512x1 .f32) (u : Fin 1) (n : Fin 512) (c : Fin 1) :
    k6_pay2 (k6_pay7 (F := Ideal) i y Wb b m) (ix3 u n c)
      = max (m (ix3 (0 : Fin 1) n (0 : Fin 1))) (Finset.univ.sup (Stats6_tile i y Wb b n)) := by
  rw [Stats6_pay2, Stats6_newMax]

/-- The old running sum rescaled to the new maximum. -/
theorem Stats6_rescaled (i : grid6.Coords) (y : FVec Ideal S512x16 .bf16) (Wb : FVec Ideal S4096x16 .bf16)
    (b : FVec Ideal S1x4096 .f32) (m m' l : FVec Ideal S1x512x1 .f32) (n : Fin 512) (c : Fin 1) :
    k6_pay8 (F := Ideal) i y Wb b m m' l (ix2 n c)
      = l (ix3 (0 : Fin 1) n (0 : Fin 1))
          * Ideal.exp (m' (ix3 (0 : Fin 1) n (0 : Fin 1))
              - max (m (ix3 (0 : Fin 1) n (0 : Fin 1))) (Finset.univ.sup (Stats6_tile i y Wb b n))) := by
  obtain rfl : c = 0 := Subsingleton.elim _ _
  unfold k6_pay8
  rw [mulf_apply, Stats6_exp_apply, subf_apply, shapeCast_1ab_ab_apply, shapeCast_1ab_ab_apply, Stats6_newMax]

/-- The new running maximum spread over the tile's lanes. -/
theorem Stats6_bcastMax (i : grid6.Coords) (y : FVec Ideal S512x16 .bf16) (Wb : FVec Ideal S4096x16 .bf16)
    (b : FVec Ideal S1x4096 .f32) (m : FVec Ideal S1x512x1 .f32) (n : Fin 512) (j : Fin tileWidth6) :
    k6_pay9 (F := Ideal) i y Wb b m (ix2 n j)
      = max (m (ix3 (0 : Fin 1) n (0 : Fin 1))) (Finset.univ.sup (Stats6_tile i y Wb b n)) := by
  unfold k6_pay9
  rw [Stats6_spread_apply, Stats6_newMax]

/-! ## The running sum -/

/-- The new running sum at row n: the rescaled old sum plus the tile's exponentials against the spread maximum. -/
theorem Stats6_newSum (x : FVec Ideal S512x4096 .f32) (r : FVec Ideal S512x1 .f32) (mb : FVec Ideal S512x4096 .f32)
    (u : Fin 1) (n : Fin 512) (c : Fin 1) :
    k6_pay1 (F := Ideal) x r mb (ix3 u n c)
      = r (ix2 n (0 : Fin 1)) + ∑ j : Fin tileWidth6, Ideal.exp (x (ix2 n j) - mb (ix2 n j)) := by
  obtain rfl : c = 0 := Subsingleton.elim _ _
  unfold k6_pay1
  rw [shapeCast_ab_1ab_apply, addf_apply, Stats6_col_apply, Stats6_rowSum]
  rfl

/-! ## The first tile's stores -/

/-- The scratch block at (n, e): the hidden row against the projection's row e (the narrowing to the scratch
    block's format is the identity on the ideal values). -/
theorem Stats6_scratch (hid : FVec Ideal S512x1024 .bf16) (prj : FVec Ideal S16x1024 .bf16) (n : Fin 512) (e : Fin embDim6) :
    k6_pay3 (F := Ideal) hid prj (ix2 n e) = ∑ k : Fin 1024, hid (ix2 n k) * prj (ix2 e k) := by
  unfold k6_pay3
  simp only [shapeCast_self, truncf_apply]
  exact Stats6_dotP hid prj n e

/-- The first tile sets the running maximum to the bottom element … -/
theorem Stats6_initMax : k6_pay4 (F := Ideal) = fun _ => ⊥ := by
  funext q
  obtain ⟨u, n, c, rfl⟩ : ∃ (u : Fin 1) (n : Fin 512) (c : Fin 1), q = ix3 u n c := ⟨q 0, q 1, q 2, eq_ix3 q⟩
  unfold k6_pay4
  rw [shapeCast_ab_1ab_apply, broadcast_apply, Stats6_negBig]

/-- … and the running sum to zero. -/
theorem Stats6_initSum : k6_pay5 (F := Ideal) = fun _ => 0 := by
  funext q
  obtain ⟨u, n, c, rfl⟩ : ∃ (u : Fin 1) (n : Fin 512) (c : Fin 1), q = ix3 u n c := ⟨q 0, q 1, q 2, eq_ix3 q⟩
  unfold k6_pay5
  rw [shapeCast_ab_1ab_apply, broadcast_apply]
  exact Ideal.ofBits_zero_f32

/-! ## One step of the online softmax -/

/-- The pair the body stores at row n — the new maximum and the new sum — is one step of the online softmax from
    the loaded pair on the grid point's tile. -/
theorem Stats6_step (i : grid6.Coords) (y : FVec Ideal S512x16 .bf16) (Wb : FVec Ideal S4096x16 .bf16)
    (b : FVec Ideal S1x4096 .f32) (m l : FVec Ideal S1x512x1 .f32) (n : Fin 512) :
    (k6_pay2 (k6_pay7 (F := Ideal) i y Wb b m) (ix3 (0 : Fin 1) n (0 : Fin 1)),
     k6_pay1 (k6_pay6 (F := Ideal) i y Wb b) (k6_pay8 (F := Ideal) i y Wb b m m l) (k6_pay9 (F := Ideal) i y Wb b m)
        (ix3 (0 : Fin 1) n (0 : Fin 1)))
      = Cert.OnlineSoftmax.step (m (ix3 (0 : Fin 1) n (0 : Fin 1)), l (ix3 (0 : Fin 1) n (0 : Fin 1))) (Stats6_tile i y Wb b n) := by
  rw [Stats6_storedMax, Stats6_newSum, Stats6_rescaled]
  simp only [Stats6_logit, Stats6_bcastMax]
  rfl

end Cert.KernelIdeal.Hand
-- ==== Proof.Stats6Value.lean ====
/-
  The statistics launch of one vocabulary cluster, read row by row at the ideal values.

  For one row n of the hidden activations the launch walks, in each half h of its grid, the tiles
  h·T, …, h·T + T − 1 of the row's logits z (the projected row times the padded weight's rows, plus the
  padded bias), masked to the bottom element from the cluster's last real column on. Each tile is one step of the
  online softmax on the pair (running maximum, running sum): so the pair a half ends with is the fold of those
  steps from (⊥, 0), and that is what the two statistics arrays hold at (h, n, 0) after the launch.

  Here: the row's data as functions of the four input arrays (the projected row, the logits, the masked tiles);
  each window's block read back as rows of its array (a block's coordinate is the block index times the block's
  size plus the coordinate inside the block, the block indices decided over the grid); one tile's update as one
  step of the fold; the fold inside a half by induction on the tile; and the arrays after the launch: each half's
  last point writes its block back, and the two blocks are the two halves of the array.
-/
import proofs.«124427_j55336358642036_2_alg».proof.Proof.Stats6Defs
import proofs.«124427_j55336358642036_2_alg».proof.Proof.Stats6Pay
import proofs.«124427_j55336358642036_2_alg».proof.Proof.LibOnlineSoftmax
import proofs.«124427_j55336358642036_2_alg».proof.Proof.Gen.KernelIdeal.Points
import Idealize.ShloMosaic.Lib.ValueIdx
import Idealize.ShloMosaic.Lib.Pipeline.Value

set_option maxRecDepth 16384

noncomputable section

namespace Cert.KernelIdeal.Hand

open Cert.KernelIdeal Cert.KernelIdeal.Gen Cert.Sizes
open Idealize.ShloMosaic Idealize.ShloMosaic.TcCoe Idealize.ShloMosaic.ValueIdx
open Idealize.SL Idealize.SL.Sem
open Idealize.ShloMosaic.Pipeline (Dat)
open scoped BigOperators

-- the contents of the TensorCore's buffers when the launch is entered, at the ideal values
variable (V : (c : Dev nD) → (b : Ref sig .tc) → Buf (Elt Ideal) ((c : Thread nD τ).loc b))

/-! ## The row's data, as functions of the four input arrays -/

/-- The hidden rows, the projection, the padded weight and the padded bias, as the launch finds them. -/
abbrev Stats6_hidA (c : Dev nD) : Vec Ideal S512x1024 .bf16 := V c (Pipeline.arrRef spec6 0)
abbrev Stats6_prjA (c : Dev nD) : Vec Ideal S16x1024 .bf16 := V c (Pipeline.arrRef spec6 1)
abbrev Stats6_wA (c : Dev nD) : Vec Ideal S73728x16 .bf16 := V c (Pipeline.arrRef spec6 2)
abbrev Stats6_bA (c : Dev nD) : Vec Ideal S1x73728 .f32 := V c (Pipeline.arrRef spec6 3)

/-- Row n of the hidden activations, projected: entry e. -/
def yrow6 (c : Dev nD) (n : Fin 512) (e : Fin embDim6) : EReal :=
  ∑ k : Fin 1024, Stats6_hidA V c (ix2 n k) * Stats6_prjA V c (ix2 e k)

/-- Row n's logit at column col of the padded weight: the projected row times the weight's row col, plus the bias
    at col (zero past the padded width, where nothing reads it). -/
def zrow6 (c : Dev nD) (n : Fin 512) (col : ℕ) : EReal :=
  if h : col < 2 * tilesPerHalf6 * tileWidth6 then
    (∑ e : Fin embDim6, yrow6 V c n e * Stats6_wA V c (ix2 (⟨col, h⟩ : Fin (2 * tilesPerHalf6 * tileWidth6)) e))
      + Stats6_bA V c (ix2 (0 : Fin 1) (⟨col, h⟩ : Fin (2 * tilesPerHalf6 * tileWidth6)))
  else 0

/-- Row n's logits cut into tiles, masked to the bottom element from the cluster's last real column on. -/
def xrow6 (c : Dev nD) (n : Fin 512) : ℕ → Fin tileWidth6 → EReal :=
  fun g j => if g * tileWidth6 + j.val < validCols6 then zrow6 V c n (g * tileWidth6 + j.val) else ⊥

theorem xrow6_tiled (c : Dev nD) (n : Fin 512) :
    Cert.OnlineSoftmax.Tiled (zrow6 V c n) validCols6 tileWidth6 (xrow6 V c n) := fun _ _ => rfl

/-! ## The grid: its size, and the windows' block indices at a point -/

theorem Stats6_N : cfg6.N = 2 * tilesPerHalf6 := N_6

theorem Stats6_T_pos : 0 < tilesPerHalf6 := by decide

/-- Point t of the grid is tile t of the row (the grid is the two halves, one after the other); the hidden rows and
    the projection are one block each; the weight's and the bias's block is the tile's; each statistics block is
    the half's. Decided over the grid. -/
theorem Stats6_idx : ∀ t : Fin cfg6.N,
    (grid6.coords t 0).val * tilesPerHalf6 + (grid6.coords t 1).val = t.val
    ∧ win6_0.index t (0 : Fin 2) = 0 ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = 0 ∧ win6_3.index t (1 : Fin 2) = t.val
    ∧ win6_4.index t (0 : Fin 3) = t.val / tilesPerHalf6 ∧ win6_4.index t (1 : Fin 3) = 0 ∧ win6_4.index t (2 : Fin 3) = 0
    ∧ win6_5.index t (0 : Fin 3) = t.val / tilesPerHalf6 ∧ win6_5.index t (1 : Fin 3) = 0 ∧ win6_5.index t (2 : Fin 3) = 0 :=
  (by decide +kernel : ∀ t : Fin grid6.N, _)

/-- A column of tile t lies inside the padded width. -/
theorem Stats6_col_lt (t : Fin cfg6.N) (j : Fin tileWidth6) : t.val * tileWidth6 + j.val < 2 * tilesPerHalf6 * tileWidth6 := by
  have ht : t.val + 1 ≤ 2 * tilesPerHalf6 := Nat.lt_of_lt_of_eq t.isLt Stats6_N
  have h1 : t.val * tileWidth6 + j.val < (t.val + 1) * tileWidth6 := by rw [Nat.succ_mul]; have := j.isLt; omega
  exact Nat.lt_of_lt_of_le h1 (Nat.mul_le_mul_right _ ht)

/-! ## The blocks, read back as entries of their arrays -/

theorem Stats6_hidBlk_apply (c : Dev nD) (t : Fin cfg6.N) (n : Fin 512) (k : Fin 1024) :
    hidBlk6 V c t (ix2 n k) = Stats6_hidA V c (ix2 n k) := by
  obtain ⟨-, e0, e1, -⟩ := Stats6_idx t
  show V c (Pipeline.arrRef spec6 0) (((cfg6.win 0).blk t).view.emb (ix2 n k)) = V c (Pipeline.arrRef spec6 0) (ix2 n k)
  congr 1
  funext a; apply Fin.ext
  match a with
  | ⟨0, _⟩ => show win6_0.index t (0 : Fin 2) * 512 + 1 * n.val = n.val; rw [e0]; omega
  | ⟨1, _⟩ => show win6_0.index t (1 : Fin 2) * 1024 + 1 * k.val = k.val; rw [e1]; omega

theorem Stats6_prjBlk_apply (c : Dev nD) (t : Fin cfg6.N) (e : Fin embDim6) (k : Fin 1024) :
    prjBlk6 V c t (ix2 e k) = Stats6_prjA V c (ix2 e k) := by
  obtain ⟨-, -, -, e0, e1, -⟩ := Stats6_idx t
  show V c (Pipeline.arrRef spec6 1) (((cfg6.win 1).blk t).view.emb (ix2 e k)) = V c (Pipeline.arrRef spec6 1) (ix2 e k)
  congr 1
  funext a; apply Fin.ext
  match a with
  | ⟨0, _⟩ => show win6_1.index t (0 : Fin 2) * embDim6 + 1 * e.val = e.val; rw [e0]; omega
  | ⟨1, _⟩ => show win6_1.index t (1 : Fin 2) * 1024 + 1 * k.val = k.val; rw [e1]; omega

theorem Stats6_wBlk_apply (c : Dev nD) (t : Fin cfg6.N) (j : Fin tileWidth6) (e : Fin embDim6)
    (h : t.val * tileWidth6 + j.val < 2 * tilesPerHalf6 * tileWidth6) :
    wBlk6 V c t (ix2 j e) = Stats6_wA V c (ix2 (⟨t.val * tileWidth6 + j.val, h⟩ : Fin (2 * tilesPerHalf6 * tileWidth6)) e) := by
  obtain ⟨-, -, -, -, -, e0, e1, -⟩ := Stats6_idx t
  show V c (Pipeline.arrRef spec6 2) (((cfg6.win 2).blk t).view.emb (ix2 j e))
    = V c (Pipeline.arrRef spec6 2) (ix2 (⟨t.val * tileWidth6 + j.val, h⟩ : Fin (2 * tilesPerHalf6 * tileWidth6)) e)
  congr 1
  funext a; apply Fin.ext
  match a with
  | ⟨0, _⟩ => show win6_2.index t (0 : Fin 2) * tileWidth6 + 1 * j.val = t.val * tileWidth6 + j.val; rw [e0]; omega
  | ⟨1, _⟩ => show win6_2.index t (1 : Fin 2) * embDim6 + 1 * e.val = e.val; rw [e1]; omega

theorem Stats6_bBlk_apply (c : Dev nD) (t : Fin cfg6.N) (j : Fin tileWidth6)
    (h : t.val * tileWidth6 + j.val < 2 * tilesPerHalf6 * tileWidth6) :
    bBlk6 V c t (ix2 (0 : Fin 1) j) = Stats6_bA V c (ix2 (0 : Fin 1) (⟨t.val * tileWidth6 + j.val, h⟩ : Fin (2 * tilesPerHalf6 * tileWidth6))) := by
  obtain ⟨-, -, -, -, -, -, -, e0, e1, -⟩ := Stats6_idx t
  show V c (Pipeline.arrRef spec6 3) (((cfg6.win 3).blk t).view.emb (ix2 (0 : Fin 1) j))
    = V c (Pipeline.arrRef spec6 3) (ix2 (0 : Fin 1) (⟨t.val * tileWidth6 + j.val, h⟩ : Fin (2 * tilesPerHalf6 * tileWidth6)))
  congr 1
  funext a; apply Fin.ext
  match a with
  | ⟨0, _⟩ => show win6_3.index t (0 : Fin 2) * 1 + 1 * 0 = 0; omega
  | ⟨1, _⟩ => show win6_3.index t (1 : Fin 2) * tileWidth6 + 1 * j.val = t.val * tileWidth6 + j.val; rw [e1]; omega

/-! ## One tile's update is one step of the fold, at a row -/

theorem Stats6_stepAt_y (c : Dev nD) (t : Fin cfg6.N) (s : Stat6 Ideal) : (stepAt6 V c t s).y = s.y := rfl

/-- The tile of point t at row n, over a scratch that holds the projected row, is the row's masked tile t. -/
theorem Stats6_tile_eq (c : Dev nD) (t : Fin cfg6.N) (y : Vec Ideal S512x16 .bf16) (n : Fin 512)
    (hy : ∀ e : Fin embDim6, y (ix2 n e) = yrow6 V c n e) :
    Stats6_tile (grid6.coords t) y (wBlk6 V c t) (bBlk6 V c t) n = xrow6 V c n t.val := by
  obtain ⟨hc, -⟩ := Stats6_idx t
  funext j
  unfold Stats6_tile xrow6
  rw [hc]
  by_cases hv : t.val * tileWidth6 + j.val < validCols6
  · rw [if_pos hv, if_pos hv]
    unfold zrow6
    rw [dif_pos (Stats6_col_lt t j), Stats6_bBlk_apply V c t j (Stats6_col_lt t j)]
    congr 1
    exact Finset.sum_congr rfl fun e _ => by rw [hy e, Stats6_wBlk_apply V c t j e (Stats6_col_lt t j)]
  · rw [if_neg hv, if_neg hv]

theorem Stats6_stepAt_row (c : Dev nD) (t : Fin cfg6.N) (s : Stat6 Ideal) (n : Fin 512)
    (hy : ∀ e : Fin embDim6, s.y (ix2 n e) = yrow6 V c n e) :
    ((stepAt6 V c t s).m (ix3 (0 : Fin 1) n (0 : Fin 1)), (stepAt6 V c t s).l (ix3 (0 : Fin 1) n (0 : Fin 1)))
      = Cert.OnlineSoftmax.step (s.m (ix3 (0 : Fin 1) n (0 : Fin 1)), s.l (ix3 (0 : Fin 1) n (0 : Fin 1))) (xrow6 V c n t.val) := by
  rw [← Stats6_tile_eq V c t s.y n hy]
  exact Stats6_step (grid6.coords t) s.y (wBlk6 V c t) (bBlk6 V c t) s.m s.l n

/-! ## The fold inside a half -/

/-- A point of half h, tile τ, as a natural number, is below the grid's size; so the point's number is itself. -/
theorem Stats6_pt_val (h : Fin 2) (τ : ℕ) (hτ : τ < tilesPerHalf6) :
    (pt6 (h.val * tilesPerHalf6 + τ)).val = h.val * tilesPerHalf6 + τ := by
  have hh : h.val * tilesPerHalf6 ≤ 1 * tilesPerHalf6 := Nat.mul_le_mul_right _ (by have := h.isLt; omega)
  show (h.val * tilesPerHalf6 + τ) % cfg6.N = h.val * tilesPerHalf6 + τ
  refine Nat.mod_eq_of_lt ?_
  rw [Stats6_N]; omega

/-- What a half starts from, at a row: the projected row, the bottom element and zero. -/
theorem Stats6_start_y (c : Dev nD) (t : Fin cfg6.N) (n : Fin 512) (e : Fin embDim6) :
    (startAt6 V c t).y (ix2 n e) = yrow6 V c n e := by
  refine (Stats6_scratch (hidBlk6 V c t) (prjBlk6 V c t) n e).trans ?_
  unfold yrow6
  exact Finset.sum_congr rfl fun k _ => by rw [Stats6_hidBlk_apply V c t n k, Stats6_prjBlk_apply V c t e k]

theorem Stats6_start_ml (c : Dev nD) (t : Fin cfg6.N) (n : Fin 512) :
    ((startAt6 V c t).m (ix3 (0 : Fin 1) n (0 : Fin 1)), (startAt6 V c t).l (ix3 (0 : Fin 1) n (0 : Fin 1))) = ((⊥ : EReal), (0 : EReal)) := by
  show (k6_pay4 (F := Ideal) (ix3 (0 : Fin 1) n (0 : Fin 1)), k6_pay5 (F := Ideal) (ix3 (0 : Fin 1) n (0 : Fin 1))) = _
  rw [Stats6_initMax, Stats6_initSum]

/-- After tile τ of half h the pair at row n is the fold of the first τ + 1 steps over the half's tiles, and the
    scratch holds the projected row. -/
theorem Stats6_fold (c : Dev nD) (n : Fin 512) (h : Fin 2) (τ : ℕ) (hτ : τ < tilesPerHalf6) :
    ((stats6 V c (h.val * tilesPerHalf6 + τ)).m (ix3 (0 : Fin 1) n (0 : Fin 1)), (stats6 V c (h.val * tilesPerHalf6 + τ)).l (ix3 (0 : Fin 1) n (0 : Fin 1)))
        = Cert.OnlineSoftmax.run (fun t => xrow6 V c n (h.val * tilesPerHalf6 + t)) (τ + 1)
      ∧ ∀ e : Fin embDim6, (stats6 V c (h.val * tilesPerHalf6 + τ)).y (ix2 n e) = yrow6 V c n e := by
  induction τ with
  | zero =>
    have hmod : (h.val * tilesPerHalf6 + 0) % tilesPerHalf6 = 0 := by rw [Nat.add_zero]; exact Nat.mul_mod_left _ _
    rw [stats6_first V c _ hmod, Stats6_stepAt_y]
    refine ⟨?_, fun e => Stats6_start_y V c _ n e⟩
    rw [Stats6_stepAt_row V c _ _ n (fun e => Stats6_start_y V c _ n e), Stats6_start_ml, Stats6_pt_val h 0 hτ]
    rfl
  | succ τ ih =>
    obtain ⟨ih1, ih2⟩ := ih (Nat.lt_of_succ_lt hτ)
    have hne : ¬(h.val * tilesPerHalf6 + τ + 1) % tilesPerHalf6 = 0 := by
      rw [Nat.add_assoc, Nat.add_comm (h.val * tilesPerHalf6) (τ + 1), Nat.add_mul_mod_self_right, Nat.mod_eq_of_lt hτ]; exact Nat.succ_ne_zero τ
    show ((stats6 V c (h.val * tilesPerHalf6 + τ + 1)).m _, (stats6 V c (h.val * tilesPerHalf6 + τ + 1)).l _) = _
      ∧ ∀ e : Fin embDim6, (stats6 V c (h.val * tilesPerHalf6 + τ + 1)).y (ix2 n e) = yrow6 V c n e
    rw [stats6_next V c _ hne, Stats6_stepAt_y]
    refine ⟨?_, ih2⟩
    rw [Stats6_stepAt_row V c _ _ n ih2, ih1]
    have hv : (pt6 (h.val * tilesPerHalf6 + τ + 1)).val = h.val * tilesPerHalf6 + (τ + 1) := Stats6_pt_val h (τ + 1) hτ
    rw [hv]
    rfl

end Cert.KernelIdeal.Hand

end
-- ==== Proof.Stats6Value3.lean ====
/-
  The statistics launch of one vocabulary cluster: what its two output arrays hold after the launch, row by row.

  Each half of the grid writes its block of the maxima and of the sums back once, at its last tile; the two blocks
  are the two halves of each array. So the arrays hold at (h, n, 0) what the last tile of half h left at row n:
  the fold of the online softmax over the half's masked tiles of the row.
-/
import proofs.«124427_j55336358642036_2_alg».proof.Proof.Stats6Value

set_option maxRecDepth 16384

noncomputable section

namespace Cert.KernelIdeal.Hand

open Cert.KernelIdeal Cert.KernelIdeal.Gen Cert.Sizes
open Idealize.ShloMosaic Idealize.ShloMosaic.TcCoe Idealize.ShloMosaic.ValueIdx
open Idealize.SL Idealize.SL.Sem
open Idealize.ShloMosaic.Pipeline (Dat)
open scoped BigOperators

-- the contents of the TensorCore's buffers when the launch is entered, at the ideal values
variable (V : (c : Dev nD) → (b : Ref sig .tc) → Buf (Elt Ideal) ((c : Thread nD τ).loc b))

/-! ## The two statistics arrays after the launch -/

abbrev Stats6_mOut (c : Dev nD) : Vec Ideal S2x512x1 .f32 := (dat6 V c).arrAt 4 cfg6.N
abbrev Stats6_lOut (c : Dev nD) : Vec Ideal S2x512x1 .f32 := (dat6 V c).arrAt 5 cfg6.N

/-- The last point of half h: the one that writes the half's blocks back. -/
def Stats6_last (h : Fin 2) : Fin cfg6.N :=
  ⟨h.val * tilesPerHalf6 + (tilesPerHalf6 - 1), by
    have hh : h.val * tilesPerHalf6 ≤ 1 * tilesPerHalf6 := Nat.mul_le_mul_right _ (by have := h.isLt; omega)
    have := Stats6_T_pos
    rw [Stats6_N]; omega⟩

theorem Stats6_last_mod (h : Fin 2) : (Stats6_last h).val % tilesPerHalf6 = tilesPerHalf6 - 1 := by
  show (h.val * tilesPerHalf6 + (tilesPerHalf6 - 1)) % tilesPerHalf6 = tilesPerHalf6 - 1
  rw [Nat.add_comm (h.val * tilesPerHalf6) (tilesPerHalf6 - 1), Nat.add_mul_mod_self_right]
  exact Nat.mod_eq_of_lt (by have := Stats6_T_pos; omega)

/-- What the arrays end holding, as functions of the index: at (h, n, ·) the pair the last tile of half h leaves at row n. -/
def Stats6_mG (c : Dev nD) : Vec Ideal S2x512x1 .f32 :=
  fun i => (stats6 V c ((i 0).val * tilesPerHalf6 + (tilesPerHalf6 - 1))).m (ix3 (0 : Fin 1) (⟨(i 1).val, (i 1).isLt⟩ : Fin 512) (0 : Fin 1))
def Stats6_lG (c : Dev nD) : Vec Ideal S2x512x1 .f32 :=
  fun i => (stats6 V c ((i 0).val * tilesPerHalf6 + (tilesPerHalf6 - 1))).l (ix3 (0 : Fin 1) (⟨(i 1).val, (i 1).isLt⟩ : Fin 512) (0 : Fin 1))

/-- Stats6_mG and Stats6_lG at an index, from the point's number and the block's index. -/
theorem Stats6_mG_apply (c : Dev nD) (i : S2x512x1.Idx) (k : ℕ) (hk : (i 0).val * tilesPerHalf6 + (tilesPerHalf6 - 1) = k)
    (j : S1x512x1.Idx) (hj : ix3 (0 : Fin 1) (⟨(i 1).val, (i 1).isLt⟩ : Fin 512) (0 : Fin 1) = j) :
    Stats6_mG V c i = (stats6 V c k).m j := by subst hk; subst hj; rfl
theorem Stats6_lG_apply (c : Dev nD) (i : S2x512x1.Idx) (k : ℕ) (hk : (i 0).val * tilesPerHalf6 + (tilesPerHalf6 - 1) = k)
    (j : S1x512x1.Idx) (hj : ix3 (0 : Fin 1) (⟨(i 1).val, (i 1).isLt⟩ : Fin 512) (0 : Fin 1) = j) :
    Stats6_lG V c i = (stats6 V c k).l j := by subst hk; subst hj; rfl

/-- A point that writes the maxima's block back writes the block of Stats6_mG at its place (and the sums' likewise). -/
theorem Stats6_flushed4 (c : Dev nD) (t : Fin cfg6.N) (hf : (cfg6.win 4).flush t = true) :
    (dat6 V c).flushed 4 t = ((cfg6.win 4).blk t).view.read (Elt Ideal) (Stats6_mG V c) := by
  have hmod : t.val % tilesPerHalf6 = tilesPerHalf6 - 1 := (flush6_4 t).mp hf
  have e0 : win6_4.index t (0 : Fin 3) = t.val / tilesPerHalf6 := (Stats6_idx t).2.2.2.2.2.2.2.2.2.1
  have e1 : win6_4.index t (1 : Fin 3) = 0 := (Stats6_idx t).2.2.2.2.2.2.2.2.2.2.1
  show (cfg6.win 4).cut (grid6.coords t) ((dat6 V c).after 4 t) = _
  rw [after6_4]
  funext y
  show (stats6 V c t.val).m y = Stats6_mG V c (((cfg6.win 4).blk t).view.emb y)
  have hy0 : (y 0).val = 0 := Nat.lt_one_iff.mp (y 0).isLt
  have hy2 : (y 2).val = 0 := Nat.lt_one_iff.mp (y 2).isLt
  have hj : ix3 (0 : Fin 1) (⟨((((cfg6.win 4).blk t).view.emb y) 1).val, ((((cfg6.win 4).blk t).view.emb y) 1).isLt⟩ : Fin 512) (0 : Fin 1) = y := by
    funext a; apply Fin.ext
    match a with
    | ⟨0, _⟩ => show 0 = (y 0).val; exact hy0.symm
    | ⟨1, _⟩ => show win6_4.index t (1 : Fin 3) * 512 + 1 * (y 1).val = (y 1).val; rw [e1, Nat.zero_mul, Nat.zero_add, Nat.one_mul]
    | ⟨2, _⟩ => show 0 = (y 2).val; exact hy2.symm
  have hk : ((((cfg6.win 4).blk t).view.emb y) 0).val * tilesPerHalf6 + (tilesPerHalf6 - 1) = t.val := by
    show (win6_4.index t (0 : Fin 3) * 1 + 1 * (y 0).val) * tilesPerHalf6 + (tilesPerHalf6 - 1) = t.val
    rw [e0, hy0, Nat.mul_one, Nat.mul_zero, Nat.add_zero, ← hmod]
    exact Nat.div_add_mod' _ _
  exact (Stats6_mG_apply V c (((cfg6.win 4).blk t).view.emb y) t.val hk y hj).symm

theorem Stats6_flushed5 (c : Dev nD) (t : Fin cfg6.N) (hf : (cfg6.win 5).flush t = true) :
    (dat6 V c).flushed 5 t = ((cfg6.win 5).blk t).view.read (Elt Ideal) (Stats6_lG V c) := by
  have hmod : t.val % tilesPerHalf6 = tilesPerHalf6 - 1 := (flush6_5 t).mp hf
  have e0 : win6_5.index t (0 : Fin 3) = t.val / tilesPerHalf6 := (Stats6_idx t).2.2.2.2.2.2.2.2.2.2.2.2.1
  have e1 : win6_5.index t (1 : Fin 3) = 0 := (Stats6_idx t).2.2.2.2.2.2.2.2.2.2.2.2.2.1
  show (cfg6.win 5).cut (grid6.coords t) ((dat6 V c).after 5 t) = _
  rw [after6_5]
  funext y
  show (stats6 V c t.val).l y = Stats6_lG V c (((cfg6.win 5).blk t).view.emb y)
  have hy0 : (y 0).val = 0 := Nat.lt_one_iff.mp (y 0).isLt
  have hy2 : (y 2).val = 0 := Nat.lt_one_iff.mp (y 2).isLt
  have hj : ix3 (0 : Fin 1) (⟨((((cfg6.win 5).blk t).view.emb y) 1).val, ((((cfg6.win 5).blk t).view.emb y) 1).isLt⟩ : Fin 512) (0 : Fin 1) = y := by
    funext a; apply Fin.ext
    match a with
    | ⟨0, _⟩ => show 0 = (y 0).val; exact hy0.symm
    | ⟨1, _⟩ => show win6_5.index t (1 : Fin 3) * 512 + 1 * (y 1).val = (y 1).val; rw [e1, Nat.zero_mul, Nat.zero_add, Nat.one_mul]
    | ⟨2, _⟩ => show 0 = (y 2).val; exact hy2.symm
  have hk : ((((cfg6.win 5).blk t).view.emb y) 0).val * tilesPerHalf6 + (tilesPerHalf6 - 1) = t.val := by
    show (win6_5.index t (0 : Fin 3) * 1 + 1 * (y 0).val) * tilesPerHalf6 + (tilesPerHalf6 - 1) = t.val
    rw [e0, hy0, Nat.mul_one, Nat.mul_zero, Nat.add_zero, ← hmod]
    exact Nat.div_add_mod' _ _
  exact (Stats6_lG_apply V c (((cfg6.win 5).blk t).view.emb y) t.val hk y hj).symm

/-- The index (h, n, 0) lies in the block the last point of half h writes back. -/
theorem Stats6_mem4 (h : Fin 2) (n : Fin 512) :
    (ix3 h n (0 : Fin 1) : S2x512x1.Idx) ∈ ((cfg6.win 4).blk (Stats6_last h)).view.set := by
  obtain ⟨-, -, -, -, -, -, -, -, -, e0, e1, e2, -⟩ := Stats6_idx (Stats6_last h)
  have hd : (Stats6_last h).val / tilesPerHalf6 = h.val := by
    show (h.val * tilesPerHalf6 + (tilesPerHalf6 - 1)) / tilesPerHalf6 = h.val
    rw [Nat.add_comm (h.val * tilesPerHalf6) (tilesPerHalf6 - 1), Nat.add_mul_div_right _ _ Stats6_T_pos, Nat.div_eq_of_lt (by have := Stats6_T_pos; omega), Nat.zero_add]
  show _ ∈ ((View.whole main_v106_0).slice (win6_4.rect (Stats6_last h))).set
  rw [View.set_slice_whole, Rect.mem_set_unit]
  intro a
  match a with
  | ⟨0, _⟩ => show win6_4.index (Stats6_last h) (0 : Fin 3) * 1 ≤ h.val ∧ h.val < win6_4.index (Stats6_last h) (0 : Fin 3) * 1 + 1; rw [e0, hd]; omega
  | ⟨1, _⟩ => show win6_4.index (Stats6_last h) (1 : Fin 3) * 512 ≤ n.val ∧ n.val < win6_4.index (Stats6_last h) (1 : Fin 3) * 512 + 512; rw [e1]; have := n.isLt; omega
  | ⟨2, _⟩ => show win6_4.index (Stats6_last h) (2 : Fin 3) * 1 ≤ (0 : Fin 1).val ∧ (0 : Fin 1).val < win6_4.index (Stats6_last h) (2 : Fin 3) * 1 + 1; rw [e2]; exact ⟨Nat.le_refl _, Nat.lt_succ_self _⟩

theorem Stats6_mem5 (h : Fin 2) (n : Fin 512) :
    (ix3 h n (0 : Fin 1) : S2x512x1.Idx) ∈ ((cfg6.win 5).blk (Stats6_last h)).view.set := by
  obtain ⟨-, -, -, -, -, -, -, -, -, -, -, -, e0, e1, e2⟩ := Stats6_idx (Stats6_last h)
  have hd : (Stats6_last h).val / tilesPerHalf6 = h.val := by
    show (h.val * tilesPerHalf6 + (tilesPerHalf6 - 1)) / tilesPerHalf6 = h.val
    rw [Nat.add_comm (h.val * tilesPerHalf6) (tilesPerHalf6 - 1), Nat.add_mul_div_right _ _ Stats6_T_pos, Nat.div_eq_of_lt (by have := Stats6_T_pos; omega), Nat.zero_add]
  show _ ∈ ((View.whole main_v106_1).slice (win6_5.rect (Stats6_last h))).set
  rw [View.set_slice_whole, Rect.mem_set_unit]
  intro a
  match a with
  | ⟨0, _⟩ => show win6_5.index (Stats6_last h) (0 : Fin 3) * 1 ≤ h.val ∧ h.val < win6_5.index (Stats6_last h) (0 : Fin 3) * 1 + 1; rw [e0, hd]; omega
  | ⟨1, _⟩ => show win6_5.index (Stats6_last h) (1 : Fin 3) * 512 ≤ n.val ∧ n.val < win6_5.index (Stats6_last h) (1 : Fin 3) * 512 + 512; rw [e1]; have := n.isLt; omega
  | ⟨2, _⟩ => show win6_5.index (Stats6_last h) (2 : Fin 3) * 1 ≤ (0 : Fin 1).val ∧ (0 : Fin 1).val < win6_5.index (Stats6_last h) (2 : Fin 3) * 1 + 1; rw [e2]; exact ⟨Nat.le_refl _, Nat.lt_succ_self _⟩

/-- THE RESULT. After the launch the maxima's array holds at (h, n, 0) the maximum, and the sums' array the sum, of the
    fold over the tiles of half h at row n. -/
theorem Stats6_m_parts (c : Dev nD) (h : Fin 2) (n : Fin 512) :
    Stats6_mOut V c (ix3 h n (0 : Fin 1))
      = (Cert.OnlineSoftmax.run (fun t => xrow6 V c n (h.val * tilesPerHalf6 + t)) tilesPerHalf6).1 := by
  have hf : (cfg6.win 4).flush (Stats6_last h) = true := (flush6_4 _).mpr (Stats6_last_mod h)
  have h1 : (dat6 V c).arrAt 4 cfg6.N (ix3 h n (0 : Fin 1)) = Stats6_mG V c (ix3 h n (0 : Fin 1)) :=
    (dat6 V c).arrAt_apply_of_mem 4 (Stats6_mG V c) (Stats6_flushed4 V c) cfg6.N (Stats6_last h) (ix3 h n (0 : Fin 1))
      (Stats6_last h).isLt hf (Stats6_mem4 h n)
  have h3 : Stats6_mG V c (ix3 h n (0 : Fin 1))
      = (stats6 V c (h.val * tilesPerHalf6 + (tilesPerHalf6 - 1))).m (ix3 (0 : Fin 1) n (0 : Fin 1)) :=
    Stats6_mG_apply V c (ix3 h n (0 : Fin 1)) (h.val * tilesPerHalf6 + (tilesPerHalf6 - 1)) rfl (ix3 (0 : Fin 1) n (0 : Fin 1)) rfl
  have hT : tilesPerHalf6 - 1 + 1 = tilesPerHalf6 := Nat.sub_add_cancel Stats6_T_pos
  have h2 := (Stats6_fold V c n h (tilesPerHalf6 - 1) (Nat.sub_lt Stats6_T_pos Nat.one_pos)).1
  rw [hT] at h2
  exact (h1.trans h3).trans (congrArg Prod.fst h2)

theorem Stats6_l_parts (c : Dev nD) (h : Fin 2) (n : Fin 512) :
    Stats6_lOut V c (ix3 h n (0 : Fin 1))
      = (Cert.OnlineSoftmax.run (fun t => xrow6 V c n (h.val * tilesPerHalf6 + t)) tilesPerHalf6).2 := by
  have hf : (cfg6.win 5).flush (Stats6_last h) = true := (flush6_5 _).mpr (Stats6_last_mod h)
  have h1 : (dat6 V c).arrAt 5 cfg6.N (ix3 h n (0 : Fin 1)) = Stats6_lG V c (ix3 h n (0 : Fin 1)) :=
    (dat6 V c).arrAt_apply_of_mem 5 (Stats6_lG V c) (Stats6_flushed5 V c) cfg6.N (Stats6_last h) (ix3 h n (0 : Fin 1))
      (Stats6_last h).isLt hf (Stats6_mem5 h n)
  have h3 : Stats6_lG V c (ix3 h n (0 : Fin 1))
      = (stats6 V c (h.val * tilesPerHalf6 + (tilesPerHalf6 - 1))).l (ix3 (0 : Fin 1) n (0 : Fin 1)) :=
    Stats6_lG_apply V c (ix3 h n (0 : Fin 1)) (h.val * tilesPerHalf6 + (tilesPerHalf6 - 1)) rfl (ix3 (0 : Fin 1) n (0 : Fin 1)) rfl
  have hT : tilesPerHalf6 - 1 + 1 = tilesPerHalf6 := Nat.sub_add_cancel Stats6_T_pos
  have h2 := (Stats6_fold V c n h (tilesPerHalf6 - 1) (Nat.sub_lt Stats6_T_pos Nat.one_pos)).1
  rw [hT] at h2
  exact (h1.trans h3).trans (congrArg Prod.snd h2)

end Cert.KernelIdeal.Hand

end
-- ==== Proof.Write7Pay.lean ====
import proofs.«124427_j55336358642036_2_alg».proof.Proof.Gen.KernelIdeal.Skeleton
import proofs.«124427_j55336358642036_2_alg».proof.Proof.Sizes
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Idealize.ShloMosaic.Lib.StableHlo.Predicate

/-!
# A cluster's write kernel read at an index

The write kernel of a vocabulary cluster stores two values: at the first tile of each half the projected
hidden rows `y = hidden · projᵀ` (kept in sixteen-bit floats, which at the ideal values is no change), and at
every tile the block of log-probabilities `(logit − m) − log l + extra`, the logit being `y · Wᵀ + bias` on
the cluster's real columns and `−∞` on the padding. Here both stored values are read at one element, as
plain sums and differences of extended reals, in the association the kernel computes them in.
-/

noncomputable section

namespace Cert.KernelIdeal.Hand

open Cert.KernelIdeal Cert.KernelIdeal.Gen Cert.Sizes
open Idealize.ShloMosaic Idealize.ShloMosaic.ValueIdx
open scoped BigOperators

/-! ## The projection `hidden · projᵀ` at an element -/

theorem k7_proj_lhs_0 (i : S512x16.Idx) (q : dot_S512x1024_S16x1024_S512x16_1_1_0_0_n_n.contr.Idx) :
    (dot_S512x1024_S16x1024_S512x16_1_1_0_0_n_n.lhsIdx i q 0).val = (i 0).val := by
  unfold DotDims.lhsIdx
  rw [dif_neg (show ¬(0 : Fin S512x1024.rank) ∈ dot_S512x1024_S16x1024_S512x16_1_1_0_0_n_n.lhsBatch by decide), dif_pos (show (0 : Fin S512x1024.rank) ∈ dot_S512x1024_S16x1024_S512x16_1_1_0_0_n_n.lhsNonContracting by decide)]
  rfl
theorem k7_proj_lhs_1 (i : S512x16.Idx) (q : dot_S512x1024_S16x1024_S512x16_1_1_0_0_n_n.contr.Idx) :
    (dot_S512x1024_S16x1024_S512x16_1_1_0_0_n_n.lhsIdx i q 1).val = (q ⟨0, by decide⟩).val :=
  dot_S512x1024_S16x1024_S512x16_1_1_0_0_n_n.lhsIdx_val_of_single rfl i q
theorem k7_proj_rhs_0 (i : S512x16.Idx) (q : dot_S512x1024_S16x1024_S512x16_1_1_0_0_n_n.contr.Idx) :
    (dot_S512x1024_S16x1024_S512x16_1_1_0_0_n_n.rhsIdx i q 0).val = (i 1).val := by
  unfold DotDims.rhsIdx
  rw [dif_neg (show ¬(0 : Fin S16x1024.rank) ∈ dot_S512x1024_S16x1024_S512x16_1_1_0_0_n_n.rhsBatch by decide), dif_pos (show (0 : Fin S16x1024.rank) ∈ dot_S512x1024_S16x1024_S512x16_1_1_0_0_n_n.rhsNonContracting by decide)]
  rfl
theorem k7_proj_rhs_1 (i : S512x16.Idx) (q : dot_S512x1024_S16x1024_S512x16_1_1_0_0_n_n.contr.Idx) :
    (dot_S512x1024_S16x1024_S512x16_1_1_0_0_n_n.rhsIdx i q 1).val = (q ⟨0, by decide⟩).val :=
  dot_S512x1024_S16x1024_S512x16_1_1_0_0_n_n.rhsIdx_val_of_single rfl i q

/-- The product into the zero accumulator, at row `r` and column `c`: the sum over the contracted axis of the
    left operand's row `r` times the right operand's row `c`. -/
theorem k7_proj_apply (a : FVec Ideal S512x1024 .bf16) (b : FVec Ideal S16x1024 .bf16) (r : Fin 512) (c : Fin embDim7) :
    matmul dot_S512x1024_S16x1024_S512x16_1_1_0_0_n_n none a b (constant S512x16 .f32 0x00000000#32) (ix2 r c)
      = ∑ k : Fin 1024, a (ix2 r k) * b (ix2 c k) := by
  simp only [matmul]
  rw [Ideal.matmul_constant_zero_apply, ← Equiv.sum_comp (contrEquiv1 dot_S512x1024_S16x1024_S512x16_1_1_0_0_n_n 1024 rfl rfl).symm]
  refine Finset.sum_congr rfl fun k _ => ?_
  have hk := contrEquiv1_symm_val dot_S512x1024_S16x1024_S512x16_1_1_0_0_n_n 1024 rfl rfl k
  have el : dot_S512x1024_S16x1024_S512x16_1_1_0_0_n_n.lhsIdx (ix2 r c) ((contrEquiv1 dot_S512x1024_S16x1024_S512x16_1_1_0_0_n_n 1024 rfl rfl).symm k) = ix2 r k := funext fun ax => Fin.ext (by
    match ax with
    | ⟨0, _⟩ => exact k7_proj_lhs_0 _ _
    | ⟨1, _⟩ => exact (k7_proj_lhs_1 _ _).trans hk)
  have er : dot_S512x1024_S16x1024_S512x16_1_1_0_0_n_n.rhsIdx (ix2 r c) ((contrEquiv1 dot_S512x1024_S16x1024_S512x16_1_1_0_0_n_n 1024 rfl rfl).symm k) = ix2 c k := funext fun ax => Fin.ext (by
    match ax with
    | ⟨0, _⟩ => exact k7_proj_rhs_0 _ _
    | ⟨1, _⟩ => exact (k7_proj_rhs_1 _ _).trans hk)
  rw [el, er]

/-- THE SCRATCH'S FILL at row `n`, embedding coordinate `e`: the hidden row times the projection's row `e`. -/
theorem k7_pay1_apply (v35 : Vec Ideal S512x1024 .bf16) (v37 : Vec Ideal S16x1024 .bf16) (n : Fin 512) (e : Fin embDim7) :
    k7_pay1 (F := Ideal) v35 v37 (ix2 n e) = ∑ k : Fin 1024, v35 (ix2 n k) * v37 (ix2 e k) := by
  unfold k7_pay1
  simp only [shapeCast_self]
  rw [truncf_apply]
  exact k7_proj_apply v35 v37 n e

/-! ## The tile's logits `y · Wᵀ` at an element -/

theorem k7_wdot_lhs_0 (i : S512x4096.Idx) (q : dot_S512x16_S4096x16_S512x4096_1_1_0_0_n_n.contr.Idx) :
    (dot_S512x16_S4096x16_S512x4096_1_1_0_0_n_n.lhsIdx i q 0).val = (i 0).val := by
  unfold DotDims.lhsIdx
  rw [dif_neg (show ¬(0 : Fin S512x16.rank) ∈ dot_S512x16_S4096x16_S512x4096_1_1_0_0_n_n.lhsBatch by decide), dif_pos (show (0 : Fin S512x16.rank) ∈ dot_S512x16_S4096x16_S512x4096_1_1_0_0_n_n.lhsNonContracting by decide)]
  rfl
theorem k7_wdot_lhs_1 (i : S512x4096.Idx) (q : dot_S512x16_S4096x16_S512x4096_1_1_0_0_n_n.contr.Idx) :
    (dot_S512x16_S4096x16_S512x4096_1_1_0_0_n_n.lhsIdx i q 1).val = (q ⟨0, by decide⟩).val :=
  dot_S512x16_S4096x16_S512x4096_1_1_0_0_n_n.lhsIdx_val_of_single rfl i q
theorem k7_wdot_rhs_0 (i : S512x4096.Idx) (q : dot_S512x16_S4096x16_S512x4096_1_1_0_0_n_n.contr.Idx) :
    (dot_S512x16_S4096x16_S512x4096_1_1_0_0_n_n.rhsIdx i q 0).val = (i 1).val := by
  unfold DotDims.rhsIdx
  rw [dif_neg (show ¬(0 : Fin S4096x16.rank) ∈ dot_S512x16_S4096x16_S512x4096_1_1_0_0_n_n.rhsBatch by decide), dif_pos (show (0 : Fin S4096x16.rank) ∈ dot_S512x16_S4096x16_S512x4096_1_1_0_0_n_n.rhsNonContracting by decide)]
  rfl
theorem k7_wdot_rhs_1 (i : S512x4096.Idx) (q : dot_S512x16_S4096x16_S512x4096_1_1_0_0_n_n.contr.Idx) :
    (dot_S512x16_S4096x16_S512x4096_1_1_0_0_n_n.rhsIdx i q 1).val = (q ⟨0, by decide⟩).val :=
  dot_S512x16_S4096x16_S512x4096_1_1_0_0_n_n.rhsIdx_val_of_single rfl i q

/-- The product into the zero accumulator, at row `r` and column `c`: the sum over the contracted axis of the
    left operand's row `r` times the right operand's row `c`. -/
theorem k7_wdot_apply (a : FVec Ideal S512x16 .bf16) (b : FVec Ideal S4096x16 .bf16) (r : Fin 512) (c : Fin tileWidth7) :
    matmul dot_S512x16_S4096x16_S512x4096_1_1_0_0_n_n none a b (constant S512x4096 .f32 0x00000000#32) (ix2 r c)
      = ∑ k : Fin embDim7, a (ix2 r k) * b (ix2 c k) := by
  simp only [matmul]
  rw [Ideal.matmul_constant_zero_apply, ← Equiv.sum_comp (contrEquiv1 dot_S512x16_S4096x16_S512x4096_1_1_0_0_n_n embDim7 rfl rfl).symm]
  refine Finset.sum_congr rfl fun k _ => ?_
  have hk := contrEquiv1_symm_val dot_S512x16_S4096x16_S512x4096_1_1_0_0_n_n embDim7 rfl rfl k
  have el : dot_S512x16_S4096x16_S512x4096_1_1_0_0_n_n.lhsIdx (ix2 r c) ((contrEquiv1 dot_S512x16_S4096x16_S512x4096_1_1_0_0_n_n embDim7 rfl rfl).symm k) = ix2 r k := funext fun ax => Fin.ext (by
    match ax with
    | ⟨0, _⟩ => exact k7_wdot_lhs_0 _ _
    | ⟨1, _⟩ => exact (k7_wdot_lhs_1 _ _).trans hk)
  have er : dot_S512x16_S4096x16_S512x4096_1_1_0_0_n_n.rhsIdx (ix2 r c) ((contrEquiv1 dot_S512x16_S4096x16_S512x4096_1_1_0_0_n_n embDim7 rfl rfl).symm k) = ix2 c k := funext fun ax => Fin.ext (by
    match ax with
    | ⟨0, _⟩ => exact k7_wdot_rhs_0 _ _
    | ⟨1, _⟩ => exact (k7_wdot_rhs_1 _ _).trans hk)
  rw [el, er]

/-! ## The two broadcasts of the block -/

/-- A column of per-row values spread along the lanes reads, at `(n, j)`, row `n`'s value. -/
theorem k7_bcol_apply {α : Type} (v : S512x1.Idx → α) (h : S512x1.Broadcasts S512x4096) (n : Fin 512) (j : Fin tileWidth7) :
    broadcastTo S512x4096 v h (ix2 n j) = v (ix2 n (0 : Fin 1)) := by
  refine broadcastTo_apply v h (ix2 n j) (ix2 n (0 : Fin 1)) fun ax => ?_
  match ax with
  | ⟨0, _⟩ => rfl
  | ⟨1, _⟩ => rfl

/-- The bias row spread down the rows reads, at `(n, j)`, lane `j`'s bias. -/
theorem k7_brow_apply {α : Type} (v : S1x4096.Idx → α) (h : S1x4096.Broadcasts S512x4096) (n : Fin 512) (j : Fin tileWidth7) :
    broadcastTo S512x4096 v h (ix2 n j) = v (ix2 (0 : Fin 1) j) :=
  broadcastTo_1b_ab_apply v h n j

/-! ## The lane mask and its fill -/

/-- The padding's fill is `−∞` at the ideal values. -/
theorem k7_neg_big : Named.named (F := Ideal) κ "neg_big" (φ := .f32) 0xFF333332#32 = (⊥ : EReal) :=
  IdealRules.named_const.ideal_named_scalar _ _ _ _ rfl

/-- A lane's global column number stays far below the signed 32-bit range. -/
theorem k7_col_lt (i : grid7.Coords) (j : Fin tileWidth7) :
    ((i 0).val * tilesPerHalf7 + (i 1).val) * tileWidth7 + j.val < 2 ^ 31 := by
  have h0 : (i 0).val < 2 := (i 0).isLt
  have h1 : (i 1).val < tilesPerHalf7 := (i 1).isLt
  have hj : j.val < tileWidth7 := j.isLt
  simp only [tilesPerHalf7, tileWidth7] at h1 hj ⊢
  omega

/-- THE MASK DECODED: the 32-bit comparison of "lane number plus the tile's first column" with the cluster's size
    holds exactly when the lane's global column number is below the size, as naturals. -/
theorem k7_mask_iff (hi : S512x4096.Iotas .tc 32 [1]) (i : grid7.Coords) (n : Fin 512) (j : Fin tileWidth7) :
    cmpi .slt (addi (iota .tc S512x4096 32 [1] hi)
        (broadcast S512x4096 (Scalar.muli (Scalar.addi (Scalar.muli (BitVec.ofNat 32 (i 0).val) (BitVec.ofNat 32 tilesPerHalf7))
          (BitVec.ofNat 32 (i 1).val)) (BitVec.ofNat 32 tileWidth7))))
        (broadcast S512x4096 (BitVec.ofNat 32 validCols7)) (ix2 n j) = 1#1
      ↔ ((i 0).val * tilesPerHalf7 + (i 1).val) * tileWidth7 + j.val < validCols7 := by
  have hV : validCols7 < 2 ^ 31 := by decide
  have hw : addi (iota .tc S512x4096 32 [1] hi)
        (broadcast S512x4096 (Scalar.muli (Scalar.addi (Scalar.muli (BitVec.ofNat 32 (i 0).val) (BitVec.ofNat 32 tilesPerHalf7))
          (BitVec.ofNat 32 (i 1).val)) (BitVec.ofNat 32 tileWidth7))) (ix2 n j)
      = BitVec.ofNat 32 (((i 0).val * tilesPerHalf7 + (i 1).val) * tileWidth7 + j.val) := by
    show IntOp.addi (iota .tc S512x4096 32 [1] hi (ix2 n j)) _ = _
    rw [iota_single_apply]
    show BitVec.ofNat 32 j.val + (BitVec.ofNat 32 (i 0).val * BitVec.ofNat 32 tilesPerHalf7 + BitVec.ofNat 32 (i 1).val) * BitVec.ofNat 32 tileWidth7 = _
    rw [← BitVec.ofNat_mul, ← BitVec.ofNat_add, ← BitVec.ofNat_mul, ← BitVec.ofNat_add, Nat.add_comm j.val]
  show IntOp.cmpi .slt (addi (iota .tc S512x4096 32 [1] hi)
        (broadcast S512x4096 (Scalar.muli (Scalar.addi (Scalar.muli (BitVec.ofNat 32 (i 0).val) (BitVec.ofNat 32 tilesPerHalf7))
          (BitVec.ofNat 32 (i 1).val)) (BitVec.ofNat 32 tileWidth7))) (ix2 n j)) (BitVec.ofNat 32 validCols7) = 1#1 ↔ _
  rw [hw]
  exact StableHlo.Predicate.slt_ofNat_iff _ _ (k7_col_lt i j) hV

/-! ## The stored block at an element -/

/-- The masked logit of row `n`, lane `j` of the tile at grid point `i` (half `i 0`, tile `i 1`): `y · Wᵀ + bias` on a real
    column, `−∞` on the padding. -/
def k7_logit (i : grid7.Coords) (v3 : Vec Ideal S512x16 .bf16) (v4 : Vec Ideal S4096x16 .bf16) (v6 : Vec Ideal S1x4096 .f32)
    (n : Fin 512) (j : Fin tileWidth7) : EReal :=
  if ((i 0).val * tilesPerHalf7 + (i 1).val) * tileWidth7 + j.val < validCols7
  then (∑ e : Fin embDim7, v3 (ix2 n e) * v4 (ix2 j e)) + v6 (ix2 (0 : Fin 1) j) else ⊥

/-- THE OUTPUT BLOCK at row `n`, lane `j`: the masked logit, less the row's maximum, less the logarithm of the row's
    sum, plus the row's extra term — associated as the kernel computes it. -/
theorem k7_pay2_apply (i : grid7.Coords) (v3 : Vec Ideal S512x16 .bf16) (v4 : Vec Ideal S4096x16 .bf16) (v6 : Vec Ideal S1x4096 .f32)
    (v21 v25 v30 : Vec Ideal S512x1 .f32) (n : Fin 512) (j : Fin tileWidth7) :
    k7_pay2 (F := Ideal) i v3 v4 v6 v21 v25 v30 (ix2 n j)
      = ((k7_logit i v3 v4 v6 n j - v21 (ix2 n (0 : Fin 1))) - Ideal.log (v25 (ix2 n (0 : Fin 1)))) + v30 (ix2 n (0 : Fin 1)) := by
  unfold k7_pay2
  simp only [shapeCast_self]
  rw [addf_apply, subf_apply, subf_apply, select_apply, addf_apply, broadcast_apply, k7_bcol_apply, k7_bcol_apply, k7_bcol_apply,
    k7_brow_apply, k7_wdot_apply, k7_neg_big]
  unfold k7_logit
  by_cases hv : ((i 0).val * tilesPerHalf7 + (i 1).val) * tileWidth7 + j.val < validCols7
  · rw [if_pos hv, (k7_mask_iff _ i n j).mpr hv, select_one]
    rfl
  · rw [if_neg hv, eq_zero_of_ne_one (mt (k7_mask_iff _ i n j).mp hv), select_zero]
    rfl

/-- On a real column the block's element has no case split left. -/
theorem k7_pay2_valid (i : grid7.Coords) (v3 : Vec Ideal S512x16 .bf16) (v4 : Vec Ideal S4096x16 .bf16) (v6 : Vec Ideal S1x4096 .f32)
    (v21 v25 v30 : Vec Ideal S512x1 .f32) (n : Fin 512) (j : Fin tileWidth7)
    (hv : ((i 0).val * tilesPerHalf7 + (i 1).val) * tileWidth7 + j.val < validCols7) :
    k7_pay2 (F := Ideal) i v3 v4 v6 v21 v25 v30 (ix2 n j)
      = ((((∑ e : Fin embDim7, v3 (ix2 n e) * v4 (ix2 j e)) + v6 (ix2 (0 : Fin 1) j)) - v21 (ix2 n (0 : Fin 1)))
          - Ideal.log (v25 (ix2 n (0 : Fin 1)))) + v30 (ix2 n (0 : Fin 1)) := by
  rw [k7_pay2_apply, k7_logit, if_pos hv]

end Cert.KernelIdeal.Hand

end
-- ==== Proof.Write7Value.lean ====
/-
  The write launch of vocabulary cluster 1 (launch 3), its value: what the launch leaves in its output array, read
  at an index, at the ideal values.

  The launch finds seven arrays: the hidden rows [512, 1024], the cluster's projection [d, 1024], its weight rows
  [padded columns, d], its bias [1, padded columns], and per row the maximum m, the sum l and an extra term, each
  [512, 1]. Row n of the projected hidden rows is yrow n e = Σ_k hidden(n, k) · projection(e, k); the logit of row n at
  column col is zrow n col = Σ_e yrow n e · weight(col, e) + bias(col). At grid point (h, t) the body writes the tile
  h·T + t of the output: at lane j the masked logit of column (h·T + t)·tileWidth + j (−∞ on the padding columns),
  less m, less log l, plus the extra term. The hidden rows, the projection and the three row vectors are one block
  each; the weight rows' and the bias's blocks move with the output's tile. So every point writes its block of ONE
  function of the seven arrays, the tiles cover the padded width, and the output array ends holding that function:
  on a real column, (zrow n col − m n) − log (l n) + extra n.
-/
import proofs.«124427_j55336358642036_2_alg».proof.Proof.Write7Defs
import proofs.«124427_j55336358642036_2_alg».proof.Proof.Write7Pay
import proofs.«124427_j55336358642036_2_alg».proof.Proof.Gen.KernelIdeal.Points
import proofs.«124427_j55336358642036_2_alg».proof.Proof.Sizes
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Sizes
open Idealize.ShloMosaic Idealize.ShloMosaic.TcCoe Idealize.ShloMosaic.ValueIdx Idealize.SL.Sem
open Idealize.ShloMosaic.Pipeline (Dat)
open scoped BigOperators

/-! ## The arrays the launch finds -/

section Arrays
variable {F : FTy → Type} [FloatOps F] [Named F]
variable (V : (c : Dev nD) → (b : Ref sig .tc) → Buf (Elt F) ((c : Thread nD τ).loc b))

/-- The hidden rows. -/
abbrev hidA7 (c : Dev nD) : Vec F S512x1024 .bf16 := V c (Pipeline.arrRef spec7 0)
/-- The cluster's projection. -/
abbrev prjA7 (c : Dev nD) : Vec F S16x1024 .bf16 := V c (Pipeline.arrRef spec7 1)
/-- The cluster's weight rows, one per padded column. -/
abbrev wA7 (c : Dev nD) : Vec F S73728x16 .bf16 := V c (Pipeline.arrRef spec7 2)
/-- The cluster's bias, one entry per padded column. -/
abbrev bA7 (c : Dev nD) : Vec F S1x73728 .f32 := V c (Pipeline.arrRef spec7 3)
/-- The rows' maxima. -/
abbrev mA7 (c : Dev nD) : Vec F S512x1 .f32 := V c (Pipeline.arrRef spec7 4)
/-- The rows' sums. -/
abbrev lA7 (c : Dev nD) : Vec F S512x1 .f32 := V c (Pipeline.arrRef spec7 5)
/-- The rows' extra terms. -/
abbrev exA7 (c : Dev nD) : Vec F S512x1 .f32 := V c (Pipeline.arrRef spec7 6)

end Arrays

variable (V : (c : Dev nD) → (b : Ref sig .tc) → Buf (Elt Ideal) ((c : Thread nD τ).loc b))

/-- Row n of the projected hidden rows at embedding coordinate e: the hidden row against the projection's row e. -/
def yrow7 (c : Dev nD) (n : Fin 512) (e : Fin embDim7) : EReal :=
  ∑ k : Fin 1024, hidA7 V c (ix2 n k) * prjA7 V c (ix2 e k)

/-- The logit of row n at padded column col: the projected row against the column's weight row, plus the column's
    bias (0 past the padded width). -/
def zrow7 (c : Dev nD) (n : Fin 512) (col : ℕ) : EReal :=
  if h : col < 2 * tilesPerHalf7 * tileWidth7 then
    (∑ e : Fin embDim7, yrow7 V c n e * wA7 V c (ix2 ⟨col, h⟩ e)) + bA7 V c (ix2 (0 : Fin 1) ⟨col, h⟩)
  else 0

/-- The masked logit of row n at padded column col: the logit on a real column, −∞ on a padding column. -/
def xz7 (c : Dev nD) (n : Fin 512) (col : Fin (2 * tilesPerHalf7 * tileWidth7)) : EReal :=
  if col.val < validCols7 then
    (∑ e : Fin embDim7, yrow7 V c n e * wA7 V c (ix2 col e)) + bA7 V c (ix2 (0 : Fin 1) col)
  else ⊥

/-- What the output array ends holding, as one function of the arrays the launch finds: the masked logit less the
    row's maximum and the logarithm of the row's sum, plus the row's extra term. -/
def outG7 (c : Dev nD) : Vec Ideal S512x73728 .f32 := fun i =>
  ((xz7 V c (i 0) (i 1) - mA7 V c (ix2 (i 0) (0 : Fin 1))) - Ideal.log (lA7 V c (ix2 (i 0) (0 : Fin 1))))
    + exA7 V c (ix2 (i 0) (0 : Fin 1))

/-! ## The block index maps over the grid -/

/-- The printed index maps, decided over the grid: the hidden rows, the projection and the three row vectors are
    one block each; the weight rows' block index on the row axis and the bias's on the column axis are the output's
    on its column axis, which is h·T + t at grid point (h, t) and stays below 2·T. -/
theorem idxs7 : ∀ t : Fin cfg7.N,
      win7_0.index t (0 : Fin 2) = 0 ∧ win7_0.index t (1 : Fin 2) = 0
    ∧ win7_1.index t (0 : Fin 2) = 0 ∧ win7_1.index t (1 : Fin 2) = 0
    ∧ win7_2.index t (0 : Fin 2) = win7_7.index t (1 : Fin 2) ∧ win7_2.index t (1 : Fin 2) = 0
    ∧ win7_3.index t (0 : Fin 2) = 0 ∧ win7_3.index t (1 : Fin 2) = win7_7.index t (1 : Fin 2)
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = 0
    ∧ win7_7.index t (1 : Fin 2) = ((grid7.coords t) 0).val * tilesPerHalf7 + ((grid7.coords t) 1).val
    ∧ win7_7.index t (1 : Fin 2) < 2 * tilesPerHalf7 :=
  (by decide +kernel : ∀ t : Fin grid7.N, _)

/-- Every tile of the padded width is some grid point's. -/
theorem onto7 : ∀ q : Fin (2 * tilesPerHalf7), ∃ t : Fin cfg7.N, win7_7.index t (1 : Fin 2) = q.val :=
  (by decide +kernel : ∀ q : Fin (2 * tilesPerHalf7), ∃ t : Fin grid7.N, win7_7.index t (1 : Fin 2) = q.val)

/-! ## The input blocks as parts of the arrays -/

/-- The hidden rows' block is the whole array. -/
theorem iblk7_0_apply (c : Dev nD) (t : Fin cfg7.N) (n : Fin 512) (k : Fin 1024) :
    (iblk7 V c 0 t : Vec Ideal S512x1024 .bf16) (ix2 n k) = hidA7 V c (ix2 n k) := by
  obtain ⟨e0, e1, -⟩ := idxs7 t
  have h : (((cfg7.win 0).blk t).view.emb (ix2 n k) : S512x1024.Idx) = ix2 n k := by
    funext a; apply Fin.ext
    match a with
    | ⟨0, _⟩ => show win7_0.index t (0 : Fin 2) * 512 + 1 * n.val = n.val; rw [e0] <;> omega
    | ⟨1, _⟩ => show win7_0.index t (1 : Fin 2) * 1024 + 1 * k.val = k.val; rw [e1] <;> omega
  show V c (Pipeline.arrRef spec7 0) (((cfg7.win 0).blk t).view.emb (ix2 n k)) = V c (Pipeline.arrRef spec7 0) (ix2 n k)
  rw [h] <;> rfl

/-- The projection's block is the whole array. -/
theorem iblk7_1_apply (c : Dev nD) (t : Fin cfg7.N) (e : Fin embDim7) (k : Fin 1024) :
    (iblk7 V c 1 t : Vec Ideal S16x1024 .bf16) (ix2 e k) = prjA7 V c (ix2 e k) := by
  obtain ⟨-, -, e0, e1, -⟩ := idxs7 t
  have h : (((cfg7.win 1).blk t).view.emb (ix2 e k) : S16x1024.Idx) = ix2 e k := by
    funext a; apply Fin.ext
    match a with
    | ⟨0, _⟩ => show win7_1.index t (0 : Fin 2) * embDim7 + 1 * e.val = e.val; rw [e0] <;> omega
    | ⟨1, _⟩ => show win7_1.index t (1 : Fin 2) * 1024 + 1 * k.val = k.val; rw [e1] <;> omega
  show V c (Pipeline.arrRef spec7 1) (((cfg7.win 1).blk t).view.emb (ix2 e k)) = V c (Pipeline.arrRef spec7 1) (ix2 e k)
  rw [h] <;> rfl

/-- The weight rows' block at a point is the tile's rows of the array. -/
theorem iblk7_2_apply (c : Dev nD) (t : Fin cfg7.N) (j : Fin tileWidth7) (e : Fin embDim7)
    (hc : win7_7.index t (1 : Fin 2) * tileWidth7 + j.val < 2 * tilesPerHalf7 * tileWidth7) :
    (iblk7 V c 2 t : Vec Ideal S4096x16 .bf16) (ix2 j e) = wA7 V c (ix2 ⟨win7_7.index t (1 : Fin 2) * tileWidth7 + j.val, hc⟩ e) := by
  obtain ⟨-, -, -, -, e0, e1, -⟩ := idxs7 t
  have h : (((cfg7.win 2).blk t).view.emb (ix2 j e) : S73728x16.Idx) = ix2 ⟨win7_7.index t (1 : Fin 2) * tileWidth7 + j.val, hc⟩ e := by
    funext a; apply Fin.ext
    match a with
    | ⟨0, _⟩ => show win7_2.index t (0 : Fin 2) * tileWidth7 + 1 * j.val = win7_7.index t (1 : Fin 2) * tileWidth7 + j.val; rw [e0] <;> omega
    | ⟨1, _⟩ => show win7_2.index t (1 : Fin 2) * embDim7 + 1 * e.val = e.val; rw [e1] <;> omega
  show V c (Pipeline.arrRef spec7 2) (((cfg7.win 2).blk t).view.emb (ix2 j e)) = V c (Pipeline.arrRef spec7 2) (ix2 ⟨win7_7.index t (1 : Fin 2) * tileWidth7 + j.val, hc⟩ e)
  rw [h] <;> rfl

/-- The bias's block at a point is the tile's entries of the array. -/
theorem iblk7_3_apply (c : Dev nD) (t : Fin cfg7.N) (j : Fin tileWidth7)
    (hc : win7_7.index t (1 : Fin 2) * tileWidth7 + j.val < 2 * tilesPerHalf7 * tileWidth7) :
    (iblk7 V c 3 t : Vec Ideal S1x4096 .f32) (ix2 (0 : Fin 1) j) = bA7 V c (ix2 (0 : Fin 1) ⟨win7_7.index t (1 : Fin 2) * tileWidth7 + j.val, hc⟩) := by
  obtain ⟨-, -, -, -, -, -, e0, e1, -⟩ := idxs7 t
  have h : (((cfg7.win 3).blk t).view.emb (ix2 (0 : Fin 1) j) : S1x73728.Idx) = ix2 (0 : Fin 1) ⟨win7_7.index t (1 : Fin 2) * tileWidth7 + j.val, hc⟩ := by
    funext a; apply Fin.ext
    match a with
    | ⟨0, _⟩ => show win7_3.index t (0 : Fin 2) * 1 + 1 * (0 : Fin 1).val = (0 : Fin 1).val; omega
    | ⟨1, _⟩ => show win7_3.index t (1 : Fin 2) * tileWidth7 + 1 * j.val = win7_7.index t (1 : Fin 2) * tileWidth7 + j.val; rw [e1] <;> omega
  show V c (Pipeline.arrRef spec7 3) (((cfg7.win 3).blk t).view.emb (ix2 (0 : Fin 1) j)) = V c (Pipeline.arrRef spec7 3) (ix2 (0 : Fin 1) ⟨win7_7.index t (1 : Fin 2) * tileWidth7 + j.val, hc⟩)
  rw [h] <;> rfl

/-- The row maxima's block is the whole array. -/
theorem iblk7_4_apply (c : Dev nD) (t : Fin cfg7.N) (n : Fin 512) :
    (iblk7 V c 4 t : Vec Ideal S512x1 .f32) (ix2 n (0 : Fin 1)) = mA7 V c (ix2 n (0 : Fin 1)) := by
  obtain ⟨-, -, -, -, -, -, -, -, e0, e1, -⟩ := idxs7 t
  have h : (((cfg7.win 4).blk t).view.emb (ix2 n (0 : Fin 1)) : S512x1.Idx) = ix2 n (0 : Fin 1) := by
    funext a; apply Fin.ext
    match a with
    | ⟨0, _⟩ => show win7_4.index t (0 : Fin 2) * 512 + 1 * n.val = n.val; rw [e0] <;> omega
    | ⟨1, _⟩ => show win7_4.index t (1 : Fin 2) * 1 + 1 * (0 : Fin 1).val = (0 : Fin 1).val; omega
  show V c (Pipeline.arrRef spec7 4) (((cfg7.win 4).blk t).view.emb (ix2 n (0 : Fin 1))) = V c (Pipeline.arrRef spec7 4) (ix2 n (0 : Fin 1))
  rw [h] <;> rfl

/-- The row sums' block is the whole array. -/
theorem iblk7_5_apply (c : Dev nD) (t : Fin cfg7.N) (n : Fin 512) :
    (iblk7 V c 5 t : Vec Ideal S512x1 .f32) (ix2 n (0 : Fin 1)) = lA7 V c (ix2 n (0 : Fin 1)) := by
  obtain ⟨-, -, -, -, -, -, -, -, -, -, e0, e1, -⟩ := idxs7 t
  have h : (((cfg7.win 5).blk t).view.emb (ix2 n (0 : Fin 1)) : S512x1.Idx) = ix2 n (0 : Fin 1) := by
    funext a; apply Fin.ext
    match a with
    | ⟨0, _⟩ => show win7_5.index t (0 : Fin 2) * 512 + 1 * n.val = n.val; rw [e0] <;> omega
    | ⟨1, _⟩ => show win7_5.index t (1 : Fin 2) * 1 + 1 * (0 : Fin 1).val = (0 : Fin 1).val; omega
  show V c (Pipeline.arrRef spec7 5) (((cfg7.win 5).blk t).view.emb (ix2 n (0 : Fin 1))) = V c (Pipeline.arrRef spec7 5) (ix2 n (0 : Fin 1))
  rw [h] <;> rfl

/-- The extra terms' block is the whole array. -/
theorem iblk7_6_apply (c : Dev nD) (t : Fin cfg7.N) (n : Fin 512) :
    (iblk7 V c 6 t : Vec Ideal S512x1 .f32) (ix2 n (0 : Fin 1)) = exA7 V c (ix2 n (0 : Fin 1)) := by
  obtain ⟨-, -, -, -, -, -, -, -, -, -, -, -, e0, e1, -⟩ := idxs7 t
  have h : (((cfg7.win 6).blk t).view.emb (ix2 n (0 : Fin 1)) : S512x1.Idx) = ix2 n (0 : Fin 1) := by
    funext a; apply Fin.ext
    match a with
    | ⟨0, _⟩ => show win7_6.index t (0 : Fin 2) * 512 + 1 * n.val = n.val; rw [e0] <;> omega
    | ⟨1, _⟩ => show win7_6.index t (1 : Fin 2) * 1 + 1 * (0 : Fin 1).val = (0 : Fin 1).val; omega
  show V c (Pipeline.arrRef spec7 6) (((cfg7.win 6).blk t).view.emb (ix2 n (0 : Fin 1))) = V c (Pipeline.arrRef spec7 6) (ix2 n (0 : Fin 1))
  rw [h] <;> rfl

/-! ## The scratch and the tile's logits -/

/-- The scratch holds the projected hidden rows. -/
theorem y7_apply (c : Dev nD) (n : Fin 512) (e : Fin embDim7) : y7 V c (ix2 n e) = yrow7 V c n e := by
  unfold y7 yrow7
  refine (k7_pay1_apply (iblk7 V c 0 pt7_0) (iblk7 V c 1 pt7_0) n e).trans ?_
  exact Finset.sum_congr rfl fun k _ =>
    congrArg₂ (fun a b : EReal => a * b) (iblk7_0_apply V c pt7_0 n k) (iblk7_1_apply V c pt7_0 e k)

/-- The tile's masked logit at lane j is the masked logit at the tile's column j of the padded width. -/
theorem logit7_eq (c : Dev nD) (t : Fin cfg7.N) (n : Fin 512) (j : Fin tileWidth7)
    (hc : win7_7.index t (1 : Fin 2) * tileWidth7 + j.val < 2 * tilesPerHalf7 * tileWidth7) :
    k7_logit (grid7.coords t) (y7 V c) (iblk7 V c 2 t) (iblk7 V c 3 t) n j
      = xz7 V c n ⟨win7_7.index t (1 : Fin 2) * tileWidth7 + j.val, hc⟩ := by
  obtain ⟨-, -, -, -, -, -, -, -, -, -, -, -, -, -, -, e1, -⟩ := idxs7 t
  unfold k7_logit xz7
  by_cases hv : win7_7.index t (1 : Fin 2) * tileWidth7 + j.val < validCols7
  · rw [if_pos (show (((grid7.coords t) 0).val * tilesPerHalf7 + ((grid7.coords t) 1).val) * tileWidth7 + j.val < validCols7 from e1 ▸ hv), if_pos hv]
    exact congrArg₂ (fun a b : EReal => a + b)
      (Finset.sum_congr rfl fun e _ => congrArg₂ (fun a b : EReal => a * b) (y7_apply V c n e) (iblk7_2_apply V c t j e hc))
      (iblk7_3_apply V c t j hc)
  · rw [if_neg (show ¬ (((grid7.coords t) 0).val * tilesPerHalf7 + ((grid7.coords t) 1).val) * tileWidth7 + j.val < validCols7 from e1 ▸ hv), if_neg hv]

/-! ## What a point writes back, and the array after the launch -/

/-- What the body leaves in the output's buffer at point t, at row n and lane j, is the array function at an index
    with row n and the tile's column j. -/
theorem out7_7_at (c : Dev nD) (t : Fin cfg7.N) (n : Fin 512) (j : Fin tileWidth7) (i : S512x73728.Idx)
    (h0 : (i 0).val = n.val) (h1 : (i 1).val = win7_7.index t (1 : Fin 2) * tileWidth7 + j.val) :
    out7_7 V c t (ix2 n j) = outG7 V c i := by
  have hc : win7_7.index t (1 : Fin 2) * tileWidth7 + j.val < 2 * tilesPerHalf7 * tileWidth7 := h1 ▸ (i 1).isLt
  have hi0 : i 0 = n := Fin.ext h0
  have hi1 : i 1 = ⟨win7_7.index t (1 : Fin 2) * tileWidth7 + j.val, hc⟩ := Fin.ext h1
  unfold out7_7 outG7
  rw [hi0, hi1]
  refine (k7_pay2_apply (grid7.coords t) (y7 V c) (iblk7 V c 2 t) (iblk7 V c 3 t) (iblk7 V c 4 t) (iblk7 V c 5 t) (iblk7 V c 6 t) n j).trans ?_
  exact congrArg₂ (fun a b : EReal => a + b)
    (congrArg₂ (fun a b : EReal => a - b)
      (congrArg₂ (fun a b : EReal => a - b) (logit7_eq V c t n j hc) (iblk7_4_apply V c t n))
      (congrArg Ideal.log (iblk7_5_apply V c t n)))
    (iblk7_6_apply V c t n)

/-- What point t writes back is block t of the array function. -/
theorem flushed7_7_eq (c : Dev nD) (t : Fin cfg7.N) :
    (dat7 V c).flushed 7 t = ((cfg7.win 7).blk t).view.read (Elt Ideal) (outG7 V c) := by
  obtain ⟨-, -, -, -, -, -, -, -, -, -, -, -, -, -, e0, -, -⟩ := idxs7 t
  show (cfg7.win 7).cut (grid7.coords t) ((dat7 V c).after 7 t) = _
  rw [after7_7]
  funext y
  obtain ⟨n, j, rfl⟩ : ∃ (n : Fin 512) (j : Fin tileWidth7), y = ix2 n j := ⟨y 0, y 1, eq_ix2 y⟩
  show out7_7 V c t (ix2 n j) = outG7 V c (((cfg7.win 7).blk t).view.emb (ix2 n j))
  refine out7_7_at V c t n j _ ?_ ?_
  · show win7_7.index t (0 : Fin 2) * 512 + 1 * n.val = n.val
    rw [e0]; omega
  · show win7_7.index t (1 : Fin 2) * tileWidth7 + 1 * j.val = win7_7.index t (1 : Fin 2) * tileWidth7 + j.val
    omega

/-- An index of the output array is in point t's block iff each coordinate is in the block's range on its axis. -/
theorem memblk7 (t : Fin cfg7.N) (i : S512x73728.Idx) :
    i ∈ ((cfg7.win 7).blk t).view.set ↔ ∀ a : Fin 2, win7_7.index t a * S512x4096.size a ≤ (i a).val ∧ (i a).val < win7_7.index t a * S512x4096.size a + S512x4096.size a := by
  show i ∈ ((View.whole main_v124).slice (win7_7.rect t)).set ↔ _
  rw [View.set_slice_whole, Rect.mem_set_unit]
  exact Iff.rfl

/-- Every index of the output array is in some point's block: column col is in the block of the point whose tile
    is col / tileWidth. -/
theorem cover7 (i : S512x73728.Idx) :
    ∃ t : Fin cfg7.N, (cfg7.win 7).flush t = true ∧ i ∈ ((cfg7.win 7).blk t).view.set := by
  have hi0 : (i 0).val < 512 := (i 0).isLt
  have hi1 : (i 1).val < 2 * tilesPerHalf7 * tileWidth7 := (i 1).isLt
  have hw : 0 < tileWidth7 := by decide
  have hq : (i 1).val / tileWidth7 < 2 * tilesPerHalf7 := Nat.div_lt_of_lt_mul (by rw [Nat.mul_comm]; exact hi1)
  obtain ⟨t, ht⟩ := onto7 ⟨(i 1).val / tileWidth7, hq⟩
  obtain ⟨-, -, -, -, -, -, -, -, -, -, -, -, -, -, e0, -, -⟩ := idxs7 t
  refine ⟨t, flush7_7 t, ?_⟩
  rw [memblk7]
  intro a
  match a with
  | ⟨0, _⟩ =>
    show win7_7.index t (0 : Fin 2) * 512 ≤ (i 0).val ∧ (i 0).val < win7_7.index t (0 : Fin 2) * 512 + 512
    rw [e0]; omega
  | ⟨1, _⟩ =>
    show win7_7.index t (1 : Fin 2) * tileWidth7 ≤ (i 1).val ∧ (i 1).val < win7_7.index t (1 : Fin 2) * tileWidth7 + tileWidth7
    rw [ht]
    exact ⟨Nat.div_mul_le_self _ _, Nat.lt_div_mul_add hw⟩

/-- The output array after the launch is the array function. -/
theorem out7_all (c : Dev nD) : (dat7 V c).arrAt 7 cfg7.N = outG7 V c :=
  (dat7 V c).arrAt_eq_of_cover 7 (outG7 V c) (fun t _ => flushed7_7_eq V c t) cover7

/-- THE RESULT: at row n and a real column col the output array holds the logit less the row's maximum and the
    logarithm of the row's sum, plus the row's extra term. -/
theorem out7_valid (c : Dev nD) (n : Fin 512) (col : Fin (2 * tilesPerHalf7 * tileWidth7)) (hv : col.val < validCols7) :
    (dat7 V c).arrAt 7 cfg7.N (ix2 n col)
      = ((zrow7 V c n col.val - mA7 V c (ix2 n (0 : Fin 1))) - Ideal.log (lA7 V c (ix2 n (0 : Fin 1))))
          + exA7 V c (ix2 n (0 : Fin 1)) := by
  have hx : xz7 V c n col = zrow7 V c n col.val := by
    unfold xz7 zrow7
    rw [if_pos hv, dif_pos col.isLt]
    rfl
  refine (congrFun (out7_all V c) (ix2 n col)).trans ?_
  show ((xz7 V c n col - mA7 V c (ix2 n (0 : Fin 1))) - Ideal.log (lA7 V c (ix2 n (0 : Fin 1)))) + exA7 V c (ix2 n (0 : Fin 1)) = _
  rw [hx]

end Cert.KernelIdeal.Hand

end
-- ==== Proof.KernelCluster3.lean ====
/-
  Vocabulary cluster 3 (launches 6 and 7): what launch 7 leaves in its output array, row by row.

  The score row that each of the two launches computes for row r = 4·s + b from its window arrays — the hidden rows, the
  cluster's projection, its weight matrix padded with zero rows, its bias padded with zeros — is, below the cluster's
  width, the cluster's score of the token (s, b) (zrow6_score, zrow7_score). Launch 6 leaves the two halves' running
  maxima and sums of the masked tiles of that row; the host merges them and launch 7 writes, at a real column, the score
  less the merged maximum less the logarithm of the merged sum plus the head's log-probability of the cluster. That is
  the head's log-probability of the cluster plus the log-softmax of the cluster's scores at the column (out32_eq).
-/
import proofs.«124427_j55336358642036_2_alg».proof.Proof.KernelArgs
import proofs.«124427_j55336358642036_2_alg».proof.Proof.HostGlue2
import proofs.«124427_j55336358642036_2_alg».proof.Proof.Assemble
import proofs.«124427_j55336358642036_2_alg».proof.Proof.Stats6Value3
import proofs.«124427_j55336358642036_2_alg».proof.Proof.Write7Value
import proofs.«124427_j55336358642036_2_alg».proof.Proof.Sizes

set_option maxRecDepth 16384

noncomputable section

namespace Cert.KernelIdeal.Hand

open Cert.KernelIdeal.Gen Cert.KernelIdeal.GenP Cert.Sizes
open Idealize.ShloMosaic Idealize.ShloMosaic.TcCoe
open Idealize.ShloMosaic.ValueIdx
open Cert.OnlineSoftmax
open scoped BigOperators

variable (m : (ℓ : Loc nD τ sig) → Buf (Elt Ideal) ℓ)

/-- The score row launch 6 computes from its window arrays is the cluster's score below its width. -/
theorem zrow6_score (c : Dev nD) (r : Fin 512) (s : Fin 128) (b : Fin 4) (hr : r.val = 4 * s.val + b.val)
    (col : ℕ) (hc : col < validCols6) :
    zrow6 (rd (V29 m (outs m))) c r col
      = Cert.Spec.score ((kArgs m c).hidden s b) (kArgs m c).proj3 (kArgs m c).W3 (kArgs m c).b3 col := by
  have hcp : col < 2 * tilesPerHalf6 * tileWidth6 := lt_of_lt_of_le hc (by decide)
  unfold zrow6
  rw [dif_pos hcp]
  simp only [yrow6]
  refine Cert.Spec.padded_eq_score (npad := 2 * tilesPerHalf6 * tileWidth6) _ _ _ _
    (fun k => Stats6_hidA (rd (V29 m (outs m))) c (ix2 r k))
    (fun e k => Stats6_prjA (rd (V29 m (outs m))) c (ix2 e k))
    (fun j e => Stats6_wA (rd (V29 m (outs m))) c (ix2 j e))
    (fun j => Stats6_bA (rd (V29 m (outs m))) c (ix2 (0 : Fin 1) j)) ?_ ?_ ?_ ?_ hc hcp
  · intro k
    show (V29 m (outs m) c main_v1 : S512x1024.Idx → EReal) (ix2 r k) = _
    rw [V29_v1 m (outs m)]
    exact hid_eq m c r s b hr k
  · intro e k
    show (V29 m (outs m) c main_v101 : S16x1024.Idx → EReal) (ix2 e k) = _
    rw [V29_v101 m (outs m)]
    rfl
  · intro j h e
    show (V29 m (outs m) c main_v103 : S73728x16.Idx → EReal) (ix2 j e) = _
    rw [V29_v103 m (outs m)]
    unfold padRows
    rw [dif_pos h]
    rfl
  · intro j h
    show (V29 m (outs m) c main_v105 : S1x73728.Idx → EReal) (ix2 (0 : Fin 1) j) = _
    rw [V29_v105 m (outs m)]
    unfold padVec
    rw [dif_pos h]
    rfl

/-- The score row launch 7 computes from its window arrays is the cluster's score below its width. -/
theorem zrow7_score (c : Dev nD) (r : Fin 512) (s : Fin 128) (b : Fin 4) (hr : r.val = 4 * s.val + b.val)
    (col : ℕ) (hc : col < validCols7) :
    zrow7 (rd (V31 m (outs m))) c r col
      = Cert.Spec.score ((kArgs m c).hidden s b) (kArgs m c).proj3 (kArgs m c).W3 (kArgs m c).b3 col := by
  have hcp : col < 2 * tilesPerHalf7 * tileWidth7 := lt_of_lt_of_le hc (by decide)
  unfold zrow7
  rw [dif_pos hcp]
  simp only [yrow7]
  refine Cert.Spec.padded_eq_score (npad := 2 * tilesPerHalf7 * tileWidth7) _ _ _ _
    (fun k => hidA7 (rd (V31 m (outs m))) c (ix2 r k))
    (fun e k => prjA7 (rd (V31 m (outs m))) c (ix2 e k))
    (fun j e => wA7 (rd (V31 m (outs m))) c (ix2 j e))
    (fun j => bA7 (rd (V31 m (outs m))) c (ix2 (0 : Fin 1) j)) ?_ ?_ ?_ ?_ hc hcp
  · intro k
    show (V31 m (outs m) c main_v1 : S512x1024.Idx → EReal) (ix2 r k) = _
    rw [V31_v1 m (outs m)]
    exact hid_eq m c r s b hr k
  · intro e k
    show (V31 m (outs m) c main_v101 : S16x1024.Idx → EReal) (ix2 e k) = _
    rw [V31_v101 m (outs m)]
    rfl
  · intro j h e
    show (V31 m (outs m) c main_v103 : S73728x16.Idx → EReal) (ix2 j e) = _
    rw [V31_v103 m (outs m)]
    unfold padRows
    rw [dif_pos h]
    rfl
  · intro j h
    show (V31 m (outs m) c main_v105 : S1x73728.Idx → EReal) (ix2 (0 : Fin 1) j) = _
    rw [V31_v105 m (outs m)]
    unfold padVec
    rw [dif_pos h]
    rfl

/-- What launch 7 writes at row r = 4·s + b and a real column of cluster 3: the head's log-probability of the
    cluster plus the cluster's own log-softmax. -/
theorem out32_eq (c : Dev nD) (hA : Cert.Spec.ArgsReal (kArgs m c)) (r : Fin 512) (s : Fin 128) (b : Fin 4)
    (hr : r.val = 4 * s.val + b.val) (col : Fin (2 * tilesPerHalf7 * tileWidth7)) (hv : col.val < validCols7) :
    (outs m 32 main_v124 c : S512x73728.Idx → EReal) (ix2 r col)
      = xlogprob m (outs m) c r (2 : Fin 3)
        + logSoftmax 67735 (Cert.Spec.score ((kArgs m c).hidden s b) (kArgs m c).proj3 (kArgs m c).W3 (kArgs m c).b3) col.val := by
  rw [outs_32 m c, out7_valid (rd (V31 m (outs m))) c r col hv]
  have hmA : mA7 (rd (V31 m (outs m))) c (ix2 r (0 : Fin 1)) = mrgM (outs m 30 main_v106_0 c) r := by
    show (V31 m (outs m) c main_v115 : S512x1.Idx → EReal) (ix2 r (0 : Fin 1)) = _
    rw [V31_v115 m (outs m)]
  have hlA : lA7 (rd (V31 m (outs m))) c (ix2 r (0 : Fin 1))
      = mrgL (outs m 30 main_v106_0 c) (outs m 30 main_v106_1 c) r := by
    show (V31 m (outs m) c main_v122 : S512x1.Idx → EReal) (ix2 r (0 : Fin 1)) = _
    rw [V31_v122 m (outs m)]
  have hex : exA7 (rd (V31 m (outs m))) c (ix2 r (0 : Fin 1)) = xlogprob m (outs m) c r (2 : Fin 3) := by
    show (V31 m (outs m) c main_v123 : S512x1.Idx → EReal) (ix2 r (0 : Fin 1)) = _
    rw [V31_v123 m (outs m)]
  rw [hex]
  exact Cert.Spec.tail_row (T := tilesPerHalf6) (fun k => hA.hidden s b k) hA.proj3 hA.W3 hA.b3
    (zrow6 (rd (V29 m (outs m))) c r) (zrow7 (rd (V31 m (outs m))) c r)
    (fun col hc => zrow6_score m c r s b hr col hc) (fun col hc => zrow7_score m c r s b hr col hc)
    (xrow6_tiled (rd (V29 m (outs m))) c r) (by decide) (by decide)
    (fun h => (outs m 30 main_v106_0 c : S2x512x1.Idx → EReal) (ix3 h r (0 : Fin 1)))
    (fun h => (outs m 30 main_v106_1 c : S2x512x1.Idx → EReal) (ix3 h r (0 : Fin 1)))
    (fun h => by rw [outs_30_0 m c]; exact Stats6_m_parts (rd (V29 m (outs m))) c h r)
    (fun h => by rw [outs_30_1 m c]; exact Stats6_l_parts (rd (V29 m (outs m))) c h r)
    hmA hlA hv rfl

end Cert.KernelIdeal.Hand

end
-- ==== Proof.KernelValue.lean ====
/-
  The kernel program's result, entry by entry: under the precondition the [128, 4, 267735] array the program returns
  holds, at (s, b, v), the log-probability of word v for the token (s, b) as the row-by-row description of the computed
  function (Spec) states it from the program's arguments.

  The result is the four write launches' arrays, each cut to its cluster's width, side by side, read at row 4·s + b.
  A shortlist column holds the head row's log-softmax (KernelHead); a column of tail cluster q holds the head's
  log-probability of the cluster, itself the head row's log-softmax at column 20000 + q, plus the cluster's own
  log-softmax (KernelCluster1, 2, 3). By the word's range these are the four cases of the log-probability.
-/
import proofs.«124427_j55336358642036_2_alg».proof.Proof.KernelHead
import proofs.«124427_j55336358642036_2_alg».proof.Proof.KernelCluster1
import proofs.«124427_j55336358642036_2_alg».proof.Proof.KernelCluster2
import proofs.«124427_j55336358642036_2_alg».proof.Proof.KernelCluster3
import proofs.«124427_j55336358642036_2_alg».proof.Proof.HostGlue3

set_option maxRecDepth 16384

noncomputable section

namespace Cert.KernelIdeal.Hand

open Cert.KernelIdeal.Gen Cert.KernelIdeal.GenP Cert.Sizes
open Idealize.ShloMosaic Idealize.ShloMosaic.TcCoe
open Idealize.ShloMosaic.ValueIdx
open Cert.OnlineSoftmax
open scoped BigOperators

variable (m : (ℓ : Loc nD τ sig) → Buf (Elt Ideal) ℓ)

/-- The program's first result at (s, b, v) is the log-probability of word v for the token (s, b). -/
theorem kernel_out (hpre : Cert.Pre_KernelIdeal m) (c : Dev nD) (i : S128x4x267735.Idx) :
    (V35 m (outs m) c main_v127 : S128x4x267735.Idx → EReal) i
      = Cert.Spec.logProb (kArgs m c) (i 0) (i 1) (i 2).val := by
  have hA := argsReal m hpre c
  have hlt : (i 2).val < 267735 := (i 2).isLt
  rw [V35_v127 m (outs m) c i]
  unfold outFlat
  split_ifs with h0 h1 h2
  · rw [Cert.Spec.logProb_head (kArgs m c) (i 0) (i 1) h0]
    exact out8_eq m c hA _ (i 0) (i 1) rfl ⟨(i 2).val, by show (i 2).val < 20480; omega⟩ h0
  · rw [Cert.Spec.logProb_tail1 (kArgs m c) (i 0) (i 1) h0 h1]
    refine (out16_eq m c hA _ (i 0) (i 1) rfl ⟨(i 2).val - 20000, by show (i 2).val - 20000 < 20480; omega⟩
      (by show (i 2).val - 20000 < 20000; omega)).trans ?_
    rw [xlogprob_eq m c hA _ (i 0) (i 1) rfl (0 : Fin 3)]
    rfl
  · rw [Cert.Spec.logProb_tail2 (kArgs m c) (i 0) (i 1) h0 h1 h2]
    refine (out24_eq m c hA _ (i 0) (i 1) rfl ⟨(i 2).val - 40000, by show (i 2).val - 40000 < 163840; omega⟩
      (by show (i 2).val - 40000 < 160000; omega)).trans ?_
    rw [xlogprob_eq m c hA _ (i 0) (i 1) rfl (1 : Fin 3)]
    rfl
  · rw [Cert.Spec.logProb_tail3 (kArgs m c) (i 0) (i 1) h0 h1 h2]
    refine (out32_eq m c hA _ (i 0) (i 1) rfl ⟨(i 2).val - 200000, by show (i 2).val - 200000 < 73728; omega⟩
      (by show (i 2).val - 200000 < 67735; omega)).trans ?_
    rw [xlogprob_eq m c hA _ (i 0) (i 1) rfl (2 : Fin 3)]
    rfl

end Cert.KernelIdeal.Hand

end
-- ==== Proof.RefValue.lean ====
/-
  THE REFERENCE AT THE IDEAL VALUES. The reference computes, for every token (s, b), the adaptive log-softmax of
  `reference.py`: per cluster k the logits z_k[v] = Σ_e (Σ_j hidden[s, b, j] · proj_k[e, j]) · W_k[v, e] + b_k[v] (the
  head cluster's weights and bias being `W_0`, `b_0` followed by the three rows of `cluster_weight`, `cluster_bias`), the
  printed log-softmax (z[v] − M) − log Σ exp (z[v] − M) with M the row's maximum, and the out row: the head's first 20000
  entries, then for the tail cluster i the head's entry 20000 + i − 1 plus the tail's log-softmax. This module reads the
  reference's stages at an index — one operation at a time, through the generated per-operation lemmas — and shows that
  the out array is the specification's `Cert.Spec.logProb` of the argument arrays (`ref_out_apply`), that the loss is ONE
  function `lossOf` of the out array and the target array (`ref_loss`), and the reference's frame (`frame_ri`).
-/
import proofs.«124427_j55336358642036_2_alg».proof.Defs
import proofs.«124427_j55336358642036_2_alg».proof.Proof.Gen.ReferenceIdeal
import proofs.«124427_j55336358642036_2_alg».proof.Proof.Gen.Pre_finite_inputs
import proofs.«124427_j55336358642036_2_alg».proof.Proof.RefRunP
import proofs.«124427_j55336358642036_2_alg».proof.Proof.RefReadP
import proofs.«124427_j55336358642036_2_alg».proof.Proof.RefLossDef
import proofs.«124427_j55336358642036_2_alg».proof.Proof.Spec
import proofs.«124427_j55336358642036_2_alg».proof.Proof.LibLogSoftmaxRows
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx Cert.OnlineSoftmax
open scoped BigOperators

/-! ## The reference's float arguments as the specification's record -/

/-- The fifteen float arguments, read at plain coordinates. -/
def argsOf (x0 : (⟨S128x4x1024, .f32⟩ : BufTy).Contents (Elt Ideal)) (x2 : (⟨S3x1024, .f32⟩ : BufTy).Contents (Elt Ideal)) (x3 : (⟨S3, .f32⟩ : BufTy).Contents (Elt Ideal)) (x4 : (⟨S1024x1024, .f32⟩ : BufTy).Contents (Elt Ideal))
  (x5 : (⟨S256x1024, .f32⟩ : BufTy).Contents (Elt Ideal)) (x6 : (⟨S64x1024, .f32⟩ : BufTy).Contents (Elt Ideal)) (x7 : (⟨S16x1024, .f32⟩ : BufTy).Contents (Elt Ideal)) (x8 : (⟨S20000x1024, .f32⟩ : BufTy).Contents (Elt Ideal))
  (x9 : (⟨S20000x256, .f32⟩ : BufTy).Contents (Elt Ideal)) (x10 : (⟨S160000x64, .f32⟩ : BufTy).Contents (Elt Ideal)) (x11 : (⟨S67735x16, .f32⟩ : BufTy).Contents (Elt Ideal)) (x12 x13 : (⟨S20000, .f32⟩ : BufTy).Contents (Elt Ideal))
  (x14 : (⟨S160000, .f32⟩ : BufTy).Contents (Elt Ideal)) (x15 : (⟨S67735, .f32⟩ : BufTy).Contents (Elt Ideal)) : Cert.Spec.Args where
  hidden := fun s b k => x0 (ix3 s b k)
  clusterW := fun q e => x2 (ix2 q e)
  clusterB := fun q => x3 (ix1 q)
  proj0 := fun e j => x4 (ix2 e j)
  proj1 := fun e j => x5 (ix2 e j)
  proj2 := fun e j => x6 (ix2 e j)
  proj3 := fun e j => x7 (ix2 e j)
  W0 := fun v e => x8 (ix2 v e)
  W1 := fun v e => x9 (ix2 v e)
  W2 := fun v e => x10 (ix2 v e)
  W3 := fun v e => x11 (ix2 v e)
  b0 := fun v => x12 (ix1 v)
  b1 := fun v => x13 (ix1 v)
  b2 := fun v => x14 (ix1 v)
  b3 := fun v => x15 (ix1 v)

/-- The same record of a launch memory's argument buffers. -/
def refArgs (m : (ℓ : Loc nD τ sig) → Buf (Elt Ideal) ℓ) (c : Dev nD) : Cert.Spec.Args :=
  argsOf (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))
    (m ((c.tc : Thread nD τ).loc main_arg10)) (m ((c.tc : Thread nD τ).loc main_arg11)) (m ((c.tc : Thread nD τ).loc main_arg12))
    (m ((c.tc : Thread nD τ).loc main_arg13)) (m ((c.tc : Thread nD τ).loc main_arg14)) (m ((c.tc : Thread nD τ).loc main_arg15))

/-! ## Small facts used throughout -/

/-- Two rank-3 (rank-2, rank-1) indices with the same coordinates are equal: every index equation below is of this kind. -/
local macro "idx_rfl3" : tactic =>
  `(tactic| exact funext fun a => Fin.ext (by match a with | ⟨0, _⟩ => rfl | ⟨1, _⟩ => rfl | ⟨2, _⟩ => rfl))
local macro "idx_rfl2" : tactic =>
  `(tactic| exact funext fun a => Fin.ext (by match a with | ⟨0, _⟩ => rfl | ⟨1, _⟩ => rfl))
local macro "idx_rfl1" : tactic =>
  `(tactic| exact funext fun a => Fin.ext (by match a with | ⟨0, _⟩ => rfl))

/-- The word of `-∞`, the maximum's initial value, is `⊥` on the extended reals. -/
theorem negInf_eq_bot : FloatOps.ofBits (F := Ideal) .f32 0xFF800000#32 = (⊥ : EReal) := by
  show Ideal.ofBits .f32 0xFF800000#32 = ⊥
  simp [Ideal.ofBits, Ideal.ieee]

/-- The zero word, the sum's initial value, is `0`. -/
theorem zero_eq_zero : FloatOps.ofBits (F := Ideal) .f32 0x00000000#32 = (0 : EReal) := Ideal.ofBits_zero_f32

theorem red0 : S128x4x20003.Reduces [2] S128x4 := by decide
theorem red1 : S128x4x20000.Reduces [2] S128x4 := by decide
theorem red2 : S128x4x160000.Reduces [2] S128x4 := by decide
theorem red3 : S128x4x67735.Reduces [2] S128x4 := by decide

variable (x0 : (⟨S128x4x1024, .f32⟩ : BufTy).Contents (Elt Ideal)) (x2 : (⟨S3x1024, .f32⟩ : BufTy).Contents (Elt Ideal)) (x3 : (⟨S3, .f32⟩ : BufTy).Contents (Elt Ideal)) (x4 : (⟨S1024x1024, .f32⟩ : BufTy).Contents (Elt Ideal))
  (x5 : (⟨S256x1024, .f32⟩ : BufTy).Contents (Elt Ideal)) (x6 : (⟨S64x1024, .f32⟩ : BufTy).Contents (Elt Ideal)) (x7 : (⟨S16x1024, .f32⟩ : BufTy).Contents (Elt Ideal)) (x8 : (⟨S20000x1024, .f32⟩ : BufTy).Contents (Elt Ideal))
  (x9 : (⟨S20000x256, .f32⟩ : BufTy).Contents (Elt Ideal)) (x10 : (⟨S160000x64, .f32⟩ : BufTy).Contents (Elt Ideal)) (x11 : (⟨S67735x16, .f32⟩ : BufTy).Contents (Elt Ideal)) (x12 x13 : (⟨S20000, .f32⟩ : BufTy).Contents (Elt Ideal))
  (x14 : (⟨S160000, .f32⟩ : BufTy).Contents (Elt Ideal)) (x15 : (⟨S67735, .f32⟩ : BufTy).Contents (Elt Ideal))

/-! ## The head cluster: 20003 columns, `W_0`, `b_0` followed by the cluster rows -/

/-- The joined head weights at a shortlist row are `W_0`'s. -/
theorem headW_lt (v : Fin 20003) (e : Fin 1024) (h : v.val < 20000) :
    val_main_v0 (F := Ideal) x2 x8 (ix2 v e) = x8 (ix2 ⟨v.val, h⟩ e) := by
  unfold val_main_v0
  exact concatenate_pair_apply_left (t := S20003x1024) (s₁ := S20000x1024) (s₂ := S3x1024) 0 x8 x2
    concatenates_S20000x1024_S3x1024_S20003x1024_d0 (ix2 v e) rfl (ix2 ⟨v.val, h⟩ e)
    (fun a => match a with | ⟨0, _⟩ => rfl | ⟨1, _⟩ => rfl)

/-- The joined head weights past the shortlist are `cluster_weight`'s rows. -/
theorem headW_ge (v : Fin 20003) (e : Fin 1024) (h : ¬ v.val < 20000) :
    val_main_v0 (F := Ideal) x2 x8 (ix2 v e) = x2 (ix2 ⟨v.val - 20000, by have := v.isLt; omega⟩ e) := by
  unfold val_main_v0
  exact concatenate_pair_apply_right (t := S20003x1024) (s₁ := S20000x1024) (s₂ := S3x1024) 0 x8 x2
    concatenates_S20000x1024_S3x1024_S20003x1024_d0 (ix2 v e) rfl rfl (ix2 ⟨v.val - 20000, by have := v.isLt; omega⟩ e)
    (fun a ha => match a, ha with | ⟨0, _⟩, ha => absurd rfl ha | ⟨1, _⟩, _ => rfl)
    (by show v.val - 20000 + 20000 = v.val; omega)

/-- The joined head bias at a shortlist column is `b_0`'s. -/
theorem headB_lt (v : Fin 20003) (h : v.val < 20000) :
    val_main_v1 (F := Ideal) x3 x12 (ix1 v) = x12 (ix1 ⟨v.val, h⟩) := by
  unfold val_main_v1
  exact concatenate_pair_apply_left (t := S20003) (s₁ := S20000) (s₂ := S3) 0 x12 x3
    concatenates_S20000_S3_S20003_d0 (ix1 v) rfl (ix1 ⟨v.val, h⟩)
    (fun a => match a with | ⟨0, _⟩ => rfl)

/-- The joined head bias past the shortlist is `cluster_bias`'s. -/
theorem headB_ge (v : Fin 20003) (h : ¬ v.val < 20000) :
    val_main_v1 (F := Ideal) x3 x12 (ix1 v) = x3 (ix1 ⟨v.val - 20000, by have := v.isLt; omega⟩) := by
  unfold val_main_v1
  exact concatenate_pair_apply_right (t := S20003) (s₁ := S20000) (s₂ := S3) 0 x12 x3
    concatenates_S20000_S3_S20003_d0 (ix1 v) rfl rfl (ix1 ⟨v.val - 20000, by have := v.isLt; omega⟩)
    (fun a ha => match a, ha with | ⟨0, _⟩, ha => absurd rfl ha)
    (by show v.val - 20000 + 20000 = v.val; omega)

/-- A head logit as the double sum over the projection and the embedding axes. -/
theorem head_logit_sum (s : Fin 128) (b : Fin 4) (v : Fin 20003) :
    val_main_v6 (F := Ideal) x0 x2 x3 x4 x8 x12 (ix3 s b v)
      = (∑ e : Fin 1024, (∑ j : Fin 1024, x0 (ix3 s b j) * x4 (ix2 e j)) * val_main_v0 (F := Ideal) x2 x8 (ix2 v e))
        + val_main_v1 (F := Ideal) x3 x12 (ix1 v) := by
  have e1 : ∀ e : Fin 1024, lidx_main_v3 (ix3 s b v) e = ix3 s b e := fun e => by idx_rfl3
  have e2 : ∀ e : Fin 1024, ridx_main_v3 (ix3 s b v) e = ix2 v e := fun e => by idx_rfl2
  have e3 : ∀ e j : Fin 1024, lidx_main_v2 (ix3 s b e) j = ix3 s b j := fun e j => by idx_rfl3
  have e4 : ∀ e j : Fin 1024, ridx_main_v2 (ix3 s b e) j = ix2 e j := fun e j => by idx_rfl2
  have e5 : idx_main_v4 (idx_main_v5 (ix3 s b v)) = ix1 v := by idx_rfl1
  rw [val_main_v6_apply, val_main_v3_apply, val_main_v5_apply, val_main_v4_apply, e5]
  simp only [e1, e2, val_main_v2_apply, e3, e4]
  rfl

/-- A head logit is the specification's head row at that column. -/
theorem head_logit (s : Fin 128) (b : Fin 4) (v : Fin 20003) :
    val_main_v6 (F := Ideal) x0 x2 x3 x4 x8 x12 (ix3 s b v) = Cert.Spec.headRow (argsOf x0 x2 x3 x4 x5 x6 x7 x8 x9 x10 x11 x12 x13 x14 x15) ((argsOf x0 x2 x3 x4 x5 x6 x7 x8 x9 x10 x11 x12 x13 x14 x15).hidden s b) v.val := by
  rw [head_logit_sum]
  unfold Cert.Spec.headRow
  by_cases h : v.val < 20000
  · rw [if_pos h]
    unfold Cert.Spec.score
    rw [dif_pos h, headB_lt x3 x12 v h]
    simp only [headW_lt x2 x8 v _ h]
    rfl
  · have h3 : v.val - 20000 < 3 := by have := v.isLt; omega
    rw [if_neg h, dif_pos h3, headB_ge x3 x12 v h]
    unfold Cert.Spec.clusterScore
    simp only [headW_ge x2 x8 v _ h]
    rfl

/-- The head row's maximum, as the reference computes it (a fold of `max` from `-∞`, then `max` with `-∞`). -/
theorem head_max (s : Fin 128) (b : Fin 4) :
    val_main_call0_v2 (F := Ideal) x0 x2 x3 x4 x8 x12 (ix2 s b)
      = Finset.univ.sup fun k : Fin 20003 => (val_main_v6 (F := Ideal) x0 x2 x3 x4 x8 x12 (ix3 s b k) : EReal) := by
  rw [val_main_call0_v2_apply, val_main_call0_v1_apply, val_main_call0_cst_0_apply]
  unfold val_main_call0_v0
  rw [Host.reduce_eq_fold_single FloatOps.maximumf _ _ reducesTo_S128x4x20003_S128x4_d2 red0 h_S_ (ix2 s b),
    val_main_call0_cst_apply, negInf_eq_bot]
  have hf : (val_main_v6 (F := Ideal) x0 x2 x3 x4 x8 x12 ∘ Shape.Reduces.lift red0 (ix2 s b))
      = fun k : Fin 20003 => val_main_v6 (F := Ideal) x0 x2 x3 x4 x8 x12 (ix3 s b k) :=
    funext fun k => congrArg (val_main_v6 (F := Ideal) x0 x2 x3 x4 x8 x12) (by idx_rfl3)
  rw [hf]
  exact max_bot_left _

/-- The head row's normaliser. -/
theorem head_sum (s : Fin 128) (b : Fin 4) :
    val_main_call0_v7 (F := Ideal) x0 x2 x3 x4 x8 x12 (ix2 s b)
      = ∑ k : Fin 20003, Ideal.exp (val_main_v6 (F := Ideal) x0 x2 x3 x4 x8 x12 (ix3 s b k)
          - Finset.univ.sup fun k : Fin 20003 => (val_main_v6 (F := Ideal) x0 x2 x3 x4 x8 x12 (ix3 s b k) : EReal)) := by
  rw [val_main_call0_v7_apply, val_main_call0_cst_1_apply, zero_eq_zero, zero_add]
  refine Finset.sum_congr rfl fun k _ => ?_
  have e1 : idx_main_call0_v7 (ix2 s b) k = ix3 s b k := by idx_rfl3
  have e2 : idx_main_call0_v3 (idx_main_call0_v4 (ix3 s b k)) = ix2 s b := by idx_rfl2
  rw [e1, val_main_call0_v6_apply, val_main_call0_v5_apply, val_main_call0_v4_apply, val_main_call0_v3_apply, e2, head_max]
  rfl

/-- The head's printed `log_softmax` at a column: the row's log-softmax. -/
theorem head_lsm (s : Fin 128) (b : Fin 4) (v : Fin 20003) :
    val_main_v7 (F := Ideal) x0 x2 x3 x4 x8 x12 (ix3 s b v)
      = logSoftmax 20003 (Cert.Spec.headRow (argsOf x0 x2 x3 x4 x5 x6 x7 x8 x9 x10 x11 x12 x13 x14 x15) ((argsOf x0 x2 x3 x4 x5 x6 x7 x8 x9 x10 x11 x12 x13 x14 x15).hidden s b)) v.val := by
  have e2 : idx_main_call0_v3 (idx_main_call0_v4 (ix3 s b v)) = ix2 s b := by idx_rfl2
  have e3 : idx_main_call0_v8 (idx_main_call0_v10 (ix3 s b v)) = ix2 s b := by idx_rfl2
  rw [val_main_v7_apply, val_main_call0_v5_apply, val_main_call0_v4_apply, val_main_call0_v3_apply, e2,
    val_main_call0_v10_apply, val_main_call0_v9_apply, val_main_call0_v8_apply, e3, head_max, head_sum]
  simp only [head_logit x0 x2 x3 x4 x5 x6 x7 x8 x9 x10 x11 x12 x13 x14 x15, Ideal.subf_def, Ideal.hostUnary_log_def]
  rw [logSoftmax_eq_fin]

/-- The head piece of the out array: the head's log-softmax at a shortlist column. -/
theorem piece0 (s : Fin 128) (b : Fin 4) (u : Fin 20000) :
    val_main_v8 (F := Ideal) x0 x2 x3 x4 x8 x12 (ix3 s b u) = logSoftmax 20003 (Cert.Spec.headRow (argsOf x0 x2 x3 x4 x5 x6 x7 x8 x9 x10 x11 x12 x13 x14 x15) ((argsOf x0 x2 x3 x4 x5 x6 x7 x8 x9 x10 x11 x12 x13 x14 x15).hidden s b)) u.val := by
  have e : idx_main_v8 (ix3 s b u) = ix3 s b (⟨u.val, by have := u.isLt; omega⟩ : Fin 20003) := by idx_rfl3
  rw [val_main_v8_apply, e, head_lsm]

/-- The head's log-probability of the first tail cluster (column 20000), spread along that cluster's columns. -/
theorem headAt1 (s : Fin 128) (b : Fin 4) (u : Fin 20000) :
    val_main_v18 (F := Ideal) x0 x2 x3 x4 x8 x12 (ix3 s b u) = logSoftmax 20003 (Cert.Spec.headRow (argsOf x0 x2 x3 x4 x5 x6 x7 x8 x9 x10 x11 x12 x13 x14 x15) ((argsOf x0 x2 x3 x4 x5 x6 x7 x8 x9 x10 x11 x12 x13 x14 x15).hidden s b)) 20000 := by
  have e : idx_main_v15 (idx_main_v16 (idx_main_v17 (idx_main_v18 (ix3 s b u)))) = ix3 s b (⟨20000, by decide⟩ : Fin 20003) :=
    funext fun a => Fin.ext (by
      match a with
      | ⟨0, _⟩ => show (s.val * 4 + b.val) / 4 = s.val; have := b.isLt; omega
      | ⟨1, _⟩ => show (s.val * 4 + b.val) / 1 % 4 = b.val; have := b.isLt; omega
      | ⟨2, _⟩ => rfl)
  rw [val_main_v18_apply, val_main_v17_apply, val_main_v16_apply, val_main_v15_apply, e, head_lsm]

/-- The head's log-probability of the second tail cluster (column 20001), spread along that cluster's columns. -/
theorem headAt2 (s : Fin 128) (b : Fin 4) (u : Fin 160000) :
    val_main_v29 (F := Ideal) x0 x2 x3 x4 x8 x12 (ix3 s b u) = logSoftmax 20003 (Cert.Spec.headRow (argsOf x0 x2 x3 x4 x5 x6 x7 x8 x9 x10 x11 x12 x13 x14 x15) ((argsOf x0 x2 x3 x4 x5 x6 x7 x8 x9 x10 x11 x12 x13 x14 x15).hidden s b)) 20001 := by
  have e : idx_main_v26 (idx_main_v27 (idx_main_v28 (idx_main_v29 (ix3 s b u)))) = ix3 s b (⟨20001, by decide⟩ : Fin 20003) :=
    funext fun a => Fin.ext (by
      match a with
      | ⟨0, _⟩ => show (s.val * 4 + b.val) / 4 = s.val; have := b.isLt; omega
      | ⟨1, _⟩ => show (s.val * 4 + b.val) / 1 % 4 = b.val; have := b.isLt; omega
      | ⟨2, _⟩ => rfl)
  rw [val_main_v29_apply, val_main_v28_apply, val_main_v27_apply, val_main_v26_apply, e, head_lsm]

/-- The head's log-probability of the third tail cluster (column 20002), spread along that cluster's columns. -/
theorem headAt3 (s : Fin 128) (b : Fin 4) (u : Fin 67735) :
    val_main_v40 (F := Ideal) x0 x2 x3 x4 x8 x12 (ix3 s b u) = logSoftmax 20003 (Cert.Spec.headRow (argsOf x0 x2 x3 x4 x5 x6 x7 x8 x9 x10 x11 x12 x13 x14 x15) ((argsOf x0 x2 x3 x4 x5 x6 x7 x8 x9 x10 x11 x12 x13 x14 x15).hidden s b)) 20002 := by
  have e : idx_main_v37 (idx_main_v38 (idx_main_v39 (idx_main_v40 (ix3 s b u)))) = ix3 s b (⟨20002, by decide⟩ : Fin 20003) :=
    funext fun a => Fin.ext (by
      match a with
      | ⟨0, _⟩ => show (s.val * 4 + b.val) / 4 = s.val; have := b.isLt; omega
      | ⟨1, _⟩ => show (s.val * 4 + b.val) / 1 % 4 = b.val; have := b.isLt; omega
      | ⟨2, _⟩ => rfl)
  rw [val_main_v40_apply, val_main_v39_apply, val_main_v38_apply, val_main_v37_apply, e, head_lsm]

/-! ## The first tail cluster: 20000 columns, embedding width 256 -/

/-- A logit of the first tail cluster is the specification's score. -/
theorem c1_logit (s : Fin 128) (b : Fin 4) (u : Fin 20000) :
    val_main_v13 (F := Ideal) x0 x5 x9 x13 (ix3 s b u)
      = Cert.Spec.score ((argsOf x0 x2 x3 x4 x5 x6 x7 x8 x9 x10 x11 x12 x13 x14 x15).hidden s b) (argsOf x0 x2 x3 x4 x5 x6 x7 x8 x9 x10 x11 x12 x13 x14 x15).proj1 (argsOf x0 x2 x3 x4 x5 x6 x7 x8 x9 x10 x11 x12 x13 x14 x15).W1 (argsOf x0 x2 x3 x4 x5 x6 x7 x8 x9 x10 x11 x12 x13 x14 x15).b1 u.val := by
  have e1 : ∀ e : Fin 256, lidx_main_v10 (ix3 s b u) e = ix3 s b e := fun e => by idx_rfl3
  have e2 : ∀ e : Fin 256, ridx_main_v10 (ix3 s b u) e = ix2 u e := fun e => by idx_rfl2
  have e3 : ∀ (e : Fin 256) (j : Fin 1024), lidx_main_v9 (ix3 s b e) j = ix3 s b j := fun e j => by idx_rfl3
  have e4 : ∀ (e : Fin 256) (j : Fin 1024), ridx_main_v9 (ix3 s b e) j = ix2 e j := fun e j => by idx_rfl2
  have e5 : idx_main_v11 (idx_main_v12 (ix3 s b u)) = ix1 u := by idx_rfl1
  rw [val_main_v13_apply, val_main_v10_apply, val_main_v12_apply, val_main_v11_apply, e5]
  simp only [e1, e2, val_main_v9_apply, e3, e4]
  unfold Cert.Spec.score
  rw [dif_pos u.isLt]
  rfl

/-- The cluster row's maximum. -/
theorem c1_max (s : Fin 128) (b : Fin 4) :
    val_main_call1_v2 (F := Ideal) x0 x5 x9 x13 (ix2 s b)
      = Finset.univ.sup fun k : Fin 20000 => (val_main_v13 (F := Ideal) x0 x5 x9 x13 (ix3 s b k) : EReal) := by
  rw [val_main_call1_v2_apply, val_main_call1_v1_apply, val_main_call1_cst_0_apply]
  unfold val_main_call1_v0
  rw [Host.reduce_eq_fold_single FloatOps.maximumf _ _ reducesTo_S128x4x20000_S128x4_d2 red1 h_S_ (ix2 s b),
    val_main_call1_cst_apply, negInf_eq_bot]
  have hf : (val_main_v13 (F := Ideal) x0 x5 x9 x13 ∘ Shape.Reduces.lift red1 (ix2 s b))
      = fun k : Fin 20000 => val_main_v13 (F := Ideal) x0 x5 x9 x13 (ix3 s b k) :=
    funext fun k => congrArg (val_main_v13 (F := Ideal) x0 x5 x9 x13) (by idx_rfl3)
  rw [hf]
  exact max_bot_left _

/-- The cluster row's normaliser. -/
theorem c1_sum (s : Fin 128) (b : Fin 4) :
    val_main_call1_v7 (F := Ideal) x0 x5 x9 x13 (ix2 s b)
      = ∑ k : Fin 20000, Ideal.exp (val_main_v13 (F := Ideal) x0 x5 x9 x13 (ix3 s b k)
          - Finset.univ.sup fun k : Fin 20000 => (val_main_v13 (F := Ideal) x0 x5 x9 x13 (ix3 s b k) : EReal)) := by
  rw [val_main_call1_v7_apply, val_main_call1_cst_1_apply, zero_eq_zero, zero_add]
  refine Finset.sum_congr rfl fun k _ => ?_
  have e1 : idx_main_call1_v7 (ix2 s b) k = ix3 s b k := by idx_rfl3
  have e2 : idx_main_call1_v3 (idx_main_call1_v4 (ix3 s b k)) = ix2 s b := by idx_rfl2
  rw [e1, val_main_call1_v6_apply, val_main_call1_v5_apply, val_main_call1_v4_apply, val_main_call1_v3_apply, e2, c1_max]
  rfl

/-- The cluster's printed `log_softmax` at a column: the row's log-softmax. -/
theorem c1_lsm (s : Fin 128) (b : Fin 4) (u : Fin 20000) :
    val_main_v14 (F := Ideal) x0 x5 x9 x13 (ix3 s b u)
      = logSoftmax 20000 (Cert.Spec.score ((argsOf x0 x2 x3 x4 x5 x6 x7 x8 x9 x10 x11 x12 x13 x14 x15).hidden s b) (argsOf x0 x2 x3 x4 x5 x6 x7 x8 x9 x10 x11 x12 x13 x14 x15).proj1 (argsOf x0 x2 x3 x4 x5 x6 x7 x8 x9 x10 x11 x12 x13 x14 x15).W1 (argsOf x0 x2 x3 x4 x5 x6 x7 x8 x9 x10 x11 x12 x13 x14 x15).b1) u.val := by
  have e2 : idx_main_call1_v3 (idx_main_call1_v4 (ix3 s b u)) = ix2 s b := by idx_rfl2
  have e3 : idx_main_call1_v8 (idx_main_call1_v10 (ix3 s b u)) = ix2 s b := by idx_rfl2
  rw [val_main_v14_apply, val_main_call1_v5_apply, val_main_call1_v4_apply, val_main_call1_v3_apply, e2,
    val_main_call1_v10_apply, val_main_call1_v9_apply, val_main_call1_v8_apply, e3, c1_max, c1_sum]
  simp only [c1_logit x0 x2 x3 x4 x5 x6 x7 x8 x9 x10 x11 x12 x13 x14 x15, Ideal.subf_def, Ideal.hostUnary_log_def]
  rw [logSoftmax_eq_fin]

/-- The second piece of the out array. -/
theorem piece1 (s : Fin 128) (b : Fin 4) (u : Fin 20000) :
    val_main_v19 (F := Ideal) x0 x2 x3 x4 x5 x8 x9 x12 x13 (ix3 s b u)
      = logSoftmax 20003 (Cert.Spec.headRow (argsOf x0 x2 x3 x4 x5 x6 x7 x8 x9 x10 x11 x12 x13 x14 x15) ((argsOf x0 x2 x3 x4 x5 x6 x7 x8 x9 x10 x11 x12 x13 x14 x15).hidden s b)) 20000
        + logSoftmax 20000 (Cert.Spec.score ((argsOf x0 x2 x3 x4 x5 x6 x7 x8 x9 x10 x11 x12 x13 x14 x15).hidden s b) (argsOf x0 x2 x3 x4 x5 x6 x7 x8 x9 x10 x11 x12 x13 x14 x15).proj1 (argsOf x0 x2 x3 x4 x5 x6 x7 x8 x9 x10 x11 x12 x13 x14 x15).W1 (argsOf x0 x2 x3 x4 x5 x6 x7 x8 x9 x10 x11 x12 x13 x14 x15).b1) u.val := by
  rw [val_main_v19_apply, headAt1, c1_lsm]
  rfl

/-! ## The second tail cluster: 160000 columns, embedding width 64 -/

/-- A logit of the second tail cluster is the specification's score. -/
theorem c2_logit (s : Fin 128) (b : Fin 4) (u : Fin 160000) :
    val_main_v24 (F := Ideal) x0 x6 x10 x14 (ix3 s b u)
      = Cert.Spec.score ((argsOf x0 x2 x3 x4 x5 x6 x7 x8 x9 x10 x11 x12 x13 x14 x15).hidden s b) (argsOf x0 x2 x3 x4 x5 x6 x7 x8 x9 x10 x11 x12 x13 x14 x15).proj2 (argsOf x0 x2 x3 x4 x5 x6 x7 x8 x9 x10 x11 x12 x13 x14 x15).W2 (argsOf x0 x2 x3 x4 x5 x6 x7 x8 x9 x10 x11 x12 x13 x14 x15).b2 u.val := by
  have e1 : ∀ e : Fin 64, lidx_main_v21 (ix3 s b u) e = ix3 s b e := fun e => by idx_rfl3
  have e2 : ∀ e : Fin 64, ridx_main_v21 (ix3 s b u) e = ix2 u e := fun e => by idx_rfl2
  have e3 : ∀ (e : Fin 64) (j : Fin 1024), lidx_main_v20 (ix3 s b e) j = ix3 s b j := fun e j => by idx_rfl3
  have e4 : ∀ (e : Fin 64) (j : Fin 1024), ridx_main_v20 (ix3 s b e) j = ix2 e j := fun e j => by idx_rfl2
  have e5 : idx_main_v22 (idx_main_v23 (ix3 s b u)) = ix1 u := by idx_rfl1
  rw [val_main_v24_apply, val_main_v21_apply, val_main_v23_apply, val_main_v22_apply, e5]
  simp only [e1, e2, val_main_v20_apply, e3, e4]
  unfold Cert.Spec.score
  rw [dif_pos u.isLt]
  rfl

/-- The cluster row's maximum. -/
theorem c2_max (s : Fin 128) (b : Fin 4) :
    val_main_call2_v2 (F := Ideal) x0 x6 x10 x14 (ix2 s b)
      = Finset.univ.sup fun k : Fin 160000 => (val_main_v24 (F := Ideal) x0 x6 x10 x14 (ix3 s b k) : EReal) := by
  rw [val_main_call2_v2_apply, val_main_call2_v1_apply, val_main_call2_cst_0_apply]
  unfold val_main_call2_v0
  rw [Host.reduce_eq_fold_single FloatOps.maximumf _ _ reducesTo_S128x4x160000_S128x4_d2 red2 h_S_ (ix2 s b),
    val_main_call2_cst_apply, negInf_eq_bot]
  have hf : (val_main_v24 (F := Ideal) x0 x6 x10 x14 ∘ Shape.Reduces.lift red2 (ix2 s b))
      = fun k : Fin 160000 => val_main_v24 (F := Ideal) x0 x6 x10 x14 (ix3 s b k) :=
    funext fun k => congrArg (val_main_v24 (F := Ideal) x0 x6 x10 x14) (by idx_rfl3)
  rw [hf]
  exact max_bot_left _

/-- The cluster row's normaliser. -/
theorem c2_sum (s : Fin 128) (b : Fin 4) :
    val_main_call2_v7 (F := Ideal) x0 x6 x10 x14 (ix2 s b)
      = ∑ k : Fin 160000, Ideal.exp (val_main_v24 (F := Ideal) x0 x6 x10 x14 (ix3 s b k)
          - Finset.univ.sup fun k : Fin 160000 => (val_main_v24 (F := Ideal) x0 x6 x10 x14 (ix3 s b k) : EReal)) := by
  rw [val_main_call2_v7_apply, val_main_call2_cst_1_apply, zero_eq_zero, zero_add]
  refine Finset.sum_congr rfl fun k _ => ?_
  have e1 : idx_main_call2_v7 (ix2 s b) k = ix3 s b k := by idx_rfl3
  have e2 : idx_main_call2_v3 (idx_main_call2_v4 (ix3 s b k)) = ix2 s b := by idx_rfl2
  rw [e1, val_main_call2_v6_apply, val_main_call2_v5_apply, val_main_call2_v4_apply, val_main_call2_v3_apply, e2, c2_max]
  rfl

/-- The cluster's printed `log_softmax` at a column: the row's log-softmax. -/
theorem c2_lsm (s : Fin 128) (b : Fin 4) (u : Fin 160000) :
    val_main_v25 (F := Ideal) x0 x6 x10 x14 (ix3 s b u)
      = logSoftmax 160000 (Cert.Spec.score ((argsOf x0 x2 x3 x4 x5 x6 x7 x8 x9 x10 x11 x12 x13 x14 x15).hidden s b) (argsOf x0 x2 x3 x4 x5 x6 x7 x8 x9 x10 x11 x12 x13 x14 x15).proj2 (argsOf x0 x2 x3 x4 x5 x6 x7 x8 x9 x10 x11 x12 x13 x14 x15).W2 (argsOf x0 x2 x3 x4 x5 x6 x7 x8 x9 x10 x11 x12 x13 x14 x15).b2) u.val := by
  have e2 : idx_main_call2_v3 (idx_main_call2_v4 (ix3 s b u)) = ix2 s b := by idx_rfl2
  have e3 : idx_main_call2_v8 (idx_main_call2_v10 (ix3 s b u)) = ix2 s b := by idx_rfl2
  rw [val_main_v25_apply, val_main_call2_v5_apply, val_main_call2_v4_apply, val_main_call2_v3_apply, e2,
    val_main_call2_v10_apply, val_main_call2_v9_apply, val_main_call2_v8_apply, e3, c2_max, c2_sum]
  simp only [c2_logit x0 x2 x3 x4 x5 x6 x7 x8 x9 x10 x11 x12 x13 x14 x15, Ideal.subf_def, Ideal.hostUnary_log_def]
  rw [logSoftmax_eq_fin]

/-- The third piece of the out array. -/
theorem piece2 (s : Fin 128) (b : Fin 4) (u : Fin 160000) :
    val_main_v30 (F := Ideal) x0 x2 x3 x4 x6 x8 x10 x12 x14 (ix3 s b u)
      = logSoftmax 20003 (Cert.Spec.headRow (argsOf x0 x2 x3 x4 x5 x6 x7 x8 x9 x10 x11 x12 x13 x14 x15) ((argsOf x0 x2 x3 x4 x5 x6 x7 x8 x9 x10 x11 x12 x13 x14 x15).hidden s b)) 20001
        + logSoftmax 160000 (Cert.Spec.score ((argsOf x0 x2 x3 x4 x5 x6 x7 x8 x9 x10 x11 x12 x13 x14 x15).hidden s b) (argsOf x0 x2 x3 x4 x5 x6 x7 x8 x9 x10 x11 x12 x13 x14 x15).proj2 (argsOf x0 x2 x3 x4 x5 x6 x7 x8 x9 x10 x11 x12 x13 x14 x15).W2 (argsOf x0 x2 x3 x4 x5 x6 x7 x8 x9 x10 x11 x12 x13 x14 x15).b2) u.val := by
  rw [val_main_v30_apply, headAt2, c2_lsm]
  rfl

/-! ## The third tail cluster: 67735 columns, embedding width 16 -/

/-- A logit of the third tail cluster is the specification's score. -/
theorem c3_logit (s : Fin 128) (b : Fin 4) (u : Fin 67735) :
    val_main_v35 (F := Ideal) x0 x7 x11 x15 (ix3 s b u)
      = Cert.Spec.score ((argsOf x0 x2 x3 x4 x5 x6 x7 x8 x9 x10 x11 x12 x13 x14 x15).hidden s b) (argsOf x0 x2 x3 x4 x5 x6 x7 x8 x9 x10 x11 x12 x13 x14 x15).proj3 (argsOf x0 x2 x3 x4 x5 x6 x7 x8 x9 x10 x11 x12 x13 x14 x15).W3 (argsOf x0 x2 x3 x4 x5 x6 x7 x8 x9 x10 x11 x12 x13 x14 x15).b3 u.val := by
  have e1 : ∀ e : Fin 16, lidx_main_v32 (ix3 s b u) e = ix3 s b e := fun e => by idx_rfl3
  have e2 : ∀ e : Fin 16, ridx_main_v32 (ix3 s b u) e = ix2 u e := fun e => by idx_rfl2
  have e3 : ∀ (e : Fin 16) (j : Fin 1024), lidx_main_v31 (ix3 s b e) j = ix3 s b j := fun e j => by idx_rfl3
  have e4 : ∀ (e : Fin 16) (j : Fin 1024), ridx_main_v31 (ix3 s b e) j = ix2 e j := fun e j => by idx_rfl2
  have e5 : idx_main_v33 (idx_main_v34 (ix3 s b u)) = ix1 u := by idx_rfl1
  rw [val_main_v35_apply, val_main_v32_apply, val_main_v34_apply, val_main_v33_apply, e5]
  simp only [e1, e2, val_main_v31_apply, e3, e4]
  unfold Cert.Spec.score
  rw [dif_pos u.isLt]
  rfl

/-- The cluster row's maximum. -/
theorem c3_max (s : Fin 128) (b : Fin 4) :
    val_main_call3_v2 (F := Ideal) x0 x7 x11 x15 (ix2 s b)
      = Finset.univ.sup fun k : Fin 67735 => (val_main_v35 (F := Ideal) x0 x7 x11 x15 (ix3 s b k) : EReal) := by
  rw [val_main_call3_v2_apply, val_main_call3_v1_apply, val_main_call3_cst_0_apply]
  unfold val_main_call3_v0
  rw [Host.reduce_eq_fold_single FloatOps.maximumf _ _ reducesTo_S128x4x67735_S128x4_d2 red3 h_S_ (ix2 s b),
    val_main_call3_cst_apply, negInf_eq_bot]
  have hf : (val_main_v35 (F := Ideal) x0 x7 x11 x15 ∘ Shape.Reduces.lift red3 (ix2 s b))
      = fun k : Fin 67735 => val_main_v35 (F := Ideal) x0 x7 x11 x15 (ix3 s b k) :=
    funext fun k => congrArg (val_main_v35 (F := Ideal) x0 x7 x11 x15) (by idx_rfl3)
  rw [hf]
  exact max_bot_left _

/-- The cluster row's normaliser. -/
theorem c3_sum (s : Fin 128) (b : Fin 4) :
    val_main_call3_v7 (F := Ideal) x0 x7 x11 x15 (ix2 s b)
      = ∑ k : Fin 67735, Ideal.exp (val_main_v35 (F := Ideal) x0 x7 x11 x15 (ix3 s b k)
          - Finset.univ.sup fun k : Fin 67735 => (val_main_v35 (F := Ideal) x0 x7 x11 x15 (ix3 s b k) : EReal)) := by
  rw [val_main_call3_v7_apply, val_main_call3_cst_1_apply, zero_eq_zero, zero_add]
  refine Finset.sum_congr rfl fun k _ => ?_
  have e1 : idx_main_call3_v7 (ix2 s b) k = ix3 s b k := by idx_rfl3
  have e2 : idx_main_call3_v3 (idx_main_call3_v4 (ix3 s b k)) = ix2 s b := by idx_rfl2
  rw [e1, val_main_call3_v6_apply, val_main_call3_v5_apply, val_main_call3_v4_apply, val_main_call3_v3_apply, e2, c3_max]
  rfl

/-- The cluster's printed `log_softmax` at a column: the row's log-softmax. -/
theorem c3_lsm (s : Fin 128) (b : Fin 4) (u : Fin 67735) :
    val_main_v36 (F := Ideal) x0 x7 x11 x15 (ix3 s b u)
      = logSoftmax 67735 (Cert.Spec.score ((argsOf x0 x2 x3 x4 x5 x6 x7 x8 x9 x10 x11 x12 x13 x14 x15).hidden s b) (argsOf x0 x2 x3 x4 x5 x6 x7 x8 x9 x10 x11 x12 x13 x14 x15).proj3 (argsOf x0 x2 x3 x4 x5 x6 x7 x8 x9 x10 x11 x12 x13 x14 x15).W3 (argsOf x0 x2 x3 x4 x5 x6 x7 x8 x9 x10 x11 x12 x13 x14 x15).b3) u.val := by
  have e2 : idx_main_call3_v3 (idx_main_call3_v4 (ix3 s b u)) = ix2 s b := by idx_rfl2
  have e3 : idx_main_call3_v8 (idx_main_call3_v10 (ix3 s b u)) = ix2 s b := by idx_rfl2
  rw [val_main_v36_apply, val_main_call3_v5_apply, val_main_call3_v4_apply, val_main_call3_v3_apply, e2,
    val_main_call3_v10_apply, val_main_call3_v9_apply, val_main_call3_v8_apply, e3, c3_max, c3_sum]
  simp only [c3_logit x0 x2 x3 x4 x5 x6 x7 x8 x9 x10 x11 x12 x13 x14 x15, Ideal.subf_def, Ideal.hostUnary_log_def]
  rw [logSoftmax_eq_fin]

/-- The fourth piece of the out array. -/
theorem piece3 (s : Fin 128) (b : Fin 4) (u : Fin 67735) :
    val_main_v41 (F := Ideal) x0 x2 x3 x4 x7 x8 x11 x12 x15 (ix3 s b u)
      = logSoftmax 20003 (Cert.Spec.headRow (argsOf x0 x2 x3 x4 x5 x6 x7 x8 x9 x10 x11 x12 x13 x14 x15) ((argsOf x0 x2 x3 x4 x5 x6 x7 x8 x9 x10 x11 x12 x13 x14 x15).hidden s b)) 20002
        + logSoftmax 67735 (Cert.Spec.score ((argsOf x0 x2 x3 x4 x5 x6 x7 x8 x9 x10 x11 x12 x13 x14 x15).hidden s b) (argsOf x0 x2 x3 x4 x5 x6 x7 x8 x9 x10 x11 x12 x13 x14 x15).proj3 (argsOf x0 x2 x3 x4 x5 x6 x7 x8 x9 x10 x11 x12 x13 x14 x15).W3 (argsOf x0 x2 x3 x4 x5 x6 x7 x8 x9 x10 x11 x12 x13 x14 x15).b3) u.val := by
  rw [val_main_v41_apply, headAt3, c3_lsm]
  rfl

/-! ## The out array, entry by entry -/

/-- The out array at `(s, b, v)` is the specification's log-probability of word `v`: the piece of the concatenate that
    holds column `v` (pieces of 20000, 20000, 160000 and 67735 columns), read where the piece's lemma above says. -/
theorem out_apply (s : Fin 128) (b : Fin 4) (v : Fin 267735) :
    val_main_v42 (F := Ideal) x0 x2 x3 x4 x5 x6 x7 x8 x9 x10 x11 x12 x13 x14 x15 (ix3 s b v) = Cert.Spec.logProb (argsOf x0 x2 x3 x4 x5 x6 x7 x8 x9 x10 x11 x12 x13 x14 x15) s b v.val := by
  unfold val_main_v42 Cert.Spec.logProb
  by_cases h0 : v.val < 20000
  · rw [if_pos h0]
    exact (concatenate_apply_piece (t := S128x4x267735) 2 [⟨S128x4x20000, val_main_v8 (F := Ideal) x0 x2 x3 x4 x8 x12⟩, ⟨S128x4x20000, val_main_v19 (F := Ideal) x0 x2 x3 x4 x5 x8 x9 x12 x13⟩, ⟨S128x4x160000, val_main_v30 (F := Ideal) x0 x2 x3 x4 x6 x8 x10 x12 x14⟩, ⟨S128x4x67735, val_main_v41 (F := Ideal) x0 x2 x3 x4 x7 x8 x11 x12 x15⟩] concatenates_S128x4x20000_S128x4x20000_S128x4x160000_S128x4x67735_S128x4x267735_d2 (ix3 s b v) 0 (by simp) S128x4x20000 _ rfl rfl 0 rfl
      (ix3 s b (⟨v.val, h0⟩ : Fin 20000)) (fun a ha => match a, ha with | ⟨0, _⟩, _ => rfl | ⟨1, _⟩, _ => rfl | ⟨2, _⟩, ha => absurd rfl ha)
      (by show 0 + v.val = v.val; omega)).trans (piece0 x0 x2 x3 x4 x5 x6 x7 x8 x9 x10 x11 x12 x13 x14 x15 s b ⟨v.val, h0⟩)
  · rw [if_neg h0]
    by_cases h1 : v.val < 40000
    · rw [if_pos h1]
      exact (concatenate_apply_piece (t := S128x4x267735) 2 [⟨S128x4x20000, val_main_v8 (F := Ideal) x0 x2 x3 x4 x8 x12⟩, ⟨S128x4x20000, val_main_v19 (F := Ideal) x0 x2 x3 x4 x5 x8 x9 x12 x13⟩, ⟨S128x4x160000, val_main_v30 (F := Ideal) x0 x2 x3 x4 x6 x8 x10 x12 x14⟩, ⟨S128x4x67735, val_main_v41 (F := Ideal) x0 x2 x3 x4 x7 x8 x11 x12 x15⟩] concatenates_S128x4x20000_S128x4x20000_S128x4x160000_S128x4x67735_S128x4x267735_d2 (ix3 s b v) 1 (by simp) S128x4x20000 _ rfl rfl 20000
        (by show (20000 : ℕ) + 0 = 20000; rfl)
        (ix3 s b (⟨v.val - 20000, by omega⟩ : Fin 20000)) (fun a ha => match a, ha with | ⟨0, _⟩, _ => rfl | ⟨1, _⟩, _ => rfl | ⟨2, _⟩, ha => absurd rfl ha)
        (by show 20000 + (v.val - 20000) = v.val; omega)).trans (piece1 x0 x2 x3 x4 x5 x6 x7 x8 x9 x10 x11 x12 x13 x14 x15 s b ⟨v.val - 20000, by omega⟩)
    · rw [if_neg h1]
      by_cases h2 : v.val < 200000
      · rw [if_pos h2]
        exact (concatenate_apply_piece (t := S128x4x267735) 2 [⟨S128x4x20000, val_main_v8 (F := Ideal) x0 x2 x3 x4 x8 x12⟩, ⟨S128x4x20000, val_main_v19 (F := Ideal) x0 x2 x3 x4 x5 x8 x9 x12 x13⟩, ⟨S128x4x160000, val_main_v30 (F := Ideal) x0 x2 x3 x4 x6 x8 x10 x12 x14⟩, ⟨S128x4x67735, val_main_v41 (F := Ideal) x0 x2 x3 x4 x7 x8 x11 x12 x15⟩] concatenates_S128x4x20000_S128x4x20000_S128x4x160000_S128x4x67735_S128x4x267735_d2 (ix3 s b v) 2 (by simp) S128x4x160000 _ rfl rfl 40000
          (by show (20000 : ℕ) + (20000 + 0) = 40000; rfl)
          (ix3 s b (⟨v.val - 40000, by omega⟩ : Fin 160000)) (fun a ha => match a, ha with | ⟨0, _⟩, _ => rfl | ⟨1, _⟩, _ => rfl | ⟨2, _⟩, ha => absurd rfl ha)
          (by show 40000 + (v.val - 40000) = v.val; omega)).trans (piece2 x0 x2 x3 x4 x5 x6 x7 x8 x9 x10 x11 x12 x13 x14 x15 s b ⟨v.val - 40000, by omega⟩)
      · rw [if_neg h2]
        have hv := v.isLt
        exact (concatenate_apply_piece (t := S128x4x267735) 2 [⟨S128x4x20000, val_main_v8 (F := Ideal) x0 x2 x3 x4 x8 x12⟩, ⟨S128x4x20000, val_main_v19 (F := Ideal) x0 x2 x3 x4 x5 x8 x9 x12 x13⟩, ⟨S128x4x160000, val_main_v30 (F := Ideal) x0 x2 x3 x4 x6 x8 x10 x12 x14⟩, ⟨S128x4x67735, val_main_v41 (F := Ideal) x0 x2 x3 x4 x7 x8 x11 x12 x15⟩] concatenates_S128x4x20000_S128x4x20000_S128x4x160000_S128x4x67735_S128x4x267735_d2 (ix3 s b v) 3 (by simp) S128x4x67735 _ rfl rfl 200000
          (by show (20000 : ℕ) + (20000 + (160000 + 0)) = 200000; rfl)
          (ix3 s b (⟨v.val - 200000, by omega⟩ : Fin 67735)) (fun a ha => match a, ha with | ⟨0, _⟩, _ => rfl | ⟨1, _⟩, _ => rfl | ⟨2, _⟩, ha => absurd rfl ha)
          (by show 200000 + (v.val - 200000) = v.val; omega)).trans (piece3 x0 x2 x3 x4 x5 x6 x7 x8 x9 x10 x11 x12 x13 x14 x15 s b ⟨v.val - 200000, by omega⟩)

/-- The loss stage is `lossOf` of the out stage and the target array: the same operations in the same order. -/
theorem val_loss (x1 : (⟨S128x4, .i32⟩ : BufTy).Contents (Elt Ideal)) :
    val_main_v48 (F := Ideal) x0 x1 x2 x3 x4 x5 x6 x7 x8 x9 x10 x11 x12 x13 x14 x15
      = lossOf (val_main_v42 (F := Ideal) x0 x2 x3 x4 x5 x6 x7 x8 x9 x10 x11 x12 x13 x14 x15) x1 := rfl

/-! ## The three deliverables over a launch memory -/

/-- (1) The reference's first result, the `[128, 4, 267735]` array, holds the specification's log-probabilities of the
    argument arrays. -/
theorem ref_out_apply (m : (ℓ : Loc nD τ sig) → Buf (Elt Ideal) ℓ) (c : Dev nD) (i : S128x4x267735.Idx) :
    (Cert.ReferenceIdeal.ValueP.res_out0 (F := Ideal) m c : (⟨S128x4x267735, .f32⟩ : BufTy).Contents (Elt Ideal)) i
      = Cert.Spec.logProb (refArgs m c) (i 0) (i 1) (i 2).val := by
  obtain ⟨s, b, v, rfl⟩ : ∃ (s : Fin 128) (b : Fin 4) (v : Fin 267735), i = ix3 s b v := ⟨i 0, i 1, i 2, eq_ix3 i⟩
  exact (congrFun (val_main_v42_eq (F := Ideal) m c) (ix3 s b v)).trans (out_apply _ _ _ _ _ _ _ _ _ _ _ _ _ _ _ s b v)

/-- (2) The reference's second result is `lossOf` of its first result and the target array (`val_loss`, read through the
    two results' stage forms). -/
theorem ref_loss (m : (ℓ : Loc nD τ sig) → Buf (Elt Ideal) ℓ) (c : Dev nD) :
    Cert.ReferenceIdeal.ValueP.res_out1 (F := Ideal) m c
      = lossOf (Cert.ReferenceIdeal.ValueP.res_out0 (F := Ideal) m c) (m ((c.tc : Thread nD τ).loc main_arg1)) := by
  show Cert.ReferenceIdeal.ValueP.res_main_v48 (F := Ideal) m c
    = lossOf (Cert.ReferenceIdeal.ValueP.res_main_v42 (F := Ideal) m c) (m ((c.tc : Thread nD τ).loc main_arg1))
  rw [val_main_v48_eq (F := Ideal) m c, val_main_v42_eq (F := Ideal) m c]
  exact val_loss _ _ _ _ _ _ _ _ _ _ _ _ _ _ _ _

/-- (3) The reference's frame: its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The reference's run with both results stated by the specification: the out array is `Cert.Spec.logProb` of the
    arguments, the loss `lossOf` of that array and the target. -/
theorem ref_run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v42) = (fun i : S128x4x267735.Idx => Cert.Spec.logProb (refArgs m c) (i 0) (i 1) (i 2).val)
      ∧ r.2.mem ((c.tc : Thread nD τ).loc main_v48) = lossOf (fun i : S128x4x267735.Idx => Cert.Spec.logProb (refArgs m c) (i 0) (i 1) (i 2).val) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) := by
  refine (θ_run Cert.ReferenceIdeal.defs _ _).mono (fun _ h c => ?_) (Cert.ReferenceIdeal.ValueP.run (F := Ideal) m ρ)
  have e : Cert.ReferenceIdeal.ValueP.res_out0 (F := Ideal) m c = (fun i : S128x4x267735.Idx => Cert.Spec.logProb (refArgs m c) (i 0) (i 1) (i 2).val) := funext fun i => ref_out_apply m c i
  exact ⟨(h c).1.trans e, (h c).2.1.trans ((ref_loss m c).trans (by rw [e])), (h c).2.2⟩

end Cert.ReferenceIdeal.RefValue

end
-- ==== Proof.AlgebraicFinal.lean ====
/-
  The last conjunct and the reference's frame. The kernel program's first result is the specification's array entry by
  entry (KernelValue); the reference's run states both its results at the specification of its own arguments' record
  (RefValue); the two records are the same literal of argument arrays that agree. So `Cert.Proof.algebraic_of` applies
  with nothing further to read.
-/
import proofs.«124427_j55336358642036_2_alg».proof.Proof.Algebraic
import proofs.«124427_j55336358642036_2_alg».proof.Proof.KernelValue
import proofs.«124427_j55336358642036_2_alg».proof.Proof.RefValue

set_option maxRecDepth 8192

noncomputable section

namespace Cert.Proof
open Idealize.ShloMosaic Idealize.ShloMosaic.TcCoe Idealize.SL.Sem
open Cert.KernelIdeal.Hand (kArgs kernel_out)
open Cert.ReferenceIdeal.RefValue (refArgs lossOf ref_run)

/-- Memories that agree on the arguments give the two programs the same specification arguments: the two records are
    the same literal of the argument arrays, which agree. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) (h : ArgsAgree m m' c) :
    kArgs m c = refArgs m' c := by
  obtain ⟨h0, h1, h2, h3, h4, h5, h6, h7, h8, h9, h10, h11, h12, h13, h14, h15⟩ := h
  unfold Cert.ReferenceIdeal.RefValue.refArgs
  rw [h0, h2, h3, h4, h5, h6, h7, h8, h9, h10, h11, h12, h13, h14, h15]
  rfl

/-- The last conjunct: the reference's run already states both results at the specification, so the two terms it
    leaves are the specification's array and its loss, and nothing further is read. -/
theorem algebraic : Cert.algebraic_KernelIdeal_ReferenceIdeal :=
  algebraic_of (fun m hpre c i => kernel_out m hpre c i) refArgs args_eq
    (fun m' c => fun i : Cert.ReferenceIdeal.S128x4x267735.Idx => Cert.Spec.logProb (refArgs m' c) (i 0) (i 1) (i 2).val)
    (fun m' c => lossOf (fun i : Cert.ReferenceIdeal.S128x4x267735.Idx => Cert.Spec.logProb (refArgs m' c) (i 0) (i 1) (i 2).val)
      (m' ((c.tc : Thread Cert.ReferenceIdeal.nD Cert.ReferenceIdeal.τ).loc Cert.ReferenceIdeal.main_arg1)))
    (fun m' ρ' => ref_run m' ρ') (fun _ _ _ => rfl) (fun _ _ => rfl)

/-- The reference's frame. -/
theorem frame_ri : Cert.frame_ReferenceIdeal := Cert.ReferenceIdeal.RefValue.frame_ri

end Cert.Proof

end
-- ==== Proof.lean ====
/-
  An adaptive softmax over a vocabulary of 267735 words in four clusters (a shortlist of 20000 words and three tails of
  20000, 160000 and 67735 words, the tails embedded in 256, 64 and 16 dimensions), for 512 tokens. Per cluster the kernel
  makes two passes over the cluster's padded vocabulary, each as a grid of two halves by a number of column tiles:
  a statistics pass that keeps, per token, a running maximum m and a running sum l of exp (logit - m) over the columns
  seen so far in the half, and a write pass that writes logit - m - log l (plus the tail's cluster log-probability). Between
  the passes the two halves' statistics are merged (m = max m0 m1, l = l0 * exp (m0 - m) + l1 * exp (m1 - m)), and for the
  shortlist the three cluster logits are folded in as one further tile. Padded columns are masked to a sentinel that the
  idealized kernel reads as minus infinity, so at the ideal instance a masked column is the identity of the maximum and
  contributes exp (-inf) = 0 to the sum.

  The reference takes, per cluster, the log-softmax of the cluster's whole row of logits (the shortlist row extended by the
  three cluster logits), adds the cluster's log-probability to each tail row, concatenates, gathers each token's target
  entry and averages the negated values.

  The two agree on the extended reals because (i) the running update is exact: rescaling a sum of exp (x - m) by
  exp (m - m') gives the sum of exp (x - m') whenever the shifts are real, so after every tile (m, l) is the maximum and the
  shifted sum of the real columns seen so far, and merging two halves, or folding a further finite family in, gives the
  same pair for the union; (ii) every logit is real under the precondition (finite sums of products of reals), and every
  half's first tile holds a real column, so the maximum is real from the first tile on; (iii) with m the row's maximum and
  l its shifted sum, logit - m - log l is literally the reference's shifted form of the log-softmax; (iv) the two loss tails
  are the same gather, negation and average, the kernel's over rows 4 s + b of the flattened array.

  The word-level kernel and the idealized kernel run to the end without a fault and leave their arguments unchanged: each
  of the eight launches is run point by point (the first point of a half fills the projected activations and resets the
  statistics; every point updates them, or writes its block), and the launches are chained through the host operations
  between them. The reference is a host program and its run is read off its operations.
-/
import proofs.«124427_j55336358642036_2_alg».proof.Defs
import proofs.«124427_j55336358642036_2_alg».proof.Proof.Gen.Kernel
import proofs.«124427_j55336358642036_2_alg».proof.Proof.Gen.KernelIdeal
import proofs.«124427_j55336358642036_2_alg».proof.Proof.Gen.ReferenceIdeal
import proofs.«124427_j55336358642036_2_alg».proof.Proof.Gen.Pre_finite_inputs
import proofs.«124427_j55336358642036_2_alg».proof.Proof.Preserves
import proofs.«124427_j55336358642036_2_alg».proof.Proof.BitsAssembleRun
import proofs.«124427_j55336358642036_2_alg».proof.Proof.AssembleRun
import proofs.«124427_j55336358642036_2_alg».proof.Proof.AlgebraicFinal
import Idealize.ShloMosaic.Adequacy
import Idealize.ShloMosaic.Init

noncomputable section

namespace Cert.Proof

open Idealize.ShloMosaic Idealize.SL.Sem

/-- The five claims: the three programs run to the end, fault nowhere and keep their arguments; the idealized kernel
    differs from the kernel by the named sentinel only; and the idealized kernel's two results are the reference's. -/
theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    Cert.Proof.frame_ri,
    Cert.Proof.preserves,
    Cert.Proof.algebraic⟩

end Cert.Proof

end
